-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S5x128x128 : Shape := ⟨3, ![5, 128, 128]⟩
abbrev S5x128 : Shape := ⟨2, ![5, 128]⟩
abbrev S2x600000 : Shape := ⟨2, ![2, 600000]⟩
abbrev S50000 : Shape := ⟨1, ![50000]⟩
abbrev S256 : Shape := ⟨1, ![256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_

variable [Facts]

def fn_part2 {F : FTy → Type} [FloatOps F] (main_arg7 : FVec F S5x128 .f32) (main_v33 : IVec S_ 1) : IVec S_ 1 :=
  let main_v34 : FVec F S5x128 .f32 := Host.absf main_arg7
  let main_cst_12 : FVec F S_ .f32 := constant S_ .f32 0x7F800000#32
  let main_v35 : FVec F S5x128 .f32 := broadcastInDim S5x128 ![] bcast_S_S5x128 main_cst_12
  let main_v36 : IVec S5x128 1 := cmpf .olt main_v34 main_v35
  let main_c_13 : IVec S_ 1 := constantI S_ 1 1#1
  let main_v37 : IVec S_ 1 := (fun x v => Host.reduce IntOp.andi x v reducesTo_S5x128_S_d0_1 h_S_) main_v36 main_c_13
  let main_v38 : IVec S_ 1 := andi main_v33 main_v37
  main_v38

def fn_part1 {F : FTy → Type} [FloatOps F] (main_arg4 : FVec F S5x128x128 .f32) (main_arg5 : FVec F S5x128 .f32) (main_arg6 : FVec F S5x128 .f32) (main_arg7 : FVec F S5x128 .f32) (main_v13 : IVec S_ 1) (main_v16 : IVec S5x128 1) : IVec S_ 1 :=
  let main_c_5 : IVec S_ 1 := constantI S_ 1 1#1
  let main_v17 : IVec S_ 1 := (fun x v => Host.reduce IntOp.andi x v reducesTo_S5x128_S_d0_1 h_S_) main_v16 main_c_5
  let main_v18 : IVec S_ 1 := andi main_v13 main_v17
  let main_v19 : FVec F S5x128x128 .f32 := Host.absf main_arg4
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S5x128 .f32 := Host.absf main_arg5
  let main_cst_8 : FVec F S_ .f32 := constant S_ .f32 0x7F800000#32
  let main_v25 : FVec F S5x128 .f32 := broadcastInDim S5x128 ![] bcast_S_S5x128 main_cst_8
  let main_v26 : IVec S5x128 1 := cmpf .olt main_v24 main_v25
  let main_c_9 : IVec S_ 1 := constantI S_ 1 1#1
  let main_v27 : IVec S_ 1 := (fun x v => Host.reduce IntOp.andi x v reducesTo_S5x128_S_d0_1 h_S_) main_v26 main_c_9
  let main_v28 : IVec S_ 1 := andi main_v23 main_v27
  let main_v29 : FVec F S5x128 .f32 := Host.absf main_arg6
  let main_cst_10 : FVec F S_ .f32 := constant S_ .f32 0x7F800000#32
  let main_v30 : FVec F S5x128 .f32 := broadcastInDim S5x128 ![] bcast_S_S5x128 main_cst_10
  let main_v31 : IVec S5x128 1 := cmpf .olt main_v29 main_v30
  let main_c_11 : IVec S_ 1 := constantI S_ 1 1#1
  let main_v32 : IVec S_ 1 := (fun x v => Host.reduce IntOp.andi x v reducesTo_S5x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S600000 .f32) (main_arg2 : FVec F S5x128x128 .f32) (main_arg3 : FVec F S5x128 .f32) (main_arg4 : FVec F S5x128x128 .f32) (main_arg5 : FVec F S5x128 .f32) (main_arg6 : FVec F S5x128 .f32) (main_arg7 : FVec F S5x128 .f32) (main_arg8 : IVec S2x600000 32) (main_arg9 : IVec S50000 32) (main_arg10 : IVec S256 32) (main_arg11 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg1
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S5x128x128 .f32 := Host.absf main_arg2
  let main_cst_2 : FVec F S_ .f32 := constant S_ .f32 0x7F800000#32
  let main_v10 : FVec F S5x128x128 .f32 := broadcastInDim S5x128x128 ![] bcast_S_S5x128x128 main_cst_2
  let main_v11 : IVec S5x128x128 1 := cmpf .olt main_v9 main_v10
  let main_c_3 : IVec S_ 1 := constantI S_ 1 1#1
  let main_v12 : IVec S_ 1 := (fun x v => Host.reduce IntOp.andi x v reducesTo_S5x128x128_S_d0_1_2 h_S_) main_v11 main_c_3
  let main_v13 : IVec S_ 1 := andi main_v8 main_v12
  let main_v14 : FVec F S5x128 .f32 := Host.absf main_arg3
  let main_cst_4 : FVec F S_ .f32 := constant S_ .f32 0x7F800000#32
  let main_v15 : FVec F S5x128 .f32 := broadcastInDim S5x128 ![] bcast_S_S5x128 main_cst_4
  let main_v16 : IVec S5x128 1 := cmpf .olt main_v14 main_v15
  fn_part1 (F := F) main_arg4 main_arg5 main_arg6 main_arg7 main_v13 main_v16
-- ==== Kernel.lean ====
abbrev S50000x128 : Shape := ⟨2, ![50000, 128]⟩
abbrev S600000 : Shape := ⟨1, ![600000]⟩
abbrev S5x128x128 : Shape := ⟨3, ![5, 128, 128]⟩
abbrev S5x128 : Shape := ⟨2, ![5, 128]⟩
abbrev S2x600000 : Shape := ⟨2, ![2, 600000]⟩
abbrev S50000 : Shape := ⟨1, ![50000]⟩
abbrev S256 : Shape := ⟨1, ![256]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1 : Shape := ⟨1, ![1]⟩
abbrev S257 : Shape := ⟨1, ![257]⟩
abbrev S50000x1 : Shape := ⟨2, ![50000, 1]⟩
abbrev S2560x128 : Shape := ⟨2, ![2560, 128]⟩
abbrev S2560 : Shape := ⟨1, ![2560]⟩
abbrev S2560x1 : Shape := ⟨2, ![2560, 1]⟩

abbrev nBuf : Space → Nat
  | .hbm => 228
  | .vmem => 110
  | .smem => 0
  | _ => 0

abbrev hbmTy0_0 (i : Nat) : BufTy := match i % 128 with
  | 0 => ⟨S50000x128, .f32⟩
  | 1 => ⟨S600000, .f32⟩
  | 2 => ⟨S5x128x128, .f32⟩
  | 3 => ⟨S5x128, .f32⟩
  | 4 => ⟨S5x128x128, .f32⟩
  | 5 => ⟨S5x128, .f32⟩
  | 6 => ⟨S5x128, .f32⟩
  | 7 => ⟨S5x128, .f32⟩
  | 8 => ⟨S2x600000, .i32⟩
  | 9 => ⟨S50000, .i32⟩
  | 10 => ⟨S256, .i32⟩
  | 11 => ⟨S50000, .i32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S600000x1, .f32⟩
  | 26 => ⟨S600000x128, .f32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S1x128x128, .f32⟩
  | 37 => ⟨S128x128, .f32⟩
  | 38 => ⟨S1x128, .f32⟩
  | 39 => ⟨S128, .f32⟩
  | 40 => ⟨S1x128, .f32⟩
  | 41 => ⟨S1x128, .f32⟩
  | 42 => ⟨S50000x128, .f32⟩
  | 43 => ⟨S1x128, .f32⟩
  | 44 => ⟨S1x128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S1x128, .f32⟩
  | 51 => ⟨S50000x128, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S600000x1, .f32⟩
  | 62 => ⟨S600000x128, .f32⟩
  | 63 => ⟨S600000x128, .f32⟩
  | 64 => ⟨S_, .f32⟩
  | 65 => ⟨S50000x128, .f32⟩
  | 66 => ⟨S600000x1, .i32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S1x128, .f32⟩
  | 78 => ⟨S50000x128, .f32⟩
  | 79 => ⟨S1x128, .f32⟩
  | 80 => ⟨S1x128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S1x128, .f32⟩
  | 87 => ⟨S50000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x128, .f32⟩
  | 97 => ⟨S600000x1, .f32⟩
  | 98 => ⟨S600000x128, .f32⟩
  | 99 => ⟨S600000x128, .f32⟩
  | 100 => ⟨S_, .f32⟩
  | 101 => ⟨S50000x128, .f32⟩
  | 102 => ⟨S600000x1, .i32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S1x128x128, .f32⟩
  | 109 => ⟨S128x128, .f32⟩
  | 110 => ⟨S1x128, .f32⟩
  | 111 => ⟨S128, .f32⟩
  | 112 => ⟨S1x128, .f32⟩
  | 113 => ⟨S1x128, .f32⟩
  | 114 => ⟨S50000x128, .f32⟩
  | 115 => ⟨S1x128, .f32⟩
  | 116 => ⟨S1x128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S50000x128, .f32⟩
  | 124 => ⟨S_, .i32⟩
  | 125 => ⟨S600000, .i32⟩
  | 126 => ⟨S600000, .i1⟩
  | 127 => ⟨S_, .i32⟩
  | _ => ⟨S50000x128, .f32⟩

abbrev hbmTy0_1 (i : Nat) : BufTy := match i % 128 with
  | 0 => ⟨S600000, .i32⟩
  | 1 => ⟨S600000, .i32⟩
  | 2 => ⟨S600000, .i32⟩
  | 3 => ⟨S600000x1, .i32⟩
  | 4 => ⟨S600000x128, .f32⟩
  | 5 => ⟨S600000x1, .f32⟩
  | 6 => ⟨S600000x128, .f32⟩
  | 7 => ⟨S600000x128, .f32⟩
  | 8 => ⟨S_, .f32⟩
  | 9 => ⟨S50000x128, .f32⟩
  | 10 => ⟨S600000x1, .i32⟩
  | 11 => ⟨S50000x128, .f32⟩
  | 12 => ⟨S1x128x128, .f32⟩
  | 13 => ⟨S128x128, .f32⟩
  | 14 => ⟨S1x128, .f32⟩
  | 15 => ⟨S128, .f32⟩
  | 16 => ⟨S1x128x128, .f32⟩
  | 17 => ⟨S128x128, .f32⟩
  | 18 => ⟨S1x128, .f32⟩
  | 19 => ⟨S128, .f32⟩
  | 20 => ⟨S1x128, .f32⟩
  | 21 => ⟨S1x128, .f32⟩
  | 22 => ⟨S50000x128, .f32⟩
  | 23 => ⟨S1x128, .f32⟩
  | 24 => ⟨S1x128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S1x128, .f32⟩
  | 31 => ⟨S50000x128, .f32⟩
  | 32 => ⟨S_, .i32⟩
  | 33 => ⟨S600000, .i32⟩
  | 34 => ⟨S600000, .i1⟩
  | 35 => ⟨S_, .i32⟩
  | 36 => ⟨S600000, .i32⟩
  | 37 => ⟨S600000, .i32⟩
  | 38 => ⟨S600000, .i32⟩
  | 39 => ⟨S600000x1, .i32⟩
  | 40 => ⟨S600000x128, .f32⟩
  | 41 => ⟨S600000x1, .f32⟩
  | 42 => ⟨S600000x128, .f32⟩
  | 43 => ⟨S600000x128, .f32⟩
  | 44 => ⟨S_, .f32⟩
  | 45 => ⟨S50000x128, .f32⟩
  | 46 => ⟨S600000x1, .i32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S1x128, .f32⟩
  | 58 => ⟨S50000x128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S128, .f32⟩
  | 65 => ⟨S1x128, .f32⟩
  | 66 => ⟨S1x128, .f32⟩
  | 67 => ⟨S50000x128, .f32⟩
  | 68 => ⟨S_, .i32⟩
  | 69 => ⟨S1, .i32⟩
  | 70 => ⟨S_, .i32⟩
  | 71 => ⟨S_, .i32⟩
  | 72 => ⟨S256, .i32⟩
  | 73 => ⟨S257, .i32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000, .i32⟩
  | 83 => ⟨S50000, .i32⟩
  | 84 => ⟨S_, .f32⟩
  | 85 => ⟨S2560x128, .f32⟩
  | 86 => ⟨S50000x1, .i32⟩
  | 87 => ⟨S2560x128, .f32⟩
  | 88 => ⟨S_, .f32⟩
  | 89 => ⟨S50000, .f32⟩
  | 90 => ⟨S_, .f32⟩
  | 91 => ⟨S2560, .f32⟩
  | 92 => ⟨S50000x1, .i32⟩
  | 93 => ⟨S2560, .f32⟩
  | 94 => ⟨S_, .f32⟩
  | 95 => ⟨S2560, .f32⟩
  | 96 => ⟨S2560, .f32⟩
  | 97 => ⟨S2560x1, .f32⟩
  | 98 => ⟨S2560x128, .f32⟩
  | 99 => ⟨S2560x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S1x128, .f32⟩
  | .local _ .vmem, ⟨80, _⟩ => ⟨S5000x128, .f32⟩
  | .local _ .vmem, ⟨81, _⟩ => ⟨S5000x128, .f32⟩
  | .local _ .vmem, ⟨82, _⟩ => ⟨S1x128, .f32⟩
  | .local _ .vmem, ⟨83, _⟩ => ⟨S1x128, .f32⟩
  | .local _ .vmem, ⟨84, _⟩ => ⟨S1x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S128x128, .f32⟩
  | .local _ .vmem, ⟨93, _⟩ => ⟨S1x128, .f32⟩
  | .local _ .vmem, ⟨94, _⟩ => ⟨S128x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S1x128, .f32⟩
  | .local _ .vmem, ⟨99, _⟩ => ⟨S1x128, .f32⟩
  | .local _ .vmem, ⟨100, _⟩ => ⟨S1x128, .f32⟩
  | .local _ .vmem, ⟨101, _⟩ => ⟨S1x128, .f32⟩
  | .local _ .vmem, ⟨102, _⟩ => ⟨S5000x128, .f32⟩
  | .local _ .vmem, ⟨103, _⟩ => ⟨S5000x128, .f32⟩
  | .local _ .vmem, ⟨104, _⟩ => ⟨S1x128, .f32⟩
  | .local _ .vmem, ⟨105, _⟩ => ⟨S1x128, .f32⟩
  | .local _ .vmem, ⟨106, _⟩ => ⟨S1x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | _, _ => false

abbrev semScoped : Fin 0 → Bool
  | ⟨_, h⟩ => absurd h (Nat.not_lt_zero _)

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  ofTc nBuf bufTy 0 100 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_1 : Ref sig .tc := ⟨.hbm, 52, rfl⟩
abbrev main_v35 : Ref sig .tc := ⟨.hbm, 53, rfl⟩
abbrev main_v36 : Ref sig .tc := ⟨.hbm, 54, rfl⟩
abbrev main_c_2 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_3 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58_0 : Ref sig .tc := ⟨.hbm, 78, rfl⟩
abbrev main_v58_1 : Ref sig .tc := ⟨.hbm, 79, rfl⟩
abbrev main_v58_2 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_4 : Ref sig .tc := ⟨.hbm, 88, rfl⟩
abbrev main_v66 : Ref sig .tc := ⟨.hbm, 89, rfl⟩
abbrev main_v67 : Ref sig .tc := ⟨.hbm, 90, rfl⟩
abbrev main_c_5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_6 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89_0 : Ref sig .tc := ⟨.hbm, 114, rfl⟩
abbrev main_v89_1 : Ref sig .tc := ⟨.hbm, 115, rfl⟩
abbrev main_v89_2 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_7 : Ref sig .tc := ⟨.hbm, 124, rfl⟩
abbrev main_v97 : Ref sig .tc := ⟨.hbm, 125, rfl⟩
abbrev main_v98 : Ref sig .tc := ⟨.hbm, 126, rfl⟩
abbrev main_c_8 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_9 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120_0 : Ref sig .tc := ⟨.hbm, 150, rfl⟩
abbrev main_v120_1 : Ref sig .tc := ⟨.hbm, 151, rfl⟩
abbrev main_v120_2 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_c_10 : Ref sig .tc := ⟨.hbm, 160, rfl⟩
abbrev main_v128 : Ref sig .tc := ⟨.hbm, 161, rfl⟩
abbrev main_v129 : Ref sig .tc := ⟨.hbm, 162, rfl⟩
abbrev main_c_11 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_12 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151_0 : Ref sig .tc := ⟨.hbm, 186, rfl⟩
abbrev main_v151_1 : Ref sig .tc := ⟨.hbm, 187, rfl⟩
abbrev main_v151_2 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_c_13 : Ref sig .tc := ⟨.hbm, 196, rfl⟩
abbrev main_v159 : Ref sig .tc := ⟨.hbm, 197, rfl⟩
abbrev main_call0_call0_c : Ref sig .tc := ⟨.hbm, 198, rfl⟩
abbrev main_call0_call0_v0 : Ref sig .tc := ⟨.hbm, 199, rfl⟩
abbrev main_v160 : Ref sig .tc := ⟨.hbm, 200, rfl⟩
abbrev main_v161 : Ref sig .tc := ⟨.hbm, 201, rfl⟩
abbrev main_c_14 : Ref sig .tc := ⟨.hbm, 202, rfl⟩
abbrev main_v162 : Ref sig .tc := ⟨.hbm, 203, rfl⟩
abbrev main_v163 : Ref sig .tc := ⟨.hbm, 204, rfl⟩
abbrev main_c_15 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_16 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_cst_17 : Ref sig .tc := ⟨.hbm, 216, rfl⟩
abbrev main_v173 : Ref sig .tc := ⟨.hbm, 217, rfl⟩
abbrev main_cst_18 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_cst_19 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg1_1 : Ref sig .tc := ⟨.vmem, 69, rfl⟩
abbrev cc6_stg2_0 : Ref sig .tc := ⟨.vmem, 70, rfl⟩
abbrev cc6_stg3_0 : Ref sig .tc := ⟨.vmem, 71, rfl⟩
abbrev cc6_stg4_0 : Ref sig .tc := ⟨.vmem, 72, rfl⟩
abbrev cc6_stg5_0 : Ref sig .tc := ⟨.vmem, 73, rfl⟩
abbrev cc6_stg6_0 : Ref sig .tc := ⟨.vmem, 74, rfl⟩
abbrev cc6_stg6_1 : Ref sig .tc := ⟨.vmem, 75, rfl⟩
abbrev cc6_stg7_0 : Ref sig .tc := ⟨.vmem, 76, rfl⟩
abbrev cc6_stg8_0 : Ref sig .tc := ⟨.vmem, 77, rfl⟩
abbrev cc6_scratch0 : Ref sig .tc := ⟨.vmem, 78, rfl⟩
abbrev cc6_scratch1 : Ref sig .tc := ⟨.vmem, 79, rfl⟩
abbrev cc7_stg0_0 : Ref sig .tc := ⟨.vmem, 80, rfl⟩
abbrev cc7_stg0_1 : Ref sig .tc := ⟨.vmem, 81, rfl⟩
abbrev cc7_stg1_0 : Ref sig .tc := ⟨.vmem, 82, rfl⟩
abbrev cc7_stg2_0 : Ref sig .tc := ⟨.vmem, 83, rfl⟩
abbrev cc7_stg3_0 : Ref sig .tc := ⟨.vmem, 84, rfl⟩
abbrev cc7_stg4_0 : Ref sig .tc := ⟨.vmem, 85, rfl⟩
abbrev cc7_stg5_0 : Ref sig .tc := ⟨.vmem, 86, rfl⟩
abbrev cc7_stg5_1 : Ref sig .tc := ⟨.vmem, 87, rfl⟩
abbrev cc8_stg0_0 : Ref sig .tc := ⟨.vmem, 88, rfl⟩
abbrev cc8_stg0_1 : Ref sig .tc := ⟨.vmem, 89, rfl⟩
abbrev cc8_stg1_0 : Ref sig .tc := ⟨.vmem, 90, rfl⟩
abbrev cc8_stg1_1 : Ref sig .tc := ⟨.vmem, 91, rfl⟩
abbrev cc8_stg2_0 : Ref sig .tc := ⟨.vmem, 92, rfl⟩
abbrev cc8_stg3_0 : Ref sig .tc := ⟨.vmem, 93, rfl⟩
abbrev cc8_stg4_0 : Ref sig .tc := ⟨.vmem, 94, rfl⟩
abbrev cc8_stg5_0 : Ref sig .tc := ⟨.vmem, 95, rfl⟩
abbrev cc8_stg6_0 : Ref sig .tc := ⟨.vmem, 96, rfl⟩
abbrev cc8_stg6_1 : Ref sig .tc := ⟨.vmem, 97, rfl⟩
abbrev cc8_stg7_0 : Ref sig .tc := ⟨.vmem, 98, rfl⟩
abbrev cc8_stg8_0 : Ref sig .tc := ⟨.vmem, 99, rfl⟩
abbrev cc8_scratch0 : Ref sig .tc := ⟨.vmem, 100, rfl⟩
abbrev cc8_scratch1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg2_0 : Ref sig .tc := ⟨.vmem, 105, rfl⟩
abbrev cc9_stg3_0 : Ref sig .tc := ⟨.vmem, 106, rfl⟩
abbrev cc9_stg4_0 : Ref sig .tc := ⟨.vmem, 107, rfl⟩
abbrev cc9_stg5_0 : Ref sig .tc := ⟨.vmem, 108, rfl⟩
abbrev cc9_stg5_1 : Ref sig .tc := ⟨.vmem, 109, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc6_sem7_0 : DmaSem sig := 70
abbrev cc6_sem8_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem5_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89
abbrev cc8_sem7_0 : DmaSem sig := 90
abbrev cc8_sem8_0 : DmaSem sig := 91
abbrev cc9_sem0_0 : DmaSem sig := 92
abbrev cc9_sem0_1 : DmaSem sig := 93
abbrev cc9_sem1_0 : DmaSem sig := 94
abbrev cc9_sem2_0 : DmaSem sig := 95
abbrev cc9_sem3_0 : DmaSem sig := 96
abbrev cc9_sem4_0 : DmaSem sig := 97
abbrev cc9_sem5_0 : DmaSem sig := 98
abbrev cc9_sem5_1 : DmaSem sig := 99

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v41 : BitVec 1 := Scalar.cmpi .eq arg0 c9_i32
  let v42 : BitVec 32 := Scalar.extui v41
  let c0_i32_25 : BitVec 32 := 0#32
  let v43 : BitVec 1 := Scalar.cmpi .ne v42 c0_i32_25
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_25 : BitVec 32 := 0#32
  let v44 : BitVec 1 := Scalar.cmpi .ne v43 c0_i32_25
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_25 : BitVec 32 := 0#32
  let v44 : BitVec 1 := Scalar.cmpi .ne v43 c0_i32_25
  v44

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_25 : BitVec 32 := 0#32
  let v44 : BitVec 1 := Scalar.cmpi .ne v43 c0_i32_25
  v44

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![10], ![false]⟩

def k8_cond2 (i : grid8.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_25 : BitVec 32 := 0#32
  let v44 : BitVec 1 := Scalar.cmpi .ne v43 c0_i32_25
  v44

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S1 : S_.BroadcastsInDim S1 (![] : Fin 0 → Fin S1.rank)
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  concatenates_S1_S256_S257_d0 : Shape.Concatenates [S1, S256] S257 0
  bcast_S_S50000 : S_.BroadcastsInDim S50000 (![] : Fin 0 → Fin S50000.rank)
  bcast_S50000_S50000x1_0 : S50000.BroadcastsInDim S50000x1 (![0] : Fin 1 → Fin S50000x1.rank)
  bcast_S_S2560x128 : S_.BroadcastsInDim S2560x128 (![] : Fin 0 → Fin S2560x128.rank)
  bcast_S_S2560 : S_.BroadcastsInDim S2560 (![] : Fin 0 → Fin S2560.rank)
  bcast_S2560_S2560x1_0 : S2560.BroadcastsInDim S2560x1 (![0] : Fin 1 → Fin S2560x1.rank)
  bcast_S2560x1_S2560x128_0_1 : S2560x1.BroadcastsInDim S2560x128 (![0, 1] : Fin 2 → Fin S2560x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S257_S50000x1_S50000_n_0_n_n_0_1_1_wf : GatherDims.WF S257 S50000x1 S50000 [] [0] [] [0] [] 1 ![1]
  scatter_S2560x128_S50000x1_S50000x128_1_0_0_1_wf : ScatterDims.WF S2560x128 S50000x1 S50000x128 [1] [0] [0] 1
  scatter_S2560_S50000x1_S50000_n_0_0_1_wf : ScatterDims.WF S2560 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S50000x128.size a
  hwx9_5 : ∀ i : grid9.Coords, EltTy.bits .f32 = 32 ∨ (Rect.block (s := S50000x128) S5000x128.size (cc9_transform_5 i) (hinb9_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S257_S50000x1_S50000_n_0_n_n_0_1_1 : GatherDims S257 S50000x1 S50000 where
  offsetDims := []
  collapsedSliceDims := [0]
  operandBatchingDims := []
  startIndicesBatchingDims := []
  startIndexMap := [0]
  indexVectorDim := 1
  sliceSizes := ![1]
  wf := gather_S257_S50000x1_S50000_n_0_n_n_0_1_1_wf
def scatter_S2560x128_S50000x1_S50000x128_1_0_0_1 : ScatterDims S2560x128 S50000x1 S50000x128 where
  updateWindowDims := [1]
  insertedWindowDims := [0]
  scatterDimsToOperandDims := [0]
  indexVectorDim := 1
  wf := scatter_S2560x128_S50000x1_S50000x128_1_0_0_1_wf
def scatter_S2560_S50000x1_S50000_n_0_0_1 : ScatterDims S2560 S50000x1 S50000 where
  updateWindowDims := []
  insertedWindowDims := [0]
  scatterDimsToOperandDims := [0]
  indexVectorDim := 1
  wf := scatter_S2560_S50000x1_S50000_n_0_0_1_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v27_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_1) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27_2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v58_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v58_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58_1) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58_2) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v87) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v88) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v89_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v89_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v89_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89_1) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89_2) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v96) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v109) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v111) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v118) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v120_0) S5000x128.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v120_1) S1x128.size cc6_transform_7 reads6_7 true true 1 stage6_7 sem6_7
    hrank6 hreads6_7 hinb6_7 nbuf6_7 (Memref.isWhole_whole _) hwx6_7 hstage6_7

abbrev win6_8 : Pipeline.Window sig grid6 :=
  Pipeline.Window.ofSpec (Memref.whole main_v120_2) S1x128.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun i => !(k6_cond2 i == 1#1) | 8 => fun i => !(k6_cond2 i == 1#1) | ⟨_ + 9, h⟩ => absurd h (Nat.not_lt.2 (Nat.le_add_left _ _))

abbrev win7_0 : Pipeline.Window sig grid7 :=
  Pipeline.Window.ofSpec (Memref.whole main_v120_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120_1) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120_2) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v125) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v140) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v127) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v142) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v146) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v150) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v151_0) S5000x128.size cc8_transform_6 reads8_6 true false 2 stage8_6 sem8_6
    hrank8 hreads8_6 hinb8_6 nbuf8_6 (Memref.isWhole_whole _) hwx8_6 hstage8_6

abbrev win8_7 : Pipeline.Window sig grid8 :=
  Pipeline.Window.ofSpec (Memref.whole main_v151_1) S1x128.size cc8_transform_7 reads8_7 true true 1 stage8_7 sem8_7
    hrank8 hreads8_7 hinb8_7 nbuf8_7 (Memref.isWhole_whole _) hwx8_7 hstage8_7

abbrev win8_8 : Pipeline.Window sig grid8 :=
  Pipeline.Window.ofSpec (Memref.whole main_v151_2) S1x128.size cc8_transform_8 reads8_8 true true 1 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev idle8 : Fin 9 → grid8.Coords → Bool := fun | 0 => fun _ => false | 1 => fun _ => false | 2 => fun _ => false | 3 => fun _ => false | 4 => fun _ => false | 5 => fun _ => false | 6 => fun _ => false | 7 => fun i => !(k8_cond2 i == 1#1) | 8 => fun i => !(k8_cond2 i == 1#1) | ⟨_ + 9, h⟩ => absurd h (Nat.not_lt.2 (Nat.le_add_left _ _))

abbrev win9_0 : Pipeline.Window sig grid9 :=
  Pipeline.Window.ofSpec (Memref.whole main_v151_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v151_1) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v151_2) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v156) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v157) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v158) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x128 : Shape := ⟨2, ![50000, 128]⟩
abbrev S600000 : Shape := ⟨1, ![600000]⟩
abbrev S5x128x128 : Shape := ⟨3, ![5, 128, 128]⟩
abbrev S5x128 : Shape := ⟨2, ![5, 128]⟩
abbrev S2x600000 : Shape := ⟨2, ![2, 600000]⟩
abbrev S50000 : Shape := ⟨1, ![50000]⟩
abbrev S256 : Shape := ⟨1, ![256]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1 : Shape := ⟨1, ![1]⟩
abbrev S257 : Shape := ⟨1, ![257]⟩
abbrev S50000x1 : Shape := ⟨2, ![50000, 1]⟩
abbrev S2560x128 : Shape := ⟨2, ![2560, 128]⟩
abbrev S2560 : Shape := ⟨1, ![2560]⟩
abbrev S2560x1 : Shape := ⟨2, ![2560, 1]⟩

abbrev nBuf : Space → Nat
  | .hbm => 468
  | .vmem => 0
  | .smem => 0
  | _ => 0

abbrev hbmTy0_0 (i : Nat) : BufTy := match i % 128 with
  | 0 => ⟨S50000x128, .f32⟩
  | 1 => ⟨S600000, .f32⟩
  | 2 => ⟨S5x128x128, .f32⟩
  | 3 => ⟨S5x128, .f32⟩
  | 4 => ⟨S5x128x128, .f32⟩
  | 5 => ⟨S5x128, .f32⟩
  | 6 => ⟨S5x128, .f32⟩
  | 7 => ⟨S5x128, .f32⟩
  | 8 => ⟨S2x600000, .i32⟩
  | 9 => ⟨S50000, .i32⟩
  | 10 => ⟨S256, .i32⟩
  | 11 => ⟨S50000, .i32⟩
  | 12 => ⟨S1x600000, .i32⟩
  | 13 => ⟨S600000, .i32⟩
  | 14 => ⟨S1x600000, .i32⟩
  | 15 => ⟨S600000, .i32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S600000x1, .f32⟩
  | 26 => ⟨S600000x128, .f32⟩
  | 27 => ⟨S600000x128, .f32⟩
  | 28 => ⟨S_, .f32⟩
  | 29 => ⟨S50000x128, .f32⟩
  | 30 => ⟨S600000x1, .i32⟩
  | 31 => ⟨S50000x128, .f32⟩
  | 32 => ⟨S1x128x128, .f32⟩
  | 33 => ⟨S128x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128x128, .f32⟩
  | 41 => ⟨S128x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S128, .f32⟩
  | 87 => ⟨S128, .f32⟩
  | 88 => ⟨S128, .f32⟩
  | 89 => ⟨S1x128, .f32⟩
  | 90 => ⟨S50000x128, .f32⟩
  | 91 => ⟨S50000x128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .f32⟩
  | 109 => ⟨S600000x1, .f32⟩
  | 110 => ⟨S600000x128, .f32⟩
  | 111 => ⟨S600000x128, .f32⟩
  | 112 => ⟨S_, .f32⟩
  | 113 => ⟨S50000x128, .f32⟩
  | 114 => ⟨S600000x1, .i32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x128, .f32⟩
  | 65 => ⟨S600000x1, .f32⟩
  | 66 => ⟨S600000x128, .f32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S1x128x128, .f32⟩
  | 73 => ⟨S128x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S1x128x128, .f32⟩
  | 81 => ⟨S128x128, .f32⟩
  | 82 => ⟨S50000x128, .f32⟩
  | 83 => ⟨S50000x128, .f32⟩
  | 84 => ⟨S1x128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S128, .f32⟩
  | 119 => ⟨S1x128, .f32⟩
  | 120 => ⟨S50000x128, .f32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S128, .f32⟩
  | 127 => ⟨S128, .f32⟩
  | _ => ⟨S50000x128, .f32⟩

abbrev hbmTy0_2 (i : Nat) : BufTy := match i % 128 with
  | 0 => ⟨S128, .f32⟩
  | 1 => ⟨S1x128, .f32⟩
  | 2 => ⟨S50000x128, .f32⟩
  | 3 => ⟨S50000x128, .f32⟩
  | 4 => ⟨S1x128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S600000x1, .f32⟩
  | 22 => ⟨S600000x128, .f32⟩
  | 23 => ⟨S600000x128, .f32⟩
  | 24 => ⟨S_, .f32⟩
  | 25 => ⟨S50000x128, .f32⟩
  | 26 => ⟨S600000x1, .i32⟩
  | 27 => ⟨S50000x128, .f32⟩
  | 28 => ⟨S1x128x128, .f32⟩
  | 29 => ⟨S128x128, .f32⟩
  | 30 => ⟨S50000x128, .f32⟩
  | 31 => ⟨S1x128, .f32⟩
  | 32 => ⟨S128, .f32⟩
  | 33 => ⟨S1x128, .f32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S_, .f32⟩
  | 48 => ⟨S128, .f32⟩
  | 49 => ⟨S128, .f32⟩
  | 50 => ⟨S_, .i32⟩
  | 51 => ⟨S_, .f32⟩
  | 52 => ⟨S128, .f32⟩
  | 53 => ⟨S1x128, .f32⟩
  | 54 => ⟨S_, .f32⟩
  | 55 => ⟨S1x128, .f32⟩
  | 56 => ⟨S1x128, .f32⟩
  | 57 => ⟨S50000x128, .f32⟩
  | 58 => ⟨S50000x128, .f32⟩
  | 59 => ⟨S50000x128, .f32⟩
  | 60 => ⟨S_, .f32⟩
  | 61 => ⟨S_, .f32⟩
  | 62 => ⟨S_, .f32⟩
  | 63 => ⟨S_, .f32⟩
  | 64 => ⟨S128, .f32⟩
  | 65 => ⟨S128, .f32⟩
  | 66 => ⟨S128, .f32⟩
  | 67 => ⟨S_, .f32⟩
  | 68 => ⟨S_, .i1⟩
  | 69 => ⟨S_, .f32⟩
  | 70 => ⟨S_, .f32⟩
  | 71 => ⟨S128, .f32⟩
  | 72 => ⟨S128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S128, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x128, .f32⟩
  | 105 => ⟨S600000x1, .f32⟩
  | 106 => ⟨S600000x128, .f32⟩
  | 107 => ⟨S600000x128, .f32⟩
  | 108 => ⟨S_, .f32⟩
  | 109 => ⟨S50000x128, .f32⟩
  | 110 => ⟨S600000x1, .i32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_3 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S128, .f32⟩
  | 39 => ⟨S128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .i32⟩
  | 53 => ⟨S1, .i32⟩
  | 54 => ⟨S_, .i32⟩
  | 55 => ⟨S_, .i32⟩
  | 56 => ⟨S256, .i32⟩
  | 57 => ⟨S257, .i32⟩
  | 58 => ⟨S_, .i32⟩
  | 59 => ⟨S50000, .i32⟩
  | 60 => ⟨S50000, .i1⟩
  | 61 => ⟨S_, .i32⟩
  | 62 => ⟨S50000, .i32⟩
  | 63 => ⟨S50000, .i32⟩
  | 64 => ⟨S50000, .i32⟩
  | 65 => ⟨S50000x1, .i32⟩
  | 66 => ⟨S50000, .i32⟩
  | 67 => ⟨S50000, .i32⟩
  | 68 => ⟨S_, .f32⟩
  | 69 => ⟨S2560x128, .f32⟩
  | 70 => ⟨S50000x1, .i32⟩
  | 71 => ⟨S2560x128, .f32⟩
  | 72 => ⟨S_, .f32⟩
  | 73 => ⟨S50000, .f32⟩
  | 74 => ⟨S_, .f32⟩
  | 75 => ⟨S2560, .f32⟩
  | 76 => ⟨S50000x1, .i32⟩
  | 77 => ⟨S2560, .f32⟩
  | 78 => ⟨S_, .f32⟩
  | 79 => ⟨S2560, .f32⟩
  | 80 => ⟨S2560, .f32⟩
  | 81 => ⟨S2560x1, .f32⟩
  | 82 => ⟨S2560x128, .f32⟩
  | 83 => ⟨S2560x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_1 : Ref sig .tc := ⟨.hbm, 49, rfl⟩
abbrev main_v34 : Ref sig .tc := ⟨.hbm, 50, rfl⟩
abbrev main_cst_2 : Ref sig .tc := ⟨.hbm, 51, rfl⟩
abbrev main_v35 : Ref sig .tc := ⟨.hbm, 52, rfl⟩
abbrev main_v36 : Ref sig .tc := ⟨.hbm, 53, rfl⟩
abbrev main_c_3 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_cst_3 : Ref sig .tc := ⟨.hbm, 71, rfl⟩
abbrev main_call0_v12 : Ref sig .tc := ⟨.hbm, 72, rfl⟩
abbrev main_call0_cst_4 : Ref sig .tc := ⟨.hbm, 73, rfl⟩
abbrev main_call0_call0_v0 : Ref sig .tc := ⟨.hbm, 74, rfl⟩
abbrev main_call0_call0_v1 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_4 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_call1_cst : Ref sig .tc := ⟨.hbm, 97, rfl⟩
abbrev main_call1_v0 : Ref sig .tc := ⟨.hbm, 98, rfl⟩
abbrev main_v57 : Ref sig .tc := ⟨.hbm, 99, rfl⟩
abbrev main_c_5 : Ref sig .tc := ⟨.hbm, 100, rfl⟩
abbrev main_v58 : Ref sig .tc := ⟨.hbm, 101, rfl⟩
abbrev main_v59 : Ref sig .tc := ⟨.hbm, 102, rfl⟩
abbrev main_c_6 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_7 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_8 : Ref sig .tc := ⟨.hbm, 133, rfl⟩
abbrev main_v88 : Ref sig .tc := ⟨.hbm, 134, rfl⟩
abbrev main_cst_9 : Ref sig .tc := ⟨.hbm, 135, rfl⟩
abbrev main_v89 : Ref sig .tc := ⟨.hbm, 136, rfl⟩
abbrev main_v90 : Ref sig .tc := ⟨.hbm, 137, rfl⟩
abbrev main_c_10 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_v6 : Ref sig .tc := ⟨.hbm, 147, rfl⟩
abbrev main_call2_v7 : Ref sig .tc := ⟨.hbm, 148, rfl⟩
abbrev main_call2_cst_1 : Ref sig .tc := ⟨.hbm, 149, rfl⟩
abbrev main_call2_v8 : Ref sig .tc := ⟨.hbm, 150, rfl⟩
abbrev main_call2_cst_2 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_cst_3 : Ref sig .tc := ⟨.hbm, 155, rfl⟩
abbrev main_call2_v12 : Ref sig .tc := ⟨.hbm, 156, rfl⟩
abbrev main_call2_cst_4 : Ref sig .tc := ⟨.hbm, 157, rfl⟩
abbrev main_call2_call0_v0 : Ref sig .tc := ⟨.hbm, 158, rfl⟩
abbrev main_call2_call0_v1 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_cst_11 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_call3_cst : Ref sig .tc := ⟨.hbm, 181, rfl⟩
abbrev main_call3_v0 : Ref sig .tc := ⟨.hbm, 182, rfl⟩
abbrev main_v111 : Ref sig .tc := ⟨.hbm, 183, rfl⟩
abbrev main_c_12 : Ref sig .tc := ⟨.hbm, 184, rfl⟩
abbrev main_v112 : Ref sig .tc := ⟨.hbm, 185, rfl⟩
abbrev main_v113 : Ref sig .tc := ⟨.hbm, 186, rfl⟩
abbrev main_c_13 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_14 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_cst_15 : Ref sig .tc := ⟨.hbm, 217, rfl⟩
abbrev main_v142 : Ref sig .tc := ⟨.hbm, 218, rfl⟩
abbrev main_cst_16 : Ref sig .tc := ⟨.hbm, 219, rfl⟩
abbrev main_v143 : Ref sig .tc := ⟨.hbm, 220, rfl⟩
abbrev main_v144 : Ref sig .tc := ⟨.hbm, 221, rfl⟩
abbrev main_c_17 : Ref sig .tc := ⟨.hbm, 222, rfl⟩
abbrev main_call4_cst : Ref sig .tc := ⟨.hbm, 223, rfl⟩
abbrev main_call4_v0 : Ref sig .tc := ⟨.hbm, 224, rfl⟩
abbrev main_call4_v1 : Ref sig .tc := ⟨.hbm, 225, rfl⟩
abbrev main_call4_cst_0 : Ref sig .tc := ⟨.hbm, 226, rfl⟩
abbrev main_call4_v2 : Ref sig .tc := ⟨.hbm, 227, rfl⟩
abbrev main_call4_v3 : Ref sig .tc := ⟨.hbm, 228, rfl⟩
abbrev main_call4_v4 : Ref sig .tc := ⟨.hbm, 229, rfl⟩
abbrev main_call4_v5 : Ref sig .tc := ⟨.hbm, 230, rfl⟩
abbrev main_call4_v6 : Ref sig .tc := ⟨.hbm, 231, rfl⟩
abbrev main_call4_v7 : Ref sig .tc := ⟨.hbm, 232, rfl⟩
abbrev main_call4_cst_1 : Ref sig .tc := ⟨.hbm, 233, rfl⟩
abbrev main_call4_v8 : Ref sig .tc := ⟨.hbm, 234, rfl⟩
abbrev main_call4_cst_2 : Ref sig .tc := ⟨.hbm, 235, rfl⟩
abbrev main_call4_v9 : Ref sig .tc := ⟨.hbm, 236, rfl⟩
abbrev main_call4_v10 : Ref sig .tc := ⟨.hbm, 237, rfl⟩
abbrev main_call4_v11 : Ref sig .tc := ⟨.hbm, 238, rfl⟩
abbrev main_call4_cst_3 : Ref sig .tc := ⟨.hbm, 239, rfl⟩
abbrev main_call4_v12 : Ref sig .tc := ⟨.hbm, 240, rfl⟩
abbrev main_call4_cst_4 : Ref sig .tc := ⟨.hbm, 241, rfl⟩
abbrev main_call4_call0_v0 : Ref sig .tc := ⟨.hbm, 242, rfl⟩
abbrev main_call4_call0_v1 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_v149 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_v153 : Ref sig .tc := ⟨.hbm, 252, rfl⟩
abbrev main_cst_18 : Ref sig .tc := ⟨.hbm, 253, rfl⟩
abbrev main_v154 : Ref sig .tc := ⟨.hbm, 254, rfl⟩
abbrev main_v155 : Ref sig .tc := ⟨.hbm, 255, rfl⟩
abbrev main_v156 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_call5_cst : Ref sig .tc := ⟨.hbm, 265, rfl⟩
abbrev main_call5_v0 : Ref sig .tc := ⟨.hbm, 266, rfl⟩
abbrev main_v165 : Ref sig .tc := ⟨.hbm, 267, rfl⟩
abbrev main_c_19 : Ref sig .tc := ⟨.hbm, 268, rfl⟩
abbrev main_v166 : Ref sig .tc := ⟨.hbm, 269, rfl⟩
abbrev main_v167 : Ref sig .tc := ⟨.hbm, 270, rfl⟩
abbrev main_c_20 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_cst_21 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_v181 : Ref sig .tc := ⟨.hbm, 286, rfl⟩
abbrev main_v182 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_cst_22 : Ref sig .tc := ⟨.hbm, 301, rfl⟩
abbrev main_v196 : Ref sig .tc := ⟨.hbm, 302, rfl⟩
abbrev main_cst_23 : Ref sig .tc := ⟨.hbm, 303, rfl⟩
abbrev main_v197 : Ref sig .tc := ⟨.hbm, 304, rfl⟩
abbrev main_v198 : Ref sig .tc := ⟨.hbm, 305, rfl⟩
abbrev main_c_24 : Ref sig .tc := ⟨.hbm, 306, rfl⟩
abbrev main_call6_cst : Ref sig .tc := ⟨.hbm, 307, rfl⟩
abbrev main_call6_v0 : Ref sig .tc := ⟨.hbm, 308, rfl⟩
abbrev main_call6_v1 : Ref sig .tc := ⟨.hbm, 309, rfl⟩
abbrev main_call6_cst_0 : Ref sig .tc := ⟨.hbm, 310, rfl⟩
abbrev main_call6_v2 : Ref sig .tc := ⟨.hbm, 311, rfl⟩
abbrev main_call6_v3 : Ref sig .tc := ⟨.hbm, 312, rfl⟩
abbrev main_call6_v4 : Ref sig .tc := ⟨.hbm, 313, rfl⟩
abbrev main_call6_v5 : Ref sig .tc := ⟨.hbm, 314, rfl⟩
abbrev main_call6_v6 : Ref sig .tc := ⟨.hbm, 315, rfl⟩
abbrev main_call6_v7 : Ref sig .tc := ⟨.hbm, 316, rfl⟩
abbrev main_call6_cst_1 : Ref sig .tc := ⟨.hbm, 317, rfl⟩
abbrev main_call6_v8 : Ref sig .tc := ⟨.hbm, 318, rfl⟩
abbrev main_call6_cst_2 : Ref sig .tc := ⟨.hbm, 319, rfl⟩
abbrev main_call6_v9 : Ref sig .tc := ⟨.hbm, 320, rfl⟩
abbrev main_call6_v10 : Ref sig .tc := ⟨.hbm, 321, rfl⟩
abbrev main_call6_v11 : Ref sig .tc := ⟨.hbm, 322, rfl⟩
abbrev main_call6_cst_3 : Ref sig .tc := ⟨.hbm, 323, rfl⟩
abbrev main_call6_v12 : Ref sig .tc := ⟨.hbm, 324, rfl⟩
abbrev main_call6_cst_4 : Ref sig .tc := ⟨.hbm, 325, rfl⟩
abbrev main_call6_call0_v0 : Ref sig .tc := ⟨.hbm, 326, rfl⟩
abbrev main_call6_call0_v1 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_v206 : Ref sig .tc := ⟨.hbm, 335, rfl⟩
abbrev main_v207 : Ref sig .tc := ⟨.hbm, 336, rfl⟩
abbrev main_cst_25 : Ref sig .tc := ⟨.hbm, 337, rfl⟩
abbrev main_v208 : Ref sig .tc := ⟨.hbm, 338, rfl⟩
abbrev main_v209 : Ref sig .tc := ⟨.hbm, 339, rfl⟩
abbrev main_v210 : Ref sig .tc := ⟨.hbm, 340, rfl⟩
abbrev main_v211 : Ref sig .tc := ⟨.hbm, 341, rfl⟩
abbrev main_v212 : Ref sig .tc := ⟨.hbm, 342, rfl⟩
abbrev main_v213 : Ref sig .tc := ⟨.hbm, 343, rfl⟩
abbrev main_v214 : Ref sig .tc := ⟨.hbm, 344, rfl⟩
abbrev main_v215 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_call7_cst : Ref sig .tc := ⟨.hbm, 349, rfl⟩
abbrev main_call7_v0 : Ref sig .tc := ⟨.hbm, 350, rfl⟩
abbrev main_v219 : Ref sig .tc := ⟨.hbm, 351, rfl⟩
abbrev main_c_26 : Ref sig .tc := ⟨.hbm, 352, rfl⟩
abbrev main_v220 : Ref sig .tc := ⟨.hbm, 353, rfl⟩
abbrev main_v221 : Ref sig .tc := ⟨.hbm, 354, rfl⟩
abbrev main_c_27 : Ref sig .tc := ⟨.hbm, 355, rfl⟩
abbrev main_v222 : Ref sig .tc := ⟨.hbm, 356, rfl⟩
abbrev main_v223 : Ref sig .tc := ⟨.hbm, 357, rfl⟩
abbrev main_v224 : Ref sig .tc := ⟨.hbm, 358, rfl⟩
abbrev main_v225 : Ref sig .tc := ⟨.hbm, 359, rfl⟩
abbrev main_v226 : Ref sig .tc := ⟨.hbm, 360, rfl⟩
abbrev main_v227 : Ref sig .tc := ⟨.hbm, 361, rfl⟩
abbrev main_v228 : Ref sig .tc := ⟨.hbm, 362, rfl⟩
abbrev main_v229 : Ref sig .tc := ⟨.hbm, 363, rfl⟩
abbrev main_cst_28 : Ref sig .tc := ⟨.hbm, 364, rfl⟩
abbrev main_v230 : Ref sig .tc := ⟨.hbm, 365, rfl⟩
abbrev main_v231 : Ref sig .tc := ⟨.hbm, 366, rfl⟩
abbrev main_v232 : Ref sig .tc := ⟨.hbm, 367, rfl⟩
abbrev main_v233 : Ref sig .tc := ⟨.hbm, 368, rfl⟩
abbrev main_v234 : Ref sig .tc := ⟨.hbm, 369, rfl⟩
abbrev main_v235 : Ref sig .tc := ⟨.hbm, 370, rfl⟩
abbrev main_v236 : Ref sig .tc := ⟨.hbm, 371, rfl⟩
abbrev main_v237 : Ref sig .tc := ⟨.hbm, 372, rfl⟩
abbrev main_v238 : Ref sig .tc := ⟨.hbm, 373, rfl⟩
abbrev main_v239 : Ref sig .tc := ⟨.hbm, 374, rfl⟩
abbrev main_v240 : Ref sig .tc := ⟨.hbm, 375, rfl⟩
abbrev main_v241 : Ref sig .tc := ⟨.hbm, 376, rfl⟩
abbrev main_v242 : Ref sig .tc := ⟨.hbm, 377, rfl⟩
abbrev main_v243 : Ref sig .tc := ⟨.hbm, 378, rfl⟩
abbrev main_v244 : Ref sig .tc := ⟨.hbm, 379, rfl⟩
abbrev main_v245 : Ref sig .tc := ⟨.hbm, 380, rfl⟩
abbrev main_v246 : Ref sig .tc := ⟨.hbm, 381, rfl⟩
abbrev main_v247 : Ref sig .tc := ⟨.hbm, 382, rfl⟩
abbrev main_v248 : Ref sig .tc := ⟨.hbm, 383, rfl⟩
abbrev main_v249 : Ref sig .tc := ⟨.hbm, 384, rfl⟩
abbrev main_cst_29 : Ref sig .tc := ⟨.hbm, 385, rfl⟩
abbrev main_v250 : Ref sig .tc := ⟨.hbm, 386, rfl⟩
abbrev main_cst_30 : Ref sig .tc := ⟨.hbm, 387, rfl⟩
abbrev main_v251 : Ref sig .tc := ⟨.hbm, 388, rfl⟩
abbrev main_v252 : Ref sig .tc := ⟨.hbm, 389, rfl⟩
abbrev main_c_31 : Ref sig .tc := ⟨.hbm, 390, rfl⟩
abbrev main_call8_cst : Ref sig .tc := ⟨.hbm, 391, rfl⟩
abbrev main_call8_v0 : Ref sig .tc := ⟨.hbm, 392, rfl⟩
abbrev main_call8_v1 : Ref sig .tc := ⟨.hbm, 393, rfl⟩
abbrev main_call8_cst_0 : Ref sig .tc := ⟨.hbm, 394, rfl⟩
abbrev main_call8_v2 : Ref sig .tc := ⟨.hbm, 395, rfl⟩
abbrev main_call8_v3 : Ref sig .tc := ⟨.hbm, 396, rfl⟩
abbrev main_call8_v4 : Ref sig .tc := ⟨.hbm, 397, rfl⟩
abbrev main_call8_v5 : Ref sig .tc := ⟨.hbm, 398, rfl⟩
abbrev main_call8_v6 : Ref sig .tc := ⟨.hbm, 399, rfl⟩
abbrev main_call8_v7 : Ref sig .tc := ⟨.hbm, 400, rfl⟩
abbrev main_call8_cst_1 : Ref sig .tc := ⟨.hbm, 401, rfl⟩
abbrev main_call8_v8 : Ref sig .tc := ⟨.hbm, 402, rfl⟩
abbrev main_call8_cst_2 : Ref sig .tc := ⟨.hbm, 403, rfl⟩
abbrev main_call8_v9 : Ref sig .tc := ⟨.hbm, 404, rfl⟩
abbrev main_call8_v10 : Ref sig .tc := ⟨.hbm, 405, rfl⟩
abbrev main_call8_v11 : Ref sig .tc := ⟨.hbm, 406, rfl⟩
abbrev main_call8_cst_3 : Ref sig .tc := ⟨.hbm, 407, rfl⟩
abbrev main_call8_v12 : Ref sig .tc := ⟨.hbm, 408, rfl⟩
abbrev main_call8_cst_4 : Ref sig .tc := ⟨.hbm, 409, rfl⟩
abbrev main_call8_call0_v0 : Ref sig .tc := ⟨.hbm, 410, rfl⟩
abbrev main_call8_call0_v1 : Ref sig .tc := ⟨.hbm, 411, rfl⟩
abbrev main_v253 : Ref sig .tc := ⟨.hbm, 412, rfl⟩
abbrev main_v254 : Ref sig .tc := ⟨.hbm, 413, rfl⟩
abbrev main_v255 : Ref sig .tc := ⟨.hbm, 414, rfl⟩
abbrev main_v256 : Ref sig .tc := ⟨.hbm, 415, rfl⟩
abbrev main_v257 : Ref sig .tc := ⟨.hbm, 416, rfl⟩
abbrev main_v258 : Ref sig .tc := ⟨.hbm, 417, rfl⟩
abbrev main_v259 : Ref sig .tc := ⟨.hbm, 418, rfl⟩
abbrev main_v260 : Ref sig .tc := ⟨.hbm, 419, rfl⟩
abbrev main_v261 : Ref sig .tc := ⟨.hbm, 420, rfl⟩
abbrev main_cst_32 : Ref sig .tc := ⟨.hbm, 421, rfl⟩
abbrev main_v262 : Ref sig .tc := ⟨.hbm, 422, rfl⟩
abbrev main_v263 : Ref sig .tc := ⟨.hbm, 423, rfl⟩
abbrev main_v264 : Ref sig .tc := ⟨.hbm, 424, rfl⟩
abbrev main_v265 : Ref sig .tc := ⟨.hbm, 425, rfl⟩
abbrev main_v266 : Ref sig .tc := ⟨.hbm, 426, rfl⟩
abbrev main_v267 : Ref sig .tc := ⟨.hbm, 427, rfl⟩
abbrev main_v268 : Ref sig .tc := ⟨.hbm, 428, rfl⟩
abbrev main_v269 : Ref sig .tc := ⟨.hbm, 429, rfl⟩
abbrev main_v270 : Ref sig .tc := ⟨.hbm, 430, rfl⟩
abbrev main_v271 : Ref sig .tc := ⟨.hbm, 431, rfl⟩
abbrev main_v272 : Ref sig .tc := ⟨.hbm, 432, rfl⟩
abbrev main_call9_cst : Ref sig .tc := ⟨.hbm, 433, rfl⟩
abbrev main_call9_v0 : Ref sig .tc := ⟨.hbm, 434, rfl⟩
abbrev main_v273 : Ref sig .tc := ⟨.hbm, 435, rfl⟩
abbrev main_c_33 : Ref sig .tc := ⟨.hbm, 436, rfl⟩
abbrev main_v274 : Ref sig .tc := ⟨.hbm, 437, rfl⟩
abbrev main_call10_call0_c : Ref sig .tc := ⟨.hbm, 438, rfl⟩
abbrev main_call10_call0_v0 : Ref sig .tc := ⟨.hbm, 439, rfl⟩
abbrev main_v275 : Ref sig .tc := ⟨.hbm, 440, rfl⟩
abbrev main_v276 : Ref sig .tc := ⟨.hbm, 441, rfl⟩
abbrev main_c_34 : Ref sig .tc := ⟨.hbm, 442, rfl⟩
abbrev main_v277 : Ref sig .tc := ⟨.hbm, 443, rfl⟩
abbrev main_v278 : Ref sig .tc := ⟨.hbm, 444, rfl⟩
abbrev main_c_35 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_v282 : Ref sig .tc := ⟨.hbm, 449, rfl⟩
abbrev main_v283 : Ref sig .tc := ⟨.hbm, 450, rfl⟩
abbrev main_v284 : Ref sig .tc := ⟨.hbm, 451, rfl⟩
abbrev main_cst_36 : Ref sig .tc := ⟨.hbm, 452, rfl⟩
abbrev main_v285 : Ref sig .tc := ⟨.hbm, 453, rfl⟩
abbrev main_v286 : Ref sig .tc := ⟨.hbm, 454, rfl⟩
abbrev main_v287 : Ref sig .tc := ⟨.hbm, 455, rfl⟩
abbrev main_cst_37 : Ref sig .tc := ⟨.hbm, 456, rfl⟩
abbrev main_v288 : Ref sig .tc := ⟨.hbm, 457, rfl⟩
abbrev main_cst_38 : Ref sig .tc := ⟨.hbm, 458, rfl⟩
abbrev main_v289 : Ref sig .tc := ⟨.hbm, 459, rfl⟩
abbrev main_v290 : Ref sig .tc := ⟨.hbm, 460, rfl⟩
abbrev main_v291 : Ref sig .tc := ⟨.hbm, 461, rfl⟩
abbrev main_cst_39 : Ref sig .tc := ⟨.hbm, 462, rfl⟩
abbrev main_v292 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_v296 : Ref sig .tc := ⟨.hbm, 467, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  bcast_S_S1 : S_.BroadcastsInDim S1 (![] : Fin 0 → Fin S1.rank)
  bcast_S_S_ : S_.BroadcastsInDim S_ (![] : Fin 0 → Fin S_.rank)
  reduceWindows_S256_S256_w256s1p255_0 : S256.ReduceWindows (![256] : Fin 1 → Nat) ![1] ![255] ![0] S256
  concatenates_S1_S256_S257_d0 : Shape.Concatenates [S1, S256] S257 0
  bcast_S_S50000 : S_.BroadcastsInDim S50000 (![] : Fin 0 → Fin S50000.rank)
  bcast_S50000_S50000x1_0 : S50000.BroadcastsInDim S50000x1 (![0] : Fin 1 → Fin S50000x1.rank)
  bcast_S_S2560x128 : S_.BroadcastsInDim S2560x128 (![] : Fin 0 → Fin S2560x128.rank)
  bcast_S_S2560 : S_.BroadcastsInDim S2560 (![] : Fin 0 → Fin S2560.rank)
  bcast_S2560_S2560x1_0 : S2560.BroadcastsInDim S2560x1 (![0] : Fin 1 → Fin S2560x1.rank)
  bcast_S2560x1_S2560x128_0_1 : S2560x1.BroadcastsInDim S2560x128 (![0, 1] : Fin 2 → Fin S2560x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  gather_S257_S50000x1_S50000_n_0_n_n_0_1_1_wf : GatherDims.WF S257 S50000x1 S50000 [] [0] [] [0] [] 1 ![1]
  scatter_S2560x128_S50000x1_S50000x128_1_0_0_1_wf : ScatterDims.WF S2560x128 S50000x1 S50000x128 [1] [0] [0] 1
  scatter_S2560_S50000x1_S50000_n_0_0_1_wf : ScatterDims.WF S2560 S50000x1 S50000 [] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S257_S50000x1_S50000_n_0_n_n_0_1_1 : GatherDims S257 S50000x1 S50000 where
  offsetDims := []
  collapsedSliceDims := [0]
  operandBatchingDims := []
  startIndicesBatchingDims := []
  startIndexMap := [0]
  indexVectorDim := 1
  sliceSizes := ![1]
  wf := gather_S257_S50000x1_S50000_n_0_n_n_0_1_1_wf
def scatter_S2560x128_S50000x1_S50000x128_1_0_0_1 : ScatterDims S2560x128 S50000x1 S50000x128 where
  updateWindowDims := [1]
  insertedWindowDims := [0]
  scatterDimsToOperandDims := [0]
  indexVectorDim := 1
  wf := scatter_S2560x128_S50000x1_S50000x128_1_0_0_1_wf
def scatter_S2560_S50000x1_S50000_n_0_0_1 : ScatterDims S2560 S50000x1 S50000 where
  updateWindowDims := []
  insertedWindowDims := [0]
  scatterDimsToOperandDims := [0]
  indexVectorDim := 1
  wf := scatter_S2560_S50000x1_S50000_n_0_0_1_wf

class Facts : Prop extends Facts₀ where

variable [Facts]
-- ==== Proof.Ref.Ops.lean ====
/- The reference program's @main as six lists of host operations in program order, one list per layer and one
   for the pooling tail, each call's callee written out at the call site over that call's own buffers; and the
   contents of the device's buffers after each list, starting from the contents at launch. -/
import proofs.«162849_j29643864277577_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Layer 0: the two rows of the edge table as source and target indices, the wrap of negative source indices, the messages gathered from the input features and weighted per edge, their sum per target node, the two affine maps and their sum with both biases, the column means, the column variances (mean of the centred squares, with the guard of an empty sample listed as the program has it), the normalisation scaled and shifted, and the positive part. 88 operations. -/
abbrev opsL0 : List (HloOp τ sig (Elt F)) :=
  [
    StableHlo.unary main_arg8 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg8 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v11 (broadcastInDim S600000x1 ![0] bcast_S600000_S600000x1_0 : (⟨S600000, .f32⟩ : BufTy).Contents (Elt F) → (⟨S600000x1, .f32⟩ : BufTy).Contents (Elt F)),
    StableHlo.unary main_v11 main_v12 (broadcastInDim S600000x128 ![0, 1] bcast_S600000x1_S600000x128_0_1 : (⟨S600000x1, .f32⟩ : BufTy).Contents (Elt F) → (⟨S600000x128, .f32⟩ : BufTy).Contents (Elt F)),
    StableHlo.binary main_v10 main_v12 main_v13 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_arg2 main_v17 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v17 main_v18 rfl shapeCasts_S1x128x128_S128x128,
    StableHlo.binary main_v16 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v20 ((extractStridedSlice S1x128 ![0, 0] · slices_S5x128_S1x128_0_0) : (⟨S5x128, .f32⟩ : BufTy).Contents (Elt F) → (⟨S1x128, .f32⟩ : BufTy).Contents (Elt F)),
    StableHlo.reshape main_v20 main_v21 rfl shapeCasts_S1x128_S128,
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg4 main_v25 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v25 main_v26 rfl shapeCasts_S1x128x128_S128x128,
    StableHlo.binary main_arg0 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v24 main_v27 main_v28 (addf : (⟨S50000x128, .f32⟩ : BufTy).Contents (Elt F) → (⟨S50000x128, .f32⟩ : BufTy).Contents (Elt F) → (⟨S50000x128, .f32⟩ : BufTy).Contents (Elt F)),
    StableHlo.unary main_arg5 main_v29 ((extractStridedSlice S1x128 ![0, 0] · slices_S5x128_S1x128_0_0) : (⟨S5x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v32 main_v33 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v33 main_cst_1 main_v34 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v35 (broadcastInDim S128 ![] bcast_S_S128 : (⟨S_, .f32⟩ : BufTy).Contents (Elt F) → (⟨S128, .f32⟩ : BufTy).Contents (Elt F)),
    StableHlo.binary main_v34 main_v35 main_v36 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v33 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v33 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S128 ![] bcast_S_S128),
    StableHlo.TRef.ternary main_call0.v12 main_call0.v11 main_call0_call0.v1 main_call0_call0.v2 (fun p a b => select (broadcastInDim S128 ![] bcast_S_S128 p) a b),
    StableHlo.unary main_arg6 main_v38 ((extractStridedSlice S1x128 ![0, 0] · slices_S5x128_S1x128_0_0) : (⟨S5x128, .f32⟩ : BufTy).Contents (Elt F) → (⟨S1x128, .f32⟩ : BufTy).Contents (Elt F)),
    StableHlo.reshape main_v38 main_v39 rfl shapeCasts_S1x128_S128,
    StableHlo.unary main_v36 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v41 main_v42 (subf : (⟨S50000x128, .f32⟩ : BufTy).Contents (Elt F) → (⟨S50000x128, .f32⟩ : BufTy).Contents (Elt F) → (⟨S50000x128, .f32⟩ : BufTy).Contents (Elt F)),
    StableHlo.unary main_v39 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v42 main_v45 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v46 (broadcastInDim S128 ![] bcast_S_S128 : (⟨S_, .f32⟩ : BufTy).Contents (Elt F) → (⟨S128, .f32⟩ : BufTy).Contents (Elt F)),
    StableHlo.binary main_v37 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_arg7 main_v52 ((extractStridedSlice S1x128 ![0, 0] · slices_S5x128_S1x128_0_0) : (⟨S5x128, .f32⟩ : BufTy).Contents (Elt F) → (⟨S1x128, .f32⟩ : BufTy).Contents (Elt F)),
    StableHlo.reshape main_v52 main_v53 rfl shapeCasts_S1x128_S128,
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v55 main_v56 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v56 : StableHlo.TRef sig ⟨S50000x128, .f32⟩) main_call1.v0 main_call1.v1 maximumf ]

/-- Layer 1: the same over the output of layer 0 and the second row of every parameter table. 84 operations. -/
abbrev opsL1 : List (HloOp τ sig (Elt F)) :=
  [
    StableHlo.nullary main_c_5 (constantI S_ 32 0#32),
    StableHlo.unary main_c_5 main_v58 (broadcastInDim S600000 ![] bcast_S_S600000 : (⟨S_, .i32⟩ : BufTy).Contents (Elt F) → (⟨S600000, .i32⟩ : BufTy).Contents (Elt F)),
    StableHlo.binary main_v1 main_v58 main_v59 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v60 (broadcastInDim S600000 ![] bcast_S_S600000 : (⟨S_, .i32⟩ : BufTy).Contents (Elt F) → (⟨S600000, .i32⟩ : BufTy).Contents (Elt F)),
    StableHlo.binary main_v1 main_v60 main_v61 (addi : (⟨S600000, .i32⟩ : BufTy).Contents (Elt F) → (⟨S600000, .i32⟩ : BufTy).Contents (Elt F) → (⟨S600000, .i32⟩ : BufTy).Contents (Elt F)),
    StableHlo.ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v62 main_v63 (broadcastInDim S600000x1 ![0] bcast_S600000_S600000x1_0 : (⟨S600000, .i32⟩ : BufTy).Contents (Elt F) → (⟨S600000x1, .i32⟩ : BufTy).Contents (Elt F)),
    StableHlo.binary main_v57 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v65 (broadcastInDim S600000x1 ![0] bcast_S600000_S600000x1_0 : (⟨S600000, .f32⟩ : BufTy).Contents (Elt F) → (⟨S600000x1, .f32⟩ : BufTy).Contents (Elt F)),
    StableHlo.unary main_v65 main_v66 (broadcastInDim S600000x128 ![0, 1] bcast_S600000x1_S600000x128_0_1 : (⟨S600000x1, .f32⟩ : BufTy).Contents (Elt F) → (⟨S600000x128, .f32⟩ : BufTy).Contents (Elt F)),
    StableHlo.binary main_v64 main_v66 main_v67 (mulf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v68 (broadcastInDim S50000x128 ![] bcast_S_S50000x128 : (⟨S_, .f32⟩ : BufTy).Contents (Elt F) → (⟨S50000x128, .f32⟩ : BufTy).Contents (Elt F)),
    StableHlo.unary main_v3 main_v69 (broadcastInDim S600000x1 ![0] bcast_S600000_S600000x1_0 : (⟨S600000, .i32⟩ : BufTy).Contents (Elt F) → (⟨S600000x1, .i32⟩ : BufTy).Contents (Elt F)),
    StableHlo.ternary main_v68 main_v69 main_v67 main_v70 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_arg2 main_v71 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v71 main_v72 rfl shapeCasts_S1x128x128_S128x128,
    StableHlo.binary main_v70 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v74 ((extractStridedSlice S1x128 ![1, 0] · slices_S5x128_S1x128_1_0) : (⟨S5x128, .f32⟩ : BufTy).Contents (Elt F) → (⟨S1x128, .f32⟩ : BufTy).Contents (Elt F)),
    StableHlo.reshape main_v74 main_v75 rfl shapeCasts_S1x128_S128,
    StableHlo.unary main_v75 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v77 main_v78 (addf : (⟨S50000x128, .f32⟩ : BufTy).Contents (Elt F) → (⟨S50000x128, .f32⟩ : BufTy).Contents (Elt F) → (⟨S50000x128, .f32⟩ : BufTy).Contents (Elt F)),
    StableHlo.unary main_arg4 main_v79 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v79 main_v80 rfl shapeCasts_S1x128x128_S128x128,
    StableHlo.binary main_v57 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v78 main_v81 main_v82 (addf : (⟨S50000x128, .f32⟩ : BufTy).Contents (Elt F) → (⟨S50000x128, .f32⟩ : BufTy).Contents (Elt F) → (⟨S50000x128, .f32⟩ : BufTy).Contents (Elt F)),
    StableHlo.unary main_arg5 main_v83 ((extractStridedSlice S1x128 ![1, 0] · slices_S5x128_S1x128_1_0) : (⟨S5x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v86 main_v87 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.binary main_v87 main_cst_8 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v87 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v87 : StableHlo.TRef sig ⟨S50000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S128 ![] bcast_S_S128),
    StableHlo.TRef.ternary main_call2.v12 main_call2.v11 main_call2_call0.v1 main_call2_call0.v2 (fun p a b => select (broadcastInDim S128 ![] bcast_S_S128 p) a b),
    StableHlo.unary main_arg6 main_v92 ((extractStridedSlice S1x128 ![1, 0] · slices_S5x128_S1x128_1_0) : (⟨S5x128, .f32⟩ : BufTy).Contents (Elt F) → (⟨S1x128, .f32⟩ : BufTy).Contents (Elt F)),
    StableHlo.reshape main_v92 main_v93 rfl shapeCasts_S1x128_S128,
    StableHlo.unary main_v90 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v95 main_v96 (subf : (⟨S50000x128, .f32⟩ : BufTy).Contents (Elt F) → (⟨S50000x128, .f32⟩ : BufTy).Contents (Elt F) → (⟨S50000x128, .f32⟩ : BufTy).Contents (Elt F)),
    StableHlo.unary main_v93 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v96 main_v99 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v100 (broadcastInDim S128 ![] bcast_S_S128 : (⟨S_, .f32⟩ : BufTy).Contents (Elt F) → (⟨S128, .f32⟩ : BufTy).Contents (Elt F)),
    StableHlo.binary main_v91 main_v100 main_v101 (addf : (⟨S128, .f32⟩ : BufTy).Contents (Elt F) → (⟨S128, .f32⟩ : BufTy).Contents (Elt F) → (⟨S128, .f32⟩ : BufTy).Contents (Elt F)),
    StableHlo.unary main_v101 main_v102 (Host.rsqrt : (⟨S128, .f32⟩ : BufTy).Contents (Elt F) → (⟨S128, .f32⟩ : BufTy).Contents (Elt F)),
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v104 main_v105 (mulf : (⟨S50000x128, .f32⟩ : BufTy).Contents (Elt F) → (⟨S50000x128, .f32⟩ : BufTy).Contents (Elt F) → (⟨S50000x128, .f32⟩ : BufTy).Contents (Elt F)),
    StableHlo.unary main_arg7 main_v106 ((extractStridedSlice S1x128 ![1, 0] · slices_S5x128_S1x128_1_0) : (⟨S5x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v110 : StableHlo.TRef sig ⟨S50000x128, .f32⟩) main_call3.v0 main_call3.v1 maximumf ]

/-- Layer 2: the same over the output of layer 1 and the third row of every parameter table. 84 operations. -/
abbrev opsL2 : List (HloOp τ sig (Elt F)) :=
  [
    StableHlo.nullary main_c_12 (constantI S_ 32 0#32),
    StableHlo.unary main_c_12 main_v112 (broadcastInDim S600000 ![] bcast_S_S600000 : (⟨S_, .i32⟩ : BufTy).Contents (Elt F) → (⟨S600000, .i32⟩ : BufTy).Contents (Elt F)),
    StableHlo.binary main_v1 main_v112 main_v113 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v114 (broadcastInDim S600000 ![] bcast_S_S600000 : (⟨S_, .i32⟩ : BufTy).Contents (Elt F) → (⟨S600000, .i32⟩ : BufTy).Contents (Elt F)),
    StableHlo.binary main_v1 main_v114 main_v115 (addi : (⟨S600000, .i32⟩ : BufTy).Contents (Elt F) → (⟨S600000, .i32⟩ : BufTy).Contents (Elt F) → (⟨S600000, .i32⟩ : BufTy).Contents (Elt F)),
    StableHlo.ternary main_v113 main_v115 main_v1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v116 main_v117 (broadcastInDim S600000x1 ![0] bcast_S600000_S600000x1_0 : (⟨S600000, .i32⟩ : BufTy).Contents (Elt F) → (⟨S600000x1, .i32⟩ : BufTy).Contents (Elt F)),
    StableHlo.binary main_v111 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v119 (broadcastInDim S600000x1 ![0] bcast_S600000_S600000x1_0 : (⟨S600000, .f32⟩ : BufTy).Contents (Elt F) → (⟨S600000x1, .f32⟩ : BufTy).Contents (Elt F)),
    StableHlo.unary main_v119 main_v120 (broadcastInDim S600000x128 ![0, 1] bcast_S600000x1_S600000x128_0_1 : (⟨S600000x1, .f32⟩ : BufTy).Contents (Elt F) → (⟨S600000x128, .f32⟩ : BufTy).Contents (Elt F)),
    StableHlo.binary main_v118 main_v120 main_v121 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v122 (broadcastInDim S50000x128 ![] bcast_S_S50000x128 : (⟨S_, .f32⟩ : BufTy).Contents (Elt F) → (⟨S50000x128, .f32⟩ : BufTy).Contents (Elt F)),
    StableHlo.unary main_v3 main_v123 (broadcastInDim S600000x1 ![0] bcast_S600000_S600000x1_0 : (⟨S600000, .i32⟩ : BufTy).Contents (Elt F) → (⟨S600000x1, .i32⟩ : BufTy).Contents (Elt F)),
    StableHlo.ternary main_v122 main_v123 main_v121 main_v124 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_arg2 main_v125 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v125 main_v126 rfl shapeCasts_S1x128x128_S128x128,
    StableHlo.binary main_v124 main_v126 main_v127 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v128 ((extractStridedSlice S1x128 ![2, 0] · slices_S5x128_S1x128_2_0) : (⟨S5x128, .f32⟩ : BufTy).Contents (Elt F) → (⟨S1x128, .f32⟩ : BufTy).Contents (Elt F)),
    StableHlo.reshape main_v128 main_v129 rfl shapeCasts_S1x128_S128,
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v131 main_v132 (addf : (⟨S50000x128, .f32⟩ : BufTy).Contents (Elt F) → (⟨S50000x128, .f32⟩ : BufTy).Contents (Elt F) → (⟨S50000x128, .f32⟩ : BufTy).Contents (Elt F)),
    StableHlo.unary main_arg4 main_v133 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v133 main_v134 rfl shapeCasts_S1x128x128_S128x128,
    StableHlo.binary main_v111 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v132 main_v135 main_v136 (addf : (⟨S50000x128, .f32⟩ : BufTy).Contents (Elt F) → (⟨S50000x128, .f32⟩ : BufTy).Contents (Elt F) → (⟨S50000x128, .f32⟩ : BufTy).Contents (Elt F)),
    StableHlo.unary main_arg5 main_v137 ((extractStridedSlice S1x128 ![2, 0] · slices_S5x128_S1x128_2_0) : (⟨S5x128, .f32⟩ : BufTy).Contents (Elt F) → (⟨S1x128, .f32⟩ : BufTy).Contents (Elt F)),
    StableHlo.reshape main_v137 main_v138 rfl shapeCasts_S1x128_S128,
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v140 main_v141 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x00000000#32),
    StableHlo.binary main_v141 main_cst_15 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v141 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v141 : StableHlo.TRef sig ⟨S50000x128, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4_call0.v0 id,
    StableHlo.TRef.unary main_call4_call0.v0 main_call4_call0.v1 (broadcastInDim S128 ![] bcast_S_S128),
    StableHlo.TRef.ternary main_call4.v12 main_call4.v11 main_call4_call0.v1 main_call4_call0.v2 (fun p a b => select (broadcastInDim S128 ![] bcast_S_S128 p) a b),
    StableHlo.unary main_arg6 main_v146 ((extractStridedSlice S1x128 ![2, 0] · slices_S5x128_S1x128_2_0) : (⟨S5x128, .f32⟩ : BufTy).Contents (Elt F) → (⟨S1x128, .f32⟩ : BufTy).Contents (Elt F)),
    StableHlo.reshape main_v146 main_v147 rfl shapeCasts_S1x128_S128,
    StableHlo.unary main_v144 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v149 main_v150 (subf : (⟨S50000x128, .f32⟩ : BufTy).Contents (Elt F) → (⟨S50000x128, .f32⟩ : BufTy).Contents (Elt F) → (⟨S50000x128, .f32⟩ : BufTy).Contents (Elt F)),
    StableHlo.unary main_v147 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v150 main_v153 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v154 (broadcastInDim S128 ![] bcast_S_S128 : (⟨S_, .f32⟩ : BufTy).Contents (Elt F) → (⟨S128, .f32⟩ : BufTy).Contents (Elt F)),
    StableHlo.binary main_v145 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_arg7 main_v160 ((extractStridedSlice S1x128 ![2, 0] · slices_S5x128_S1x128_2_0) : (⟨S5x128, .f32⟩ : BufTy).Contents (Elt F) → (⟨S1x128, .f32⟩ : BufTy).Contents (Elt F)),
    StableHlo.reshape main_v160 main_v161 rfl shapeCasts_S1x128_S128,
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v163 main_v164 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v164 : StableHlo.TRef sig ⟨S50000x128, .f32⟩) main_call5.v0 main_call5.v1 maximumf ]

/-- Layer 3: the same over the output of layer 2 and the fourth row of every parameter table. 84 operations. -/
abbrev opsL3 : List (HloOp τ sig (Elt F)) :=
  [
    StableHlo.nullary main_c_19 (constantI S_ 32 0#32),
    StableHlo.unary main_c_19 main_v166 (broadcastInDim S600000 ![] bcast_S_S600000 : (⟨S_, .i32⟩ : BufTy).Contents (Elt F) → (⟨S600000, .i32⟩ : BufTy).Contents (Elt F)),
    StableHlo.binary main_v1 main_v166 main_v167 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v168 (broadcastInDim S600000 ![] bcast_S_S600000 : (⟨S_, .i32⟩ : BufTy).Contents (Elt F) → (⟨S600000, .i32⟩ : BufTy).Contents (Elt F)),
    StableHlo.binary main_v1 main_v168 main_v169 (addi : (⟨S600000, .i32⟩ : BufTy).Contents (Elt F) → (⟨S600000, .i32⟩ : BufTy).Contents (Elt F) → (⟨S600000, .i32⟩ : BufTy).Contents (Elt F)),
    StableHlo.ternary main_v167 main_v169 main_v1 main_v170 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v170 main_v171 (broadcastInDim S600000x1 ![0] bcast_S600000_S600000x1_0 : (⟨S600000, .i32⟩ : BufTy).Contents (Elt F) → (⟨S600000x1, .i32⟩ : BufTy).Contents (Elt F)),
    StableHlo.binary main_v165 main_v171 main_v172 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v173 (broadcastInDim S600000x1 ![0] bcast_S600000_S600000x1_0 : (⟨S600000, .f32⟩ : BufTy).Contents (Elt F) → (⟨S600000x1, .f32⟩ : BufTy).Contents (Elt F)),
    StableHlo.unary main_v173 main_v174 (broadcastInDim S600000x128 ![0, 1] bcast_S600000x1_S600000x128_0_1 : (⟨S600000x1, .f32⟩ : BufTy).Contents (Elt F) → (⟨S600000x128, .f32⟩ : BufTy).Contents (Elt F)),
    StableHlo.binary main_v172 main_v174 main_v175 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v176 (broadcastInDim S50000x128 ![] bcast_S_S50000x128 : (⟨S_, .f32⟩ : BufTy).Contents (Elt F) → (⟨S50000x128, .f32⟩ : BufTy).Contents (Elt F)),
    StableHlo.unary main_v3 main_v177 (broadcastInDim S600000x1 ![0] bcast_S600000_S600000x1_0 : (⟨S600000, .i32⟩ : BufTy).Contents (Elt F) → (⟨S600000x1, .i32⟩ : BufTy).Contents (Elt F)),
    StableHlo.ternary main_v176 main_v177 main_v175 main_v178 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_arg2 main_v179 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v179 main_v180 rfl shapeCasts_S1x128x128_S128x128,
    StableHlo.binary main_v178 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v182 ((extractStridedSlice S1x128 ![3, 0] · slices_S5x128_S1x128_3_0) : (⟨S5x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v185 main_v186 (addf : (⟨S50000x128, .f32⟩ : BufTy).Contents (Elt F) → (⟨S50000x128, .f32⟩ : BufTy).Contents (Elt F) → (⟨S50000x128, .f32⟩ : BufTy).Contents (Elt F)),
    StableHlo.unary main_arg4 main_v187 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v187 main_v188 rfl shapeCasts_S1x128x128_S128x128,
    StableHlo.binary main_v165 main_v188 main_v189 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v186 main_v189 main_v190 (addf : (⟨S50000x128, .f32⟩ : BufTy).Contents (Elt F) → (⟨S50000x128, .f32⟩ : BufTy).Contents (Elt F) → (⟨S50000x128, .f32⟩ : BufTy).Contents (Elt F)),
    StableHlo.unary main_arg5 main_v191 ((extractStridedSlice S1x128 ![3, 0] · slices_S5x128_S1x128_3_0) : (⟨S5x128, .f32⟩ : BufTy).Contents (Elt F) → (⟨S1x128, .f32⟩ : BufTy).Contents (Elt F)),
    StableHlo.reshape main_v191 main_v192 rfl shapeCasts_S1x128_S128,
    StableHlo.unary main_v192 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S50000x128 ![0, 1] bcast_S1x128_S50000x128_0_1 : (⟨S1x128, .f32⟩ : BufTy).Contents (Elt F) → (⟨S50000x128, .f32⟩ : BufTy).Contents (Elt F)),
    StableHlo.binary main_v190 main_v194 main_v195 (addf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.binary main_v195 main_cst_22 main_v196 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v197 (broadcastInDim S128 ![] bcast_S_S128 : (⟨S_, .f32⟩ : BufTy).Contents (Elt F) → (⟨S128, .f32⟩ : BufTy).Contents (Elt F)),
    StableHlo.binary main_v196 main_v197 main_v198 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v195 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v195 : StableHlo.TRef sig ⟨S50000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6_call0.v0 id,
    StableHlo.TRef.unary main_call6_call0.v0 main_call6_call0.v1 (broadcastInDim S128 ![] bcast_S_S128),
    StableHlo.TRef.ternary main_call6.v12 main_call6.v11 main_call6_call0.v1 main_call6_call0.v2 (fun p a b => select (broadcastInDim S128 ![] bcast_S_S128 p) a b),
    StableHlo.unary main_arg6 main_v200 ((extractStridedSlice S1x128 ![3, 0] · slices_S5x128_S1x128_3_0) : (⟨S5x128, .f32⟩ : BufTy).Contents (Elt F) → (⟨S1x128, .f32⟩ : BufTy).Contents (Elt F)),
    StableHlo.reshape main_v200 main_v201 rfl shapeCasts_S1x128_S128,
    StableHlo.unary main_v198 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v203 main_v204 (subf : (⟨S50000x128, .f32⟩ : BufTy).Contents (Elt F) → (⟨S50000x128, .f32⟩ : BufTy).Contents (Elt F) → (⟨S50000x128, .f32⟩ : BufTy).Contents (Elt F)),
    StableHlo.unary main_v201 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S50000x128 ![0, 1] bcast_S1x128_S50000x128_0_1 : (⟨S1x128, .f32⟩ : BufTy).Contents (Elt F) → (⟨S50000x128, .f32⟩ : BufTy).Contents (Elt F)),
    StableHlo.binary main_v206 main_v204 main_v207 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v208 (broadcastInDim S128 ![] bcast_S_S128 : (⟨S_, .f32⟩ : BufTy).Contents (Elt F) → (⟨S128, .f32⟩ : BufTy).Contents (Elt F)),
    StableHlo.binary main_v199 main_v208 main_v209 (addf : (⟨S128, .f32⟩ : BufTy).Contents (Elt F) → (⟨S128, .f32⟩ : BufTy).Contents (Elt F) → (⟨S128, .f32⟩ : BufTy).Contents (Elt F)),
    StableHlo.unary main_v209 main_v210 (Host.rsqrt : (⟨S128, .f32⟩ : BufTy).Contents (Elt F) → (⟨S128, .f32⟩ : BufTy).Contents (Elt F)),
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v207 main_v212 main_v213 (mulf : (⟨S50000x128, .f32⟩ : BufTy).Contents (Elt F) → (⟨S50000x128, .f32⟩ : BufTy).Contents (Elt F) → (⟨S50000x128, .f32⟩ : BufTy).Contents (Elt F)),
    StableHlo.unary main_arg7 main_v214 ((extractStridedSlice S1x128 ![3, 0] · slices_S5x128_S1x128_3_0) : (⟨S5x128, .f32⟩ : BufTy).Contents (Elt F) → (⟨S1x128, .f32⟩ : BufTy).Contents (Elt F)),
    StableHlo.reshape main_v214 main_v215 rfl shapeCasts_S1x128_S128,
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v213 main_v217 main_v218 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v218 : StableHlo.TRef sig ⟨S50000x128, .f32⟩) main_call7.v0 main_call7.v1 maximumf ]

/-- Layer 4: the same over the output of layer 3 and the fifth row of every parameter table. 84 operations. -/
abbrev opsL4 : List (HloOp τ sig (Elt F)) :=
  [
    StableHlo.nullary main_c_26 (constantI S_ 32 0#32),
    StableHlo.unary main_c_26 main_v220 (broadcastInDim S600000 ![] bcast_S_S600000 : (⟨S_, .i32⟩ : BufTy).Contents (Elt F) → (⟨S600000, .i32⟩ : BufTy).Contents (Elt F)),
    StableHlo.binary main_v1 main_v220 main_v221 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v222 (broadcastInDim S600000 ![] bcast_S_S600000 : (⟨S_, .i32⟩ : BufTy).Contents (Elt F) → (⟨S600000, .i32⟩ : BufTy).Contents (Elt F)),
    StableHlo.binary main_v1 main_v222 main_v223 (addi : (⟨S600000, .i32⟩ : BufTy).Contents (Elt F) → (⟨S600000, .i32⟩ : BufTy).Contents (Elt F) → (⟨S600000, .i32⟩ : BufTy).Contents (Elt F)),
    StableHlo.ternary main_v221 main_v223 main_v1 main_v224 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v224 main_v225 (broadcastInDim S600000x1 ![0] bcast_S600000_S600000x1_0 : (⟨S600000, .i32⟩ : BufTy).Contents (Elt F) → (⟨S600000x1, .i32⟩ : BufTy).Contents (Elt F)),
    StableHlo.binary main_v219 main_v225 main_v226 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v227 (broadcastInDim S600000x1 ![0] bcast_S600000_S600000x1_0 : (⟨S600000, .f32⟩ : BufTy).Contents (Elt F) → (⟨S600000x1, .f32⟩ : BufTy).Contents (Elt F)),
    StableHlo.unary main_v227 main_v228 (broadcastInDim S600000x128 ![0, 1] bcast_S600000x1_S600000x128_0_1 : (⟨S600000x1, .f32⟩ : BufTy).Contents (Elt F) → (⟨S600000x128, .f32⟩ : BufTy).Contents (Elt F)),
    StableHlo.binary main_v226 main_v228 main_v229 (mulf : (⟨S600000x128, .f32⟩ : BufTy).Contents (Elt F) → (⟨S600000x128, .f32⟩ : BufTy).Contents (Elt F) → (⟨S600000x128, .f32⟩ : BufTy).Contents (Elt F)),
    StableHlo.nullary main_cst_28 (constant S_ .f32 0x00000000#32),
    StableHlo.unary main_cst_28 main_v230 (broadcastInDim S50000x128 ![] bcast_S_S50000x128 : (⟨S_, .f32⟩ : BufTy).Contents (Elt F) → (⟨S50000x128, .f32⟩ : BufTy).Contents (Elt F)),
    StableHlo.unary main_v3 main_v231 (broadcastInDim S600000x1 ![0] bcast_S600000_S600000x1_0 : (⟨S600000, .i32⟩ : BufTy).Contents (Elt F) → (⟨S600000x1, .i32⟩ : BufTy).Contents (Elt F)),
    StableHlo.ternary main_v230 main_v231 main_v229 main_v232 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.unary main_arg2 main_v233 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v233 main_v234 rfl shapeCasts_S1x128x128_S128x128,
    StableHlo.binary main_v232 main_v234 main_v235 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v236 ((extractStridedSlice S1x128 ![4, 0] · slices_S5x128_S1x128_4_0) : (⟨S5x128, .f32⟩ : BufTy).Contents (Elt F) → (⟨S1x128, .f32⟩ : BufTy).Contents (Elt F)),
    StableHlo.reshape main_v236 main_v237 rfl shapeCasts_S1x128_S128,
    StableHlo.unary main_v237 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v235 main_v239 main_v240 (addf : (⟨S50000x128, .f32⟩ : BufTy).Contents (Elt F) → (⟨S50000x128, .f32⟩ : BufTy).Contents (Elt F) → (⟨S50000x128, .f32⟩ : BufTy).Contents (Elt F)),
    StableHlo.unary main_arg4 main_v241 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v241 main_v242 rfl shapeCasts_S1x128x128_S128x128,
    StableHlo.binary main_v219 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v240 main_v243 main_v244 (addf : (⟨S50000x128, .f32⟩ : BufTy).Contents (Elt F) → (⟨S50000x128, .f32⟩ : BufTy).Contents (Elt F) → (⟨S50000x128, .f32⟩ : BufTy).Contents (Elt F)),
    StableHlo.unary main_arg5 main_v245 ((extractStridedSlice S1x128 ![4, 0] · slices_S5x128_S1x128_4_0) : (⟨S5x128, .f32⟩ : BufTy).Contents (Elt F) → (⟨S1x128, .f32⟩ : BufTy).Contents (Elt F)),
    StableHlo.reshape main_v245 main_v246 rfl shapeCasts_S1x128_S128,
    StableHlo.unary main_v246 main_v247 (broadcastInDim S1x128 ![1] bcast_S128_S1x128_1 : (⟨S128, .f32⟩ : BufTy).Contents (Elt F) → (⟨S1x128, .f32⟩ : BufTy).Contents (Elt F)),
    StableHlo.unary main_v247 main_v248 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v248 main_v249 (addf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x00000000#32),
    StableHlo.binary main_v249 main_cst_29 main_v250 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v251 (broadcastInDim S128 ![] bcast_S_S128 : (⟨S_, .f32⟩ : BufTy).Contents (Elt F) → (⟨S128, .f32⟩ : BufTy).Contents (Elt F)),
    StableHlo.binary main_v250 main_v251 main_v252 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call8.cst (constant S_ .f32 0x00000000#32),
    StableHlo.TRef.binary (.of main_v249 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v249 : StableHlo.TRef sig ⟨S50000x128, .f32⟩) main_call8.v4 main_call8.v5 subf,
    StableHlo.TRef.binary main_call8.v5 main_call8.v5 main_call8.v6 mulf,
    StableHlo.TRef.unary (.of main_c_31 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8_call0.v0 id,
    StableHlo.TRef.unary main_call8_call0.v0 main_call8_call0.v1 (broadcastInDim S128 ![] bcast_S_S128),
    StableHlo.TRef.ternary main_call8.v12 main_call8.v11 main_call8_call0.v1 main_call8_call0.v2 (fun p a b => select (broadcastInDim S128 ![] bcast_S_S128 p) a b),
    StableHlo.unary main_arg6 main_v254 ((extractStridedSlice S1x128 ![4, 0] · slices_S5x128_S1x128_4_0) : (⟨S5x128, .f32⟩ : BufTy).Contents (Elt F) → (⟨S1x128, .f32⟩ : BufTy).Contents (Elt F)),
    StableHlo.reshape main_v254 main_v255 rfl shapeCasts_S1x128_S128,
    StableHlo.unary main_v252 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S50000x128 ![0, 1] bcast_S1x128_S50000x128_0_1 : (⟨S1x128, .f32⟩ : BufTy).Contents (Elt F) → (⟨S50000x128, .f32⟩ : BufTy).Contents (Elt F)),
    StableHlo.binary main_v249 main_v257 main_v258 (subf : (⟨S50000x128, .f32⟩ : BufTy).Contents (Elt F) → (⟨S50000x128, .f32⟩ : BufTy).Contents (Elt F) → (⟨S50000x128, .f32⟩ : BufTy).Contents (Elt F)),
    StableHlo.unary main_v255 main_v259 (broadcastInDim S1x128 ![1] bcast_S128_S1x128_1 : (⟨S128, .f32⟩ : BufTy).Contents (Elt F) → (⟨S1x128, .f32⟩ : BufTy).Contents (Elt F)),
    StableHlo.unary main_v259 main_v260 (broadcastInDim S50000x128 ![0, 1] bcast_S1x128_S50000x128_0_1 : (⟨S1x128, .f32⟩ : BufTy).Contents (Elt F) → (⟨S50000x128, .f32⟩ : BufTy).Contents (Elt F)),
    StableHlo.binary main_v260 main_v258 main_v261 (mulf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v262 (broadcastInDim S128 ![] bcast_S_S128 : (⟨S_, .f32⟩ : BufTy).Contents (Elt F) → (⟨S128, .f32⟩ : BufTy).Contents (Elt F)),
    StableHlo.binary main_v253 main_v262 main_v263 (addf : (⟨S128, .f32⟩ : BufTy).Contents (Elt F) → (⟨S128, .f32⟩ : BufTy).Contents (Elt F) → (⟨S128, .f32⟩ : BufTy).Contents (Elt F)),
    StableHlo.unary main_v263 main_v264 (Host.rsqrt : (⟨S128, .f32⟩ : BufTy).Contents (Elt F) → (⟨S128, .f32⟩ : BufTy).Contents (Elt F)),
    StableHlo.unary main_v264 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S50000x128 ![0, 1] bcast_S1x128_S50000x128_0_1 : (⟨S1x128, .f32⟩ : BufTy).Contents (Elt F) → (⟨S50000x128, .f32⟩ : BufTy).Contents (Elt F)),
    StableHlo.binary main_v261 main_v266 main_v267 (mulf : (⟨S50000x128, .f32⟩ : BufTy).Contents (Elt F) → (⟨S50000x128, .f32⟩ : BufTy).Contents (Elt F) → (⟨S50000x128, .f32⟩ : BufTy).Contents (Elt F)),
    StableHlo.unary main_arg7 main_v268 ((extractStridedSlice S1x128 ![4, 0] · slices_S5x128_S1x128_4_0) : (⟨S5x128, .f32⟩ : BufTy).Contents (Elt F) → (⟨S1x128, .f32⟩ : BufTy).Contents (Elt F)),
    StableHlo.reshape main_v268 main_v269 rfl shapeCasts_S1x128_S128,
    StableHlo.unary main_v269 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v267 main_v271 main_v272 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v272 : StableHlo.TRef sig ⟨S50000x128, .f32⟩) main_call9.v0 main_call9.v1 maximumf ]

/-- The pooling tail: the running sums of the group sizes with a leading zero, each node's offset looked up by its group (negative groups wrapped), the node's slot as offset plus position, the sum of the last layer's rows per slot, the count of nodes per slot, and the quotient by the count bounded below by one. 32 operations. -/
abbrev opsT : List (HloOp τ sig (Elt F)) :=
  [
    StableHlo.nullary main_c_33 (constantI S_ 32 0#32),
    StableHlo.unary main_c_33 main_v274 (broadcastInDim S1 ![] bcast_S_S1 : (⟨S_, .i32⟩ : BufTy).Contents (Elt F) → (⟨S1, .i32⟩ : BufTy).Contents (Elt F)),
    StableHlo.TRef.nullary main_call10_call0.c (constantI S_ 32 0#32),
    StableHlo.TRef.unary main_call10_call0.c main_call10_call0.v0 (broadcastInDim S_ ![] bcast_S_S_),
    StableHlo.TRef.binary (.of main_arg10 : StableHlo.TRef sig ⟨S256, .i32⟩) main_call10_call0.v0 main_call10_call0.v1 (fun x v => Host.reduceWindow IntOp.addi ![256] ![1] ![255] ![0] x v reduceWindows_S256_S256_w256s1p255_0 h_S_),
    StableHlo.binary main_v274 main_v275 main_v276 ((fun a b => concatenate S257 0 [⟨S1, a⟩, ⟨S256, b⟩] concatenates_S1_S256_S257_d0) : (⟨S1, .i32⟩ : BufTy).Contents (Elt F) → (⟨S256, .i32⟩ : BufTy).Contents (Elt F) → (⟨S257, .i32⟩ : BufTy).Contents (Elt F)),
    StableHlo.nullary main_c_34 (constantI S_ 32 0#32),
    StableHlo.unary main_c_34 main_v277 (broadcastInDim S50000 ![] bcast_S_S50000 : (⟨S_, .i32⟩ : BufTy).Contents (Elt F) → (⟨S50000, .i32⟩ : BufTy).Contents (Elt F)),
    StableHlo.binary main_arg9 main_v277 main_v278 (cmpi .slt : (⟨S50000, .i32⟩ : BufTy).Contents (Elt F) → (⟨S50000, .i32⟩ : BufTy).Contents (Elt F) → (⟨S50000, .i1⟩ : BufTy).Contents (Elt F)),
    StableHlo.nullary main_c_35 (constantI S_ 32 257#32),
    StableHlo.unary main_c_35 main_v279 (broadcastInDim S50000 ![] bcast_S_S50000 : (⟨S_, .i32⟩ : BufTy).Contents (Elt F) → (⟨S50000, .i32⟩ : BufTy).Contents (Elt F)),
    StableHlo.binary main_arg9 main_v279 main_v280 (addi : (⟨S50000, .i32⟩ : BufTy).Contents (Elt F) → (⟨S50000, .i32⟩ : BufTy).Contents (Elt F) → (⟨S50000, .i32⟩ : BufTy).Contents (Elt F)),
    StableHlo.ternary main_v278 main_v280 main_arg9 main_v281 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v281 main_v282 (broadcastInDim S50000x1 ![0] bcast_S50000_S50000x1_0 : (⟨S50000, .i32⟩ : BufTy).Contents (Elt F) → (⟨S50000x1, .i32⟩ : BufTy).Contents (Elt F)),
    StableHlo.binary main_v276 main_v282 main_v283 ((fun x i => Host.gather gather_S257_S50000x1_S50000_n_0_n_n_0_1_1 x i) : (⟨S257, .i32⟩ : BufTy).Contents (Elt F) → (⟨S50000x1, .i32⟩ : BufTy).Contents (Elt F) → (⟨S50000, .i32⟩ : BufTy).Contents (Elt F)),
    StableHlo.binary main_arg11 main_v283 main_v284 (addi : (⟨S50000, .i32⟩ : BufTy).Contents (Elt F) → (⟨S50000, .i32⟩ : BufTy).Contents (Elt F) → (⟨S50000, .i32⟩ : BufTy).Contents (Elt F)),
    StableHlo.nullary main_cst_36 (constant S_ .f32 0x00000000#32),
    StableHlo.unary main_cst_36 main_v285 (broadcastInDim S2560x128 ![] bcast_S_S2560x128 : (⟨S_, .f32⟩ : BufTy).Contents (Elt F) → (⟨S2560x128, .f32⟩ : BufTy).Contents (Elt F)),
    StableHlo.unary main_v284 main_v286 (broadcastInDim S50000x1 ![0] bcast_S50000_S50000x1_0 : (⟨S50000, .i32⟩ : BufTy).Contents (Elt F) → (⟨S50000x1, .i32⟩ : BufTy).Contents (Elt F)),
    StableHlo.ternary main_v285 main_v286 main_v273 main_v287 ((fun x i u => Host.scatterAdd scatter_S2560x128_S50000x1_S50000x128_1_0_0_1 x i u) : (⟨S2560x128, .f32⟩ : BufTy).Contents (Elt F) → (⟨S50000x1, .i32⟩ : BufTy).Contents (Elt F) → (⟨S50000x128, .f32⟩ : BufTy).Contents (Elt F) → (⟨S2560x128, .f32⟩ : BufTy).Contents (Elt F)),
    StableHlo.nullary main_cst_37 (constant S_ .f32 0x3F800000#32),
    StableHlo.unary main_cst_37 main_v288 (broadcastInDim S50000 ![] bcast_S_S50000 : (⟨S_, .f32⟩ : BufTy).Contents (Elt F) → (⟨S50000, .f32⟩ : BufTy).Contents (Elt F)),
    StableHlo.nullary main_cst_38 (constant S_ .f32 0x00000000#32),
    StableHlo.unary main_cst_38 main_v289 (broadcastInDim S2560 ![] bcast_S_S2560 : (⟨S_, .f32⟩ : BufTy).Contents (Elt F) → (⟨S2560, .f32⟩ : BufTy).Contents (Elt F)),
    StableHlo.unary main_v284 main_v290 (broadcastInDim S50000x1 ![0] bcast_S50000_S50000x1_0 : (⟨S50000, .i32⟩ : BufTy).Contents (Elt F) → (⟨S50000x1, .i32⟩ : BufTy).Contents (Elt F)),
    StableHlo.ternary main_v289 main_v290 main_v288 main_v291 ((fun x i u => Host.scatterAdd scatter_S2560_S50000x1_S50000_n_0_0_1 x i u) : (⟨S2560, .f32⟩ : BufTy).Contents (Elt F) → (⟨S50000x1, .i32⟩ : BufTy).Contents (Elt F) → (⟨S50000, .f32⟩ : BufTy).Contents (Elt F) → (⟨S2560, .f32⟩ : BufTy).Contents (Elt F)),
    StableHlo.nullary main_cst_39 (constant S_ .f32 0x3F800000#32),
    StableHlo.unary main_cst_39 main_v292 (broadcastInDim S2560 ![] bcast_S_S2560 : (⟨S_, .f32⟩ : BufTy).Contents (Elt F) → (⟨S2560, .f32⟩ : BufTy).Contents (Elt F)),
    StableHlo.binary main_v291 main_v292 main_v293 (maximumf : (⟨S2560, .f32⟩ : BufTy).Contents (Elt F) → (⟨S2560, .f32⟩ : BufTy).Contents (Elt F) → (⟨S2560, .f32⟩ : BufTy).Contents (Elt F)),
    StableHlo.unary main_v293 main_v294 (broadcastInDim S2560x1 ![0] bcast_S2560_S2560x1_0 : (⟨S2560, .f32⟩ : BufTy).Contents (Elt F) → (⟨S2560x1, .f32⟩ : BufTy).Contents (Elt F)),
    StableHlo.unary main_v294 main_v295 (broadcastInDim S2560x128 ![0, 1] bcast_S2560x1_S2560x128_0_1 : (⟨S2560x1, .f32⟩ : BufTy).Contents (Elt F) → (⟨S2560x128, .f32⟩ : BufTy).Contents (Elt F)),
    StableHlo.binary main_v287 main_v295 main_v296 (Host.divf : (⟨S2560x128, .f32⟩ : BufTy).Contents (Elt F) → (⟨S2560x128, .f32⟩ : BufTy).Contents (Elt F) → (⟨S2560x128, .f32⟩ : BufTy).Contents (Elt F)) ]

/-! ## The buffer contents between the lists -/

/-- The device's buffer contents at launch. -/
abbrev U0 (m : (ℓ : Loc nD τ sig) → Buf (Elt F) ℓ) (c : Dev nD) : Valuation τ sig (Elt F) := fun b => m (c, b)
/-- After layer 0. -/
abbrev U1 (m : (ℓ : Loc nD τ sig) → Buf (Elt F) ℓ) (c : Dev nD) : Valuation τ sig (Elt F) := after opsL0 (U0 m c)
/-- After layer 1. -/
abbrev U2 (m : (ℓ : Loc nD τ sig) → Buf (Elt F) ℓ) (c : Dev nD) : Valuation τ sig (Elt F) := after opsL1 (U1 m c)
/-- After layer 2. -/
abbrev U3 (m : (ℓ : Loc nD τ sig) → Buf (Elt F) ℓ) (c : Dev nD) : Valuation τ sig (Elt F) := after opsL2 (U2 m c)
/-- After layer 3. -/
abbrev U4 (m : (ℓ : Loc nD τ sig) → Buf (Elt F) ℓ) (c : Dev nD) : Valuation τ sig (Elt F) := after opsL3 (U3 m c)
/-- After layer 4. -/
abbrev U5 (m : (ℓ : Loc nD τ sig) → Buf (Elt F) ℓ) (c : Dev nD) : Valuation τ sig (Elt F) := after opsL4 (U4 m c)
/-- After the pooling tail: the end of the program. -/
abbrev U6 (m : (ℓ : Loc nD τ sig) → Buf (Elt F) ℓ) (c : Dev nD) : Valuation τ sig (Elt F) := after opsT (U5 m c)

end Cert.ReferenceIdeal.Hand

end
-- ==== Proof.Ref.OpsFacts.lean ====
/- For each of the six operation lists: every operation touches TensorCore references only; none leaves a buffer's
   contents undetermined; and the references the list writes, as a list, with each operation writing inside it. -/
import proofs.«162849_j29643864277577_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is a reference of the list `W` writes inside `W`. -/
theorem writes_sub_of_mem {W : List (Ref sig .tc)} {op : HloOp τ sig (Elt F)} (y : Ref sig .tc)
    (hw : op.writes = {Proc.devRef .tc y}) (hy : y ∈ W) : op.writes ⊆ (W.map (Proc.devRef (τ := τ) .tc)).toFinset := by
  rw [hw, Finset.singleton_subset_iff, List.mem_toFinset]
  exact List.mem_map.2 ⟨y, hy, rfl⟩

/-! ## opsL0 -/

/-- The references opsL0 writes, in the order of its operations. -/
abbrev wL0 : List (Ref sig .tc) :=
  [
    main_v0, main_v1, main_v2, main_v3, main_c, main_v4, main_v5, main_c_0,
    main_v6, main_v7, main_v8, main_v9, main_v10, main_v11, main_v12, main_v13,
    main_cst, main_v14, main_v15, main_v16, main_v17, main_v18, main_v19, main_v20,
    main_v21, main_v22, main_v23, main_v24, main_v25, main_v26, main_v27, main_v28,
    main_v29, main_v30, main_v31, main_v32, main_v33, main_cst_1, main_v34, main_cst_2,
    main_v35, main_v36, main_c_3, main_call0.cst.ref, main_call0.v0.ref, main_call0.v1.ref, main_call0.cst_0.ref, main_call0.v2.ref,
    main_call0.v3.ref, main_call0.v4.ref, main_call0.v5.ref, main_call0.v6.ref, main_call0.v7.ref, main_call0.cst_1.ref, main_call0.v8.ref, main_call0.cst_2.ref,
    main_call0.v9.ref, main_call0.v10.ref, main_call0.v11.ref, main_call0.cst_3.ref, main_call0.v12.ref, main_call0.cst_4.ref, main_call0_call0.v0.ref, main_call0_call0.v1.ref,
    main_call0_call0.v2.ref, main_v38, main_v39, main_v40, main_v41, main_v42, main_v43, main_v44,
    main_v45, main_cst_4, main_v46, main_v47, main_v48, main_v49, main_v50, main_v51,
    main_v52, main_v53, main_v54, main_v55, main_v56, main_call1.cst.ref, main_call1.v0.ref, main_call1.v1.ref ]

theorem opsL0_sub : (opsL0 : List (HloOp τ sig (Elt F))).Forall fun op => op.bufs ⊆ tcRefs τ sig :=
  ⟨
    unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..,
    binary_bufs_sub .., binary_bufs_sub .., unary_bufs_sub .., reshape_bufs_sub .., unary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    reshape_bufs_sub .., unary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., nullary_bufs_sub .., unary_bufs_sub .., binary_bufs_sub .. ⟩

theorem opsL0_fresh : (opsL0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl ⟩

theorem opsL0_writes : (opsL0 : List (HloOp τ sig (Elt F))).Forall fun op => op.writes ⊆ (wL0.map (Proc.devRef (τ := τ) .tc)).toFinset :=
  ⟨
    writes_sub_of_mem main_v0 rfl (List.mem_of_getElem? (i := 0) rfl), writes_sub_of_mem main_v1 rfl (List.mem_of_getElem? (i := 1) rfl),
    writes_sub_of_mem main_v2 rfl (List.mem_of_getElem? (i := 2) rfl), writes_sub_of_mem main_v3 rfl (List.mem_of_getElem? (i := 3) rfl),
    writes_sub_of_mem main_c rfl (List.mem_of_getElem? (i := 4) rfl), writes_sub_of_mem main_v4 rfl (List.mem_of_getElem? (i := 5) rfl),
    writes_sub_of_mem main_v5 rfl (List.mem_of_getElem? (i := 6) rfl), writes_sub_of_mem main_c_0 rfl (List.mem_of_getElem? (i := 7) rfl),
    writes_sub_of_mem main_v6 rfl (List.mem_of_getElem? (i := 8) rfl), writes_sub_of_mem main_v7 rfl (List.mem_of_getElem? (i := 9) rfl),
    writes_sub_of_mem main_v8 rfl (List.mem_of_getElem? (i := 10) rfl), writes_sub_of_mem main_v9 rfl (List.mem_of_getElem? (i := 11) rfl),
    writes_sub_of_mem main_v10 rfl (List.mem_of_getElem? (i := 12) rfl), writes_sub_of_mem main_v11 rfl (List.mem_of_getElem? (i := 13) rfl),
    writes_sub_of_mem main_v12 rfl (List.mem_of_getElem? (i := 14) rfl), writes_sub_of_mem main_v13 rfl (List.mem_of_getElem? (i := 15) rfl),
    writes_sub_of_mem main_cst rfl (List.mem_of_getElem? (i := 16) rfl), writes_sub_of_mem main_v14 rfl (List.mem_of_getElem? (i := 17) rfl),
    writes_sub_of_mem main_v15 rfl (List.mem_of_getElem? (i := 18) rfl), writes_sub_of_mem main_v16 rfl (List.mem_of_getElem? (i := 19) rfl),
    writes_sub_of_mem main_v17 rfl (List.mem_of_getElem? (i := 20) rfl), writes_sub_of_mem main_v18 rfl (List.mem_of_getElem? (i := 21) rfl),
    writes_sub_of_mem main_v19 rfl (List.mem_of_getElem? (i := 22) rfl), writes_sub_of_mem main_v20 rfl (List.mem_of_getElem? (i := 23) rfl),
    writes_sub_of_mem main_v21 rfl (List.mem_of_getElem? (i := 24) rfl), writes_sub_of_mem main_v22 rfl (List.mem_of_getElem? (i := 25) rfl),
    writes_sub_of_mem main_v23 rfl (List.mem_of_getElem? (i := 26) rfl), writes_sub_of_mem main_v24 rfl (List.mem_of_getElem? (i := 27) rfl),
    writes_sub_of_mem main_v25 rfl (List.mem_of_getElem? (i := 28) rfl), writes_sub_of_mem main_v26 rfl (List.mem_of_getElem? (i := 29) rfl),
    writes_sub_of_mem main_v27 rfl (List.mem_of_getElem? (i := 30) rfl), writes_sub_of_mem main_v28 rfl (List.mem_of_getElem? (i := 31) rfl),
    writes_sub_of_mem main_v29 rfl (List.mem_of_getElem? (i := 32) rfl), writes_sub_of_mem main_v30 rfl (List.mem_of_getElem? (i := 33) rfl),
    writes_sub_of_mem main_v31 rfl (List.mem_of_getElem? (i := 34) rfl), writes_sub_of_mem main_v32 rfl (List.mem_of_getElem? (i := 35) rfl),
    writes_sub_of_mem main_v33 rfl (List.mem_of_getElem? (i := 36) rfl), writes_sub_of_mem main_cst_1 rfl (List.mem_of_getElem? (i := 37) rfl),
    writes_sub_of_mem main_v34 rfl (List.mem_of_getElem? (i := 38) rfl), writes_sub_of_mem main_cst_2 rfl (List.mem_of_getElem? (i := 39) rfl),
    writes_sub_of_mem main_v35 rfl (List.mem_of_getElem? (i := 40) rfl), writes_sub_of_mem main_v36 rfl (List.mem_of_getElem? (i := 41) rfl),
    writes_sub_of_mem main_c_3 rfl (List.mem_of_getElem? (i := 42) rfl), writes_sub_of_mem main_call0.cst.ref rfl (List.mem_of_getElem? (i := 43) rfl),
    writes_sub_of_mem main_call0.v0.ref rfl (List.mem_of_getElem? (i := 44) rfl), writes_sub_of_mem main_call0.v1.ref rfl (List.mem_of_getElem? (i := 45) rfl),
    writes_sub_of_mem main_call0.cst_0.ref rfl (List.mem_of_getElem? (i := 46) rfl), writes_sub_of_mem main_call0.v2.ref rfl (List.mem_of_getElem? (i := 47) rfl),
    writes_sub_of_mem main_call0.v3.ref rfl (List.mem_of_getElem? (i := 48) rfl), writes_sub_of_mem main_call0.v4.ref rfl (List.mem_of_getElem? (i := 49) rfl),
    writes_sub_of_mem main_call0.v5.ref rfl (List.mem_of_getElem? (i := 50) rfl), writes_sub_of_mem main_call0.v6.ref rfl (List.mem_of_getElem? (i := 51) rfl),
    writes_sub_of_mem main_call0.v7.ref rfl (List.mem_of_getElem? (i := 52) rfl), writes_sub_of_mem main_call0.cst_1.ref rfl (List.mem_of_getElem? (i := 53) rfl),
    writes_sub_of_mem main_call0.v8.ref rfl (List.mem_of_getElem? (i := 54) rfl), writes_sub_of_mem main_call0.cst_2.ref rfl (List.mem_of_getElem? (i := 55) rfl),
    writes_sub_of_mem main_call0.v9.ref rfl (List.mem_of_getElem? (i := 56) rfl), writes_sub_of_mem main_call0.v10.ref rfl (List.mem_of_getElem? (i := 57) rfl),
    writes_sub_of_mem main_call0.v11.ref rfl (List.mem_of_getElem? (i := 58) rfl), writes_sub_of_mem main_call0.cst_3.ref rfl (List.mem_of_getElem? (i := 59) rfl),
    writes_sub_of_mem main_call0.v12.ref rfl (List.mem_of_getElem? (i := 60) rfl), writes_sub_of_mem main_call0.cst_4.ref rfl (List.mem_of_getElem? (i := 61) rfl),
    writes_sub_of_mem main_call0_call0.v0.ref rfl (List.mem_of_getElem? (i := 62) rfl), writes_sub_of_mem main_call0_call0.v1.ref rfl (List.mem_of_getElem? (i := 63) rfl),
    writes_sub_of_mem main_call0_call0.v2.ref rfl (List.mem_of_getElem? (i := 64) rfl), writes_sub_of_mem main_v38 rfl (List.mem_of_getElem? (i := 65) rfl),
    writes_sub_of_mem main_v39 rfl (List.mem_of_getElem? (i := 66) rfl), writes_sub_of_mem main_v40 rfl (List.mem_of_getElem? (i := 67) rfl),
    writes_sub_of_mem main_v41 rfl (List.mem_of_getElem? (i := 68) rfl), writes_sub_of_mem main_v42 rfl (List.mem_of_getElem? (i := 69) rfl),
    writes_sub_of_mem main_v43 rfl (List.mem_of_getElem? (i := 70) rfl), writes_sub_of_mem main_v44 rfl (List.mem_of_getElem? (i := 71) rfl),
    writes_sub_of_mem main_v45 rfl (List.mem_of_getElem? (i := 72) rfl), writes_sub_of_mem main_cst_4 rfl (List.mem_of_getElem? (i := 73) rfl),
    writes_sub_of_mem main_v46 rfl (List.mem_of_getElem? (i := 74) rfl), writes_sub_of_mem main_v47 rfl (List.mem_of_getElem? (i := 75) rfl),
    writes_sub_of_mem main_v48 rfl (List.mem_of_getElem? (i := 76) rfl), writes_sub_of_mem main_v49 rfl (List.mem_of_getElem? (i := 77) rfl),
    writes_sub_of_mem main_v50 rfl (List.mem_of_getElem? (i := 78) rfl), writes_sub_of_mem main_v51 rfl (List.mem_of_getElem? (i := 79) rfl),
    writes_sub_of_mem main_v52 rfl (List.mem_of_getElem? (i := 80) rfl), writes_sub_of_mem main_v53 rfl (List.mem_of_getElem? (i := 81) rfl),
    writes_sub_of_mem main_v54 rfl (List.mem_of_getElem? (i := 82) rfl), writes_sub_of_mem main_v55 rfl (List.mem_of_getElem? (i := 83) rfl),
    writes_sub_of_mem main_v56 rfl (List.mem_of_getElem? (i := 84) rfl), writes_sub_of_mem main_call1.cst.ref rfl (List.mem_of_getElem? (i := 85) rfl),
    writes_sub_of_mem main_call1.v0.ref rfl (List.mem_of_getElem? (i := 86) rfl), writes_sub_of_mem main_call1.v1.ref rfl (List.mem_of_getElem? (i := 87) rfl) ⟩

/-! ## opsL1 -/

/-- The references opsL1 writes, in the order of its operations. -/
abbrev wL1 : List (Ref sig .tc) :=
  [
    main_c_5, main_v58, main_v59, main_c_6, main_v60, main_v61, main_v62, main_v63,
    main_v64, main_v65, main_v66, main_v67, main_cst_7, main_v68, main_v69, main_v70,
    main_v71, main_v72, main_v73, main_v74, main_v75, main_v76, main_v77, main_v78,
    main_v79, main_v80, main_v81, main_v82, main_v83, main_v84, main_v85, main_v86,
    main_v87, main_cst_8, main_v88, main_cst_9, main_v89, main_v90, main_c_10, main_call2.cst.ref,
    main_call2.v0.ref, main_call2.v1.ref, main_call2.cst_0.ref, main_call2.v2.ref, main_call2.v3.ref, main_call2.v4.ref, main_call2.v5.ref, main_call2.v6.ref,
    main_call2.v7.ref, main_call2.cst_1.ref, main_call2.v8.ref, main_call2.cst_2.ref, main_call2.v9.ref, main_call2.v10.ref, main_call2.v11.ref, main_call2.cst_3.ref,
    main_call2.v12.ref, main_call2.cst_4.ref, main_call2_call0.v0.ref, main_call2_call0.v1.ref, main_call2_call0.v2.ref, main_v92, main_v93, main_v94,
    main_v95, main_v96, main_v97, main_v98, main_v99, main_cst_11, main_v100, main_v101,
    main_v102, main_v103, main_v104, main_v105, main_v106, main_v107, main_v108, main_v109,
    main_v110, main_call3.cst.ref, main_call3.v0.ref, main_call3.v1.ref ]

theorem opsL1_sub : (opsL1 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub .. ⟩

theorem opsL1_fresh : (opsL1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl ⟩

theorem opsL1_writes : (opsL1 : List (HloOp τ sig (Elt F))).Forall fun op => op.writes ⊆ (wL1.map (Proc.devRef (τ := τ) .tc)).toFinset :=
  ⟨
    writes_sub_of_mem main_c_5 rfl (List.mem_of_getElem? (i := 0) rfl), writes_sub_of_mem main_v58 rfl (List.mem_of_getElem? (i := 1) rfl),
    writes_sub_of_mem main_v59 rfl (List.mem_of_getElem? (i := 2) rfl), writes_sub_of_mem main_c_6 rfl (List.mem_of_getElem? (i := 3) rfl),
    writes_sub_of_mem main_v60 rfl (List.mem_of_getElem? (i := 4) rfl), writes_sub_of_mem main_v61 rfl (List.mem_of_getElem? (i := 5) rfl),
    writes_sub_of_mem main_v62 rfl (List.mem_of_getElem? (i := 6) rfl), writes_sub_of_mem main_v63 rfl (List.mem_of_getElem? (i := 7) rfl),
    writes_sub_of_mem main_v64 rfl (List.mem_of_getElem? (i := 8) rfl), writes_sub_of_mem main_v65 rfl (List.mem_of_getElem? (i := 9) rfl),
    writes_sub_of_mem main_v66 rfl (List.mem_of_getElem? (i := 10) rfl), writes_sub_of_mem main_v67 rfl (List.mem_of_getElem? (i := 11) rfl),
    writes_sub_of_mem main_cst_7 rfl (List.mem_of_getElem? (i := 12) rfl), writes_sub_of_mem main_v68 rfl (List.mem_of_getElem? (i := 13) rfl),
    writes_sub_of_mem main_v69 rfl (List.mem_of_getElem? (i := 14) rfl), writes_sub_of_mem main_v70 rfl (List.mem_of_getElem? (i := 15) rfl),
    writes_sub_of_mem main_v71 rfl (List.mem_of_getElem? (i := 16) rfl), writes_sub_of_mem main_v72 rfl (List.mem_of_getElem? (i := 17) rfl),
    writes_sub_of_mem main_v73 rfl (List.mem_of_getElem? (i := 18) rfl), writes_sub_of_mem main_v74 rfl (List.mem_of_getElem? (i := 19) rfl),
    writes_sub_of_mem main_v75 rfl (List.mem_of_getElem? (i := 20) rfl), writes_sub_of_mem main_v76 rfl (List.mem_of_getElem? (i := 21) rfl),
    writes_sub_of_mem main_v77 rfl (List.mem_of_getElem? (i := 22) rfl), writes_sub_of_mem main_v78 rfl (List.mem_of_getElem? (i := 23) rfl),
    writes_sub_of_mem main_v79 rfl (List.mem_of_getElem? (i := 24) rfl), writes_sub_of_mem main_v80 rfl (List.mem_of_getElem? (i := 25) rfl),
    writes_sub_of_mem main_v81 rfl (List.mem_of_getElem? (i := 26) rfl), writes_sub_of_mem main_v82 rfl (List.mem_of_getElem? (i := 27) rfl),
    writes_sub_of_mem main_v83 rfl (List.mem_of_getElem? (i := 28) rfl), writes_sub_of_mem main_v84 rfl (List.mem_of_getElem? (i := 29) rfl),
    writes_sub_of_mem main_v85 rfl (List.mem_of_getElem? (i := 30) rfl), writes_sub_of_mem main_v86 rfl (List.mem_of_getElem? (i := 31) rfl),
    writes_sub_of_mem main_v87 rfl (List.mem_of_getElem? (i := 32) rfl), writes_sub_of_mem main_cst_8 rfl (List.mem_of_getElem? (i := 33) rfl),
    writes_sub_of_mem main_v88 rfl (List.mem_of_getElem? (i := 34) rfl), writes_sub_of_mem main_cst_9 rfl (List.mem_of_getElem? (i := 35) rfl),
    writes_sub_of_mem main_v89 rfl (List.mem_of_getElem? (i := 36) rfl), writes_sub_of_mem main_v90 rfl (List.mem_of_getElem? (i := 37) rfl),
    writes_sub_of_mem main_c_10 rfl (List.mem_of_getElem? (i := 38) rfl), writes_sub_of_mem main_call2.cst.ref rfl (List.mem_of_getElem? (i := 39) rfl),
    writes_sub_of_mem main_call2.v0.ref rfl (List.mem_of_getElem? (i := 40) rfl), writes_sub_of_mem main_call2.v1.ref rfl (List.mem_of_getElem? (i := 41) rfl),
    writes_sub_of_mem main_call2.cst_0.ref rfl (List.mem_of_getElem? (i := 42) rfl), writes_sub_of_mem main_call2.v2.ref rfl (List.mem_of_getElem? (i := 43) rfl),
    writes_sub_of_mem main_call2.v3.ref rfl (List.mem_of_getElem? (i := 44) rfl), writes_sub_of_mem main_call2.v4.ref rfl (List.mem_of_getElem? (i := 45) rfl),
    writes_sub_of_mem main_call2.v5.ref rfl (List.mem_of_getElem? (i := 46) rfl), writes_sub_of_mem main_call2.v6.ref rfl (List.mem_of_getElem? (i := 47) rfl),
    writes_sub_of_mem main_call2.v7.ref rfl (List.mem_of_getElem? (i := 48) rfl), writes_sub_of_mem main_call2.cst_1.ref rfl (List.mem_of_getElem? (i := 49) rfl),
    writes_sub_of_mem main_call2.v8.ref rfl (List.mem_of_getElem? (i := 50) rfl), writes_sub_of_mem main_call2.cst_2.ref rfl (List.mem_of_getElem? (i := 51) rfl),
    writes_sub_of_mem main_call2.v9.ref rfl (List.mem_of_getElem? (i := 52) rfl), writes_sub_of_mem main_call2.v10.ref rfl (List.mem_of_getElem? (i := 53) rfl),
    writes_sub_of_mem main_call2.v11.ref rfl (List.mem_of_getElem? (i := 54) rfl), writes_sub_of_mem main_call2.cst_3.ref rfl (List.mem_of_getElem? (i := 55) rfl),
    writes_sub_of_mem main_call2.v12.ref rfl (List.mem_of_getElem? (i := 56) rfl), writes_sub_of_mem main_call2.cst_4.ref rfl (List.mem_of_getElem? (i := 57) rfl),
    writes_sub_of_mem main_call2_call0.v0.ref rfl (List.mem_of_getElem? (i := 58) rfl), writes_sub_of_mem main_call2_call0.v1.ref rfl (List.mem_of_getElem? (i := 59) rfl),
    writes_sub_of_mem main_call2_call0.v2.ref rfl (List.mem_of_getElem? (i := 60) rfl), writes_sub_of_mem main_v92 rfl (List.mem_of_getElem? (i := 61) rfl),
    writes_sub_of_mem main_v93 rfl (List.mem_of_getElem? (i := 62) rfl), writes_sub_of_mem main_v94 rfl (List.mem_of_getElem? (i := 63) rfl),
    writes_sub_of_mem main_v95 rfl (List.mem_of_getElem? (i := 64) rfl), writes_sub_of_mem main_v96 rfl (List.mem_of_getElem? (i := 65) rfl),
    writes_sub_of_mem main_v97 rfl (List.mem_of_getElem? (i := 66) rfl), writes_sub_of_mem main_v98 rfl (List.mem_of_getElem? (i := 67) rfl),
    writes_sub_of_mem main_v99 rfl (List.mem_of_getElem? (i := 68) rfl), writes_sub_of_mem main_cst_11 rfl (List.mem_of_getElem? (i := 69) rfl),
    writes_sub_of_mem main_v100 rfl (List.mem_of_getElem? (i := 70) rfl), writes_sub_of_mem main_v101 rfl (List.mem_of_getElem? (i := 71) rfl),
    writes_sub_of_mem main_v102 rfl (List.mem_of_getElem? (i := 72) rfl), writes_sub_of_mem main_v103 rfl (List.mem_of_getElem? (i := 73) rfl),
    writes_sub_of_mem main_v104 rfl (List.mem_of_getElem? (i := 74) rfl), writes_sub_of_mem main_v105 rfl (List.mem_of_getElem? (i := 75) rfl),
    writes_sub_of_mem main_v106 rfl (List.mem_of_getElem? (i := 76) rfl), writes_sub_of_mem main_v107 rfl (List.mem_of_getElem? (i := 77) rfl),
    writes_sub_of_mem main_v108 rfl (List.mem_of_getElem? (i := 78) rfl), writes_sub_of_mem main_v109 rfl (List.mem_of_getElem? (i := 79) rfl),
    writes_sub_of_mem main_v110 rfl (List.mem_of_getElem? (i := 80) rfl), writes_sub_of_mem main_call3.cst.ref rfl (List.mem_of_getElem? (i := 81) rfl),
    writes_sub_of_mem main_call3.v0.ref rfl (List.mem_of_getElem? (i := 82) rfl), writes_sub_of_mem main_call3.v1.ref rfl (List.mem_of_getElem? (i := 83) rfl) ⟩

/-! ## opsL2 -/

/-- The references opsL2 writes, in the order of its operations. -/
abbrev wL2 : List (Ref sig .tc) :=
  [
    main_c_12, main_v112, main_v113, main_c_13, main_v114, main_v115, main_v116, main_v117,
    main_v118, main_v119, main_v120, main_v121, main_cst_14, main_v122, main_v123, main_v124,
    main_v125, main_v126, main_v127, main_v128, main_v129, main_v130, main_v131, main_v132,
    main_v133, main_v134, main_v135, main_v136, main_v137, main_v138, main_v139, main_v140,
    main_v141, main_cst_15, main_v142, main_cst_16, main_v143, main_v144, main_c_17, main_call4.cst.ref,
    main_call4.v0.ref, main_call4.v1.ref, main_call4.cst_0.ref, main_call4.v2.ref, main_call4.v3.ref, main_call4.v4.ref, main_call4.v5.ref, main_call4.v6.ref,
    main_call4.v7.ref, main_call4.cst_1.ref, main_call4.v8.ref, main_call4.cst_2.ref, main_call4.v9.ref, main_call4.v10.ref, main_call4.v11.ref, main_call4.cst_3.ref,
    main_call4.v12.ref, main_call4.cst_4.ref, main_call4_call0.v0.ref, main_call4_call0.v1.ref, main_call4_call0.v2.ref, main_v146, main_v147, main_v148,
    main_v149, main_v150, main_v151, main_v152, main_v153, main_cst_18, main_v154, main_v155,
    main_v156, main_v157, main_v158, main_v159, main_v160, main_v161, main_v162, main_v163,
    main_v164, main_call5.cst.ref, main_call5.v0.ref, main_call5.v1.ref ]

theorem opsL2_sub : (opsL2 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub .. ⟩

theorem opsL2_fresh : (opsL2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl ⟩

theorem opsL2_writes : (opsL2 : List (HloOp τ sig (Elt F))).Forall fun op => op.writes ⊆ (wL2.map (Proc.devRef (τ := τ) .tc)).toFinset :=
  ⟨
    writes_sub_of_mem main_c_12 rfl (List.mem_of_getElem? (i := 0) rfl), writes_sub_of_mem main_v112 rfl (List.mem_of_getElem? (i := 1) rfl),
    writes_sub_of_mem main_v113 rfl (List.mem_of_getElem? (i := 2) rfl), writes_sub_of_mem main_c_13 rfl (List.mem_of_getElem? (i := 3) rfl),
    writes_sub_of_mem main_v114 rfl (List.mem_of_getElem? (i := 4) rfl), writes_sub_of_mem main_v115 rfl (List.mem_of_getElem? (i := 5) rfl),
    writes_sub_of_mem main_v116 rfl (List.mem_of_getElem? (i := 6) rfl), writes_sub_of_mem main_v117 rfl (List.mem_of_getElem? (i := 7) rfl),
    writes_sub_of_mem main_v118 rfl (List.mem_of_getElem? (i := 8) rfl), writes_sub_of_mem main_v119 rfl (List.mem_of_getElem? (i := 9) rfl),
    writes_sub_of_mem main_v120 rfl (List.mem_of_getElem? (i := 10) rfl), writes_sub_of_mem main_v121 rfl (List.mem_of_getElem? (i := 11) rfl),
    writes_sub_of_mem main_cst_14 rfl (List.mem_of_getElem? (i := 12) rfl), writes_sub_of_mem main_v122 rfl (List.mem_of_getElem? (i := 13) rfl),
    writes_sub_of_mem main_v123 rfl (List.mem_of_getElem? (i := 14) rfl), writes_sub_of_mem main_v124 rfl (List.mem_of_getElem? (i := 15) rfl),
    writes_sub_of_mem main_v125 rfl (List.mem_of_getElem? (i := 16) rfl), writes_sub_of_mem main_v126 rfl (List.mem_of_getElem? (i := 17) rfl),
    writes_sub_of_mem main_v127 rfl (List.mem_of_getElem? (i := 18) rfl), writes_sub_of_mem main_v128 rfl (List.mem_of_getElem? (i := 19) rfl),
    writes_sub_of_mem main_v129 rfl (List.mem_of_getElem? (i := 20) rfl), writes_sub_of_mem main_v130 rfl (List.mem_of_getElem? (i := 21) rfl),
    writes_sub_of_mem main_v131 rfl (List.mem_of_getElem? (i := 22) rfl), writes_sub_of_mem main_v132 rfl (List.mem_of_getElem? (i := 23) rfl),
    writes_sub_of_mem main_v133 rfl (List.mem_of_getElem? (i := 24) rfl), writes_sub_of_mem main_v134 rfl (List.mem_of_getElem? (i := 25) rfl),
    writes_sub_of_mem main_v135 rfl (List.mem_of_getElem? (i := 26) rfl), writes_sub_of_mem main_v136 rfl (List.mem_of_getElem? (i := 27) rfl),
    writes_sub_of_mem main_v137 rfl (List.mem_of_getElem? (i := 28) rfl), writes_sub_of_mem main_v138 rfl (List.mem_of_getElem? (i := 29) rfl),
    writes_sub_of_mem main_v139 rfl (List.mem_of_getElem? (i := 30) rfl), writes_sub_of_mem main_v140 rfl (List.mem_of_getElem? (i := 31) rfl),
    writes_sub_of_mem main_v141 rfl (List.mem_of_getElem? (i := 32) rfl), writes_sub_of_mem main_cst_15 rfl (List.mem_of_getElem? (i := 33) rfl),
    writes_sub_of_mem main_v142 rfl (List.mem_of_getElem? (i := 34) rfl), writes_sub_of_mem main_cst_16 rfl (List.mem_of_getElem? (i := 35) rfl),
    writes_sub_of_mem main_v143 rfl (List.mem_of_getElem? (i := 36) rfl), writes_sub_of_mem main_v144 rfl (List.mem_of_getElem? (i := 37) rfl),
    writes_sub_of_mem main_c_17 rfl (List.mem_of_getElem? (i := 38) rfl), writes_sub_of_mem main_call4.cst.ref rfl (List.mem_of_getElem? (i := 39) rfl),
    writes_sub_of_mem main_call4.v0.ref rfl (List.mem_of_getElem? (i := 40) rfl), writes_sub_of_mem main_call4.v1.ref rfl (List.mem_of_getElem? (i := 41) rfl),
    writes_sub_of_mem main_call4.cst_0.ref rfl (List.mem_of_getElem? (i := 42) rfl), writes_sub_of_mem main_call4.v2.ref rfl (List.mem_of_getElem? (i := 43) rfl),
    writes_sub_of_mem main_call4.v3.ref rfl (List.mem_of_getElem? (i := 44) rfl), writes_sub_of_mem main_call4.v4.ref rfl (List.mem_of_getElem? (i := 45) rfl),
    writes_sub_of_mem main_call4.v5.ref rfl (List.mem_of_getElem? (i := 46) rfl), writes_sub_of_mem main_call4.v6.ref rfl (List.mem_of_getElem? (i := 47) rfl),
    writes_sub_of_mem main_call4.v7.ref rfl (List.mem_of_getElem? (i := 48) rfl), writes_sub_of_mem main_call4.cst_1.ref rfl (List.mem_of_getElem? (i := 49) rfl),
    writes_sub_of_mem main_call4.v8.ref rfl (List.mem_of_getElem? (i := 50) rfl), writes_sub_of_mem main_call4.cst_2.ref rfl (List.mem_of_getElem? (i := 51) rfl),
    writes_sub_of_mem main_call4.v9.ref rfl (List.mem_of_getElem? (i := 52) rfl), writes_sub_of_mem main_call4.v10.ref rfl (List.mem_of_getElem? (i := 53) rfl),
    writes_sub_of_mem main_call4.v11.ref rfl (List.mem_of_getElem? (i := 54) rfl), writes_sub_of_mem main_call4.cst_3.ref rfl (List.mem_of_getElem? (i := 55) rfl),
    writes_sub_of_mem main_call4.v12.ref rfl (List.mem_of_getElem? (i := 56) rfl), writes_sub_of_mem main_call4.cst_4.ref rfl (List.mem_of_getElem? (i := 57) rfl),
    writes_sub_of_mem main_call4_call0.v0.ref rfl (List.mem_of_getElem? (i := 58) rfl), writes_sub_of_mem main_call4_call0.v1.ref rfl (List.mem_of_getElem? (i := 59) rfl),
    writes_sub_of_mem main_call4_call0.v2.ref rfl (List.mem_of_getElem? (i := 60) rfl), writes_sub_of_mem main_v146 rfl (List.mem_of_getElem? (i := 61) rfl),
    writes_sub_of_mem main_v147 rfl (List.mem_of_getElem? (i := 62) rfl), writes_sub_of_mem main_v148 rfl (List.mem_of_getElem? (i := 63) rfl),
    writes_sub_of_mem main_v149 rfl (List.mem_of_getElem? (i := 64) rfl), writes_sub_of_mem main_v150 rfl (List.mem_of_getElem? (i := 65) rfl),
    writes_sub_of_mem main_v151 rfl (List.mem_of_getElem? (i := 66) rfl), writes_sub_of_mem main_v152 rfl (List.mem_of_getElem? (i := 67) rfl),
    writes_sub_of_mem main_v153 rfl (List.mem_of_getElem? (i := 68) rfl), writes_sub_of_mem main_cst_18 rfl (List.mem_of_getElem? (i := 69) rfl),
    writes_sub_of_mem main_v154 rfl (List.mem_of_getElem? (i := 70) rfl), writes_sub_of_mem main_v155 rfl (List.mem_of_getElem? (i := 71) rfl),
    writes_sub_of_mem main_v156 rfl (List.mem_of_getElem? (i := 72) rfl), writes_sub_of_mem main_v157 rfl (List.mem_of_getElem? (i := 73) rfl),
    writes_sub_of_mem main_v158 rfl (List.mem_of_getElem? (i := 74) rfl), writes_sub_of_mem main_v159 rfl (List.mem_of_getElem? (i := 75) rfl),
    writes_sub_of_mem main_v160 rfl (List.mem_of_getElem? (i := 76) rfl), writes_sub_of_mem main_v161 rfl (List.mem_of_getElem? (i := 77) rfl),
    writes_sub_of_mem main_v162 rfl (List.mem_of_getElem? (i := 78) rfl), writes_sub_of_mem main_v163 rfl (List.mem_of_getElem? (i := 79) rfl),
    writes_sub_of_mem main_v164 rfl (List.mem_of_getElem? (i := 80) rfl), writes_sub_of_mem main_call5.cst.ref rfl (List.mem_of_getElem? (i := 81) rfl),
    writes_sub_of_mem main_call5.v0.ref rfl (List.mem_of_getElem? (i := 82) rfl), writes_sub_of_mem main_call5.v1.ref rfl (List.mem_of_getElem? (i := 83) rfl) ⟩

/-! ## opsL3 -/

/-- The references opsL3 writes, in the order of its operations. -/
abbrev wL3 : List (Ref sig .tc) :=
  [
    main_c_19, main_v166, main_v167, main_c_20, main_v168, main_v169, main_v170, main_v171,
    main_v172, main_v173, main_v174, main_v175, main_cst_21, main_v176, main_v177, main_v178,
    main_v179, main_v180, main_v181, main_v182, main_v183, main_v184, main_v185, main_v186,
    main_v187, main_v188, main_v189, main_v190, main_v191, main_v192, main_v193, main_v194,
    main_v195, main_cst_22, main_v196, main_cst_23, main_v197, main_v198, main_c_24, main_call6.cst.ref,
    main_call6.v0.ref, main_call6.v1.ref, main_call6.cst_0.ref, main_call6.v2.ref, main_call6.v3.ref, main_call6.v4.ref, main_call6.v5.ref, main_call6.v6.ref,
    main_call6.v7.ref, main_call6.cst_1.ref, main_call6.v8.ref, main_call6.cst_2.ref, main_call6.v9.ref, main_call6.v10.ref, main_call6.v11.ref, main_call6.cst_3.ref,
    main_call6.v12.ref, main_call6.cst_4.ref, main_call6_call0.v0.ref, main_call6_call0.v1.ref, main_call6_call0.v2.ref, main_v200, main_v201, main_v202,
    main_v203, main_v204, main_v205, main_v206, main_v207, main_cst_25, main_v208, main_v209,
    main_v210, main_v211, main_v212, main_v213, main_v214, main_v215, main_v216, main_v217,
    main_v218, main_call7.cst.ref, main_call7.v0.ref, main_call7.v1.ref ]

theorem opsL3_sub : (opsL3 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub .. ⟩

theorem opsL3_fresh : (opsL3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl ⟩

theorem opsL3_writes : (opsL3 : List (HloOp τ sig (Elt F))).Forall fun op => op.writes ⊆ (wL3.map (Proc.devRef (τ := τ) .tc)).toFinset :=
  ⟨
    writes_sub_of_mem main_c_19 rfl (List.mem_of_getElem? (i := 0) rfl), writes_sub_of_mem main_v166 rfl (List.mem_of_getElem? (i := 1) rfl),
    writes_sub_of_mem main_v167 rfl (List.mem_of_getElem? (i := 2) rfl), writes_sub_of_mem main_c_20 rfl (List.mem_of_getElem? (i := 3) rfl),
    writes_sub_of_mem main_v168 rfl (List.mem_of_getElem? (i := 4) rfl), writes_sub_of_mem main_v169 rfl (List.mem_of_getElem? (i := 5) rfl),
    writes_sub_of_mem main_v170 rfl (List.mem_of_getElem? (i := 6) rfl), writes_sub_of_mem main_v171 rfl (List.mem_of_getElem? (i := 7) rfl),
    writes_sub_of_mem main_v172 rfl (List.mem_of_getElem? (i := 8) rfl), writes_sub_of_mem main_v173 rfl (List.mem_of_getElem? (i := 9) rfl),
    writes_sub_of_mem main_v174 rfl (List.mem_of_getElem? (i := 10) rfl), writes_sub_of_mem main_v175 rfl (List.mem_of_getElem? (i := 11) rfl),
    writes_sub_of_mem main_cst_21 rfl (List.mem_of_getElem? (i := 12) rfl), writes_sub_of_mem main_v176 rfl (List.mem_of_getElem? (i := 13) rfl),
    writes_sub_of_mem main_v177 rfl (List.mem_of_getElem? (i := 14) rfl), writes_sub_of_mem main_v178 rfl (List.mem_of_getElem? (i := 15) rfl),
    writes_sub_of_mem main_v179 rfl (List.mem_of_getElem? (i := 16) rfl), writes_sub_of_mem main_v180 rfl (List.mem_of_getElem? (i := 17) rfl),
    writes_sub_of_mem main_v181 rfl (List.mem_of_getElem? (i := 18) rfl), writes_sub_of_mem main_v182 rfl (List.mem_of_getElem? (i := 19) rfl),
    writes_sub_of_mem main_v183 rfl (List.mem_of_getElem? (i := 20) rfl), writes_sub_of_mem main_v184 rfl (List.mem_of_getElem? (i := 21) rfl),
    writes_sub_of_mem main_v185 rfl (List.mem_of_getElem? (i := 22) rfl), writes_sub_of_mem main_v186 rfl (List.mem_of_getElem? (i := 23) rfl),
    writes_sub_of_mem main_v187 rfl (List.mem_of_getElem? (i := 24) rfl), writes_sub_of_mem main_v188 rfl (List.mem_of_getElem? (i := 25) rfl),
    writes_sub_of_mem main_v189 rfl (List.mem_of_getElem? (i := 26) rfl), writes_sub_of_mem main_v190 rfl (List.mem_of_getElem? (i := 27) rfl),
    writes_sub_of_mem main_v191 rfl (List.mem_of_getElem? (i := 28) rfl), writes_sub_of_mem main_v192 rfl (List.mem_of_getElem? (i := 29) rfl),
    writes_sub_of_mem main_v193 rfl (List.mem_of_getElem? (i := 30) rfl), writes_sub_of_mem main_v194 rfl (List.mem_of_getElem? (i := 31) rfl),
    writes_sub_of_mem main_v195 rfl (List.mem_of_getElem? (i := 32) rfl), writes_sub_of_mem main_cst_22 rfl (List.mem_of_getElem? (i := 33) rfl),
    writes_sub_of_mem main_v196 rfl (List.mem_of_getElem? (i := 34) rfl), writes_sub_of_mem main_cst_23 rfl (List.mem_of_getElem? (i := 35) rfl),
    writes_sub_of_mem main_v197 rfl (List.mem_of_getElem? (i := 36) rfl), writes_sub_of_mem main_v198 rfl (List.mem_of_getElem? (i := 37) rfl),
    writes_sub_of_mem main_c_24 rfl (List.mem_of_getElem? (i := 38) rfl), writes_sub_of_mem main_call6.cst.ref rfl (List.mem_of_getElem? (i := 39) rfl),
    writes_sub_of_mem main_call6.v0.ref rfl (List.mem_of_getElem? (i := 40) rfl), writes_sub_of_mem main_call6.v1.ref rfl (List.mem_of_getElem? (i := 41) rfl),
    writes_sub_of_mem main_call6.cst_0.ref rfl (List.mem_of_getElem? (i := 42) rfl), writes_sub_of_mem main_call6.v2.ref rfl (List.mem_of_getElem? (i := 43) rfl),
    writes_sub_of_mem main_call6.v3.ref rfl (List.mem_of_getElem? (i := 44) rfl), writes_sub_of_mem main_call6.v4.ref rfl (List.mem_of_getElem? (i := 45) rfl),
    writes_sub_of_mem main_call6.v5.ref rfl (List.mem_of_getElem? (i := 46) rfl), writes_sub_of_mem main_call6.v6.ref rfl (List.mem_of_getElem? (i := 47) rfl),
    writes_sub_of_mem main_call6.v7.ref rfl (List.mem_of_getElem? (i := 48) rfl), writes_sub_of_mem main_call6.cst_1.ref rfl (List.mem_of_getElem? (i := 49) rfl),
    writes_sub_of_mem main_call6.v8.ref rfl (List.mem_of_getElem? (i := 50) rfl), writes_sub_of_mem main_call6.cst_2.ref rfl (List.mem_of_getElem? (i := 51) rfl),
    writes_sub_of_mem main_call6.v9.ref rfl (List.mem_of_getElem? (i := 52) rfl), writes_sub_of_mem main_call6.v10.ref rfl (List.mem_of_getElem? (i := 53) rfl),
    writes_sub_of_mem main_call6.v11.ref rfl (List.mem_of_getElem? (i := 54) rfl), writes_sub_of_mem main_call6.cst_3.ref rfl (List.mem_of_getElem? (i := 55) rfl),
    writes_sub_of_mem main_call6.v12.ref rfl (List.mem_of_getElem? (i := 56) rfl), writes_sub_of_mem main_call6.cst_4.ref rfl (List.mem_of_getElem? (i := 57) rfl),
    writes_sub_of_mem main_call6_call0.v0.ref rfl (List.mem_of_getElem? (i := 58) rfl), writes_sub_of_mem main_call6_call0.v1.ref rfl (List.mem_of_getElem? (i := 59) rfl),
    writes_sub_of_mem main_call6_call0.v2.ref rfl (List.mem_of_getElem? (i := 60) rfl), writes_sub_of_mem main_v200 rfl (List.mem_of_getElem? (i := 61) rfl),
    writes_sub_of_mem main_v201 rfl (List.mem_of_getElem? (i := 62) rfl), writes_sub_of_mem main_v202 rfl (List.mem_of_getElem? (i := 63) rfl),
    writes_sub_of_mem main_v203 rfl (List.mem_of_getElem? (i := 64) rfl), writes_sub_of_mem main_v204 rfl (List.mem_of_getElem? (i := 65) rfl),
    writes_sub_of_mem main_v205 rfl (List.mem_of_getElem? (i := 66) rfl), writes_sub_of_mem main_v206 rfl (List.mem_of_getElem? (i := 67) rfl),
    writes_sub_of_mem main_v207 rfl (List.mem_of_getElem? (i := 68) rfl), writes_sub_of_mem main_cst_25 rfl (List.mem_of_getElem? (i := 69) rfl),
    writes_sub_of_mem main_v208 rfl (List.mem_of_getElem? (i := 70) rfl), writes_sub_of_mem main_v209 rfl (List.mem_of_getElem? (i := 71) rfl),
    writes_sub_of_mem main_v210 rfl (List.mem_of_getElem? (i := 72) rfl), writes_sub_of_mem main_v211 rfl (List.mem_of_getElem? (i := 73) rfl),
    writes_sub_of_mem main_v212 rfl (List.mem_of_getElem? (i := 74) rfl), writes_sub_of_mem main_v213 rfl (List.mem_of_getElem? (i := 75) rfl),
    writes_sub_of_mem main_v214 rfl (List.mem_of_getElem? (i := 76) rfl), writes_sub_of_mem main_v215 rfl (List.mem_of_getElem? (i := 77) rfl),
    writes_sub_of_mem main_v216 rfl (List.mem_of_getElem? (i := 78) rfl), writes_sub_of_mem main_v217 rfl (List.mem_of_getElem? (i := 79) rfl),
    writes_sub_of_mem main_v218 rfl (List.mem_of_getElem? (i := 80) rfl), writes_sub_of_mem main_call7.cst.ref rfl (List.mem_of_getElem? (i := 81) rfl),
    writes_sub_of_mem main_call7.v0.ref rfl (List.mem_of_getElem? (i := 82) rfl), writes_sub_of_mem main_call7.v1.ref rfl (List.mem_of_getElem? (i := 83) rfl) ⟩

/-! ## opsL4 -/

/-- The references opsL4 writes, in the order of its operations. -/
abbrev wL4 : List (Ref sig .tc) :=
  [
    main_c_26, main_v220, main_v221, main_c_27, main_v222, main_v223, main_v224, main_v225,
    main_v226, main_v227, main_v228, main_v229, main_cst_28, main_v230, main_v231, main_v232,
    main_v233, main_v234, main_v235, main_v236, main_v237, main_v238, main_v239, main_v240,
    main_v241, main_v242, main_v243, main_v244, main_v245, main_v246, main_v247, main_v248,
    main_v249, main_cst_29, main_v250, main_cst_30, main_v251, main_v252, main_c_31, main_call8.cst.ref,
    main_call8.v0.ref, main_call8.v1.ref, main_call8.cst_0.ref, main_call8.v2.ref, main_call8.v3.ref, main_call8.v4.ref, main_call8.v5.ref, main_call8.v6.ref,
    main_call8.v7.ref, main_call8.cst_1.ref, main_call8.v8.ref, main_call8.cst_2.ref, main_call8.v9.ref, main_call8.v10.ref, main_call8.v11.ref, main_call8.cst_3.ref,
    main_call8.v12.ref, main_call8.cst_4.ref, main_call8_call0.v0.ref, main_call8_call0.v1.ref, main_call8_call0.v2.ref, main_v254, main_v255, main_v256,
    main_v257, main_v258, main_v259, main_v260, main_v261, main_cst_32, main_v262, main_v263,
    main_v264, main_v265, main_v266, main_v267, main_v268, main_v269, main_v270, main_v271,
    main_v272, main_call9.cst.ref, main_call9.v0.ref, main_call9.v1.ref ]

theorem opsL4_sub : (opsL4 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., reshape_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., nullary_bufs_sub .., unary_bufs_sub .., binary_bufs_sub .. ⟩

theorem opsL4_fresh : (opsL4 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl ⟩

theorem opsL4_writes : (opsL4 : List (HloOp τ sig (Elt F))).Forall fun op => op.writes ⊆ (wL4.map (Proc.devRef (τ := τ) .tc)).toFinset :=
  ⟨
    writes_sub_of_mem main_c_26 rfl (List.mem_of_getElem? (i := 0) rfl), writes_sub_of_mem main_v220 rfl (List.mem_of_getElem? (i := 1) rfl),
    writes_sub_of_mem main_v221 rfl (List.mem_of_getElem? (i := 2) rfl), writes_sub_of_mem main_c_27 rfl (List.mem_of_getElem? (i := 3) rfl),
    writes_sub_of_mem main_v222 rfl (List.mem_of_getElem? (i := 4) rfl), writes_sub_of_mem main_v223 rfl (List.mem_of_getElem? (i := 5) rfl),
    writes_sub_of_mem main_v224 rfl (List.mem_of_getElem? (i := 6) rfl), writes_sub_of_mem main_v225 rfl (List.mem_of_getElem? (i := 7) rfl),
    writes_sub_of_mem main_v226 rfl (List.mem_of_getElem? (i := 8) rfl), writes_sub_of_mem main_v227 rfl (List.mem_of_getElem? (i := 9) rfl),
    writes_sub_of_mem main_v228 rfl (List.mem_of_getElem? (i := 10) rfl), writes_sub_of_mem main_v229 rfl (List.mem_of_getElem? (i := 11) rfl),
    writes_sub_of_mem main_cst_28 rfl (List.mem_of_getElem? (i := 12) rfl), writes_sub_of_mem main_v230 rfl (List.mem_of_getElem? (i := 13) rfl),
    writes_sub_of_mem main_v231 rfl (List.mem_of_getElem? (i := 14) rfl), writes_sub_of_mem main_v232 rfl (List.mem_of_getElem? (i := 15) rfl),
    writes_sub_of_mem main_v233 rfl (List.mem_of_getElem? (i := 16) rfl), writes_sub_of_mem main_v234 rfl (List.mem_of_getElem? (i := 17) rfl),
    writes_sub_of_mem main_v235 rfl (List.mem_of_getElem? (i := 18) rfl), writes_sub_of_mem main_v236 rfl (List.mem_of_getElem? (i := 19) rfl),
    writes_sub_of_mem main_v237 rfl (List.mem_of_getElem? (i := 20) rfl), writes_sub_of_mem main_v238 rfl (List.mem_of_getElem? (i := 21) rfl),
    writes_sub_of_mem main_v239 rfl (List.mem_of_getElem? (i := 22) rfl), writes_sub_of_mem main_v240 rfl (List.mem_of_getElem? (i := 23) rfl),
    writes_sub_of_mem main_v241 rfl (List.mem_of_getElem? (i := 24) rfl), writes_sub_of_mem main_v242 rfl (List.mem_of_getElem? (i := 25) rfl),
    writes_sub_of_mem main_v243 rfl (List.mem_of_getElem? (i := 26) rfl), writes_sub_of_mem main_v244 rfl (List.mem_of_getElem? (i := 27) rfl),
    writes_sub_of_mem main_v245 rfl (List.mem_of_getElem? (i := 28) rfl), writes_sub_of_mem main_v246 rfl (List.mem_of_getElem? (i := 29) rfl),
    writes_sub_of_mem main_v247 rfl (List.mem_of_getElem? (i := 30) rfl), writes_sub_of_mem main_v248 rfl (List.mem_of_getElem? (i := 31) rfl),
    writes_sub_of_mem main_v249 rfl (List.mem_of_getElem? (i := 32) rfl), writes_sub_of_mem main_cst_29 rfl (List.mem_of_getElem? (i := 33) rfl),
    writes_sub_of_mem main_v250 rfl (List.mem_of_getElem? (i := 34) rfl), writes_sub_of_mem main_cst_30 rfl (List.mem_of_getElem? (i := 35) rfl),
    writes_sub_of_mem main_v251 rfl (List.mem_of_getElem? (i := 36) rfl), writes_sub_of_mem main_v252 rfl (List.mem_of_getElem? (i := 37) rfl),
    writes_sub_of_mem main_c_31 rfl (List.mem_of_getElem? (i := 38) rfl), writes_sub_of_mem main_call8.cst.ref rfl (List.mem_of_getElem? (i := 39) rfl),
    writes_sub_of_mem main_call8.v0.ref rfl (List.mem_of_getElem? (i := 40) rfl), writes_sub_of_mem main_call8.v1.ref rfl (List.mem_of_getElem? (i := 41) rfl),
    writes_sub_of_mem main_call8.cst_0.ref rfl (List.mem_of_getElem? (i := 42) rfl), writes_sub_of_mem main_call8.v2.ref rfl (List.mem_of_getElem? (i := 43) rfl),
    writes_sub_of_mem main_call8.v3.ref rfl (List.mem_of_getElem? (i := 44) rfl), writes_sub_of_mem main_call8.v4.ref rfl (List.mem_of_getElem? (i := 45) rfl),
    writes_sub_of_mem main_call8.v5.ref rfl (List.mem_of_getElem? (i := 46) rfl), writes_sub_of_mem main_call8.v6.ref rfl (List.mem_of_getElem? (i := 47) rfl),
    writes_sub_of_mem main_call8.v7.ref rfl (List.mem_of_getElem? (i := 48) rfl), writes_sub_of_mem main_call8.cst_1.ref rfl (List.mem_of_getElem? (i := 49) rfl),
    writes_sub_of_mem main_call8.v8.ref rfl (List.mem_of_getElem? (i := 50) rfl), writes_sub_of_mem main_call8.cst_2.ref rfl (List.mem_of_getElem? (i := 51) rfl),
    writes_sub_of_mem main_call8.v9.ref rfl (List.mem_of_getElem? (i := 52) rfl), writes_sub_of_mem main_call8.v10.ref rfl (List.mem_of_getElem? (i := 53) rfl),
    writes_sub_of_mem main_call8.v11.ref rfl (List.mem_of_getElem? (i := 54) rfl), writes_sub_of_mem main_call8.cst_3.ref rfl (List.mem_of_getElem? (i := 55) rfl),
    writes_sub_of_mem main_call8.v12.ref rfl (List.mem_of_getElem? (i := 56) rfl), writes_sub_of_mem main_call8.cst_4.ref rfl (List.mem_of_getElem? (i := 57) rfl),
    writes_sub_of_mem main_call8_call0.v0.ref rfl (List.mem_of_getElem? (i := 58) rfl), writes_sub_of_mem main_call8_call0.v1.ref rfl (List.mem_of_getElem? (i := 59) rfl),
    writes_sub_of_mem main_call8_call0.v2.ref rfl (List.mem_of_getElem? (i := 60) rfl), writes_sub_of_mem main_v254 rfl (List.mem_of_getElem? (i := 61) rfl),
    writes_sub_of_mem main_v255 rfl (List.mem_of_getElem? (i := 62) rfl), writes_sub_of_mem main_v256 rfl (List.mem_of_getElem? (i := 63) rfl),
    writes_sub_of_mem main_v257 rfl (List.mem_of_getElem? (i := 64) rfl), writes_sub_of_mem main_v258 rfl (List.mem_of_getElem? (i := 65) rfl),
    writes_sub_of_mem main_v259 rfl (List.mem_of_getElem? (i := 66) rfl), writes_sub_of_mem main_v260 rfl (List.mem_of_getElem? (i := 67) rfl),
    writes_sub_of_mem main_v261 rfl (List.mem_of_getElem? (i := 68) rfl), writes_sub_of_mem main_cst_32 rfl (List.mem_of_getElem? (i := 69) rfl),
    writes_sub_of_mem main_v262 rfl (List.mem_of_getElem? (i := 70) rfl), writes_sub_of_mem main_v263 rfl (List.mem_of_getElem? (i := 71) rfl),
    writes_sub_of_mem main_v264 rfl (List.mem_of_getElem? (i := 72) rfl), writes_sub_of_mem main_v265 rfl (List.mem_of_getElem? (i := 73) rfl),
    writes_sub_of_mem main_v266 rfl (List.mem_of_getElem? (i := 74) rfl), writes_sub_of_mem main_v267 rfl (List.mem_of_getElem? (i := 75) rfl),
    writes_sub_of_mem main_v268 rfl (List.mem_of_getElem? (i := 76) rfl), writes_sub_of_mem main_v269 rfl (List.mem_of_getElem? (i := 77) rfl),
    writes_sub_of_mem main_v270 rfl (List.mem_of_getElem? (i := 78) rfl), writes_sub_of_mem main_v271 rfl (List.mem_of_getElem? (i := 79) rfl),
    writes_sub_of_mem main_v272 rfl (List.mem_of_getElem? (i := 80) rfl), writes_sub_of_mem main_call9.cst.ref rfl (List.mem_of_getElem? (i := 81) rfl),
    writes_sub_of_mem main_call9.v0.ref rfl (List.mem_of_getElem? (i := 82) rfl), writes_sub_of_mem main_call9.v1.ref rfl (List.mem_of_getElem? (i := 83) rfl) ⟩

/-! ## opsT -/

/-- The references opsT writes, in the order of its operations. -/
abbrev wT : List (Ref sig .tc) :=
  [
    main_c_33, main_v274, main_call10_call0.c.ref, main_call10_call0.v0.ref, main_call10_call0.v1.ref, main_v276, main_c_34, main_v277,
    main_v278, main_c_35, main_v279, main_v280, main_v281, main_v282, main_v283, main_v284,
    main_cst_36, main_v285, main_v286, main_v287, main_cst_37, main_v288, main_cst_38, main_v289,
    main_v290, main_v291, main_cst_39, main_v292, main_v293, main_v294, main_v295, main_v296 ]

theorem opsT_sub : (opsT : List (HloOp τ sig (Elt F))).Forall fun op => op.bufs ⊆ tcRefs τ sig :=
  ⟨
    nullary_bufs_sub .., unary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .. ⟩

theorem opsT_fresh : (opsT : List (HloOp τ sig (Elt F))).Forall fun op => op.fresh = ∅ :=
  ⟨
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl ⟩

theorem opsT_writes : (opsT : List (HloOp τ sig (Elt F))).Forall fun op => op.writes ⊆ (wT.map (Proc.devRef (τ := τ) .tc)).toFinset :=
  ⟨
    writes_sub_of_mem main_c_33 rfl (List.mem_of_getElem? (i := 0) rfl), writes_sub_of_mem main_v274 rfl (List.mem_of_getElem? (i := 1) rfl),
    writes_sub_of_mem main_call10_call0.c.ref rfl (List.mem_of_getElem? (i := 2) rfl), writes_sub_of_mem main_call10_call0.v0.ref rfl (List.mem_of_getElem? (i := 3) rfl),
    writes_sub_of_mem main_call10_call0.v1.ref rfl (List.mem_of_getElem? (i := 4) rfl), writes_sub_of_mem main_v276 rfl (List.mem_of_getElem? (i := 5) rfl),
    writes_sub_of_mem main_c_34 rfl (List.mem_of_getElem? (i := 6) rfl), writes_sub_of_mem main_v277 rfl (List.mem_of_getElem? (i := 7) rfl),
    writes_sub_of_mem main_v278 rfl (List.mem_of_getElem? (i := 8) rfl), writes_sub_of_mem main_c_35 rfl (List.mem_of_getElem? (i := 9) rfl),
    writes_sub_of_mem main_v279 rfl (List.mem_of_getElem? (i := 10) rfl), writes_sub_of_mem main_v280 rfl (List.mem_of_getElem? (i := 11) rfl),
    writes_sub_of_mem main_v281 rfl (List.mem_of_getElem? (i := 12) rfl), writes_sub_of_mem main_v282 rfl (List.mem_of_getElem? (i := 13) rfl),
    writes_sub_of_mem main_v283 rfl (List.mem_of_getElem? (i := 14) rfl), writes_sub_of_mem main_v284 rfl (List.mem_of_getElem? (i := 15) rfl),
    writes_sub_of_mem main_cst_36 rfl (List.mem_of_getElem? (i := 16) rfl), writes_sub_of_mem main_v285 rfl (List.mem_of_getElem? (i := 17) rfl),
    writes_sub_of_mem main_v286 rfl (List.mem_of_getElem? (i := 18) rfl), writes_sub_of_mem main_v287 rfl (List.mem_of_getElem? (i := 19) rfl),
    writes_sub_of_mem main_cst_37 rfl (List.mem_of_getElem? (i := 20) rfl), writes_sub_of_mem main_v288 rfl (List.mem_of_getElem? (i := 21) rfl),
    writes_sub_of_mem main_cst_38 rfl (List.mem_of_getElem? (i := 22) rfl), writes_sub_of_mem main_v289 rfl (List.mem_of_getElem? (i := 23) rfl),
    writes_sub_of_mem main_v290 rfl (List.mem_of_getElem? (i := 24) rfl), writes_sub_of_mem main_v291 rfl (List.mem_of_getElem? (i := 25) rfl),
    writes_sub_of_mem main_cst_39 rfl (List.mem_of_getElem? (i := 26) rfl), writes_sub_of_mem main_v292 rfl (List.mem_of_getElem? (i := 27) rfl),
    writes_sub_of_mem main_v293 rfl (List.mem_of_getElem? (i := 28) rfl), writes_sub_of_mem main_v294 rfl (List.mem_of_getElem? (i := 29) rfl),
    writes_sub_of_mem main_v295 rfl (List.mem_of_getElem? (i := 30) rfl), writes_sub_of_mem main_v296 rfl (List.mem_of_getElem? (i := 31) rfl) ⟩

end Cert.ReferenceIdeal.Hand

end
-- ==== Proof.Ref.Run.lean ====
/- The reference program's @main is the straight line of its six operation lists, and its run: from any memory with
   zero counters every weakly fair execution terminates with each TensorCore buffer at the fold of the lists over the
   launch contents; and none of the lists writes an argument of @main, so each argument ends as it was at launch. -/
import proofs.«162849_j29643864277577_1_alg».proof.Proof.Ref.OpsFacts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## @main is the six lists run in order -/

/-- The first `n` of a list, then the rest of it and another list, are the list and the other. -/
private theorem take_drop_app {α : Type} (l r : List α) (n : Nat) : l.take n ++ (l.drop n ++ r) = l ++ r := by
  rw [← List.append_assoc, List.take_append_drop]

/-- Six lists in a row, cut again inside each of the first five: the same elements in the same order. -/
private theorem regroup {α : Type} (l0 l1 l2 l3 l4 t : List α) (n0 n1 n2 n3 n4 : Nat) :
    l0 ++ l1 ++ l2 ++ l3 ++ l4 ++ t
      = l0.take n0 ++ ((l0.drop n0 ++ l1.take n1) ++ ((l1.drop n1 ++ l2.take n2) ++ ((l2.drop n2 ++ l3.take n3)
          ++ ((l3.drop n3 ++ l4.take n4) ++ (l4.drop n4 ++ t))))) := by
  simp only [List.append_assoc, take_drop_app]

/-- Six lines run one after the other are their concatenation run as one. -/
private theorem seq6 {Λ : Labels} (a b c d e f : List (HloOp τ sig (Elt F))) :
    (seq (a ++ (b ++ (c ++ (d ++ (e ++ f))))) : Prog (TpuEff nD τ sig (Elt F) Λ .tc) PUnit)
      = seq a >>= fun _ => seq b >>= fun _ => seq c >>= fun _ => seq d >>= fun _ => seq e >>= fun _ => seq f := by
  simp only [seq_append]

/-- Each window of @main is a stretch of the lists: the statements are the operations' steps in the same order,
    a call being its callee's steps (the definitions unfold to the same chain of steps). -/
theorem part0_eq (c : Dev nD) : main_part0 (F := F) c = seq (opsL0.take 81) := rfl
theorem part1_eq (c : Dev nD) : main_part1 (F := F) c = seq (opsL0.drop 81 ++ opsL1.take 76) := rfl
theorem part2_eq (c : Dev nD) : main_part2 (F := F) c = seq (opsL1.drop 76 ++ opsL2.take 75) := rfl
theorem part3_eq (c : Dev nD) : main_part3 (F := F) c = seq (opsL2.drop 75 ++ opsL3.take 74) := rfl
theorem part4_eq (c : Dev nD) : main_part4 (F := F) c = seq (opsL3.drop 74 ++ opsL4.take 73) := rfl
theorem part5_eq (c : Dev nD) : main_part5 (F := F) c = seq (opsL4.drop 73 ++ opsT) := rfl

/-- @main is the straight line of the six lists. -/
theorem main_eq (c : Dev nD) : main (F := F) c = seq (opsL0 ++ opsL1 ++ opsL2 ++ opsL3 ++ opsL4 ++ opsT) := by
  rw [regroup opsL0 opsL1 opsL2 opsL3 opsL4 opsT 81 76 75 74 73, seq6, ← part0_eq c, ← part1_eq c, ← part2_eq c, ← part3_eq c,
    ← part4_eq c, ← part5_eq c]
  rfl

/-! ## The run -/

/-- The signature scopes no TensorCore buffer, and has no semaphore to scope. -/
theorem scopedRefs_eq : (Finset.univ.filter fun b : Ref sig .tc => b.isScoped) = ∅ := by decide
theorem scopedSems_eq : (Finset.univ.filter fun sm : SemLoc sig => sm.isScoped .tc) = ∅ := by decide

/-- What holds of every element of two lists holds of every element of their concatenation. -/
private theorem forall_app {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Every operation of the program touches TensorCore references only. -/
theorem ops_sub : (opsL0 ++ opsL1 ++ opsL2 ++ opsL3 ++ opsL4 ++ opsT : List (HloOp τ sig (Elt F))).Forall
    fun op => op.bufs ⊆ tcRefs τ sig :=
  forall_app (forall_app (forall_app (forall_app (forall_app opsL0_sub opsL1_sub) opsL2_sub) opsL3_sub) opsL4_sub) opsT_sub

/-- Every operation of the program determines what it writes. -/
theorem ops_fresh : ∀ op ∈ (opsL0 ++ opsL1 ++ opsL2 ++ opsL3 ++ opsL4 ++ opsT : List (HloOp τ sig (Elt F))), op.fresh = ∅ :=
  List.forall_iff_forall_mem.1
    (forall_app (forall_app (forall_app (forall_app (forall_app opsL0_fresh opsL1_fresh) opsL2_fresh) opsL3_fresh) opsL4_fresh) opsT_fresh)

/-- The contents after two lines in a row: the second's after the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

private theorem after6 (a b c d e f : List (HloOp τ sig (Elt F))) (V : Valuation τ sig (Elt F)) :
    after (a ++ b ++ c ++ d ++ e ++ f) V = after f (after e (after d (after c (after b (after a V))))) := by
  simp only [after_app]

/-- On every device, for any float values, from any memory with zero counters: every weakly fair execution of @main
    terminates, and every TensorCore buffer ends at the fold of the six lists over the launch contents. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, ∀ b : Ref sig .tc, r.2.mem ((c.tc : Thread nD τ).loc b) = U6 m c (Proc.devRef .tc b)) :=
  (θ_run defs _ _).mono
    (fun _ h c b => (h c b).trans (congrFun (after6 opsL0 opsL1 opsL2 opsL3 opsL4 opsT (U0 m c)) _))
    (run_seq scopedRefs_eq scopedSems_eq defs main (fun _ => opsL0 ++ opsL1 ++ opsL2 ++ opsL3 ++ opsL4 ++ opsT) main_eq
      (fun _ => ops_sub) m ρ (fun _ => ops_fresh))

/-! ## The arguments are not written -/

/-- A reference none of the six lists writes holds at the end what it held at launch. -/
theorem U6_of_not_written (m : (ℓ : Loc nD τ sig) → Buf (Elt F) ℓ) (c : Dev nD) (r : Ref sig .tc)
    (h0 : r ∉ wL0) (h1 : r ∉ wL1) (h2 : r ∉ wL2) (h3 : r ∉ wL3) (h4 : r ∉ wL4) (hT : r ∉ wT) :
    U6 m c (Proc.devRef .tc r) = m ((c.tc : Thread nD τ).loc r) :=
  (after_of_writes_sub opsT (U5 m c) opsT_writes hT).trans <|
  (after_of_writes_sub opsL4 (U4 m c) opsL4_writes h4).trans <|
  (after_of_writes_sub opsL3 (U3 m c) opsL3_writes h3).trans <|
  (after_of_writes_sub opsL2 (U2 m c) opsL2_writes h2).trans <|
  (after_of_writes_sub opsL1 (U1 m c) opsL1_writes h1).trans <|
  (after_of_writes_sub opsL0 (U0 m c) opsL0_writes h0)

theorem U6_main_arg0 (m : (ℓ : Loc nD τ sig) → Buf (Elt F) ℓ) (c : Dev nD) :
    U6 m c (Proc.devRef .tc main_arg0) = m ((c.tc : Thread nD τ).loc main_arg0) :=
  U6_of_not_written m c main_arg0 (by decide) (by decide) (by decide) (by decide) (by decide) (by decide)
theorem U6_main_arg1 (m : (ℓ : Loc nD τ sig) → Buf (Elt F) ℓ) (c : Dev nD) :
    U6 m c (Proc.devRef .tc main_arg1) = m ((c.tc : Thread nD τ).loc main_arg1) :=
  U6_of_not_written m c main_arg1 (by decide) (by decide) (by decide) (by decide) (by decide) (by decide)
theorem U6_main_arg2 (m : (ℓ : Loc nD τ sig) → Buf (Elt F) ℓ) (c : Dev nD) :
    U6 m c (Proc.devRef .tc main_arg2) = m ((c.tc : Thread nD τ).loc main_arg2) :=
  U6_of_not_written m c main_arg2 (by decide) (by decide) (by decide) (by decide) (by decide) (by decide)
theorem U6_main_arg3 (m : (ℓ : Loc nD τ sig) → Buf (Elt F) ℓ) (c : Dev nD) :
    U6 m c (Proc.devRef .tc main_arg3) = m ((c.tc : Thread nD τ).loc main_arg3) :=
  U6_of_not_written m c main_arg3 (by decide) (by decide) (by decide) (by decide) (by decide) (by decide)
theorem U6_main_arg4 (m : (ℓ : Loc nD τ sig) → Buf (Elt F) ℓ) (c : Dev nD) :
    U6 m c (Proc.devRef .tc main_arg4) = m ((c.tc : Thread nD τ).loc main_arg4) :=
  U6_of_not_written m c main_arg4 (by decide) (by decide) (by decide) (by decide) (by decide) (by decide)
theorem U6_main_arg5 (m : (ℓ : Loc nD τ sig) → Buf (Elt F) ℓ) (c : Dev nD) :
    U6 m c (Proc.devRef .tc main_arg5) = m ((c.tc : Thread nD τ).loc main_arg5) :=
  U6_of_not_written m c main_arg5 (by decide) (by decide) (by decide) (by decide) (by decide) (by decide)
theorem U6_main_arg6 (m : (ℓ : Loc nD τ sig) → Buf (Elt F) ℓ) (c : Dev nD) :
    U6 m c (Proc.devRef .tc main_arg6) = m ((c.tc : Thread nD τ).loc main_arg6) :=
  U6_of_not_written m c main_arg6 (by decide) (by decide) (by decide) (by decide) (by decide) (by decide)
theorem U6_main_arg7 (m : (ℓ : Loc nD τ sig) → Buf (Elt F) ℓ) (c : Dev nD) :
    U6 m c (Proc.devRef .tc main_arg7) = m ((c.tc : Thread nD τ).loc main_arg7) :=
  U6_of_not_written m c main_arg7 (by decide) (by decide) (by decide) (by decide) (by decide) (by decide)
theorem U6_main_arg8 (m : (ℓ : Loc nD τ sig) → Buf (Elt F) ℓ) (c : Dev nD) :
    U6 m c (Proc.devRef .tc main_arg8) = m ((c.tc : Thread nD τ).loc main_arg8) :=
  U6_of_not_written m c main_arg8 (by decide) (by decide) (by decide) (by decide) (by decide) (by decide)
theorem U6_main_arg9 (m : (ℓ : Loc nD τ sig) → Buf (Elt F) ℓ) (c : Dev nD) :
    U6 m c (Proc.devRef .tc main_arg9) = m ((c.tc : Thread nD τ).loc main_arg9) :=
  U6_of_not_written m c main_arg9 (by decide) (by decide) (by decide) (by decide) (by decide) (by decide)
theorem U6_main_arg10 (m : (ℓ : Loc nD τ sig) → Buf (Elt F) ℓ) (c : Dev nD) :
    U6 m c (Proc.devRef .tc main_arg10) = m ((c.tc : Thread nD τ).loc main_arg10) :=
  U6_of_not_written m c main_arg10 (by decide) (by decide) (by decide) (by decide) (by decide) (by decide)
theorem U6_main_arg11 (m : (ℓ : Loc nD τ sig) → Buf (Elt F) ℓ) (c : Dev nD) :
    U6 m c (Proc.devRef .tc main_arg11) = m ((c.tc : Thread nD τ).loc main_arg11) :=
  U6_of_not_written m c main_arg11 (by decide) (by decide) (by decide) (by decide) (by decide) (by decide)

end Cert.ReferenceIdeal.Hand

end
-- ==== Proof.KI.Stats0Runs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not
    (where it does not, the block index has not moved since the fetch), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not
    (where it does not, the block index has not moved since the fetch), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not
    (where it does not, the block index has not moved since the fetch), for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not
    (where it does not, the block index has not moved since the fetch), for any proof data whose array is `V`'s and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not
    (where it does not, the block index has not moved since the fetch), for any proof data whose array is `V`'s and
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not
    (where it does not, the block index has not moved since the fetch), for any proof data whose array is `V`'s and
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's two branch conditions -/

/-- The first conditional (reset the two running sums): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (store the mean and the variance): the grid coordinate is 9. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Away from the last point the configuration calls output 7 idle: nothing is stored into it there, -/
theorem idleAt0_7 : ∀ t : Fin cfg0.N, ¬cond0_1 (grid0.coords t) → cfg0.idle 7 (grid0.coords t) = true := by decide +kernel
/-- and its block is not written back there. -/
theorem noFlush0_7 : ∀ t : Fin cfg0.N, ¬cond0_1 (grid0.coords t) → (cfg0.win 7).flush t = false := by decide +kernel
/-- At the last point output 7 is live: the body stores into it. -/
theorem liveAt0_7 : ∀ t : Fin cfg0.N, cond0_1 (grid0.coords t) → cfg0.idle 7 (grid0.coords t) = false := by decide +kernel
/-- Away from the last point the configuration calls output 8 idle: nothing is stored into it there, -/
theorem idleAt0_8 : ∀ t : Fin cfg0.N, ¬cond0_1 (grid0.coords t) → cfg0.idle 8 (grid0.coords t) = true := by decide +kernel
/-- and its block is not written back there. -/
theorem noFlush0_8 : ∀ t : Fin cfg0.N, ¬cond0_1 (grid0.coords t) → (cfg0.win 8).flush t = false := by decide +kernel
/-- At the last point output 8 is live: the body stores into it. -/
theorem liveAt0_8 : ∀ t : Fin cfg0.N, cond0_1 (grid0.coords t) → cfg0.idle 8 (grid0.coords t) = false := by decide +kernel

/-! ## The memrefs the body is called with -/

/-- One staging buffer of each output window, through which its contents are stated (for a covering list of pieces
    the choice of buffer does not matter). -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two buffers of the kernel's own: the running column sum and the running column sum of squares. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- What the launch hands the region, with the two running-sum buffers taken out of the core's scoped buffers as
    memrefs owned at some contents; every other scoped buffer stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Stats0RunA.lean ====
import proofs.«162849_j29643864277577_1_alg».proof.Proof.KI.Stats0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats0RunB.lean ====
import proofs.«162849_j29643864277577_1_alg».proof.Proof.KI.Stats0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats0RunC.lean ====
import proofs.«162849_j29643864277577_1_alg».proof.Proof.KI.Stats0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Stats0.lean ====
import proofs.«162849_j29643864277577_1_alg».proof.Proof.KI.Stats0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt0 (c : Dev nD) : (n : ℕ) → n < cfg0.N → Vec F S5000x128 .f32 × Vec F S1x128 .f32 × Vec F S1x128 .f32 × Vec F S1x128 .f32 × Vec F S1x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 9 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point: the first case's contents. -/
theorem outsAt0_A (c : Dev nD) (t : Fin cfg0.N) (h0 : t.val = 0) (h1 : ¬t.val = 9) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case's contents, over what the point before left. -/
theorem outsAt0_B (c : Dev nD) (t : Fin cfg0.N) (h0 : ¬t.val = 0) (h1 : ¬t.val = 9) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case's contents, over what the point before left. -/
theorem outsAt0_C (c : Dev nD) (t : Fin cfg0.N) (h0 : ¬t.val = 0) (h1 : t.val = 9) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the running sums at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the running sums at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt0`'s first three components; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, nothing owed, and the nine windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3 t], after0_3]
    rw [show (dat0 V c).leavesExact 4 t = owns (c : Thread nD τ) (ms0_4 t) fullShare ((dat0 V c).after 4 t) from by
          unfold Dat.leavesExact; rw [liveAt0_4 t], after0_4]
    rw [show (dat0 V c).leavesExact 5 t = owns (c : Thread nD τ) (ms0_5 t) fullShare ((dat0 V c).after 5 t) from by
          unfold Dat.leavesExact; rw [liveAt0_5 t], after0_5]
    rw [show (dat0 V c).leavesExact 6 t = owns (c : Thread nD τ) (ms0_6 t) fullShare ((dat0 V c).after 6 t) from by
          unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 sout0_A_0 sout0_A_1; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t], after0_4]
      rw [show (dat0 V c).leavesExact 5 t = owns (c : Thread nD τ) (ms0_5 t) fullShare ((dat0 V c).after 5 t) from by
          unfold Dat.leavesExact; rw [liveAt0_5 t], after0_5]
      rw [show (dat0 V c).leavesExact 6 t = owns (c : Thread nD τ) (ms0_6 t) fullShare ((dat0 V c).after 6 t) from by
          unfold Dat.leavesExact; rw [liveAt0_6 t], after0_6]
      rw [show (dat0 V c).leavesExact 7 t = owns (c : Thread nD τ) (ms0_7 t) fullShare ((dat0 V c).after 7 t) from by
          unfold Dat.leavesExact; rw [liveAt0_7 t ((hcond0_1 t).mpr h1)], after0_7]
      rw [show (dat0 V c).leavesExact 8 t = owns (c : Thread nD τ) (ms0_8 t) fullShare ((dat0 V c).after 8 t) from by
          unfold Dat.leavesExact; rw [liveAt0_8 t ((hcond0_1 t).mpr h1)], after0_8]
      rw [outsAt0_C V c t h0 h1]
      unfold out0_C_6 out0_C_7 out0_C_8 sout0_C_0 sout0_C_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t], after0_4]
      rw [show (dat0 V c).leavesExact 5 t = owns (c : Thread nD τ) (ms0_5 t) fullShare ((dat0 V c).after 5 t) from by
          unfold Dat.leavesExact; rw [liveAt0_5 t], after0_5]
      rw [show (dat0 V c).leavesExact 6 t = owns (c : Thread nD τ) (ms0_6 t) fullShare ((dat0 V c).after 6 t) from by
          unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Regions

end Cert.KernelIdeal.Hand

end
-- ==== Proof.KI.Bn1.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before1_tile_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_mean_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_var_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_gamma_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_beta_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 tile and the whole 1x128 row, as rectangles of their buffers: every load and the one store
    of the body go through one of these two. -/
abbrev rTile1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out1_5 (x0 : Vec F S5000x128 .f32) (x1 x2 x3 x4 : Vec F S1x128 .f32) : Vec F S5000x128 .f32 :=
  View.canon [⟨rTile1, k1_pay1 (View.ld x0 rTile1) (View.ld x1 rRow1) (View.ld x2 rRow1) (View.ld x3 rRow1) (View.ld x4 rRow1)⟩]

/-- The one store is of the whole tile, so it covers the buffer. -/
theorem cover1_5 (p0 : Vec F S5000x128 .f32) (y : S5000x128.Idx) :
    ∃ pc ∈ ([⟨rTile1, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out1_5_eq (x0 : Vec F S5000x128 .f32) (x1 x2 x3 x4 : Vec F S1x128 .f32) :
    out1_5 x0 x1 x2 x3 x4 = k1_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out1_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out1_5` of the inputs'. The body
    reads the output's buffer before it overwrites it; what it reads there is not used by the payload. -/
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: the proof data's case split at each literal window. -/
theorem after1_tile (c : Dev nD) (t : Fin cfg1.N) : (dat1 V c).after 0 t = iblk1 V c 0 t := by dsimp only [dat1]
theorem after1_mean (c : Dev nD) (t : Fin cfg1.N) : (dat1 V c).after 1 t = iblk1 V c 1 t := by dsimp only [dat1]
theorem after1_var (c : Dev nD) (t : Fin cfg1.N) : (dat1 V c).after 2 t = iblk1 V c 2 t := by dsimp only [dat1]
theorem after1_gamma (c : Dev nD) (t : Fin cfg1.N) : (dat1 V c).after 3 t = iblk1 V c 3 t := by dsimp only [dat1]
theorem after1_beta (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_tile (c : Dev nD) (t : Fin cfg1.N) (d) : (dat1 V c).before 0 t d = iblk1 V c 0 t :=
  before1_tile_of V (dat1 V c) (A_eq1 V c 0) (after1_tile V c) t d
theorem before1_mean (c : Dev nD) (t : Fin cfg1.N) (d) : (dat1 V c).before 1 t d = iblk1 V c 1 t :=
  before1_mean_of V (dat1 V c) (A_eq1 V c 1) (after1_mean V c) t d
theorem before1_var (c : Dev nD) (t : Fin cfg1.N) (d) : (dat1 V c).before 2 t d = iblk1 V c 2 t :=
  before1_var_of V (dat1 V c) (A_eq1 V c 2) (after1_var V c) t d
theorem before1_gamma (c : Dev nD) (t : Fin cfg1.N) (d) : (dat1 V c).before 3 t d = iblk1 V c 3 t :=
  before1_gamma_of V (dat1 V c) (A_eq1 V c 3) (after1_gamma V c) t d
theorem before1_beta (c : Dev nD) (t : Fin cfg1.N) (d) : (dat1 V c).before 4 t d = iblk1 V c 4 t :=
  before1_beta_of V (dat1 V c) (A_eq1 V c 4) (after1_beta V c) t d

/-! ## The body obligation, at a generic point -/

/-- What the body is called with at point `t`: the invariant, the core's debt, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_tile, before1_mean, before1_var, before1_gamma, before1_beta]
  rw [show (dat1 V c).Φ t.succ = (dat1 V c).Φ t.castSucc from rfl,
    show (dat1 V c).owesAt () t.succ = (dat1 V c).owesAt () t.castSucc from rfl,
    after1_tile, after1_mean, after1_var, after1_gamma, after1_beta, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Stats2Runs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not
    (where it does not, the block index has not moved since the fetch), for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not
    (where it does not, the block index has not moved since the fetch), for any proof data whose array is `V`'s and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not
    (where it does not, the block index has not moved since the fetch), for any proof data whose array is `V`'s and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetches it or not
    (where it does not, the block index has not moved since the fetch), for any proof data whose array is `V`'s and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetches it or not
    (where it does not, the block index has not moved since the fetch), for any proof data whose array is `V`'s and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetches it or not
    (where it does not, the block index has not moved since the fetch), for any proof data whose array is `V`'s and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's two branch conditions -/

/-- The first conditional (reset the two running sums): the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional (store the mean and the variance): the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

/-- Window 0 is never idle. -/
theorem liveAt2_0 : ∀ t : Fin cfg2.N, cfg2.idle 0 (grid2.coords t) = false := fun _ => rfl
/-- Window 1 is never idle. -/
theorem liveAt2_1 : ∀ t : Fin cfg2.N, cfg2.idle 1 (grid2.coords t) = false := fun _ => rfl
/-- Window 2 is never idle. -/
theorem liveAt2_2 : ∀ t : Fin cfg2.N, cfg2.idle 2 (grid2.coords t) = false := fun _ => rfl
/-- Window 3 is never idle. -/
theorem liveAt2_3 : ∀ t : Fin cfg2.N, cfg2.idle 3 (grid2.coords t) = false := fun _ => rfl
/-- Window 4 is never idle. -/
theorem liveAt2_4 : ∀ t : Fin cfg2.N, cfg2.idle 4 (grid2.coords t) = false := fun _ => rfl
/-- Window 5 is never idle. -/
theorem liveAt2_5 : ∀ t : Fin cfg2.N, cfg2.idle 5 (grid2.coords t) = false := fun _ => rfl
/-- Window 6 is never idle. -/
theorem liveAt2_6 : ∀ t : Fin cfg2.N, cfg2.idle 6 (grid2.coords t) = false := fun _ => rfl
/-- Away from the last point the configuration calls output 7 idle: nothing is stored into it there, -/
theorem idleAt2_7 : ∀ t : Fin cfg2.N, ¬cond2_1 (grid2.coords t) → cfg2.idle 7 (grid2.coords t) = true := by decide +kernel
/-- and its block is not written back there. -/
theorem noFlush2_7 : ∀ t : Fin cfg2.N, ¬cond2_1 (grid2.coords t) → (cfg2.win 7).flush t = false := by decide +kernel
/-- At the last point output 7 is live: the body stores into it. -/
theorem liveAt2_7 : ∀ t : Fin cfg2.N, cond2_1 (grid2.coords t) → cfg2.idle 7 (grid2.coords t) = false := by decide +kernel
/-- Away from the last point the configuration calls output 8 idle: nothing is stored into it there, -/
theorem idleAt2_8 : ∀ t : Fin cfg2.N, ¬cond2_1 (grid2.coords t) → cfg2.idle 8 (grid2.coords t) = true := by decide +kernel
/-- and its block is not written back there. -/
theorem noFlush2_8 : ∀ t : Fin cfg2.N, ¬cond2_1 (grid2.coords t) → (cfg2.win 8).flush t = false := by decide +kernel
/-- At the last point output 8 is live: the body stores into it. -/
theorem liveAt2_8 : ∀ t : Fin cfg2.N, cond2_1 (grid2.coords t) → cfg2.idle 8 (grid2.coords t) = false := by decide +kernel

/-! ## The memrefs the body is called with -/

/-- One staging buffer of each output window, through which its contents are stated (for a covering list of pieces
    the choice of buffer does not matter). -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two buffers of the kernel's own: the running column sum and the running column sum of squares. -/
abbrev scM2_0 : Memref sig .tc .vmem S1x128 .f32 := Memref.whole cc2_scratch0
abbrev scM2_1 : Memref sig .tc .vmem S1x128 .f32 := Memref.whole cc2_scratch1
/-- The same as views: what they hold is stated through these. -/
abbrev VS2_0 : View sig .tc .vmem S1x128 .f32 := scM2_0.view
abbrev VS2_1 : View sig .tc .vmem S1x128 .f32 := scM2_1.view

/-- What the launch hands the region, with the two running-sum buffers taken out of the core's scoped buffers as
    memrefs owned at some contents; every other scoped buffer stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Stats2RunA.lean ====
import proofs.«162849_j29643864277577_1_alg».proof.Proof.KI.Stats2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats2RunB.lean ====
import proofs.«162849_j29643864277577_1_alg».proof.Proof.KI.Stats2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats2RunC.lean ====
import proofs.«162849_j29643864277577_1_alg».proof.Proof.KI.Stats2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Stats2.lean ====
import proofs.«162849_j29643864277577_1_alg».proof.Proof.KI.Stats2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt2 (c : Dev nD) : (n : ℕ) → n < cfg2.N → Vec F S5000x128 .f32 × Vec F S1x128 .f32 × Vec F S1x128 .f32 × Vec F S1x128 .f32 × Vec F S1x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 9 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at the first point: the first case's contents. -/
theorem outsAt2_A (c : Dev nD) (t : Fin cfg2.N) (h0 : t.val = 0) (h1 : ¬t.val = 9) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- `outsAt2` at a middle point: the middle case's contents, over what the point before left. -/
theorem outsAt2_B (c : Dev nD) (t : Fin cfg2.N) (h0 : ¬t.val = 0) (h1 : ¬t.val = 9) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: the last case's contents, over what the point before left. -/
theorem outsAt2_C (c : Dev nD) (t : Fin cfg2.N) (h0 : ¬t.val = 0) (h1 : t.val = 9) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the running sums at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the running sums at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt2`'s first three components; the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, nothing owed, and the nine windows' current staging
    buffers one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
          unfold Dat.leavesExact; rw [liveAt2_0 t], after2_0]
    rw [show (dat2 V c).leavesExact 1 t = owns (c : Thread nD τ) (ms2_1 t) fullShare ((dat2 V c).after 1 t) from by
          unfold Dat.leavesExact; rw [liveAt2_1 t], after2_1]
    rw [show (dat2 V c).leavesExact 2 t = owns (c : Thread nD τ) (ms2_2 t) fullShare ((dat2 V c).after 2 t) from by
          unfold Dat.leavesExact; rw [liveAt2_2 t], after2_2]
    rw [show (dat2 V c).leavesExact 3 t = owns (c : Thread nD τ) (ms2_3 t) fullShare ((dat2 V c).after 3 t) from by
          unfold Dat.leavesExact; rw [liveAt2_3 t], after2_3]
    rw [show (dat2 V c).leavesExact 4 t = owns (c : Thread nD τ) (ms2_4 t) fullShare ((dat2 V c).after 4 t) from by
          unfold Dat.leavesExact; rw [liveAt2_4 t], after2_4]
    rw [show (dat2 V c).leavesExact 5 t = owns (c : Thread nD τ) (ms2_5 t) fullShare ((dat2 V c).after 5 t) from by
          unfold Dat.leavesExact; rw [liveAt2_5 t], after2_5]
    rw [show (dat2 V c).leavesExact 6 t = owns (c : Thread nD τ) (ms2_6 t) fullShare ((dat2 V c).after 6 t) from by
          unfold Dat.leavesExact; rw [liveAt2_6 t], after2_6]
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0 h1]
    unfold out2_A_6 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t], after2_6]
      rw [show (dat2 V c).leavesExact 7 t = owns (c : Thread nD τ) (ms2_7 t) fullShare ((dat2 V c).after 7 t) from by
          unfold Dat.leavesExact; rw [liveAt2_7 t ((hcond2_1 t).mpr h1)], after2_7]
      rw [show (dat2 V c).leavesExact 8 t = owns (c : Thread nD τ) (ms2_8 t) fullShare ((dat2 V c).after 8 t) from by
          unfold Dat.leavesExact; rw [liveAt2_8 t ((hcond2_1 t).mpr h1)], after2_8]
      rw [outsAt2_C V c t h0 h1]
      unfold out2_C_6 out2_C_7 out2_C_8 sout2_C_0 sout2_C_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t], after2_6]
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold out2_B_6 sout2_B_0 sout2_B_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the running sums' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Regions

end Cert.KernelIdeal.Hand

end
-- ==== Proof.KI.Bn3.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before3_tile_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_mean_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_var_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_gamma_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_beta_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 tile and the whole 1x128 row, as rectangles of their buffers: every load and the one store
    of the body go through one of these two. -/
abbrev rTile3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out3_5 (x0 : Vec F S5000x128 .f32) (x1 x2 x3 x4 : Vec F S1x128 .f32) : Vec F S5000x128 .f32 :=
  View.canon [⟨rTile3, k3_pay1 (View.ld x0 rTile3) (View.ld x1 rRow3) (View.ld x2 rRow3) (View.ld x3 rRow3) (View.ld x4 rRow3)⟩]

/-- The one store is of the whole tile, so it covers the buffer. -/
theorem cover3_5 (p0 : Vec F S5000x128 .f32) (y : S5000x128.Idx) :
    ∃ pc ∈ ([⟨rTile3, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out3_5_eq (x0 : Vec F S5000x128 .f32) (x1 x2 x3 x4 : Vec F S1x128 .f32) :
    out3_5 x0 x1 x2 x3 x4 = k3_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out3_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out3_5` of the inputs'. The body
    reads the output's buffer before it overwrites it; what it reads there is not used by the payload. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window: the proof data's case split at each literal window. -/
theorem after3_tile (c : Dev nD) (t : Fin cfg3.N) : (dat3 V c).after 0 t = iblk3 V c 0 t := by dsimp only [dat3]
theorem after3_mean (c : Dev nD) (t : Fin cfg3.N) : (dat3 V c).after 1 t = iblk3 V c 1 t := by dsimp only [dat3]
theorem after3_var (c : Dev nD) (t : Fin cfg3.N) : (dat3 V c).after 2 t = iblk3 V c 2 t := by dsimp only [dat3]
theorem after3_gamma (c : Dev nD) (t : Fin cfg3.N) : (dat3 V c).after 3 t = iblk3 V c 3 t := by dsimp only [dat3]
theorem after3_beta (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_tile (c : Dev nD) (t : Fin cfg3.N) (d) : (dat3 V c).before 0 t d = iblk3 V c 0 t :=
  before3_tile_of V (dat3 V c) (A_eq3 V c 0) (after3_tile V c) t d
theorem before3_mean (c : Dev nD) (t : Fin cfg3.N) (d) : (dat3 V c).before 1 t d = iblk3 V c 1 t :=
  before3_mean_of V (dat3 V c) (A_eq3 V c 1) (after3_mean V c) t d
theorem before3_var (c : Dev nD) (t : Fin cfg3.N) (d) : (dat3 V c).before 2 t d = iblk3 V c 2 t :=
  before3_var_of V (dat3 V c) (A_eq3 V c 2) (after3_var V c) t d
theorem before3_gamma (c : Dev nD) (t : Fin cfg3.N) (d) : (dat3 V c).before 3 t d = iblk3 V c 3 t :=
  before3_gamma_of V (dat3 V c) (A_eq3 V c 3) (after3_gamma V c) t d
theorem before3_beta (c : Dev nD) (t : Fin cfg3.N) (d) : (dat3 V c).before 4 t d = iblk3 V c 4 t :=
  before3_beta_of V (dat3 V c) (A_eq3 V c 4) (after3_beta V c) t d

/-! ## The body obligation, at a generic point -/

/-- What the body is called with at point `t`: the invariant, the core's debt, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the same, each buffer at what the body leaves there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five inputs' buffers hold their blocks, so the body's triple applies; the invariant
    and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_tile, before3_mean, before3_var, before3_gamma, before3_beta]
  rw [show (dat3 V c).Φ t.succ = (dat3 V c).Φ t.castSucc from rfl,
    show (dat3 V c).owesAt () t.succ = (dat3 V c).owesAt () t.castSucc from rfl,
    after3_tile, after3_mean, after3_var, after3_gamma, after3_beta, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Stats4Runs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetches it or not
    (where it does not, the block index has not moved since the fetch), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetches it or not
    (where it does not, the block index has not moved since the fetch), for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetches it or not
    (where it does not, the block index has not moved since the fetch), for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetches it or not
    (where it does not, the block index has not moved since the fetch), for any proof data whose array is `V`'s and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetches it or not
    (where it does not, the block index has not moved since the fetch), for any proof data whose array is `V`'s and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetches it or not
    (where it does not, the block index has not moved since the fetch), for any proof data whose array is `V`'s and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## The body's two branch conditions -/

/-- The first conditional (reset the two running sums): the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional (store the mean and the variance): the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- Window 0 is never idle. -/
theorem liveAt4_0 : ∀ t : Fin cfg4.N, cfg4.idle 0 (grid4.coords t) = false := fun _ => rfl
/-- Window 1 is never idle. -/
theorem liveAt4_1 : ∀ t : Fin cfg4.N, cfg4.idle 1 (grid4.coords t) = false := fun _ => rfl
/-- Window 2 is never idle. -/
theorem liveAt4_2 : ∀ t : Fin cfg4.N, cfg4.idle 2 (grid4.coords t) = false := fun _ => rfl
/-- Window 3 is never idle. -/
theorem liveAt4_3 : ∀ t : Fin cfg4.N, cfg4.idle 3 (grid4.coords t) = false := fun _ => rfl
/-- Window 4 is never idle. -/
theorem liveAt4_4 : ∀ t : Fin cfg4.N, cfg4.idle 4 (grid4.coords t) = false := fun _ => rfl
/-- Window 5 is never idle. -/
theorem liveAt4_5 : ∀ t : Fin cfg4.N, cfg4.idle 5 (grid4.coords t) = false := fun _ => rfl
/-- Window 6 is never idle. -/
theorem liveAt4_6 : ∀ t : Fin cfg4.N, cfg4.idle 6 (grid4.coords t) = false := fun _ => rfl
/-- Away from the last point the configuration calls output 7 idle: nothing is stored into it there, -/
theorem idleAt4_7 : ∀ t : Fin cfg4.N, ¬cond4_1 (grid4.coords t) → cfg4.idle 7 (grid4.coords t) = true := by decide +kernel
/-- and its block is not written back there. -/
theorem noFlush4_7 : ∀ t : Fin cfg4.N, ¬cond4_1 (grid4.coords t) → (cfg4.win 7).flush t = false := by decide +kernel
/-- At the last point output 7 is live: the body stores into it. -/
theorem liveAt4_7 : ∀ t : Fin cfg4.N, cond4_1 (grid4.coords t) → cfg4.idle 7 (grid4.coords t) = false := by decide +kernel
/-- Away from the last point the configuration calls output 8 idle: nothing is stored into it there, -/
theorem idleAt4_8 : ∀ t : Fin cfg4.N, ¬cond4_1 (grid4.coords t) → cfg4.idle 8 (grid4.coords t) = true := by decide +kernel
/-- and its block is not written back there. -/
theorem noFlush4_8 : ∀ t : Fin cfg4.N, ¬cond4_1 (grid4.coords t) → (cfg4.win 8).flush t = false := by decide +kernel
/-- At the last point output 8 is live: the body stores into it. -/
theorem liveAt4_8 : ∀ t : Fin cfg4.N, cond4_1 (grid4.coords t) → cfg4.idle 8 (grid4.coords t) = false := by decide +kernel

/-! ## The memrefs the body is called with -/

/-- One staging buffer of each output window, through which its contents are stated (for a covering list of pieces
    the choice of buffer does not matter). -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two buffers of the kernel's own: the running column sum and the running column sum of squares. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

/-- What the launch hands the region, with the two running-sum buffers taken out of the core's scoped buffers as
    memrefs owned at some contents; every other scoped buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.Stats4RunA.lean ====
import proofs.«162849_j29643864277577_1_alg».proof.Proof.KI.Stats4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats4RunB.lean ====
import proofs.«162849_j29643864277577_1_alg».proof.Proof.KI.Stats4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats4RunC.lean ====
import proofs.«162849_j29643864277577_1_alg».proof.Proof.KI.Stats4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Stats4.lean ====
import proofs.«162849_j29643864277577_1_alg».proof.Proof.KI.Stats4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover4_C_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out4_C_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt4 (c : Dev nD) : (n : ℕ) → n < cfg4.N → Vec F S5000x128 .f32 × Vec F S1x128 .f32 × Vec F S1x128 .f32 × Vec F S1x128 .f32 × Vec F S1x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 9 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- `outsAt4` at the first point: the first case's contents. -/
theorem outsAt4_A (c : Dev nD) (t : Fin cfg4.N) (h0 : t.val = 0) (h1 : ¬t.val = 9) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- `outsAt4` at a middle point: the middle case's contents, over what the point before left. -/
theorem outsAt4_B (c : Dev nD) (t : Fin cfg4.N) (h0 : ¬t.val = 0) (h1 : ¬t.val = 9) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: the last case's contents, over what the point before left. -/
theorem outsAt4_C (c : Dev nD) (t : Fin cfg4.N) (h0 : ¬t.val = 0) (h1 : t.val = 9) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the running sums at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the running sums at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt4`'s first three components; the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, nothing owed, and the nine windows' current staging
    buffers one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
          unfold Dat.leavesExact; rw [liveAt4_0 t], after4_0]
    rw [show (dat4 V c).leavesExact 1 t = owns (c : Thread nD τ) (ms4_1 t) fullShare ((dat4 V c).after 1 t) from by
          unfold Dat.leavesExact; rw [liveAt4_1 t], after4_1]
    rw [show (dat4 V c).leavesExact 2 t = owns (c : Thread nD τ) (ms4_2 t) fullShare ((dat4 V c).after 2 t) from by
          unfold Dat.leavesExact; rw [liveAt4_2 t], after4_2]
    rw [show (dat4 V c).leavesExact 3 t = owns (c : Thread nD τ) (ms4_3 t) fullShare ((dat4 V c).after 3 t) from by
          unfold Dat.leavesExact; rw [liveAt4_3 t], after4_3]
    rw [show (dat4 V c).leavesExact 4 t = owns (c : Thread nD τ) (ms4_4 t) fullShare ((dat4 V c).after 4 t) from by
          unfold Dat.leavesExact; rw [liveAt4_4 t], after4_4]
    rw [show (dat4 V c).leavesExact 5 t = owns (c : Thread nD τ) (ms4_5 t) fullShare ((dat4 V c).after 5 t) from by
          unfold Dat.leavesExact; rw [liveAt4_5 t], after4_5]
    rw [show (dat4 V c).leavesExact 6 t = owns (c : Thread nD τ) (ms4_6 t) fullShare ((dat4 V c).after 6 t) from by
          unfold Dat.leavesExact; rw [liveAt4_6 t], after4_6]
    rw [Dat.leavesExact_idle (dat4 V c) 7 t (idleAt4_7 t (fun h => h1 ((hcond4_1 t).mp h))) (noFlush4_7 t (fun h => h1 ((hcond4_1 t).mp h)))]
    rw [Dat.leavesExact_idle (dat4 V c) 8 t (idleAt4_8 t (fun h => h1 ((hcond4_1 t).mp h))) (noFlush4_8 t (fun h => h1 ((hcond4_1 t).mp h)))]
    rw [outsAt4_A V c t h0 h1]
    unfold out4_A_6 sout4_A_0 sout4_A_1; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t], after4_2]
      rw [show (dat4 V c).leavesExact 3 t = owns (c : Thread nD τ) (ms4_3 t) fullShare ((dat4 V c).after 3 t) from by
          unfold Dat.leavesExact; rw [liveAt4_3 t], after4_3]
      rw [show (dat4 V c).leavesExact 4 t = owns (c : Thread nD τ) (ms4_4 t) fullShare ((dat4 V c).after 4 t) from by
          unfold Dat.leavesExact; rw [liveAt4_4 t], after4_4]
      rw [show (dat4 V c).leavesExact 5 t = owns (c : Thread nD τ) (ms4_5 t) fullShare ((dat4 V c).after 5 t) from by
          unfold Dat.leavesExact; rw [liveAt4_5 t], after4_5]
      rw [show (dat4 V c).leavesExact 6 t = owns (c : Thread nD τ) (ms4_6 t) fullShare ((dat4 V c).after 6 t) from by
          unfold Dat.leavesExact; rw [liveAt4_6 t], after4_6]
      rw [show (dat4 V c).leavesExact 7 t = owns (c : Thread nD τ) (ms4_7 t) fullShare ((dat4 V c).after 7 t) from by
          unfold Dat.leavesExact; rw [liveAt4_7 t ((hcond4_1 t).mpr h1)], after4_7]
      rw [show (dat4 V c).leavesExact 8 t = owns (c : Thread nD τ) (ms4_8 t) fullShare ((dat4 V c).after 8 t) from by
          unfold Dat.leavesExact; rw [liveAt4_8 t ((hcond4_1 t).mpr h1)], after4_8]
      rw [outsAt4_C V c t h0 h1]
      unfold out4_C_6 out4_C_7 out4_C_8 sout4_C_0 sout4_C_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t], after4_2]
      rw [show (dat4 V c).leavesExact 3 t = owns (c : Thread nD τ) (ms4_3 t) fullShare ((dat4 V c).after 3 t) from by
          unfold Dat.leavesExact; rw [liveAt4_3 t], after4_3]
      rw [show (dat4 V c).leavesExact 4 t = owns (c : Thread nD τ) (ms4_4 t) fullShare ((dat4 V c).after 4 t) from by
          unfold Dat.leavesExact; rw [liveAt4_4 t], after4_4]
      rw [show (dat4 V c).leavesExact 5 t = owns (c : Thread nD τ) (ms4_5 t) fullShare ((dat4 V c).after 5 t) from by
          unfold Dat.leavesExact; rw [liveAt4_5 t], after4_5]
      rw [show (dat4 V c).leavesExact 6 t = owns (c : Thread nD τ) (ms4_6 t) fullShare ((dat4 V c).after 6 t) from by
          unfold Dat.leavesExact; rw [liveAt4_6 t], after4_6]
      rw [Dat.leavesExact_idle (dat4 V c) 7 t (idleAt4_7 t (fun h => h1 ((hcond4_1 t).mp h))) (noFlush4_7 t (fun h => h1 ((hcond4_1 t).mp h)))]
      rw [Dat.leavesExact_idle (dat4 V c) 8 t (idleAt4_8 t (fun h => h1 ((hcond4_1 t).mp h))) (noFlush4_8 t (fun h => h1 ((hcond4_1 t).mp h)))]
      rw [outsAt4_B V c t h0 h1]
      unfold out4_B_6 sout4_B_0 sout4_B_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the running sums' contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Regions

end Cert.KernelIdeal.Hand

end
-- ==== Proof.KI.Bn5.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before5_tile_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_mean_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_var_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_gamma_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_beta_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000x128 tile and the whole 1x128 row, as rectangles of their buffers: every load and the one store
    of the body go through one of these two. -/
abbrev rTile5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out5_5 (x0 : Vec F S5000x128 .f32) (x1 x2 x3 x4 : Vec F S1x128 .f32) : Vec F S5000x128 .f32 :=
  View.canon [⟨rTile5, k5_pay1 (View.ld x0 rTile5) (View.ld x1 rRow5) (View.ld x2 rRow5) (View.ld x3 rRow5) (View.ld x4 rRow5)⟩]

/-- The one store is of the whole tile, so it covers the buffer. -/
theorem cover5_5 (p0 : Vec F S5000x128 .f32) (y : S5000x128.Idx) :
    ∃ pc ∈ ([⟨rTile5, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out5_5_eq (x0 : Vec F S5000x128 .f32) (x1 x2 x3 x4 : Vec F S1x128 .f32) :
    out5_5 x0 x1 x2 x3 x4 = k5_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out5_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out5_5` of the inputs'. The body
    reads the output's buffer before it overwrites it; what it reads there is not used by the payload. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window: the proof data's case split at each literal window. -/
theorem after5_tile (c : Dev nD) (t : Fin cfg5.N) : (dat5 V c).after 0 t = iblk5 V c 0 t := by dsimp only [dat5]
theorem after5_mean (c : Dev nD) (t : Fin cfg5.N) : (dat5 V c).after 1 t = iblk5 V c 1 t := by dsimp only [dat5]
theorem after5_var (c : Dev nD) (t : Fin cfg5.N) : (dat5 V c).after 2 t = iblk5 V c 2 t := by dsimp only [dat5]
theorem after5_gamma (c : Dev nD) (t : Fin cfg5.N) : (dat5 V c).after 3 t = iblk5 V c 3 t := by dsimp only [dat5]
theorem after5_beta (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_tile (c : Dev nD) (t : Fin cfg5.N) (d) : (dat5 V c).before 0 t d = iblk5 V c 0 t :=
  before5_tile_of V (dat5 V c) (A_eq5 V c 0) (after5_tile V c) t d
theorem before5_mean (c : Dev nD) (t : Fin cfg5.N) (d) : (dat5 V c).before 1 t d = iblk5 V c 1 t :=
  before5_mean_of V (dat5 V c) (A_eq5 V c 1) (after5_mean V c) t d
theorem before5_var (c : Dev nD) (t : Fin cfg5.N) (d) : (dat5 V c).before 2 t d = iblk5 V c 2 t :=
  before5_var_of V (dat5 V c) (A_eq5 V c 2) (after5_var V c) t d
theorem before5_gamma (c : Dev nD) (t : Fin cfg5.N) (d) : (dat5 V c).before 3 t d = iblk5 V c 3 t :=
  before5_gamma_of V (dat5 V c) (A_eq5 V c 3) (after5_gamma V c) t d
theorem before5_beta (c : Dev nD) (t : Fin cfg5.N) (d) : (dat5 V c).before 4 t d = iblk5 V c 4 t :=
  before5_beta_of V (dat5 V c) (A_eq5 V c 4) (after5_beta V c) t d

/-! ## The body obligation, at a generic point -/

/-- What the body is called with at point `t`: the invariant, the core's debt, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns: the same, each buffer at what the body leaves there. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five inputs' buffers hold their blocks, so the body's triple applies; the invariant
    and the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_tile, before5_mean, before5_var, before5_gamma, before5_beta]
  rw [show (dat5 V c).Φ t.succ = (dat5 V c).Φ t.castSucc from rfl,
    show (dat5 V c).owesAt () t.succ = (dat5 V c).owesAt () t.castSucc from rfl,
    after5_tile, after5_mean, after5_var, after5_gamma, after5_beta, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Hand

end
-- ==== Proof.KI.Stats6Runs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 6 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetches it or not
    (where it does not, the block index has not moved since the fetch), for any proof data whose array is `V`'s and
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetches it or not
    (where it does not, the block index has not moved since the fetch), for any proof data whose array is `V`'s and
    whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetches it or not
    (where it does not, the block index has not moved since the fetch), for any proof data whose array is `V`'s and
    whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetches it or not
    (where it does not, the block index has not moved since the fetch), for any proof data whose array is `V`'s and
    whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetches it or not
    (where it does not, the block index has not moved since the fetch), for any proof data whose array is `V`'s and
    whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetches it or not
    (where it does not, the block index has not moved since the fetch), for any proof data whose array is `V`'s and
    whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

end Regions

/-! ## The body's two branch conditions -/

/-- The first conditional (reset the two running sums): the grid coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The second conditional (store the mean and the variance): the grid coordinate is 9. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

/-- Window 0 is never idle. -/
theorem liveAt6_0 : ∀ t : Fin cfg6.N, cfg6.idle 0 (grid6.coords t) = false := fun _ => rfl
/-- Window 1 is never idle. -/
theorem liveAt6_1 : ∀ t : Fin cfg6.N, cfg6.idle 1 (grid6.coords t) = false := fun _ => rfl
/-- Window 2 is never idle. -/
theorem liveAt6_2 : ∀ t : Fin cfg6.N, cfg6.idle 2 (grid6.coords t) = false := fun _ => rfl
/-- Window 3 is never idle. -/
theorem liveAt6_3 : ∀ t : Fin cfg6.N, cfg6.idle 3 (grid6.coords t) = false := fun _ => rfl
/-- Window 4 is never idle. -/
theorem liveAt6_4 : ∀ t : Fin cfg6.N, cfg6.idle 4 (grid6.coords t) = false := fun _ => rfl
/-- Window 5 is never idle. -/
theorem liveAt6_5 : ∀ t : Fin cfg6.N, cfg6.idle 5 (grid6.coords t) = false := fun _ => rfl
/-- Window 6 is never idle. -/
theorem liveAt6_6 : ∀ t : Fin cfg6.N, cfg6.idle 6 (grid6.coords t) = false := fun _ => rfl
/-- Away from the last point the configuration calls output 7 idle: nothing is stored into it there, -/
theorem idleAt6_7 : ∀ t : Fin cfg6.N, ¬cond6_1 (grid6.coords t) → cfg6.idle 7 (grid6.coords t) = true := by decide +kernel
/-- and its block is not written back there. -/
theorem noFlush6_7 : ∀ t : Fin cfg6.N, ¬cond6_1 (grid6.coords t) → (cfg6.win 7).flush t = false := by decide +kernel
/-- At the last point output 7 is live: the body stores into it. -/
theorem liveAt6_7 : ∀ t : Fin cfg6.N, cond6_1 (grid6.coords t) → cfg6.idle 7 (grid6.coords t) = false := by decide +kernel
/-- Away from the last point the configuration calls output 8 idle: nothing is stored into it there, -/
theorem idleAt6_8 : ∀ t : Fin cfg6.N, ¬cond6_1 (grid6.coords t) → cfg6.idle 8 (grid6.coords t) = true := by decide +kernel
/-- and its block is not written back there. -/
theorem noFlush6_8 : ∀ t : Fin cfg6.N, ¬cond6_1 (grid6.coords t) → (cfg6.win 8).flush t = false := by decide +kernel
/-- At the last point output 8 is live: the body stores into it. -/
theorem liveAt6_8 : ∀ t : Fin cfg6.N, cond6_1 (grid6.coords t) → cfg6.idle 8 (grid6.coords t) = false := by decide +kernel

/-! ## The memrefs the body is called with -/

/-- One staging buffer of each output window, through which its contents are stated (for a covering list of pieces
    the choice of buffer does not matter). -/
abbrev VO6_6 : View sig .tc .vmem S5000x128 .f32 := (Memref.whole cc6_stg6_0 : Memref sig .tc .vmem S5000x128 .f32).view
abbrev VO6_7 : View sig .tc .vmem S1x128 .f32 := (Memref.whole cc6_stg7_0 : Memref sig .tc .vmem S1x128 .f32).view
abbrev VO6_8 : View sig .tc .vmem S1x128 .f32 := (Memref.whole cc6_stg8_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
/-- The two buffers of the kernel's own: the running column sum and the running column sum of squares. -/
abbrev scM6_0 : Memref sig .tc .vmem S1x128 .f32 := Memref.whole cc6_scratch0
abbrev scM6_1 : Memref sig .tc .vmem S1x128 .f32 := Memref.whole cc6_scratch1
/-- The same as views: what they hold is stated through these. -/
abbrev VS6_0 : View sig .tc .vmem S1x128 .f32 := scM6_0.view
abbrev VS6_1 : View sig .tc .vmem S1x128 .f32 := scM6_1.view

/-- What the launch hands the region, with the two running-sum buffers taken out of the core's scoped buffers as
    memrefs owned at some contents; every other scoped buffer stays unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.KernelIdeal.Hand

end
-- ==== Proof.KI.Stats6RunA.lean ====
import proofs.«162849_j29643864277577_1_alg».proof.Proof.KI.Stats6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats6RunB.lean ====
import proofs.«162849_j29643864277577_1_alg».proof.Proof.KI.Stats6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats6RunC.lean ====
import proofs.«162849_j29643864277577_1_alg».proof.Proof.KI.Stats6RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Stats6.lean ====
import proofs.«162849_j29643864277577_1_alg».proof.Proof.KI.Stats6RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 6: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_7.read (Elt F) (VO6_7.writes (Elt F) VO6_7.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover6_A_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout6_A_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover6_A_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout6_A_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_7.read (Elt F) (VO6_7.writes (Elt F) VO6_7.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_8.read (Elt F) (VO6_8.writes (Elt F) VO6_8.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover6_B_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout6_B_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover6_B_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout6_B_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover6_C_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out6_C_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover6_C_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out6_C_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_7.read (Elt F) (VO6_7.writes (Elt F) VO6_7.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover6_C_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out6_C_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_8.read (Elt F) (VO6_8.writes (Elt F) VO6_8.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover6_C_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout6_C_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover6_C_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout6_C_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt6 (c : Dev nD) : (n : ℕ) → n < cfg6.N → Vec F S5000x128 .f32 × Vec F S1x128 .f32 × Vec F S1x128 .f32 × Vec F S1x128 .f32 × Vec F S1x128 .f32
  | 0, hn => (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h1 : n + 1 = 9 then
      (out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)
    else
      (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)

/-- `outsAt6` at the first point: the first case's contents. -/
theorem outsAt6_A (c : Dev nD) (t : Fin cfg6.N) (h0 : t.val = 0) (h1 : ¬t.val = 9) :
    outsAt6 V c t.val t.isLt = (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact absurd h0 (Nat.succ_ne_zero n)

/-- `outsAt6` at a middle point: the middle case's contents, over what the point before left. -/
theorem outsAt6_B (c : Dev nD) (t : Fin cfg6.N) (h0 : ¬t.val = 0) (h1 : ¬t.val = 9) :
    outsAt6 V c t.val t.isLt = (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt6` at the last point: the last case's contents, over what the point before left. -/
theorem outsAt6_C (c : Dev nD) (t : Fin cfg6.N) (h0 : ¬t.val = 0) (h1 : t.val = 9) :
    outsAt6 V c t.val t.isLt = (out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the running sums at that point's contents. -/
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the running sums at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt6`'s first three components; the
    invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's number. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`: the invariant, nothing owed, and the nine windows' current staging
    buffers one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val = 0
  · have h1 : ¬t.val = 9 := by omega
    rw [show (dat6 V c).leavesExact 0 t = owns (c : Thread nD τ) (ms6_0 t) fullShare ((dat6 V c).after 0 t) from by
          unfold Dat.leavesExact; rw [liveAt6_0 t], after6_0]
    rw [show (dat6 V c).leavesExact 1 t = owns (c : Thread nD τ) (ms6_1 t) fullShare ((dat6 V c).after 1 t) from by
          unfold Dat.leavesExact; rw [liveAt6_1 t], after6_1]
    rw [show (dat6 V c).leavesExact 2 t = owns (c : Thread nD τ) (ms6_2 t) fullShare ((dat6 V c).after 2 t) from by
          unfold Dat.leavesExact; rw [liveAt6_2 t], after6_2]
    rw [show (dat6 V c).leavesExact 3 t = owns (c : Thread nD τ) (ms6_3 t) fullShare ((dat6 V c).after 3 t) from by
          unfold Dat.leavesExact; rw [liveAt6_3 t], after6_3]
    rw [show (dat6 V c).leavesExact 4 t = owns (c : Thread nD τ) (ms6_4 t) fullShare ((dat6 V c).after 4 t) from by
          unfold Dat.leavesExact; rw [liveAt6_4 t], after6_4]
    rw [show (dat6 V c).leavesExact 5 t = owns (c : Thread nD τ) (ms6_5 t) fullShare ((dat6 V c).after 5 t) from by
          unfold Dat.leavesExact; rw [liveAt6_5 t], after6_5]
    rw [show (dat6 V c).leavesExact 6 t = owns (c : Thread nD τ) (ms6_6 t) fullShare ((dat6 V c).after 6 t) from by
          unfold Dat.leavesExact; rw [liveAt6_6 t], after6_6]
    rw [Dat.leavesExact_idle (dat6 V c) 7 t (idleAt6_7 t (fun h => h1 ((hcond6_1 t).mp h))) (noFlush6_7 t (fun h => h1 ((hcond6_1 t).mp h)))]
    rw [Dat.leavesExact_idle (dat6 V c) 8 t (idleAt6_8 t (fun h => h1 ((hcond6_1 t).mp h))) (noFlush6_8 t (fun h => h1 ((hcond6_1 t).mp h)))]
    rw [outsAt6_A V c t h0 h1]
    unfold out6_A_6 sout6_A_0 sout6_A_1; (try dsimp only)
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover6_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t], after6_2]
      rw [show (dat6 V c).leavesExact 3 t = owns (c : Thread nD τ) (ms6_3 t) fullShare ((dat6 V c).after 3 t) from by
          unfold Dat.leavesExact; rw [liveAt6_3 t], after6_3]
      rw [show (dat6 V c).leavesExact 4 t = owns (c : Thread nD τ) (ms6_4 t) fullShare ((dat6 V c).after 4 t) from by
          unfold Dat.leavesExact; rw [liveAt6_4 t], after6_4]
      rw [show (dat6 V c).leavesExact 5 t = owns (c : Thread nD τ) (ms6_5 t) fullShare ((dat6 V c).after 5 t) from by
          unfold Dat.leavesExact; rw [liveAt6_5 t], after6_5]
      rw [show (dat6 V c).leavesExact 6 t = owns (c : Thread nD τ) (ms6_6 t) fullShare ((dat6 V c).after 6 t) from by
          unfold Dat.leavesExact; rw [liveAt6_6 t], after6_6]
      rw [show (dat6 V c).leavesExact 7 t = owns (c : Thread nD τ) (ms6_7 t) fullShare ((dat6 V c).after 7 t) from by
          unfold Dat.leavesExact; rw [liveAt6_7 t ((hcond6_1 t).mpr h1)], after6_7]
      rw [show (dat6 V c).leavesExact 8 t = owns (c : Thread nD τ) (ms6_8 t) fullShare ((dat6 V c).after 8 t) from by
          unfold Dat.leavesExact; rw [liveAt6_8 t ((hcond6_1 t).mpr h1)], after6_8]
      rw [outsAt6_C V c t h0 h1]
      unfold out6_C_6 out6_C_7 out6_C_8 sout6_C_0 sout6_C_1; (try dsimp only)
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover6_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover6_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _ _ _ _ _ _ _ _ _ _ _ _)
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t], after6_2]
      rw [show (dat6 V c).leavesExact 3 t = owns (c : Thread nD τ) (ms6_3 t) fullShare ((dat6 V c).after 3 t) from by
          unfold Dat.leavesExact; rw [liveAt6_3 t], after6_3]
      rw [show (dat6 V c).leavesExact 4 t = owns (c : Thread nD τ) (ms6_4 t) fullShare ((dat6 V c).after 4 t) from by
          unfold Dat.leavesExact; rw [liveAt6_4 t], after6_4]
      rw [show (dat6 V c).leavesExact 5 t = owns (c : Thread nD τ) (ms6_5 t) fullShare ((dat6 V c).after 5 t) from by
          unfold Dat.leavesExact; rw [liveAt6_5 t], after6_5]
      rw [show (dat6 V c).leavesExact 6 t = owns (c : Thread nD τ) (ms6_6 t) fullShare ((dat6 V c).after 6 t) from by
          unfold Dat.leavesExact; rw [liveAt6_6 t], after6_6]
      rw [Dat.leavesExact_idle (dat6 V c) 7 t (idleAt6_7 t (fun h => h1 ((hcond6_1 t).mp h))) (noFlush6_7 t (fun h => h1 ((hcond6_1 t).mp h)))]
      rw [Dat.leavesExact_idle (dat6 V c) 8 t (idleAt6_8 t (fun h => h1 ((hcond6_1 t).mp h))) (noFlush6_8 t (fun h => h1 ((hcond6_1 t).mp h)))]
      rw [outsAt6_B V c t h0 h1]
      unfold out6_B_6 sout6_B_0 sout6_B_1; (try dsimp only)
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover6_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives back what the launch handed over: the running sums' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Regions

end Cert.KernelIdeal.Hand

end
-- ==== Proof.KI.Bn7.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before7_tile_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_mean_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_var_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_gamma_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_beta_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 5000x128 tile and the whole 1x128 row, as rectangles of their buffers: every load and the one store
    of the body go through one of these two. -/
abbrev rTile7 : Rect S5000x128 := Rect.unit (s := S5000x128) ![0, 0] S5000x128.size inb_S5000x128_S5000x128_0_0
abbrev rRow7 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out7_5 (x0 : Vec F S5000x128 .f32) (x1 x2 x3 x4 : Vec F S1x128 .f32) : Vec F S5000x128 .f32 :=
  View.canon [⟨rTile7, k7_pay1 (View.ld x0 rTile7) (View.ld x1 rRow7) (View.ld x2 rRow7) (View.ld x3 rRow7) (View.ld x4 rRow7)⟩]

/-- The one store is of the whole tile, so it covers the buffer. -/
theorem cover7_5 (p0 : Vec F S5000x128 .f32) (y : S5000x128.Idx) :
    ∃ pc ∈ ([⟨rTile7, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out7_5_eq (x0 : Vec F S5000x128 .f32) (x1 x2 x3 x4 : Vec F S1x128 .f32) :
    out7_5 x0 x1 x2 x3 x4 = k7_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out7_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out7_5` of the inputs'. The body
    reads the output's buffer before it overwrites it; what it reads there is not used by the payload. -/
theorem sound_kernel7 (c : Dev nD) (E : Set ℕ) (i : grid7.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window: the proof data's case split at each literal window. -/
theorem after7_tile (c : Dev nD) (t : Fin cfg7.N) : (dat7 V c).after 0 t = iblk7 V c 0 t := by dsimp only [dat7]
theorem after7_mean (c : Dev nD) (t : Fin cfg7.N) : (dat7 V c).after 1 t = iblk7 V c 1 t := by dsimp only [dat7]
theorem after7_var (c : Dev nD) (t : Fin cfg7.N) : (dat7 V c).after 2 t = iblk7 V c 2 t := by dsimp only [dat7]
theorem after7_gamma (c : Dev nD) (t : Fin cfg7.N) : (dat7 V c).after 3 t = iblk7 V c 3 t := by dsimp only [dat7]
theorem after7_beta (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_tile (c : Dev nD) (t : Fin cfg7.N) (d) : (dat7 V c).before 0 t d = iblk7 V c 0 t :=
  before7_tile_of V (dat7 V c) (A_eq7 V c 0) (after7_tile V c) t d
theorem before7_mean (c : Dev nD) (t : Fin cfg7.N) (d) : (dat7 V c).before 1 t d = iblk7 V c 1 t :=
  before7_mean_of V (dat7 V c) (A_eq7 V c 1) (after7_mean V c) t d
theorem before7_var (c : Dev nD) (t : Fin cfg7.N) (d) : (dat7 V c).before 2 t d = iblk7 V c 2 t :=
  before7_var_of V (dat7 V c) (A_eq7 V c 2) (after7_var V c) t d
theorem before7_gamma (c : Dev nD) (t : Fin cfg7.N) (d) : (dat7 V c).before 3 t d = iblk7 V c 3 t :=
  before7_gamma_of V (dat7 V c) (A_eq7 V c 3) (after7_gamma V c) t d
theorem before7_beta (c : Dev nD) (t : Fin cfg7.N) (d) : (dat7 V c).before 4 t d = iblk7 V c 4 t :=
  before7_beta_of V (dat7 V c) (A_eq7 V c 4) (after7_beta V c) t d

/-! ## The body obligation, at a generic point -/

/-- What the body is called with at point `t`: the invariant, the core's debt, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns: the same, each buffer at what the body leaves there. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the five inputs' buffers hold their blocks, so the body's triple applies; the invariant
    and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_tile, before7_mean, before7_var, before7_gamma, before7_beta]
  rw [show (dat7 V c).Φ t.succ = (dat7 V c).Φ t.castSucc from rfl,
    show (dat7 V c).owesAt () t.succ = (dat7 V c).owesAt () t.castSucc from rfl,
    after7_tile, after7_mean, after7_var, after7_gamma, after7_beta, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Hand

end
-- ==== Proof.KI.Stats8Runs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 8 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the point fetches it or not
    (where it does not, the block index has not moved since the fetch), for any proof data whose array is `V`'s and
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the point fetches it or not
    (where it does not, the block index has not moved since the fetch), for any proof data whose array is `V`'s and
    whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the point fetches it or not
    (where it does not, the block index has not moved since the fetch), for any proof data whose array is `V`'s and
    whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the point fetches it or not
    (where it does not, the block index has not moved since the fetch), for any proof data whose array is `V`'s and
    whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the point fetches it or not
    (where it does not, the block index has not moved since the fetch), for any proof data whose array is `V`'s and
    whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the point fetches it or not
    (where it does not, the block index has not moved since the fetch), for any proof data whose array is `V`'s and
    whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

end Regions

/-! ## The body's two branch conditions -/

/-- The first conditional (reset the two running sums): the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The second conditional (store the mean and the variance): the grid coordinate is 9. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

/-- Window 0 is never idle. -/
theorem liveAt8_0 : ∀ t : Fin cfg8.N, cfg8.idle 0 (grid8.coords t) = false := fun _ => rfl
/-- Window 1 is never idle. -/
theorem liveAt8_1 : ∀ t : Fin cfg8.N, cfg8.idle 1 (grid8.coords t) = false := fun _ => rfl
/-- Window 2 is never idle. -/
theorem liveAt8_2 : ∀ t : Fin cfg8.N, cfg8.idle 2 (grid8.coords t) = false := fun _ => rfl
/-- Window 3 is never idle. -/
theorem liveAt8_3 : ∀ t : Fin cfg8.N, cfg8.idle 3 (grid8.coords t) = false := fun _ => rfl
/-- Window 4 is never idle. -/
theorem liveAt8_4 : ∀ t : Fin cfg8.N, cfg8.idle 4 (grid8.coords t) = false := fun _ => rfl
/-- Window 5 is never idle. -/
theorem liveAt8_5 : ∀ t : Fin cfg8.N, cfg8.idle 5 (grid8.coords t) = false := fun _ => rfl
/-- Window 6 is never idle. -/
theorem liveAt8_6 : ∀ t : Fin cfg8.N, cfg8.idle 6 (grid8.coords t) = false := fun _ => rfl
/-- Away from the last point the configuration calls output 7 idle: nothing is stored into it there, -/
theorem idleAt8_7 : ∀ t : Fin cfg8.N, ¬cond8_1 (grid8.coords t) → cfg8.idle 7 (grid8.coords t) = true := by decide +kernel
/-- and its block is not written back there. -/
theorem noFlush8_7 : ∀ t : Fin cfg8.N, ¬cond8_1 (grid8.coords t) → (cfg8.win 7).flush t = false := by decide +kernel
/-- At the last point output 7 is live: the body stores into it. -/
theorem liveAt8_7 : ∀ t : Fin cfg8.N, cond8_1 (grid8.coords t) → cfg8.idle 7 (grid8.coords t) = false := by decide +kernel
/-- Away from the last point the configuration calls output 8 idle: nothing is stored into it there, -/
theorem idleAt8_8 : ∀ t : Fin cfg8.N, ¬cond8_1 (grid8.coords t) → cfg8.idle 8 (grid8.coords t) = true := by decide +kernel
/-- and its block is not written back there. -/
theorem noFlush8_8 : ∀ t : Fin cfg8.N, ¬cond8_1 (grid8.coords t) → (cfg8.win 8).flush t = false := by decide +kernel
/-- At the last point output 8 is live: the body stores into it. -/
theorem liveAt8_8 : ∀ t : Fin cfg8.N, cond8_1 (grid8.coords t) → cfg8.idle 8 (grid8.coords t) = false := by decide +kernel

/-! ## The memrefs the body is called with -/

/-- One staging buffer of each output window, through which its contents are stated (for a covering list of pieces
    the choice of buffer does not matter). -/
abbrev VO8_6 : View sig .tc .vmem S5000x128 .f32 := (Memref.whole cc8_stg6_0 : Memref sig .tc .vmem S5000x128 .f32).view
abbrev VO8_7 : View sig .tc .vmem S1x128 .f32 := (Memref.whole cc8_stg7_0 : Memref sig .tc .vmem S1x128 .f32).view
abbrev VO8_8 : View sig .tc .vmem S1x128 .f32 := (Memref.whole cc8_stg8_0 : Memref sig .tc .vmem S1x128 .f32).view
/-- Each window's current staging memref at point `t`, spelled as the pipeline passes it, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S128x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S5000x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
/-- The two buffers of the kernel's own: the running column sum and the running column sum of squares. -/
abbrev scM8_0 : Memref sig .tc .vmem S1x128 .f32 := Memref.whole cc8_scratch0
abbrev scM8_1 : Memref sig .tc .vmem S1x128 .f32 := Memref.whole cc8_scratch1
/-- The same as views: what they hold is stated through these. -/
abbrev VS8_0 : View sig .tc .vmem S1x128 .f32 := scM8_0.view
abbrev VS8_1 : View sig .tc .vmem S1x128 .f32 := scM8_1.view

/-- What the launch hands the region, with the two running-sum buffers taken out of the core's scoped buffers as
    memrefs owned at some contents; every other scoped buffer stays unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

end Cert.KernelIdeal.Hand

end
-- ==== Proof.KI.Stats8RunA.lean ====
import proofs.«162849_j29643864277577_1_alg».proof.Proof.KI.Stats8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats8RunB.lean ====
import proofs.«162849_j29643864277577_1_alg».proof.Proof.KI.Stats8RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.KernelIdeal.Hand

end
-- ==== Proof.KI.Stats8RunC.lean ====
import proofs.«162849_j29643864277577_1_alg».proof.Proof.KI.Stats8RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.Stats8.lean ====
import proofs.«162849_j29643864277577_1_alg».proof.Proof.KI.Stats8RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 8: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO8_6.read (Elt F) (VO8_6.writes (Elt F) VO8_6.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out8_A_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO8_7.read (Elt F) (VO8_7.writes (Elt F) VO8_7.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out8_A_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO8_8.read (Elt F) (VO8_8.writes (Elt F) VO8_8.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover8_A_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout8_A_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS8_0.read (Elt F) (VS8_0.writes (Elt F) VS8_0.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover8_A_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout8_A_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS8_1.read (Elt F) (VS8_1.writes (Elt F) VS8_1.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO8_6.read (Elt F) (VO8_6.writes (Elt F) VO8_6.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out8_B_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_7.read (Elt F) (VO8_7.writes (Elt F) VO8_7.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out8_B_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_8.read (Elt F) (VO8_8.writes (Elt F) VO8_8.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover8_B_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout8_B_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_0.read (Elt F) (VS8_0.writes (Elt F) VS8_0.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover8_B_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout8_B_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_1.read (Elt F) (VS8_1.writes (Elt F) VS8_1.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover8_C_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out8_C_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO8_6.read (Elt F) (VO8_6.writes (Elt F) VO8_6.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover8_C_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out8_C_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_7.read (Elt F) (VO8_7.writes (Elt F) VO8_7.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover8_C_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out8_C_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_8.read (Elt F) (VO8_8.writes (Elt F) VO8_8.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover8_C_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout8_C_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_0.read (Elt F) (VS8_0.writes (Elt F) VS8_0.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover8_C_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout8_C_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_1.read (Elt F) (VS8_1.writes (Elt F) VS8_1.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt8 (c : Dev nD) : (n : ℕ) → n < cfg8.N → Vec F S5000x128 .f32 × Vec F S1x128 .f32 × Vec F S1x128 .f32 × Vec F S1x128 .f32 × Vec F S1x128 .f32
  | 0, hn => (out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩))
  | n + 1, hn =>
    if h1 : n + 1 = 9 then
      (out8_C_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_C_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_C_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2)
    else
      (out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_B_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2)

/-- `outsAt8` at the first point: the first case's contents. -/
theorem outsAt8_A (c : Dev nD) (t : Fin cfg8.N) (h0 : t.val = 0) (h1 : ¬t.val = 9) :
    outsAt8 V c t.val t.isLt = (out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      out8_A_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      sout8_A_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t)) := by
  obtain ⟨n, hn⟩ := t
  cases n with
  | zero => exact rfl
  | succ n => exact absurd h0 (Nat.succ_ne_zero n)

/-- `outsAt8` at a middle point: the middle case's contents, over what the point before left. -/
theorem outsAt8_B (c : Dev nD) (t : Fin cfg8.N) (h0 : ¬t.val = 0) (h1 : ¬t.val = 9) :
    outsAt8 V c t.val t.isLt = (out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_B_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_B_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt8` at the last point: the last case's contents, over what the point before left. -/
theorem outsAt8_C (c : Dev nD) (t : Fin cfg8.N) (h0 : ¬t.val = 0) (h1 : t.val = 9) :
    outsAt8 V c t.val t.isLt = (out8_C_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_C_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_C_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_C_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the running sums at that point's contents. -/
theorem PhiS8_succ (c : Dev nD) (n : ℕ) (hn : n < cfg8.N) :
    PhiS8 V c (n + 1) hn = iprop(iprop(iprop(owns (c : Thread nD τ) scM8_0 fullShare ((outsAt8 V c n hn).2.2.2.1) ∗ owns (c : Thread nD τ) scM8_1 fullShare ((outsAt8 V c n hn).2.2.2.2))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the running sums at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt8`'s first three components; the
    invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => (outsAt8 V c t.val t.isLt).1
    | ⟨7, _⟩ => (outsAt8 V c t.val t.isLt).2.1
    | ⟨8, _⟩ => (outsAt8 V c t.val t.isLt).2.2.1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at the point's number. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = (outsAt8 V c t.val t.isLt).1 := by dsimp only [dat8]
theorem after8_7 (c : Dev nD) (t : Fin cfg8.N) : (dat8 V c).after 7 t = (outsAt8 V c t.val t.isLt).2.1 := by dsimp only [dat8]
theorem after8_8 (c : Dev nD) (t : Fin cfg8.N) : (dat8 V c).after 8 t = (outsAt8 V c t.val t.isLt).2.2.1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`: the invariant, nothing owed, and the nine windows' current staging
    buffers one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  by_cases h0 : t.val = 0
  · have h1 : ¬t.val = 9 := by omega
    rw [show (dat8 V c).leavesExact 0 t = owns (c : Thread nD τ) (ms8_0 t) fullShare ((dat8 V c).after 0 t) from by
          unfold Dat.leavesExact; rw [liveAt8_0 t], after8_0]
    rw [show (dat8 V c).leavesExact 1 t = owns (c : Thread nD τ) (ms8_1 t) fullShare ((dat8 V c).after 1 t) from by
          unfold Dat.leavesExact; rw [liveAt8_1 t], after8_1]
    rw [show (dat8 V c).leavesExact 2 t = owns (c : Thread nD τ) (ms8_2 t) fullShare ((dat8 V c).after 2 t) from by
          unfold Dat.leavesExact; rw [liveAt8_2 t], after8_2]
    rw [show (dat8 V c).leavesExact 3 t = owns (c : Thread nD τ) (ms8_3 t) fullShare ((dat8 V c).after 3 t) from by
          unfold Dat.leavesExact; rw [liveAt8_3 t], after8_3]
    rw [show (dat8 V c).leavesExact 4 t = owns (c : Thread nD τ) (ms8_4 t) fullShare ((dat8 V c).after 4 t) from by
          unfold Dat.leavesExact; rw [liveAt8_4 t], after8_4]
    rw [show (dat8 V c).leavesExact 5 t = owns (c : Thread nD τ) (ms8_5 t) fullShare ((dat8 V c).after 5 t) from by
          unfold Dat.leavesExact; rw [liveAt8_5 t], after8_5]
    rw [show (dat8 V c).leavesExact 6 t = owns (c : Thread nD τ) (ms8_6 t) fullShare ((dat8 V c).after 6 t) from by
          unfold Dat.leavesExact; rw [liveAt8_6 t], after8_6]
    rw [Dat.leavesExact_idle (dat8 V c) 7 t (idleAt8_7 t (fun h => h1 ((hcond8_1 t).mp h))) (noFlush8_7 t (fun h => h1 ((hcond8_1 t).mp h)))]
    rw [Dat.leavesExact_idle (dat8 V c) 8 t (idleAt8_8 t (fun h => h1 ((hcond8_1 t).mp h))) (noFlush8_8 t (fun h => h1 ((hcond8_1 t).mp h)))]
    rw [outsAt8_A V c t h0 h1]
    unfold out8_A_6 sout8_A_0 sout8_A_1; (try dsimp only)
    rw [PhiS8_castSucc V c t, PhiS8_zero V c _ _ h0, PhiA8_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun8_A c (grid8.coords t) _ _ _ _ _ _ _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t) (iblk8 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover8_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover8_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2 t], after8_2]
      rw [show (dat8 V c).leavesExact 3 t = owns (c : Thread nD τ) (ms8_3 t) fullShare ((dat8 V c).after 3 t) from by
          unfold Dat.leavesExact; rw [liveAt8_3 t], after8_3]
      rw [show (dat8 V c).leavesExact 4 t = owns (c : Thread nD τ) (ms8_4 t) fullShare ((dat8 V c).after 4 t) from by
          unfold Dat.leavesExact; rw [liveAt8_4 t], after8_4]
      rw [show (dat8 V c).leavesExact 5 t = owns (c : Thread nD τ) (ms8_5 t) fullShare ((dat8 V c).after 5 t) from by
          unfold Dat.leavesExact; rw [liveAt8_5 t], after8_5]
      rw [show (dat8 V c).leavesExact 6 t = owns (c : Thread nD τ) (ms8_6 t) fullShare ((dat8 V c).after 6 t) from by
          unfold Dat.leavesExact; rw [liveAt8_6 t], after8_6]
      rw [show (dat8 V c).leavesExact 7 t = owns (c : Thread nD τ) (ms8_7 t) fullShare ((dat8 V c).after 7 t) from by
          unfold Dat.leavesExact; rw [liveAt8_7 t ((hcond8_1 t).mpr h1)], after8_7]
      rw [show (dat8 V c).leavesExact 8 t = owns (c : Thread nD τ) (ms8_8 t) fullShare ((dat8 V c).after 8 t) from by
          unfold Dat.leavesExact; rw [liveAt8_8 t ((hcond8_1 t).mpr h1)], after8_8]
      rw [outsAt8_C V c t h0 h1]
      unfold out8_C_6 out8_C_7 out8_C_8 sout8_C_0 sout8_C_1; (try dsimp only)
      rw [PhiS8_castSucc V c t, PhiS8_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun8_C c (grid8.coords t) _ _ _ _ _ _ _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) (iblk8 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover8_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover8_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover8_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover8_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover8_C_8 c _ _ _ _ _ _ _ _ _ _ _ _ _ _ _ _ _ _ _ _ _ _ _ _ _ _ _ _ _ _ _ _ _)
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2 t], after8_2]
      rw [show (dat8 V c).leavesExact 3 t = owns (c : Thread nD τ) (ms8_3 t) fullShare ((dat8 V c).after 3 t) from by
          unfold Dat.leavesExact; rw [liveAt8_3 t], after8_3]
      rw [show (dat8 V c).leavesExact 4 t = owns (c : Thread nD τ) (ms8_4 t) fullShare ((dat8 V c).after 4 t) from by
          unfold Dat.leavesExact; rw [liveAt8_4 t], after8_4]
      rw [show (dat8 V c).leavesExact 5 t = owns (c : Thread nD τ) (ms8_5 t) fullShare ((dat8 V c).after 5 t) from by
          unfold Dat.leavesExact; rw [liveAt8_5 t], after8_5]
      rw [show (dat8 V c).leavesExact 6 t = owns (c : Thread nD τ) (ms8_6 t) fullShare ((dat8 V c).after 6 t) from by
          unfold Dat.leavesExact; rw [liveAt8_6 t], after8_6]
      rw [Dat.leavesExact_idle (dat8 V c) 7 t (idleAt8_7 t (fun h => h1 ((hcond8_1 t).mp h))) (noFlush8_7 t (fun h => h1 ((hcond8_1 t).mp h)))]
      rw [Dat.leavesExact_idle (dat8 V c) 8 t (idleAt8_8 t (fun h => h1 ((hcond8_1 t).mp h))) (noFlush8_8 t (fun h => h1 ((hcond8_1 t).mp h)))]
      rw [outsAt8_B V c t h0 h1]
      unfold out8_B_6 sout8_B_0 sout8_B_1; (try dsimp only)
      rw [PhiS8_castSucc V c t, PhiS8_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun8_B c (grid8.coords t) _ _ _ _ _ _ _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover8_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover8_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover8_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point the invariant gives back what the launch handed over: the running sums' contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Regions

end Cert.KernelIdeal.Hand

end
-- ==== Proof.KI.Bn9.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before9_tile_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_mean_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_var_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_gamma_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_beta_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 5000x128 tile and the whole 1x128 row, as rectangles of their buffers: every load and the one store
    of the body go through one of these two. -/
abbrev rTile9 : Rect S5000x128 := Rect.unit (s := S5000x128) ![0, 0] S5000x128.size inb_S5000x128_S5000x128_0_0
abbrev rRow9 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out9_5 (x0 : Vec F S5000x128 .f32) (x1 x2 x3 x4 : Vec F S1x128 .f32) : Vec F S5000x128 .f32 :=
  View.canon [⟨rTile9, k9_pay1 (View.ld x0 rTile9) (View.ld x1 rRow9) (View.ld x2 rRow9) (View.ld x3 rRow9) (View.ld x4 rRow9)⟩]

/-- The one store is of the whole tile, so it covers the buffer. -/
theorem cover9_5 (p0 : Vec F S5000x128 .f32) (y : S5000x128.Idx) :
    ∃ pc ∈ ([⟨rTile9, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out9_5_eq (x0 : Vec F S5000x128 .f32) (x1 x2 x3 x4 : Vec F S1x128 .f32) :
    out9_5 x0 x1 x2 x3 x4 = k9_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out9_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out9_5` of the inputs'. The body
    reads the output's buffer before it overwrites it; what it reads there is not used by the payload. -/
theorem sound_kernel9 (c : Dev nD) (E : Set ℕ) (i : grid9.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_relu_kernel i arg1 harg1 arg2 harg2 arg3 harg3 arg4 harg4 arg5 harg5 arg6 harg6) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window: the proof data's case split at each literal window. -/
theorem after9_tile (c : Dev nD) (t : Fin cfg9.N) : (dat9 V c).after 0 t = iblk9 V c 0 t := by dsimp only [dat9]
theorem after9_mean (c : Dev nD) (t : Fin cfg9.N) : (dat9 V c).after 1 t = iblk9 V c 1 t := by dsimp only [dat9]
theorem after9_var (c : Dev nD) (t : Fin cfg9.N) : (dat9 V c).after 2 t = iblk9 V c 2 t := by dsimp only [dat9]
theorem after9_gamma (c : Dev nD) (t : Fin cfg9.N) : (dat9 V c).after 3 t = iblk9 V c 3 t := by dsimp only [dat9]
theorem after9_beta (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_tile (c : Dev nD) (t : Fin cfg9.N) (d) : (dat9 V c).before 0 t d = iblk9 V c 0 t :=
  before9_tile_of V (dat9 V c) (A_eq9 V c 0) (after9_tile V c) t d
theorem before9_mean (c : Dev nD) (t : Fin cfg9.N) (d) : (dat9 V c).before 1 t d = iblk9 V c 1 t :=
  before9_mean_of V (dat9 V c) (A_eq9 V c 1) (after9_mean V c) t d
theorem before9_var (c : Dev nD) (t : Fin cfg9.N) (d) : (dat9 V c).before 2 t d = iblk9 V c 2 t :=
  before9_var_of V (dat9 V c) (A_eq9 V c 2) (after9_var V c) t d
theorem before9_gamma (c : Dev nD) (t : Fin cfg9.N) (d) : (dat9 V c).before 3 t d = iblk9 V c 3 t :=
  before9_gamma_of V (dat9 V c) (A_eq9 V c 3) (after9_gamma V c) t d
theorem before9_beta (c : Dev nD) (t : Fin cfg9.N) (d) : (dat9 V c).before 4 t d = iblk9 V c 4 t :=
  before9_beta_of V (dat9 V c) (A_eq9 V c 4) (after9_beta V c) t d

/-! ## The body obligation, at a generic point -/

/-- What the body is called with at point `t`: the invariant, the core's debt, and each window's current staging
    buffer at what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns: the same, each buffer at what the body leaves there. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the five inputs' buffers hold their blocks, so the body's triple applies; the invariant
    and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_tile, before9_mean, before9_var, before9_gamma, before9_beta]
  rw [show (dat9 V c).Φ t.succ = (dat9 V c).Φ t.castSucc from rfl,
    show (dat9 V c).owesAt () t.succ = (dat9 V c).owesAt () t.castSucc from rfl,
    after9_tile, after9_mean, after9_var, after9_gamma, after9_beta, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.KernelIdeal.Hand

end
-- ==== Proof.KI.RunFold.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import proofs.«162849_j29643864277577_1_alg».proof.Proof.Gen.KernelIdeal.Regions
import proofs.«162849_j29643864277577_1_alg».proof.Proof.KI.Stats0
import proofs.«162849_j29643864277577_1_alg».proof.Proof.KI.Bn1
import proofs.«162849_j29643864277577_1_alg».proof.Proof.KI.Stats2
import proofs.«162849_j29643864277577_1_alg».proof.Proof.KI.Bn3
import proofs.«162849_j29643864277577_1_alg».proof.Proof.KI.Stats4
import proofs.«162849_j29643864277577_1_alg».proof.Proof.KI.Bn5
import proofs.«162849_j29643864277577_1_alg».proof.Proof.KI.Stats6
import proofs.«162849_j29643864277577_1_alg».proof.Proof.KI.Bn7
import proofs.«162849_j29643864277577_1_alg».proof.Proof.KI.Stats8
import proofs.«162849_j29643864277577_1_alg».proof.Proof.KI.Bn9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's items: a fold from the launch memory

The program is thirteen stretches of host operations with ten kernel regions between the first eleven. A stretch
rewrites the buffers its operations write; a region rewrites exactly its output arrays, by the write-backs of its
ten grid points in order, and leaves every other buffer as it found it. -/

/-- Core `c`'s buffers at launch. -/
abbrev W0 : Dev nD → Valuation τ sig (Elt F) := fun c b => (s₀ m ρ).mem ((c : Dev nD), b)

/-- After the stretch before region 0: what region 0 is entered from. -/
abbrev W1 : Dev nD → Valuation τ sig (Elt F) := fun c => StableHlo.after hostOps0 (W0 m ρ c)
/-- The same read at the TensorCore's references: the entry contents region 0's proof data are stated at. -/
abbrev V1 : (c : Dev nD) → (b : Ref sig .tc) → Buf (Elt F) ((c : Thread nD τ).loc b) := fun c b => W1 m ρ c b
/-- A reference the stretch does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: each of its arrays at the entry contents with every point's write-back folded in (an input
    array is never written back, so it is as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that is no OUTPUT array of region 0 holds at the exit what it held at the entry: either no window
    stages it, or an input window does and the pipeline never writes an input array back. -/
theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

/-- After the stretch before region 1: what region 1 is entered from. -/
abbrev W3 : Dev nD → Valuation τ sig (Elt F) := fun c => StableHlo.after hostOps1 (W2 m ρ c)
/-- The same read at the TensorCore's references: the entry contents region 1's proof data are stated at. -/
abbrev V3 : (c : Dev nD) → (b : Ref sig .tc) → Buf (Elt F) ((c : Thread nD τ).loc b) := fun c b => W3 m ρ c b
/-- A reference the stretch does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: each of its arrays at the entry contents with every point's write-back folded in (an input
    array is never written back, so it is as entered), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that is no OUTPUT array of region 1 holds at the exit what it held at the entry: either no window
    stages it, or an input window does and the pipeline never writes an input array back. -/
theorem W4_keep (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

/-- After the stretch before region 2: what region 2 is entered from. -/
abbrev W5 : Dev nD → Valuation τ sig (Elt F) := fun c => StableHlo.after hostOps2 (W4 m ρ c)
/-- The same read at the TensorCore's references: the entry contents region 2's proof data are stated at. -/
abbrev V5 : (c : Dev nD) → (b : Ref sig .tc) → Buf (Elt F) ((c : Thread nD τ).loc b) := fun c b => W5 m ρ c b
/-- A reference the stretch does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: each of its arrays at the entry contents with every point's write-back folded in (an input
    array is never written back, so it is as entered), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at
    entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference that is no OUTPUT array of region 2 holds at the exit what it held at the entry: either no window
    stages it, or an input window does and the pipeline never writes an input array back. -/
theorem W6_keep (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

/-- After the stretch before region 3: what region 3 is entered from. -/
abbrev W7 : Dev nD → Valuation τ sig (Elt F) := fun c => StableHlo.after hostOps3 (W6 m ρ c)
/-- The same read at the TensorCore's references: the entry contents region 3's proof data are stated at. -/
abbrev V7 : (c : Dev nD) → (b : Ref sig .tc) → Buf (Elt F) ((c : Thread nD τ).loc b) := fun c b => W7 m ρ c b
/-- A reference the stretch does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: each of its arrays at the entry contents with every point's write-back folded in (an input
    array is never written back, so it is as entered), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at
    entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference that is no OUTPUT array of region 3 holds at the exit what it held at the entry: either no window
    stages it, or an input window does and the pipeline never writes an input array back. -/
theorem W8_keep (c : Dev nD) (r : Ref sig .tc) (h : ∀ w, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr
    exact (W8_arr m ρ c w).trans (((dat3 (V7 m ρ) c).arrAt_in w (h w rfl) _).trans (A_eq3 (V7 m ρ) c w))
  · exact W8_of_ne m ρ c r fun w e => hr ⟨w, e⟩

/-- After the stretch before region 4: what region 4 is entered from. -/
abbrev W9 : Dev nD → Valuation τ sig (Elt F) := fun c => StableHlo.after hostOps4 (W8 m ρ c)
/-- The same read at the TensorCore's references: the entry contents region 4's proof data are stated at. -/
abbrev V9 : (c : Dev nD) → (b : Ref sig .tc) → Buf (Elt F) ((c : Thread nD τ).loc b) := fun c b => W9 m ρ c b
/-- A reference the stretch does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: each of its arrays at the entry contents with every point's write-back folded in (an input
    array is never written back, so it is as entered), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at
    entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference that is no OUTPUT array of region 4 holds at the exit what it held at the entry: either no window
    stages it, or an input window does and the pipeline never writes an input array back. -/
theorem W10_keep (c : Dev nD) (r : Ref sig .tc) (h : ∀ w, Pipeline.arrRef spec4 w = r → (cfg4.win w).isOut = false) :
    W10 m ρ c (Proc.devRef .tc r) = W9 m ρ c (Proc.devRef .tc r) := by
  by_cases hr : ∃ w, Pipeline.arrRef spec4 w = r
  · obtain ⟨w, rfl⟩ := hr
    exact (W10_arr m ρ c w).trans (((dat4 (V9 m ρ) c).arrAt_in w (h w rfl) _).trans (A_eq4 (V9 m ρ) c w))
  · exact W10_of_ne m ρ c r fun w e => hr ⟨w, e⟩

/-- After the stretch before region 5: what region 5 is entered from. -/
abbrev W11 : Dev nD → Valuation τ sig (Elt F) := fun c => StableHlo.after hostOps5 (W10 m ρ c)
/-- The same read at the TensorCore's references: the entry contents region 5's proof data are stated at. -/
abbrev V11 : (c : Dev nD) → (b : Ref sig .tc) → Buf (Elt F) ((c : Thread nD τ).loc b) := fun c b => W11 m ρ c b
/-- A reference the stretch does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: each of its arrays at the entry contents with every point's write-back folded in (an input
    array is never written back, so it is as entered), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at
    entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference that is no OUTPUT array of region 5 holds at the exit what it held at the entry: either no window
    stages it, or an input window does and the pipeline never writes an input array back. -/
theorem W12_keep (c : Dev nD) (r : Ref sig .tc) (h : ∀ w, Pipeline.arrRef spec5 w = r → (cfg5.win w).isOut = false) :
    W12 m ρ c (Proc.devRef .tc r) = W11 m ρ c (Proc.devRef .tc r) := by
  by_cases hr : ∃ w, Pipeline.arrRef spec5 w = r
  · obtain ⟨w, rfl⟩ := hr
    exact (W12_arr m ρ c w).trans (((dat5 (V11 m ρ) c).arrAt_in w (h w rfl) _).trans (A_eq5 (V11 m ρ) c w))
  · exact W12_of_ne m ρ c r fun w e => hr ⟨w, e⟩

/-- After the stretch before region 6: what region 6 is entered from. -/
abbrev W13 : Dev nD → Valuation τ sig (Elt F) := fun c => StableHlo.after hostOps6 (W12 m ρ c)
/-- The same read at the TensorCore's references: the entry contents region 6's proof data are stated at. -/
abbrev V13 : (c : Dev nD) → (b : Ref sig .tc) → Buf (Elt F) ((c : Thread nD τ).loc b) := fun c b => W13 m ρ c b
/-- A reference the stretch does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: each of its arrays at the entry contents with every point's write-back folded in (an input
    array is never written back, so it is as entered), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at
    entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference that is no OUTPUT array of region 6 holds at the exit what it held at the entry: either no window
    stages it, or an input window does and the pipeline never writes an input array back. -/
theorem W14_keep (c : Dev nD) (r : Ref sig .tc) (h : ∀ w, Pipeline.arrRef spec6 w = r → (cfg6.win w).isOut = false) :
    W14 m ρ c (Proc.devRef .tc r) = W13 m ρ c (Proc.devRef .tc r) := by
  by_cases hr : ∃ w, Pipeline.arrRef spec6 w = r
  · obtain ⟨w, rfl⟩ := hr
    exact (W14_arr m ρ c w).trans (((dat6 (V13 m ρ) c).arrAt_in w (h w rfl) _).trans (A_eq6 (V13 m ρ) c w))
  · exact W14_of_ne m ρ c r fun w e => hr ⟨w, e⟩

/-- After the stretch before region 7: what region 7 is entered from. -/
abbrev W15 : Dev nD → Valuation τ sig (Elt F) := fun c => StableHlo.after hostOps7 (W14 m ρ c)
/-- The same read at the TensorCore's references: the entry contents region 7's proof data are stated at. -/
abbrev V15 : (c : Dev nD) → (b : Ref sig .tc) → Buf (Elt F) ((c : Thread nD τ).loc b) := fun c b => W15 m ρ c b
/-- A reference the stretch does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: each of its arrays at the entry contents with every point's write-back folded in (an input
    array is never written back, so it is as entered), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at
    entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A reference that is no OUTPUT array of region 7 holds at the exit what it held at the entry: either no window
    stages it, or an input window does and the pipeline never writes an input array back. -/
theorem W16_keep (c : Dev nD) (r : Ref sig .tc) (h : ∀ w, Pipeline.arrRef spec7 w = r → (cfg7.win w).isOut = false) :
    W16 m ρ c (Proc.devRef .tc r) = W15 m ρ c (Proc.devRef .tc r) := by
  by_cases hr : ∃ w, Pipeline.arrRef spec7 w = r
  · obtain ⟨w, rfl⟩ := hr
    exact (W16_arr m ρ c w).trans (((dat7 (V15 m ρ) c).arrAt_in w (h w rfl) _).trans (A_eq7 (V15 m ρ) c w))
  · exact W16_of_ne m ρ c r fun w e => hr ⟨w, e⟩

/-- After the stretch before region 8: what region 8 is entered from. -/
abbrev W17 : Dev nD → Valuation τ sig (Elt F) := fun c => StableHlo.after hostOps8 (W16 m ρ c)
/-- The same read at the TensorCore's references: the entry contents region 8's proof data are stated at. -/
abbrev V17 : (c : Dev nD) → (b : Ref sig .tc) → Buf (Elt F) ((c : Thread nD τ).loc b) := fun c b => W17 m ρ c b
/-- A reference the stretch does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: each of its arrays at the entry contents with every point's write-back folded in (an input
    array is never written back, so it is as entered), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at
    entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A reference that is no OUTPUT array of region 8 holds at the exit what it held at the entry: either no window
    stages it, or an input window does and the pipeline never writes an input array back. -/
theorem W18_keep (c : Dev nD) (r : Ref sig .tc) (h : ∀ w, Pipeline.arrRef spec8 w = r → (cfg8.win w).isOut = false) :
    W18 m ρ c (Proc.devRef .tc r) = W17 m ρ c (Proc.devRef .tc r) := by
  by_cases hr : ∃ w, Pipeline.arrRef spec8 w = r
  · obtain ⟨w, rfl⟩ := hr
    exact (W18_arr m ρ c w).trans (((dat8 (V17 m ρ) c).arrAt_in w (h w rfl) _).trans (A_eq8 (V17 m ρ) c w))
  · exact W18_of_ne m ρ c r fun w e => hr ⟨w, e⟩

/-- After the stretch before region 9: what region 9 is entered from. -/
abbrev W19 : Dev nD → Valuation τ sig (Elt F) := fun c => StableHlo.after hostOps9 (W18 m ρ c)
/-- The same read at the TensorCore's references: the entry contents region 9's proof data are stated at. -/
abbrev V19 : (c : Dev nD) → (b : Ref sig .tc) → Buf (Elt F) ((c : Thread nD τ).loc b) := fun c b => W19 m ρ c b
/-- A reference the stretch does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: each of its arrays at the entry contents with every point's write-back folded in (an input
    array is never written back, so it is as entered), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at
    entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A reference that is no OUTPUT array of region 9 holds at the exit what it held at the entry: either no window
    stages it, or an input window does and the pipeline never writes an input array back. -/
theorem W20_keep (c : Dev nD) (r : Ref sig .tc) (h : ∀ w, Pipeline.arrRef spec9 w = r → (cfg9.win w).isOut = false) :
    W20 m ρ c (Proc.devRef .tc r) = W19 m ρ c (Proc.devRef .tc r) := by
  by_cases hr : ∃ w, Pipeline.arrRef spec9 w = r
  · obtain ⟨w, rfl⟩ := hr
    exact (W20_arr m ρ c w).trans (((dat9 (V19 m ρ) c).arrAt_in w (h w rfl) _).trans (A_eq9 (V19 m ρ) c w))
  · exact W20_of_ne m ρ c r fun w e => hr ⟨w, e⟩

/-- After the first of the three closing stretches. -/
abbrev W21 : Dev nD → Valuation τ sig (Elt F) := fun c => StableHlo.after hostOps10 (W20 m ρ c)
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h

/-- After the second of the three closing stretches. -/
abbrev W22 : Dev nD → Valuation τ sig (Elt F) := fun c => StableHlo.after hostOps10_1 (W21 m ρ c)
theorem W22_of (c : Dev nD) (r : Ref sig .tc) (h : r ∉ hostOps10_1_W) :
    W22 m ρ c (Proc.devRef .tc r) = W21 m ρ c (Proc.devRef .tc r) :=
  StableHlo.after_of_writes_sub hostOps10_1 _ hostOps10_1_writes h

/-- After the third of the three closing stretches. -/
abbrev W23 : Dev nD → Valuation τ sig (Elt F) := fun c => StableHlo.after hostOps10_2 (W22 m ρ c)
theorem W23_of (c : Dev nD) (r : Ref sig .tc) (h : r ∉ hostOps10_2_W) :
    W23 m ρ c (Proc.devRef .tc r) = W22 m ρ c (Proc.devRef .tc r) :=
  StableHlo.after_of_writes_sub hostOps10_2 _ hostOps10_2_writes h

/-! ## The arguments end as launched

A reference that no stretch writes and that is no output array of any region holds at the end what the launch memory
holds: walk the fold back, a stretch by the list of references it writes, a region by its output arrays. -/

theorem W23_of_kept (c : Dev nD) (r : Ref sig .tc)
    (h0 : r ∉ hostOps0_W)
    (h1 : r ∉ hostOps1_W)
    (h2 : r ∉ hostOps2_W)
    (h3 : r ∉ hostOps3_W)
    (h4 : r ∉ hostOps4_W)
    (h5 : r ∉ hostOps5_W)
    (h6 : r ∉ hostOps6_W)
    (h7 : r ∉ hostOps7_W)
    (h8 : r ∉ hostOps8_W)
    (h9 : r ∉ hostOps9_W)
    (h10 : r ∉ hostOps10_W)
    (h10_1 : r ∉ hostOps10_1_W)
    (h10_2 : r ∉ hostOps10_2_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false)
    (k3 : ∀ w, Pipeline.arrRef spec3 w = r → (cfg3.win w).isOut = false)
    (k4 : ∀ w, Pipeline.arrRef spec4 w = r → (cfg4.win w).isOut = false)
    (k5 : ∀ w, Pipeline.arrRef spec5 w = r → (cfg5.win w).isOut = false)
    (k6 : ∀ w, Pipeline.arrRef spec6 w = r → (cfg6.win w).isOut = false)
    (k7 : ∀ w, Pipeline.arrRef spec7 w = r → (cfg7.win w).isOut = false)
    (k8 : ∀ w, Pipeline.arrRef spec8 w = r → (cfg8.win w).isOut = false)
    (k9 : ∀ w, Pipeline.arrRef spec9 w = r → (cfg9.win w).isOut = false) :
    W23 m ρ c (Proc.devRef .tc r) = m ((c : Thread nD τ).loc r) :=
  calc W23 m ρ c (Proc.devRef .tc r)
    _ = W22 m ρ c (Proc.devRef .tc r) := W23_of m ρ c r h10_2
    _ = W21 m ρ c (Proc.devRef .tc r) := W22_of m ρ c r h10_1
    _ = W20 m ρ c (Proc.devRef .tc r) := W21_of m ρ c r h10
    _ = W19 m ρ c (Proc.devRef .tc r) := W20_keep m ρ c r k9
    _ = W18 m ρ c (Proc.devRef .tc r) := W19_of m ρ c r h9
    _ = W17 m ρ c (Proc.devRef .tc r) := W18_keep m ρ c r k8
    _ = W16 m ρ c (Proc.devRef .tc r) := W17_of m ρ c r h8
    _ = W15 m ρ c (Proc.devRef .tc r) := W16_keep m ρ c r k7
    _ = W14 m ρ c (Proc.devRef .tc r) := W15_of m ρ c r h7
    _ = W13 m ρ c (Proc.devRef .tc r) := W14_keep m ρ c r k6
    _ = W12 m ρ c (Proc.devRef .tc r) := W13_of m ρ c r h6
    _ = W11 m ρ c (Proc.devRef .tc r) := W12_keep m ρ c r k5
    _ = W10 m ρ c (Proc.devRef .tc r) := W11_of m ρ c r h5
    _ = W9 m ρ c (Proc.devRef .tc r) := W10_keep m ρ c r k4
    _ = W8 m ρ c (Proc.devRef .tc r) := W9_of m ρ c r h4
    _ = W7 m ρ c (Proc.devRef .tc r) := W8_keep m ρ c r k3
    _ = W6 m ρ c (Proc.devRef .tc r) := W7_of m ρ c r h3
    _ = W5 m ρ c (Proc.devRef .tc r) := W6_keep m ρ c r k2
    _ = W4 m ρ c (Proc.devRef .tc r) := W5_of m ρ c r h2
    _ = W3 m ρ c (Proc.devRef .tc r) := W4_keep m ρ c r k1
    _ = W2 m ρ c (Proc.devRef .tc r) := W3_of m ρ c r h1
    _ = W1 m ρ c (Proc.devRef .tc r) := W2_keep m ρ c r k0
    _ = W0 m ρ c (Proc.devRef .tc r) := W1_of m ρ c r h0
    _ = m ((c : Thread nD τ).loc r) := rfl

/-- Argument 0 reaches the end as launched: no stretch writes it, and the one region that stages it stages it as an input. -/
theorem W23_main_arg0 (c : Dev nD) : W23 m ρ c (Proc.devRef .tc main_arg0) = m ((c : Thread nD τ).loc main_arg0) :=
  W23_of_kept m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)

/-- Argument 1 reaches the end as launched: no stretch writes it and no region stages it. -/
theorem W23_main_arg1 (c : Dev nD) : W23 m ρ c (Proc.devRef .tc main_arg1) = m ((c : Thread nD τ).loc main_arg1) :=
  W23_of_kept m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)

/-- Argument 2 reaches the end as launched: no stretch writes it and no region stages it. -/
theorem W23_main_arg2 (c : Dev nD) : W23 m ρ c (Proc.devRef .tc main_arg2) = m ((c : Thread nD τ).loc main_arg2) :=
  W23_of_kept m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)

/-- Argument 3 reaches the end as launched: no stretch writes it and no region stages it. -/
theorem W23_main_arg3 (c : Dev nD) : W23 m ρ c (Proc.devRef .tc main_arg3) = m ((c : Thread nD τ).loc main_arg3) :=
  W23_of_kept m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)

/-- Argument 4 reaches the end as launched: no stretch writes it and no region stages it. -/
theorem W23_main_arg4 (c : Dev nD) : W23 m ρ c (Proc.devRef .tc main_arg4) = m ((c : Thread nD τ).loc main_arg4) :=
  W23_of_kept m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)

/-- Argument 5 reaches the end as launched: no stretch writes it and no region stages it. -/
theorem W23_main_arg5 (c : Dev nD) : W23 m ρ c (Proc.devRef .tc main_arg5) = m ((c : Thread nD τ).loc main_arg5) :=
  W23_of_kept m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)

/-- Argument 6 reaches the end as launched: no stretch writes it and no region stages it. -/
theorem W23_main_arg6 (c : Dev nD) : W23 m ρ c (Proc.devRef .tc main_arg6) = m ((c : Thread nD τ).loc main_arg6) :=
  W23_of_kept m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)

/-- Argument 7 reaches the end as launched: no stretch writes it and no region stages it. -/
theorem W23_main_arg7 (c : Dev nD) : W23 m ρ c (Proc.devRef .tc main_arg7) = m ((c : Thread nD τ).loc main_arg7) :=
  W23_of_kept m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)

/-- Argument 8 reaches the end as launched: no stretch writes it and no region stages it. -/
theorem W23_main_arg8 (c : Dev nD) : W23 m ρ c (Proc.devRef .tc main_arg8) = m ((c : Thread nD τ).loc main_arg8) :=
  W23_of_kept m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)

/-- Argument 9 reaches the end as launched: no stretch writes it and no region stages it. -/
theorem W23_main_arg9 (c : Dev nD) : W23 m ρ c (Proc.devRef .tc main_arg9) = m ((c : Thread nD τ).loc main_arg9) :=
  W23_of_kept m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)

/-- Argument 10 reaches the end as launched: no stretch writes it and no region stages it. -/
theorem W23_main_arg10 (c : Dev nD) : W23 m ρ c (Proc.devRef .tc main_arg10) = m ((c : Thread nD τ).loc main_arg10) :=
  W23_of_kept m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)

/-- Argument 11 reaches the end as launched: no stretch writes it and no region stages it. -/
theorem W23_main_arg11 (c : Dev nD) : W23 m ρ c (Proc.devRef .tc main_arg11) = m ((c : Thread nD τ).loc main_arg11) :=
  W23_of_kept m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)

/-! # The thread state between items, and the stretches as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A stretch of host operations as a segment: from every unscoped buffer at the contents `W`, to those buffers at
    the contents the operations leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the last boundary's
    contents, the generator register at some state. -/
abbrev Tₙ (c : Dev nD) : sProp 𝕄 := iprop(StableHlo.held (c : Thread nD τ) (Pipeline.ucRefs τ sig) (W23 m ρ c) ∗ ∃ r, prngReg c r)

/-- The last stretch leaves the last thread state beside the record of owing nothing (a regrouping). -/
theorem last_state (c : Dev nD) :
    iprop(StableHlo.held (c : Thread nD τ) (Pipeline.ucRefs τ sig) (W23 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! # The proof data family -/

/-- Every pipeline's proof data, each at its region's entry contents: a literal case split on the pipeline's number,
    so that the family at a numeral reduces to that region's data. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c

end Cert.KernelIdeal.Hand

end
-- ==== Proof.KI.RunRegs.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import proofs.«162849_j29643864277577_1_alg».proof.Proof.Gen.KernelIdeal.Regions
import proofs.«162849_j29643864277577_1_alg».proof.Proof.KI.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A region's plain invariant, in and out

The plain region invariant is "every scoped buffer that is no staging buffer at some contents, and the generator
register at some state". At a region's entry it is made from the generator register the thread state carries and
the scoped rest the launch hands over (the prefetched tables, of which these kernels have none, are dropped); at
the exit it is taken apart again. -/

theorem ΦA_in {gr W : ℕ} (win : Fin W → Pipeline.WinSpec sig gr) (c : Dev nD) (A : sProp 𝕄) :
    iprop((∃ r, prngReg c r) ∗ A ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem ΦA_out {gr W : ℕ} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- REGION 0 (the linear layer with its column statistics, layer 0) over the thread state: entered from every unscoped
    buffer at `W1`, left at `W2`. Its arrays are split out of the unscoped buffers and put back at the exit contents;
    the generator register goes into the region's invariant and comes back; nothing is owed; the kernel has no
    semaphore of its own. The invariant carries the two running sums between points: it starts from and ends in the
    plain invariant by the region's two bridging entailments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec0 c _).trans (hin0 (V1 m ρ) c)
  hout c := by
    rw [Pipeline.ownSems0_none]
    exact (hout0 (V1 m ρ) c).trans (ΦA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 (the normalisation and rectifier, layer 0) over the thread state: entered from every unscoped
    buffer at `W3`, left at `W4`. Its arrays are split out of the unscoped buffers and put back at the exit contents;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact ΦA_in spec1 c _
  hout c := by
    rw [Pipeline.ownSems0_none, show (pdats m ρ 1 c).Φ (Fin.last _) = Pipeline.ΦA spec1 c from rfl]
    exact ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 (the linear layer with its column statistics, layer 1) over the thread state: entered from every unscoped
    buffer at `W5`, left at `W6`. Its arrays are split out of the unscoped buffers and put back at the exit contents;
    the generator register goes into the region's invariant and comes back; nothing is owed; the kernel has no
    semaphore of its own. The invariant carries the two running sums between points: it starts from and ends in the
    plain invariant by the region's two bridging entailments. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec2 c _).trans (hin2 (V5 m ρ) c)
  hout c := by
    rw [Pipeline.ownSems0_none]
    exact (hout2 (V5 m ρ) c).trans (ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 3 (the normalisation and rectifier, layer 1) over the thread state: entered from every unscoped
    buffer at `W7`, left at `W8`. Its arrays are split out of the unscoped buffers and put back at the exit contents;
    the generator register goes into the region's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    exact ΦA_in spec3 c _
  hout c := by
    rw [Pipeline.ownSems0_none, show (pdats m ρ 3 c).Φ (Fin.last _) = Pipeline.ΦA spec3 c from rfl]
    exact ΦA_out spec3 c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 4 (the linear layer with its column statistics, layer 2) over the thread state: entered from every unscoped
    buffer at `W9`, left at `W10`. Its arrays are split out of the unscoped buffers and put back at the exit contents;
    the generator register goes into the region's invariant and comes back; nothing is owed; the kernel has no
    semaphore of its own. The invariant carries the two running sums between points: it starts from and ends in the
    plain invariant by the region's two bridging entailments. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec4 c _).trans (hin4 (V9 m ρ) c)
  hout c := by
    rw [Pipeline.ownSems0_none]
    exact (hout4 (V9 m ρ) c).trans (ΦA_out spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 5 (the normalisation and rectifier, layer 2) over the thread state: entered from every unscoped
    buffer at `W11`, left at `W12`. Its arrays are split out of the unscoped buffers and put back at the exit contents;
    the generator register goes into the region's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]
    exact ΦA_in spec5 c _
  hout c := by
    rw [Pipeline.ownSems0_none, show (pdats m ρ 5 c).Φ (Fin.last _) = Pipeline.ΦA spec5 c from rfl]
    exact ΦA_out spec5 c
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 6 (the linear layer with its column statistics, layer 3) over the thread state: entered from every unscoped
    buffer at `W13`, left at `W14`. Its arrays are split out of the unscoped buffers and put back at the exit contents;
    the generator register goes into the region's invariant and comes back; nothing is owed; the kernel has no
    semaphore of its own. The invariant carries the two running sums between points: it starts from and ends in the
    plain invariant by the region's two bridging entailments. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec6 c _).trans (hin6 (V13 m ρ) c)
  hout c := by
    rw [Pipeline.ownSems0_none]
    exact (hout6 (V13 m ρ) c).trans (ΦA_out spec6 c)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 7 (the normalisation and rectifier, layer 3) over the thread state: entered from every unscoped
    buffer at `W15`, left at `W16`. Its arrays are split out of the unscoped buffers and put back at the exit contents;
    the generator register goes into the region's invariant and comes back; nothing is owed; the kernel has no
    semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]
    exact ΦA_in spec7 c _
  hout c := by
    rw [Pipeline.ownSems0_none, show (pdats m ρ 7 c).Φ (Fin.last _) = Pipeline.ΦA spec7 c from rfl]
    exact ΦA_out spec7 c
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 8 (the linear layer with its column statistics, layer 4) over the thread state: entered from every unscoped
    buffer at `W17`, left at `W18`. Its arrays are split out of the unscoped buffers and put back at the exit contents;
    the generator register goes into the region's invariant and comes back; nothing is owed; the kernel has no
    semaphore of its own. The invariant carries the two running sums between points: it starts from and ends in the
    plain invariant by the region's two bridging entailments. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec8 c _).trans (hin8 (V17 m ρ) c)
  hout c := by
    rw [Pipeline.ownSems0_none]
    exact (hout8 (V17 m ρ) c).trans (ΦA_out spec8 c)
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 9 (the normalisation and rectifier, layer 4) over the thread state: entered from every unscoped
    buffer at `W19`, left at `W20`. Its arrays are split out of the unscoped buffers and put back at the exit contents;
    the generator register goes into the region's invariant and comes back; nothing is owed; the kernel has no
    semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]
    exact ΦA_in spec9 c _
  hout c := by
    rw [Pipeline.ownSems0_none, show (pdats m ρ 9 c).Φ (Fin.last _) = Pipeline.ΦA spec9 c from rfl]
    exact ΦA_out spec9 c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«162849_j29643864277577_1_alg».proof.Proof.Gen.KernelIdeal.Launch
import proofs.«162849_j29643864277577_1_alg».proof.Proof.Gen.KernelIdeal.Skeleton
import proofs.«162849_j29643864277577_1_alg».proof.Proof.Gen.KernelIdeal.Points
import proofs.«162849_j29643864277577_1_alg».proof.Proof.Gen.KernelIdeal.Regions
import proofs.«162849_j29643864277577_1_alg».proof.Proof.KI.RunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as segments, and the run -/

/-- The program's 23 items in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .host (hseg hostOps10_1 hostOps10_1_sub hostOps10_1_fresh (W21 m ρ)),
    .host (hseg hostOps10_2 hostOps10_2_sub hostOps10_2_fresh (W22 m ρ)) ]

-- the launch theorem's implicit arguments are found by unifying its conclusion with this one, which takes unfolding
-- plain definitions in a metavariable's type
set_option backward.isDefEq.respectTransparency.types false in
/-- THE RUN. At the compiled mesh, from any memory with zero counters, every weakly fair execution of the program on
    the TensorCores terminates, nothing faulting, and in every final state each core's every unscoped buffer holds
    the last boundary's contents `W23`: the several-regions launch over the 23 segments, whose thread states chain
    by construction (each item is entered from the contents the one before leaves), the last thread state read
    against the final memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = W23 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

end Cert.KernelIdeal.Hand

end
-- ==== Proof.K.Stats0Runs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not
    (where it does not, the block index has not moved since the fetch), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not
    (where it does not, the block index has not moved since the fetch), for any proof data whose array is `V`'s and
    whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetches it or not
    (where it does not, the block index has not moved since the fetch), for any proof data whose array is `V`'s and
    whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetches it or not
    (where it does not, the block index has not moved since the fetch), for any proof data whose array is `V`'s and
    whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetches it or not
    (where it does not, the block index has not moved since the fetch), for any proof data whose array is `V`'s and
    whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetches it or not
    (where it does not, the block index has not moved since the fetch), for any proof data whose array is `V`'s and
    whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Regions

/-! ## The body's two branch conditions -/

/-- The first conditional (reset the two running sums): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The second conditional (store the mean and the variance): the grid coordinate is 9. -/
abbrev cond0_1 (i : grid0.Coords) : Prop := k0_cond2 i = 1#1
/-- It holds at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Away from the last point the configuration calls output 7 idle: nothing is stored into it there, -/
theorem idleAt0_7 : ∀ t : Fin cfg0.N, ¬cond0_1 (grid0.coords t) → cfg0.idle 7 (grid0.coords t) = true := by decide +kernel
/-- and its block is not written back there. -/
theorem noFlush0_7 : ∀ t : Fin cfg0.N, ¬cond0_1 (grid0.coords t) → (cfg0.win 7).flush t = false := by decide +kernel
/-- At the last point output 7 is live: the body stores into it. -/
theorem liveAt0_7 : ∀ t : Fin cfg0.N, cond0_1 (grid0.coords t) → cfg0.idle 7 (grid0.coords t) = false := by decide +kernel
/-- Away from the last point the configuration calls output 8 idle: nothing is stored into it there, -/
theorem idleAt0_8 : ∀ t : Fin cfg0.N, ¬cond0_1 (grid0.coords t) → cfg0.idle 8 (grid0.coords t) = true := by decide +kernel
/-- and its block is not written back there. -/
theorem noFlush0_8 : ∀ t : Fin cfg0.N, ¬cond0_1 (grid0.coords t) → (cfg0.win 8).flush t = false := by decide +kernel
/-- At the last point output 8 is live: the body stores into it. -/
theorem liveAt0_8 : ∀ t : Fin cfg0.N, cond0_1 (grid0.coords t) → cfg0.idle 8 (grid0.coords t) = false := by decide +kernel

/-! ## The memrefs the body is called with -/

/-- One staging buffer of each output window, through which its contents are stated (for a covering list of pieces
    the choice of buffer does not matter). -/
abbrev VO0_6 : View sig .tc .vmem S5000x128 .f32 := (Memref.whole cc0_stg6_0 : Memref sig .tc .vmem S5000x128 .f32).view
abbrev VO0_7 : View sig .tc .vmem S1x128 .f32 := (Memref.whole cc0_stg7_0 : Memref sig .tc .vmem S1x128 .f32).view
abbrev VO0_8 : View sig .tc .vmem S1x128 .f32 := (Memref.whole cc0_stg8_0 : Memref sig .tc .vmem S1x128 .f32).view
/-- Each window's current staging memref at point `t`, spelled as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S5000x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
/-- The two buffers of the kernel's own: the running column sum and the running column sum of squares. -/
abbrev scM0_0 : Memref sig .tc .vmem S1x128 .f32 := Memref.whole cc0_scratch0
abbrev scM0_1 : Memref sig .tc .vmem S1x128 .f32 := Memref.whole cc0_scratch1
/-- The same as views: what they hold is stated through these. -/
abbrev VS0_0 : View sig .tc .vmem S1x128 .f32 := scM0_0.view
abbrev VS0_1 : View sig .tc .vmem S1x128 .f32 := scM0_1.view

/-- What the launch hands the region, with the two running-sum buffers taken out of the core's scoped buffers as
    memrefs owned at some contents; every other scoped buffer stays unopened. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Stats0RunA.lean ====
import proofs.«162849_j29643864277577_1_alg».proof.Proof.K.Stats0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats0RunB.lean ====
import proofs.«162849_j29643864277577_1_alg».proof.Proof.K.Stats0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats0RunC.lean ====
import proofs.«162849_j29643864277577_1_alg».proof.Proof.K.Stats0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__linear_stats_kernel_eq_skeleton]; unfold cc0__linear_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Stats0.lean ====
import proofs.«162849_j29643864277577_1_alg».proof.Proof.K.Stats0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 0: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out0_A_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out0_A_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out0_A_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out0_B_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out0_B_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out0_B_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out0_C_8 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt0 (c : Dev nD) : (n : ℕ) → n < cfg0.N → Vec F S5000x128 .f32 × Vec F S1x128 .f32 × Vec F S1x128 .f32 × Vec F S1x128 .f32 × Vec F S1x128 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr rfl) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h1 : n + 1 = 9 then
      (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2,
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => Nat.succ_ne_zero n ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2.2.1 (outsAt0 c n (Nat.lt_of_succ_lt hn)).2.2.2.2)

/-- `outsAt0` at the first point: the first case's contents. -/
theorem outsAt0_A (c : Dev nD) (t : Fin cfg0.N) (h0 : t.val = 0) (h1 : ¬t.val = 9) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact absurd h0 (Nat.succ_ne_zero n)

/-- `outsAt0` at a middle point: the middle case's contents, over what the point before left. -/
theorem outsAt0_B (c : Dev nD) (t : Fin cfg0.N) (h0 : ¬t.val = 0) (h1 : ¬t.val = 9) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt0` at the last point: the last case's contents, over what the point before left. -/
theorem outsAt0_C (c : Dev nD) (t : Fin cfg0.N) (h0 : ¬t.val = 0) (h1 : t.val = 9) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2,
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the running sums at that point's contents. -/
theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

/-- Before a point that is not the first: the running sums at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt0`'s first three components; the
    invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
    | ⟨8, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]
theorem after0_8 (c : Dev nD) (t : Fin cfg0.N) : (dat0 V c).after 8 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, nothing owed, and the nine windows' current staging
    buffers one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  by_cases h0 : t.val = 0
  · have h1 : ¬t.val = 9 := by omega
    rw [show (dat0 V c).leavesExact 0 t = owns (c : Thread nD τ) (ms0_0 t) fullShare ((dat0 V c).after 0 t) from by
          unfold Dat.leavesExact; rw [liveAt0_0 t], after0_0]
    rw [show (dat0 V c).leavesExact 1 t = owns (c : Thread nD τ) (ms0_1 t) fullShare ((dat0 V c).after 1 t) from by
          unfold Dat.leavesExact; rw [liveAt0_1 t], after0_1]
    rw [show (dat0 V c).leavesExact 2 t = owns (c : Thread nD τ) (ms0_2 t) fullShare ((dat0 V c).after 2 t) from by
          unfold Dat.leavesExact; rw [liveAt0_2 t], after0_2]
    rw [show (dat0 V c).leavesExact 3 t = owns (c : Thread nD τ) (ms0_3 t) fullShare ((dat0 V c).after 3 t) from by
          unfold Dat.leavesExact; rw [liveAt0_3 t], after0_3]
    rw [show (dat0 V c).leavesExact 4 t = owns (c : Thread nD τ) (ms0_4 t) fullShare ((dat0 V c).after 4 t) from by
          unfold Dat.leavesExact; rw [liveAt0_4 t], after0_4]
    rw [show (dat0 V c).leavesExact 5 t = owns (c : Thread nD τ) (ms0_5 t) fullShare ((dat0 V c).after 5 t) from by
          unfold Dat.leavesExact; rw [liveAt0_5 t], after0_5]
    rw [show (dat0 V c).leavesExact 6 t = owns (c : Thread nD τ) (ms0_6 t) fullShare ((dat0 V c).after 6 t) from by
          unfold Dat.leavesExact; rw [liveAt0_6 t], after0_6]
    rw [Dat.leavesExact_idle (dat0 V c) 7 t (idleAt0_7 t (fun h => h1 ((hcond0_1 t).mp h))) (noFlush0_7 t (fun h => h1 ((hcond0_1 t).mp h)))]
    rw [Dat.leavesExact_idle (dat0 V c) 8 t (idleAt0_8 t (fun h => h1 ((hcond0_1 t).mp h))) (noFlush0_8 t (fun h => h1 ((hcond0_1 t).mp h)))]
    rw [outsAt0_A V c t h0 h1]
    unfold out0_A_6 sout0_A_0 sout0_A_1; (try dsimp only)
    rw [PhiS0_castSucc V c t, PhiS0_zero V c _ _ h0, PhiA0_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A c (grid0.coords t) _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t], after0_4]
      rw [show (dat0 V c).leavesExact 5 t = owns (c : Thread nD τ) (ms0_5 t) fullShare ((dat0 V c).after 5 t) from by
          unfold Dat.leavesExact; rw [liveAt0_5 t], after0_5]
      rw [show (dat0 V c).leavesExact 6 t = owns (c : Thread nD τ) (ms0_6 t) fullShare ((dat0 V c).after 6 t) from by
          unfold Dat.leavesExact; rw [liveAt0_6 t], after0_6]
      rw [show (dat0 V c).leavesExact 7 t = owns (c : Thread nD τ) (ms0_7 t) fullShare ((dat0 V c).after 7 t) from by
          unfold Dat.leavesExact; rw [liveAt0_7 t ((hcond0_1 t).mpr h1)], after0_7]
      rw [show (dat0 V c).leavesExact 8 t = owns (c : Thread nD τ) (ms0_8 t) fullShare ((dat0 V c).after 8 t) from by
          unfold Dat.leavesExact; rw [liveAt0_8 t ((hcond0_1 t).mpr h1)], after0_8]
      rw [outsAt0_C V c t h0 h1]
      unfold out0_C_6 out0_C_7 out0_C_8 sout0_C_0 sout0_C_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _ _ _)
    · rw [show (dat0 V c).leavesExact 0 t = owns (c : Thread nD τ) (ms0_0 t) fullShare ((dat0 V c).after 0 t) from by
          unfold Dat.leavesExact; rw [liveAt0_0 t], after0_0]
      rw [show (dat0 V c).leavesExact 1 t = owns (c : Thread nD τ) (ms0_1 t) fullShare ((dat0 V c).after 1 t) from by
          unfold Dat.leavesExact; rw [liveAt0_1 t], after0_1]
      rw [show (dat0 V c).leavesExact 2 t = owns (c : Thread nD τ) (ms0_2 t) fullShare ((dat0 V c).after 2 t) from by
          unfold Dat.leavesExact; rw [liveAt0_2 t], after0_2]
      rw [show (dat0 V c).leavesExact 3 t = owns (c : Thread nD τ) (ms0_3 t) fullShare ((dat0 V c).after 3 t) from by
          unfold Dat.leavesExact; rw [liveAt0_3 t], after0_3]
      rw [show (dat0 V c).leavesExact 4 t = owns (c : Thread nD τ) (ms0_4 t) fullShare ((dat0 V c).after 4 t) from by
          unfold Dat.leavesExact; rw [liveAt0_4 t], after0_4]
      rw [show (dat0 V c).leavesExact 5 t = owns (c : Thread nD τ) (ms0_5 t) fullShare ((dat0 V c).after 5 t) from by
          unfold Dat.leavesExact; rw [liveAt0_5 t], after0_5]
      rw [show (dat0 V c).leavesExact 6 t = owns (c : Thread nD τ) (ms0_6 t) fullShare ((dat0 V c).after 6 t) from by
          unfold Dat.leavesExact; rw [liveAt0_6 t], after0_6]
      rw [Dat.leavesExact_idle (dat0 V c) 7 t (idleAt0_7 t (fun h => h1 ((hcond0_1 t).mp h))) (noFlush0_7 t (fun h => h1 ((hcond0_1 t).mp h)))]
      rw [Dat.leavesExact_idle (dat0 V c) 8 t (idleAt0_8 t (fun h => h1 ((hcond0_1 t).mp h))) (noFlush0_8 t (fun h => h1 ((hcond0_1 t).mp h)))]
      rw [outsAt0_B V c t h0 h1]
      unfold out0_B_6 sout0_B_0 sout0_B_1; (try dsimp only)
      rw [PhiS0_castSucc V c t, PhiS0_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives back what the launch handed over: the running sums' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 10 := N_0; omega)

end Regions

end Cert.Kernel.Hand

end
-- ==== Proof.K.Bn1.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before1_tile_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_mean_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_var_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_gamma_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_beta_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 5000x128 tile and the whole 1x128 row, as rectangles of their buffers: every load and the one store
    of the body go through one of these two. -/
abbrev rTile1 : Rect S5000x128 := Rect.unit (s := S5000x128) ![0, 0] S5000x128.size inb_S5000x128_S5000x128_0_0
abbrev rRow1 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out1_5 (x0 : Vec F S5000x128 .f32) (x1 x2 x3 x4 : Vec F S1x128 .f32) : Vec F S5000x128 .f32 :=
  View.canon [⟨rTile1, k1_pay1 (View.ld x0 rTile1) (View.ld x1 rRow1) (View.ld x2 rRow1) (View.ld x3 rRow1) (View.ld x4 rRow1)⟩]

/-- The one store is of the whole tile, so it covers the buffer. -/
theorem cover1_5 (p0 : Vec F S5000x128 .f32) (y : S5000x128.Idx) :
    ∃ pc ∈ ([⟨rTile1, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out1_5_eq (x0 : Vec F S5000x128 .f32) (x1 x2 x3 x4 : Vec F S1x128 .f32) :
    out1_5 x0 x1 x2 x3 x4 = k1_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out1_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out1_5` of the inputs'. The body
    reads the output's buffer before it overwrites it; what it reads there is not used by the payload. -/
theorem sound_kernel1 (c : Dev nD) (E : Set ℕ) (i : grid1.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window: the proof data's case split at each literal window. -/
theorem after1_tile (c : Dev nD) (t : Fin cfg1.N) : (dat1 V c).after 0 t = iblk1 V c 0 t := by dsimp only [dat1]
theorem after1_mean (c : Dev nD) (t : Fin cfg1.N) : (dat1 V c).after 1 t = iblk1 V c 1 t := by dsimp only [dat1]
theorem after1_var (c : Dev nD) (t : Fin cfg1.N) : (dat1 V c).after 2 t = iblk1 V c 2 t := by dsimp only [dat1]
theorem after1_gamma (c : Dev nD) (t : Fin cfg1.N) : (dat1 V c).after 3 t = iblk1 V c 3 t := by dsimp only [dat1]
theorem after1_beta (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_tile (c : Dev nD) (t : Fin cfg1.N) (d) : (dat1 V c).before 0 t d = iblk1 V c 0 t :=
  before1_tile_of V (dat1 V c) (A_eq1 V c 0) (after1_tile V c) t d
theorem before1_mean (c : Dev nD) (t : Fin cfg1.N) (d) : (dat1 V c).before 1 t d = iblk1 V c 1 t :=
  before1_mean_of V (dat1 V c) (A_eq1 V c 1) (after1_mean V c) t d
theorem before1_var (c : Dev nD) (t : Fin cfg1.N) (d) : (dat1 V c).before 2 t d = iblk1 V c 2 t :=
  before1_var_of V (dat1 V c) (A_eq1 V c 2) (after1_var V c) t d
theorem before1_gamma (c : Dev nD) (t : Fin cfg1.N) (d) : (dat1 V c).before 3 t d = iblk1 V c 3 t :=
  before1_gamma_of V (dat1 V c) (A_eq1 V c 3) (after1_gamma V c) t d
theorem before1_beta (c : Dev nD) (t : Fin cfg1.N) (d) : (dat1 V c).before 4 t d = iblk1 V c 4 t :=
  before1_beta_of V (dat1 V c) (A_eq1 V c 4) (after1_beta V c) t d

/-! ## The body obligation, at a generic point -/

/-- What the body is called with at point `t`: the invariant, the core's debt, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: the same, each buffer at what the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five inputs' buffers hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_tile, before1_mean, before1_var, before1_gamma, before1_beta]
  rw [show (dat1 V c).Φ t.succ = (dat1 V c).Φ t.castSucc from rfl,
    show (dat1 V c).owesAt () t.succ = (dat1 V c).owesAt () t.castSucc from rfl,
    after1_tile, after1_mean, after1_var, after1_gamma, after1_beta, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Stats2Runs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not
    (where it does not, the block index has not moved since the fetch), for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not
    (where it does not, the block index has not moved since the fetch), for any proof data whose array is `V`'s and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not
    (where it does not, the block index has not moved since the fetch), for any proof data whose array is `V`'s and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the point fetches it or not
    (where it does not, the block index has not moved since the fetch), for any proof data whose array is `V`'s and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, whether the point fetches it or not
    (where it does not, the block index has not moved since the fetch), for any proof data whose array is `V`'s and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, whether the point fetches it or not
    (where it does not, the block index has not moved since the fetch), for any proof data whose array is `V`'s and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's two branch conditions -/

/-- The first conditional (reset the two running sums): the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The second conditional (store the mean and the variance): the grid coordinate is 9. -/
abbrev cond2_1 (i : grid2.Coords) : Prop := k2_cond2 i = 1#1
/-- It holds at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

/-- Window 0 is never idle. -/
theorem liveAt2_0 : ∀ t : Fin cfg2.N, cfg2.idle 0 (grid2.coords t) = false := fun _ => rfl
/-- Window 1 is never idle. -/
theorem liveAt2_1 : ∀ t : Fin cfg2.N, cfg2.idle 1 (grid2.coords t) = false := fun _ => rfl
/-- Window 2 is never idle. -/
theorem liveAt2_2 : ∀ t : Fin cfg2.N, cfg2.idle 2 (grid2.coords t) = false := fun _ => rfl
/-- Window 3 is never idle. -/
theorem liveAt2_3 : ∀ t : Fin cfg2.N, cfg2.idle 3 (grid2.coords t) = false := fun _ => rfl
/-- Window 4 is never idle. -/
theorem liveAt2_4 : ∀ t : Fin cfg2.N, cfg2.idle 4 (grid2.coords t) = false := fun _ => rfl
/-- Window 5 is never idle. -/
theorem liveAt2_5 : ∀ t : Fin cfg2.N, cfg2.idle 5 (grid2.coords t) = false := fun _ => rfl
/-- Window 6 is never idle. -/
theorem liveAt2_6 : ∀ t : Fin cfg2.N, cfg2.idle 6 (grid2.coords t) = false := fun _ => rfl
/-- Away from the last point the configuration calls output 7 idle: nothing is stored into it there, -/
theorem idleAt2_7 : ∀ t : Fin cfg2.N, ¬cond2_1 (grid2.coords t) → cfg2.idle 7 (grid2.coords t) = true := by decide +kernel
/-- and its block is not written back there. -/
theorem noFlush2_7 : ∀ t : Fin cfg2.N, ¬cond2_1 (grid2.coords t) → (cfg2.win 7).flush t = false := by decide +kernel
/-- At the last point output 7 is live: the body stores into it. -/
theorem liveAt2_7 : ∀ t : Fin cfg2.N, cond2_1 (grid2.coords t) → cfg2.idle 7 (grid2.coords t) = false := by decide +kernel
/-- Away from the last point the configuration calls output 8 idle: nothing is stored into it there, -/
theorem idleAt2_8 : ∀ t : Fin cfg2.N, ¬cond2_1 (grid2.coords t) → cfg2.idle 8 (grid2.coords t) = true := by decide +kernel
/-- and its block is not written back there. -/
theorem noFlush2_8 : ∀ t : Fin cfg2.N, ¬cond2_1 (grid2.coords t) → (cfg2.win 8).flush t = false := by decide +kernel
/-- At the last point output 8 is live: the body stores into it. -/
theorem liveAt2_8 : ∀ t : Fin cfg2.N, cond2_1 (grid2.coords t) → cfg2.idle 8 (grid2.coords t) = false := by decide +kernel

/-! ## The memrefs the body is called with -/

/-- One staging buffer of each output window, through which its contents are stated (for a covering list of pieces
    the choice of buffer does not matter). -/
abbrev VO2_6 : View sig .tc .vmem S5000x128 .f32 := (Memref.whole cc2_stg6_0 : Memref sig .tc .vmem S5000x128 .f32).view
abbrev VO2_7 : View sig .tc .vmem S1x128 .f32 := (Memref.whole cc2_stg7_0 : Memref sig .tc .vmem S1x128 .f32).view
abbrev VO2_8 : View sig .tc .vmem S1x128 .f32 := (Memref.whole cc2_stg8_0 : Memref sig .tc .vmem S1x128 .f32).view
/-- Each window's current staging memref at point `t`, spelled as the pipeline passes it, and its wholeness. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S5000x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
/-- The two buffers of the kernel's own: the running column sum and the running column sum of squares. -/
abbrev scM2_0 : Memref sig .tc .vmem S1x128 .f32 := Memref.whole cc2_scratch0
abbrev scM2_1 : Memref sig .tc .vmem S1x128 .f32 := Memref.whole cc2_scratch1
/-- The same as views: what they hold is stated through these. -/
abbrev VS2_0 : View sig .tc .vmem S1x128 .f32 := scM2_0.view
abbrev VS2_1 : View sig .tc .vmem S1x128 .f32 := scM2_1.view

/-- What the launch hands the region, with the two running-sum buffers taken out of the core's scoped buffers as
    memrefs owned at some contents; every other scoped buffer stays unopened. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Stats2RunA.lean ====
import proofs.«162849_j29643864277577_1_alg».proof.Proof.K.Stats2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats2RunB.lean ====
import proofs.«162849_j29643864277577_1_alg».proof.Proof.K.Stats2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats2RunC.lean ====
import proofs.«162849_j29643864277577_1_alg».proof.Proof.K.Stats2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc2__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc2__linear_stats_kernel_eq_skeleton]; unfold cc2__linear_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Stats2.lean ====
import proofs.«162849_j29643864277577_1_alg».proof.Proof.K.Stats2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 2: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out2_A_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO2_6.read (Elt F) (VO2_6.writes (Elt F) VO2_6.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out2_A_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out2_A_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out2_B_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out2_B_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out2_B_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out2_C_8 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO2_8.read (Elt F) (VO2_8.writes (Elt F) VO2_8.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt2 (c : Dev nD) : (n : ℕ) → n < cfg2.N → Vec F S5000x128 .f32 × Vec F S1x128 .f32 × Vec F S1x128 .f32 × Vec F S1x128 .f32 × Vec F S1x128 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩),
      sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h1 : n + 1 = 9 then
      (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
    else
      (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2,
      sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => Nat.succ_ne_zero n ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at the first point: the first case's contents. -/
theorem outsAt2_A (c : Dev nD) (t : Fin cfg2.N) (h0 : t.val = 0) (h1 : ¬t.val = 9) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t),
      sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact absurd h0 (Nat.succ_ne_zero n)

/-- `outsAt2` at a middle point: the middle case's contents, over what the point before left. -/
theorem outsAt2_B (c : Dev nD) (t : Fin cfg2.N) (h0 : ¬t.val = 0) (h1 : ¬t.val = 9) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt2` at the last point: the last case's contents, over what the point before left. -/
theorem outsAt2_C (c : Dev nD) (t : Fin cfg2.N) (h0 : ¬t.val = 0) (h1 : t.val = 9) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2,
      sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the running sums at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
      ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the running sums at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt2`'s first three components; the
    invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at the point's number. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`: the invariant, nothing owed, and the nine windows' current staging
    buffers one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  by_cases h0 : t.val = 0
  · have h1 : ¬t.val = 9 := by omega
    rw [show (dat2 V c).leavesExact 0 t = owns (c : Thread nD τ) (ms2_0 t) fullShare ((dat2 V c).after 0 t) from by
          unfold Dat.leavesExact; rw [liveAt2_0 t], after2_0]
    rw [show (dat2 V c).leavesExact 1 t = owns (c : Thread nD τ) (ms2_1 t) fullShare ((dat2 V c).after 1 t) from by
          unfold Dat.leavesExact; rw [liveAt2_1 t], after2_1]
    rw [show (dat2 V c).leavesExact 2 t = owns (c : Thread nD τ) (ms2_2 t) fullShare ((dat2 V c).after 2 t) from by
          unfold Dat.leavesExact; rw [liveAt2_2 t], after2_2]
    rw [show (dat2 V c).leavesExact 3 t = owns (c : Thread nD τ) (ms2_3 t) fullShare ((dat2 V c).after 3 t) from by
          unfold Dat.leavesExact; rw [liveAt2_3 t], after2_3]
    rw [show (dat2 V c).leavesExact 4 t = owns (c : Thread nD τ) (ms2_4 t) fullShare ((dat2 V c).after 4 t) from by
          unfold Dat.leavesExact; rw [liveAt2_4 t], after2_4]
    rw [show (dat2 V c).leavesExact 5 t = owns (c : Thread nD τ) (ms2_5 t) fullShare ((dat2 V c).after 5 t) from by
          unfold Dat.leavesExact; rw [liveAt2_5 t], after2_5]
    rw [show (dat2 V c).leavesExact 6 t = owns (c : Thread nD τ) (ms2_6 t) fullShare ((dat2 V c).after 6 t) from by
          unfold Dat.leavesExact; rw [liveAt2_6 t], after2_6]
    rw [Dat.leavesExact_idle (dat2 V c) 7 t (idleAt2_7 t (fun h => h1 ((hcond2_1 t).mp h))) (noFlush2_7 t (fun h => h1 ((hcond2_1 t).mp h)))]
    rw [Dat.leavesExact_idle (dat2 V c) 8 t (idleAt2_8 t (fun h => h1 ((hcond2_1 t).mp h))) (noFlush2_8 t (fun h => h1 ((hcond2_1 t).mp h)))]
    rw [outsAt2_A V c t h0 h1]
    unfold out2_A_6 sout2_A_0 sout2_A_1; (try dsimp only)
    rw [PhiS2_castSucc V c t, PhiS2_zero V c _ _ h0, PhiA2_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover2_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover2_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t], after2_6]
      rw [show (dat2 V c).leavesExact 7 t = owns (c : Thread nD τ) (ms2_7 t) fullShare ((dat2 V c).after 7 t) from by
          unfold Dat.leavesExact; rw [liveAt2_7 t ((hcond2_1 t).mpr h1)], after2_7]
      rw [show (dat2 V c).leavesExact 8 t = owns (c : Thread nD τ) (ms2_8 t) fullShare ((dat2 V c).after 8 t) from by
          unfold Dat.leavesExact; rw [liveAt2_8 t ((hcond2_1 t).mpr h1)], after2_8]
      rw [outsAt2_C V c t h0 h1]
      unfold out2_C_6 out2_C_7 out2_C_8 sout2_C_0 sout2_C_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [show (dat2 V c).leavesExact 0 t = owns (c : Thread nD τ) (ms2_0 t) fullShare ((dat2 V c).after 0 t) from by
          unfold Dat.leavesExact; rw [liveAt2_0 t], after2_0]
      rw [show (dat2 V c).leavesExact 1 t = owns (c : Thread nD τ) (ms2_1 t) fullShare ((dat2 V c).after 1 t) from by
          unfold Dat.leavesExact; rw [liveAt2_1 t], after2_1]
      rw [show (dat2 V c).leavesExact 2 t = owns (c : Thread nD τ) (ms2_2 t) fullShare ((dat2 V c).after 2 t) from by
          unfold Dat.leavesExact; rw [liveAt2_2 t], after2_2]
      rw [show (dat2 V c).leavesExact 3 t = owns (c : Thread nD τ) (ms2_3 t) fullShare ((dat2 V c).after 3 t) from by
          unfold Dat.leavesExact; rw [liveAt2_3 t], after2_3]
      rw [show (dat2 V c).leavesExact 4 t = owns (c : Thread nD τ) (ms2_4 t) fullShare ((dat2 V c).after 4 t) from by
          unfold Dat.leavesExact; rw [liveAt2_4 t], after2_4]
      rw [show (dat2 V c).leavesExact 5 t = owns (c : Thread nD τ) (ms2_5 t) fullShare ((dat2 V c).after 5 t) from by
          unfold Dat.leavesExact; rw [liveAt2_5 t], after2_5]
      rw [show (dat2 V c).leavesExact 6 t = owns (c : Thread nD τ) (ms2_6 t) fullShare ((dat2 V c).after 6 t) from by
          unfold Dat.leavesExact; rw [liveAt2_6 t], after2_6]
      rw [Dat.leavesExact_idle (dat2 V c) 7 t (idleAt2_7 t (fun h => h1 ((hcond2_1 t).mp h))) (noFlush2_7 t (fun h => h1 ((hcond2_1 t).mp h)))]
      rw [Dat.leavesExact_idle (dat2 V c) 8 t (idleAt2_8 t (fun h => h1 ((hcond2_1 t).mp h))) (noFlush2_8 t (fun h => h1 ((hcond2_1 t).mp h)))]
      rw [outsAt2_B V c t h0 h1]
      unfold out2_B_6 sout2_B_0 sout2_B_1; (try dsimp only)
      rw [PhiS2_castSucc V c t, PhiS2_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: the running sums' contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 10 := N_2; omega)

end Regions

end Cert.Kernel.Hand

end
-- ==== Proof.K.Bn3.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before3_tile_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_mean_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_var_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_gamma_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_beta_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole 5000x128 tile and the whole 1x128 row, as rectangles of their buffers: every load and the one store
    of the body go through one of these two. -/
abbrev rTile3 : Rect S5000x128 := Rect.unit (s := S5000x128) ![0, 0] S5000x128.size inb_S5000x128_S5000x128_0_0
abbrev rRow3 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out3_5 (x0 : Vec F S5000x128 .f32) (x1 x2 x3 x4 : Vec F S1x128 .f32) : Vec F S5000x128 .f32 :=
  View.canon [⟨rTile3, k3_pay1 (View.ld x0 rTile3) (View.ld x1 rRow3) (View.ld x2 rRow3) (View.ld x3 rRow3) (View.ld x4 rRow3)⟩]

/-- The one store is of the whole tile, so it covers the buffer. -/
theorem cover3_5 (p0 : Vec F S5000x128 .f32) (y : S5000x128.Idx) :
    ∃ pc ∈ ([⟨rTile3, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out3_5_eq (x0 : Vec F S5000x128 .f32) (x1 x2 x3 x4 : Vec F S1x128 .f32) :
    out3_5 x0 x1 x2 x3 x4 = k3_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out3_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out3_5` of the inputs'. The body
    reads the output's buffer before it overwrites it; what it reads there is not used by the payload. -/
theorem sound_kernel3 (c : Dev nD) (E : Set ℕ) (i : grid3.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window: the proof data's case split at each literal window. -/
theorem after3_tile (c : Dev nD) (t : Fin cfg3.N) : (dat3 V c).after 0 t = iblk3 V c 0 t := by dsimp only [dat3]
theorem after3_mean (c : Dev nD) (t : Fin cfg3.N) : (dat3 V c).after 1 t = iblk3 V c 1 t := by dsimp only [dat3]
theorem after3_var (c : Dev nD) (t : Fin cfg3.N) : (dat3 V c).after 2 t = iblk3 V c 2 t := by dsimp only [dat3]
theorem after3_gamma (c : Dev nD) (t : Fin cfg3.N) : (dat3 V c).after 3 t = iblk3 V c 3 t := by dsimp only [dat3]
theorem after3_beta (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_tile (c : Dev nD) (t : Fin cfg3.N) (d) : (dat3 V c).before 0 t d = iblk3 V c 0 t :=
  before3_tile_of V (dat3 V c) (A_eq3 V c 0) (after3_tile V c) t d
theorem before3_mean (c : Dev nD) (t : Fin cfg3.N) (d) : (dat3 V c).before 1 t d = iblk3 V c 1 t :=
  before3_mean_of V (dat3 V c) (A_eq3 V c 1) (after3_mean V c) t d
theorem before3_var (c : Dev nD) (t : Fin cfg3.N) (d) : (dat3 V c).before 2 t d = iblk3 V c 2 t :=
  before3_var_of V (dat3 V c) (A_eq3 V c 2) (after3_var V c) t d
theorem before3_gamma (c : Dev nD) (t : Fin cfg3.N) (d) : (dat3 V c).before 3 t d = iblk3 V c 3 t :=
  before3_gamma_of V (dat3 V c) (A_eq3 V c 3) (after3_gamma V c) t d
theorem before3_beta (c : Dev nD) (t : Fin cfg3.N) (d) : (dat3 V c).before 4 t d = iblk3 V c 4 t :=
  before3_beta_of V (dat3 V c) (A_eq3 V c 4) (after3_beta V c) t d

/-! ## The body obligation, at a generic point -/

/-- What the body is called with at point `t`: the invariant, the core's debt, and each window's current staging
    buffer at what the pipeline left there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns: the same, each buffer at what the body leaves there. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five inputs' buffers hold their blocks, so the body's triple applies; the invariant
    and the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_tile, before3_mean, before3_var, before3_gamma, before3_beta]
  rw [show (dat3 V c).Φ t.succ = (dat3 V c).Φ t.castSucc from rfl,
    show (dat3 V c).owesAt () t.succ = (dat3 V c).owesAt () t.castSucc from rfl,
    after3_tile, after3_mean, after3_var, after3_gamma, after3_beta, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.K.Stats4Runs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether the point fetches it or not
    (where it does not, the block index has not moved since the fetch), for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether the point fetches it or not
    (where it does not, the block index has not moved since the fetch), for any proof data whose array is `V`'s and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether the point fetches it or not
    (where it does not, the block index has not moved since the fetch), for any proof data whose array is `V`'s and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, whether the point fetches it or not
    (where it does not, the block index has not moved since the fetch), for any proof data whose array is `V`'s and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, whether the point fetches it or not
    (where it does not, the block index has not moved since the fetch), for any proof data whose array is `V`'s and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, whether the point fetches it or not
    (where it does not, the block index has not moved since the fetch), for any proof data whose array is `V`'s and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## The body's two branch conditions -/

/-- The first conditional (reset the two running sums): the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The second conditional (store the mean and the variance): the grid coordinate is 9. -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

/-- Window 0 is never idle. -/
theorem liveAt4_0 : ∀ t : Fin cfg4.N, cfg4.idle 0 (grid4.coords t) = false := fun _ => rfl
/-- Window 1 is never idle. -/
theorem liveAt4_1 : ∀ t : Fin cfg4.N, cfg4.idle 1 (grid4.coords t) = false := fun _ => rfl
/-- Window 2 is never idle. -/
theorem liveAt4_2 : ∀ t : Fin cfg4.N, cfg4.idle 2 (grid4.coords t) = false := fun _ => rfl
/-- Window 3 is never idle. -/
theorem liveAt4_3 : ∀ t : Fin cfg4.N, cfg4.idle 3 (grid4.coords t) = false := fun _ => rfl
/-- Window 4 is never idle. -/
theorem liveAt4_4 : ∀ t : Fin cfg4.N, cfg4.idle 4 (grid4.coords t) = false := fun _ => rfl
/-- Window 5 is never idle. -/
theorem liveAt4_5 : ∀ t : Fin cfg4.N, cfg4.idle 5 (grid4.coords t) = false := fun _ => rfl
/-- Window 6 is never idle. -/
theorem liveAt4_6 : ∀ t : Fin cfg4.N, cfg4.idle 6 (grid4.coords t) = false := fun _ => rfl
/-- Away from the last point the configuration calls output 7 idle: nothing is stored into it there, -/
theorem idleAt4_7 : ∀ t : Fin cfg4.N, ¬cond4_1 (grid4.coords t) → cfg4.idle 7 (grid4.coords t) = true := by decide +kernel
/-- and its block is not written back there. -/
theorem noFlush4_7 : ∀ t : Fin cfg4.N, ¬cond4_1 (grid4.coords t) → (cfg4.win 7).flush t = false := by decide +kernel
/-- At the last point output 7 is live: the body stores into it. -/
theorem liveAt4_7 : ∀ t : Fin cfg4.N, cond4_1 (grid4.coords t) → cfg4.idle 7 (grid4.coords t) = false := by decide +kernel
/-- Away from the last point the configuration calls output 8 idle: nothing is stored into it there, -/
theorem idleAt4_8 : ∀ t : Fin cfg4.N, ¬cond4_1 (grid4.coords t) → cfg4.idle 8 (grid4.coords t) = true := by decide +kernel
/-- and its block is not written back there. -/
theorem noFlush4_8 : ∀ t : Fin cfg4.N, ¬cond4_1 (grid4.coords t) → (cfg4.win 8).flush t = false := by decide +kernel
/-- At the last point output 8 is live: the body stores into it. -/
theorem liveAt4_8 : ∀ t : Fin cfg4.N, cond4_1 (grid4.coords t) → cfg4.idle 8 (grid4.coords t) = false := by decide +kernel

/-! ## The memrefs the body is called with -/

/-- One staging buffer of each output window, through which its contents are stated (for a covering list of pieces
    the choice of buffer does not matter). -/
abbrev VO4_6 : View sig .tc .vmem S5000x128 .f32 := (Memref.whole cc4_stg6_0 : Memref sig .tc .vmem S5000x128 .f32).view
abbrev VO4_7 : View sig .tc .vmem S1x128 .f32 := (Memref.whole cc4_stg7_0 : Memref sig .tc .vmem S1x128 .f32).view
abbrev VO4_8 : View sig .tc .vmem S1x128 .f32 := (Memref.whole cc4_stg8_0 : Memref sig .tc .vmem S1x128 .f32).view
/-- Each window's current staging memref at point `t`, spelled as the pipeline passes it, and its wholeness. -/
abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S5000x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1x128 .f32 := win4_8.stage (cfg4.slots t 8)
abbrev hs4_8 (t : Fin cfg4.N) : (ms4_8 t).IsWhole := hstage4_8 ((cfg4.slots t 8).cast nbuf4_8)
/-- The two buffers of the kernel's own: the running column sum and the running column sum of squares. -/
abbrev scM4_0 : Memref sig .tc .vmem S1x128 .f32 := Memref.whole cc4_scratch0
abbrev scM4_1 : Memref sig .tc .vmem S1x128 .f32 := Memref.whole cc4_scratch1
/-- The same as views: what they hold is stated through these. -/
abbrev VS4_0 : View sig .tc .vmem S1x128 .f32 := scM4_0.view
abbrev VS4_1 : View sig .tc .vmem S1x128 .f32 := scM4_1.view

/-- What the launch hands the region, with the two running-sum buffers taken out of the core's scoped buffers as
    memrefs owned at some contents; every other scoped buffer stays unopened. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.K.Stats4RunA.lean ====
import proofs.«162849_j29643864277577_1_alg».proof.Proof.K.Stats4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats4RunB.lean ====
import proofs.«162849_j29643864277577_1_alg».proof.Proof.K.Stats4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats4RunC.lean ====
import proofs.«162849_j29643864277577_1_alg».proof.Proof.K.Stats4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc4__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc4__linear_stats_kernel_eq_skeleton]; unfold cc4__linear_stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Stats4.lean ====
import proofs.«162849_j29643864277577_1_alg».proof.Proof.K.Stats4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 4: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out4_A_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO4_6.read (Elt F) (VO4_6.writes (Elt F) VO4_6.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out4_A_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_7.read (Elt F) (VO4_7.writes (Elt F) VO4_7.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out4_A_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO4_8.read (Elt F) (VO4_8.writes (Elt F) VO4_8.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out4_B_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO4_6.read (Elt F) (VO4_6.writes (Elt F) VO4_6.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out4_B_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out4_B_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover4_C_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out4_C_8 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO4_8.read (Elt F) (VO4_8.writes (Elt F) VO4_8.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt4 (c : Dev nD) : (n : ℕ) → n < cfg4.N → Vec F S5000x128 .f32 × Vec F S1x128 .f32 × Vec F S1x128 .f32 × Vec F S1x128 .f32 × Vec F S1x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩),
      sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h1 : n + 1 = 9 then
      (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2,
      sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => Nat.succ_ne_zero n ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- `outsAt4` at the first point: the first case's contents. -/
theorem outsAt4_A (c : Dev nD) (t : Fin cfg4.N) (h0 : t.val = 0) (h1 : ¬t.val = 9) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t),
      sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact absurd h0 (Nat.succ_ne_zero n)

/-- `outsAt4` at a middle point: the middle case's contents, over what the point before left. -/
theorem outsAt4_B (c : Dev nD) (t : Fin cfg4.N) (h0 : ¬t.val = 0) (h1 : ¬t.val = 9) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: the last case's contents, over what the point before left. -/
theorem outsAt4_C (c : Dev nD) (t : Fin cfg4.N) (h0 : ¬t.val = 0) (h1 : t.val = 9) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2,
      sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the running sums at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
      ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the running sums at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt4`'s first three components; the
    invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at the point's number. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point `t`: the invariant, nothing owed, and the nine windows' current staging
    buffers one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  by_cases h0 : t.val = 0
  · have h1 : ¬t.val = 9 := by omega
    rw [show (dat4 V c).leavesExact 0 t = owns (c : Thread nD τ) (ms4_0 t) fullShare ((dat4 V c).after 0 t) from by
          unfold Dat.leavesExact; rw [liveAt4_0 t], after4_0]
    rw [show (dat4 V c).leavesExact 1 t = owns (c : Thread nD τ) (ms4_1 t) fullShare ((dat4 V c).after 1 t) from by
          unfold Dat.leavesExact; rw [liveAt4_1 t], after4_1]
    rw [show (dat4 V c).leavesExact 2 t = owns (c : Thread nD τ) (ms4_2 t) fullShare ((dat4 V c).after 2 t) from by
          unfold Dat.leavesExact; rw [liveAt4_2 t], after4_2]
    rw [show (dat4 V c).leavesExact 3 t = owns (c : Thread nD τ) (ms4_3 t) fullShare ((dat4 V c).after 3 t) from by
          unfold Dat.leavesExact; rw [liveAt4_3 t], after4_3]
    rw [show (dat4 V c).leavesExact 4 t = owns (c : Thread nD τ) (ms4_4 t) fullShare ((dat4 V c).after 4 t) from by
          unfold Dat.leavesExact; rw [liveAt4_4 t], after4_4]
    rw [show (dat4 V c).leavesExact 5 t = owns (c : Thread nD τ) (ms4_5 t) fullShare ((dat4 V c).after 5 t) from by
          unfold Dat.leavesExact; rw [liveAt4_5 t], after4_5]
    rw [show (dat4 V c).leavesExact 6 t = owns (c : Thread nD τ) (ms4_6 t) fullShare ((dat4 V c).after 6 t) from by
          unfold Dat.leavesExact; rw [liveAt4_6 t], after4_6]
    rw [Dat.leavesExact_idle (dat4 V c) 7 t (idleAt4_7 t (fun h => h1 ((hcond4_1 t).mp h))) (noFlush4_7 t (fun h => h1 ((hcond4_1 t).mp h)))]
    rw [Dat.leavesExact_idle (dat4 V c) 8 t (idleAt4_8 t (fun h => h1 ((hcond4_1 t).mp h))) (noFlush4_8 t (fun h => h1 ((hcond4_1 t).mp h)))]
    rw [outsAt4_A V c t h0 h1]
    unfold out4_A_6 sout4_A_0 sout4_A_1; (try dsimp only)
    rw [PhiS4_castSucc V c t, PhiS4_zero V c _ _ h0, PhiA4_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t], after4_2]
      rw [show (dat4 V c).leavesExact 3 t = owns (c : Thread nD τ) (ms4_3 t) fullShare ((dat4 V c).after 3 t) from by
          unfold Dat.leavesExact; rw [liveAt4_3 t], after4_3]
      rw [show (dat4 V c).leavesExact 4 t = owns (c : Thread nD τ) (ms4_4 t) fullShare ((dat4 V c).after 4 t) from by
          unfold Dat.leavesExact; rw [liveAt4_4 t], after4_4]
      rw [show (dat4 V c).leavesExact 5 t = owns (c : Thread nD τ) (ms4_5 t) fullShare ((dat4 V c).after 5 t) from by
          unfold Dat.leavesExact; rw [liveAt4_5 t], after4_5]
      rw [show (dat4 V c).leavesExact 6 t = owns (c : Thread nD τ) (ms4_6 t) fullShare ((dat4 V c).after 6 t) from by
          unfold Dat.leavesExact; rw [liveAt4_6 t], after4_6]
      rw [show (dat4 V c).leavesExact 7 t = owns (c : Thread nD τ) (ms4_7 t) fullShare ((dat4 V c).after 7 t) from by
          unfold Dat.leavesExact; rw [liveAt4_7 t ((hcond4_1 t).mpr h1)], after4_7]
      rw [show (dat4 V c).leavesExact 8 t = owns (c : Thread nD τ) (ms4_8 t) fullShare ((dat4 V c).after 8 t) from by
          unfold Dat.leavesExact; rw [liveAt4_8 t ((hcond4_1 t).mpr h1)], after4_8]
      rw [outsAt4_C V c t h0 h1]
      unfold out4_C_6 out4_C_7 out4_C_8 sout4_C_0 sout4_C_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [show (dat4 V c).leavesExact 0 t = owns (c : Thread nD τ) (ms4_0 t) fullShare ((dat4 V c).after 0 t) from by
          unfold Dat.leavesExact; rw [liveAt4_0 t], after4_0]
      rw [show (dat4 V c).leavesExact 1 t = owns (c : Thread nD τ) (ms4_1 t) fullShare ((dat4 V c).after 1 t) from by
          unfold Dat.leavesExact; rw [liveAt4_1 t], after4_1]
      rw [show (dat4 V c).leavesExact 2 t = owns (c : Thread nD τ) (ms4_2 t) fullShare ((dat4 V c).after 2 t) from by
          unfold Dat.leavesExact; rw [liveAt4_2 t], after4_2]
      rw [show (dat4 V c).leavesExact 3 t = owns (c : Thread nD τ) (ms4_3 t) fullShare ((dat4 V c).after 3 t) from by
          unfold Dat.leavesExact; rw [liveAt4_3 t], after4_3]
      rw [show (dat4 V c).leavesExact 4 t = owns (c : Thread nD τ) (ms4_4 t) fullShare ((dat4 V c).after 4 t) from by
          unfold Dat.leavesExact; rw [liveAt4_4 t], after4_4]
      rw [show (dat4 V c).leavesExact 5 t = owns (c : Thread nD τ) (ms4_5 t) fullShare ((dat4 V c).after 5 t) from by
          unfold Dat.leavesExact; rw [liveAt4_5 t], after4_5]
      rw [show (dat4 V c).leavesExact 6 t = owns (c : Thread nD τ) (ms4_6 t) fullShare ((dat4 V c).after 6 t) from by
          unfold Dat.leavesExact; rw [liveAt4_6 t], after4_6]
      rw [Dat.leavesExact_idle (dat4 V c) 7 t (idleAt4_7 t (fun h => h1 ((hcond4_1 t).mp h))) (noFlush4_7 t (fun h => h1 ((hcond4_1 t).mp h)))]
      rw [Dat.leavesExact_idle (dat4 V c) 8 t (idleAt4_8 t (fun h => h1 ((hcond4_1 t).mp h))) (noFlush4_8 t (fun h => h1 ((hcond4_1 t).mp h)))]
      rw [outsAt4_B V c t h0 h1]
      unfold out4_B_6 sout4_B_0 sout4_B_1; (try dsimp only)
      rw [PhiS4_castSucc V c t, PhiS4_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point the invariant gives back what the launch handed over: the running sums' contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 10 := N_4; omega)

end Regions

end Cert.Kernel.Hand

end
-- ==== Proof.K.Bn5.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before5_tile_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_mean_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_var_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_gamma_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_beta_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000x128 tile and the whole 1x128 row, as rectangles of their buffers: every load and the one store
    of the body go through one of these two. -/
abbrev rTile5 : Rect S5000x128 := Rect.unit (s := S5000x128) ![0, 0] S5000x128.size inb_S5000x128_S5000x128_0_0
abbrev rRow5 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out5_5 (x0 : Vec F S5000x128 .f32) (x1 x2 x3 x4 : Vec F S1x128 .f32) : Vec F S5000x128 .f32 :=
  View.canon [⟨rTile5, k5_pay1 (View.ld x0 rTile5) (View.ld x1 rRow5) (View.ld x2 rRow5) (View.ld x3 rRow5) (View.ld x4 rRow5)⟩]

/-- The one store is of the whole tile, so it covers the buffer. -/
theorem cover5_5 (p0 : Vec F S5000x128 .f32) (y : S5000x128.Idx) :
    ∃ pc ∈ ([⟨rTile5, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out5_5_eq (x0 : Vec F S5000x128 .f32) (x1 x2 x3 x4 : Vec F S1x128 .f32) :
    out5_5 x0 x1 x2 x3 x4 = k5_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out5_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out5_5` of the inputs'. The body
    reads the output's buffer before it overwrites it; what it reads there is not used by the payload. -/
theorem sound_kernel5 (c : Dev nD) (E : Set ℕ) (i : grid5.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window: the proof data's case split at each literal window. -/
theorem after5_tile (c : Dev nD) (t : Fin cfg5.N) : (dat5 V c).after 0 t = iblk5 V c 0 t := by dsimp only [dat5]
theorem after5_mean (c : Dev nD) (t : Fin cfg5.N) : (dat5 V c).after 1 t = iblk5 V c 1 t := by dsimp only [dat5]
theorem after5_var (c : Dev nD) (t : Fin cfg5.N) : (dat5 V c).after 2 t = iblk5 V c 2 t := by dsimp only [dat5]
theorem after5_gamma (c : Dev nD) (t : Fin cfg5.N) : (dat5 V c).after 3 t = iblk5 V c 3 t := by dsimp only [dat5]
theorem after5_beta (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-- Each input's current staging buffer holds its block at every point, fetched there or not. -/
theorem before5_tile (c : Dev nD) (t : Fin cfg5.N) (d) : (dat5 V c).before 0 t d = iblk5 V c 0 t :=
  before5_tile_of V (dat5 V c) (A_eq5 V c 0) (after5_tile V c) t d
theorem before5_mean (c : Dev nD) (t : Fin cfg5.N) (d) : (dat5 V c).before 1 t d = iblk5 V c 1 t :=
  before5_mean_of V (dat5 V c) (A_eq5 V c 1) (after5_mean V c) t d
theorem before5_var (c : Dev nD) (t : Fin cfg5.N) (d) : (dat5 V c).before 2 t d = iblk5 V c 2 t :=
  before5_var_of V (dat5 V c) (A_eq5 V c 2) (after5_var V c) t d
theorem before5_gamma (c : Dev nD) (t : Fin cfg5.N) (d) : (dat5 V c).before 3 t d = iblk5 V c 3 t :=
  before5_gamma_of V (dat5 V c) (A_eq5 V c 3) (after5_gamma V c) t d
theorem before5_beta (c : Dev nD) (t : Fin cfg5.N) (d) : (dat5 V c).before 4 t d = iblk5 V c 4 t :=
  before5_beta_of V (dat5 V c) (A_eq5 V c 4) (after5_beta V c) t d

/-! ## The body obligation, at a generic point -/

/-- What the body is called with at point `t`: the invariant, the core's debt, and each window's current staging
    buffer at what the pipeline left there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns: the same, each buffer at what the body leaves there. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the five inputs' buffers hold their blocks, so the body's triple applies; the invariant
    and the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_tile, before5_mean, before5_var, before5_gamma, before5_beta]
  rw [show (dat5 V c).Φ t.succ = (dat5 V c).Φ t.castSucc from rfl,
    show (dat5 V c).owesAt () t.succ = (dat5 V c).owesAt () t.castSucc from rfl,
    after5_tile, after5_mean, after5_var, after5_gamma, after5_beta, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Hand

end
-- ==== Proof.K.Stats6Runs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 6 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetches it or not
    (where it does not, the block index has not moved since the fetch), for any proof data whose array is `V`'s and
    whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetches it or not
    (where it does not, the block index has not moved since the fetch), for any proof data whose array is `V`'s and
    whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetches it or not
    (where it does not, the block index has not moved since the fetch), for any proof data whose array is `V`'s and
    whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetches it or not
    (where it does not, the block index has not moved since the fetch), for any proof data whose array is `V`'s and
    whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetches it or not
    (where it does not, the block index has not moved since the fetch), for any proof data whose array is `V`'s and
    whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetches it or not
    (where it does not, the block index has not moved since the fetch), for any proof data whose array is `V`'s and
    whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

end Regions

/-! ## The body's two branch conditions -/

/-- The first conditional (reset the two running sums): the grid coordinate is 0. -/
abbrev cond6_0 (i : grid6.Coords) : Prop := (Scalar.cmpi .ne (Scalar.extui (Scalar.cmpi .eq (BitVec.ofNat 32 (i 0).val) 0#32)) 0#32) = 1#1
/-- It holds at the first point only. -/
theorem hcond6_0 : ∀ t : Fin cfg6.N, cond6_0 (grid6.coords t) ↔ t.val = 0 :=
  (by decide +kernel : ∀ t : Fin grid6.N, cond6_0 (grid6.coords t) ↔ t.val = 0)

/-- The second conditional (store the mean and the variance): the grid coordinate is 9. -/
abbrev cond6_1 (i : grid6.Coords) : Prop := k6_cond2 i = 1#1
/-- It holds at the last point only. -/
theorem hcond6_1 : ∀ t : Fin cfg6.N, cond6_1 (grid6.coords t) ↔ t.val = 9 :=
  (by decide +kernel : ∀ t : Fin grid6.N, cond6_1 (grid6.coords t) ↔ t.val = 9)

/-! ## Where the windows are idle -/

/-- Window 0 is never idle. -/
theorem liveAt6_0 : ∀ t : Fin cfg6.N, cfg6.idle 0 (grid6.coords t) = false := fun _ => rfl
/-- Window 1 is never idle. -/
theorem liveAt6_1 : ∀ t : Fin cfg6.N, cfg6.idle 1 (grid6.coords t) = false := fun _ => rfl
/-- Window 2 is never idle. -/
theorem liveAt6_2 : ∀ t : Fin cfg6.N, cfg6.idle 2 (grid6.coords t) = false := fun _ => rfl
/-- Window 3 is never idle. -/
theorem liveAt6_3 : ∀ t : Fin cfg6.N, cfg6.idle 3 (grid6.coords t) = false := fun _ => rfl
/-- Window 4 is never idle. -/
theorem liveAt6_4 : ∀ t : Fin cfg6.N, cfg6.idle 4 (grid6.coords t) = false := fun _ => rfl
/-- Window 5 is never idle. -/
theorem liveAt6_5 : ∀ t : Fin cfg6.N, cfg6.idle 5 (grid6.coords t) = false := fun _ => rfl
/-- Window 6 is never idle. -/
theorem liveAt6_6 : ∀ t : Fin cfg6.N, cfg6.idle 6 (grid6.coords t) = false := fun _ => rfl
/-- Away from the last point the configuration calls output 7 idle: nothing is stored into it there, -/
theorem idleAt6_7 : ∀ t : Fin cfg6.N, ¬cond6_1 (grid6.coords t) → cfg6.idle 7 (grid6.coords t) = true := by decide +kernel
/-- and its block is not written back there. -/
theorem noFlush6_7 : ∀ t : Fin cfg6.N, ¬cond6_1 (grid6.coords t) → (cfg6.win 7).flush t = false := by decide +kernel
/-- At the last point output 7 is live: the body stores into it. -/
theorem liveAt6_7 : ∀ t : Fin cfg6.N, cond6_1 (grid6.coords t) → cfg6.idle 7 (grid6.coords t) = false := by decide +kernel
/-- Away from the last point the configuration calls output 8 idle: nothing is stored into it there, -/
theorem idleAt6_8 : ∀ t : Fin cfg6.N, ¬cond6_1 (grid6.coords t) → cfg6.idle 8 (grid6.coords t) = true := by decide +kernel
/-- and its block is not written back there. -/
theorem noFlush6_8 : ∀ t : Fin cfg6.N, ¬cond6_1 (grid6.coords t) → (cfg6.win 8).flush t = false := by decide +kernel
/-- At the last point output 8 is live: the body stores into it. -/
theorem liveAt6_8 : ∀ t : Fin cfg6.N, cond6_1 (grid6.coords t) → cfg6.idle 8 (grid6.coords t) = false := by decide +kernel

/-! ## The memrefs the body is called with -/

/-- One staging buffer of each output window, through which its contents are stated (for a covering list of pieces
    the choice of buffer does not matter). -/
abbrev VO6_6 : View sig .tc .vmem S5000x128 .f32 := (Memref.whole cc6_stg6_0 : Memref sig .tc .vmem S5000x128 .f32).view
abbrev VO6_7 : View sig .tc .vmem S1x128 .f32 := (Memref.whole cc6_stg7_0 : Memref sig .tc .vmem S1x128 .f32).view
abbrev VO6_8 : View sig .tc .vmem S1x128 .f32 := (Memref.whole cc6_stg8_0 : Memref sig .tc .vmem S1x128 .f32).view
/-- Each window's current staging memref at point `t`, spelled as the pipeline passes it, and its wholeness. -/
abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S128x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S5000x128 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x128 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S1x128 .f32 := win6_8.stage (cfg6.slots t 8)
abbrev hs6_8 (t : Fin cfg6.N) : (ms6_8 t).IsWhole := hstage6_8 ((cfg6.slots t 8).cast nbuf6_8)
/-- The two buffers of the kernel's own: the running column sum and the running column sum of squares. -/
abbrev scM6_0 : Memref sig .tc .vmem S1x128 .f32 := Memref.whole cc6_scratch0
abbrev scM6_1 : Memref sig .tc .vmem S1x128 .f32 := Memref.whole cc6_scratch1
/-- The same as views: what they hold is stated through these. -/
abbrev VS6_0 : View sig .tc .vmem S1x128 .f32 := scM6_0.view
abbrev VS6_1 : View sig .tc .vmem S1x128 .f32 := scM6_1.view

/-- What the launch hands the region, with the two running-sum buffers taken out of the core's scoped buffers as
    memrefs owned at some contents; every other scoped buffer stays unopened. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

end Cert.Kernel.Hand

end
-- ==== Proof.K.Stats6RunA.lean ====
import proofs.«162849_j29643864277577_1_alg».proof.Proof.K.Stats6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats6RunB.lean ====
import proofs.«162849_j29643864277577_1_alg».proof.Proof.K.Stats6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats6RunC.lean ====
import proofs.«162849_j29643864277577_1_alg».proof.Proof.K.Stats6RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc6__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc6__linear_stats_kernel_eq_skeleton]; unfold cc6__linear_stats_kernel_skel
    simp only [k6_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Stats6.lean ====
import proofs.«162849_j29643864277577_1_alg».proof.Proof.K.Stats6RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 6: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out6_A_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO6_6.read (Elt F) (VO6_6.writes (Elt F) VO6_6.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out6_A_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_7.read (Elt F) (VO6_7.writes (Elt F) VO6_7.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out6_A_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO6_8.read (Elt F) (VO6_8.writes (Elt F) VO6_8.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover6_A_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout6_A_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover6_A_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout6_A_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out6_B_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO6_6.read (Elt F) (VO6_6.writes (Elt F) VO6_6.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out6_B_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_7.read (Elt F) (VO6_7.writes (Elt F) VO6_7.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out6_B_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_8.read (Elt F) (VO6_8.writes (Elt F) VO6_8.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover6_B_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout6_B_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover6_B_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout6_B_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover6_C_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out6_C_6 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO6_6.read (Elt F) (VO6_6.writes (Elt F) VO6_6.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover6_C_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out6_C_7 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_7.read (Elt F) (VO6_7.writes (Elt F) VO6_7.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover6_C_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out6_C_8 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO6_8.read (Elt F) (VO6_8.writes (Elt F) VO6_8.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover6_C_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout6_C_0 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover6_C_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout6_C_1 (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt6 (c : Dev nD) : (n : ℕ) → n < cfg6.N → Vec F S5000x128 .f32 × Vec F S1x128 .f32 × Vec F S1x128 .f32 × Vec F S1x128 .f32 × Vec F S1x128 .f32
  | 0, hn => (out6_A_6 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_7 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      out6_A_8 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩),
      sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) (ms6_6 ⟨0, hn⟩) (hs6_6 ⟨0, hn⟩) (ms6_7 ⟨0, hn⟩) (hs6_7 ⟨0, hn⟩) (ms6_8 ⟨0, hn⟩) (hs6_8 ⟨0, hn⟩) scM6_0 (Memref.isWhole_whole _) scM6_1 (Memref.isWhole_whole _) ((hcond6_0 ⟨0, hn⟩).mpr rfl) (fun h => (fun h => by (try dsimp only at h); omega) ((hcond6_1 ⟨0, hn⟩).mp h)) (iblk6 V c 0 ⟨0, hn⟩) (iblk6 V c 1 ⟨0, hn⟩) (iblk6 V c 2 ⟨0, hn⟩) (iblk6 V c 3 ⟨0, hn⟩) (iblk6 V c 4 ⟨0, hn⟩) (iblk6 V c 5 ⟨0, hn⟩))
  | n + 1, hn =>
    if h1 : n + 1 = 9 then
      (out6_C_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_C_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)
    else
      (out6_B_6 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_7 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      out6_B_8 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2,
      sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) (ms6_6 ⟨n + 1, hn⟩) (hs6_6 ⟨n + 1, hn⟩) (ms6_7 ⟨n + 1, hn⟩) (hs6_7 ⟨n + 1, hn⟩) (ms6_8 ⟨n + 1, hn⟩) (hs6_8 ⟨n + 1, hn⟩) scM6_0 (Memref.isWhole_whole _) scM6_1 (Memref.isWhole_whole _) (fun h => Nat.succ_ne_zero n ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (iblk6 V c 3 ⟨n + 1, hn⟩) (iblk6 V c 4 ⟨n + 1, hn⟩) (iblk6 V c 5 ⟨n + 1, hn⟩) (outsAt6 c n (Nat.lt_of_succ_lt hn)).2.2.2.1 (outsAt6 c n (Nat.lt_of_succ_lt hn)).2.2.2.2)

/-- `outsAt6` at the first point: the first case's contents. -/
theorem outsAt6_A (c : Dev nD) (t : Fin cfg6.N) (h0 : t.val = 0) (h1 : ¬t.val = 9) :
    outsAt6 V c t.val t.isLt = (out6_A_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      out6_A_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t),
      sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun h => h1 ((hcond6_1 t).mp h)) (iblk6 V c 0 t) (iblk6 V c 1 t) (iblk6 V c 2 t) (iblk6 V c 3 t) (iblk6 V c 4 t) (iblk6 V c 5 t)) := by
  obtain ⟨n, hn⟩ := t
  cases n with
  | zero => exact rfl
  | succ n => exact absurd h0 (Nat.succ_ne_zero n)

/-- `outsAt6` at a middle point: the middle case's contents, over what the point before left. -/
theorem outsAt6_B (c : Dev nD) (t : Fin cfg6.N) (h0 : ¬t.val = 0) (h1 : ¬t.val = 9) :
    outsAt6 V c t.val t.isLt = (out6_B_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_B_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt6` at the last point: the last case's contents, over what the point before left. -/
theorem outsAt6_C (c : Dev nD) (t : Fin cfg6.N) (h0 : ¬t.val = 0) (h1 : t.val = 9) :
    outsAt6 V c t.val t.isLt = (out6_C_6 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_7 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      out6_C_8 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2,
      sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun h => h0 ((hcond6_0 t).mp h)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

/-- After point `n` (before point `n + 1`): the running sums at that point's contents. -/
theorem PhiS6_succ (c : Dev nD) (n : ℕ) (hn : n < cfg6.N) :
    PhiS6 V c (n + 1) hn = iprop(iprop(iprop(owns (c : Thread nD τ) scM6_0 fullShare ((outsAt6 V c n hn).2.2.2.1) ∗ owns (c : Thread nD τ) scM6_1 fullShare ((outsAt6 V c n hn).2.2.2.2))
      ∗ Pipeline.scopedRestBut (Ix := Unit) (Name := ℕ) (U := UR sig nD τ) (Lvl := ℕ) (Val := Elt F) spec6 c [cc6_scratch0, cc6_scratch1]) ∗ (∃ r, prngReg c r)) := rfl

/-- Before a point that is not the first: the running sums at what the point before left. -/
theorem PhiS6_pos (c : Dev nD) (n : ℕ) (h : n ≤ cfg6.N) (hz : n ≠ 0) :
    PhiS6 V c n h = iprop(iprop(iprop(owns (c : Thread nD τ) scM6_0 fullShare ((outsAt6 V c (n - 1) (by omega)).2.2.2.1) ∗ owns (c : Thread nD τ) scM6_1 fullShare ((outsAt6 V c (n - 1) (by omega)).2.2.2.2))
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt6`'s first three components; the
    invariant `PhiS6`; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => (outsAt6 V c t.val t.isLt).1
    | ⟨7, _⟩ => (outsAt6 V c t.val t.isLt).2.1
    | ⟨8, _⟩ => (outsAt6 V c t.val t.isLt).2.2.1
  Φ t := PhiS6 V c t.val (Nat.le_of_lt_succ t.isLt)
  q _ := fullShare
  owed _ := 0

/-- The proof data's arrays are the region-entry contents. -/
theorem A_eq6 (c : Dev nD) (w : Fin cfg6.W) : (dat6 V c).A w = V c (Pipeline.arrRef spec6 w) := by
  dsimp only [dat6]

/-- The invariant at a point's start, restated at the point's number. -/
theorem PhiS6_castSucc (c : Dev nD) (t : Fin cfg6.N) :
    (dat6 V c).Φ t.castSucc = PhiS6 V c t.val (Nat.le_of_lt t.isLt) := by
  dsimp only [dat6]; simp only [Fin.coe_castSucc]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = (outsAt6 V c t.val t.isLt).1 := by dsimp only [dat6]
theorem after6_7 (c : Dev nD) (t : Fin cfg6.N) : (dat6 V c).after 7 t = (outsAt6 V c t.val t.isLt).2.1 := by dsimp only [dat6]
theorem after6_8 (c : Dev nD) (t : Fin cfg6.N) : (dat6 V c).after 8 t = (outsAt6 V c t.val t.isLt).2.2.1 := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

/-- What the body is called with at point `t`: the invariant, nothing owed, and the nine windows' current staging
    buffers one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t
    ∗ (dat6 V c).leavesExact 7 t
    ∗ (dat6 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).owesAt () t.succ = (dat6 V c).owesAt () t.castSucc from rfl]
  rw [show (dat6 V c).Φ t.succ = PhiS6 V c (t.val + 1) t.isLt from rfl, PhiS6_succ]
  have hN : t.val < 10 := lt_of_lt_of_eq t.isLt (show cfg6.N = 10 from N_6)
  by_cases h0 : t.val = 0
  · have h1 : ¬t.val = 9 := by omega
    rw [show (dat6 V c).leavesExact 0 t = owns (c : Thread nD τ) (ms6_0 t) fullShare ((dat6 V c).after 0 t) from by
          unfold Dat.leavesExact; rw [liveAt6_0 t], after6_0]
    rw [show (dat6 V c).leavesExact 1 t = owns (c : Thread nD τ) (ms6_1 t) fullShare ((dat6 V c).after 1 t) from by
          unfold Dat.leavesExact; rw [liveAt6_1 t], after6_1]
    rw [show (dat6 V c).leavesExact 2 t = owns (c : Thread nD τ) (ms6_2 t) fullShare ((dat6 V c).after 2 t) from by
          unfold Dat.leavesExact; rw [liveAt6_2 t], after6_2]
    rw [show (dat6 V c).leavesExact 3 t = owns (c : Thread nD τ) (ms6_3 t) fullShare ((dat6 V c).after 3 t) from by
          unfold Dat.leavesExact; rw [liveAt6_3 t], after6_3]
    rw [show (dat6 V c).leavesExact 4 t = owns (c : Thread nD τ) (ms6_4 t) fullShare ((dat6 V c).after 4 t) from by
          unfold Dat.leavesExact; rw [liveAt6_4 t], after6_4]
    rw [show (dat6 V c).leavesExact 5 t = owns (c : Thread nD τ) (ms6_5 t) fullShare ((dat6 V c).after 5 t) from by
          unfold Dat.leavesExact; rw [liveAt6_5 t], after6_5]
    rw [show (dat6 V c).leavesExact 6 t = owns (c : Thread nD τ) (ms6_6 t) fullShare ((dat6 V c).after 6 t) from by
          unfold Dat.leavesExact; rw [liveAt6_6 t], after6_6]
    rw [Dat.leavesExact_idle (dat6 V c) 7 t (idleAt6_7 t (fun h => h1 ((hcond6_1 t).mp h))) (noFlush6_7 t (fun h => h1 ((hcond6_1 t).mp h)))]
    rw [Dat.leavesExact_idle (dat6 V c) 8 t (idleAt6_8 t (fun h => h1 ((hcond6_1 t).mp h))) (noFlush6_8 t (fun h => h1 ((hcond6_1 t).mp h)))]
    rw [outsAt6_A V c t h0 h1]
    unfold out6_A_6 sout6_A_0 sout6_A_1; (try dsimp only)
    rw [PhiS6_castSucc V c t, PhiS6_zero V c _ _ h0, PhiA6_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun6_A c (grid6.coords t) _ _ _ _ _ _ _ _ _ _ _ _ _ _ _ _ _ _ _ _ _ _ ((hcond6_0 t).mpr h0) (fun h => h1 ((hcond6_1 t).mp h)) (iblk6 V c 0 t) (iblk6 V c 1 t) (iblk6 V c 2 t) (iblk6 V c 3 t) (iblk6 V c 4 t) (iblk6 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover6_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t], after6_2]
      rw [show (dat6 V c).leavesExact 3 t = owns (c : Thread nD τ) (ms6_3 t) fullShare ((dat6 V c).after 3 t) from by
          unfold Dat.leavesExact; rw [liveAt6_3 t], after6_3]
      rw [show (dat6 V c).leavesExact 4 t = owns (c : Thread nD τ) (ms6_4 t) fullShare ((dat6 V c).after 4 t) from by
          unfold Dat.leavesExact; rw [liveAt6_4 t], after6_4]
      rw [show (dat6 V c).leavesExact 5 t = owns (c : Thread nD τ) (ms6_5 t) fullShare ((dat6 V c).after 5 t) from by
          unfold Dat.leavesExact; rw [liveAt6_5 t], after6_5]
      rw [show (dat6 V c).leavesExact 6 t = owns (c : Thread nD τ) (ms6_6 t) fullShare ((dat6 V c).after 6 t) from by
          unfold Dat.leavesExact; rw [liveAt6_6 t], after6_6]
      rw [show (dat6 V c).leavesExact 7 t = owns (c : Thread nD τ) (ms6_7 t) fullShare ((dat6 V c).after 7 t) from by
          unfold Dat.leavesExact; rw [liveAt6_7 t ((hcond6_1 t).mpr h1)], after6_7]
      rw [show (dat6 V c).leavesExact 8 t = owns (c : Thread nD τ) (ms6_8 t) fullShare ((dat6 V c).after 8 t) from by
          unfold Dat.leavesExact; rw [liveAt6_8 t ((hcond6_1 t).mpr h1)], after6_8]
      rw [outsAt6_C V c t h0 h1]
      unfold out6_C_6 out6_C_7 out6_C_8 sout6_C_0 sout6_C_1; (try dsimp only)
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_C c (grid6.coords t) _ _ _ _ _ _ _ _ _ _ _ _ _ _ _ _ _ _ _ _ _ _ (fun h => h0 ((hcond6_0 t).mp h)) ((hcond6_1 t).mpr h1) (iblk6 V c 0 t) (iblk6 V c 1 t) (iblk6 V c 2 t) (iblk6 V c 3 t) (iblk6 V c 4 t) (iblk6 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover6_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover6_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover6_C_8 c _ _ _ _ _ _ _ _ _ _ _ _ _ _ _ _ _ _ _ _ _ _ _ _ _ _ _ _ _ _ _ _ _)
    · rw [show (dat6 V c).leavesExact 0 t = owns (c : Thread nD τ) (ms6_0 t) fullShare ((dat6 V c).after 0 t) from by
          unfold Dat.leavesExact; rw [liveAt6_0 t], after6_0]
      rw [show (dat6 V c).leavesExact 1 t = owns (c : Thread nD τ) (ms6_1 t) fullShare ((dat6 V c).after 1 t) from by
          unfold Dat.leavesExact; rw [liveAt6_1 t], after6_1]
      rw [show (dat6 V c).leavesExact 2 t = owns (c : Thread nD τ) (ms6_2 t) fullShare ((dat6 V c).after 2 t) from by
          unfold Dat.leavesExact; rw [liveAt6_2 t], after6_2]
      rw [show (dat6 V c).leavesExact 3 t = owns (c : Thread nD τ) (ms6_3 t) fullShare ((dat6 V c).after 3 t) from by
          unfold Dat.leavesExact; rw [liveAt6_3 t], after6_3]
      rw [show (dat6 V c).leavesExact 4 t = owns (c : Thread nD τ) (ms6_4 t) fullShare ((dat6 V c).after 4 t) from by
          unfold Dat.leavesExact; rw [liveAt6_4 t], after6_4]
      rw [show (dat6 V c).leavesExact 5 t = owns (c : Thread nD τ) (ms6_5 t) fullShare ((dat6 V c).after 5 t) from by
          unfold Dat.leavesExact; rw [liveAt6_5 t], after6_5]
      rw [show (dat6 V c).leavesExact 6 t = owns (c : Thread nD τ) (ms6_6 t) fullShare ((dat6 V c).after 6 t) from by
          unfold Dat.leavesExact; rw [liveAt6_6 t], after6_6]
      rw [Dat.leavesExact_idle (dat6 V c) 7 t (idleAt6_7 t (fun h => h1 ((hcond6_1 t).mp h))) (noFlush6_7 t (fun h => h1 ((hcond6_1 t).mp h)))]
      rw [Dat.leavesExact_idle (dat6 V c) 8 t (idleAt6_8 t (fun h => h1 ((hcond6_1 t).mp h))) (noFlush6_8 t (fun h => h1 ((hcond6_1 t).mp h)))]
      rw [outsAt6_B V c t h0 h1]
      unfold out6_B_6 sout6_B_0 sout6_B_1; (try dsimp only)
      rw [PhiS6_castSucc V c t, PhiS6_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun6_B c (grid6.coords t) _ _ _ _ _ _ _ _ _ _ _ _ _ _ _ _ _ _ _ _ _ _ (fun h => h0 ((hcond6_0 t).mp h)) (fun h => h1 ((hcond6_1 t).mp h)) (iblk6 V c 0 t) (iblk6 V c 1 t) (iblk6 V c 2 t) (iblk6 V c 3 t) (iblk6 V c 4 t) (iblk6 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover6_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover6_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point the invariant gives back what the launch handed over: the running sums' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 10 := N_6; omega)

end Regions

end Cert.Kernel.Hand

end
-- ==== Proof.K.Bn7.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before7_tile_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_mean_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_var_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_gamma_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

theorem before7_beta_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses -/

/-- The whole 5000x128 tile and the whole 1x128 row, as rectangles of their buffers: every load and the one store
    of the body go through one of these two. -/
abbrev rTile7 : Rect S5000x128 := Rect.unit (s := S5000x128) ![0, 0] S5000x128.size inb_S5000x128_S5000x128_0_0
abbrev rRow7 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out7_5 (x0 : Vec F S5000x128 .f32) (x1 x2 x3 x4 : Vec F S1x128 .f32) : Vec F S5000x128 .f32 :=
  View.canon [⟨rTile7, k7_pay1 (View.ld x0 rTile7) (View.ld x1 rRow7) (View.ld x2 rRow7) (View.ld x3 rRow7) (View.ld x4 rRow7)⟩]

/-- The one store is of the whole tile, so it covers the buffer. -/
theorem cover7_5 (p0 : Vec F S5000x128 .f32) (y : S5000x128.Idx) :
    ∃ pc ∈ ([⟨rTile7, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out7_5_eq (x0 : Vec F S5000x128 .f32) (x1 x2 x3 x4 : Vec F S1x128 .f32) :
    out7_5 x0 x1 x2 x3 x4 = k7_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out7_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out7_5` of the inputs'. The body
    reads the output's buffer before it overwrites it; what it reads there is not used by the payload. -/
theorem sound_kernel7 (c : Dev nD) (E : Set ℕ) (i : grid7.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out7_5 x0 x1 x2 x3 x4)) -∗ K ⟨⟩))
      ⊢ wp frame (wpE (defs₀ (F := F)) Variants.none c none) E (cc7__bn_relu_kernel i arg1 harg1 arg2 harg2 arg3 harg3 arg4 harg4 arg5 harg5 arg6 harg6) K := by
  simp only [cc7__bn_relu_kernel_eq_skeleton]; unfold cc7__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover7_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => out7_5 (iblk7 V c 0 t) (iblk7 V c 1 t) (iblk7 V c 2 t) (iblk7 V c 3 t) (iblk7 V c 4 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window: the proof data's case split at each literal window. -/
theorem after7_tile (c : Dev nD) (t : Fin cfg7.N) : (dat7 V c).after 0 t = iblk7 V c 0 t := by dsimp only [dat7]
theorem after7_mean (c : Dev nD) (t : Fin cfg7.N) : (dat7 V c).after 1 t = iblk7 V c 1 t := by dsimp only [dat7]
theorem after7_var (c : Dev nD) (t : Fin cfg7.N) : (dat7 V c).after 2 t = iblk7 V c 2 t := by dsimp only [dat7]
theorem after7_gamma (c : Dev nD) (t : Fin cfg7.N) : (dat7 V c).after 3 t = iblk7 V c 3 t := by dsimp only [dat7]
theorem after7_beta (c : Dev nD) (t : Fin cfg7.N) : (dat7 V c).after 4 t = iblk7 V c 4 t := by dsimp only [dat7]
theorem after7_5 (c : Dev nD) (t : Fin cfg7.N) :
    (dat7 V c).after 5 t = out7_5 (iblk7 V c 0 t) (iblk7 V c 1 t) (iblk7 V c 2 t) (iblk7 V c 3 t) (iblk7 V c 4 t) := by dsimp only [dat7]

/-- Each input's current staging buffer holds its block at every point, fetched there or not. -/
theorem before7_tile (c : Dev nD) (t : Fin cfg7.N) (d) : (dat7 V c).before 0 t d = iblk7 V c 0 t :=
  before7_tile_of V (dat7 V c) (A_eq7 V c 0) (after7_tile V c) t d
theorem before7_mean (c : Dev nD) (t : Fin cfg7.N) (d) : (dat7 V c).before 1 t d = iblk7 V c 1 t :=
  before7_mean_of V (dat7 V c) (A_eq7 V c 1) (after7_mean V c) t d
theorem before7_var (c : Dev nD) (t : Fin cfg7.N) (d) : (dat7 V c).before 2 t d = iblk7 V c 2 t :=
  before7_var_of V (dat7 V c) (A_eq7 V c 2) (after7_var V c) t d
theorem before7_gamma (c : Dev nD) (t : Fin cfg7.N) (d) : (dat7 V c).before 3 t d = iblk7 V c 3 t :=
  before7_gamma_of V (dat7 V c) (A_eq7 V c 3) (after7_gamma V c) t d
theorem before7_beta (c : Dev nD) (t : Fin cfg7.N) (d) : (dat7 V c).before 4 t d = iblk7 V c 4 t :=
  before7_beta_of V (dat7 V c) (A_eq7 V c 4) (after7_beta V c) t d

/-! ## The body obligation, at a generic point -/

/-- What the body is called with at point `t`: the invariant, the core's debt, and each window's current staging
    buffer at what the pipeline left there, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

/-- and what it returns: the same, each buffer at what the body leaves there. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t))

/-- The body at any point: the five inputs' buffers hold their blocks, so the body's triple applies; the invariant
    and the core's debt pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_tile, before7_mean, before7_var, before7_gamma, before7_beta]
  rw [show (dat7 V c).Φ t.succ = (dat7 V c).Φ t.castSucc from rfl,
    show (dat7 V c).owesAt () t.succ = (dat7 V c).owesAt () t.castSucc from rfl,
    after7_tile, after7_mean, after7_var, after7_gamma, after7_beta, after7_5]
  iintro ⟨HΦ, Ho, ⟨%d0, H0⟩, ⟨%d1, H1⟩, ⟨%d2, H2⟩, ⟨%d3, H3⟩, ⟨%d4, H4⟩, ⟨%d5, H5⟩⟩
  iapply (sound_kernel7 c Set.univ _ _ _ _ _ _ _ _ _ _ _ _ _ (iblk7 V c 0 t) (iblk7 V c 1 t) (iblk7 V c 2 t) (iblk7 V c 3 t) (iblk7 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Hand

end
-- ==== Proof.K.Stats8Runs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 8 (the linear layer with running column statistics): what its three control cases share

The region's pipeline has nine windows: the two row tiles (windows 0 and 1, a new tile at every grid point), the two
weight matrices and the two bias rows (windows 2 to 5, brought in once), the output tile (window 6, written back at
every point) and the two statistics rows (windows 7 and 8, stored and written back at the last point only). The
kernel keeps the running column sum and the running column sum of squares in two buffers of its own, which live
from one grid point to the next. Everything is stated at the contents `V` the region finds in the core's buffers. -/

section Regions

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether the point fetches it or not
    (where it does not, the block index has not moved since the fetch), for any proof data whose array is `V`'s and
    whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether the point fetches it or not
    (where it does not, the block index has not moved since the fetch), for any proof data whose array is `V`'s and
    whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether the point fetches it or not
    (where it does not, the block index has not moved since the fetch), for any proof data whose array is `V`'s and
    whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, whether the point fetches it or not
    (where it does not, the block index has not moved since the fetch), for any proof data whose array is `V`'s and
    whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, whether the point fetches it or not
    (where it does not, the block index has not moved since the fetch), for any proof data whose array is `V`'s and
    whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, whether the point fetches it or not
    (where it does not, the block index has not moved since the fetch), for any proof data whose array is `V`'s and
    whose body leaves the block in place. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

end Regions

/-! ## The body's two branch conditions -/

/-- The first conditional (reset the two running sums): the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val = 0 :=
  (by decide +kernel : ∀ t : Fin grid8.N, cond8_0 (grid8.coords t) ↔ t.val = 0)

/-- The second conditional (store the mean and the variance): the grid coordinate is 9. -/
abbrev cond8_1 (i : grid8.Coords) : Prop := k8_cond2 i = 1#1
/-- It holds at the last point only. -/
theorem hcond8_1 : ∀ t : Fin cfg8.N, cond8_1 (grid8.coords t) ↔ t.val = 9 :=
  (by decide +kernel : ∀ t : Fin grid8.N, cond8_1 (grid8.coords t) ↔ t.val = 9)

/-! ## Where the windows are idle -/

/-- Window 0 is never idle. -/
theorem liveAt8_0 : ∀ t : Fin cfg8.N, cfg8.idle 0 (grid8.coords t) = false := fun _ => rfl
/-- Window 1 is never idle. -/
theorem liveAt8_1 : ∀ t : Fin cfg8.N, cfg8.idle 1 (grid8.coords t) = false := fun _ => rfl
/-- Window 2 is never idle. -/
theorem liveAt8_2 : ∀ t : Fin cfg8.N, cfg8.idle 2 (grid8.coords t) = false := fun _ => rfl
/-- Window 3 is never idle. -/
theorem liveAt8_3 : ∀ t : Fin cfg8.N, cfg8.idle 3 (grid8.coords t) = false := fun _ => rfl
/-- Window 4 is never idle. -/
theorem liveAt8_4 : ∀ t : Fin cfg8.N, cfg8.idle 4 (grid8.coords t) = false := fun _ => rfl
/-- Window 5 is never idle. -/
theorem liveAt8_5 : ∀ t : Fin cfg8.N, cfg8.idle 5 (grid8.coords t) = false := fun _ => rfl
/-- Window 6 is never idle. -/
theorem liveAt8_6 : ∀ t : Fin cfg8.N, cfg8.idle 6 (grid8.coords t) = false := fun _ => rfl
/-- Away from the last point the configuration calls output 7 idle: nothing is stored into it there, -/
theorem idleAt8_7 : ∀ t : Fin cfg8.N, ¬cond8_1 (grid8.coords t) → cfg8.idle 7 (grid8.coords t) = true := by decide +kernel
/-- and its block is not written back there. -/
theorem noFlush8_7 : ∀ t : Fin cfg8.N, ¬cond8_1 (grid8.coords t) → (cfg8.win 7).flush t = false := by decide +kernel
/-- At the last point output 7 is live: the body stores into it. -/
theorem liveAt8_7 : ∀ t : Fin cfg8.N, cond8_1 (grid8.coords t) → cfg8.idle 7 (grid8.coords t) = false := by decide +kernel
/-- Away from the last point the configuration calls output 8 idle: nothing is stored into it there, -/
theorem idleAt8_8 : ∀ t : Fin cfg8.N, ¬cond8_1 (grid8.coords t) → cfg8.idle 8 (grid8.coords t) = true := by decide +kernel
/-- and its block is not written back there. -/
theorem noFlush8_8 : ∀ t : Fin cfg8.N, ¬cond8_1 (grid8.coords t) → (cfg8.win 8).flush t = false := by decide +kernel
/-- At the last point output 8 is live: the body stores into it. -/
theorem liveAt8_8 : ∀ t : Fin cfg8.N, cond8_1 (grid8.coords t) → cfg8.idle 8 (grid8.coords t) = false := by decide +kernel

/-! ## The memrefs the body is called with -/

/-- One staging buffer of each output window, through which its contents are stated (for a covering list of pieces
    the choice of buffer does not matter). -/
abbrev VO8_6 : View sig .tc .vmem S5000x128 .f32 := (Memref.whole cc8_stg6_0 : Memref sig .tc .vmem S5000x128 .f32).view
abbrev VO8_7 : View sig .tc .vmem S1x128 .f32 := (Memref.whole cc8_stg7_0 : Memref sig .tc .vmem S1x128 .f32).view
abbrev VO8_8 : View sig .tc .vmem S1x128 .f32 := (Memref.whole cc8_stg8_0 : Memref sig .tc .vmem S1x128 .f32).view
/-- Each window's current staging memref at point `t`, spelled as the pipeline passes it, and its wholeness. -/
abbrev ms8_0 (t : Fin cfg8.N) : Memref sig .tc .vmem S5000x128 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S5000x128 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S128x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S128x128 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S1x128 .f32 := win8_5.stage (cfg8.slots t 5)
abbrev hs8_5 (t : Fin cfg8.N) : (ms8_5 t).IsWhole := hstage8_5 ((cfg8.slots t 5).cast nbuf8_5)
abbrev ms8_6 (t : Fin cfg8.N) : Memref sig .tc .vmem S5000x128 .f32 := win8_6.stage (cfg8.slots t 6)
abbrev hs8_6 (t : Fin cfg8.N) : (ms8_6 t).IsWhole := hstage8_6 ((cfg8.slots t 6).cast nbuf8_6)
abbrev ms8_7 (t : Fin cfg8.N) : Memref sig .tc .vmem S1x128 .f32 := win8_7.stage (cfg8.slots t 7)
abbrev hs8_7 (t : Fin cfg8.N) : (ms8_7 t).IsWhole := hstage8_7 ((cfg8.slots t 7).cast nbuf8_7)
abbrev ms8_8 (t : Fin cfg8.N) : Memref sig .tc .vmem S1x128 .f32 := win8_8.stage (cfg8.slots t 8)
abbrev hs8_8 (t : Fin cfg8.N) : (ms8_8 t).IsWhole := hstage8_8 ((cfg8.slots t 8).cast nbuf8_8)
/-- The two buffers of the kernel's own: the running column sum and the running column sum of squares. -/
abbrev scM8_0 : Memref sig .tc .vmem S1x128 .f32 := Memref.whole cc8_scratch0
abbrev scM8_1 : Memref sig .tc .vmem S1x128 .f32 := Memref.whole cc8_scratch1
/-- The same as views: what they hold is stated through these. -/
abbrev VS8_0 : View sig .tc .vmem S1x128 .f32 := scM8_0.view
abbrev VS8_1 : View sig .tc .vmem S1x128 .f32 := scM8_1.view

/-- What the launch hands the region, with the two running-sum buffers taken out of the core's scoped buffers as
    memrefs owned at some contents; every other scoped buffer stays unopened. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

end Cert.Kernel.Hand

end
-- ==== Proof.K.Stats8RunA.lean ====
import proofs.«162849_j29643864277577_1_alg».proof.Proof.K.Stats8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE FIRST POINT (the reset is taken, the statistics are not stored). What the body's stores leave in the output
    tile's staging memref and in the two running-sum buffers, as pieces (last store first), WITH the proof that on
    whole memrefs — the six inputs' at their contents, the output tile's and both running sums' at anything, the two
    statistics rows' at contents handed back untouched — the body runs to a continuation holding the inputs' as they
    were and each stored buffer with its pieces written. The pieces are the witness the run finds. -/
noncomputable def kernelRun8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats8RunB.lean ====
import proofs.«162849_j29643864277577_1_alg».proof.Proof.K.Stats8RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A MIDDLE POINT (neither conditional is taken). As at the first point, but the two running-sum buffers come in at
    the contents the point before left (`xs0`, `xs1`), which the body reads and adds this tile's column sums to. -/
noncomputable def kernelRun8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (xi7 : Vec F S1x128 .f32) (xi8 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xi7 ∗ owns (c : Thread nD τ) arg9 fullShare xi8 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xi7 ∗ owns (c : Thread nD τ) arg9 fullShare xi8 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, [], [], ?_, ?_, fun xi7 xi8 E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    isplitl [H8]
    · iexists _; isplitr; · ipureintro; exact harg9.read_unread _
      iexact H8
    isplitl [HS0]; · iexists _; iexact HS0
    iexists _; iexact HS1

end Cert.Kernel.Hand

end
-- ==== Proof.K.Stats8RunC.lean ====
import proofs.«162849_j29643864277577_1_alg».proof.Proof.K.Stats8RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- THE LAST POINT (no reset; the statistics are stored). As at a middle point, and the two statistics rows' buffers
    come in at anything and leave with their pieces written: the mean row, then the variance row. -/
noncomputable def kernelRun8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    Σ' (L6 : List (View.Piece (Elt F) S5000x128 .f32)), Σ' (L7 : List (View.Piece (Elt F) S1x128 .f32)), Σ' (L8 : List (View.Piece (Elt F) S1x128 .f32)), Σ' (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc8__linear_stats_kernel i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc8__linear_stats_kernel_eq_skeleton]; unfold cc8__linear_stats_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.Stats8.lean ====
import proofs.«162849_j29643864277577_1_alg».proof.Proof.K.Stats8RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Kernel region 8: what its outputs and running sums hold point by point, the proof data, the body obligation

Per control case, the pieces the body's run leaves in each stored buffer cover that buffer, so the buffer's contents
after the point are those pieces read back. Chaining the cases over the ten points (the first, eight middle ones, the
last) gives what every buffer holds after every point; the two running sums are threaded from each point to the next
through the region's invariant. -/

section Regions

variable (V : (c : Dev nD) → (b : Ref sig .tc) → Buf (Elt F) ((c : Thread nD τ).loc b))

/-! ## Per case: the pieces cover, and what they read back to -/

/-- At the first point the body's one store into the output tile covers it. -/
theorem cover8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S5000x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1 S5000x128.size (by sl_kernel_rfl) y

/-- What the first point leaves in the output tile's staging buffer: its pieces read back. -/
def out8_A_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S5000x128 .f32 :=
  VO8_6.read (Elt F) (VO8_6.writes (Elt F) VO8_6.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).1)

/-- At the first point nothing is stored into statistics row 7: no pieces, a value nothing consults (the window is
    neither written back there nor read at the next point). -/
def out8_A_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO8_7.read (Elt F) (VO8_7.writes (Elt F) VO8_7.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.1)

/-- At the first point nothing is stored into statistics row 8: no pieces, a value nothing consults (the window is
    neither written back there nor read at the next point). -/
def out8_A_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VO8_8.read (Elt F) (VO8_8.writes (Elt F) VO8_8.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.1)

/-- At the first point the body's stores into running sum 0 cover it. -/
theorem scover8_A_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1 S1x128.size (by sl_kernel_rfl) y

/-- What the first point leaves in running sum 0: its pieces read back. -/
def sout8_A_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS8_0.read (Elt F) (VS8_0.writes (Elt F) VS8_0.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.1)

/-- At the first point the body's stores into running sum 1 cover it. -/
theorem scover8_A_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (y : S1x128.Idx) :
    ∃ pc ∈ (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1, y ∈ pc.1.set :=
  View.cover_of_tiledL (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1 S1x128.size (by sl_kernel_rfl) y

/-- What the first point leaves in running sum 1: its pieces read back. -/
def sout8_A_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) : Vec F S1x128 .f32 :=
  VS8_1.read (Elt F) (VS8_1.writes (Elt F) VS8_1.junk (kernelRun8_A c i arg1 harg1 arg2 harg2 arg3 harg3 arg4 harg4 arg5 harg5 arg6 harg6 arg7 harg7 arg8 harg8 arg9 harg9 arg10 harg10 arg11 harg11 hc0 hc1 x0 x1 x2 x3 x4 x5).2.2.2.2.1)

/-- At a middle point the body's one store into the output tile covers it. -/
theorem cover8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What a middle point leaves in the output tile's staging buffer: its pieces read back. -/
def out8_B_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO8_6.read (Elt F) (VO8_6.writes (Elt F) VO8_6.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At a middle point nothing is stored into statistics row 7: no pieces, a value nothing consults (the window is
    neither written back there nor read at the next point). -/
def out8_B_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_7.read (Elt F) (VO8_7.writes (Elt F) VO8_7.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At a middle point nothing is stored into statistics row 8: no pieces, a value nothing consults (the window is
    neither written back there nor read at the next point). -/
def out8_B_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_8.read (Elt F) (VO8_8.writes (Elt F) VO8_8.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At a middle point the body's stores into running sum 0 cover it. -/
theorem scover8_B_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What a middle point leaves in running sum 0: its pieces read back. -/
def sout8_B_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_0.read (Elt F) (VS8_0.writes (Elt F) VS8_0.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At a middle point the body's stores into running sum 1 cover it. -/
theorem scover8_B_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What a middle point leaves in running sum 1: its pieces read back. -/
def sout8_B_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_1.read (Elt F) (VS8_1.writes (Elt F) VS8_1.junk (kernelRun8_B c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-- At the last point the body's one store into the output tile covers it. -/
theorem cover8_C_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S5000x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1 S5000x128.size (by sl_kernel_rfl) y

/-- What the last point leaves in the output tile's staging buffer: its pieces read back. -/
def out8_C_6 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S5000x128 .f32 :=
  VO8_6.read (Elt F) (VO8_6.writes (Elt F) VO8_6.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).1)

/-- At the last point the body's store into statistics row 7 covers it. -/
theorem cover8_C_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1 S1x128.size (by sl_kernel_rfl) y

/-- What the last point leaves in statistics row 7's staging buffer: its pieces read back. -/
def out8_C_7 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_7.read (Elt F) (VO8_7.writes (Elt F) VO8_7.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.1)

/-- At the last point the body's store into statistics row 8 covers it. -/
theorem cover8_C_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1 S1x128.size (by sl_kernel_rfl) y

/-- What the last point leaves in statistics row 8's staging buffer: its pieces read back. -/
def out8_C_8 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VO8_8.read (Elt F) (VO8_8.writes (Elt F) VO8_8.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.1)

/-- At the last point the body's stores into running sum 0 cover it. -/
theorem scover8_C_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1 S1x128.size (by sl_kernel_rfl) y

/-- What the last point leaves in running sum 0: its pieces read back. -/
def sout8_C_0 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_0.read (Elt F) (VS8_0.writes (Elt F) VS8_0.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- At the last point the body's stores into running sum 1 cover it. -/
theorem scover8_C_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) (y : S1x128.Idx) :
    ∃ pc ∈ (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1, y ∈ pc.1.set :=
  View.cover_of_tiledL (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1 S1x128.size (by sl_kernel_rfl) y

/-- What the last point leaves in running sum 1: its pieces read back. -/
def sout8_C_1 (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) : Vec F S1x128 .f32 :=
  VS8_1.read (Elt F) (VS8_1.writes (Elt F) VS8_1.junk (kernelRun8_C c i arg1 harg1 arg2 harg2 arg3 harg3 arg4 harg4 arg5 harg5 arg6 harg6 arg7 harg7 arg8 harg8 arg9 harg9 arg10 harg10 arg11 harg11 hc0 hc1 x0 x1 x2 x3 x4 x5 xs0 xs1).2.2.2.2.1)

/-! ## What the outputs and the running sums hold after each point -/

/-- THE ACCUMULATION. What the three outputs' staging buffers and the two running sums hold after the body at position
    `n` (the outputs in window order, then the running sum, then the running sum of squares): at the first point the
    first case's contents; at the last point the last case's, over the running sums the point before left; at every
    other point the middle case's, over the running sums the point before left. -/
def outsAt8 (c : Dev nD) : (n : ℕ) → n < cfg8.N → Vec F S5000x128 .f32 × Vec F S1x128 .f32 × Vec F S1x128 .f32 × Vec F S1x128 .f32 × Vec F S1x128 .f32
  | 0, hn => (out8_A_6 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_7 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      out8_A_8 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩),
      sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) (ms8_6 ⟨0, hn⟩) (hs8_6 ⟨0, hn⟩) (ms8_7 ⟨0, hn⟩) (hs8_7 ⟨0, hn⟩) (ms8_8 ⟨0, hn⟩) (hs8_8 ⟨0, hn⟩) scM8_0 (Memref.isWhole_whole _) scM8_1 (Memref.isWhole_whole _) ((hcond8_0 ⟨0, hn⟩).mpr rfl) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩) (iblk8 V c 4 ⟨0, hn⟩) (iblk8 V c 5 ⟨0, hn⟩))
  | n + 1, hn =>
    if h1 : n + 1 = 9 then
      (out8_C_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_C_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_C_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2)
    else
      (out8_B_6 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_B_7 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      out8_B_8 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2,
      sout8_B_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (ms8_6 ⟨n + 1, hn⟩) (hs8_6 ⟨n + 1, hn⟩) (ms8_7 ⟨n + 1, hn⟩) (hs8_7 ⟨n + 1, hn⟩) (ms8_8 ⟨n + 1, hn⟩) (hs8_8 ⟨n + 1, hn⟩) scM8_0 (Memref.isWhole_whole _) scM8_1 (Memref.isWhole_whole _) (fun h => Nat.succ_ne_zero n ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (iblk8 V c 5 ⟨n + 1, hn⟩) (outsAt8 c n (Nat.lt_of_succ_lt hn)).2.2.2.1 (outsAt8 c n (Nat.lt_of_succ_lt hn)).2.2.2.2)

/-- `outsAt8` at the first point: the first case's contents. -/
theorem outsAt8_A (c : Dev nD) (t : Fin cfg8.N) (h0 : t.val = 0) (h1 : ¬t.val = 9) :
    outsAt8 V c t.val t.isLt = (out8_A_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      out8_A_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      out8_A_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      sout8_A_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t),
      sout8_A_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t) (iblk8 V c 4 t) (iblk8 V c 5 t)) := by
  obtain ⟨n, hn⟩ := t
  cases n with
  | zero => exact rfl
  | succ n => exact absurd h0 (Nat.succ_ne_zero n)

/-- `outsAt8` at a middle point: the middle case's contents, over what the point before left. -/
theorem outsAt8_B (c : Dev nD) (t : Fin cfg8.N) (h0 : ¬t.val = 0) (h1 : ¬t.val = 9) :
    outsAt8 V c t.val t.isLt = (out8_B_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_B_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_B_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_B_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_B_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt8` at the last point: the last case's contents, over what the point before left. -/
theorem outsAt8_C (c : Dev nD) (t : Fin cfg8.N) (h0 : ¬t.val = 0) (h1 : t.val = 9) :
    outsAt8 V c t.val t.isLt = (out8_C_6 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_C_7 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      out8_C_8 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_C_0 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2,
      sout8_C_1 c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2) := by
  obtain ⟨n, hn⟩ := t
  cases n with
  | zero => exact absurd rfl h0
  | succ n => exact (dif_pos h1).trans rfl

/-- The invariant before position `n`: before the first point what the launch hands the region (both running sums at
    anything); afterwards the two running-sum buffers at what the point before left in them, every other scoped
    buffer unopened, and the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.2.2.1) ∗ owns (c : Thread nD τ) scM8_1 fullShare ((outsAt8 V c n hn).2.2.2.2))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the running sums at that point's contents. -/
theorem PhiS8_succ (c : Dev nD) (n : ℕ) (hn : n < cfg8.N) :
    PhiS8 V c (n + 1) hn = iprop(iprop(iprop(owns (c : Thread nD τ) scM8_0 fullShare ((outsAt8 V c n hn).2.2.2.1) ∗ owns (c : Thread nD τ) scM8_1 fullShare ((outsAt8 V c n hn).2.2.2.2))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the running sums at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.2.2.1) ∗ owns (c : Thread nD τ) scM8_1 fullShare ((outsAt8 V c (n - 1) (by omega)).2.2.2.2))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- The proof data of the region's pipeline on core `c`: the arrays as the region finds them; after the body at
    point `t` each input's buffer at its block and the three outputs' at `outsAt8`'s first three components; the
    invariant `PhiS8`; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => (outsAt8 V c t.val t.isLt).1
    | ⟨7, _⟩ => (outsAt8 V c t.val t.isLt).2.1
    | ⟨8, _⟩ => (outsAt8 V c t.val t.isLt).2.2.1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at the point's number. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = (outsAt8 V c t.val t.isLt).1 := by dsimp only [dat8]
theorem after8_7 (c : Dev nD) (t : Fin cfg8.N) : (dat8 V c).after 7 t = (outsAt8 V c t.val t.isLt).2.1 := by dsimp only [dat8]
theorem after8_8 (c : Dev nD) (t : Fin cfg8.N) : (dat8 V c).after 8 t = (outsAt8 V c t.val t.isLt).2.2.1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

/-- What the body is called with at point `t`: the invariant, nothing owed, and the nine windows' current staging
    buffers one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d))
    ∗ (∃ d, owns (c : Thread nD τ) (ms8_6 t) fullShare ((dat8 V c).before 6 t d))
    ∗ (∃ d, owns (c : Thread nD τ) (ms8_7 t) fullShare ((dat8 V c).before 7 t d))
    ∗ (∃ d, owns (c : Thread nD τ) (ms8_8 t) fullShare ((dat8 V c).before 8 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t
    ∗ (dat8 V c).leavesExact 8 t)

set_option maxHeartbeats 4800000 in
/-- The body at any point. The inputs' buffers hold their blocks; the point's number says which of the three cases it is
    in, so that case's run applies. The invariant hands the body the two running sums — at anything at the first point,
    at what the point before left otherwise — and takes them back at this point's contents, which the run's pieces
    cover; the scoped buffers it does not touch and the generator register pass through. The output tile comes back
    covered by its one store; the two statistics rows come back untouched except at the last point, where each is
    covered by its store. Nothing is owed throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).owesAt () t.succ = (dat8 V c).owesAt () t.castSucc from rfl]
  rw [show (dat8 V c).Φ t.succ = PhiS8 V c (t.val + 1) t.isLt from rfl, PhiS8_succ]
  have hN : t.val < 10 := lt_of_lt_of_eq t.isLt (show cfg8.N = 10 from N_8)
  by_cases h0 : t.val = 0
  · have h1 : ¬t.val = 9 := by omega
    rw [show (dat8 V c).leavesExact 0 t = owns (c : Thread nD τ) (ms8_0 t) fullShare ((dat8 V c).after 0 t) from by
          unfold Dat.leavesExact; rw [liveAt8_0 t], after8_0]
    rw [show (dat8 V c).leavesExact 1 t = owns (c : Thread nD τ) (ms8_1 t) fullShare ((dat8 V c).after 1 t) from by
          unfold Dat.leavesExact; rw [liveAt8_1 t], after8_1]
    rw [show (dat8 V c).leavesExact 2 t = owns (c : Thread nD τ) (ms8_2 t) fullShare ((dat8 V c).after 2 t) from by
          unfold Dat.leavesExact; rw [liveAt8_2 t], after8_2]
    rw [show (dat8 V c).leavesExact 3 t = owns (c : Thread nD τ) (ms8_3 t) fullShare ((dat8 V c).after 3 t) from by
          unfold Dat.leavesExact; rw [liveAt8_3 t], after8_3]
    rw [show (dat8 V c).leavesExact 4 t = owns (c : Thread nD τ) (ms8_4 t) fullShare ((dat8 V c).after 4 t) from by
          unfold Dat.leavesExact; rw [liveAt8_4 t], after8_4]
    rw [show (dat8 V c).leavesExact 5 t = owns (c : Thread nD τ) (ms8_5 t) fullShare ((dat8 V c).after 5 t) from by
          unfold Dat.leavesExact; rw [liveAt8_5 t], after8_5]
    rw [show (dat8 V c).leavesExact 6 t = owns (c : Thread nD τ) (ms8_6 t) fullShare ((dat8 V c).after 6 t) from by
          unfold Dat.leavesExact; rw [liveAt8_6 t], after8_6]
    rw [Dat.leavesExact_idle (dat8 V c) 7 t (idleAt8_7 t (fun h => h1 ((hcond8_1 t).mp h))) (noFlush8_7 t (fun h => h1 ((hcond8_1 t).mp h)))]
    rw [Dat.leavesExact_idle (dat8 V c) 8 t (idleAt8_8 t (fun h => h1 ((hcond8_1 t).mp h))) (noFlush8_8 t (fun h => h1 ((hcond8_1 t).mp h)))]
    rw [outsAt8_A V c t h0 h1]
    unfold out8_A_6 sout8_A_0 sout8_A_1; (try dsimp only)
    rw [PhiS8_castSucc V c t, PhiS8_zero V c _ _ h0, PhiA8_eq]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun8_A c (grid8.coords t) _ _ _ _ _ _ _ _ _ _ _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t) (iblk8 V c 5 t)).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, ⟨%e6, H6⟩, H7, H8, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover8_A_0 c _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover8_A_1 c _ _ _ _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover8_A_6 c _ _ _ _ _ _ _ _ _ _ _ _ _ _ _ _ _ _ _ _ _ _ _ _ _ _ _ _ _ _ _)
    isplitl [H7]; · iexists _; iexact H7
    iexists _; iexact H8
  · by_cases h1 : t.val = 9
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2 t], after8_2]
      rw [show (dat8 V c).leavesExact 3 t = owns (c : Thread nD τ) (ms8_3 t) fullShare ((dat8 V c).after 3 t) from by
          unfold Dat.leavesExact; rw [liveAt8_3 t], after8_3]
      rw [show (dat8 V c).leavesExact 4 t = owns (c : Thread nD τ) (ms8_4 t) fullShare ((dat8 V c).after 4 t) from by
          unfold Dat.leavesExact; rw [liveAt8_4 t], after8_4]
      rw [show (dat8 V c).leavesExact 5 t = owns (c : Thread nD τ) (ms8_5 t) fullShare ((dat8 V c).after 5 t) from by
          unfold Dat.leavesExact; rw [liveAt8_5 t], after8_5]
      rw [show (dat8 V c).leavesExact 6 t = owns (c : Thread nD τ) (ms8_6 t) fullShare ((dat8 V c).after 6 t) from by
          unfold Dat.leavesExact; rw [liveAt8_6 t], after8_6]
      rw [show (dat8 V c).leavesExact 7 t = owns (c : Thread nD τ) (ms8_7 t) fullShare ((dat8 V c).after 7 t) from by
          unfold Dat.leavesExact; rw [liveAt8_7 t ((hcond8_1 t).mpr h1)], after8_7]
      rw [show (dat8 V c).leavesExact 8 t = owns (c : Thread nD τ) (ms8_8 t) fullShare ((dat8 V c).after 8 t) from by
          unfold Dat.leavesExact; rw [liveAt8_8 t ((hcond8_1 t).mpr h1)], after8_8]
      rw [outsAt8_C V c t h0 h1]
      unfold out8_C_6 out8_C_7 out8_C_8 sout8_C_0 sout8_C_1; (try dsimp only)
      rw [PhiS8_castSucc V c t, PhiS8_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun8_C c (grid8.coords t) _ _ _ _ _ _ _ _ _ _ _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) (iblk8 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover8_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover8_C_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover8_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover8_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover8_C_8 c _ _ _ _ _ _ _ _ _ _ _ _ _ _ _ _ _ _ _ _ _ _ _ _ _ _ _ _ _ _ _ _ _)
    · rw [show (dat8 V c).leavesExact 0 t = owns (c : Thread nD τ) (ms8_0 t) fullShare ((dat8 V c).after 0 t) from by
          unfold Dat.leavesExact; rw [liveAt8_0 t], after8_0]
      rw [show (dat8 V c).leavesExact 1 t = owns (c : Thread nD τ) (ms8_1 t) fullShare ((dat8 V c).after 1 t) from by
          unfold Dat.leavesExact; rw [liveAt8_1 t], after8_1]
      rw [show (dat8 V c).leavesExact 2 t = owns (c : Thread nD τ) (ms8_2 t) fullShare ((dat8 V c).after 2 t) from by
          unfold Dat.leavesExact; rw [liveAt8_2 t], after8_2]
      rw [show (dat8 V c).leavesExact 3 t = owns (c : Thread nD τ) (ms8_3 t) fullShare ((dat8 V c).after 3 t) from by
          unfold Dat.leavesExact; rw [liveAt8_3 t], after8_3]
      rw [show (dat8 V c).leavesExact 4 t = owns (c : Thread nD τ) (ms8_4 t) fullShare ((dat8 V c).after 4 t) from by
          unfold Dat.leavesExact; rw [liveAt8_4 t], after8_4]
      rw [show (dat8 V c).leavesExact 5 t = owns (c : Thread nD τ) (ms8_5 t) fullShare ((dat8 V c).after 5 t) from by
          unfold Dat.leavesExact; rw [liveAt8_5 t], after8_5]
      rw [show (dat8 V c).leavesExact 6 t = owns (c : Thread nD τ) (ms8_6 t) fullShare ((dat8 V c).after 6 t) from by
          unfold Dat.leavesExact; rw [liveAt8_6 t], after8_6]
      rw [Dat.leavesExact_idle (dat8 V c) 7 t (idleAt8_7 t (fun h => h1 ((hcond8_1 t).mp h))) (noFlush8_7 t (fun h => h1 ((hcond8_1 t).mp h)))]
      rw [Dat.leavesExact_idle (dat8 V c) 8 t (idleAt8_8 t (fun h => h1 ((hcond8_1 t).mp h))) (noFlush8_8 t (fun h => h1 ((hcond8_1 t).mp h)))]
      rw [outsAt8_B V c t h0 h1]
      unfold out8_B_6 sout8_B_0 sout8_B_1; (try dsimp only)
      rw [PhiS8_castSucc V c t, PhiS8_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun8_B c (grid8.coords t) _ _ _ _ _ _ _ _ _ _ _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) (iblk8 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover8_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover8_B_1 c _ _ _ _ _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover8_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point the invariant gives back what the launch handed over: the running sums' contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 10 := N_8; omega)

end Regions

end Cert.Kernel.Hand

end
-- ==== Proof.K.Bn9.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The batch-norm and relu kernel's region: proof data and body obligation

One grid point of this kernel takes a 5000x128 tile `x` of the layer's linear output and four 1x128 rows — the
column means `μ`, the column variances `v`, the scale `γ` and the shift `β` — and writes the tile
`max (γ · (x − μ) · rsqrt (v + ε) + β) 0`, elementwise, the rows spread down the tile's 5000 rows. The ten grid points
cover the 50000 rows tile by tile. The body has one control path: it reads each of the five input buffers whole, and
stores the whole output buffer once. So what the body leaves in the output buffer is a function of the five input
blocks alone, and that function is the store's payload.

Everything here is stated for any float model `F` and at a parameter `V`, the core's buffer contents when the
region is entered. -/

section Regions
-- the TensorCore's buffer contents when the region is entered
variable (V : (c : Dev nD) → (b : Ref sig .tc) → Buf (Elt F) ((c : Thread nD τ).loc b))

/-! # This region's half: the batch-norm + relu kernel over ten row tiles, at the entry contents `V` -/

/-! ## The windows' blocks -/

/-- Window `w`'s block at grid point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! An input window's current staging buffer holds its block at EVERY point, whether the pipeline fetched it there
    or not: the tile (window 0) is fetched at each point; the four rows (mean, variance, scale, shift) are fetched
    at the first point only, but their block index never moves, so the block fetched first is the block of every
    later point. This holds for any proof data whose array is the entry contents and whose body leaves the block
    in place; the windows are uncut and never idle. -/

theorem before9_tile_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_mean_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_var_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_gamma_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_beta_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses -/

/-- The whole 5000x128 tile and the whole 1x128 row, as rectangles of their buffers: every load and the one store
    of the body go through one of these two. -/
abbrev rTile9 : Rect S5000x128 := Rect.unit (s := S5000x128) ![0, 0] S5000x128.size inb_S5000x128_S5000x128_0_0
abbrev rRow9 : Rect S1x128 := Rect.unit (s := S1x128) ![0, 0] S1x128.size inb_S1x128_S1x128_0_0

/-! ## What the body leaves in the output window's buffer -/

/-- The output tile's buffer after the body, from the five input blocks: its one store, of the payload of the
    five whole-buffer loads, laid over the buffer. -/
def out9_5 (x0 : Vec F S5000x128 .f32) (x1 x2 x3 x4 : Vec F S1x128 .f32) : Vec F S5000x128 .f32 :=
  View.canon [⟨rTile9, k9_pay1 (View.ld x0 rTile9) (View.ld x1 rRow9) (View.ld x2 rRow9) (View.ld x3 rRow9) (View.ld x4 rRow9)⟩]

/-- The one store is of the whole tile, so it covers the buffer. -/
theorem cover9_5 (p0 : Vec F S5000x128 .f32) (y : S5000x128.Idx) :
    ∃ pc ∈ ([⟨rTile9, p0⟩] : List (View.Piece (Elt F) S5000x128 .f32)), y ∈ pc.1.set :=
  ⟨_, List.mem_singleton_self _, View.mem_set_unit_zero (by funext a; fin_cases a <;> rfl) inb_S5000x128_S5000x128_0_0 y⟩

/-- A load of a whole buffer reads its contents, and one store of the whole buffer leaves its payload: the output
    buffer after the body IS the payload of the five input blocks. -/
theorem out9_5_eq (x0 : Vec F S5000x128 .f32) (x1 x2 x3 x4 : Vec F S1x128 .f32) :
    out9_5 x0 x1 x2 x3 x4 = k9_pay1 x0 x1 x2 x3 x4 := by
  have hzT : (![0, 0] : Fin S5000x128.rank → Nat) = fun _ => 0 := by funext a; fin_cases a <;> rfl
  have hzR : (![0, 0] : Fin S1x128.rank → Nat) = fun _ => 0 := by funext a; fin_cases a <;> rfl
  unfold out9_5
  rw [View.canon_unit_zero hzT]
  simp only [View.ld_unit_zero (S := S5000x128) hzT, View.ld_unit_zero (S := S1x128) hzR]

/-! ## The body's triple -/

set_option maxHeartbeats 1000000 in
/-- The kernel body on whole staging buffers — the five inputs' at read contents `x0 … x4`, the output's at anything —
    runs to the continuation holding the inputs' as they were and the output's at `out9_5` of the inputs'. The body
    reads the output's buffer before it overwrites it; what it reads there is not used by the payload. -/
theorem sound_kernel9 (c : Dev nD) (E : Set ℕ) (i : grid9.Coords)
    (arg1 : Memref sig .tc .vmem S5000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_relu_kernel i arg1 harg1 arg2 harg2 arg3 harg3 arg4 harg4 arg5 harg5 arg6 harg6) K := by
  simp only [cc9__bn_relu_kernel_eq_skeleton]; unfold cc9__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of the region's pipeline on core `c`: the arrays as the region finds them; after the body at point
    `t` each input's buffer still at its block and the output's at the payload of the five blocks; the invariant
    is the scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window: the proof data's case split at each literal window. -/
theorem after9_tile (c : Dev nD) (t : Fin cfg9.N) : (dat9 V c).after 0 t = iblk9 V c 0 t := by dsimp only [dat9]
theorem after9_mean (c : Dev nD) (t : Fin cfg9.N) : (dat9 V c).after 1 t = iblk9 V c 1 t := by dsimp only [dat9]
theorem after9_var (c : Dev nD) (t : Fin cfg9.N) : (dat9 V c).after 2 t = iblk9 V c 2 t := by dsimp only [dat9]
theorem after9_gamma (c : Dev nD) (t : Fin cfg9.N) : (dat9 V c).after 3 t = iblk9 V c 3 t := by dsimp only [dat9]
theorem after9_beta (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_tile (c : Dev nD) (t : Fin cfg9.N) (d) : (dat9 V c).before 0 t d = iblk9 V c 0 t :=
  before9_tile_of V (dat9 V c) (A_eq9 V c 0) (after9_tile V c) t d
theorem before9_mean (c : Dev nD) (t : Fin cfg9.N) (d) : (dat9 V c).before 1 t d = iblk9 V c 1 t :=
  before9_mean_of V (dat9 V c) (A_eq9 V c 1) (after9_mean V c) t d
theorem before9_var (c : Dev nD) (t : Fin cfg9.N) (d) : (dat9 V c).before 2 t d = iblk9 V c 2 t :=
  before9_var_of V (dat9 V c) (A_eq9 V c 2) (after9_var V c) t d
theorem before9_gamma (c : Dev nD) (t : Fin cfg9.N) (d) : (dat9 V c).before 3 t d = iblk9 V c 3 t :=
  before9_gamma_of V (dat9 V c) (A_eq9 V c 3) (after9_gamma V c) t d
theorem before9_beta (c : Dev nD) (t : Fin cfg9.N) (d) : (dat9 V c).before 4 t d = iblk9 V c 4 t :=
  before9_beta_of V (dat9 V c) (A_eq9 V c 4) (after9_beta V c) t d

/-! ## The body obligation, at a generic point -/

/-- What the body is called with at point `t`: the invariant, the core's debt, and each window's current staging
    buffer at what the pipeline left there, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns: the same, each buffer at what the body leaves there. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the five inputs' buffers hold their blocks, so the body's triple applies; the invariant
    and the core's debt pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_tile, before9_mean, before9_var, before9_gamma, before9_beta]
  rw [show (dat9 V c).Φ t.succ = (dat9 V c).Φ t.castSucc from rfl,
    show (dat9 V c).owesAt () t.succ = (dat9 V c).owesAt () t.castSucc from rfl,
    after9_tile, after9_mean, after9_var, after9_gamma, after9_beta, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.Kernel.Hand

end
-- ==== Proof.K.RunFold.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import proofs.«162849_j29643864277577_1_alg».proof.Proof.Gen.Kernel.Regions
import proofs.«162849_j29643864277577_1_alg».proof.Proof.K.Stats0
import proofs.«162849_j29643864277577_1_alg».proof.Proof.K.Bn1
import proofs.«162849_j29643864277577_1_alg».proof.Proof.K.Stats2
import proofs.«162849_j29643864277577_1_alg».proof.Proof.K.Bn3
import proofs.«162849_j29643864277577_1_alg».proof.Proof.K.Stats4
import proofs.«162849_j29643864277577_1_alg».proof.Proof.K.Bn5
import proofs.«162849_j29643864277577_1_alg».proof.Proof.K.Stats6
import proofs.«162849_j29643864277577_1_alg».proof.Proof.K.Bn7
import proofs.«162849_j29643864277577_1_alg».proof.Proof.K.Stats8
import proofs.«162849_j29643864277577_1_alg».proof.Proof.K.Bn9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of the program's items: a fold from the launch memory

The program is thirteen stretches of host operations with ten kernel regions between the first eleven. A stretch
rewrites the buffers its operations write; a region rewrites exactly its output arrays, by the write-backs of its
ten grid points in order, and leaves every other buffer as it found it. -/

/-- Core `c`'s buffers at launch. -/
abbrev W0 : Dev nD → Valuation τ sig (Elt F) := fun c b => (s₀ m ρ).mem ((c : Dev nD), b)

/-- After the stretch before region 0: what region 0 is entered from. -/
abbrev W1 : Dev nD → Valuation τ sig (Elt F) := fun c => StableHlo.after hostOps0 (W0 m ρ c)
/-- The same read at the TensorCore's references: the entry contents region 0's proof data are stated at. -/
abbrev V1 : (c : Dev nD) → (b : Ref sig .tc) → Buf (Elt F) ((c : Thread nD τ).loc b) := fun c b => W1 m ρ c b
/-- A reference the stretch does not write holds what it held. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: each of its arrays at the entry contents with every point's write-back folded in (an input
    array is never written back, so it is as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that is no OUTPUT array of region 0 holds at the exit what it held at the entry: either no window
    stages it, or an input window does and the pipeline never writes an input array back. -/
theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr
    exact (W2_arr m ρ c w).trans (((dat0 (V1 m ρ) c).arrAt_in w (h w rfl) _).trans (A_eq0 (V1 m ρ) c w))
  · exact W2_of_ne m ρ c r fun w e => hr ⟨w, e⟩

/-- After the stretch before region 1: what region 1 is entered from. -/
abbrev W3 : Dev nD → Valuation τ sig (Elt F) := fun c => StableHlo.after hostOps1 (W2 m ρ c)
/-- The same read at the TensorCore's references: the entry contents region 1's proof data are stated at. -/
abbrev V3 : (c : Dev nD) → (b : Ref sig .tc) → Buf (Elt F) ((c : Thread nD τ).loc b) := fun c b => W3 m ρ c b
/-- A reference the stretch does not write holds what it held. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: each of its arrays at the entry contents with every point's write-back folded in (an input
    array is never written back, so it is as entered), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that is no OUTPUT array of region 1 holds at the exit what it held at the entry: either no window
    stages it, or an input window does and the pipeline never writes an input array back. -/
theorem W4_keep (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr
    exact (W4_arr m ρ c w).trans (((dat1 (V3 m ρ) c).arrAt_in w (h w rfl) _).trans (A_eq1 (V3 m ρ) c w))
  · exact W4_of_ne m ρ c r fun w e => hr ⟨w, e⟩

/-- After the stretch before region 2: what region 2 is entered from. -/
abbrev W5 : Dev nD → Valuation τ sig (Elt F) := fun c => StableHlo.after hostOps2 (W4 m ρ c)
/-- The same read at the TensorCore's references: the entry contents region 2's proof data are stated at. -/
abbrev V5 : (c : Dev nD) → (b : Ref sig .tc) → Buf (Elt F) ((c : Thread nD τ).loc b) := fun c b => W5 m ρ c b
/-- A reference the stretch does not write holds what it held. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: each of its arrays at the entry contents with every point's write-back folded in (an input
    array is never written back, so it is as entered), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves and every other buffer what it held at
    entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A reference that is no OUTPUT array of region 2 holds at the exit what it held at the entry: either no window
    stages it, or an input window does and the pipeline never writes an input array back. -/
theorem W6_keep (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr
    exact (W6_arr m ρ c w).trans (((dat2 (V5 m ρ) c).arrAt_in w (h w rfl) _).trans (A_eq2 (V5 m ρ) c w))
  · exact W6_of_ne m ρ c r fun w e => hr ⟨w, e⟩

/-- After the stretch before region 3: what region 3 is entered from. -/
abbrev W7 : Dev nD → Valuation τ sig (Elt F) := fun c => StableHlo.after hostOps3 (W6 m ρ c)
/-- The same read at the TensorCore's references: the entry contents region 3's proof data are stated at. -/
abbrev V7 : (c : Dev nD) → (b : Ref sig .tc) → Buf (Elt F) ((c : Thread nD τ).loc b) := fun c b => W7 m ρ c b
/-- A reference the stretch does not write holds what it held. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
/-- At region 3's exit: each of its arrays at the entry contents with every point's write-back folded in (an input
    array is never written back, so it is as entered), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves and every other buffer what it held at
    entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A reference that is no OUTPUT array of region 3 holds at the exit what it held at the entry: either no window
    stages it, or an input window does and the pipeline never writes an input array back. -/
theorem W8_keep (c : Dev nD) (r : Ref sig .tc) (h : ∀ w, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr
    exact (W8_arr m ρ c w).trans (((dat3 (V7 m ρ) c).arrAt_in w (h w rfl) _).trans (A_eq3 (V7 m ρ) c w))
  · exact W8_of_ne m ρ c r fun w e => hr ⟨w, e⟩

/-- After the stretch before region 4: what region 4 is entered from. -/
abbrev W9 : Dev nD → Valuation τ sig (Elt F) := fun c => StableHlo.after hostOps4 (W8 m ρ c)
/-- The same read at the TensorCore's references: the entry contents region 4's proof data are stated at. -/
abbrev V9 : (c : Dev nD) → (b : Ref sig .tc) → Buf (Elt F) ((c : Thread nD τ).loc b) := fun c b => W9 m ρ c b
/-- A reference the stretch does not write holds what it held. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h
/-- At region 4's exit: each of its arrays at the entry contents with every point's write-back folded in (an input
    array is never written back, so it is as entered), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves and every other buffer what it held at
    entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A reference that is no OUTPUT array of region 4 holds at the exit what it held at the entry: either no window
    stages it, or an input window does and the pipeline never writes an input array back. -/
theorem W10_keep (c : Dev nD) (r : Ref sig .tc) (h : ∀ w, Pipeline.arrRef spec4 w = r → (cfg4.win w).isOut = false) :
    W10 m ρ c (Proc.devRef .tc r) = W9 m ρ c (Proc.devRef .tc r) := by
  by_cases hr : ∃ w, Pipeline.arrRef spec4 w = r
  · obtain ⟨w, rfl⟩ := hr
    exact (W10_arr m ρ c w).trans (((dat4 (V9 m ρ) c).arrAt_in w (h w rfl) _).trans (A_eq4 (V9 m ρ) c w))
  · exact W10_of_ne m ρ c r fun w e => hr ⟨w, e⟩

/-- After the stretch before region 5: what region 5 is entered from. -/
abbrev W11 : Dev nD → Valuation τ sig (Elt F) := fun c => StableHlo.after hostOps5 (W10 m ρ c)
/-- The same read at the TensorCore's references: the entry contents region 5's proof data are stated at. -/
abbrev V11 : (c : Dev nD) → (b : Ref sig .tc) → Buf (Elt F) ((c : Thread nD τ).loc b) := fun c b => W11 m ρ c b
/-- A reference the stretch does not write holds what it held. -/
theorem W11_of (c : Dev nD) (r : Ref sig .tc) (h : r ∉ hostOps5_W) :
    W11 m ρ c (Proc.devRef .tc r) = W10 m ρ c (Proc.devRef .tc r) :=
  StableHlo.after_of_writes_sub hostOps5 _ hostOps5_writes h
/-- At region 5's exit: each of its arrays at the entry contents with every point's write-back folded in (an input
    array is never written back, so it is as entered), every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves and every other buffer what it held at
    entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A reference that is no OUTPUT array of region 5 holds at the exit what it held at the entry: either no window
    stages it, or an input window does and the pipeline never writes an input array back. -/
theorem W12_keep (c : Dev nD) (r : Ref sig .tc) (h : ∀ w, Pipeline.arrRef spec5 w = r → (cfg5.win w).isOut = false) :
    W12 m ρ c (Proc.devRef .tc r) = W11 m ρ c (Proc.devRef .tc r) := by
  by_cases hr : ∃ w, Pipeline.arrRef spec5 w = r
  · obtain ⟨w, rfl⟩ := hr
    exact (W12_arr m ρ c w).trans (((dat5 (V11 m ρ) c).arrAt_in w (h w rfl) _).trans (A_eq5 (V11 m ρ) c w))
  · exact W12_of_ne m ρ c r fun w e => hr ⟨w, e⟩

/-- After the stretch before region 6: what region 6 is entered from. -/
abbrev W13 : Dev nD → Valuation τ sig (Elt F) := fun c => StableHlo.after hostOps6 (W12 m ρ c)
/-- The same read at the TensorCore's references: the entry contents region 6's proof data are stated at. -/
abbrev V13 : (c : Dev nD) → (b : Ref sig .tc) → Buf (Elt F) ((c : Thread nD τ).loc b) := fun c b => W13 m ρ c b
/-- A reference the stretch does not write holds what it held. -/
theorem W13_of (c : Dev nD) (r : Ref sig .tc) (h : r ∉ hostOps6_W) :
    W13 m ρ c (Proc.devRef .tc r) = W12 m ρ c (Proc.devRef .tc r) :=
  StableHlo.after_of_writes_sub hostOps6 _ hostOps6_writes h
/-- At region 6's exit: each of its arrays at the entry contents with every point's write-back folded in (an input
    array is never written back, so it is as entered), every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev V14 : (c : Dev nD) → (b : Ref sig .tc) → Buf (Elt F) ((c : Thread nD τ).loc b) := fun c b => W14 m ρ c b
/-- At region 6's exit each of its arrays holds what the pipeline leaves and every other buffer what it held at
    entry. -/
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A reference that is no OUTPUT array of region 6 holds at the exit what it held at the entry: either no window
    stages it, or an input window does and the pipeline never writes an input array back. -/
theorem W14_keep (c : Dev nD) (r : Ref sig .tc) (h : ∀ w, Pipeline.arrRef spec6 w = r → (cfg6.win w).isOut = false) :
    W14 m ρ c (Proc.devRef .tc r) = W13 m ρ c (Proc.devRef .tc r) := by
  by_cases hr : ∃ w, Pipeline.arrRef spec6 w = r
  · obtain ⟨w, rfl⟩ := hr
    exact (W14_arr m ρ c w).trans (((dat6 (V13 m ρ) c).arrAt_in w (h w rfl) _).trans (A_eq6 (V13 m ρ) c w))
  · exact W14_of_ne m ρ c r fun w e => hr ⟨w, e⟩

/-- After the stretch before region 7: what region 7 is entered from. -/
abbrev W15 : Dev nD → Valuation τ sig (Elt F) := fun c => StableHlo.after hostOps7 (W14 m ρ c)
/-- The same read at the TensorCore's references: the entry contents region 7's proof data are stated at. -/
abbrev V15 : (c : Dev nD) → (b : Ref sig .tc) → Buf (Elt F) ((c : Thread nD τ).loc b) := fun c b => W15 m ρ c b
/-- A reference the stretch does not write holds what it held. -/
theorem W15_of (c : Dev nD) (r : Ref sig .tc) (h : r ∉ hostOps7_W) :
    W15 m ρ c (Proc.devRef .tc r) = W14 m ρ c (Proc.devRef .tc r) :=
  StableHlo.after_of_writes_sub hostOps7 _ hostOps7_writes h
/-- At region 7's exit: each of its arrays at the entry contents with every point's write-back folded in (an input
    array is never written back, so it is as entered), every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev V16 : (c : Dev nD) → (b : Ref sig .tc) → Buf (Elt F) ((c : Thread nD τ).loc b) := fun c b => W16 m ρ c b
/-- At region 7's exit each of its arrays holds what the pipeline leaves and every other buffer what it held at
    entry. -/
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A reference that is no OUTPUT array of region 7 holds at the exit what it held at the entry: either no window
    stages it, or an input window does and the pipeline never writes an input array back. -/
theorem W16_keep (c : Dev nD) (r : Ref sig .tc) (h : ∀ w, Pipeline.arrRef spec7 w = r → (cfg7.win w).isOut = false) :
    W16 m ρ c (Proc.devRef .tc r) = W15 m ρ c (Proc.devRef .tc r) := by
  by_cases hr : ∃ w, Pipeline.arrRef spec7 w = r
  · obtain ⟨w, rfl⟩ := hr
    exact (W16_arr m ρ c w).trans (((dat7 (V15 m ρ) c).arrAt_in w (h w rfl) _).trans (A_eq7 (V15 m ρ) c w))
  · exact W16_of_ne m ρ c r fun w e => hr ⟨w, e⟩

/-- After the stretch before region 8: what region 8 is entered from. -/
abbrev W17 : Dev nD → Valuation τ sig (Elt F) := fun c => StableHlo.after hostOps8 (W16 m ρ c)
/-- The same read at the TensorCore's references: the entry contents region 8's proof data are stated at. -/
abbrev V17 : (c : Dev nD) → (b : Ref sig .tc) → Buf (Elt F) ((c : Thread nD τ).loc b) := fun c b => W17 m ρ c b
/-- A reference the stretch does not write holds what it held. -/
theorem W17_of (c : Dev nD) (r : Ref sig .tc) (h : r ∉ hostOps8_W) :
    W17 m ρ c (Proc.devRef .tc r) = W16 m ρ c (Proc.devRef .tc r) :=
  StableHlo.after_of_writes_sub hostOps8 _ hostOps8_writes h
/-- At region 8's exit: each of its arrays at the entry contents with every point's write-back folded in (an input
    array is never written back, so it is as entered), every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev V18 : (c : Dev nD) → (b : Ref sig .tc) → Buf (Elt F) ((c : Thread nD τ).loc b) := fun c b => W18 m ρ c b
/-- At region 8's exit each of its arrays holds what the pipeline leaves and every other buffer what it held at
    entry. -/
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A reference that is no OUTPUT array of region 8 holds at the exit what it held at the entry: either no window
    stages it, or an input window does and the pipeline never writes an input array back. -/
theorem W18_keep (c : Dev nD) (r : Ref sig .tc) (h : ∀ w, Pipeline.arrRef spec8 w = r → (cfg8.win w).isOut = false) :
    W18 m ρ c (Proc.devRef .tc r) = W17 m ρ c (Proc.devRef .tc r) := by
  by_cases hr : ∃ w, Pipeline.arrRef spec8 w = r
  · obtain ⟨w, rfl⟩ := hr
    exact (W18_arr m ρ c w).trans (((dat8 (V17 m ρ) c).arrAt_in w (h w rfl) _).trans (A_eq8 (V17 m ρ) c w))
  · exact W18_of_ne m ρ c r fun w e => hr ⟨w, e⟩

/-- After the stretch before region 9: what region 9 is entered from. -/
abbrev W19 : Dev nD → Valuation τ sig (Elt F) := fun c => StableHlo.after hostOps9 (W18 m ρ c)
/-- The same read at the TensorCore's references: the entry contents region 9's proof data are stated at. -/
abbrev V19 : (c : Dev nD) → (b : Ref sig .tc) → Buf (Elt F) ((c : Thread nD τ).loc b) := fun c b => W19 m ρ c b
/-- A reference the stretch does not write holds what it held. -/
theorem W19_of (c : Dev nD) (r : Ref sig .tc) (h : r ∉ hostOps9_W) :
    W19 m ρ c (Proc.devRef .tc r) = W18 m ρ c (Proc.devRef .tc r) :=
  StableHlo.after_of_writes_sub hostOps9 _ hostOps9_writes h
/-- At region 9's exit: each of its arrays at the entry contents with every point's write-back folded in (an input
    array is never written back, so it is as entered), every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev V20 : (c : Dev nD) → (b : Ref sig .tc) → Buf (Elt F) ((c : Thread nD τ).loc b) := fun c b => W20 m ρ c b
/-- At region 9's exit each of its arrays holds what the pipeline leaves and every other buffer what it held at
    entry. -/
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A reference that is no OUTPUT array of region 9 holds at the exit what it held at the entry: either no window
    stages it, or an input window does and the pipeline never writes an input array back. -/
theorem W20_keep (c : Dev nD) (r : Ref sig .tc) (h : ∀ w, Pipeline.arrRef spec9 w = r → (cfg9.win w).isOut = false) :
    W20 m ρ c (Proc.devRef .tc r) = W19 m ρ c (Proc.devRef .tc r) := by
  by_cases hr : ∃ w, Pipeline.arrRef spec9 w = r
  · obtain ⟨w, rfl⟩ := hr
    exact (W20_arr m ρ c w).trans (((dat9 (V19 m ρ) c).arrAt_in w (h w rfl) _).trans (A_eq9 (V19 m ρ) c w))
  · exact W20_of_ne m ρ c r fun w e => hr ⟨w, e⟩

/-- After the first of the three closing stretches. -/
abbrev W21 : Dev nD → Valuation τ sig (Elt F) := fun c => StableHlo.after hostOps10 (W20 m ρ c)
theorem W21_of (c : Dev nD) (r : Ref sig .tc) (h : r ∉ hostOps10_W) :
    W21 m ρ c (Proc.devRef .tc r) = W20 m ρ c (Proc.devRef .tc r) :=
  StableHlo.after_of_writes_sub hostOps10 _ hostOps10_writes h

/-- After the second of the three closing stretches. -/
abbrev W22 : Dev nD → Valuation τ sig (Elt F) := fun c => StableHlo.after hostOps10_1 (W21 m ρ c)
theorem W22_of (c : Dev nD) (r : Ref sig .tc) (h : r ∉ hostOps10_1_W) :
    W22 m ρ c (Proc.devRef .tc r) = W21 m ρ c (Proc.devRef .tc r) :=
  StableHlo.after_of_writes_sub hostOps10_1 _ hostOps10_1_writes h

/-- After the third of the three closing stretches. -/
abbrev W23 : Dev nD → Valuation τ sig (Elt F) := fun c => StableHlo.after hostOps10_2 (W22 m ρ c)
theorem W23_of (c : Dev nD) (r : Ref sig .tc) (h : r ∉ hostOps10_2_W) :
    W23 m ρ c (Proc.devRef .tc r) = W22 m ρ c (Proc.devRef .tc r) :=
  StableHlo.after_of_writes_sub hostOps10_2 _ hostOps10_2_writes h

/-! ## The arguments end as launched

A reference that no stretch writes and that is no output array of any region holds at the end what the launch memory
holds: walk the fold back, a stretch by the list of references it writes, a region by its output arrays. -/

theorem W23_of_kept (c : Dev nD) (r : Ref sig .tc)
    (h0 : r ∉ hostOps0_W)
    (h1 : r ∉ hostOps1_W)
    (h2 : r ∉ hostOps2_W)
    (h3 : r ∉ hostOps3_W)
    (h4 : r ∉ hostOps4_W)
    (h5 : r ∉ hostOps5_W)
    (h6 : r ∉ hostOps6_W)
    (h7 : r ∉ hostOps7_W)
    (h8 : r ∉ hostOps8_W)
    (h9 : r ∉ hostOps9_W)
    (h10 : r ∉ hostOps10_W)
    (h10_1 : r ∉ hostOps10_1_W)
    (h10_2 : r ∉ hostOps10_2_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false)
    (k3 : ∀ w, Pipeline.arrRef spec3 w = r → (cfg3.win w).isOut = false)
    (k4 : ∀ w, Pipeline.arrRef spec4 w = r → (cfg4.win w).isOut = false)
    (k5 : ∀ w, Pipeline.arrRef spec5 w = r → (cfg5.win w).isOut = false)
    (k6 : ∀ w, Pipeline.arrRef spec6 w = r → (cfg6.win w).isOut = false)
    (k7 : ∀ w, Pipeline.arrRef spec7 w = r → (cfg7.win w).isOut = false)
    (k8 : ∀ w, Pipeline.arrRef spec8 w = r → (cfg8.win w).isOut = false)
    (k9 : ∀ w, Pipeline.arrRef spec9 w = r → (cfg9.win w).isOut = false) :
    W23 m ρ c (Proc.devRef .tc r) = m ((c : Thread nD τ).loc r) :=
  calc W23 m ρ c (Proc.devRef .tc r)
    _ = W22 m ρ c (Proc.devRef .tc r) := W23_of m ρ c r h10_2
    _ = W21 m ρ c (Proc.devRef .tc r) := W22_of m ρ c r h10_1
    _ = W20 m ρ c (Proc.devRef .tc r) := W21_of m ρ c r h10
    _ = W19 m ρ c (Proc.devRef .tc r) := W20_keep m ρ c r k9
    _ = W18 m ρ c (Proc.devRef .tc r) := W19_of m ρ c r h9
    _ = W17 m ρ c (Proc.devRef .tc r) := W18_keep m ρ c r k8
    _ = W16 m ρ c (Proc.devRef .tc r) := W17_of m ρ c r h8
    _ = W15 m ρ c (Proc.devRef .tc r) := W16_keep m ρ c r k7
    _ = W14 m ρ c (Proc.devRef .tc r) := W15_of m ρ c r h7
    _ = W13 m ρ c (Proc.devRef .tc r) := W14_keep m ρ c r k6
    _ = W12 m ρ c (Proc.devRef .tc r) := W13_of m ρ c r h6
    _ = W11 m ρ c (Proc.devRef .tc r) := W12_keep m ρ c r k5
    _ = W10 m ρ c (Proc.devRef .tc r) := W11_of m ρ c r h5
    _ = W9 m ρ c (Proc.devRef .tc r) := W10_keep m ρ c r k4
    _ = W8 m ρ c (Proc.devRef .tc r) := W9_of m ρ c r h4
    _ = W7 m ρ c (Proc.devRef .tc r) := W8_keep m ρ c r k3
    _ = W6 m ρ c (Proc.devRef .tc r) := W7_of m ρ c r h3
    _ = W5 m ρ c (Proc.devRef .tc r) := W6_keep m ρ c r k2
    _ = W4 m ρ c (Proc.devRef .tc r) := W5_of m ρ c r h2
    _ = W3 m ρ c (Proc.devRef .tc r) := W4_keep m ρ c r k1
    _ = W2 m ρ c (Proc.devRef .tc r) := W3_of m ρ c r h1
    _ = W1 m ρ c (Proc.devRef .tc r) := W2_keep m ρ c r k0
    _ = W0 m ρ c (Proc.devRef .tc r) := W1_of m ρ c r h0
    _ = m ((c : Thread nD τ).loc r) := rfl

/-- Argument 0 reaches the end as launched: no stretch writes it, and the one region that stages it stages it as an input. -/
theorem W23_main_arg0 (c : Dev nD) : W23 m ρ c (Proc.devRef .tc main_arg0) = m ((c : Thread nD τ).loc main_arg0) :=
  W23_of_kept m ρ c main_arg0 (by decide) (by decide) (by decide) (by decide) (by decide) (by decide) (by decide) (by decide) (by decide) (by decide) (by decide) (by decide) (by decide) (by decide) (by decide) (by decide) (by decide) (by decide) (by decide) (by decide) (by decide) (by decide) (by decide)

/-- Argument 1 reaches the end as launched: no stretch writes it and no region stages it. -/
theorem W23_main_arg1 (c : Dev nD) : W23 m ρ c (Proc.devRef .tc main_arg1) = m ((c : Thread nD τ).loc main_arg1) :=
  W23_of_kept m ρ c main_arg1 (by decide) (by decide) (by decide) (by decide) (by decide) (by decide) (by decide) (by decide) (by decide) (by decide) (by decide) (by decide) (by decide) (by decide) (by decide) (by decide) (by decide) (by decide) (by decide) (by decide) (by decide) (by decide) (by decide)

/-- Argument 2 reaches the end as launched: no stretch writes it and no region stages it. -/
theorem W23_main_arg2 (c : Dev nD) : W23 m ρ c (Proc.devRef .tc main_arg2) = m ((c : Thread nD τ).loc main_arg2) :=
  W23_of_kept m ρ c main_arg2 (by decide) (by decide) (by decide) (by decide) (by decide) (by decide) (by decide) (by decide) (by decide) (by decide) (by decide) (by decide) (by decide) (by decide) (by decide) (by decide) (by decide) (by decide) (by decide) (by decide) (by decide) (by decide) (by decide)

/-- Argument 3 reaches the end as launched: no stretch writes it and no region stages it. -/
theorem W23_main_arg3 (c : Dev nD) : W23 m ρ c (Proc.devRef .tc main_arg3) = m ((c : Thread nD τ).loc main_arg3) :=
  W23_of_kept m ρ c main_arg3 (by decide) (by decide) (by decide) (by decide) (by decide) (by decide) (by decide) (by decide) (by decide) (by decide) (by decide) (by decide) (by decide) (by decide) (by decide) (by decide) (by decide) (by decide) (by decide) (by decide) (by decide) (by decide) (by decide)

/-- Argument 4 reaches the end as launched: no stretch writes it and no region stages it. -/
theorem W23_main_arg4 (c : Dev nD) : W23 m ρ c (Proc.devRef .tc main_arg4) = m ((c : Thread nD τ).loc main_arg4) :=
  W23_of_kept m ρ c main_arg4 (by decide) (by decide) (by decide) (by decide) (by decide) (by decide) (by decide) (by decide) (by decide) (by decide) (by decide) (by decide) (by decide) (by decide) (by decide) (by decide) (by decide) (by decide) (by decide) (by decide) (by decide) (by decide) (by decide)

/-- Argument 5 reaches the end as launched: no stretch writes it and no region stages it. -/
theorem W23_main_arg5 (c : Dev nD) : W23 m ρ c (Proc.devRef .tc main_arg5) = m ((c : Thread nD τ).loc main_arg5) :=
  W23_of_kept m ρ c main_arg5 (by decide) (by decide) (by decide) (by decide) (by decide) (by decide) (by decide) (by decide) (by decide) (by decide) (by decide) (by decide) (by decide) (by decide) (by decide) (by decide) (by decide) (by decide) (by decide) (by decide) (by decide) (by decide) (by decide)

/-- Argument 6 reaches the end as launched: no stretch writes it and no region stages it. -/
theorem W23_main_arg6 (c : Dev nD) : W23 m ρ c (Proc.devRef .tc main_arg6) = m ((c : Thread nD τ).loc main_arg6) :=
  W23_of_kept m ρ c main_arg6 (by decide) (by decide) (by decide) (by decide) (by decide) (by decide) (by decide) (by decide) (by decide) (by decide) (by decide) (by decide) (by decide) (by decide) (by decide) (by decide) (by decide) (by decide) (by decide) (by decide) (by decide) (by decide) (by decide)

/-- Argument 7 reaches the end as launched: no stretch writes it and no region stages it. -/
theorem W23_main_arg7 (c : Dev nD) : W23 m ρ c (Proc.devRef .tc main_arg7) = m ((c : Thread nD τ).loc main_arg7) :=
  W23_of_kept m ρ c main_arg7 (by decide) (by decide) (by decide) (by decide) (by decide) (by decide) (by decide) (by decide) (by decide) (by decide) (by decide) (by decide) (by decide) (by decide) (by decide) (by decide) (by decide) (by decide) (by decide) (by decide) (by decide) (by decide) (by decide)

/-- Argument 8 reaches the end as launched: no stretch writes it and no region stages it. -/
theorem W23_main_arg8 (c : Dev nD) : W23 m ρ c (Proc.devRef .tc main_arg8) = m ((c : Thread nD τ).loc main_arg8) :=
  W23_of_kept m ρ c main_arg8 (by decide) (by decide) (by decide) (by decide) (by decide) (by decide) (by decide) (by decide) (by decide) (by decide) (by decide) (by decide) (by decide) (by decide) (by decide) (by decide) (by decide) (by decide) (by decide) (by decide) (by decide) (by decide) (by decide)

/-- Argument 9 reaches the end as launched: no stretch writes it and no region stages it. -/
theorem W23_main_arg9 (c : Dev nD) : W23 m ρ c (Proc.devRef .tc main_arg9) = m ((c : Thread nD τ).loc main_arg9) :=
  W23_of_kept m ρ c main_arg9 (by decide) (by decide) (by decide) (by decide) (by decide) (by decide) (by decide) (by decide) (by decide) (by decide) (by decide) (by decide) (by decide) (by decide) (by decide) (by decide) (by decide) (by decide) (by decide) (by decide) (by decide) (by decide) (by decide)

/-- Argument 10 reaches the end as launched: no stretch writes it and no region stages it. -/
theorem W23_main_arg10 (c : Dev nD) : W23 m ρ c (Proc.devRef .tc main_arg10) = m ((c : Thread nD τ).loc main_arg10) :=
  W23_of_kept m ρ c main_arg10 (by decide) (by decide) (by decide) (by decide) (by decide) (by decide) (by decide) (by decide) (by decide) (by decide) (by decide) (by decide) (by decide) (by decide) (by decide) (by decide) (by decide) (by decide) (by decide) (by decide) (by decide) (by decide) (by decide)

/-- Argument 11 reaches the end as launched: no stretch writes it and no region stages it. -/
theorem W23_main_arg11 (c : Dev nD) : W23 m ρ c (Proc.devRef .tc main_arg11) = m ((c : Thread nD τ).loc main_arg11) :=
  W23_of_kept m ρ c main_arg11 (by decide) (by decide) (by decide) (by decide) (by decide) (by decide) (by decide) (by decide) (by decide) (by decide) (by decide) (by decide) (by decide) (by decide) (by decide) (by decide) (by decide) (by decide) (by decide) (by decide) (by decide) (by decide) (by decide)

/-! # The thread state between items, and the stretches as segments -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and the record that the core owes nothing. -/
abbrev R (c : Dev nD) : sProp 𝕄 := iprop((∃ r, prngReg c r) ∗ ∃ W, owes (c : Thread nD τ) (0 : CellTallies nD τ sig Unit) W)
/-- A stretch of host operations as a segment: from every unscoped buffer at the contents `W`, to those buffers at
    the contents the operations leave, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the last boundary's
    contents, the generator register at some state. -/
abbrev Tₙ (c : Dev nD) : sProp 𝕄 := iprop(StableHlo.held (c : Thread nD τ) (Pipeline.ucRefs τ sig) (W23 m ρ c) ∗ ∃ r, prngReg c r)

/-- The last stretch leaves the last thread state beside the record of owing nothing (a regrouping). -/
theorem last_state (c : Dev nD) :
    iprop(StableHlo.held (c : Thread nD τ) (Pipeline.ucRefs τ sig) (W23 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! # The proof data family -/

/-- Every pipeline's proof data, each at its region's entry contents: a literal case split on the pipeline's number,
    so that the family at a numeral reduces to that region's data. -/
def pdats : (p : Fin 10) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c

end Cert.Kernel.Hand

end
-- ==== Proof.K.RunRegs.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import proofs.«162849_j29643864277577_1_alg».proof.Proof.Gen.Kernel.Regions
import proofs.«162849_j29643864277577_1_alg».proof.Proof.K.RunFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A region's plain invariant, in and out

The plain region invariant is "every scoped buffer that is no staging buffer at some contents, and the generator
register at some state". At a region's entry it is made from the generator register the thread state carries and
the scoped rest the launch hands over (the prefetched tables, of which these kernels have none, are dropped); at
the exit it is taken apart again. -/

theorem ΦA_in {gr W : ℕ} (win : Fin W → Pipeline.WinSpec sig gr) (c : Dev nD) (A : sProp 𝕄) :
    iprop((∃ r, prngReg c r) ∗ A ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp

theorem ΦA_out {gr W : ℕ} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

-- applying a library lemma stated over the pinned configuration unifies with the printed one only when unification may
-- unfold plain definitions in a metavariable's type
set_option backward.isDefEq.respectTransparency.types false in
/-- REGION 0 (the linear layer with its column statistics, layer 0) over the thread state: entered from every unscoped
    buffer at `W1`, left at `W2`. Its arrays are split out of the unscoped buffers and put back at the exit contents;
    the generator register goes into the region's invariant and comes back; nothing is owed; the kernel has no
    semaphore of its own. The invariant carries the two running sums between points: it starts from and ends in the
    plain invariant by the region's two bridging entailments. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec0 c _).trans (hin0 (V1 m ρ) c)
  hout c := by
    rw [Pipeline.ownSems0_none]
    exact (hout0 (V1 m ρ) c).trans (ΦA_out spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 1 (the normalisation and rectifier, layer 0) over the thread state: entered from every unscoped
    buffer at `W3`, left at `W4`. Its arrays are split out of the unscoped buffers and put back at the exit contents;
    the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact ΦA_in spec1 c _
  hout c := by
    rw [Pipeline.ownSems0_none, show (pdats m ρ 1 c).Φ (Fin.last _) = Pipeline.ΦA spec1 c from rfl]
    exact ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 2 (the linear layer with its column statistics, layer 1) over the thread state: entered from every unscoped
    buffer at `W5`, left at `W6`. Its arrays are split out of the unscoped buffers and put back at the exit contents;
    the generator register goes into the region's invariant and comes back; nothing is owed; the kernel has no
    semaphore of its own. The invariant carries the two running sums between points: it starts from and ends in the
    plain invariant by the region's two bridging entailments. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec2 c _).trans (hin2 (V5 m ρ) c)
  hout c := by
    rw [Pipeline.ownSems0_none]
    exact (hout2 (V5 m ρ) c).trans (ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 3 (the normalisation and rectifier, layer 1) over the thread state: entered from every unscoped
    buffer at `W7`, left at `W8`. Its arrays are split out of the unscoped buffers and put back at the exit contents;
    the generator register goes into the region's invariant and comes back; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    exact ΦA_in spec3 c _
  hout c := by
    rw [Pipeline.ownSems0_none, show (pdats m ρ 3 c).Φ (Fin.last _) = Pipeline.ΦA spec3 c from rfl]
    exact ΦA_out spec3 c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 4 (the linear layer with its column statistics, layer 2) over the thread state: entered from every unscoped
    buffer at `W9`, left at `W10`. Its arrays are split out of the unscoped buffers and put back at the exit contents;
    the generator register goes into the region's invariant and comes back; nothing is owed; the kernel has no
    semaphore of its own. The invariant carries the two running sums between points: it starts from and ends in the
    plain invariant by the region's two bridging entailments. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec4 c _).trans (hin4 (V9 m ρ) c)
  hout c := by
    rw [Pipeline.ownSems0_none]
    exact (hout4 (V9 m ρ) c).trans (ΦA_out spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 5 (the normalisation and rectifier, layer 2) over the thread state: entered from every unscoped
    buffer at `W11`, left at `W12`. Its arrays are split out of the unscoped buffers and put back at the exit contents;
    the generator register goes into the region's invariant and comes back; nothing is owed; the kernel has no
    semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]
    exact ΦA_in spec5 c _
  hout c := by
    rw [Pipeline.ownSems0_none, show (pdats m ρ 5 c).Φ (Fin.last _) = Pipeline.ΦA spec5 c from rfl]
    exact ΦA_out spec5 c
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 6 (the linear layer with its column statistics, layer 3) over the thread state: entered from every unscoped
    buffer at `W13`, left at `W14`. Its arrays are split out of the unscoped buffers and put back at the exit contents;
    the generator register goes into the region's invariant and comes back; nothing is owed; the kernel has no
    semaphore of its own. The invariant carries the two running sums between points: it starts from and ends in the
    plain invariant by the region's two bridging entailments. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec6 c _).trans (hin6 (V13 m ρ) c)
  hout c := by
    rw [Pipeline.ownSems0_none]
    exact (hout6 (V13 m ρ) c).trans (ΦA_out spec6 c)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 7 (the normalisation and rectifier, layer 3) over the thread state: entered from every unscoped
    buffer at `W15`, left at `W16`. Its arrays are split out of the unscoped buffers and put back at the exit contents;
    the generator register goes into the region's invariant and comes back; nothing is owed; the kernel has no
    semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]
    exact ΦA_in spec7 c _
  hout c := by
    rw [Pipeline.ownSems0_none, show (pdats m ρ 7 c).Φ (Fin.last _) = Pipeline.ΦA spec7 c from rfl]
    exact ΦA_out spec7 c
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 8 (the linear layer with its column statistics, layer 4) over the thread state: entered from every unscoped
    buffer at `W17`, left at `W18`. Its arrays are split out of the unscoped buffers and put back at the exit contents;
    the generator register goes into the region's invariant and comes back; nothing is owed; the kernel has no
    semaphore of its own. The invariant carries the two running sums between points: it starts from and ends in the
    plain invariant by the region's two bridging entailments. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (ΦA_in spec8 c _).trans (hin8 (V17 m ρ) c)
  hout c := by
    rw [Pipeline.ownSems0_none]
    exact (hout8 (V17 m ρ) c).trans (ΦA_out spec8 c)
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- REGION 9 (the normalisation and rectifier, layer 4) over the thread state: entered from every unscoped
    buffer at `W19`, left at `W20`. Its arrays are split out of the unscoped buffers and put back at the exit contents;
    the generator register goes into the region's invariant and comes back; nothing is owed; the kernel has no
    semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]
    exact ΦA_in spec9 c _
  hout c := by
    rw [Pipeline.ownSems0_none, show (pdats m ρ 9 c).Φ (Fin.last _) = Pipeline.ΦA spec9 c from rfl]
    exact ΦA_out spec9 c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«162849_j29643864277577_1_alg».proof.Proof.Gen.Kernel.Launch
import proofs.«162849_j29643864277577_1_alg».proof.Proof.Gen.Kernel.Skeleton
import proofs.«162849_j29643864277577_1_alg».proof.Proof.Gen.Kernel.Points
import proofs.«162849_j29643864277577_1_alg».proof.Proof.Gen.Kernel.Regions
import proofs.«162849_j29643864277577_1_alg».proof.Proof.K.RunRegs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program as segments, and the run -/

/-- The program's 23 items in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .host (hseg hostOps10_1 hostOps10_1_sub hostOps10_1_fresh (W21 m ρ)),
    .host (hseg hostOps10_2 hostOps10_2_sub hostOps10_2_fresh (W22 m ρ)) ]

-- the launch theorem's implicit arguments are found by unifying its conclusion with this one, which takes unfolding
-- plain definitions in a metavariable's type
set_option backward.isDefEq.respectTransparency.types false in
/-- THE RUN. At the compiled mesh, from any memory with zero counters, every weakly fair execution of the program on
    the TensorCores terminates, nothing faulting, and in every final state each core's every unscoped buffer holds
    the last boundary's contents `W23`: the several-regions launch over the 23 segments, whose thread states chain
    by construction (each item is entered from the contents the one before leaves), the last thread state read
    against the final memory. -/
theorem run_all : θ_run defs (onTc (τ := τ) (main (F := F))) ⟨m, fun _ => 0, ρ⟩
    (fun r => ∀ c : Dev nD, ∀ b ∈ Pipeline.ucRefs τ sig, r.2.mem ((c : Thread nD τ).1, b) = W23 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c => h c)

end Cert.Kernel.Hand

end
-- ==== Proof.Math.Spec.lean ====
/-
  The common specification of one GraphConv + BatchNorm + ReLU layer, index by index on the extended reals.

  Rows are nodes (50000 of them), columns are features (128). With `agg` the aggregated messages and `h` the
  node features, the linear part of the layer is

      lin i j = ((∑ k, agg i k · Wr k j) + br j) + (∑ k, h i k · Wo k j) + bo j ,

  its column mean is `(∑ i, lin i j) / 50000`, and the batch variance is written in the two textbook forms

      varSq   j = (∑ i, lin i j · lin i j) / 50000 − mean j · mean j          (mean of squares minus squared mean)
      varCtr  j = (∑ i, (lin i j − mean j) · (lin i j − mean j)) / 50000        (mean of centred squares) ,

  which agree whenever every `lin i j` is a real number. The normalised, rectified output is

      bn i j = max ((γ j · (x i j − μ j)) · rsqrt (v j + ε) + β j) 0 .

  The two float literals are kept as the words the programs print: 50000 as 0x47435000 and ε as 0x3727C5AC.
-/
import Idealize.ShloMosaic.PureOps.Ideal

noncomputable section

namespace Cert.Spec

open Idealize.ShloMosaic

/-- The number of nodes and of features. -/
abbrev nN : ℕ := 50000
abbrev nD : ℕ := 128

/-- A node-by-feature matrix, a feature-by-feature matrix, a feature vector, on the extended reals. -/
abbrev Mat := Fin nN → Fin nD → EReal
abbrev Wt := Fin nD → Fin nD → EReal
abbrev Row := Fin nD → EReal

/-- The literal 50000.0 and the batch-norm epsilon, as the extended reals their f32 words denote. -/
def cN : EReal := Ideal.ofBits .f32 0x47435000#32
def cEps : EReal := Ideal.ofBits .f32 0x3727C5AC#32

/-- The linear part of the layer, in the order both programs add its four terms. -/
def lin (agg h : Mat) (Wr Wo : Wt) (br bo : Row) : Mat :=
  fun i j => (((∑ k, agg i k * Wr k j) + br j) + (∑ k, h i k * Wo k j)) + bo j

/-- The column mean. -/
def colMean (x : Mat) : Row := fun j => Ideal.div (∑ i, x i j) cN

/-- The variance as the mean of squares minus the squared mean. -/
def varSq (x : Mat) : Row := fun j => Ideal.div (∑ i, x i j * x i j) cN - colMean x j * colMean x j

/-- The variance as the mean of centred squares. -/
def varCtr (x : Mat) : Row := fun j => Ideal.div (∑ i, (x i j - colMean x j) * (x i j - colMean x j)) cN

/-- Normalise by a mean and a variance, scale and shift, rectify. -/
def bn (x : Mat) (mu v g b : Row) : Mat :=
  fun i j => max (((g j * (x i j - mu j)) * Ideal.rsqrt (v j + cEps)) + b j) 0

/-- One layer with the variance in the mean-of-squares form, and with it in the centred form. -/
def layerSq (agg h : Mat) (Wr Wo : Wt) (br bo g b : Row) : Mat :=
  bn (lin agg h Wr Wo br bo) (colMean (lin agg h Wr Wo br bo)) (varSq (lin agg h Wr Wo br bo)) g b
def layerCtr (agg h : Mat) (Wr Wo : Wt) (br bo g b : Row) : Mat :=
  bn (lin agg h Wr Wo br bo) (colMean (lin agg h Wr Wo br bo)) (varCtr (lin agg h Wr Wo br bo)) g b

/-- Every entry is a real number. -/
def MatFinite (x : Mat) : Prop := ∀ i j, ∃ r : ℝ, x i j = (r : EReal)
def WtFinite (x : Wt) : Prop := ∀ i j, ∃ r : ℝ, x i j = (r : EReal)
def RowFinite (x : Row) : Prop := ∀ j, ∃ r : ℝ, x j = (r : EReal)

end Cert.Spec

end
-- ==== Proof.Math.Algebra.lean ====
/-
  The mathematics of one GraphConv + BatchNorm + ReLU layer on the extended reals, over the definitions of the
  specification.

  Everything here rests on one remark: when every input is a real number, every quantity of the layer is a real
  number, because sums, products, differences, the division by 50000 and the reciprocal square root of a
  positive number keep us inside the reals. On the reals the two textbook forms of the variance agree,

      (∑ (x i − μ)²) / N  =  (∑ x i²) / N − μ²     with  μ = (∑ x i) / N ,

  and the centred form is visibly a sum of squares, hence nonnegative, so that adding the positive ε keeps the
  argument of the reciprocal square root strictly positive.

  The two float words are read off first: 0x47435000 is (2²³ + 4411392) · 2⁻⁸ = 50000 and 0x3727C5AC is
  (2²³ + 2606508) · 2⁻⁴⁰ = 10995116 · 2⁻⁴⁰, a positive number close to 10⁻⁵.
-/
import proofs.«162849_j29643864277577_1_alg».proof.Proof.Math.Spec
import Idealize.ShloMosaic.PureOps.Ideal
import Idealize.ShloMosaic.PureOps.Ideal.Laws
import Mathlib.Data.EReal.Basic
import Mathlib.Data.EReal.Operations
import Mathlib.Algebra.BigOperators.Group.Finset.Basic
import Mathlib.Data.Fintype.BigOperators
import Mathlib.Logic.Equiv.Fin.Basic
import Mathlib.Tactic.Ring
import Mathlib.Tactic.LinearCombination
import Mathlib.Tactic.NormNum
import Mathlib.Tactic.Positivity

noncomputable section

namespace Cert.Spec

open Idealize.ShloMosaic

/-! ### The two literals -/

/-- The word 0x47435000 has exponent field 142 and fraction 4411392: (2²³ + 4411392) · 2^(142 − 150) = 50000. -/
theorem cN_eq : cN = ((50000 : ℝ) : EReal) := by
  simp [cN, Ideal.ofBits, Ideal.ieee, -EReal.coe_mul]; norm_num

/-- The word 0x3727C5AC has exponent field 110 and fraction 2606508: it denotes 10995116 · 2⁻⁴⁰, which is positive. -/
theorem cEps_pos : ∃ e : ℝ, 0 < e ∧ cEps = (e : EReal) := by
  refine ⟨(10995116 : ℝ) * (2 : ℝ) ^ (-40 : ℤ), by positivity, ?_⟩
  simp [cEps, Ideal.ofBits, Ideal.ieee, -EReal.coe_mul]

/-- Dividing by the literal 50000 is multiplying by the real 1/50000, whatever the dividend. -/
theorem div_cN (x : EReal) : Ideal.div x cN = x * (((1 / 50000 : ℝ) : ℝ) : EReal) := by
  rw [cN_eq]; exact Ideal.div_coe (by norm_num) x

/-! ### Real-valued families inside the extended reals -/

/-- A family of extended reals each of which is a real number is the image of a family of real numbers. -/
theorem exists_real_fun {ι : Type*} (f : ι → EReal) (h : ∀ i, ∃ r : ℝ, f i = (r : EReal)) :
    ∃ g : ι → ℝ, f = fun i => ((g i : ℝ) : EReal) := by
  choose g hg using h
  exact ⟨g, funext hg⟩

/-- The same for a family with two indices. -/
theorem exists_real_fun₂ {ι κ : Type*} (f : ι → κ → EReal) (h : ∀ i j, ∃ r : ℝ, f i j = (r : EReal)) :
    ∃ g : ι → κ → ℝ, f = fun i j => ((g i j : ℝ) : EReal) := by
  choose g hg using h
  exact ⟨g, funext fun i => funext fun j => hg i j⟩

/-- A finite sum of real numbers, taken in the extended reals, is the real sum: add one term at a time. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of a real number and zero is a real number. -/
theorem max_coe_zero (a : ℝ) : max (a : EReal) 0 = ((max a 0 : ℝ) : EReal) := by
  rcases le_total a 0 with h | h
  · rw [max_eq_right h, max_eq_right (by exact_mod_cast h)]; rfl
  · rw [max_eq_left h, max_eq_left (by exact_mod_cast h)]

/-- The reciprocal square root of a positive real number is the real number 1/√r. -/
theorem rsqrt_pos_real {r : ℝ} (hr : 0 < r) : Ideal.rsqrt (r : EReal) = (((Real.sqrt r)⁻¹ : ℝ) : EReal) := by
  rw [Ideal.rsqrt_coe, if_neg (not_lt.2 hr.le), if_neg hr.ne']

/-! ### The variance identity on the reals -/

/-- With c = 1/n and μ = c · ∑ f, expanding the square gives
    ∑ (f i − μ)² = ∑ f i² − 2 μ ∑ f + n μ², and n c = 1 turns c times this into c ∑ f i² − μ². -/
theorem real_variance {n : ℕ} (f : Fin n → ℝ) (c : ℝ) (hn : (n : ℝ) * c = 1) :
    (∑ i, f i * f i) * c - ((∑ i, f i) * c) * ((∑ i, f i) * c)
      = (∑ i, (f i - (∑ i, f i) * c) * (f i - (∑ i, f i) * c)) * c := by
  have h : ∀ m : ℝ, ∑ i, (f i - m) * (f i - m) = (∑ i, f i * f i) - 2 * m * (∑ i, f i) + n * (m * m) := by
    intro m
    have e : ∀ i, (f i - m) * (f i - m) = f i * f i - 2 * m * f i + m * m := fun i => by ring
    simp only [e, Finset.sum_add_distrib, Finset.sum_sub_distrib, ← Finset.mul_sum, Finset.sum_const,
      Finset.card_univ, Fintype.card_fin, nsmul_eq_mul]
    ring
  rw [h]
  linear_combination (-((∑ i, f i) * c * ((∑ i, f i) * c))) * hn

/-! ### Mean and variance of a real matrix -/

/-- The column mean of a real matrix is the real (∑ i, g i j) / 50000. -/
theorem colMean_coe (g : Fin nN → Fin nD → ℝ) (j : Fin nD) :
    colMean (fun i j => ((g i j : ℝ) : EReal)) j = (((∑ i, g i j) * (1 / 50000) : ℝ) : EReal) := by
  simp only [colMean, div_cN, coe_sum, ← EReal.coe_mul]

/-- The mean of squares minus the squared mean, for a real matrix, as a real number. -/
theorem varSq_coe (g : Fin nN → Fin nD → ℝ) (j : Fin nD) :
    varSq (fun i j => ((g i j : ℝ) : EReal)) j
      = (((∑ i, g i j * g i j) * (1 / 50000)
          - ((∑ i, g i j) * (1 / 50000)) * ((∑ i, g i j) * (1 / 50000)) : ℝ) : EReal) := by
  simp only [varSq, colMean_coe, div_cN, ← EReal.coe_mul, coe_sum, ← EReal.coe_sub]

/-- The mean of centred squares, for a real matrix, as a real number. -/
theorem varCtr_coe (g : Fin nN → Fin nD → ℝ) (j : Fin nD) :
    varCtr (fun i j => ((g i j : ℝ) : EReal)) j
      = (((∑ i, (g i j - (∑ i, g i j) * (1 / 50000)) * (g i j - (∑ i, g i j) * (1 / 50000))) * (1 / 50000) : ℝ)
          : EReal) := by
  simp only [varCtr, colMean_coe, div_cN, ← EReal.coe_sub, ← EReal.coe_mul, coe_sum]

/-- On a matrix of real numbers the two forms of the variance agree. -/
theorem varSq_eq_varCtr (x : Mat) (hx : MatFinite x) : varSq x = varCtr x := by
  obtain ⟨g, rfl⟩ := exists_real_fun₂ x hx
  funext j
  rw [varSq_coe, varCtr_coe, real_variance (fun i => g i j) (1 / 50000) (by norm_num)]

/-- The column mean of a matrix of real numbers is a row of real numbers. -/
theorem colMean_finite {x : Mat} (hx : MatFinite x) : RowFinite (colMean x) := by
  obtain ⟨g, rfl⟩ := exists_real_fun₂ x hx
  intro j
  exact ⟨_, colMean_coe g j⟩

/-- The centred variance of a matrix of real numbers is a nonnegative real: a sum of squares over 50000. -/
theorem varCtr_nonneg {x : Mat} (hx : MatFinite x) : ∀ j, ∃ r : ℝ, 0 ≤ r ∧ varCtr x j = (r : EReal) := by
  obtain ⟨g, rfl⟩ := exists_real_fun₂ x hx
  intro j
  exact ⟨_, mul_nonneg (Finset.sum_nonneg fun i _ => mul_self_nonneg _) (by norm_num), varCtr_coe g j⟩

/-! ### The linear part -/

/-- Two matrix products of real matrices plus two real biases: every entry is a real number. -/
theorem lin_finite {agg h : Mat} {Wr Wo : Wt} {br bo : Row} (hagg : MatFinite agg) (hh : MatFinite h)
    (hWr : WtFinite Wr) (hWo : WtFinite Wo) (hbr : RowFinite br) (hbo : RowFinite bo) :
    MatFinite (lin agg h Wr Wo br bo) := by
  obtain ⟨a, rfl⟩ := exists_real_fun₂ agg hagg
  obtain ⟨x, rfl⟩ := exists_real_fun₂ h hh
  obtain ⟨wr, rfl⟩ := exists_real_fun₂ Wr hWr
  obtain ⟨wo, rfl⟩ := exists_real_fun₂ Wo hWo
  obtain ⟨cr, rfl⟩ := exists_real_fun br hbr
  obtain ⟨co, rfl⟩ := exists_real_fun bo hbo
  intro i j
  refine ⟨(((∑ k, a i k * wr k j) + cr j) + (∑ k, x i k * wo k j)) + co j, ?_⟩
  simp only [lin, ← EReal.coe_mul, coe_sum, ← EReal.coe_add]

/-! ### Normalisation -/

/-- With a real mean, a nonnegative real variance and real scale and shift, the normalised and rectified
    matrix is real: v + ε is a positive real, so its reciprocal square root is the real 1/√(v + ε). -/
theorem bn_finite {x : Mat} {mu v g b : Row} (hx : MatFinite x) (hmu : RowFinite mu)
    (hv : ∀ j, ∃ r : ℝ, 0 ≤ r ∧ v j = (r : EReal)) (hg : RowFinite g) (hb : RowFinite b) :
    MatFinite (bn x mu v g b) := by
  obtain ⟨e, he, hE⟩ := cEps_pos
  intro i j
  obtain ⟨xr, hxr⟩ := hx i j
  obtain ⟨m, hm⟩ := hmu j
  obtain ⟨r, hr, hvr⟩ := hv j
  obtain ⟨gr, hgr⟩ := hg j
  obtain ⟨bb, hbb⟩ := hb j
  have hpos : 0 < r + e := add_pos_of_nonneg_of_pos hr he
  refine ⟨max ((gr * (xr - m)) * (Real.sqrt (r + e))⁻¹ + bb) 0, ?_⟩
  simp only [bn, hxr, hm, hvr, hgr, hbb, hE, ← EReal.coe_add, rsqrt_pos_real hpos, ← EReal.coe_sub,
    ← EReal.coe_mul, max_coe_zero]

/-! ### One layer -/

/-- The layer computed with either form of the variance is the same matrix, the inputs being real. -/
theorem layerSq_eq_layerCtr {agg h : Mat} {Wr Wo : Wt} {br bo g b : Row} (hagg : MatFinite agg) (hh : MatFinite h)
    (hWr : WtFinite Wr) (hWo : WtFinite Wo) (hbr : RowFinite br) (hbo : RowFinite bo)
    (_hg : RowFinite g) (_hb : RowFinite b) :
    layerSq agg h Wr Wo br bo g b = layerCtr agg h Wr Wo br bo g b := by
  unfold layerSq layerCtr
  rw [varSq_eq_varCtr _ (lin_finite hagg hh hWr hWo hbr hbo)]

/-- The layer of real inputs is a matrix of real numbers. -/
theorem layerCtr_finite {agg h : Mat} {Wr Wo : Wt} {br bo g b : Row} (hagg : MatFinite agg) (hh : MatFinite h)
    (hWr : WtFinite Wr) (hWo : WtFinite Wo) (hbr : RowFinite br) (hbo : RowFinite bo)
    (hg : RowFinite g) (hb : RowFinite b) :
    MatFinite (layerCtr agg h Wr Wo br bo g b) :=
  have hl := lin_finite hagg hh hWr hWo hbr hbo
  bn_finite hl (colMean_finite hl) (varCtr_nonneg hl) hg hb

/-! ### Summing 50000 rows as 10 tiles of 5000 -/

/-- A sum over m · n indices is the sum over m blocks of the sums over the n indices t · n + r of each block:
    (t, r) ↦ t · n + r is a bijection from pairs onto the indices below m · n. -/
theorem sum_fin_mul_gen {M : Type*} [AddCommMonoid M] (m n : ℕ) (f : Fin (m * n) → M) :
    ∑ i, f i = ∑ t : Fin m, ∑ r : Fin n,
      f ⟨t.val * n + r.val, Nat.lt_of_lt_of_le (Nat.add_lt_add_left r.isLt _)
        (by rw [← Nat.succ_mul]; exact Nat.mul_le_mul_right _ t.isLt)⟩ := by
  rw [← Fintype.sum_prod_type' (fun (t : Fin m) (r : Fin n) => f ⟨t.val * n + r.val,
    Nat.lt_of_lt_of_le (Nat.add_lt_add_left r.isLt _) (by rw [← Nat.succ_mul]; exact Nat.mul_le_mul_right _ t.isLt)⟩)]
  refine (Fintype.sum_equiv finProdFinEquiv _ _ fun p => ?_).symm
  exact congrArg f (Fin.ext (by simp [finProdFinEquiv, Nat.mul_comm, Nat.add_comm]))

/-- The 50000 rows are 10 tiles of 5000 rows: row t · 5000 + r is row r of tile t. -/
theorem sum_fin_mul (f : Fin (10 * 5000) → EReal) :
    ∑ i, f i = ∑ t : Fin 10, ∑ r : Fin 5000,
      f ⟨t.val * 5000 + r.val, Nat.lt_of_lt_of_le (Nat.add_lt_add_left r.isLt _)
        (by rw [← Nat.succ_mul]; exact Nat.mul_le_mul_right _ t.isLt)⟩ :=
  sum_fin_mul_gen 10 5000 f

/-- The same with the row count written 50000. -/
theorem sum_rows_tiles (f : Fin nN → EReal) :
    ∑ i, f i = ∑ t : Fin 10, ∑ r : Fin 5000,
      f ⟨t.val * 5000 + r.val, Nat.lt_of_lt_of_le (Nat.add_lt_add_left r.isLt _)
        (by rw [← Nat.succ_mul]; exact Nat.mul_le_mul_right _ t.isLt)⟩ :=
  sum_fin_mul_gen 10 5000 f

end Cert.Spec

end
-- ==== Proof.Math.Layers.lean ====
/-
  From arrays indexed by a shape to the matrices, weight matrices and rows of the specification, and the one
  statement about a layer that an induction over the layers uses.

  An array over the two-axis shape [n0, n1] is a function of the pair of coordinates: two such arrays that agree
  at every pair (i, j) are equal, and "every element is a real number" says the same thing about the array and
  about the matrix (i, j) ↦ a[i, j]. A one-row array [1, n] and a vector [n] are both rows j ↦ a[0, j], j ↦ a[j].

  The step of the induction: real inputs to a layer give the same output whichever form of the variance is used,
  and that output is again real.
-/
import proofs.«162849_j29643864277577_1_alg».proof.Proof.Math.Spec
import proofs.«162849_j29643864277577_1_alg».proof.Proof.Math.Algebra
import Idealize.ShloMosaic.PureOps.Ideal
import Idealize.ShloMosaic.Lib.ValueIdx

noncomputable section

namespace Cert.Spec

open Idealize.ShloMosaic Idealize.ShloMosaic.ValueIdx

/-! ### Arrays on a two-axis shape are functions of two coordinates -/

/-- Two arrays over [n0, n1] that agree at every pair of coordinates are equal: every index is such a pair. -/
theorem ext_ix2 {n0 n1 : ℕ} {α : Sort*} {a b : (⟨2, ![n0, n1]⟩ : Shape).Idx → α}
    (h : ∀ (i : Fin n0) (j : Fin n1), a (ix2 i j) = b (ix2 i j)) : a = b := by
  funext idx
  rw [eq_ix2 idx]
  exact h _ _

/-- Two vectors over [n] that agree at every coordinate are equal. -/
theorem ext_ix1 {n : ℕ} {α : Sort*} {a b : (⟨1, ![n]⟩ : Shape).Idx → α}
    (h : ∀ j : Fin n, a (ix1 j) = b (ix1 j)) : a = b := by
  funext idx
  rw [eq_ix1 idx]
  exact h _

/-- A property of every pair of coordinates is a property of every index of [n0, n1]. -/
theorem forall_idx2 {n0 n1 : ℕ} {p : (⟨2, ![n0, n1]⟩ : Shape).Idx → Prop} :
    (∀ idx, p idx) ↔ ∀ (i : Fin n0) (j : Fin n1), p (ix2 i j) :=
  ⟨fun h i j => h _, fun h idx => by rw [eq_ix2 idx]; exact h _ _⟩

/-- A property of every coordinate is a property of every index of [n]. -/
theorem forall_idx1 {n : ℕ} {p : (⟨1, ![n]⟩ : Shape).Idx → Prop} :
    (∀ idx, p idx) ↔ ∀ j : Fin n, p (ix1 j) :=
  ⟨fun h j => h _, fun h idx => by rw [eq_ix1 idx]; exact h _⟩

/-! ### "Every element is real", for an array and for the matrix of its elements -/

/-- A [50000, 128] array of real numbers is a real node-by-feature matrix, and conversely. -/
theorem matFinite_iff (a : (⟨2, ![50000, 128]⟩ : Shape).Idx → EReal) :
    MatFinite (fun (i : Fin 50000) (k : Fin 128) => a (ix2 i k)) ↔ ∀ idx, ∃ r : ℝ, a idx = (r : EReal) :=
  (forall_idx2 (p := fun idx => ∃ r : ℝ, a idx = (r : EReal))).symm

theorem matFinite_of_array {a : (⟨2, ![50000, 128]⟩ : Shape).Idx → EReal}
    (h : ∀ idx, ∃ r : ℝ, a idx = (r : EReal)) :
    MatFinite (fun (i : Fin 50000) (k : Fin 128) => a (ix2 i k)) := (matFinite_iff a).2 h

theorem array_of_matFinite {a : (⟨2, ![50000, 128]⟩ : Shape).Idx → EReal}
    (h : MatFinite (fun (i : Fin 50000) (k : Fin 128) => a (ix2 i k))) :
    ∀ idx, ∃ r : ℝ, a idx = (r : EReal) := (matFinite_iff a).1 h

/-- An array whose element at (i, j) is the entry (i, j) of a real matrix is an array of real numbers. -/
theorem array_finite_of_eq_mat {a : (⟨2, ![50000, 128]⟩ : Shape).Idx → EReal} {M : Mat}
    (h : ∀ (i : Fin 50000) (j : Fin 128), a (ix2 i j) = M i j) (hM : MatFinite M) :
    ∀ idx, ∃ r : ℝ, a idx = (r : EReal) :=
  array_of_matFinite fun i j => by
    obtain ⟨r, hr⟩ := hM i j
    exact ⟨r, (h i j).trans hr⟩

/-- A [128, 128] array of real numbers is a real feature-by-feature matrix, and conversely. -/
theorem wtFinite_iff (a : (⟨2, ![128, 128]⟩ : Shape).Idx → EReal) :
    WtFinite (fun (i : Fin 128) (k : Fin 128) => a (ix2 i k)) ↔ ∀ idx, ∃ r : ℝ, a idx = (r : EReal) :=
  (forall_idx2 (p := fun idx => ∃ r : ℝ, a idx = (r : EReal))).symm

theorem wtFinite_of_array {a : (⟨2, ![128, 128]⟩ : Shape).Idx → EReal}
    (h : ∀ idx, ∃ r : ℝ, a idx = (r : EReal)) :
    WtFinite (fun (i : Fin 128) (k : Fin 128) => a (ix2 i k)) := (wtFinite_iff a).2 h

theorem array_of_wtFinite {a : (⟨2, ![128, 128]⟩ : Shape).Idx → EReal}
    (h : WtFinite (fun (i : Fin 128) (k : Fin 128) => a (ix2 i k))) :
    ∀ idx, ∃ r : ℝ, a idx = (r : EReal) := (wtFinite_iff a).1 h

/-- A one-row [1, 128] array of real numbers is a real row, and conversely: its only row is row 0. -/
theorem rowFinite_iff_row (a : (⟨2, ![1, 128]⟩ : Shape).Idx → EReal) :
    RowFinite (fun (j : Fin 128) => a (ix2 (0 : Fin 1) j)) ↔ ∀ idx, ∃ r : ℝ, a idx = (r : EReal) := by
  rw [forall_idx2 (p := fun idx => ∃ r : ℝ, a idx = (r : EReal))]
  constructor
  · intro h i j
    have hi : i = 0 := Subsingleton.elim _ _
    subst hi
    exact h j
  · intro h j
    exact h 0 j

theorem rowFinite_of_row {a : (⟨2, ![1, 128]⟩ : Shape).Idx → EReal}
    (h : ∀ idx, ∃ r : ℝ, a idx = (r : EReal)) :
    RowFinite (fun (j : Fin 128) => a (ix2 (0 : Fin 1) j)) := (rowFinite_iff_row a).2 h

theorem row_of_rowFinite {a : (⟨2, ![1, 128]⟩ : Shape).Idx → EReal}
    (h : RowFinite (fun (j : Fin 128) => a (ix2 (0 : Fin 1) j))) :
    ∀ idx, ∃ r : ℝ, a idx = (r : EReal) := (rowFinite_iff_row a).1 h

/-- A [128] vector of real numbers is a real row, and conversely. -/
theorem rowFinite_iff_vec (a : (⟨1, ![128]⟩ : Shape).Idx → EReal) :
    RowFinite (fun (j : Fin 128) => a (ix1 j)) ↔ ∀ idx, ∃ r : ℝ, a idx = (r : EReal) :=
  (forall_idx1 (p := fun idx => ∃ r : ℝ, a idx = (r : EReal))).symm

theorem rowFinite_of_vec {a : (⟨1, ![128]⟩ : Shape).Idx → EReal}
    (h : ∀ idx, ∃ r : ℝ, a idx = (r : EReal)) :
    RowFinite (fun (j : Fin 128) => a (ix1 j)) := (rowFinite_iff_vec a).2 h

theorem vec_of_rowFinite {a : (⟨1, ![128]⟩ : Shape).Idx → EReal}
    (h : RowFinite (fun (j : Fin 128) => a (ix1 j))) :
    ∀ idx, ∃ r : ℝ, a idx = (r : EReal) := (rowFinite_iff_vec a).1 h

/-! ### One step of the induction over the layers -/

/-- Real inputs to a layer: the two forms of the variance give the same output, and that output is real. -/
theorem layer_step {agg h : Mat} {Wr Wo : Wt} {br bo g b : Row} (hagg : MatFinite agg) (hh : MatFinite h)
    (hWr : WtFinite Wr) (hWo : WtFinite Wo) (hbr : RowFinite br) (hbo : RowFinite bo)
    (hg : RowFinite g) (hb : RowFinite b) :
    layerSq agg h Wr Wo br bo g b = layerCtr agg h Wr Wo br bo g b
      ∧ MatFinite (layerSq agg h Wr Wo br bo g b) := by
  have e := layerSq_eq_layerCtr hagg hh hWr hWo hbr hbo hg hb
  exact ⟨e, e ▸ layerCtr_finite hagg hh hWr hWo hbr hbo hg hb⟩

end Cert.Spec

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.Math.HostFinite.lean ====
/-
  The host glue of one graph-convolution layer keeps every entry a real number.

  Between two kernel calls each layer computes, from the node features `h` (50000 × 128), the edge weights `ea`
  (600000), the edge sources `src` and targets `dst` (600000 index words each),

      agg = scatter-add into zeros, at the rows dst, of  h[src'] · ea        (src' = src, or src + 50000 where src < 0),

  every step a re-indexing (gather, broadcast), an entrywise product, the constant 0, or a finite sum:

    * a gather reads each result entry off ONE operand entry, so a real operand gives real entries, whatever the
      index words are (out-of-range words are clamped to a row that exists);
    * a broadcast reads each result entry off one operand entry;
    * a product of two real numbers is a real number; the constant 0 is a real number;
    * an accumulating scatter at an entry is the operand's entry plus the sum of the finitely many updates that land
      there, and a finite sum of real numbers is a real number (induction on the finite set).

  `aggOf` is the chain written with the same operations, in the same order, as both programs print it for each of their
  five layers, so each program's aggregated-message array IS `aggOf h ea src dst`; `aggOf_finite` is the composition.
  Last, the bridges between "every entry of an array is real" and the specification's `MatFinite` / `WtFinite` /
  `RowFinite`, through the coordinates of an index.
-/
import proofs.«162849_j29643864277577_1_alg».proof.KernelIdeal
import proofs.«162849_j29643864277577_1_alg».proof.ReferenceIdeal
import proofs.«162849_j29643864277577_1_alg».proof.Proof.LibGatherScatter
import proofs.«162849_j29643864277577_1_alg».proof.Proof.Math.Spec
import Idealize.ShloMosaic.PureOps.Ideal.Laws
import Idealize.ShloMosaic.Lib.ValueIdx

open scoped BigOperators

noncomputable section

namespace Cert.Proof.HostFinite

open Idealize.ShloMosaic Idealize.ShloMosaic.ValueIdx
open Cert.KernelIdeal (S50000x128 S600000 S600000x1 S600000x128 S128x128 S128 S_)

/-! ## "Every entry is a real number" -/

/-- Every entry of an array on the extended reals is a real number. -/
def ArrFinite {S : Shape} (a : S.Idx → EReal) : Prop := ∀ i, ∃ r : ℝ, a i = (r : EReal)

/-- A finite sum of real numbers is a real number: the empty sum is 0; one more real summand adds a real. -/
theorem sum_real {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by simp⟩
  | insert a s ha ih =>
    obtain ⟨ra, hra⟩ := hf a (Finset.mem_insert_self a s)
    obtain ⟨rs, hrs⟩ := ih (fun j hj => hf j (Finset.mem_insert_of_mem hj))
    exact ⟨ra + rs, by rw [Finset.sum_insert ha, hra, hrs, EReal.coe_add]⟩

/-! ## The operations, one by one (any shapes, any dimension numbers, any index words) -/

section Ops
variable {s si t u : Shape} {w : Nat}

/-- A gather's result entry is one operand entry. -/
theorem gather_finite (d : GatherDims s si t) (h : s.Idx → EReal) (idx : IVec si w) (hh : ArrFinite h) :
    ArrFinite (Host.gather d h idx) :=
  fun j => hh (d.operandIdx j idx)

/-- A broadcast's result entry is one operand entry. -/
theorem broadcastInDim_finite (dims : Fin s.rank → Fin t.rank) (hb : s.BroadcastsInDim t dims) (x : s.Idx → EReal)
    (hx : ArrFinite x) : ArrFinite (broadcastInDim t dims hb x) :=
  fun _ => hx _

/-- The entrywise product of two arrays of reals is an array of reals. -/
theorem mulf_finite (a b : FVec Ideal s .f32) (ha : ArrFinite a) (hb : ArrFinite b) : ArrFinite (mulf a b) := by
  intro i
  obtain ⟨ra, hra⟩ := ha i
  obtain ⟨rb, hrb⟩ := hb i
  exact ⟨ra * rb, by rw [mulf_apply, hra, hrb, EReal.coe_mul]⟩

/-- The constant 0 is an array of reals. -/
theorem constant_zero_finite : ArrFinite (constant (F := Ideal) s .f32 0x00000000#32) :=
  fun i => ⟨0, by rw [constant_apply, Ideal.ofBits_zero_f32, EReal.coe_zero]⟩

/-- An accumulating scatter of reals into reals gives reals: each entry is the operand's plus the sum of the updates
    that land on it. -/
theorem scatterAdd_finite (d : ScatterDims s si u) (x : FVec Ideal s .f32) (idx : IVec si w) (upd : FVec Ideal u .f32)
    (hx : ArrFinite x) (hu : ArrFinite upd) : ArrFinite (Host.scatterAdd d x idx upd) := by
  classical
  intro i
  obtain ⟨rx, hrx⟩ := hx i
  obtain ⟨rs, hrs⟩ := sum_real (Finset.univ.filter (fun j => d.resultIdx? j idx = some i)) upd (fun j _ => hu j)
  refine ⟨rx + rs, ?_⟩
  show x i + ∑ j ∈ Finset.univ.filter (fun j => d.resultIdx? j idx = some i), upd j = _
  rw [hrx, hrs, EReal.coe_add]

end Ops

/-! ## The programs' dimension numbers and shape facts -/

theorem wfG : GatherDims.WF S50000x128 S600000x1 S600000x128 [1] [0] [] [0] [] 1 ![1, 128] := by decide
theorem wfS : ScatterDims.WF S50000x128 S600000x1 S600000x128 [1] [0] [0] 1 := by decide
theorem bcI : S_.BroadcastsInDim S600000 (![] : Fin 0 → Fin S600000.rank) := by decide
theorem bcCol : S600000.BroadcastsInDim S600000x1 (![0] : Fin 1 → Fin S600000x1.rank) := by decide
theorem bcRow : S600000x1.BroadcastsInDim S600000x128 (![0, 1] : Fin 2 → Fin S600000x128.rank) := by decide
theorem bcZ : S_.BroadcastsInDim S50000x128 (![] : Fin 0 → Fin S50000x128.rank) := by decide

/-- The row gather's and the row scatter's dimension numbers, as the general lemma file writes them. -/
abbrev gd : GatherDims S50000x128 S600000x1 S600000x128 := GS.gathD 50000 600000 128 wfG
abbrev sd : ScatterDims S50000x128 S600000x1 S600000x128 := GS.scatD 50000 600000 128 wfS

/-- Each program's own records are these (the same fields; the well-formedness proofs are proofs of one proposition). -/
theorem ki_gather_eq [Cert.KernelIdeal.Facts₀] :
    Cert.KernelIdeal.gather_S50000x128_S600000x1_S600000x128_1_0_n_n_0_1_1128 = gd := rfl
theorem ki_scatter_eq [Cert.KernelIdeal.Facts₀] :
    Cert.KernelIdeal.scatter_S50000x128_S600000x1_S600000x128_1_0_0_1 = sd := rfl
theorem ref_gather_eq [Cert.ReferenceIdeal.Facts₀] :
    Cert.ReferenceIdeal.gather_S50000x128_S600000x1_S600000x128_1_0_n_n_0_1_1128 = gd := rfl
theorem ref_scatter_eq [Cert.ReferenceIdeal.Facts₀] :
    Cert.ReferenceIdeal.scatter_S50000x128_S600000x1_S600000x128_1_0_0_1 = sd := rfl

/-! ## One layer's host chain -/

section Chain
variable {F : FTy → Type} [FloatOps F]

/-- The start-index column of the gather: a negative source word has 50000 added, then the words are laid out as a
    600000 × 1 column. -/
def srcCol (src : IVec S600000 32) : IVec S600000x1 32 :=
  broadcastInDim S600000x1 ![0] bcCol
    (select (cmpi .slt src (broadcastInDim S600000 ![] bcI (constantI S_ 32 0#32)))
      (addi src (broadcastInDim S600000 ![] bcI (constantI S_ 32 50000#32))) src)

/-- The scatter-index column: the target words as a 600000 × 1 column. -/
def dstCol (dst : IVec S600000 32) : IVec S600000x1 32 := broadcastInDim S600000x1 ![0] bcCol dst

/-- The messages: the gathered source rows times the edge weights (each weight spread along its row). -/
def msgOf (h : FVec F S50000x128 .f32) (ea : FVec F S600000 .f32) (src : IVec S600000 32) : FVec F S600000x128 .f32 :=
  mulf (Host.gather gd h (srcCol src))
    (broadcastInDim S600000x128 ![0, 1] bcRow (broadcastInDim S600000x1 ![0] bcCol ea))

/-- THE AGGREGATED MESSAGES of one layer: the messages scatter-added, at the target rows, into zeros. -/
def aggOf (h : FVec F S50000x128 .f32) (ea : FVec F S600000 .f32) (src dst : IVec S600000 32) : FVec F S50000x128 .f32 :=
  Host.scatterAdd sd (broadcastInDim S50000x128 ![] bcZ (constant S_ .f32 0x00000000#32)) (dstCol dst) (msgOf h ea src)

end Chain

/-- The messages of real features and real weights are real. -/
theorem msgOf_finite (h : FVec Ideal S50000x128 .f32) (ea : FVec Ideal S600000 .f32) (src : IVec S600000 32)
    (hh : ArrFinite h) (hea : ArrFinite ea) : ArrFinite (msgOf h ea src) :=
  mulf_finite _ _ (gather_finite gd h (srcCol src) hh)
    (broadcastInDim_finite _ bcRow _ (broadcastInDim_finite _ bcCol ea hea))

/-- THE HOST CHAIN KEEPS FINITENESS: real features and real weights give real aggregated messages, whatever the
    source and target words are. -/
theorem aggOf_finite (h : FVec Ideal S50000x128 .f32) (ea : FVec Ideal S600000 .f32) (src dst : IVec S600000 32)
    (hh : ArrFinite h) (hea : ArrFinite ea) : ArrFinite (aggOf h ea src dst) :=
  scatterAdd_finite sd _ (dstCol dst) _
    (broadcastInDim_finite _ bcZ _ constant_zero_finite) (msgOf_finite h ea src hh hea)

/-! ## Bridges to the specification's predicates -/

/-- An array of the three shapes the specification speaks of, as a function of coordinates. -/
abbrev matOf (x : S50000x128.Idx → EReal) : Cert.Spec.Mat := fun i j => x (ix2 i j)
abbrev wtOf (x : S128x128.Idx → EReal) : Cert.Spec.Wt := fun i j => x (ix2 i j)
abbrev rowOf (x : S128.Idx → EReal) : Cert.Spec.Row := fun j => x (ix1 j)

/-- A node-by-feature array has real entries exactly when the matrix of its coordinates does: every index is the
    index of its two coordinates. -/
theorem matFinite_iff (x : S50000x128.Idx → EReal) : Cert.Spec.MatFinite (matOf x) ↔ ArrFinite x :=
  ⟨fun hm i => by rw [eq_ix2 i]; exact hm (i 0) (i 1), fun ha i j => ha (ix2 i j)⟩
theorem wtFinite_iff (x : S128x128.Idx → EReal) : Cert.Spec.WtFinite (wtOf x) ↔ ArrFinite x :=
  ⟨fun hm i => by rw [eq_ix2 i]; exact hm (i 0) (i 1), fun ha i j => ha (ix2 i j)⟩
theorem rowFinite_iff (x : S128.Idx → EReal) : Cert.Spec.RowFinite (rowOf x) ↔ ArrFinite x :=
  ⟨fun hm i => by rw [eq_ix1 i]; exact hm (i 0), fun ha j => ha (ix1 j)⟩

/-- The aggregated messages as a specification matrix are finite. -/
theorem aggOf_matFinite (h : FVec Ideal S50000x128 .f32) (ea : FVec Ideal S600000 .f32) (src dst : IVec S600000 32)
    (hh : ArrFinite h) (hea : ArrFinite ea) : Cert.Spec.MatFinite (matOf (aggOf h ea src dst)) :=
  (matFinite_iff _).2 (aggOf_finite h ea src dst hh hea)

end Cert.Proof.HostFinite

end
-- ==== Proof.Math.Step.lean ====
/-
  One layer of the induction that joins the two programs.

  Suppose the kernel's and the reference's node features entering a layer are the same array `h`, every entry a real
  number, and the edge weights and the layer's parameters are real too. The kernel's layer output is, entry by entry,
  the specification's layer with the variance written as "mean of squares minus squared mean"; the reference's is the
  same layer with the variance written as "mean of centred squares". The aggregated messages are a finite sum of
  products of reals, so they are real; on real data the two forms of the variance agree and the layer's output is real
  again. Hence the two outputs are one array, with real entries: the statement the next layer starts from.
-/
import proofs.«162849_j29643864277577_1_alg».proof.Proof.Math.Layers
import proofs.«162849_j29643864277577_1_alg».proof.Proof.Math.HostFinite

noncomputable section

namespace Cert.Proof.Step

open Idealize.ShloMosaic Idealize.ShloMosaic.ValueIdx
open Cert.Spec Cert.Proof.HostFinite
open Cert.KernelIdeal (S50000x128 S600000)

/-- Equal real inputs give equal real outputs: the kernel's form of the layer against the reference's. -/
theorem step_agree {hK hR hK' hR' : FVec Ideal S50000x128 .f32} {ea : FVec Ideal S600000 .f32}
    {src dst : IVec S600000 32} {Wr Wo : Wt} {br bo g b : Row}
    (heq : hK = hR) (hfin : ArrFinite hK) (hea : ArrFinite ea)
    (hWr : WtFinite Wr) (hWo : WtFinite Wo) (hbr : RowFinite br) (hbo : RowFinite bo)
    (hg : RowFinite g) (hb : RowFinite b)
    (cK : ∀ (i : Fin 50000) (j : Fin 128),
      hK' (ix2 i j) = layerSq (matOf (aggOf hK ea src dst)) (matOf hK) Wr Wo br bo g b i j)
    (cR : ∀ (i : Fin 50000) (j : Fin 128),
      hR' (ix2 i j) = layerCtr (matOf (aggOf hR ea src dst)) (matOf hR) Wr Wo br bo g b i j) :
    hK' = hR' ∧ ArrFinite hK' := by
  subst heq
  have hagg : MatFinite (matOf (aggOf hK ea src dst)) := aggOf_matFinite hK ea src dst hfin hea
  have hh : MatFinite (matOf hK) := (HostFinite.matFinite_iff hK).2 hfin
  obtain ⟨e, f⟩ := layer_step hagg hh hWr hWo hbr hbo hg hb
  refine ⟨ext_ix2 (fun i j => by rw [cK i j, cR i j, e]), ?_⟩
  exact array_finite_of_eq_mat cK f

end Cert.Proof.Step

end
-- ==== Proof.Math.PreFinite.lean ====
/-
  From the precondition to "every float input is a real number".

  The precondition is a conjunction of eight statements, one per float argument, each of the form
  "for every index, |x| < +∞" (an `all` over the array of the comparisons, folded by `and` from `true`).
  On the extended reals |x| = max x (−x), and the word 0x7F800000 denotes +∞; max x (−x) < +∞ rules out both
  x = +∞ and x = −∞, so x is a real number.
-/
import proofs.«162849_j29643864277577_1_alg».proof.Pre_finite_inputs
import proofs.«162849_j29643864277577_1_alg».proof.Proof.Gen.Pre_finite_inputs
import Idealize.ShloMosaic.Lib.ReduceAll
import Idealize.ShloMosaic.Lib.ValueIdx
import Idealize.ShloMosaic.PureOps.Ideal

namespace Cert.Proof.PreFinite

open Idealize.ShloMosaic Cert.Pre_finite_inputs Cert.Pre_finite_inputs.Gen

/-- The scalar shape has one index. -/
instance subsingleton_S_ : Subsingleton S_.Idx := ⟨fun _ _ => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) is below +∞ is a real number: x = +∞ makes the maximum +∞, and so
    does x = −∞ through −x. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One element of one conjunct: the comparison "|a i| < +∞" came out true, so `a i` is a real number. -/
theorem real_of_cmp {S : Shape} (bc : S_.BroadcastsInDim S (![] : Fin 0 → Fin S.rank)) (a : FVec Ideal S .f32) (i : S.Idx)
    (h : cmpf .olt (Host.absf a) (broadcastInDim S ![] bc (constant S_ .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  refine real_of_abs_lt_top (a i) ?_
  by_contra hn
  simp [Ideal.cmp, hn] at h'

/-- THE PRECONDITION READ BACK. The predicate is the conjunction, folded left to right, of the eight "all entries
    have finite absolute value" tests of the float arguments; it is true, so each test is, so each comparison at each
    index is, so each entry is a real number. The four integer arguments are not tested. -/
theorem inputs_finite
    (a0 : FVec Ideal S50000x128 .f32) (a1 : FVec Ideal S600000 .f32) (a2 : FVec Ideal S5x128x128 .f32)
    (a3 : FVec Ideal S5x128 .f32) (a4 : FVec Ideal S5x128x128 .f32) (a5 a6 a7 : FVec Ideal S5x128 .f32)
    (a8 : IVec S2x600000 32) (a9 : IVec S50000 32) (a10 : IVec S256 32) (a11 : IVec S50000 32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ValueIdx.ix0
  dsimp only [fn, fn_part1, fn_part2] at h0
  obtain ⟨h33, h37⟩ := IntOp.andi_eq_one.1 h0
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨fun i => real_of_cmp _ a0 i (Host.reduce_andi_all _ _ _ _ _ h3 i),
    fun i => real_of_cmp _ a1 i (Host.reduce_andi_all _ _ _ _ _ h7 i),
    fun i => real_of_cmp _ a2 i (Host.reduce_andi_all _ _ _ _ _ h12 i),
    fun i => real_of_cmp _ a3 i (Host.reduce_andi_all _ _ _ _ _ h17 i),
    fun i => real_of_cmp _ a4 i (Host.reduce_andi_all _ _ _ _ _ h22 i),
    fun i => real_of_cmp _ a5 i (Host.reduce_andi_all _ _ _ _ _ h27 i),
    fun i => real_of_cmp _ a6 i (Host.reduce_andi_all _ _ _ _ _ h32 i),
    fun i => real_of_cmp _ a7 i (Host.reduce_andi_all _ _ _ _ _ h37 i)⟩

end Cert.Proof.PreFinite
-- ==== Proof.Math.ParamFinite.lean ====
/-
  The parameters each layer reads are real numbers when the inputs are.

  The weights come stacked, five layers deep: a 5 × 128 × 128 array for each of the two weight matrices and a 5 × 128
  array for each of the four vectors (two biases, scale, shift). Layer `l` reads the slice at first coordinate `l`. A
  slice's entry IS an entry of the stacked array, so a stacked array of reals has slices of reals; likewise the
  node-by-feature array read by its two coordinates.

  Last, the precondition as the final theorem has it — the finiteness predicate of the eight float argument arrays of
  the memory, true on every device — gives that each of those eight arrays is an array of reals.
-/
import proofs.«162849_j29643864277577_1_alg».proof.Defs
import proofs.«162849_j29643864277577_1_alg».proof.Proof.Gen.Pre_finite_inputs
import proofs.«162849_j29643864277577_1_alg».proof.Proof.Math.Spec
import proofs.«162849_j29643864277577_1_alg».proof.Proof.Math.HostFinite
import proofs.«162849_j29643864277577_1_alg».proof.Proof.Math.PreFinite
import Idealize.ShloMosaic.Lib.ValueIdx

noncomputable section

namespace Cert.Proof.ParamFinite

open Idealize.ShloMosaic Idealize.SL.Sem Idealize.ShloMosaic.ValueIdx
open Cert.Proof.HostFinite (ArrFinite)
open Cert.KernelIdeal (S50000x128 S600000 S5x128x128 S5x128)

/-! ## Slices of the stacked parameters -/

/-- Layer `l`'s weight matrix, read off the stacked 5 × 128 × 128 array, has real entries when the stack does. -/
theorem wt_slice_finite (a : S5x128x128.Idx → EReal) (ha : ArrFinite a) (l : Fin 5) :
    Cert.Spec.WtFinite (fun k j => a (ix3 l k j)) :=
  fun k j => ha (ix3 l k j)

/-- Layer `l`'s vector, read off the stacked 5 × 128 array, has real entries when the stack does. -/
theorem row_slice_finite (a : S5x128.Idx → EReal) (ha : ArrFinite a) (l : Fin 5) :
    Cert.Spec.RowFinite (fun j => a (ix2 l j)) :=
  fun j => ha (ix2 l j)

/-- A node-by-feature array of reals, read by its two coordinates, is a matrix of reals. -/
theorem mat_finite (x : S50000x128.Idx → EReal) (hx : ArrFinite x) :
    Cert.Spec.MatFinite (fun i k => x (ix2 i k)) :=
  fun i k => hx (ix2 i k)

/-! ## The precondition over the memory -/

/-- THE PRECONDITION GIVES REAL INPUTS: on every device, each of the eight float argument arrays of the memory —
    node features, edge weights, the two stacked weight matrices and the four stacked vectors — is an array of reals. -/
theorem pre_finite
    (m : (ℓ : Loc Cert.KernelIdeal.nD Cert.KernelIdeal.τ Cert.KernelIdeal.sig) → Buf (Elt Ideal) ℓ)
    (h : Cert.Pre_KernelIdeal m) (c : Dev Cert.KernelIdeal.nD) :
    ArrFinite (m ((c.tc : Thread Cert.KernelIdeal.nD Cert.KernelIdeal.τ).loc Cert.KernelIdeal.main_arg0) : FVec Ideal S50000x128 .f32)
      ∧ ArrFinite (m ((c.tc : Thread Cert.KernelIdeal.nD Cert.KernelIdeal.τ).loc Cert.KernelIdeal.main_arg1) : FVec Ideal S600000 .f32)
      ∧ ArrFinite (m ((c.tc : Thread Cert.KernelIdeal.nD Cert.KernelIdeal.τ).loc Cert.KernelIdeal.main_arg2) : FVec Ideal S5x128x128 .f32)
      ∧ ArrFinite (m ((c.tc : Thread Cert.KernelIdeal.nD Cert.KernelIdeal.τ).loc Cert.KernelIdeal.main_arg3) : FVec Ideal S5x128 .f32)
      ∧ ArrFinite (m ((c.tc : Thread Cert.KernelIdeal.nD Cert.KernelIdeal.τ).loc Cert.KernelIdeal.main_arg4) : FVec Ideal S5x128x128 .f32)
      ∧ ArrFinite (m ((c.tc : Thread Cert.KernelIdeal.nD Cert.KernelIdeal.τ).loc Cert.KernelIdeal.main_arg5) : FVec Ideal S5x128 .f32)
      ∧ ArrFinite (m ((c.tc : Thread Cert.KernelIdeal.nD Cert.KernelIdeal.τ).loc Cert.KernelIdeal.main_arg6) : FVec Ideal S5x128 .f32)
      ∧ ArrFinite (m ((c.tc : Thread Cert.KernelIdeal.nD Cert.KernelIdeal.τ).loc Cert.KernelIdeal.main_arg7) : FVec Ideal S5x128 .f32) :=
  Cert.Proof.PreFinite.inputs_finite _ _ _ _ _ _ _ _ _ _ _ _ (h c)

end Cert.Proof.ParamFinite

end
-- ==== Proof.KI.Tail.lean ====
/-
  The pooling tail of the kernel program, as one function of what it reads.

  After the last layer the program averages the node features over subgraph slots. It takes the running sums of
  the 256 group sizes and puts a zero in front (257 offsets); looks up each node's offset by its group number, a
  negative group number first wrapped by adding 257; adds the node's position inside its group, which gives the
  node's slot among 2560; sums the rows of the last layer's output per slot; counts the nodes per slot by summing
  ones; and divides each slot's sum by its count, the count bounded below by one.

  Here that chain is written once as a function of the last layer's output and the three integer arrays, and the
  contents of the result buffer after the program's three last stretches of host operations, from any contents
  before them, is shown to be that function of the four buffers it reads.
-/
import proofs.«162849_j29643864277577_1_alg».proof.Proof.Gen.KernelIdeal.Launch
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- The 257 offsets: a zero, then the running sums of the group sizes. -/
def tailOffsets (nsub : IVec S256 32) : IVec S257 32 :=
  concatenate S257 0
    [⟨S1, broadcastInDim S1 ![] bcast_S_S1 (constantI S_ 32 0#32)⟩,
     ⟨S256, Host.reduceWindow IntOp.addi ![256] ![1] ![255] ![0] nsub
        (broadcastInDim S_ ![] bcast_S_S_ (constantI S_ 32 0#32)) reduceWindows_S256_S256_w256s1p255_0 h_S_⟩]
    concatenates_S1_S256_S257_d0

/-- Each node's slot: the offset of its group (a negative group number wrapped by 257) plus its position. -/
def tailSlot (batch : IVec S50000 32) (nsub : IVec S256 32) (sb : IVec S50000 32) : IVec S50000 32 :=
  addi sb
    (Host.gather gather_S257_S50000x1_S50000_n_0_n_n_0_1_1 (tailOffsets nsub)
      (broadcastInDim S50000x1 ![0] bcast_S50000_S50000x1_0
        (select (cmpi .slt batch (broadcastInDim S50000 ![] bcast_S_S50000 (constantI S_ 32 0#32)))
          (addi batch (broadcastInDim S50000 ![] bcast_S_S50000 (constantI S_ 32 257#32))) batch)))

/-- The pooled output: per slot, the sum of the rows landing there over the number of such rows, at least one. -/
def tailFn (h : FVec F S50000x128 .f32) (batch : IVec S50000 32) (nsub : IVec S256 32) (sb : IVec S50000 32) :
    FVec F S2560x128 .f32 :=
  Host.divf
    (Host.scatterAdd scatter_S2560x128_S50000x1_S50000x128_1_0_0_1
      (broadcastInDim S2560x128 ![] bcast_S_S2560x128 (constant (F := F) S_ .f32 0x00000000#32))
      (broadcastInDim S50000x1 ![0] bcast_S50000_S50000x1_0 (tailSlot batch nsub sb)) h)
    (broadcastInDim S2560x128 ![0, 1] bcast_S2560x1_S2560x128_0_1
      (broadcastInDim S2560x1 ![0] bcast_S2560_S2560x1_0
        (maximumf
          (Host.scatterAdd scatter_S2560_S50000x1_S50000_n_0_0_1
            (broadcastInDim S2560 ![] bcast_S_S2560 (constant (F := F) S_ .f32 0x00000000#32))
            (broadcastInDim S50000x1 ![0] bcast_S50000_S50000x1_0 (tailSlot batch nsub sb))
            (broadcastInDim S50000 ![] bcast_S_S50000 (constant (F := F) S_ .f32 0x3F800000#32)))
          (broadcastInDim S2560 ![] bcast_S_S2560 (constant (F := F) S_ .f32 0x3F800000#32)))))

/-- Whatever the buffers hold before them, after the last three stretches of host operations the result buffer
    holds the pooled output of the last layer's buffer and the three integer arguments. -/
theorem tailK_term (W : Valuation τ sig (Elt F)) :
    StableHlo.after hostOps10_2 (StableHlo.after hostOps10_1 (StableHlo.after hostOps10 W)) (Proc.devRef .tc main_v181)
      = tailFn (F := F) (W (Proc.devRef .tc main_v158)) (W (Proc.devRef .tc main_arg9)) (W (Proc.devRef .tc main_arg10))
          (W (Proc.devRef .tc main_arg11)) := by
  chain_rfl

end Cert.KernelIdeal.Tail

end
-- ==== Proof.Ref.Tail.lean ====
/-
  The pooling tail of the reference program, as one function of what it reads.

  After the last layer the reference averages the node features over subgraph slots. It takes the running sums of
  the 256 group sizes and puts a zero in front (257 offsets); looks up each node's offset by its group number, a
  negative group number first wrapped by adding 257; adds the node's position inside its group, which gives the
  node's slot among 2560; sums the rows of the last layer's output per slot; counts the nodes per slot by summing
  ones; and divides each slot's sum by its count, the count bounded below by one.

  Here that chain is written once as a function of the last layer's output and the three integer arrays, and the
  contents of the result buffer after the reference's last list of operations, from any contents before it, is
  shown to be that function of the four buffers it reads.
-/
import proofs.«162849_j29643864277577_1_alg».proof.Proof.Ref.Ops
import Idealize.ShloMosaic.Lib.StableHlo.Run
import Idealize.ShloMosaic.Lib.Pipeline.Regions

noncomputable section

namespace Cert.ReferenceIdeal.Tail

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

/-- The 257 offsets: a zero, then the running sums of the group sizes. -/
def tailOffsetsR (nsub : IVec S256 32) : IVec S257 32 :=
  concatenate S257 0
    [⟨S1, broadcastInDim S1 ![] bcast_S_S1 (constantI S_ 32 0#32)⟩,
     ⟨S256, Host.reduceWindow IntOp.addi ![256] ![1] ![255] ![0] nsub
        (broadcastInDim S_ ![] bcast_S_S_ (constantI S_ 32 0#32)) reduceWindows_S256_S256_w256s1p255_0 h_S_⟩]
    concatenates_S1_S256_S257_d0

/-- Each node's slot: the offset of its group (a negative group number wrapped by 257) plus its position. -/
def tailSlotR (batch : IVec S50000 32) (nsub : IVec S256 32) (sb : IVec S50000 32) : IVec S50000 32 :=
  addi sb
    (Host.gather gather_S257_S50000x1_S50000_n_0_n_n_0_1_1 (tailOffsetsR nsub)
      (broadcastInDim S50000x1 ![0] bcast_S50000_S50000x1_0
        (select (cmpi .slt batch (broadcastInDim S50000 ![] bcast_S_S50000 (constantI S_ 32 0#32)))
          (addi batch (broadcastInDim S50000 ![] bcast_S_S50000 (constantI S_ 32 257#32))) batch)))

/-- The pooled output: per slot, the sum of the rows landing there over the number of such rows, at least one. -/
def tailFnR (h : FVec F S50000x128 .f32) (batch : IVec S50000 32) (nsub : IVec S256 32) (sb : IVec S50000 32) :
    FVec F S2560x128 .f32 :=
  Host.divf
    (Host.scatterAdd scatter_S2560x128_S50000x1_S50000x128_1_0_0_1
      (broadcastInDim S2560x128 ![] bcast_S_S2560x128 (constant (F := F) S_ .f32 0x00000000#32))
      (broadcastInDim S50000x1 ![0] bcast_S50000_S50000x1_0 (tailSlotR batch nsub sb)) h)
    (broadcastInDim S2560x128 ![0, 1] bcast_S2560x1_S2560x128_0_1
      (broadcastInDim S2560x1 ![0] bcast_S2560_S2560x1_0
        (maximumf
          (Host.scatterAdd scatter_S2560_S50000x1_S50000_n_0_0_1
            (broadcastInDim S2560 ![] bcast_S_S2560 (constant (F := F) S_ .f32 0x00000000#32))
            (broadcastInDim S50000x1 ![0] bcast_S50000_S50000x1_0 (tailSlotR batch nsub sb))
            (broadcastInDim S50000 ![] bcast_S_S50000 (constant (F := F) S_ .f32 0x3F800000#32)))
          (broadcastInDim S2560 ![] bcast_S_S2560 (constant (F := F) S_ .f32 0x3F800000#32)))))

/-- Whatever the buffers hold before it, after the reference's last list of operations the result buffer holds
    the pooled output of the last layer's buffer and the three integer arguments. -/
theorem tailR_term (W : Valuation τ sig (Elt F)) :
    StableHlo.after opsT W (Proc.devRef .tc main_v296)
      = tailFnR (F := F) (W (Proc.devRef .tc main_v273)) (W (Proc.devRef .tc main_arg9)) (W (Proc.devRef .tc main_arg10))
          (W (Proc.devRef .tc main_arg11)) := by
  chain_rfl

end Cert.ReferenceIdeal.Tail

end
-- ==== Proof.Math.TailEq.lean ====
/-
  The pooling tail is one function in both programs.

  The kernel program and the reference end with the same chain of host operations on the last layer's output and
  the three integer arrays: running sums with a leading zero, a lookup by wrapped group number, the slot as offset
  plus position, the per-slot sums of rows and counts of rows, the quotient with the count bounded below by one.
  Each program spells the shapes and the side conditions of these operations under its own names; the shapes are
  the same literals and a side condition is a proposition, so the two functions are equal as they stand, for any
  float values.
-/
import proofs.«162849_j29643864277577_1_alg».proof.Proof.KI.Tail
import proofs.«162849_j29643864277577_1_alg».proof.Proof.Ref.Tail
import Idealize.ShloMosaic.PureOps.Ideal

noncomputable section

namespace Cert.TailEq

open Idealize.ShloMosaic

variable {F : FTy → Type} [FloatOps F]

/-- The two programs' offsets, slots and pooled outputs are the same functions: the same operations at the same
    literal shapes. -/
theorem tailOffsets_eq : Cert.KernelIdeal.Tail.tailOffsets = Cert.ReferenceIdeal.Tail.tailOffsetsR := rfl

theorem tailSlot_eq : Cert.KernelIdeal.Tail.tailSlot = Cert.ReferenceIdeal.Tail.tailSlotR := rfl

theorem tail_eq : @Cert.KernelIdeal.Tail.tailFn F _ = @Cert.ReferenceIdeal.Tail.tailFnR F _ := rfl

/-- The same at the extended reals. -/
theorem tail_eq_ideal : @Cert.KernelIdeal.Tail.tailFn Ideal _ = @Cert.ReferenceIdeal.Tail.tailFnR Ideal _ := tail_eq

end Cert.TailEq

end
-- ==== Proof.KI.StatsArr0.lean ====
import proofs.«162849_j29643864277577_1_alg».proof.Proof.KI.Stats0
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 0: the six arrays it reads, as it finds them

The region reads six arrays: the aggregated messages and the node features (50000 rows of 128 features each), the
two weight matrices (128 by 128) and the two bias rows (1 by 128). Each is named here at its own vector type, at
the contents `V` the region finds in the core's buffers, so that statements about their entries can add and
multiply them as extended reals. -/

section Regions

variable (V : (c : Dev nD) → (b : Ref sig .tc) → Buf (Elt Ideal) ((c : Thread nD τ).loc b))

/-- The aggregated messages (window 0's array). -/
abbrev arr0_0 (c : Dev nD) : FVec Ideal S50000x128 .f32 := V c (Pipeline.arrRef spec0 0)
/-- The node features (window 1's array). -/
abbrev arr0_1 (c : Dev nD) : FVec Ideal S50000x128 .f32 := V c (Pipeline.arrRef spec0 1)
/-- The weights applied to the aggregated messages (window 2's array). -/
abbrev arr0_2 (c : Dev nD) : FVec Ideal S128x128 .f32 := V c (Pipeline.arrRef spec0 2)
/-- The bias row added after the first product (window 3's array). -/
abbrev arr0_3 (c : Dev nD) : FVec Ideal S1x128 .f32 := V c (Pipeline.arrRef spec0 3)
/-- The weights applied to the node features (window 4's array). -/
abbrev arr0_4 (c : Dev nD) : FVec Ideal S128x128 .f32 := V c (Pipeline.arrRef spec0 4)
/-- The bias row added last (window 5's array). -/
abbrev arr0_5 (c : Dev nD) : FVec Ideal S1x128 .f32 := V c (Pipeline.arrRef spec0 5)

end Regions

end Cert.KernelIdeal.Hand

end
-- ==== Proof.KI.PayRead.lean ====
/-
  The values the kernel bodies store, read at an index, on the extended reals.

  For the linear-statistics body: the tile of the linear part is, entry by entry, two row-by-column sums and two bias
  rows added in the body's order; the running column sum and the running column sum of squares each grow by the sum
  over the tile's 5000 rows; both are reset to the zero row; the mean is the column sum over 50000 and the variance the
  column sum of squares over 50000 minus the squared mean. For the normalising body: each entry is centred, scaled by
  the reciprocal square root of the variance plus epsilon, shifted, and rectified. Every statement is over explicit row
  and lane coordinates of the literal tile shapes.
-/
import proofs.«162849_j29643864277577_1_alg».proof.Proof.Gen.KernelIdeal.Skeleton
import proofs.«162849_j29643864277577_1_alg».proof.Proof.Math.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Cert.KernelIdeal Cert.KernelIdeal.Gen
open Idealize.ShloMosaic Idealize.ShloMosaic.ValueIdx

/-! ## Two small readings shared by every region -/

/-- The index a column sum reads at row `r` of lane `j`: the reduced row coordinate put back in front of the lane. -/
theorem lift_ix1 (h : S5000x128.Reduces [0] S128) (j : Fin 128) (r : Fin 5000) :
    h.lift (ix1 j) r = ix2 r j := by
  funext a; match a with | ⟨0, _⟩ => rfl | ⟨1, _⟩ => rfl

/-- A sum over the rows of a 5000x128 tile, read at a lane, is the sum over the row coordinate of the tile's entries
    in that lane. -/
theorem colSum_apply (src : FVec Ideal S5000x128 .f32) (h : S5000x128.Reduces [0] S128) (hφ : FKind.Formats .f32)
    (hacc : (0x00000000#32 : BitVec 32) = FKind.add.neutral .f32 hφ) (j : Fin 128) :
    multiReduction (F := Ideal) .add [0] S128 src 0x00000000#32 h hφ hacc (ix1 j) = ∑ r : Fin 5000, src (ix2 r j) :=
  (Ideal.multiReduction_add_single src 0x00000000#32 h hφ hacc (ix1 j)).trans
    (Finset.sum_congr rfl fun r _ => congrArg src (lift_ix1 h j r))

/-! ## The 5000x128 by 128x128 product read at an index

The operand indices of the product at output index `j` and contraction index `k`, axis by axis: the left operand is
read at (row of `j`, `k`), the right one at (`k`, lane of `j`). -/

theorem lhs_dot_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬ (0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_dot_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single (cl := 1) rfl j k

theorem rhs_dot_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single (cr := 0) rfl j k

theorem rhs_dot_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬ (1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The product accumulated into zero, at row `r` and lane `j`: the sum over the 128 contraction positions of the
    left operand's row entry times the right operand's column entry. -/
theorem matmul_zero_apply {φ₁ φ₂ : FTy} (a : FVec Ideal S5000x128 φ₁) (w : FVec Ideal S128x128 φ₂) (r : Fin 5000) (j : Fin 128) :
    matmul (F := Ideal) dot_S5000x128_S128x128_S5000x128_1_0_0_1_n_n none a w (constant (F := Ideal) S5000x128 .f32 0x00000000#32) (ix2 r j)
      = ∑ k : Fin 128, a (ix2 r k) * w (ix2 k j) := by
  refine (Ideal.matmul_constant_zero_apply dot_S5000x128_S128x128_S5000x128_1_0_0_1_n_n none a w (ix2 r j)).trans ?_
  refine (Equiv.sum_comp (contrEquiv1 dot_S5000x128_S128x128_S5000x128_1_0_0_1_n_n 128 rfl rfl).symm _).symm.trans ?_
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 r j) ((contrEquiv1 dot_S5000x128_S128x128_S5000x128_1_0_0_1_n_n 128 rfl rfl).symm k) = ix2 r k := by
    funext ax
    match ax with
    | ⟨0, _⟩ => exact Fin.ext (lhs_dot_0 _ _)
    | ⟨1, _⟩ => exact Fin.ext ((lhs_dot_1 _ _).trans hk)
  have hr : dot_S5000x128_S128x128_S5000x128_1_0_0_1_n_n.rhsIdx (ix2 r j) ((contrEquiv1 dot_S5000x128_S128x128_S5000x128_1_0_0_1_n_n 128 rfl rfl).symm k) = ix2 k j := by
    funext ax
    match ax with
    | ⟨0, _⟩ => exact Fin.ext ((rhs_dot_0 _ _).trans hk)
    | ⟨1, _⟩ => exact Fin.ext (rhs_dot_1 _ _)
  rw [hl, hr]

/-! ## The stored values, region by region -/

section Region0

/-! ### Region 0: the linear part with its running column statistics -/

/-- The tile of the linear part at row `r`, lane `j`: the first operand's row times the first weight's column, plus the
    first bias, plus the second operand's row times the second weight's column, plus the second bias, added in that
    order. (The narrowing of the operands to sixteen bits is the identity on the extended reals.) -/
theorem k0_pay6_apply (x a : FVec Ideal S5000x128 .f32) (wr wo : FVec Ideal S128x128 .f32) (br bo : FVec Ideal S1x128 .f32)
    (r : Fin 5000) (j : Fin 128) :
    k0_pay6 (F := Ideal) x a wr wo br bo (ix2 r j)
      = (((∑ k : Fin 128, x (ix2 r k) * wr (ix2 k j)) + br (ix2 (0 : Fin 1) j))
          + (∑ k : Fin 128, a (ix2 r k) * wo (ix2 k j))) + bo (ix2 (0 : Fin 1) j) := by
  unfold k0_pay6
  simp only [shapeCast_self]
  show ((matmul (F := Ideal) dot_S5000x128_S128x128_S5000x128_1_0_0_1_n_n none (truncf .bf16 x bitsLt_bf16_f32) (truncf .bf16 wr bitsLt_bf16_f32)
              (constant (F := Ideal) S5000x128 .f32 0x00000000#32) (ix2 r j)
            + broadcastTo S5000x128 br broadcasts_S1x128_S5000x128 (ix2 r j))
          + matmul (F := Ideal) dot_S5000x128_S128x128_S5000x128_1_0_0_1_n_n none (truncf .bf16 a bitsLt_bf16_f32) (truncf .bf16 wo bitsLt_bf16_f32)
              (constant (F := Ideal) S5000x128 .f32 0x00000000#32) (ix2 r j))
        + broadcastTo S5000x128 bo broadcasts_S1x128_S5000x128 (ix2 r j) = _
  rw [matmul_zero_apply, matmul_zero_apply, broadcastTo_1b_ab_apply br, broadcastTo_1b_ab_apply bo]
  rfl

/-- The new running column sum at lane `j`: the old one plus the sum over the tile's rows of the linear part. -/
theorem k0_pay7_apply (x a : FVec Ideal S5000x128 .f32) (wr wo : FVec Ideal S128x128 .f32) (br bo s : FVec Ideal S1x128 .f32)
    (j : Fin 128) :
    k0_pay7 (F := Ideal) x a wr wo br bo s (ix2 (0 : Fin 1) j)
      = s (ix2 (0 : Fin 1) j) + ∑ r : Fin 5000, k0_pay6 (F := Ideal) x a wr wo br bo (ix2 r j) := by
  unfold k0_pay7
  simp only [shapeCast_self]
  show s (ix2 (0 : Fin 1) j) + shapeCast S1x128 _ shapeCasts_S128_S1x128 (ix2 (0 : Fin 1) j) = _
  refine congrArg (s (ix2 (0 : Fin 1) j) + ·) ?_
  refine (shapeCast_a_1a_apply _ shapeCasts_S128_S1x128 (0 : Fin 1) j).trans ?_
  exact colSum_apply (k0_pay6 (F := Ideal) x a wr wo br bo) _ _ _ j

/-- The new running column sum of squares at lane `j`: the old one plus the sum over the tile's rows of the squares. -/
theorem k0_pay1_apply (v : FVec Ideal S5000x128 .f32) (s : FVec Ideal S1x128 .f32) (j : Fin 128) :
    k0_pay1 (F := Ideal) v s (ix2 (0 : Fin 1) j)
      = s (ix2 (0 : Fin 1) j) + ∑ r : Fin 5000, v (ix2 r j) * v (ix2 r j) := by
  unfold k0_pay1
  simp only [shapeCast_self]
  show s (ix2 (0 : Fin 1) j) + shapeCast S1x128 _ shapeCasts_S128_S1x128 (ix2 (0 : Fin 1) j) = _
  refine congrArg (s (ix2 (0 : Fin 1) j) + ·) ?_
  refine (shapeCast_a_1a_apply _ shapeCasts_S128_S1x128 (0 : Fin 1) j).trans ?_
  exact colSum_apply (mulf v v) _ _ _ j

/-- The two values the running sums are reset to at the first grid point: the zero row. -/
theorem k0_pay4_eq : k0_pay4 (F := Ideal) = fun _ => 0 :=
  funext fun _ => Ideal.ofBits_zero_f32

theorem k0_pay5_eq : k0_pay5 (F := Ideal) = fun _ => 0 :=
  funext fun _ => Ideal.ofBits_zero_f32

/-- The mean at lane `j`: the column sum over the number of nodes. -/
theorem k0_pay2_apply (s : FVec Ideal S1x128 .f32) (j : Fin 128) :
    k0_pay2 (F := Ideal) s (ix2 (0 : Fin 1) j) = Ideal.div (s (ix2 (0 : Fin 1) j)) Cert.Spec.cN := rfl

/-- The variance at lane `j`: the column sum of squares over the number of nodes, minus the squared mean. -/
theorem k0_pay3_apply (s q : FVec Ideal S1x128 .f32) (j : Fin 128) :
    k0_pay3 (F := Ideal) s q (ix2 (0 : Fin 1) j)
      = Ideal.div (q (ix2 (0 : Fin 1) j)) Cert.Spec.cN
        - Ideal.div (s (ix2 (0 : Fin 1) j)) Cert.Spec.cN * Ideal.div (s (ix2 (0 : Fin 1) j)) Cert.Spec.cN := rfl

end Region0

section Region1

/-! ### Region 1: normalise, scale, shift, rectify -/

/-- The output tile at row `r`, lane `j`: the scale times the centred entry, times the reciprocal square root of the
    variance plus epsilon, plus the shift, and the maximum of that with zero. -/
theorem k1_pay1_apply (x : FVec Ideal S5000x128 .f32) (mu v g b : FVec Ideal S1x128 .f32) (r : Fin 5000) (j : Fin 128) :
    k1_pay1 (F := Ideal) x mu v g b (ix2 r j)
      = max (((g (ix2 (0 : Fin 1) j) * (x (ix2 r j) - mu (ix2 (0 : Fin 1) j)))
              * Ideal.rsqrt (v (ix2 (0 : Fin 1) j) + Cert.Spec.cEps)) + b (ix2 (0 : Fin 1) j)) 0 := by
  unfold k1_pay1
  simp only [shapeCast_self]
  show max (((broadcastTo S5000x128 g broadcasts_S1x128_S5000x128 (ix2 r j)
              * (x (ix2 r j) - broadcastTo S5000x128 mu broadcasts_S1x128_S5000x128 (ix2 r j)))
            * broadcastTo S5000x128 _ broadcasts_S1x128_S5000x128 (ix2 r j))
          + broadcastTo S5000x128 b broadcasts_S1x128_S5000x128 (ix2 r j)) (Ideal.ofBits .f32 0x00000000#32) = _
  rw [broadcastTo_1b_ab_apply g, broadcastTo_1b_ab_apply mu, broadcastTo_1b_ab_apply b, broadcastTo_1b_ab_apply,
    Ideal.ofBits_zero_f32]
  rfl

end Region1

section Region2

/-! ### Region 2: the same linear part and statistics as region 0

Region 2's stored values are region 0's: six of the seven definitions are the same term, and the tile of the linear
part differs only by one more cast of the second operand to its own shape, which is the identity. -/

theorem k2_pay6_eq : k2_pay6 (F := Ideal) = k0_pay6 (F := Ideal) := by
  funext x a wr wo br bo
  unfold k2_pay6 k0_pay6
  simp only [shapeCast_self]

theorem k2_pay7_eq : k2_pay7 (F := Ideal) = k0_pay7 (F := Ideal) := by
  funext x a wr wo br bo s
  unfold k2_pay7 k0_pay7
  rw [k2_pay6_eq]

theorem k2_pay6_apply (x a : FVec Ideal S5000x128 .f32) (wr wo : FVec Ideal S128x128 .f32) (br bo : FVec Ideal S1x128 .f32)
    (r : Fin 5000) (j : Fin 128) :
    k2_pay6 (F := Ideal) x a wr wo br bo (ix2 r j)
      = (((∑ k : Fin 128, x (ix2 r k) * wr (ix2 k j)) + br (ix2 (0 : Fin 1) j))
          + (∑ k : Fin 128, a (ix2 r k) * wo (ix2 k j))) + bo (ix2 (0 : Fin 1) j) := by
  rw [k2_pay6_eq]
  exact k0_pay6_apply x a wr wo br bo r j

theorem k2_pay7_apply (x a : FVec Ideal S5000x128 .f32) (wr wo : FVec Ideal S128x128 .f32) (br bo s : FVec Ideal S1x128 .f32)
    (j : Fin 128) :
    k2_pay7 (F := Ideal) x a wr wo br bo s (ix2 (0 : Fin 1) j)
      = s (ix2 (0 : Fin 1) j) + ∑ r : Fin 5000, k2_pay6 (F := Ideal) x a wr wo br bo (ix2 r j) := by
  rw [k2_pay7_eq, k2_pay6_eq]
  exact k0_pay7_apply x a wr wo br bo s j

theorem k2_pay1_apply (v : FVec Ideal S5000x128 .f32) (s : FVec Ideal S1x128 .f32) (j : Fin 128) :
    k2_pay1 (F := Ideal) v s (ix2 (0 : Fin 1) j)
      = s (ix2 (0 : Fin 1) j) + ∑ r : Fin 5000, v (ix2 r j) * v (ix2 r j) :=
  k0_pay1_apply v s j

theorem k2_pay4_eq : k2_pay4 (F := Ideal) = fun _ => 0 := k0_pay4_eq

theorem k2_pay5_eq : k2_pay5 (F := Ideal) = fun _ => 0 := k0_pay5_eq

theorem k2_pay2_apply (s : FVec Ideal S1x128 .f32) (j : Fin 128) :
    k2_pay2 (F := Ideal) s (ix2 (0 : Fin 1) j) = Ideal.div (s (ix2 (0 : Fin 1) j)) Cert.Spec.cN :=
  k0_pay2_apply s j

theorem k2_pay3_apply (s q : FVec Ideal S1x128 .f32) (j : Fin 128) :
    k2_pay3 (F := Ideal) s q (ix2 (0 : Fin 1) j)
      = Ideal.div (q (ix2 (0 : Fin 1) j)) Cert.Spec.cN
        - Ideal.div (s (ix2 (0 : Fin 1) j)) Cert.Spec.cN * Ideal.div (s (ix2 (0 : Fin 1) j)) Cert.Spec.cN :=
  k0_pay3_apply s q j

end Region2

section Region3

/-! ### Region 3: the same normalising body as region 1 (the two definitions are one term) -/

theorem k3_pay1_apply (x : FVec Ideal S5000x128 .f32) (mu v g b : FVec Ideal S1x128 .f32) (r : Fin 5000) (j : Fin 128) :
    k3_pay1 (F := Ideal) x mu v g b (ix2 r j)
      = max (((g (ix2 (0 : Fin 1) j) * (x (ix2 r j) - mu (ix2 (0 : Fin 1) j)))
              * Ideal.rsqrt (v (ix2 (0 : Fin 1) j) + Cert.Spec.cEps)) + b (ix2 (0 : Fin 1) j)) 0 :=
  k1_pay1_apply x mu v g b r j

end Region3

section Region4

/-! ### Region 4: the same linear part and statistics as region 2 (the seven definitions are the same terms) -/

theorem k4_pay6_apply (x a : FVec Ideal S5000x128 .f32) (wr wo : FVec Ideal S128x128 .f32) (br bo : FVec Ideal S1x128 .f32)
    (r : Fin 5000) (j : Fin 128) :
    k4_pay6 (F := Ideal) x a wr wo br bo (ix2 r j)
      = (((∑ k : Fin 128, x (ix2 r k) * wr (ix2 k j)) + br (ix2 (0 : Fin 1) j))
          + (∑ k : Fin 128, a (ix2 r k) * wo (ix2 k j))) + bo (ix2 (0 : Fin 1) j) :=
  k2_pay6_apply x a wr wo br bo r j

theorem k4_pay7_apply (x a : FVec Ideal S5000x128 .f32) (wr wo : FVec Ideal S128x128 .f32) (br bo s : FVec Ideal S1x128 .f32)
    (j : Fin 128) :
    k4_pay7 (F := Ideal) x a wr wo br bo s (ix2 (0 : Fin 1) j)
      = s (ix2 (0 : Fin 1) j) + ∑ r : Fin 5000, k4_pay6 (F := Ideal) x a wr wo br bo (ix2 r j) :=
  k2_pay7_apply x a wr wo br bo s j

theorem k4_pay1_apply (v : FVec Ideal S5000x128 .f32) (s : FVec Ideal S1x128 .f32) (j : Fin 128) :
    k4_pay1 (F := Ideal) v s (ix2 (0 : Fin 1) j)
      = s (ix2 (0 : Fin 1) j) + ∑ r : Fin 5000, v (ix2 r j) * v (ix2 r j) :=
  k2_pay1_apply v s j

theorem k4_pay4_eq : k4_pay4 (F := Ideal) = fun _ => 0 := k2_pay4_eq

theorem k4_pay5_eq : k4_pay5 (F := Ideal) = fun _ => 0 := k2_pay5_eq

theorem k4_pay2_apply (s : FVec Ideal S1x128 .f32) (j : Fin 128) :
    k4_pay2 (F := Ideal) s (ix2 (0 : Fin 1) j) = Ideal.div (s (ix2 (0 : Fin 1) j)) Cert.Spec.cN :=
  k2_pay2_apply s j

theorem k4_pay3_apply (s q : FVec Ideal S1x128 .f32) (j : Fin 128) :
    k4_pay3 (F := Ideal) s q (ix2 (0 : Fin 1) j)
      = Ideal.div (q (ix2 (0 : Fin 1) j)) Cert.Spec.cN
        - Ideal.div (s (ix2 (0 : Fin 1) j)) Cert.Spec.cN * Ideal.div (s (ix2 (0 : Fin 1) j)) Cert.Spec.cN :=
  k2_pay3_apply s q j

end Region4

section Region5

/-! ### Region 5: the same normalising body as region 1 -/

theorem k5_pay1_apply (x : FVec Ideal S5000x128 .f32) (mu v g b : FVec Ideal S1x128 .f32) (r : Fin 5000) (j : Fin 128) :
    k5_pay1 (F := Ideal) x mu v g b (ix2 r j)
      = max (((g (ix2 (0 : Fin 1) j) * (x (ix2 r j) - mu (ix2 (0 : Fin 1) j)))
              * Ideal.rsqrt (v (ix2 (0 : Fin 1) j) + Cert.Spec.cEps)) + b (ix2 (0 : Fin 1) j)) 0 :=
  k1_pay1_apply x mu v g b r j

end Region5

section Region6

/-! ### Region 6: the same linear part and statistics as region 2 -/

theorem k6_pay6_apply (x a : FVec Ideal S5000x128 .f32) (wr wo : FVec Ideal S128x128 .f32) (br bo : FVec Ideal S1x128 .f32)
    (r : Fin 5000) (j : Fin 128) :
    k6_pay6 (F := Ideal) x a wr wo br bo (ix2 r j)
      = (((∑ k : Fin 128, x (ix2 r k) * wr (ix2 k j)) + br (ix2 (0 : Fin 1) j))
          + (∑ k : Fin 128, a (ix2 r k) * wo (ix2 k j))) + bo (ix2 (0 : Fin 1) j) :=
  k2_pay6_apply x a wr wo br bo r j

theorem k6_pay7_apply (x a : FVec Ideal S5000x128 .f32) (wr wo : FVec Ideal S128x128 .f32) (br bo s : FVec Ideal S1x128 .f32)
    (j : Fin 128) :
    k6_pay7 (F := Ideal) x a wr wo br bo s (ix2 (0 : Fin 1) j)
      = s (ix2 (0 : Fin 1) j) + ∑ r : Fin 5000, k6_pay6 (F := Ideal) x a wr wo br bo (ix2 r j) :=
  k2_pay7_apply x a wr wo br bo s j

theorem k6_pay1_apply (v : FVec Ideal S5000x128 .f32) (s : FVec Ideal S1x128 .f32) (j : Fin 128) :
    k6_pay1 (F := Ideal) v s (ix2 (0 : Fin 1) j)
      = s (ix2 (0 : Fin 1) j) + ∑ r : Fin 5000, v (ix2 r j) * v (ix2 r j) :=
  k2_pay1_apply v s j

theorem k6_pay4_eq : k6_pay4 (F := Ideal) = fun _ => 0 := k2_pay4_eq

theorem k6_pay5_eq : k6_pay5 (F := Ideal) = fun _ => 0 := k2_pay5_eq

theorem k6_pay2_apply (s : FVec Ideal S1x128 .f32) (j : Fin 128) :
    k6_pay2 (F := Ideal) s (ix2 (0 : Fin 1) j) = Ideal.div (s (ix2 (0 : Fin 1) j)) Cert.Spec.cN :=
  k2_pay2_apply s j

theorem k6_pay3_apply (s q : FVec Ideal S1x128 .f32) (j : Fin 128) :
    k6_pay3 (F := Ideal) s q (ix2 (0 : Fin 1) j)
      = Ideal.div (q (ix2 (0 : Fin 1) j)) Cert.Spec.cN
        - Ideal.div (s (ix2 (0 : Fin 1) j)) Cert.Spec.cN * Ideal.div (s (ix2 (0 : Fin 1) j)) Cert.Spec.cN :=
  k2_pay3_apply s q j

end Region6

section Region7

/-! ### Region 7: the same normalising body as region 1 -/

theorem k7_pay1_apply (x : FVec Ideal S5000x128 .f32) (mu v g b : FVec Ideal S1x128 .f32) (r : Fin 5000) (j : Fin 128) :
    k7_pay1 (F := Ideal) x mu v g b (ix2 r j)
      = max (((g (ix2 (0 : Fin 1) j) * (x (ix2 r j) - mu (ix2 (0 : Fin 1) j)))
              * Ideal.rsqrt (v (ix2 (0 : Fin 1) j) + Cert.Spec.cEps)) + b (ix2 (0 : Fin 1) j)) 0 :=
  k1_pay1_apply x mu v g b r j

end Region7

section Region8

/-! ### Region 8: the same linear part and statistics as region 2 -/

theorem k8_pay6_apply (x a : FVec Ideal S5000x128 .f32) (wr wo : FVec Ideal S128x128 .f32) (br bo : FVec Ideal S1x128 .f32)
    (r : Fin 5000) (j : Fin 128) :
    k8_pay6 (F := Ideal) x a wr wo br bo (ix2 r j)
      = (((∑ k : Fin 128, x (ix2 r k) * wr (ix2 k j)) + br (ix2 (0 : Fin 1) j))
          + (∑ k : Fin 128, a (ix2 r k) * wo (ix2 k j))) + bo (ix2 (0 : Fin 1) j) :=
  k2_pay6_apply x a wr wo br bo r j

theorem k8_pay7_apply (x a : FVec Ideal S5000x128 .f32) (wr wo : FVec Ideal S128x128 .f32) (br bo s : FVec Ideal S1x128 .f32)
    (j : Fin 128) :
    k8_pay7 (F := Ideal) x a wr wo br bo s (ix2 (0 : Fin 1) j)
      = s (ix2 (0 : Fin 1) j) + ∑ r : Fin 5000, k8_pay6 (F := Ideal) x a wr wo br bo (ix2 r j) :=
  k2_pay7_apply x a wr wo br bo s j

theorem k8_pay1_apply (v : FVec Ideal S5000x128 .f32) (s : FVec Ideal S1x128 .f32) (j : Fin 128) :
    k8_pay1 (F := Ideal) v s (ix2 (0 : Fin 1) j)
      = s (ix2 (0 : Fin 1) j) + ∑ r : Fin 5000, v (ix2 r j) * v (ix2 r j) :=
  k2_pay1_apply v s j

theorem k8_pay4_eq : k8_pay4 (F := Ideal) = fun _ => 0 := k2_pay4_eq

theorem k8_pay5_eq : k8_pay5 (F := Ideal) = fun _ => 0 := k2_pay5_eq

theorem k8_pay2_apply (s : FVec Ideal S1x128 .f32) (j : Fin 128) :
    k8_pay2 (F := Ideal) s (ix2 (0 : Fin 1) j) = Ideal.div (s (ix2 (0 : Fin 1) j)) Cert.Spec.cN :=
  k2_pay2_apply s j

theorem k8_pay3_apply (s q : FVec Ideal S1x128 .f32) (j : Fin 128) :
    k8_pay3 (F := Ideal) s q (ix2 (0 : Fin 1) j)
      = Ideal.div (q (ix2 (0 : Fin 1) j)) Cert.Spec.cN
        - Ideal.div (s (ix2 (0 : Fin 1) j)) Cert.Spec.cN * Ideal.div (s (ix2 (0 : Fin 1) j)) Cert.Spec.cN :=
  k2_pay3_apply s q j

end Region8

section Region9

/-! ### Region 9: the same normalising body as region 1 -/

theorem k9_pay1_apply (x : FVec Ideal S5000x128 .f32) (mu v g b : FVec Ideal S1x128 .f32) (r : Fin 5000) (j : Fin 128) :
    k9_pay1 (F := Ideal) x mu v g b (ix2 r j)
      = max (((g (ix2 (0 : Fin 1) j) * (x (ix2 r j) - mu (ix2 (0 : Fin 1) j)))
              * Ideal.rsqrt (v (ix2 (0 : Fin 1) j) + Cert.Spec.cEps)) + b (ix2 (0 : Fin 1) j)) 0 :=
  k1_pay1_apply x mu v g b r j

end Region9

end Cert.KernelIdeal.PayValue

end
-- ==== Proof.KI.StatsHnew0.lean ====
import proofs.«162849_j29643864277577_1_alg».proof.Proof.KI.StatsArr0
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 0: what it leaves in its first output array

The region's body stores, at grid point `t`, one 5000-row tile of the layer's linear part: the tile of the aggregated
messages times the first weight matrix, plus the first bias row, plus the tile of the node features times the second
weight matrix, plus the second bias row. The pipeline writes that tile back at every point, to rows 5000 t … 5000 t +
4999 of the output array, and the ten tiles fill the array's 50000 rows. So after the region the array holds, at every
row `i` and lane `j`,

    ((∑ k, agg i k · W_rel k j) + b_rel j) + (∑ k, h i k · W_root k j) + b_root j ,

the specification's `lin` of the six arrays the region reads, as it finds them.

The steps: where each window's block sits at a point (decided over the ten points); each input block read off its
array entry by entry; the stored tile at one entry as `lin` at the entry's place in the array; hence the block a point
writes back is its block of the one whole-array function; the ten blocks cover every index; so the array is that
function. Everything up to the last statement is for any proof data of the region's pipeline whose body leaves the
stored tile in the output's buffer. -/

open Idealize.ShloMosaic.ValueIdx

section Regions
variable (V : (c : Dev nD) → (b : Ref sig .tc) → Buf (Elt Ideal) ((c : Thread nD τ).loc b))

/-! ## Where each window's block sits -/

/-- The printed index maps, decided once over the ten grid points: the two row tiles and the output tile sit at
    block row `t`, block column 0; the weights and the bias rows are whole, at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## Each input block, read off its array -/

/-- Row tile `t` of the aggregated messages: its entry (r, k) is the array's entry (5000 t + r, k). -/
theorem iblk0_0_at (c : Dev nD) (t : Fin cfg0.N) (p : S5000x128.Idx) (q : S50000x128.Idx)
    (h0 : (q 0).val = t.val * 5000 + (p 0).val) (h1 : (q 1).val = (p 1).val) :
    (iblk0 V c 0 t : FVec Ideal S5000x128 .f32) p = arr0_0 V c q := by
  obtain ⟨e0, e1⟩ := (idx_facts0 t).1
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (p 0).val = (q 0).val; rw [e0, h0]; omega
  | ⟨1, _⟩ => show win0_0.index t (1 : Fin 2) * 128 + 1 * (p 1).val = (q 1).val; rw [e1, h1]; omega

/-- Row tile `t` of the node features: its entry (r, k) is the array's entry (5000 t + r, k). -/
theorem iblk0_1_at (c : Dev nD) (t : Fin cfg0.N) (p : S5000x128.Idx) (q : S50000x128.Idx)
    (h0 : (q 0).val = t.val * 5000 + (p 0).val) (h1 : (q 1).val = (p 1).val) :
    (iblk0 V c 1 t : FVec Ideal S5000x128 .f32) p = arr0_1 V c q := by
  obtain ⟨e0, e1⟩ := (idx_facts0 t).2.1
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * (p 0).val = (q 0).val; rw [e0, h0]; omega
  | ⟨1, _⟩ => show win0_1.index t (1 : Fin 2) * 128 + 1 * (p 1).val = (q 1).val; rw [e1, h1]; omega

/-- The first weight matrix comes in whole: its block at every point is the array. -/
theorem iblk0_2_at (c : Dev nD) (t : Fin cfg0.N) (p : S128x128.Idx) :
    (iblk0 V c 2 t : FVec Ideal S128x128 .f32) p = arr0_2 V c p := by
  obtain ⟨e0, e1⟩ := (idx_facts0 t).2.2.1
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (p 0).val = (p 0).val; rw [e0]; omega
  | ⟨1, _⟩ => show win0_2.index t (1 : Fin 2) * 128 + 1 * (p 1).val = (p 1).val; rw [e1]; omega

/-- The first bias row comes in whole: its block at every point is the array. -/
theorem iblk0_3_at (c : Dev nD) (t : Fin cfg0.N) (p : S1x128.Idx) :
    (iblk0 V c 3 t : FVec Ideal S1x128 .f32) p = arr0_3 V c p := by
  obtain ⟨e0, e1⟩ := (idx_facts0 t).2.2.2.1
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (p 0).val = (p 0).val; rw [e0]; omega
  | ⟨1, _⟩ => show win0_3.index t (1 : Fin 2) * 128 + 1 * (p 1).val = (p 1).val; rw [e1]; omega

/-- The second weight matrix comes in whole: its block at every point is the array. -/
theorem iblk0_4_at (c : Dev nD) (t : Fin cfg0.N) (p : S128x128.Idx) :
    (iblk0 V c 4 t : FVec Ideal S128x128 .f32) p = arr0_4 V c p := by
  obtain ⟨e0, e1⟩ := (idx_facts0 t).2.2.2.2.1
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 128 + 1 * (p 0).val = (p 0).val; rw [e0]; omega
  | ⟨1, _⟩ => show win0_4.index t (1 : Fin 2) * 128 + 1 * (p 1).val = (p 1).val; rw [e1]; omega

/-- The second bias row comes in whole: its block at every point is the array. -/
theorem iblk0_5_at (c : Dev nD) (t : Fin cfg0.N) (p : S1x128.Idx) :
    (iblk0 V c 5 t : FVec Ideal S1x128 .f32) p = arr0_5 V c p := by
  obtain ⟨e0, e1⟩ := (idx_facts0 t).2.2.2.2.2.1
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 1 + 1 * (p 0).val = (p 0).val; rw [e0]; omega
  | ⟨1, _⟩ => show win0_5.index t (1 : Fin 2) * 128 + 1 * (p 1).val = (p 1).val; rw [e1]; omega

/-! ## The tile the body stores, entry by entry -/

/-- The stored tile at row `r`, lane `j`, when the tile's operand rows are rows `i` of two tall arrays and its
    weights and bias rows are those of four small arrays: the linear part of the layer at (i, j), its four terms added
    in the body's order. -/
theorem lin_tile0_at (A H : FVec Ideal S50000x128 .f32) (Wr Wo : FVec Ideal S128x128 .f32) (Br Bo : FVec Ideal S1x128 .f32)
    (x a : FVec Ideal S5000x128 .f32) (wr wo : FVec Ideal S128x128 .f32) (br bo : FVec Ideal S1x128 .f32)
    (r : Fin 5000) (j : Fin 128) (i : Fin 50000)
    (hx : ∀ k : Fin 128, x (ix2 r k) = A (ix2 i k)) (ha : ∀ k : Fin 128, a (ix2 r k) = H (ix2 i k))
    (hwr : ∀ k : Fin 128, wr (ix2 k j) = Wr (ix2 k j)) (hwo : ∀ k : Fin 128, wo (ix2 k j) = Wo (ix2 k j))
    (hbr : br (ix2 (0 : Fin 1) j) = Br (ix2 (0 : Fin 1) j)) (hbo : bo (ix2 (0 : Fin 1) j) = Bo (ix2 (0 : Fin 1) j)) :
    k0_pay6 (F := Ideal) x a wr wo br bo (ix2 r j)
      = Cert.Spec.lin (fun i k => A (ix2 i k)) (fun i k => H (ix2 i k)) (fun k j => Wr (ix2 k j)) (fun k j => Wo (ix2 k j))
          (fun j => Br (ix2 (0 : Fin 1) j)) (fun j => Bo (ix2 (0 : Fin 1) j)) i j := by
  rw [Cert.KernelIdeal.PayValue.k0_pay6_apply]
  unfold Cert.Spec.lin
  simp only [hx, ha, hwr, hwo, hbr, hbo]

/-! ## The whole output array -/

/-- What the output array ends holding: the linear part of the layer, of the six arrays as the region finds them. -/
abbrev hnewArr0 (c : Dev nD) : FVec Ideal S50000x128 .f32 := fun q =>
  Cert.Spec.lin (fun i k => arr0_0 V c (ix2 i k)) (fun i k => arr0_1 V c (ix2 i k)) (fun k j => arr0_2 V c (ix2 k j))
    (fun k j => arr0_4 V c (ix2 k j)) (fun j => arr0_3 V c (ix2 0 j)) (fun j => arr0_5 V c (ix2 0 j)) (q 0) (q 1)

/-- What point `t` writes back is block `t` of that array: rows 5000 t … 5000 t + 4999, every lane. Stated for any
    proof data of the region's pipeline whose body leaves in the output's buffer the stored tile of the point's
    input blocks. -/
theorem hnew0_flushed_of {c : Dev nD} (dat : Dat τ (Elt Ideal) Unit ℕ (UR sig nD τ) ℕ cfg0 c)
    (hafter : ∀ t : Fin cfg0.N, dat.after 6 t = k0_pay6 (iblk0 V c 0 t) (iblk0 V c 1 t) (iblk0 V c 2 t) (iblk0 V c 4 t) (iblk0 V c 3 t) (iblk0 V c 5 t))
    (t : Fin cfg0.N) :
    dat.flushed 6 t = ((cfg0.win 6).blk t).view.read (Elt Ideal) (hnewArr0 V c) := by
  show (cfg0.win 6).cut (grid0.coords t) (dat.after 6 t) = _
  rw [hafter]
  funext y
  have hy0 : (y 0).val < 5000 := (y 0).isLt
  have hy1 : (y 1).val < 128 := (y 1).isLt
  have ht : t.val < 10 := t.isLt
  obtain ⟨e0, e1⟩ := (idx_facts0 t).2.2.2.2.2.2
  have hin : (cfg0.win 6).xinj (grid0.coords t) y = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg0.win 6).blk t).view.emb y = (ix2 (⟨t.val * 5000 + (y 0).val, by omega⟩ : Fin 50000) (⟨(y 1).val, hy1⟩ : Fin 128) : S50000x128.Idx) := by
    funext a
    apply Fin.ext
    match a with
    | ⟨0, _⟩ => show win0_6.index t (0 : Fin 2) * 5000 + 1 * (y 0).val = t.val * 5000 + (y 0).val; rw [e0]; omega
    | ⟨1, _⟩ => show win0_6.index t (1 : Fin 2) * 128 + 1 * (y 1).val = (y 1).val; rw [e1]; omega
  show k0_pay6 (F := Ideal) (iblk0 V c 0 t) (iblk0 V c 1 t) (iblk0 V c 2 t) (iblk0 V c 4 t) (iblk0 V c 3 t) (iblk0 V c 5 t) ((cfg0.win 6).xinj (grid0.coords t) y)
      = hnewArr0 V c (((cfg0.win 6).blk t).view.emb y)
  rw [hin, hemb]
  exact lin_tile0_at (arr0_0 V c) (arr0_1 V c) (arr0_2 V c) (arr0_4 V c) (arr0_3 V c) (arr0_5 V c)
    (iblk0 V c 0 t) (iblk0 V c 1 t) (iblk0 V c 2 t) (iblk0 V c 4 t) (iblk0 V c 3 t) (iblk0 V c 5 t)
    ⟨(y 0).val, hy0⟩ ⟨(y 1).val, hy1⟩ ⟨t.val * 5000 + (y 0).val, by omega⟩
    (fun k => iblk0_0_at V c t (ix2 ⟨(y 0).val, hy0⟩ k) (ix2 ⟨t.val * 5000 + (y 0).val, by omega⟩ k) rfl rfl)
    (fun k => iblk0_1_at V c t (ix2 ⟨(y 0).val, hy0⟩ k) (ix2 ⟨t.val * 5000 + (y 0).val, by omega⟩ k) rfl rfl)
    (fun k => iblk0_2_at V c t (ix2 k ⟨(y 1).val, hy1⟩))
    (fun k => iblk0_4_at V c t (ix2 k ⟨(y 1).val, hy1⟩))
    (iblk0_3_at V c t (ix2 (0 : Fin 1) ⟨(y 1).val, hy1⟩))
    (iblk0_5_at V c t (ix2 (0 : Fin 1) ⟨(y 1).val, hy1⟩))

/-! ## The blocks tile the array -/

/-- An index of the array is in point `t`'s block iff each coordinate is in the block's range on its axis. -/
theorem mem_blk0_6 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole (Pipeline.arrRef spec0 6)).slice (win0_6.rect t)).set ↔ _
  rw [View.set_slice_whole, Rect.mem_set_unit]
  exact Iff.rfl

/-- Every index is in some point's block: row `i` is in the block of point `i / 5000`. -/
theorem hnew0_cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := rfl
  have hlt : (i 0).val / 5000 < cfg0.N := by rw [hN]; omega
  obtain ⟨e0, e1⟩ := (idx_facts0 ⟨(i 0).val / 5000, hlt⟩).2.2.2.2.2.2
  refine ⟨⟨(i 0).val / 5000, hlt⟩, flush0_6 _, ?_⟩
  rw [mem_blk0_6]
  intro a
  match a with
  | ⟨0, _⟩ =>
    show win0_6.index ⟨(i 0).val / 5000, hlt⟩ (0 : Fin 2) * 5000 ≤ (i 0).val ∧ (i 0).val < win0_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_6.index ⟨(i 0).val / 5000, hlt⟩ (1 : Fin 2) * 128 ≤ (i 1).val ∧ (i 1).val < win0_6.index ⟨(i 0).val / 5000, hlt⟩ (1 : Fin 2) * 128 + 128
    rw [e1]; omega

/-- So the array ends holding the linear part of the layer everywhere. -/
theorem hnew0_final_of {c : Dev nD} (dat : Dat τ (Elt Ideal) Unit ℕ (UR sig nD τ) ℕ cfg0 c)
    (hafter : ∀ t : Fin cfg0.N, dat.after 6 t = k0_pay6 (iblk0 V c 0 t) (iblk0 V c 1 t) (iblk0 V c 2 t) (iblk0 V c 4 t) (iblk0 V c 3 t) (iblk0 V c 5 t)) :
    dat.arrAt 6 cfg0.N = hnewArr0 V c :=
  dat.arrAt_eq_of_cover 6 (hnewArr0 V c) (fun t _ => hnew0_flushed_of V dat hafter t) hnew0_cover

end Regions

section Regions

variable (V : (c : Dev nD) → (b : Ref sig .tc) → Buf (Elt Ideal) ((c : Thread nD τ).loc b))

/-- THE OUTPUT ARRAY after the region, entry by entry: the linear part of the layer at row `i`, lane `j`, of the
    aggregated messages, the node features, the two weight matrices and the two bias rows as the region finds them —
    given that what the body leaves in the output's buffer at each point is the stored tile of that point's blocks. -/
theorem hnew0_arr (c : Dev nD)
    (hnewTile0 : ∀ t : Fin cfg0.N, (outsAt0 V c t.val t.isLt).1
      = k0_pay6 (iblk0 V c 0 t) (iblk0 V c 1 t) (iblk0 V c 2 t) (iblk0 V c 4 t) (iblk0 V c 3 t) (iblk0 V c 5 t))
    (i : Fin 50000) (j : Fin 128) :
    (dat0 (F := Ideal) V c).arrAt 6 cfg0.N (ix2 i j)
      = Cert.Spec.lin (fun i k => arr0_0 V c (ix2 i k)) (fun i k => arr0_1 V c (ix2 i k)) (fun k j => arr0_2 V c (ix2 k j))
          (fun k j => arr0_4 V c (ix2 k j)) (fun j => arr0_3 V c (ix2 0 j)) (fun j => arr0_5 V c (ix2 0 j)) i j :=
  congrFun (hnew0_final_of V (dat0 V c) (fun t => (after0_6 V c t).trans (hnewTile0 t))) (ix2 i j)

end Regions

end Cert.KernelIdeal.Hand

end
-- ==== Proof.KI.StatsPieces0.lean ====
/-
  Kernel region 0: what the body leaves at each grid point, as the body's own arithmetic.

  The body's stores are found as lists of pieces, one list per buffer. Each list reads back to one closed term over
  what the body loaded: the output tile is the linear part's tile of the six input blocks; the running column sum is
  the row it started the point with (the zero row at the first point, since the reset is read back) plus the tile's
  column sums; the running column sum of squares likewise with the squares; and at the last point the mean row and the
  variance row are computed from the two running sums as just updated, because the body reads them back after storing
  them. From these, by the case of the point, come the equations of the walk over the ten tiles: the tile at every
  point, the two running sums at the first point and at each later one from the point before, and the two statistics
  rows at the last point. Everything here holds for any float arithmetic.
-/
import proofs.«162849_j29643864277577_1_alg».proof.Proof.KI.Stats0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Per case: the pieces read back to the body's payloads -/

/-- The zero offsets of a whole-buffer load or store, however they are spelt. -/
theorem hz0 : (![0, 0] : Fin 2 → Nat) = fun _ => 0 := funext fun a => by
  match a with
  | ⟨0, _⟩ => rfl
  | ⟨1, _⟩ => rfl

set_option maxHeartbeats 1000000 in
/-- At the first point the body leaves in the output tile the linear part's tile of the six loaded blocks: one store covers the tile, and its loads read the whole input buffers. -/
theorem tile0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    out0_A_6 c i arg1 harg1 arg2 harg2 arg3 harg3 arg4 harg4 arg5 harg5 arg6 harg6 arg7 harg7 arg8 harg8 arg9 harg9 arg10 harg10 arg11 harg11 hc0 hc1 x0 x1 x2 x3 x4 x5 = k0_pay6 x0 x1 x2 x4 x3 x5 := by
  unfold out0_A_6
  rw [View.read_writes_junk_eq_canon]
  unfold kernelRun0_A
  dsimp only
  sl_unfold_words
  rw [View.canon_unit_zero (S := S5000x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the first point the running sum is reset to the zero row, read back, and grown by the tile's column sums. -/
theorem sum0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = k0_pay7 x0 x1 x2 x4 x3 x5 (k0_pay4 (F := F)) := by
  unfold sout0_A_0
  rw [View.read_writes_junk_eq_canon]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the first point the running sum of squares is reset to the zero row, read back, and grown by the column sums of the tile's squares. -/
theorem sq0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = k0_pay1 (k0_pay6 x0 x1 x2 x4 x3 x5) (k0_pay5 (F := F)) := by
  unfold sout0_A_1
  rw [View.read_writes_junk_eq_canon]
  unfold kernelRun0_A
  dsimp only
  sl_unfold_words
  rw [View.canon_cons_unit_zero (S := S1x128) hz0, View.readCov_unit_zero (S := S1x128) _ hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At a middle point the body leaves in the output tile the linear part's tile of the six loaded blocks. -/
theorem tile0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay6 x0 x1 x2 x4 x3 x5 := by
  unfold out0_B_6
  rw [View.read_writes_junk_eq_canon]
  unfold kernelRun0_B
  dsimp only
  sl_unfold_words
  rw [View.canon_unit_zero (S := S5000x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At a middle point the running sum the point before left grows by the tile's column sums. -/
theorem sum0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x1 x2 x4 x3 x5 xs0 := by
  unfold sout0_B_0
  rw [View.read_writes_junk_eq_canon]
  unfold kernelRun0_B
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At a middle point the running sum of squares the point before left grows by the column sums of the tile's squares. -/
theorem sq0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : ¬cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5) xs1 := by
  unfold sout0_B_1
  rw [View.read_writes_junk_eq_canon]
  unfold kernelRun0_B
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the last point the body leaves in the output tile the linear part's tile of the six loaded blocks. -/
theorem tile0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay6 x0 x1 x2 x4 x3 x5 := by
  unfold out0_C_6
  rw [View.read_writes_junk_eq_canon]
  unfold kernelRun0_C
  dsimp only
  sl_unfold_words
  rw [View.canon_unit_zero (S := S5000x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the last point the running sum the point before left grows by the tile's column sums. -/
theorem sum0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay7 x0 x1 x2 x4 x3 x5 xs0 := by
  unfold sout0_C_0
  rw [View.read_writes_junk_eq_canon]
  unfold kernelRun0_C
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the last point the running sum of squares the point before left grows by the column sums of the tile's squares. -/
theorem sq0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay6 x0 x1 x2 x4 x3 x5) xs1 := by
  unfold sout0_C_1
  rw [View.read_writes_junk_eq_canon]
  unfold kernelRun0_C
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the last point the mean row is the final running sum, read back, over the number of rows. -/
theorem mean0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay7 x0 x1 x2 x4 x3 x5 xs0) := by
  unfold out0_C_7
  rw [View.read_writes_junk_eq_canon]
  unfold kernelRun0_C
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

set_option maxHeartbeats 1000000 in
/-- At the last point the variance row is the final running sum of squares, read back, over the number of rows, minus the squared mean. -/
theorem var0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond0_0 i) (hc1 : cond0_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k0_pay3 (k0_pay7 x0 x1 x2 x4 x3 x5 xs0) (k0_pay1 (k0_pay6 x0 x1 x2 x4 x3 x5) xs1) := by
  unfold out0_C_8
  rw [View.read_writes_junk_eq_canon]
  unfold kernelRun0_C
  dsimp only
  sl_unfold_words
  rw [View.canon_unit_zero (S := S1x128) hz0]
  simp only [View.readAt_eq_ld, harg1.read_unread, harg2.read_unread, harg3.read_unread, harg4.read_unread, harg5.read_unread, harg6.read_unread, harg10.read_unread, harg11.read_unread, View.ld_unit_zero (S := S5000x128) hz0, View.ld_unit_zero (S := S128x128) hz0, View.ld_unit_zero (S := S1x128) hz0, View.readCov_unit_zero (S := S1x128) _ hz0, View.readCov_unit_zero (S := S5000x128) _ hz0]

/-! ## The equations of the walk, about what the buffers hold after each point

By the case of the point: the first point runs the first case, the last point the last, every other the middle one;
each component of the contents is then the case's piece, read above. -/

section Regions

variable (V : (c : Dev nD) → (b : Ref sig .tc) → Buf (Elt F) ((c : Thread nD τ).loc b))

set_option maxHeartbeats 1000000 in
/-- At every point the output tile is the body's tile of the point's six blocks. -/
theorem hnewTile0 (c : Dev nD) (t : Fin cfg0.N) :
    (outsAt0 V c t.val t.isLt).1 = k0_pay6 (iblk0 V c 0 t) (iblk0 V c 1 t) (iblk0 V c 2 t) (iblk0 V c 4 t) (iblk0 V c 3 t) (iblk0 V c 5 t) := by
  by_cases h0 : t.val = 0
  · have h1 : ¬t.val = 9 := by omega
    rw [outsAt0_A V c t h0 h1]; dsimp only
    exact tile0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hh => h1 ((hcond0_1 t).mp hh)) (iblk0 V c 0 t) (iblk0 V c 1 t) (iblk0 V c 2 t) (iblk0 V c 3 t) (iblk0 V c 4 t) (iblk0 V c 5 t)
  · by_cases h1 : t.val = 9
    · rw [outsAt0_C V c t h0 h1]; dsimp only
      exact tile0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]; dsimp only
      exact tile0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) (fun hh => h1 ((hcond0_1 t).mp hh)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2

set_option maxHeartbeats 1000000 in
/-- After the first point the running sum is the zero row grown by the first tile's column sums. -/
theorem scr0_zero0 (c : Dev nD) (h : 0 < cfg0.N) :
    (outsAt0 V c 0 h).2.2.2.1 = k0_pay7 (iblk0 V c 0 (⟨0, h⟩ : Fin cfg0.N)) (iblk0 V c 1 (⟨0, h⟩ : Fin cfg0.N)) (iblk0 V c 2 (⟨0, h⟩ : Fin cfg0.N)) (iblk0 V c 4 (⟨0, h⟩ : Fin cfg0.N)) (iblk0 V c 3 (⟨0, h⟩ : Fin cfg0.N)) (iblk0 V c 5 (⟨0, h⟩ : Fin cfg0.N)) (k0_pay4 (F := F)) := by
  have h0 : (⟨0, h⟩ : Fin cfg0.N).val = 0 := rfl
  have h1 : ¬(⟨0, h⟩ : Fin cfg0.N).val = 9 := by show ¬(0 : ℕ) = 9; omega
  show (outsAt0 V c (⟨0, h⟩ : Fin cfg0.N).val (⟨0, h⟩ : Fin cfg0.N).isLt).2.2.2.1 = _
  rw [outsAt0_A V c (⟨0, h⟩ : Fin cfg0.N) h0 h1]; dsimp only
  exact sum0_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (iblk0 V c 5 (⟨0, h⟩ : Fin cfg0.N))

set_option maxHeartbeats 1000000 in
/-- After a later point the running sum is the one the point before left, grown by this tile's column sums. -/
theorem scr0_succ0 (c : Dev nD) (n : ℕ) (hn : n + 1 < cfg0.N) :
    (outsAt0 V c (n + 1) hn).2.2.2.1 = k0_pay7 (iblk0 V c 0 (⟨n + 1, hn⟩ : Fin cfg0.N)) (iblk0 V c 1 (⟨n + 1, hn⟩ : Fin cfg0.N)) (iblk0 V c 2 (⟨n + 1, hn⟩ : Fin cfg0.N)) (iblk0 V c 4 (⟨n + 1, hn⟩ : Fin cfg0.N)) (iblk0 V c 3 (⟨n + 1, hn⟩ : Fin cfg0.N)) (iblk0 V c 5 (⟨n + 1, hn⟩ : Fin cfg0.N)) (outsAt0 V c n (Nat.lt_of_succ_lt hn)).2.2.2.1 := by
  have h0 : ¬(⟨n + 1, hn⟩ : Fin cfg0.N).val = 0 := Nat.succ_ne_zero n
  show (outsAt0 V c (⟨n + 1, hn⟩ : Fin cfg0.N).val (⟨n + 1, hn⟩ : Fin cfg0.N).isLt).2.2.2.1 = _
  by_cases h1 : (⟨n + 1, hn⟩ : Fin cfg0.N).val = 9
  · rw [outsAt0_C V c (⟨n + 1, hn⟩ : Fin cfg0.N) h0 h1]; dsimp only
    exact sum0_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) scM0_0 (Memref.isWhole_whole _) scM0_1 (Memref.isWhole_whole _) (fun hh => h0 ((hcond0_0 (⟨n + 1, hn⟩ : Fin cfg0.N)).mp hh)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
  · rw [outsAt0_B V c (⟨n + 1, hn⟩ : Fin cfg0.N) h0 h1]; dsimp only
    exact sum0_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) scM0_0 (Memref.isWhole_whole _) scM0_1 (Memref.isWhole_whole _) (fun hh => h0 ((hcond0_0 (⟨n + 1, hn⟩ : Fin cfg0.N)).mp hh)) (fun hh => h1 ((hcond0_1 (⟨n + 1, hn⟩ : Fin cfg0.N)).mp hh)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2

set_option maxHeartbeats 1000000 in
/-- After the first point the running sum of squares is the zero row grown by the column sums of the first tile's squares. -/
theorem sq0_zero0 (c : Dev nD) (h : 0 < cfg0.N) :
    (outsAt0 V c 0 h).2.2.2.2 = k0_pay1 (outsAt0 V c 0 h).1 (k0_pay5 (F := F)) := by
  have h0 : (⟨0, h⟩ : Fin cfg0.N).val = 0 := rfl
  have h1 : ¬(⟨0, h⟩ : Fin cfg0.N).val = 9 := by show ¬(0 : ℕ) = 9; omega
  have e : (outsAt0 V c 0 h).1 = k0_pay6 (iblk0 V c 0 (⟨0, h⟩ : Fin cfg0.N)) (iblk0 V c 1 (⟨0, h⟩ : Fin cfg0.N)) (iblk0 V c 2 (⟨0, h⟩ : Fin cfg0.N)) (iblk0 V c 4 (⟨0, h⟩ : Fin cfg0.N)) (iblk0 V c 3 (⟨0, h⟩ : Fin cfg0.N)) (iblk0 V c 5 (⟨0, h⟩ : Fin cfg0.N)) := hnewTile0 V c (⟨0, h⟩ : Fin cfg0.N)
  rw [e]
  show (outsAt0 V c (⟨0, h⟩ : Fin cfg0.N).val (⟨0, h⟩ : Fin cfg0.N).isLt).2.2.2.2 = _
  rw [outsAt0_A V c (⟨0, h⟩ : Fin cfg0.N) h0 h1]; dsimp only
  exact sq0_A c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) scM0_0 (Memref.isWhole_whole _) scM0_1 (Memref.isWhole_whole _) ((hcond0_0 (⟨0, h⟩ : Fin cfg0.N)).mpr h0) (fun hh => h1 ((hcond0_1 (⟨0, h⟩ : Fin cfg0.N)).mp hh)) (iblk0 V c 0 (⟨0, h⟩ : Fin cfg0.N)) (iblk0 V c 1 (⟨0, h⟩ : Fin cfg0.N)) (iblk0 V c 2 (⟨0, h⟩ : Fin cfg0.N)) (iblk0 V c 3 (⟨0, h⟩ : Fin cfg0.N)) (iblk0 V c 4 (⟨0, h⟩ : Fin cfg0.N)) (iblk0 V c 5 (⟨0, h⟩ : Fin cfg0.N))

set_option maxHeartbeats 1000000 in
/-- After a later point the running sum of squares is the one the point before left, grown by the column sums of this tile's squares. -/
theorem sq0_succ0 (c : Dev nD) (n : ℕ) (hn : n + 1 < cfg0.N) :
    (outsAt0 V c (n + 1) hn).2.2.2.2 = k0_pay1 (outsAt0 V c (n + 1) hn).1 (outsAt0 V c n (Nat.lt_of_succ_lt hn)).2.2.2.2 := by
  have h0 : ¬(⟨n + 1, hn⟩ : Fin cfg0.N).val = 0 := Nat.succ_ne_zero n
  have e : (outsAt0 V c (n + 1) hn).1 = k0_pay6 (iblk0 V c 0 (⟨n + 1, hn⟩ : Fin cfg0.N)) (iblk0 V c 1 (⟨n + 1, hn⟩ : Fin cfg0.N)) (iblk0 V c 2 (⟨n + 1, hn⟩ : Fin cfg0.N)) (iblk0 V c 4 (⟨n + 1, hn⟩ : Fin cfg0.N)) (iblk0 V c 3 (⟨n + 1, hn⟩ : Fin cfg0.N)) (iblk0 V c 5 (⟨n + 1, hn⟩ : Fin cfg0.N)) := hnewTile0 V c (⟨n + 1, hn⟩ : Fin cfg0.N)
  rw [e]
  show (outsAt0 V c (⟨n + 1, hn⟩ : Fin cfg0.N).val (⟨n + 1, hn⟩ : Fin cfg0.N).isLt).2.2.2.2 = _
  by_cases h1 : (⟨n + 1, hn⟩ : Fin cfg0.N).val = 9
  · rw [outsAt0_C V c (⟨n + 1, hn⟩ : Fin cfg0.N) h0 h1]; dsimp only
    exact sq0_C c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) scM0_0 (Memref.isWhole_whole _) scM0_1 (Memref.isWhole_whole _) (fun hh => h0 ((hcond0_0 (⟨n + 1, hn⟩ : Fin cfg0.N)).mp hh)) ((hcond0_1 (⟨n + 1, hn⟩ : Fin cfg0.N)).mpr h1) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2
  · rw [outsAt0_B V c (⟨n + 1, hn⟩ : Fin cfg0.N) h0 h1]; dsimp only
    exact sq0_B c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) (ms0_3 (⟨n + 1, hn⟩ : Fin cfg0.N)) (hs0_3 (⟨n + 1, hn⟩ : Fin cfg0.N)) (ms0_4 (⟨n + 1, hn⟩ : Fin cfg0.N)) (hs0_4 (⟨n + 1, hn⟩ : Fin cfg0.N)) (ms0_5 (⟨n + 1, hn⟩ : Fin cfg0.N)) (hs0_5 (⟨n + 1, hn⟩ : Fin cfg0.N)) (ms0_6 (⟨n + 1, hn⟩ : Fin cfg0.N)) (hs0_6 (⟨n + 1, hn⟩ : Fin cfg0.N)) (ms0_7 (⟨n + 1, hn⟩ : Fin cfg0.N)) (hs0_7 (⟨n + 1, hn⟩ : Fin cfg0.N)) (ms0_8 (⟨n + 1, hn⟩ : Fin cfg0.N)) (hs0_8 (⟨n + 1, hn⟩ : Fin cfg0.N)) scM0_0 (Memref.isWhole_whole _) scM0_1 (Memref.isWhole_whole _) (fun hh => h0 ((hcond0_0 (⟨n + 1, hn⟩ : Fin cfg0.N)).mp hh)) (fun hh => h1 ((hcond0_1 (⟨n + 1, hn⟩ : Fin cfg0.N)).mp hh)) (iblk0 V c 0 (⟨n + 1, hn⟩ : Fin cfg0.N)) (iblk0 V c 1 (⟨n + 1, hn⟩ : Fin cfg0.N)) (iblk0 V c 2 (⟨n + 1, hn⟩ : Fin cfg0.N)) (iblk0 V c 3 (⟨n + 1, hn⟩ : Fin cfg0.N)) (iblk0 V c 4 (⟨n + 1, hn⟩ : Fin cfg0.N)) (iblk0 V c 5 (⟨n + 1, hn⟩ : Fin cfg0.N)) (outsAt0 V c ((⟨n + 1, hn⟩ : Fin cfg0.N).val - 1) (Nat.lt_of_le_of_lt (Nat.sub_le _ _) (⟨n + 1, hn⟩ : Fin cfg0.N).isLt)).2.2.2.1 (outsAt0 V c ((⟨n + 1, hn⟩ : Fin cfg0.N).val - 1) (Nat.lt_of_le_of_lt (Nat.sub_le _ _) (⟨n + 1, hn⟩ : Fin cfg0.N).isLt)).2.2.2.2

set_option maxHeartbeats 1000000 in
/-- At a point that is the last one, the mean row is computed from the running sum that point leaves (stated at a
    point given with the fact that it is the last, so that the walk is never unrolled). -/
theorem meanRow0 (c : Dev nD) (t : Fin cfg0.N) (h1 : t.val = 9) :
    (outsAt0 V c t.val t.isLt).2.1 = k0_pay2 (outsAt0 V c t.val t.isLt).2.2.2.1 := by
  have h0 : ¬t.val = 0 := by omega
  rw [outsAt0_C V c t h0 h1]; dsimp only
  exact (mean0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (congrArg k0_pay2 (sum0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm)

set_option maxHeartbeats 1000000 in
/-- At a point that is the last one, the variance row is computed from the two running sums that point leaves. -/
theorem varRow0 (c : Dev nD) (t : Fin cfg0.N) (h1 : t.val = 9) :
    (outsAt0 V c t.val t.isLt).2.2.1 = k0_pay3 (outsAt0 V c t.val t.isLt).2.2.2.1 (outsAt0 V c t.val t.isLt).2.2.2.2 := by
  have h0 : ¬t.val = 0 := by omega
  rw [outsAt0_C V c t h0 h1]; dsimp only
  exact (var0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).trans
    (congrArg₂ k0_pay3 (sum0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm
      (sq0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hh => h0 ((hcond0_0 t).mp hh)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.2.1 (outsAt0 V c (t.val - 1) (Nat.lt_of_le_of_lt (Nat.sub_le _ _) t.isLt)).2.2.2.2).symm)

end Regions

end Cert.KernelIdeal.Hand

end
-- ==== Proof.KI.StatsSumsCore0.lean ====
/-
  Kernel region 0 on the extended reals: from the body's step equations to the column statistics.

  The region walks the 50000 rows in ten tiles of 5000. At each tile the body stores the tile of the linear part

      lin i j = ((∑ k, agg i k · Wr k j) + br j) + (∑ k, h i k · Wo k j) + bo j ,

  adds the tile's column sums to a running row that starts from zero, and the column sums of its squares to a second
  one; at the last tile it stores the running sum over 50000 as the mean row and the running sum of squares over 50000
  minus the squared mean as the variance row.

  This module does the arithmetic of that walk once, for any point-indexed tuple of contents that satisfies the step
  equations: (1) entry (r, k) of a row tile at point t is entry (5000 t + r, k) of its array, and the weights and bias
  rows are read whole; (2) so the tile the body computes from the six blocks of point t is, at (r, j), the linear part
  at row 5000 t + r; (3) a row that starts from zero plus tile 0's column sums and grows by each next tile's is, after
  point n, the sum over tiles 0 to n, and after the last point the sum over all the rows; (4) the two statistics arrays,
  written back at the last point only through a block that is the whole row, hold after the run what the body left at
  that point; (5) hence the mean row is the column mean of the linear part and the variance row its mean of squares
  minus its squared mean.
-/
import proofs.«162849_j29643864277577_1_alg».proof.Proof.KI.Stats0Runs
import proofs.«162849_j29643864277577_1_alg».proof.Proof.KI.StatsArr0
import proofs.«162849_j29643864277577_1_alg».proof.Proof.KI.PayRead
import proofs.«162849_j29643864277577_1_alg».proof.Proof.Math.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-! ## Where a block's entry sits in its array

A block's entry sits in the array, on each axis, at the block index times the block's extent plus the coordinate
inside the block. The two row tiles move down the rows with the grid point; the weights and the bias rows are whole. -/

/-- Window 0's block index at point t is (t, 0). -/
theorem idx0_0 : ∀ t : Fin cfg0.N, win0_0.index t 0 = t.val ∧ win0_0.index t 1 = 0 :=
  (by decide +kernel : ∀ t : Fin grid0.N, win0_0.index t 0 = t.val ∧ win0_0.index t 1 = 0)
/-- Window 1's block index at point t is (t, 0). -/
theorem idx0_1 : ∀ t : Fin cfg0.N, win0_1.index t 0 = t.val ∧ win0_1.index t 1 = 0 :=
  (by decide +kernel : ∀ t : Fin grid0.N, win0_1.index t 0 = t.val ∧ win0_1.index t 1 = 0)
/-- Window 2's block index is (0, 0) at every point. -/
theorem idx0_2 : ∀ t : Fin cfg0.N, win0_2.index t 0 = 0 ∧ win0_2.index t 1 = 0 :=
  (by decide +kernel : ∀ t : Fin grid0.N, win0_2.index t 0 = 0 ∧ win0_2.index t 1 = 0)
/-- Window 3's block index is (0, 0) at every point. -/
theorem idx0_3 : ∀ t : Fin cfg0.N, win0_3.index t 0 = 0 ∧ win0_3.index t 1 = 0 :=
  (by decide +kernel : ∀ t : Fin grid0.N, win0_3.index t 0 = 0 ∧ win0_3.index t 1 = 0)
/-- Window 4's block index is (0, 0) at every point. -/
theorem idx0_4 : ∀ t : Fin cfg0.N, win0_4.index t 0 = 0 ∧ win0_4.index t 1 = 0 :=
  (by decide +kernel : ∀ t : Fin grid0.N, win0_4.index t 0 = 0 ∧ win0_4.index t 1 = 0)
/-- Window 5's block index is (0, 0) at every point. -/
theorem idx0_5 : ∀ t : Fin cfg0.N, win0_5.index t 0 = 0 ∧ win0_5.index t 1 = 0 :=
  (by decide +kernel : ∀ t : Fin grid0.N, win0_5.index t 0 = 0 ∧ win0_5.index t 1 = 0)

set_option maxHeartbeats 400000 in
/-- Entry (r, k) of window 0's tile at point t is entry (5000 t + r, k) of its array. -/
theorem iblk0_0_apply (c : Dev nD) (t : Fin cfg0.N) (r : Fin 5000) (k : Fin 128) (h : t.val * 5000 + r.val < 50000) :
    iblk0 V c 0 t (ix2 r k) = arr0_0 V c (ix2 ⟨t.val * 5000 + r.val, h⟩ k) := by
  unfold iblk0
  rw [View.read_apply]
  show V c (Pipeline.arrRef spec0 0) _ = V c (Pipeline.arrRef spec0 0) _
  congr 1
  funext a
  apply Fin.ext
  match a with
  | ⟨0, _⟩ => show win0_0.index t 0 * 5000 + 1 * r.val = t.val * 5000 + r.val; rw [(idx0_0 t).1]; omega
  | ⟨1, _⟩ => show win0_0.index t 1 * 128 + 1 * k.val = k.val; rw [(idx0_0 t).2]; omega

set_option maxHeartbeats 400000 in
/-- Entry (r, k) of window 1's tile at point t is entry (5000 t + r, k) of its array. -/
theorem iblk0_1_apply (c : Dev nD) (t : Fin cfg0.N) (r : Fin 5000) (k : Fin 128) (h : t.val * 5000 + r.val < 50000) :
    iblk0 V c 1 t (ix2 r k) = arr0_1 V c (ix2 ⟨t.val * 5000 + r.val, h⟩ k) := by
  unfold iblk0
  rw [View.read_apply]
  show V c (Pipeline.arrRef spec0 1) _ = V c (Pipeline.arrRef spec0 1) _
  congr 1
  funext a
  apply Fin.ext
  match a with
  | ⟨0, _⟩ => show win0_1.index t 0 * 5000 + 1 * r.val = t.val * 5000 + r.val; rw [(idx0_1 t).1]; omega
  | ⟨1, _⟩ => show win0_1.index t 1 * 128 + 1 * k.val = k.val; rw [(idx0_1 t).2]; omega

set_option maxHeartbeats 400000 in
/-- Window 2's block is its whole array at every point. -/
theorem iblk0_2_apply (c : Dev nD) (t : Fin cfg0.N) (k j : Fin 128) :
    iblk0 V c 2 t (ix2 k j) = arr0_2 V c (ix2 k j) := by
  unfold iblk0
  rw [View.read_apply]
  show V c (Pipeline.arrRef spec0 2) _ = V c (Pipeline.arrRef spec0 2) _
  congr 1
  funext a
  apply Fin.ext
  match a with
  | ⟨0, _⟩ => show win0_2.index t 0 * 128 + 1 * k.val = k.val; rw [(idx0_2 t).1]; omega
  | ⟨1, _⟩ => show win0_2.index t 1 * 128 + 1 * j.val = j.val; rw [(idx0_2 t).2]; omega

set_option maxHeartbeats 400000 in
/-- Window 3's block is its whole row at every point. -/
theorem iblk0_3_apply (c : Dev nD) (t : Fin cfg0.N) (j : Fin 128) :
    iblk0 V c 3 t (ix2 (0 : Fin 1) j) = arr0_3 V c (ix2 (0 : Fin 1) j) := by
  unfold iblk0
  rw [View.read_apply]
  show V c (Pipeline.arrRef spec0 3) _ = V c (Pipeline.arrRef spec0 3) _
  congr 1
  funext a
  apply Fin.ext
  match a with
  | ⟨0, _⟩ => show win0_3.index t 0 * 1 + 1 * 0 = 0; rw [(idx0_3 t).1]
  | ⟨1, _⟩ => show win0_3.index t 1 * 128 + 1 * j.val = j.val; rw [(idx0_3 t).2]; omega

set_option maxHeartbeats 400000 in
/-- Window 4's block is its whole array at every point. -/
theorem iblk0_4_apply (c : Dev nD) (t : Fin cfg0.N) (k j : Fin 128) :
    iblk0 V c 4 t (ix2 k j) = arr0_4 V c (ix2 k j) := by
  unfold iblk0
  rw [View.read_apply]
  show V c (Pipeline.arrRef spec0 4) _ = V c (Pipeline.arrRef spec0 4) _
  congr 1
  funext a
  apply Fin.ext
  match a with
  | ⟨0, _⟩ => show win0_4.index t 0 * 128 + 1 * k.val = k.val; rw [(idx0_4 t).1]; omega
  | ⟨1, _⟩ => show win0_4.index t 1 * 128 + 1 * j.val = j.val; rw [(idx0_4 t).2]; omega

set_option maxHeartbeats 400000 in
/-- Window 5's block is its whole row at every point. -/
theorem iblk0_5_apply (c : Dev nD) (t : Fin cfg0.N) (j : Fin 128) :
    iblk0 V c 5 t (ix2 (0 : Fin 1) j) = arr0_5 V c (ix2 (0 : Fin 1) j) := by
  unfold iblk0
  rw [View.read_apply]
  show V c (Pipeline.arrRef spec0 5) _ = V c (Pipeline.arrRef spec0 5) _
  congr 1
  funext a
  apply Fin.ext
  match a with
  | ⟨0, _⟩ => show win0_5.index t 0 * 1 + 1 * 0 = 0; rw [(idx0_5 t).1]
  | ⟨1, _⟩ => show win0_5.index t 1 * 128 + 1 * j.val = j.val; rw [(idx0_5 t).2]; omega

/-! ## The tile the body stores is a tile of the linear part -/

/-- The linear part of the layer over the whole arrays the region finds: aggregated messages times the first weights,
    plus the first bias, plus node features times the second weights, plus the second bias. -/
abbrev X0 (c : Dev nD) : Cert.Spec.Mat :=
  Cert.Spec.lin (fun i k => arr0_0 V c (ix2 i k)) (fun i k => arr0_1 V c (ix2 i k)) (fun k j => arr0_2 V c (ix2 k j))
    (fun k j => arr0_4 V c (ix2 k j)) (fun j => arr0_3 V c (ix2 (0 : Fin 1) j)) (fun j => arr0_5 V c (ix2 (0 : Fin 1) j))

set_option maxHeartbeats 800000 in
/-- What the body computes from the six blocks of point t, at row r and lane j, is the linear part at row 5000 t + r. -/
theorem pay6_blocks0 (c : Dev nD) (t : Fin cfg0.N) (r : Fin 5000) (j : Fin 128) (h : t.val * 5000 + r.val < 50000) :
    k0_pay6 (F := Ideal) (iblk0 V c 0 t) (iblk0 V c 1 t) (iblk0 V c 2 t) (iblk0 V c 4 t) (iblk0 V c 3 t) (iblk0 V c 5 t) (ix2 r j)
      = X0 V c ⟨t.val * 5000 + r.val, h⟩ j := by
  rw [Cert.KernelIdeal.PayValue.k0_pay6_apply]
  simp only [iblk0_0_apply V c t r _ h, iblk0_1_apply V c t r _ h, iblk0_2_apply V c t, iblk0_3_apply V c t,
    iblk0_4_apply V c t, iblk0_5_apply V c t]
  rfl

/-! ## Adding the tiles up

A running sum that starts from zero plus the first tile's column sum and grows by each next tile's column sum is,
after point n, the sum over the tiles 0 to n; after the last point that is the sum over all 50000 rows. -/

/-- Column j of Y summed over the 5000 rows of tile t (nothing past the tenth tile). -/
def tileSum0 (Y : Cert.Spec.Mat) (j : Fin 128) (t : ℕ) : EReal :=
  if h : t < 10 then ∑ r : Fin 5000, Y ⟨t * 5000 + r.val, by have := r.isLt; show t * 5000 + r.val < 50000; omega⟩ j else 0

/-- The ten tiles' column sums add up to the column sum over all the rows. -/
theorem tileSum0_total (Y : Cert.Spec.Mat) (j : Fin 128) : ∑ t ∈ Finset.range 10, tileSum0 Y j t = ∑ i, Y i j := by
  rw [Cert.Spec.sum_rows_tiles (fun i => Y i j), Finset.sum_range]
  refine Finset.sum_congr rfl fun t _ => ?_
  unfold tileSum0
  rw [dif_pos t.isLt]

/-- A quantity that is zero plus tile 0's column sum at the first point and grows by tile n + 1's at point n + 1 is,
    at point n, the sum of the column sums of tiles 0 to n. -/
theorem runSum0 {N : ℕ} (Y : Cert.Spec.Mat) (j : Fin 128) (s : (n : ℕ) → n < N → EReal)
    (h0 : ∀ h : 0 < N, s 0 h = 0 + tileSum0 Y j 0)
    (hs : ∀ (n : ℕ) (hn : n + 1 < N), s (n + 1) hn = s n (Nat.lt_of_succ_lt hn) + tileSum0 Y j (n + 1)) :
    ∀ (n : ℕ) (hn : n < N), s n hn = ∑ t ∈ Finset.range (n + 1), tileSum0 Y j t
  | 0, hn => by rw [h0 hn, Finset.sum_range_one, zero_add]
  | n + 1, hn => by rw [hs n hn, runSum0 Y j s h0 hs n (Nat.lt_of_succ_lt hn), Finset.sum_range_succ _ (n + 1)]

/-! ## The two statistics arrays after the run

Outputs 7 and 8 are written back at the last point only, and their one block is the whole 1 by 128 array: after the
run each holds what the body left in its buffer at the last point. -/

/-- The last point. -/
abbrev tLast0 : Fin cfg0.N := t0_9

set_option maxHeartbeats 800000 in
/-- After the run, array 7 holds what the body left for output 7 at the last point, for any proof data. -/
theorem arrAt0_7_of {c : Dev nD} (dat : Dat τ (Elt Ideal) Unit ℕ (UR sig nD τ) ℕ cfg0 c) (j : Fin 128) :
    dat.arrAt 7 cfg0.N (ix2 (0 : Fin 1) j) = dat.after 7 tLast0 (ix2 (0 : Fin 1) j) := by
  have hf : (cfg0.win 7).flush tLast0 = true := (flush0_7 tLast0).mpr (by decide)
  have hone : ∀ t : Fin cfg0.N, (cfg0.win 7).flush t = true → t = tLast0 := fun t ht => by
    have h9 := (flush0_7 t).mp ht
    have hN : t.val < 10 := lt_of_lt_of_eq t.isLt N_0
    exact Fin.ext (by show t.val = 9; omega)
  have h := dat.arrAt_emb_eq_flushed 7 (fun t t' ht ht' hne => absurd ((hone t ht).trans (hone t' ht').symm) hne) tLast0 hf (ix2 (0 : Fin 1) j)
  refine Eq.trans ?_ (h.trans ?_)
  · show dat.arrAt 7 cfg0.N _ = dat.arrAt 7 cfg0.N _
    congr 1
    funext a
    apply Fin.ext
    match a with
    | ⟨0, _⟩ => rfl
    | ⟨1, _⟩ => show j.val = win0_7.index tLast0 1 * 128 + 1 * j.val; rw [show win0_7.index tLast0 1 = 0 from by decide +kernel]; omega
  · rfl

set_option maxHeartbeats 800000 in
/-- After the run, array 8 holds what the body left for output 8 at the last point, for any proof data. -/
theorem arrAt0_8_of {c : Dev nD} (dat : Dat τ (Elt Ideal) Unit ℕ (UR sig nD τ) ℕ cfg0 c) (j : Fin 128) :
    dat.arrAt 8 cfg0.N (ix2 (0 : Fin 1) j) = dat.after 8 tLast0 (ix2 (0 : Fin 1) j) := by
  have hf : (cfg0.win 8).flush tLast0 = true := (flush0_8 tLast0).mpr (by decide)
  have hone : ∀ t : Fin cfg0.N, (cfg0.win 8).flush t = true → t = tLast0 := fun t ht => by
    have h9 := (flush0_8 t).mp ht
    have hN : t.val < 10 := lt_of_lt_of_eq t.isLt N_0
    exact Fin.ext (by show t.val = 9; omega)
  have h := dat.arrAt_emb_eq_flushed 8 (fun t t' ht ht' hne => absurd ((hone t ht).trans (hone t' ht').symm) hne) tLast0 hf (ix2 (0 : Fin 1) j)
  refine Eq.trans ?_ (h.trans ?_)
  · show dat.arrAt 8 cfg0.N _ = dat.arrAt 8 cfg0.N _
    congr 1
    funext a
    apply Fin.ext
    match a with
    | ⟨0, _⟩ => rfl
    | ⟨1, _⟩ => show j.val = win0_8.index tLast0 1 * 128 + 1 * j.val; rw [show win0_8.index tLast0 1 = 0 from by decide +kernel]; omega
  · rfl

/-! ## The accumulation over the grid

Stated for any point-indexed tuple (output tile, mean row, variance row, running sum, running sum of squares) that
satisfies the step equations: the tile is the body's tile of the point's six blocks; the running sum starts from the
zero row and grows by the tile's column sums; the running sum of squares likewise by the squares; at the last point
the mean row and the variance row are computed from the two running sums. -/

/-- The six blocks of point t, in the order the body's tile takes them. -/
abbrev tileOf0 (c : Dev nD) (t : Fin cfg0.N) : FVec Ideal S5000x128 .f32 :=
  k0_pay6 (F := Ideal) (iblk0 V c 0 t) (iblk0 V c 1 t) (iblk0 V c 2 t) (iblk0 V c 4 t) (iblk0 V c 3 t) (iblk0 V c 5 t)

/-- The squares of the linear part. -/
abbrev XX0 (c : Dev nD) : Cert.Spec.Mat := fun i j => X0 V c i j * X0 V c i j

/-- The step equations. -/
structure Steps0 (c : Dev nD)
    (T : (n : ℕ) → n < cfg0.N → Vec Ideal S5000x128 .f32 × Vec Ideal S1x128 .f32 × Vec Ideal S1x128 .f32 × Vec Ideal S1x128 .f32 × Vec Ideal S1x128 .f32) : Prop where
  tile : ∀ t : Fin cfg0.N, (T t.val t.isLt).1 = tileOf0 V c t
  sum0 : ∀ h : 0 < cfg0.N, (T 0 h).2.2.2.1
    = k0_pay7 (F := Ideal) (iblk0 V c 0 ⟨0, h⟩) (iblk0 V c 1 ⟨0, h⟩) (iblk0 V c 2 ⟨0, h⟩) (iblk0 V c 4 ⟨0, h⟩) (iblk0 V c 3 ⟨0, h⟩) (iblk0 V c 5 ⟨0, h⟩) (k0_pay4 (F := Ideal))
  sumS : ∀ (n : ℕ) (hn : n + 1 < cfg0.N), (T (n + 1) hn).2.2.2.1
    = k0_pay7 (F := Ideal) (iblk0 V c 0 ⟨n + 1, hn⟩) (iblk0 V c 1 ⟨n + 1, hn⟩) (iblk0 V c 2 ⟨n + 1, hn⟩) (iblk0 V c 4 ⟨n + 1, hn⟩) (iblk0 V c 3 ⟨n + 1, hn⟩) (iblk0 V c 5 ⟨n + 1, hn⟩) (T n (Nat.lt_of_succ_lt hn)).2.2.2.1
  sq0 : ∀ h : 0 < cfg0.N, (T 0 h).2.2.2.2 = k0_pay1 (F := Ideal) (T 0 h).1 (k0_pay5 (F := Ideal))
  sqS : ∀ (n : ℕ) (hn : n + 1 < cfg0.N), (T (n + 1) hn).2.2.2.2 = k0_pay1 (F := Ideal) (T (n + 1) hn).1 (T n (Nat.lt_of_succ_lt hn)).2.2.2.2
  mean : ∀ t : Fin cfg0.N, t.val = 9 → (T t.val t.isLt).2.1 = k0_pay2 (F := Ideal) (T t.val t.isLt).2.2.2.1
  var : ∀ t : Fin cfg0.N, t.val = 9 →
    (T t.val t.isLt).2.2.1 = k0_pay3 (F := Ideal) (T t.val t.isLt).2.2.2.1 (T t.val t.isLt).2.2.2.2

/-- The running sum's step at lane j: the row before plus tile t's column sum of the linear part. -/
theorem paySum0 (c : Dev nD) (t : Fin cfg0.N) (j : Fin 128) (s : FVec Ideal S1x128 .f32) :
    k0_pay7 (F := Ideal) (iblk0 V c 0 t) (iblk0 V c 1 t) (iblk0 V c 2 t) (iblk0 V c 4 t) (iblk0 V c 3 t) (iblk0 V c 5 t) s (ix2 (0 : Fin 1) j)
      = s (ix2 (0 : Fin 1) j) + tileSum0 (X0 V c) j t.val := by
  rw [Cert.KernelIdeal.PayValue.k0_pay7_apply]
  congr 1
  unfold tileSum0
  rw [dif_pos (lt_of_lt_of_eq t.isLt N_0)]
  exact Finset.sum_congr rfl fun r _ => pay6_blocks0 V c t r j _

/-- The running sum of squares' step at lane j, for a tile that is the linear part's tile t. -/
theorem paySq0 (c : Dev nD) (t : Fin cfg0.N) (j : Fin 128) (v : FVec Ideal S5000x128 .f32) (q : FVec Ideal S1x128 .f32)
    (hv : ∀ (r : Fin 5000) (h : t.val * 5000 + r.val < 50000), v (ix2 r j) = X0 V c ⟨t.val * 5000 + r.val, h⟩ j) :
    k0_pay1 (F := Ideal) v q (ix2 (0 : Fin 1) j) = q (ix2 (0 : Fin 1) j) + tileSum0 (XX0 V c) j t.val := by
  rw [Cert.KernelIdeal.PayValue.k0_pay1_apply]
  congr 1
  unfold tileSum0
  rw [dif_pos (lt_of_lt_of_eq t.isLt N_0)]
  exact Finset.sum_congr rfl fun r _ => by rw [hv r _]

section Accumulate

variable {c : Dev nD}
  {T : (n : ℕ) → n < cfg0.N → Vec Ideal S5000x128 .f32 × Vec Ideal S1x128 .f32 × Vec Ideal S1x128 .f32 × Vec Ideal S1x128 .f32 × Vec Ideal S1x128 .f32}

/-- (a) The output tile at point t, row r, lane j is the linear part at row 5000 t + r. -/
theorem Steps0.tile_apply (H : Steps0 V c T) (t : Fin cfg0.N) (r : Fin 5000) (j : Fin 128) (h : t.val * 5000 + r.val < 50000) :
    (T t.val t.isLt).1 (ix2 r j) = X0 V c ⟨t.val * 5000 + r.val, h⟩ j := by
  rw [H.tile t]; exact pay6_blocks0 V c t r j h

/-- (b) After point n the running sum at lane j is the linear part's column j summed over tiles 0 to n. -/
theorem Steps0.sum_apply (H : Steps0 V c T) (n : ℕ) (hn : n < cfg0.N) (j : Fin 128) :
    (T n hn).2.2.2.1 (ix2 (0 : Fin 1) j) = ∑ t ∈ Finset.range (n + 1), tileSum0 (X0 V c) j t :=
  runSum0 (X0 V c) j (fun n hn => (T n hn).2.2.2.1 (ix2 (0 : Fin 1) j))
    (fun h => by
      show (T 0 h).2.2.2.1 (ix2 (0 : Fin 1) j) = _
      rw [H.sum0 h, paySum0 V c ⟨0, h⟩ j, Cert.KernelIdeal.PayValue.k0_pay4_eq])
    (fun n hn => by
      show (T (n + 1) hn).2.2.2.1 (ix2 (0 : Fin 1) j) = _
      rw [H.sumS n hn, paySum0 V c ⟨n + 1, hn⟩ j]) n hn

/-- (b) After point n the running sum of squares at lane j is the squares' column j summed over tiles 0 to n. -/
theorem Steps0.sq_apply (H : Steps0 V c T) (n : ℕ) (hn : n < cfg0.N) (j : Fin 128) :
    (T n hn).2.2.2.2 (ix2 (0 : Fin 1) j) = ∑ t ∈ Finset.range (n + 1), tileSum0 (XX0 V c) j t :=
  runSum0 (XX0 V c) j (fun n hn => (T n hn).2.2.2.2 (ix2 (0 : Fin 1) j))
    (fun h => by
      show (T 0 h).2.2.2.2 (ix2 (0 : Fin 1) j) = _
      rw [H.sq0 h, paySq0 V c ⟨0, h⟩ j _ _ (fun r hr => H.tile_apply V ⟨0, h⟩ r j hr), Cert.KernelIdeal.PayValue.k0_pay5_eq])
    (fun n hn => by
      show (T (n + 1) hn).2.2.2.2 (ix2 (0 : Fin 1) j) = _
      rw [H.sqS n hn, paySq0 V c ⟨n + 1, hn⟩ j _ _ (fun r hr => H.tile_apply V ⟨n + 1, hn⟩ r j hr)]) n hn

/-- (c) After the last point the running sum is the column sum over all the rows (the last point is given with the
    fact that it is the last, never as a numeral), -/
theorem Steps0.sum_last (H : Steps0 V c T) (t : Fin cfg0.N) (h9 : t.val = 9) (j : Fin 128) :
    (T t.val t.isLt).2.2.2.1 (ix2 (0 : Fin 1) j) = ∑ i, X0 V c i j := by
  obtain ⟨n, hn⟩ := t
  obtain rfl : n = 9 := h9
  exact (H.sum_apply V 9 hn j).trans (tileSum0_total _ j)

/-- and the running sum of squares the column sum of the squares. -/
theorem Steps0.sq_last (H : Steps0 V c T) (t : Fin cfg0.N) (h9 : t.val = 9) (j : Fin 128) :
    (T t.val t.isLt).2.2.2.2 (ix2 (0 : Fin 1) j) = ∑ i, X0 V c i j * X0 V c i j := by
  obtain ⟨n, hn⟩ := t
  obtain rfl : n = 9 := h9
  exact (H.sq_apply V 9 hn j).trans (tileSum0_total _ j)

/-- (c) The mean row stored at the last point is the linear part's column mean, -/
theorem Steps0.mean_apply (H : Steps0 V c T) (t : Fin cfg0.N) (h9 : t.val = 9) (j : Fin 128) :
    (T t.val t.isLt).2.1 (ix2 (0 : Fin 1) j) = Cert.Spec.colMean (X0 V c) j := by
  rw [H.mean t h9, Cert.KernelIdeal.PayValue.k0_pay2_apply, H.sum_last V t h9 j]; rfl

/-- and the variance row the mean of its squares minus the squared mean. -/
theorem Steps0.var_apply (H : Steps0 V c T) (t : Fin cfg0.N) (h9 : t.val = 9) (j : Fin 128) :
    (T t.val t.isLt).2.2.1 (ix2 (0 : Fin 1) j) = Cert.Spec.varSq (X0 V c) j := by
  rw [H.var t h9, Cert.KernelIdeal.PayValue.k0_pay3_apply, H.sum_last V t h9 j, H.sq_last V t h9 j]; rfl

end Accumulate

end Regions

end Cert.KernelIdeal.Hand

end
-- ==== Proof.KI.StatsSums0.lean ====
/-
  Kernel region 0 on the extended reals: the mean and variance arrays after the run.

  What the region's buffers hold after each grid point satisfies the step equations of the walk over the ten row
  tiles, so the arithmetic done once for any such contents applies: the output tile at point t is the linear part's
  rows 5000 t to 5000 t + 4999, and after the run the mean array holds, lane by lane, the column mean of the linear
  part of the layer over all 50000 rows, and the variance array its mean of squares minus its squared mean.
-/
import proofs.«162849_j29643864277577_1_alg».proof.Proof.KI.StatsPieces0
import proofs.«162849_j29643864277577_1_alg».proof.Proof.KI.StatsSumsCore0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-- What the buffers hold after each point satisfies the step equations. -/
theorem steps0 (c : Dev nD) : Steps0 V c (outsAt0 V c) where
  tile := hnewTile0 V c
  sum0 := scr0_zero0 V c
  sumS := scr0_succ0 V c
  sq0 := sq0_zero0 V c
  sqS := sq0_succ0 V c
  mean := meanRow0 V c
  var := varRow0 V c

/-- The output tile at point t, row r, lane j is the linear part at row 5000 t + r. -/
theorem hnew0_apply (c : Dev nD) (t : Fin cfg0.N) (r : Fin 5000) (j : Fin 128) (h : t.val * 5000 + r.val < 50000) :
    (outsAt0 V c t.val t.isLt).1 (ix2 r j) = X0 V c ⟨t.val * 5000 + r.val, h⟩ j :=
  (steps0 V c).tile_apply V t r j h

/-- After the run the mean array holds the column mean of the linear part. -/
theorem mean0_arr (c : Dev nD) (j : Fin 128) :
    (dat0 (F := Ideal) V c).arrAt 7 cfg0.N (ix2 (0 : Fin 1) j) = Cert.Spec.colMean (X0 V c) j := by
  rw [arrAt0_7_of (dat0 V c) j, after0_7]
  exact (steps0 V c).mean_apply V tLast0 rfl j

/-- After the run the variance array holds the linear part's mean of squares minus its squared mean. -/
theorem var0_arr (c : Dev nD) (j : Fin 128) :
    (dat0 (F := Ideal) V c).arrAt 8 cfg0.N (ix2 (0 : Fin 1) j) = Cert.Spec.varSq (X0 V c) j := by
  rw [arrAt0_8_of (dat0 V c) j, after0_8]
  exact (steps0 V c).var_apply V tLast0 rfl j

end Regions

end Cert.KernelIdeal.Hand

end
-- ==== Proof.KI.StatsArr2.lean ====
import proofs.«162849_j29643864277577_1_alg».proof.Proof.KI.Stats2
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 2: the six arrays it reads, as it finds them

The region reads six arrays: the aggregated messages and the node features (50000 rows of 128 features each), the
two weight matrices (128 by 128) and the two bias rows (1 by 128). Each is named here at its own vector type, at
the contents `V` the region finds in the core's buffers, so that statements about their entries can add and
multiply them as extended reals. -/

section Regions

variable (V : (c : Dev nD) → (b : Ref sig .tc) → Buf (Elt Ideal) ((c : Thread nD τ).loc b))

/-- The aggregated messages (window 0's array). -/
abbrev arr2_0 (c : Dev nD) : FVec Ideal S50000x128 .f32 := V c (Pipeline.arrRef spec2 0)
/-- The node features (window 1's array). -/
abbrev arr2_1 (c : Dev nD) : FVec Ideal S50000x128 .f32 := V c (Pipeline.arrRef spec2 1)
/-- The weights applied to the aggregated messages (window 2's array). -/
abbrev arr2_2 (c : Dev nD) : FVec Ideal S128x128 .f32 := V c (Pipeline.arrRef spec2 2)
/-- The bias row added after the first product (window 3's array). -/
abbrev arr2_3 (c : Dev nD) : FVec Ideal S1x128 .f32 := V c (Pipeline.arrRef spec2 3)
/-- The weights applied to the node features (window 4's array). -/
abbrev arr2_4 (c : Dev nD) : FVec Ideal S128x128 .f32 := V c (Pipeline.arrRef spec2 4)
/-- The bias row added last (window 5's array). -/
abbrev arr2_5 (c : Dev nD) : FVec Ideal S1x128 .f32 := V c (Pipeline.arrRef spec2 5)

end Regions

end Cert.KernelIdeal.Hand

end
-- ==== Proof.KI.StatsHnew2.lean ====
import proofs.«162849_j29643864277577_1_alg».proof.Proof.KI.StatsArr2
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 2: what it leaves in its first output array

The region's body stores, at grid point `t`, one 5000-row tile of the layer's linear part: the tile of the aggregated
messages times the first weight matrix, plus the first bias row, plus the tile of the node features times the second
weight matrix, plus the second bias row. The pipeline writes that tile back at every point, to rows 5000 t … 5000 t +
4999 of the output array, and the ten tiles fill the array's 50000 rows. So after the region the array holds, at every
row `i` and lane `j`,

    ((∑ k, agg i k · W_rel k j) + b_rel j) + (∑ k, h i k · W_root k j) + b_root j ,

the specification's `lin` of the six arrays the region reads, as it finds them.

The steps: where each window's block sits at a point (decided over the ten points); each input block read off its
array entry by entry; the stored tile at one entry as `lin` at the entry's place in the array; hence the block a point
writes back is its block of the one whole-array function; the ten blocks cover every index; so the array is that
function. Everything up to the last statement is for any proof data of the region's pipeline whose body leaves the
stored tile in the output's buffer. -/

open Idealize.ShloMosaic.ValueIdx

section Regions
variable (V : (c : Dev nD) → (b : Ref sig .tc) → Buf (Elt Ideal) ((c : Thread nD τ).loc b))

/-! ## Where each window's block sits -/

/-- The printed index maps, decided once over the ten grid points: the two row tiles and the output tile sit at
    block row `t`, block column 0; the weights and the bias rows are whole, at block (0, 0). -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-! ## Each input block, read off its array -/

/-- Row tile `t` of the aggregated messages: its entry (r, k) is the array's entry (5000 t + r, k). -/
theorem iblk2_0_at (c : Dev nD) (t : Fin cfg2.N) (p : S5000x128.Idx) (q : S50000x128.Idx)
    (h0 : (q 0).val = t.val * 5000 + (p 0).val) (h1 : (q 1).val = (p 1).val) :
    (iblk2 V c 0 t : FVec Ideal S5000x128 .f32) p = arr2_0 V c q := by
  obtain ⟨e0, e1⟩ := (idx_facts2 t).1
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * (p 0).val = (q 0).val; rw [e0, h0]; omega
  | ⟨1, _⟩ => show win2_0.index t (1 : Fin 2) * 128 + 1 * (p 1).val = (q 1).val; rw [e1, h1]; omega

/-- Row tile `t` of the node features: its entry (r, k) is the array's entry (5000 t + r, k). -/
theorem iblk2_1_at (c : Dev nD) (t : Fin cfg2.N) (p : S5000x128.Idx) (q : S50000x128.Idx)
    (h0 : (q 0).val = t.val * 5000 + (p 0).val) (h1 : (q 1).val = (p 1).val) :
    (iblk2 V c 1 t : FVec Ideal S5000x128 .f32) p = arr2_1 V c q := by
  obtain ⟨e0, e1⟩ := (idx_facts2 t).2.1
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * (p 0).val = (q 0).val; rw [e0, h0]; omega
  | ⟨1, _⟩ => show win2_1.index t (1 : Fin 2) * 128 + 1 * (p 1).val = (q 1).val; rw [e1, h1]; omega

/-- The first weight matrix comes in whole: its block at every point is the array. -/
theorem iblk2_2_at (c : Dev nD) (t : Fin cfg2.N) (p : S128x128.Idx) :
    (iblk2 V c 2 t : FVec Ideal S128x128 .f32) p = arr2_2 V c p := by
  obtain ⟨e0, e1⟩ := (idx_facts2 t).2.2.1
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * (p 0).val = (p 0).val; rw [e0]; omega
  | ⟨1, _⟩ => show win2_2.index t (1 : Fin 2) * 128 + 1 * (p 1).val = (p 1).val; rw [e1]; omega

/-- The first bias row comes in whole: its block at every point is the array. -/
theorem iblk2_3_at (c : Dev nD) (t : Fin cfg2.N) (p : S1x128.Idx) :
    (iblk2 V c 3 t : FVec Ideal S1x128 .f32) p = arr2_3 V c p := by
  obtain ⟨e0, e1⟩ := (idx_facts2 t).2.2.2.1
  unfold iblk2
  rw [View.read_apply]
  show V c (Pipeline.arrRef spec2 3) _ = V c (Pipeline.arrRef spec2 3) _
  congr 1
  funext a
  apply Fin.ext
  match a with
  | ⟨0, _⟩ => show win2_3.index t (0 : Fin 2) * 1 + 1 * (p 0).val = (p 0).val; rw [e0]; omega
  | ⟨1, _⟩ => show win2_3.index t (1 : Fin 2) * 128 + 1 * (p 1).val = (p 1).val; rw [e1]; omega

/-- The second weight matrix comes in whole: its block at every point is the array. -/
theorem iblk2_4_at (c : Dev nD) (t : Fin cfg2.N) (p : S128x128.Idx) :
    (iblk2 V c 4 t : FVec Ideal S128x128 .f32) p = arr2_4 V c p := by
  obtain ⟨e0, e1⟩ := (idx_facts2 t).2.2.2.2.1
  unfold iblk2
  rw [View.read_apply]
  show V c (Pipeline.arrRef spec2 4) _ = V c (Pipeline.arrRef spec2 4) _
  congr 1
  funext a
  apply Fin.ext
  match a with
  | ⟨0, _⟩ => show win2_4.index t (0 : Fin 2) * 128 + 1 * (p 0).val = (p 0).val; rw [e0]; omega
  | ⟨1, _⟩ => show win2_4.index t (1 : Fin 2) * 128 + 1 * (p 1).val = (p 1).val; rw [e1]; omega

/-- The second bias row comes in whole: its block at every point is the array. -/
theorem iblk2_5_at (c : Dev nD) (t : Fin cfg2.N) (p : S1x128.Idx) :
    (iblk2 V c 5 t : FVec Ideal S1x128 .f32) p = arr2_5 V c p := by
  obtain ⟨e0, e1⟩ := (idx_facts2 t).2.2.2.2.2.1
  unfold iblk2
  rw [View.read_apply]
  show V c (Pipeline.arrRef spec2 5) _ = V c (Pipeline.arrRef spec2 5) _
  congr 1
  funext a
  apply Fin.ext
  match a with
  | ⟨0, _⟩ => show win2_5.index t (0 : Fin 2) * 1 + 1 * (p 0).val = (p 0).val; rw [e0]; omega
  | ⟨1, _⟩ => show win2_5.index t (1 : Fin 2) * 128 + 1 * (p 1).val = (p 1).val; rw [e1]; omega

/-! ## The tile the body stores, entry by entry -/

/-- The stored tile at row `r`, lane `j`, when the tile's operand rows are rows `i` of two tall arrays and its
    weights and bias rows are those of four small arrays: the linear part of the layer at (i, j), its four terms added
    in the body's order. -/
theorem lin_tile2_at (A H : FVec Ideal S50000x128 .f32) (Wr Wo : FVec Ideal S128x128 .f32) (Br Bo : FVec Ideal S1x128 .f32)
    (x a : FVec Ideal S5000x128 .f32) (wr wo : FVec Ideal S128x128 .f32) (br bo : FVec Ideal S1x128 .f32)
    (r : Fin 5000) (j : Fin 128) (i : Fin 50000)
    (hx : ∀ k : Fin 128, x (ix2 r k) = A (ix2 i k)) (ha : ∀ k : Fin 128, a (ix2 r k) = H (ix2 i k))
    (hwr : ∀ k : Fin 128, wr (ix2 k j) = Wr (ix2 k j)) (hwo : ∀ k : Fin 128, wo (ix2 k j) = Wo (ix2 k j))
    (hbr : br (ix2 (0 : Fin 1) j) = Br (ix2 (0 : Fin 1) j)) (hbo : bo (ix2 (0 : Fin 1) j) = Bo (ix2 (0 : Fin 1) j)) :
    k2_pay6 (F := Ideal) x a wr wo br bo (ix2 r j)
      = Cert.Spec.lin (fun i k => A (ix2 i k)) (fun i k => H (ix2 i k)) (fun k j => Wr (ix2 k j)) (fun k j => Wo (ix2 k j))
          (fun j => Br (ix2 (0 : Fin 1) j)) (fun j => Bo (ix2 (0 : Fin 1) j)) i j := by
  rw [Cert.KernelIdeal.PayValue.k2_pay6_apply]
  unfold Cert.Spec.lin
  simp only [hx, ha, hwr, hwo, hbr, hbo]

/-! ## The whole output array -/

/-- What the output array ends holding: the linear part of the layer, of the six arrays as the region finds them. -/
abbrev hnewArr2 (c : Dev nD) : FVec Ideal S50000x128 .f32 := fun q =>
  Cert.Spec.lin (fun i k => arr2_0 V c (ix2 i k)) (fun i k => arr2_1 V c (ix2 i k)) (fun k j => arr2_2 V c (ix2 k j))
    (fun k j => arr2_4 V c (ix2 k j)) (fun j => arr2_3 V c (ix2 0 j)) (fun j => arr2_5 V c (ix2 0 j)) (q 0) (q 1)

/-- What point `t` writes back is block `t` of that array: rows 5000 t … 5000 t + 4999, every lane. Stated for any
    proof data of the region's pipeline whose body leaves in the output's buffer the stored tile of the point's
    input blocks. -/
theorem hnew2_flushed_of {c : Dev nD} (dat : Dat τ (Elt Ideal) Unit ℕ (UR sig nD τ) ℕ cfg2 c)
    (hafter : ∀ t : Fin cfg2.N, dat.after 6 t = k2_pay6 (iblk2 V c 0 t) (iblk2 V c 1 t) (iblk2 V c 2 t) (iblk2 V c 4 t) (iblk2 V c 3 t) (iblk2 V c 5 t))
    (t : Fin cfg2.N) :
    dat.flushed 6 t = ((cfg2.win 6).blk t).view.read (Elt Ideal) (hnewArr2 V c) := by
  show (cfg2.win 6).cut (grid2.coords t) (dat.after 6 t) = _
  rw [hafter]
  funext y
  have hy0 : (y 0).val < 5000 := (y 0).isLt
  have hy1 : (y 1).val < 128 := (y 1).isLt
  have ht : t.val < 10 := t.isLt
  obtain ⟨e0, e1⟩ := (idx_facts2 t).2.2.2.2.2.2
  have hin : (cfg2.win 6).xinj (grid2.coords t) y = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg2.win 6).blk t).view.emb y = (ix2 (⟨t.val * 5000 + (y 0).val, by omega⟩ : Fin 50000) (⟨(y 1).val, hy1⟩ : Fin 128) : S50000x128.Idx) := by
    funext a
    apply Fin.ext
    match a with
    | ⟨0, _⟩ => show win2_6.index t (0 : Fin 2) * 5000 + 1 * (y 0).val = t.val * 5000 + (y 0).val; rw [e0]; omega
    | ⟨1, _⟩ => show win2_6.index t (1 : Fin 2) * 128 + 1 * (y 1).val = (y 1).val; rw [e1]; omega
  show k2_pay6 (F := Ideal) (iblk2 V c 0 t) (iblk2 V c 1 t) (iblk2 V c 2 t) (iblk2 V c 4 t) (iblk2 V c 3 t) (iblk2 V c 5 t) ((cfg2.win 6).xinj (grid2.coords t) y)
      = hnewArr2 V c (((cfg2.win 6).blk t).view.emb y)
  rw [hin, hemb]
  exact lin_tile2_at (arr2_0 V c) (arr2_1 V c) (arr2_2 V c) (arr2_4 V c) (arr2_3 V c) (arr2_5 V c)
    (iblk2 V c 0 t) (iblk2 V c 1 t) (iblk2 V c 2 t) (iblk2 V c 4 t) (iblk2 V c 3 t) (iblk2 V c 5 t)
    ⟨(y 0).val, hy0⟩ ⟨(y 1).val, hy1⟩ ⟨t.val * 5000 + (y 0).val, by omega⟩
    (fun k => iblk2_0_at V c t (ix2 ⟨(y 0).val, hy0⟩ k) (ix2 ⟨t.val * 5000 + (y 0).val, by omega⟩ k) rfl rfl)
    (fun k => iblk2_1_at V c t (ix2 ⟨(y 0).val, hy0⟩ k) (ix2 ⟨t.val * 5000 + (y 0).val, by omega⟩ k) rfl rfl)
    (fun k => iblk2_2_at V c t (ix2 k ⟨(y 1).val, hy1⟩))
    (fun k => iblk2_4_at V c t (ix2 k ⟨(y 1).val, hy1⟩))
    (iblk2_3_at V c t (ix2 (0 : Fin 1) ⟨(y 1).val, hy1⟩))
    (iblk2_5_at V c t (ix2 (0 : Fin 1) ⟨(y 1).val, hy1⟩))

/-! ## The blocks tile the array -/

/-- An index of the array is in point `t`'s block iff each coordinate is in the block's range on its axis. -/
theorem mem_blk2_6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- Every index is in some point's block: row `i` is in the block of point `i / 5000`. -/
theorem hnew2_cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := rfl
  have hlt : (i 0).val / 5000 < cfg2.N := by rw [hN]; omega
  obtain ⟨e0, e1⟩ := (idx_facts2 ⟨(i 0).val / 5000, hlt⟩).2.2.2.2.2.2
  refine ⟨⟨(i 0).val / 5000, hlt⟩, flush2_6 _, ?_⟩
  rw [mem_blk2_6]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 128 ≤ (i 1).val ∧ (i 1).val < win2_6.index ⟨(i 0).val / 5000, hlt⟩ (1 : Fin 2) * 128 + 128
    rw [e1]; omega

/-- So the array ends holding the linear part of the layer everywhere. -/
theorem hnew2_final_of {c : Dev nD} (dat : Dat τ (Elt Ideal) Unit ℕ (UR sig nD τ) ℕ cfg2 c)
    (hafter : ∀ t : Fin cfg2.N, dat.after 6 t = k2_pay6 (iblk2 V c 0 t) (iblk2 V c 1 t) (iblk2 V c 2 t) (iblk2 V c 4 t) (iblk2 V c 3 t) (iblk2 V c 5 t)) :
    dat.arrAt 6 cfg2.N = hnewArr2 V c :=
  dat.arrAt_eq_of_cover 6 (hnewArr2 V c) (fun t _ => hnew2_flushed_of V dat hafter t) hnew2_cover

end Regions

section Regions

variable (V : (c : Dev nD) → (b : Ref sig .tc) → Buf (Elt Ideal) ((c : Thread nD τ).loc b))

/-- THE OUTPUT ARRAY after the region, entry by entry: the linear part of the layer at row `i`, lane `j`, of the
    aggregated messages, the node features, the two weight matrices and the two bias rows as the region finds them —
    given that what the body leaves in the output's buffer at each point is the stored tile of that point's blocks. -/
theorem hnew2_arr (c : Dev nD)
    (hnewTile2 : ∀ t : Fin cfg2.N, (outsAt2 V c t.val t.isLt).1
      = k2_pay6 (iblk2 V c 0 t) (iblk2 V c 1 t) (iblk2 V c 2 t) (iblk2 V c 4 t) (iblk2 V c 3 t) (iblk2 V c 5 t))
    (i : Fin 50000) (j : Fin 128) :
    (dat2 (F := Ideal) V c).arrAt 6 cfg2.N (ix2 i j)
      = Cert.Spec.lin (fun i k => arr2_0 V c (ix2 i k)) (fun i k => arr2_1 V c (ix2 i k)) (fun k j => arr2_2 V c (ix2 k j))
          (fun k j => arr2_4 V c (ix2 k j)) (fun j => arr2_3 V c (ix2 0 j)) (fun j => arr2_5 V c (ix2 0 j)) i j :=
  congrFun (hnew2_final_of V (dat2 V c) (fun t => (after2_6 V c t).trans (hnewTile2 t))) (ix2 i j)

end Regions

end Cert.KernelIdeal.Hand

end
-- ==== Proof.KI.StatsPieces2.lean ====
/-
  Kernel region 2: what the body leaves at each grid point, as the body's own arithmetic.

  The body's stores are found as lists of pieces, one list per buffer. Each list reads back to one closed term over
  what the body loaded: the output tile is the linear part's tile of the six input blocks; the running column sum is
  the row it started the point with (the zero row at the first point, since the reset is read back) plus the tile's
  column sums; the running column sum of squares likewise with the squares; and at the last point the mean row and the
  variance row are computed from the two running sums as just updated, because the body reads them back after storing
  them. From these, by the case of the point, come the equations of the walk over the ten tiles: the tile at every
  point, the two running sums at the first point and at each later one from the point before, and the two statistics
  rows at the last point. Everything here holds for any float arithmetic.
-/
import proofs.«162849_j29643864277577_1_alg».proof.Proof.KI.Stats2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Per case: the pieces read back to the body's payloads -/

/-- The zero offsets of a whole-buffer load or store, however they are spelt. -/
theorem hz2 : (![0, 0] : Fin 2 → Nat) = fun _ => 0 := funext fun a => by
  match a with
  | ⟨0, _⟩ => rfl
  | ⟨1, _⟩ => rfl

set_option maxHeartbeats 1000000 in
/-- At the first point the body leaves in the output tile the linear part's tile of the six loaded blocks: one store covers the tile, and its loads read the whole input buffers. -/
theorem tile2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    out2_A_6 c i arg1 harg1 arg2 harg2 arg3 harg3 arg4 harg4 arg5 harg5 arg6 harg6 arg7 harg7 arg8 harg8 arg9 harg9 arg10 harg10 arg11 harg11 hc0 hc1 x0 x1 x2 x3 x4 x5 = k2_pay6 x0 x1 x2 x4 x3 x5 := by
  unfold out2_A_6
  rw [View.read_writes_junk_eq_canon]
  unfold kernelRun2_A
  dsimp only
  sl_unfold_words
  rw [View.canon_unit_zero (S := S5000x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the first point the running sum is reset to the zero row, read back, and grown by the tile's column sums. -/
theorem sum2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    sout2_A_0 c i arg1 harg1 arg2 harg2 arg3 harg3 arg4 harg4 arg5 harg5 arg6 harg6 arg7 harg7 arg8 harg8 arg9 harg9 arg10 harg10 arg11 harg11 hc0 hc1 x0 x1 x2 x3 x4 x5 = k2_pay7 x0 x1 x2 x4 x3 x5 (k2_pay4 (F := F)) := by
  unfold sout2_A_0
  rw [View.read_writes_junk_eq_canon]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the first point the running sum of squares is reset to the zero row, read back, and grown by the column sums of the tile's squares. -/
theorem sq2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) :
    sout2_A_1 c i arg1 harg1 arg2 harg2 arg3 harg3 arg4 harg4 arg5 harg5 arg6 harg6 arg7 harg7 arg8 harg8 arg9 harg9 arg10 harg10 arg11 harg11 hc0 hc1 x0 x1 x2 x3 x4 x5 = k2_pay1 (k2_pay6 x0 x1 x2 x4 x3 x5) (k2_pay5 (F := F)) := by
  unfold sout2_A_1
  rw [View.read_writes_junk_eq_canon]
  unfold kernelRun2_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At a middle point the body leaves in the output tile the linear part's tile of the six loaded blocks. -/
theorem tile2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay6 x0 x1 x2 x4 x3 x5 := by
  unfold out2_B_6
  rw [View.read_writes_junk_eq_canon]
  unfold kernelRun2_B
  dsimp only
  sl_unfold_words
  rw [View.canon_unit_zero (S := S5000x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At a middle point the running sum the point before left grows by the tile's column sums. -/
theorem sum2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout2_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay7 x0 x1 x2 x4 x3 x5 xs0 := by
  unfold sout2_B_0
  rw [View.read_writes_junk_eq_canon]
  unfold kernelRun2_B
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At a middle point the running sum of squares the point before left grows by the column sums of the tile's squares. -/
theorem sq2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : ¬cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout2_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x4 x3 x5) xs1 := by
  unfold sout2_B_1
  rw [View.read_writes_junk_eq_canon]
  unfold kernelRun2_B
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the last point the body leaves in the output tile the linear part's tile of the six loaded blocks. -/
theorem tile2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay6 x0 x1 x2 x4 x3 x5 := by
  unfold out2_C_6
  rw [View.read_writes_junk_eq_canon]
  unfold kernelRun2_C
  dsimp only
  sl_unfold_words
  rw [View.canon_unit_zero (S := S5000x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the last point the running sum the point before left grows by the tile's column sums. -/
theorem sum2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout2_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay7 x0 x1 x2 x4 x3 x5 xs0 := by
  unfold sout2_C_0
  rw [View.read_writes_junk_eq_canon]
  unfold kernelRun2_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the last point the running sum of squares the point before left grows by the column sums of the tile's squares. -/
theorem sq2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout2_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay1 (k2_pay6 x0 x1 x2 x4 x3 x5) xs1 := by
  unfold sout2_C_1
  rw [View.read_writes_junk_eq_canon]
  unfold kernelRun2_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the last point the mean row is the final running sum, read back, over the number of rows. -/
theorem mean2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay2 (k2_pay7 x0 x1 x2 x4 x3 x5 xs0) := by
  unfold out2_C_7
  rw [View.read_writes_junk_eq_canon]
  unfold kernelRun2_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

set_option maxHeartbeats 1000000 in
/-- At the last point the variance row is the final running sum of squares, read back, over the number of rows, minus the squared mean. -/
theorem var2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond2_0 i) (hc1 : cond2_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out2_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k2_pay3 (k2_pay7 x0 x1 x2 x4 x3 x5 xs0) (k2_pay1 (k2_pay6 x0 x1 x2 x4 x3 x5) xs1) := by
  unfold out2_C_8
  rw [View.read_writes_junk_eq_canon]
  unfold kernelRun2_C
  dsimp only
  sl_unfold_words
  rw [View.canon_unit_zero (S := S1x128) hz2]
  simp only [View.readAt_eq_ld, harg1.read_unread, harg2.read_unread, harg3.read_unread, harg4.read_unread, harg5.read_unread, harg6.read_unread, harg10.read_unread, harg11.read_unread, View.ld_unit_zero (S := S5000x128) hz2, View.ld_unit_zero (S := S128x128) hz2, View.ld_unit_zero (S := S1x128) hz2, View.readCov_unit_zero (S := S1x128) _ hz2, View.readCov_unit_zero (S := S5000x128) _ hz2]

/-! ## The equations of the walk, about what the buffers hold after each point

By the case of the point: the first point runs the first case, the last point the last, every other the middle one;
each component of the contents is then the case's piece, read above. -/

section Regions

variable (V : (c : Dev nD) → (b : Ref sig .tc) → Buf (Elt F) ((c : Thread nD τ).loc b))

set_option maxHeartbeats 1000000 in
/-- At every point the output tile is the body's tile of the point's six blocks. -/
theorem hnewTile2 (c : Dev nD) (t : Fin cfg2.N) :
    (outsAt2 V c t.val t.isLt).1 = k2_pay6 (iblk2 V c 0 t) (iblk2 V c 1 t) (iblk2 V c 2 t) (iblk2 V c 4 t) (iblk2 V c 3 t) (iblk2 V c 5 t) := by
  by_cases h0 : t.val = 0
  · have h1 : ¬t.val = 9 := by omega
    rw [outsAt2_A V c t h0 h1]; dsimp only
    exact tile2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun hh => h1 ((hcond2_1 t).mp hh)) (iblk2 V c 0 t) (iblk2 V c 1 t) (iblk2 V c 2 t) (iblk2 V c 3 t) (iblk2 V c 4 t) (iblk2 V c 5 t)
  · by_cases h1 : t.val = 9
    · rw [outsAt2_C V c t h0 h1]; dsimp only
      exact tile2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]; dsimp only
      exact tile2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) (fun hh => h1 ((hcond2_1 t).mp hh)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

set_option maxHeartbeats 1000000 in
/-- After the first point the running sum is the zero row grown by the first tile's column sums. -/
theorem scr2_zero0 (c : Dev nD) (h : 0 < cfg2.N) :
    (outsAt2 V c 0 h).2.2.2.1 = k2_pay7 (iblk2 V c 0 (⟨0, h⟩ : Fin cfg2.N)) (iblk2 V c 1 (⟨0, h⟩ : Fin cfg2.N)) (iblk2 V c 2 (⟨0, h⟩ : Fin cfg2.N)) (iblk2 V c 4 (⟨0, h⟩ : Fin cfg2.N)) (iblk2 V c 3 (⟨0, h⟩ : Fin cfg2.N)) (iblk2 V c 5 (⟨0, h⟩ : Fin cfg2.N)) (k2_pay4 (F := F)) := by
  have h0 : (⟨0, h⟩ : Fin cfg2.N).val = 0 := rfl
  have h1 : ¬(⟨0, h⟩ : Fin cfg2.N).val = 9 := by show ¬(0 : ℕ) = 9; omega
  show (outsAt2 V c (⟨0, h⟩ : Fin cfg2.N).val (⟨0, h⟩ : Fin cfg2.N).isLt).2.2.2.1 = _
  rw [outsAt2_A V c (⟨0, h⟩ : Fin cfg2.N) h0 h1]; dsimp only
  exact sum2_A c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) (ms2_8 (⟨0, h⟩ : Fin cfg2.N)) (hs2_8 (⟨0, h⟩ : Fin cfg2.N)) scM2_0 (Memref.isWhole_whole _) scM2_1 (Memref.isWhole_whole _) ((hcond2_0 (⟨0, h⟩ : Fin cfg2.N)).mpr h0) (fun hh => h1 ((hcond2_1 (⟨0, h⟩ : Fin cfg2.N)).mp hh)) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) (iblk2 V c 5 (⟨0, h⟩ : Fin cfg2.N))

set_option maxHeartbeats 1000000 in
/-- After a later point the running sum is the one the point before left, grown by this tile's column sums. -/
theorem scr2_succ0 (c : Dev nD) (n : ℕ) (hn : n + 1 < cfg2.N) :
    (outsAt2 V c (n + 1) hn).2.2.2.1 = k2_pay7 (iblk2 V c 0 (⟨n + 1, hn⟩ : Fin cfg2.N)) (iblk2 V c 1 (⟨n + 1, hn⟩ : Fin cfg2.N)) (iblk2 V c 2 (⟨n + 1, hn⟩ : Fin cfg2.N)) (iblk2 V c 4 (⟨n + 1, hn⟩ : Fin cfg2.N)) (iblk2 V c 3 (⟨n + 1, hn⟩ : Fin cfg2.N)) (iblk2 V c 5 (⟨n + 1, hn⟩ : Fin cfg2.N)) (outsAt2 V c n (Nat.lt_of_succ_lt hn)).2.2.2.1 := by
  have h0 : ¬(⟨n + 1, hn⟩ : Fin cfg2.N).val = 0 := Nat.succ_ne_zero n
  show (outsAt2 V c (⟨n + 1, hn⟩ : Fin cfg2.N).val (⟨n + 1, hn⟩ : Fin cfg2.N).isLt).2.2.2.1 = _
  by_cases h1 : (⟨n + 1, hn⟩ : Fin cfg2.N).val = 9
  · rw [outsAt2_C V c (⟨n + 1, hn⟩ : Fin cfg2.N) h0 h1]; dsimp only
    exact sum2_C c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) scM2_0 (Memref.isWhole_whole _) scM2_1 (Memref.isWhole_whole _) (fun hh => h0 ((hcond2_0 (⟨n + 1, hn⟩ : Fin cfg2.N)).mp hh)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2
  · rw [outsAt2_B V c (⟨n + 1, hn⟩ : Fin cfg2.N) h0 h1]; dsimp only
    exact sum2_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) scM2_0 (Memref.isWhole_whole _) scM2_1 (Memref.isWhole_whole _) (fun hh => h0 ((hcond2_0 (⟨n + 1, hn⟩ : Fin cfg2.N)).mp hh)) (fun hh => h1 ((hcond2_1 (⟨n + 1, hn⟩ : Fin cfg2.N)).mp hh)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2

set_option maxHeartbeats 1000000 in
/-- After the first point the running sum of squares is the zero row grown by the column sums of the first tile's squares. -/
theorem sq2_zero0 (c : Dev nD) (h : 0 < cfg2.N) :
    (outsAt2 V c 0 h).2.2.2.2 = k2_pay1 (outsAt2 V c 0 h).1 (k2_pay5 (F := F)) := by
  have h0 : (⟨0, h⟩ : Fin cfg2.N).val = 0 := rfl
  have h1 : ¬(⟨0, h⟩ : Fin cfg2.N).val = 9 := by show ¬(0 : ℕ) = 9; omega
  have e : (outsAt2 V c 0 h).1 = k2_pay6 (iblk2 V c 0 (⟨0, h⟩ : Fin cfg2.N)) (iblk2 V c 1 (⟨0, h⟩ : Fin cfg2.N)) (iblk2 V c 2 (⟨0, h⟩ : Fin cfg2.N)) (iblk2 V c 4 (⟨0, h⟩ : Fin cfg2.N)) (iblk2 V c 3 (⟨0, h⟩ : Fin cfg2.N)) (iblk2 V c 5 (⟨0, h⟩ : Fin cfg2.N)) := hnewTile2 V c (⟨0, h⟩ : Fin cfg2.N)
  rw [e]
  show (outsAt2 V c (⟨0, h⟩ : Fin cfg2.N).val (⟨0, h⟩ : Fin cfg2.N).isLt).2.2.2.2 = _
  rw [outsAt2_A V c (⟨0, h⟩ : Fin cfg2.N) h0 h1]; dsimp only
  exact sq2_A c (grid2.coords (⟨0, h⟩ : Fin cfg2.N)) (ms2_0 (⟨0, h⟩ : Fin cfg2.N)) (hs2_0 (⟨0, h⟩ : Fin cfg2.N)) (ms2_1 (⟨0, h⟩ : Fin cfg2.N)) (hs2_1 (⟨0, h⟩ : Fin cfg2.N)) (ms2_2 (⟨0, h⟩ : Fin cfg2.N)) (hs2_2 (⟨0, h⟩ : Fin cfg2.N)) (ms2_3 (⟨0, h⟩ : Fin cfg2.N)) (hs2_3 (⟨0, h⟩ : Fin cfg2.N)) (ms2_4 (⟨0, h⟩ : Fin cfg2.N)) (hs2_4 (⟨0, h⟩ : Fin cfg2.N)) (ms2_5 (⟨0, h⟩ : Fin cfg2.N)) (hs2_5 (⟨0, h⟩ : Fin cfg2.N)) (ms2_6 (⟨0, h⟩ : Fin cfg2.N)) (hs2_6 (⟨0, h⟩ : Fin cfg2.N)) (ms2_7 (⟨0, h⟩ : Fin cfg2.N)) (hs2_7 (⟨0, h⟩ : Fin cfg2.N)) (ms2_8 (⟨0, h⟩ : Fin cfg2.N)) (hs2_8 (⟨0, h⟩ : Fin cfg2.N)) scM2_0 (Memref.isWhole_whole _) scM2_1 (Memref.isWhole_whole _) ((hcond2_0 (⟨0, h⟩ : Fin cfg2.N)).mpr h0) (fun hh => h1 ((hcond2_1 (⟨0, h⟩ : Fin cfg2.N)).mp hh)) (iblk2 V c 0 (⟨0, h⟩ : Fin cfg2.N)) (iblk2 V c 1 (⟨0, h⟩ : Fin cfg2.N)) (iblk2 V c 2 (⟨0, h⟩ : Fin cfg2.N)) (iblk2 V c 3 (⟨0, h⟩ : Fin cfg2.N)) (iblk2 V c 4 (⟨0, h⟩ : Fin cfg2.N)) (iblk2 V c 5 (⟨0, h⟩ : Fin cfg2.N))

set_option maxHeartbeats 1000000 in
/-- After a later point the running sum of squares is the one the point before left, grown by the column sums of this tile's squares. -/
theorem sq2_succ0 (c : Dev nD) (n : ℕ) (hn : n + 1 < cfg2.N) :
    (outsAt2 V c (n + 1) hn).2.2.2.2 = k2_pay1 (outsAt2 V c (n + 1) hn).1 (outsAt2 V c n (Nat.lt_of_succ_lt hn)).2.2.2.2 := by
  have h0 : ¬(⟨n + 1, hn⟩ : Fin cfg2.N).val = 0 := Nat.succ_ne_zero n
  have e : (outsAt2 V c (n + 1) hn).1 = k2_pay6 (iblk2 V c 0 (⟨n + 1, hn⟩ : Fin cfg2.N)) (iblk2 V c 1 (⟨n + 1, hn⟩ : Fin cfg2.N)) (iblk2 V c 2 (⟨n + 1, hn⟩ : Fin cfg2.N)) (iblk2 V c 4 (⟨n + 1, hn⟩ : Fin cfg2.N)) (iblk2 V c 3 (⟨n + 1, hn⟩ : Fin cfg2.N)) (iblk2 V c 5 (⟨n + 1, hn⟩ : Fin cfg2.N)) := hnewTile2 V c (⟨n + 1, hn⟩ : Fin cfg2.N)
  rw [e]
  show (outsAt2 V c (⟨n + 1, hn⟩ : Fin cfg2.N).val (⟨n + 1, hn⟩ : Fin cfg2.N).isLt).2.2.2.2 = _
  by_cases h1 : (⟨n + 1, hn⟩ : Fin cfg2.N).val = 9
  · rw [outsAt2_C V c (⟨n + 1, hn⟩ : Fin cfg2.N) h0 h1]; dsimp only
    exact sq2_C c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) scM2_0 (Memref.isWhole_whole _) scM2_1 (Memref.isWhole_whole _) (fun hh => h0 ((hcond2_0 (⟨n + 1, hn⟩ : Fin cfg2.N)).mp hh)) ((hcond2_1 (⟨n + 1, hn⟩ : Fin cfg2.N)).mpr h1) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2
  · rw [outsAt2_B V c (⟨n + 1, hn⟩ : Fin cfg2.N) h0 h1]; dsimp only
    exact sq2_B c (grid2.coords (⟨n + 1, hn⟩ : Fin cfg2.N)) (ms2_0 (⟨n + 1, hn⟩ : Fin cfg2.N)) (hs2_0 (⟨n + 1, hn⟩ : Fin cfg2.N)) (ms2_1 (⟨n + 1, hn⟩ : Fin cfg2.N)) (hs2_1 (⟨n + 1, hn⟩ : Fin cfg2.N)) (ms2_2 (⟨n + 1, hn⟩ : Fin cfg2.N)) (hs2_2 (⟨n + 1, hn⟩ : Fin cfg2.N)) (ms2_3 (⟨n + 1, hn⟩ : Fin cfg2.N)) (hs2_3 (⟨n + 1, hn⟩ : Fin cfg2.N)) (ms2_4 (⟨n + 1, hn⟩ : Fin cfg2.N)) (hs2_4 (⟨n + 1, hn⟩ : Fin cfg2.N)) (ms2_5 (⟨n + 1, hn⟩ : Fin cfg2.N)) (hs2_5 (⟨n + 1, hn⟩ : Fin cfg2.N)) (ms2_6 (⟨n + 1, hn⟩ : Fin cfg2.N)) (hs2_6 (⟨n + 1, hn⟩ : Fin cfg2.N)) (ms2_7 (⟨n + 1, hn⟩ : Fin cfg2.N)) (hs2_7 (⟨n + 1, hn⟩ : Fin cfg2.N)) (ms2_8 (⟨n + 1, hn⟩ : Fin cfg2.N)) (hs2_8 (⟨n + 1, hn⟩ : Fin cfg2.N)) scM2_0 (Memref.isWhole_whole _) scM2_1 (Memref.isWhole_whole _) (fun hh => h0 ((hcond2_0 (⟨n + 1, hn⟩ : Fin cfg2.N)).mp hh)) (fun hh => h1 ((hcond2_1 (⟨n + 1, hn⟩ : Fin cfg2.N)).mp hh)) (iblk2 V c 0 (⟨n + 1, hn⟩ : Fin cfg2.N)) (iblk2 V c 1 (⟨n + 1, hn⟩ : Fin cfg2.N)) (iblk2 V c 2 (⟨n + 1, hn⟩ : Fin cfg2.N)) (iblk2 V c 3 (⟨n + 1, hn⟩ : Fin cfg2.N)) (iblk2 V c 4 (⟨n + 1, hn⟩ : Fin cfg2.N)) (iblk2 V c 5 (⟨n + 1, hn⟩ : Fin cfg2.N)) (outsAt2 V c ((⟨n + 1, hn⟩ : Fin cfg2.N).val - 1) (Nat.lt_of_le_of_lt (Nat.sub_le _ _) (⟨n + 1, hn⟩ : Fin cfg2.N).isLt)).2.2.2.1 (outsAt2 V c ((⟨n + 1, hn⟩ : Fin cfg2.N).val - 1) (Nat.lt_of_le_of_lt (Nat.sub_le _ _) (⟨n + 1, hn⟩ : Fin cfg2.N).isLt)).2.2.2.2

set_option maxHeartbeats 1000000 in
/-- At a point that is the last one, the mean row is computed from the running sum that point leaves (stated at a
    point given with the fact that it is the last, so that the walk is never unrolled). -/
theorem meanRow2 (c : Dev nD) (t : Fin cfg2.N) (h1 : t.val = 9) :
    (outsAt2 V c t.val t.isLt).2.1 = k2_pay2 (outsAt2 V c t.val t.isLt).2.2.2.1 := by
  have h0 : ¬t.val = 0 := by omega
  rw [outsAt2_C V c t h0 h1]; dsimp only
  exact (mean2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (congrArg k2_pay2 (sum2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm)

set_option maxHeartbeats 1000000 in
/-- At a point that is the last one, the variance row is computed from the two running sums that point leaves. -/
theorem varRow2 (c : Dev nD) (t : Fin cfg2.N) (h1 : t.val = 9) :
    (outsAt2 V c t.val t.isLt).2.2.1 = k2_pay3 (outsAt2 V c t.val t.isLt).2.2.2.1 (outsAt2 V c t.val t.isLt).2.2.2.2 := by
  have h0 : ¬t.val = 0 := by omega
  rw [outsAt2_C V c t h0 h1]; dsimp only
  exact (var2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).trans
    (congrArg₂ k2_pay3 (sum2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm
      (sq2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun hh => h0 ((hcond2_0 t).mp hh)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2).symm)

end Regions

end Cert.KernelIdeal.Hand

end
-- ==== Proof.KI.StatsSumsCore2.lean ====
/-
  Kernel region 2 on the extended reals: from the body's step equations to the column statistics.

  The region walks the 50000 rows in ten tiles of 5000. At each tile the body stores the tile of the linear part

      lin i j = ((∑ k, agg i k · Wr k j) + br j) + (∑ k, h i k · Wo k j) + bo j ,

  adds the tile's column sums to a running row that starts from zero, and the column sums of its squares to a second
  one; at the last tile it stores the running sum over 50000 as the mean row and the running sum of squares over 50000
  minus the squared mean as the variance row.

  This module does the arithmetic of that walk once, for any point-indexed tuple of contents that satisfies the step
  equations: (1) entry (r, k) of a row tile at point t is entry (5000 t + r, k) of its array, and the weights and bias
  rows are read whole; (2) so the tile the body computes from the six blocks of point t is, at (r, j), the linear part
  at row 5000 t + r; (3) a row that starts from zero plus tile 0's column sums and grows by each next tile's is, after
  point n, the sum over tiles 0 to n, and after the last point the sum over all the rows; (4) the two statistics arrays,
  written back at the last point only through a block that is the whole row, hold after the run what the body left at
  that point; (5) hence the mean row is the column mean of the linear part and the variance row its mean of squares
  minus its squared mean.
-/
import proofs.«162849_j29643864277577_1_alg».proof.Proof.KI.Stats2Runs
import proofs.«162849_j29643864277577_1_alg».proof.Proof.KI.StatsArr2
import proofs.«162849_j29643864277577_1_alg».proof.Proof.KI.PayRead
import proofs.«162849_j29643864277577_1_alg».proof.Proof.Math.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-! ## Where a block's entry sits in its array

A block's entry sits in the array, on each axis, at the block index times the block's extent plus the coordinate
inside the block. The two row tiles move down the rows with the grid point; the weights and the bias rows are whole. -/

/-- Window 0's block index at point t is (t, 0). -/
theorem idx2_0 : ∀ t : Fin cfg2.N, win2_0.index t 0 = t.val ∧ win2_0.index t 1 = 0 :=
  (by decide +kernel : ∀ t : Fin grid2.N, win2_0.index t 0 = t.val ∧ win2_0.index t 1 = 0)
/-- Window 1's block index at point t is (t, 0). -/
theorem idx2_1 : ∀ t : Fin cfg2.N, win2_1.index t 0 = t.val ∧ win2_1.index t 1 = 0 :=
  (by decide +kernel : ∀ t : Fin grid2.N, win2_1.index t 0 = t.val ∧ win2_1.index t 1 = 0)
/-- Window 2's block index is (0, 0) at every point. -/
theorem idx2_2 : ∀ t : Fin cfg2.N, win2_2.index t 0 = 0 ∧ win2_2.index t 1 = 0 :=
  (by decide +kernel : ∀ t : Fin grid2.N, win2_2.index t 0 = 0 ∧ win2_2.index t 1 = 0)
/-- Window 3's block index is (0, 0) at every point. -/
theorem idx2_3 : ∀ t : Fin cfg2.N, win2_3.index t 0 = 0 ∧ win2_3.index t 1 = 0 :=
  (by decide +kernel : ∀ t : Fin grid2.N, win2_3.index t 0 = 0 ∧ win2_3.index t 1 = 0)
/-- Window 4's block index is (0, 0) at every point. -/
theorem idx2_4 : ∀ t : Fin cfg2.N, win2_4.index t 0 = 0 ∧ win2_4.index t 1 = 0 :=
  (by decide +kernel : ∀ t : Fin grid2.N, win2_4.index t 0 = 0 ∧ win2_4.index t 1 = 0)
/-- Window 5's block index is (0, 0) at every point. -/
theorem idx2_5 : ∀ t : Fin cfg2.N, win2_5.index t 0 = 0 ∧ win2_5.index t 1 = 0 :=
  (by decide +kernel : ∀ t : Fin grid2.N, win2_5.index t 0 = 0 ∧ win2_5.index t 1 = 0)

set_option maxHeartbeats 400000 in
/-- Entry (r, k) of window 0's tile at point t is entry (5000 t + r, k) of its array. -/
theorem iblk2_0_apply (c : Dev nD) (t : Fin cfg2.N) (r : Fin 5000) (k : Fin 128) (h : t.val * 5000 + r.val < 50000) :
    iblk2 V c 0 t (ix2 r k) = arr2_0 V c (ix2 ⟨t.val * 5000 + r.val, h⟩ k) := by
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * r.val = t.val * 5000 + r.val; rw [(idx2_0 t).1]; omega
  | ⟨1, _⟩ => show win2_0.index t 1 * 128 + 1 * k.val = k.val; rw [(idx2_0 t).2]; omega

set_option maxHeartbeats 400000 in
/-- Entry (r, k) of window 1's tile at point t is entry (5000 t + r, k) of its array. -/
theorem iblk2_1_apply (c : Dev nD) (t : Fin cfg2.N) (r : Fin 5000) (k : Fin 128) (h : t.val * 5000 + r.val < 50000) :
    iblk2 V c 1 t (ix2 r k) = arr2_1 V c (ix2 ⟨t.val * 5000 + r.val, h⟩ k) := by
  unfold iblk2
  rw [View.read_apply]
  show V c (Pipeline.arrRef spec2 1) _ = V c (Pipeline.arrRef spec2 1) _
  congr 1
  funext a
  apply Fin.ext
  match a with
  | ⟨0, _⟩ => show win2_1.index t 0 * 5000 + 1 * r.val = t.val * 5000 + r.val; rw [(idx2_1 t).1]; omega
  | ⟨1, _⟩ => show win2_1.index t 1 * 128 + 1 * k.val = k.val; rw [(idx2_1 t).2]; omega

set_option maxHeartbeats 400000 in
/-- Window 2's block is its whole array at every point. -/
theorem iblk2_2_apply (c : Dev nD) (t : Fin cfg2.N) (k j : Fin 128) :
    iblk2 V c 2 t (ix2 k j) = arr2_2 V c (ix2 k j) := by
  unfold iblk2
  rw [View.read_apply]
  show V c (Pipeline.arrRef spec2 2) _ = V c (Pipeline.arrRef spec2 2) _
  congr 1
  funext a
  apply Fin.ext
  match a with
  | ⟨0, _⟩ => show win2_2.index t 0 * 128 + 1 * k.val = k.val; rw [(idx2_2 t).1]; omega
  | ⟨1, _⟩ => show win2_2.index t 1 * 128 + 1 * j.val = j.val; rw [(idx2_2 t).2]; omega

set_option maxHeartbeats 400000 in
/-- Window 3's block is its whole row at every point. -/
theorem iblk2_3_apply (c : Dev nD) (t : Fin cfg2.N) (j : Fin 128) :
    iblk2 V c 3 t (ix2 (0 : Fin 1) j) = arr2_3 V c (ix2 (0 : Fin 1) j) := by
  unfold iblk2
  rw [View.read_apply]
  show V c (Pipeline.arrRef spec2 3) _ = V c (Pipeline.arrRef spec2 3) _
  congr 1
  funext a
  apply Fin.ext
  match a with
  | ⟨0, _⟩ => show win2_3.index t 0 * 1 + 1 * 0 = 0; rw [(idx2_3 t).1]
  | ⟨1, _⟩ => show win2_3.index t 1 * 128 + 1 * j.val = j.val; rw [(idx2_3 t).2]; omega

set_option maxHeartbeats 400000 in
/-- Window 4's block is its whole array at every point. -/
theorem iblk2_4_apply (c : Dev nD) (t : Fin cfg2.N) (k j : Fin 128) :
    iblk2 V c 4 t (ix2 k j) = arr2_4 V c (ix2 k j) := by
  unfold iblk2
  rw [View.read_apply]
  show V c (Pipeline.arrRef spec2 4) _ = V c (Pipeline.arrRef spec2 4) _
  congr 1
  funext a
  apply Fin.ext
  match a with
  | ⟨0, _⟩ => show win2_4.index t 0 * 128 + 1 * k.val = k.val; rw [(idx2_4 t).1]; omega
  | ⟨1, _⟩ => show win2_4.index t 1 * 128 + 1 * j.val = j.val; rw [(idx2_4 t).2]; omega

set_option maxHeartbeats 400000 in
/-- Window 5's block is its whole row at every point. -/
theorem iblk2_5_apply (c : Dev nD) (t : Fin cfg2.N) (j : Fin 128) :
    iblk2 V c 5 t (ix2 (0 : Fin 1) j) = arr2_5 V c (ix2 (0 : Fin 1) j) := by
  unfold iblk2
  rw [View.read_apply]
  show V c (Pipeline.arrRef spec2 5) _ = V c (Pipeline.arrRef spec2 5) _
  congr 1
  funext a
  apply Fin.ext
  match a with
  | ⟨0, _⟩ => show win2_5.index t 0 * 1 + 1 * 0 = 0; rw [(idx2_5 t).1]
  | ⟨1, _⟩ => show win2_5.index t 1 * 128 + 1 * j.val = j.val; rw [(idx2_5 t).2]; omega

/-! ## The tile the body stores is a tile of the linear part -/

/-- The linear part of the layer over the whole arrays the region finds: aggregated messages times the first weights,
    plus the first bias, plus node features times the second weights, plus the second bias. -/
abbrev X2 (c : Dev nD) : Cert.Spec.Mat :=
  Cert.Spec.lin (fun i k => arr2_0 V c (ix2 i k)) (fun i k => arr2_1 V c (ix2 i k)) (fun k j => arr2_2 V c (ix2 k j))
    (fun k j => arr2_4 V c (ix2 k j)) (fun j => arr2_3 V c (ix2 (0 : Fin 1) j)) (fun j => arr2_5 V c (ix2 (0 : Fin 1) j))

set_option maxHeartbeats 800000 in
/-- What the body computes from the six blocks of point t, at row r and lane j, is the linear part at row 5000 t + r. -/
theorem pay6_blocks2 (c : Dev nD) (t : Fin cfg2.N) (r : Fin 5000) (j : Fin 128) (h : t.val * 5000 + r.val < 50000) :
    k2_pay6 (F := Ideal) (iblk2 V c 0 t) (iblk2 V c 1 t) (iblk2 V c 2 t) (iblk2 V c 4 t) (iblk2 V c 3 t) (iblk2 V c 5 t) (ix2 r j)
      = X2 V c ⟨t.val * 5000 + r.val, h⟩ j := by
  rw [Cert.KernelIdeal.PayValue.k2_pay6_apply]
  simp only [iblk2_0_apply V c t r _ h, iblk2_1_apply V c t r _ h, iblk2_2_apply V c t, iblk2_3_apply V c t,
    iblk2_4_apply V c t, iblk2_5_apply V c t]
  rfl

/-! ## Adding the tiles up

A running sum that starts from zero plus the first tile's column sum and grows by each next tile's column sum is,
after point n, the sum over the tiles 0 to n; after the last point that is the sum over all 50000 rows. -/

/-- Column j of Y summed over the 5000 rows of tile t (nothing past the tenth tile). -/
def tileSum2 (Y : Cert.Spec.Mat) (j : Fin 128) (t : ℕ) : EReal :=
  if h : t < 10 then ∑ r : Fin 5000, Y ⟨t * 5000 + r.val, by have := r.isLt; show t * 5000 + r.val < 50000; omega⟩ j else 0

/-- The ten tiles' column sums add up to the column sum over all the rows. -/
theorem tileSum2_total (Y : Cert.Spec.Mat) (j : Fin 128) : ∑ t ∈ Finset.range 10, tileSum2 Y j t = ∑ i, Y i j := by
  rw [Cert.Spec.sum_rows_tiles (fun i => Y i j), Finset.sum_range]
  refine Finset.sum_congr rfl fun t _ => ?_
  unfold tileSum2
  rw [dif_pos t.isLt]

/-- A quantity that is zero plus tile 0's column sum at the first point and grows by tile n + 1's at point n + 1 is,
    at point n, the sum of the column sums of tiles 0 to n. -/
theorem runSum2 {N : ℕ} (Y : Cert.Spec.Mat) (j : Fin 128) (s : (n : ℕ) → n < N → EReal)
    (h0 : ∀ h : 0 < N, s 0 h = 0 + tileSum2 Y j 0)
    (hs : ∀ (n : ℕ) (hn : n + 1 < N), s (n + 1) hn = s n (Nat.lt_of_succ_lt hn) + tileSum2 Y j (n + 1)) :
    ∀ (n : ℕ) (hn : n < N), s n hn = ∑ t ∈ Finset.range (n + 1), tileSum2 Y j t
  | 0, hn => by rw [h0 hn, Finset.sum_range_one, zero_add]
  | n + 1, hn => by rw [hs n hn, runSum2 Y j s h0 hs n (Nat.lt_of_succ_lt hn), Finset.sum_range_succ _ (n + 1)]

/-! ## The two statistics arrays after the run

Outputs 7 and 8 are written back at the last point only, and their one block is the whole 1 by 128 array: after the
run each holds what the body left in its buffer at the last point. -/

/-- The last point. -/
abbrev tLast2 : Fin cfg2.N := t2_9

set_option maxHeartbeats 800000 in
/-- After the run, array 7 holds what the body left for output 7 at the last point, for any proof data. -/
theorem arrAt2_7_of {c : Dev nD} (dat : Dat τ (Elt Ideal) Unit ℕ (UR sig nD τ) ℕ cfg2 c) (j : Fin 128) :
    dat.arrAt 7 cfg2.N (ix2 (0 : Fin 1) j) = dat.after 7 tLast2 (ix2 (0 : Fin 1) j) := by
  have hf : (cfg2.win 7).flush tLast2 = true := (flush2_7 tLast2).mpr (by decide)
  have hone : ∀ t : Fin cfg2.N, (cfg2.win 7).flush t = true → t = tLast2 := fun t ht => by
    have h9 := (flush2_7 t).mp ht
    have hN : t.val < 10 := lt_of_lt_of_eq t.isLt N_2
    exact Fin.ext (by show t.val = 9; omega)
  have h := dat.arrAt_emb_eq_flushed 7 (fun t t' ht ht' hne => absurd ((hone t ht).trans (hone t' ht').symm) hne) tLast2 hf (ix2 (0 : Fin 1) j)
  refine Eq.trans ?_ (h.trans ?_)
  · show dat.arrAt 7 cfg2.N _ = dat.arrAt 7 cfg2.N _
    congr 1
    funext a
    apply Fin.ext
    match a with
    | ⟨0, _⟩ => rfl
    | ⟨1, _⟩ => show j.val = win2_7.index tLast2 1 * 128 + 1 * j.val; rw [show win2_7.index tLast2 1 = 0 from by decide +kernel]; omega
  · rfl

set_option maxHeartbeats 800000 in
/-- After the run, array 8 holds what the body left for output 8 at the last point, for any proof data. -/
theorem arrAt2_8_of {c : Dev nD} (dat : Dat τ (Elt Ideal) Unit ℕ (UR sig nD τ) ℕ cfg2 c) (j : Fin 128) :
    dat.arrAt 8 cfg2.N (ix2 (0 : Fin 1) j) = dat.after 8 tLast2 (ix2 (0 : Fin 1) j) := by
  have hf : (cfg2.win 8).flush tLast2 = true := (flush2_8 tLast2).mpr (by decide)
  have hone : ∀ t : Fin cfg2.N, (cfg2.win 8).flush t = true → t = tLast2 := fun t ht => by
    have h9 := (flush2_8 t).mp ht
    have hN : t.val < 10 := lt_of_lt_of_eq t.isLt N_2
    exact Fin.ext (by show t.val = 9; omega)
  have h := dat.arrAt_emb_eq_flushed 8 (fun t t' ht ht' hne => absurd ((hone t ht).trans (hone t' ht').symm) hne) tLast2 hf (ix2 (0 : Fin 1) j)
  refine Eq.trans ?_ (h.trans ?_)
  · show dat.arrAt 8 cfg2.N _ = dat.arrAt 8 cfg2.N _
    congr 1
    funext a
    apply Fin.ext
    match a with
    | ⟨0, _⟩ => rfl
    | ⟨1, _⟩ => show j.val = win2_8.index tLast2 1 * 128 + 1 * j.val; rw [show win2_8.index tLast2 1 = 0 from by decide +kernel]; omega
  · rfl

/-! ## The accumulation over the grid

Stated for any point-indexed tuple (output tile, mean row, variance row, running sum, running sum of squares) that
satisfies the step equations: the tile is the body's tile of the point's six blocks; the running sum starts from the
zero row and grows by the tile's column sums; the running sum of squares likewise by the squares; at the last point
the mean row and the variance row are computed from the two running sums. -/

/-- The six blocks of point t, in the order the body's tile takes them. -/
abbrev tileOf2 (c : Dev nD) (t : Fin cfg2.N) : FVec Ideal S5000x128 .f32 :=
  k2_pay6 (F := Ideal) (iblk2 V c 0 t) (iblk2 V c 1 t) (iblk2 V c 2 t) (iblk2 V c 4 t) (iblk2 V c 3 t) (iblk2 V c 5 t)

/-- The squares of the linear part. -/
abbrev XX2 (c : Dev nD) : Cert.Spec.Mat := fun i j => X2 V c i j * X2 V c i j

/-- The step equations. -/
structure Steps2 (c : Dev nD)
    (T : (n : ℕ) → n < cfg2.N → Vec Ideal S5000x128 .f32 × Vec Ideal S1x128 .f32 × Vec Ideal S1x128 .f32 × Vec Ideal S1x128 .f32 × Vec Ideal S1x128 .f32) : Prop where
  tile : ∀ t : Fin cfg2.N, (T t.val t.isLt).1 = tileOf2 V c t
  sum0 : ∀ h : 0 < cfg2.N, (T 0 h).2.2.2.1
    = k2_pay7 (F := Ideal) (iblk2 V c 0 ⟨0, h⟩) (iblk2 V c 1 ⟨0, h⟩) (iblk2 V c 2 ⟨0, h⟩) (iblk2 V c 4 ⟨0, h⟩) (iblk2 V c 3 ⟨0, h⟩) (iblk2 V c 5 ⟨0, h⟩) (k2_pay4 (F := Ideal))
  sumS : ∀ (n : ℕ) (hn : n + 1 < cfg2.N), (T (n + 1) hn).2.2.2.1
    = k2_pay7 (F := Ideal) (iblk2 V c 0 ⟨n + 1, hn⟩) (iblk2 V c 1 ⟨n + 1, hn⟩) (iblk2 V c 2 ⟨n + 1, hn⟩) (iblk2 V c 4 ⟨n + 1, hn⟩) (iblk2 V c 3 ⟨n + 1, hn⟩) (iblk2 V c 5 ⟨n + 1, hn⟩) (T n (Nat.lt_of_succ_lt hn)).2.2.2.1
  sq0 : ∀ h : 0 < cfg2.N, (T 0 h).2.2.2.2 = k2_pay1 (F := Ideal) (T 0 h).1 (k2_pay5 (F := Ideal))
  sqS : ∀ (n : ℕ) (hn : n + 1 < cfg2.N), (T (n + 1) hn).2.2.2.2 = k2_pay1 (F := Ideal) (T (n + 1) hn).1 (T n (Nat.lt_of_succ_lt hn)).2.2.2.2
  mean : ∀ t : Fin cfg2.N, t.val = 9 → (T t.val t.isLt).2.1 = k2_pay2 (F := Ideal) (T t.val t.isLt).2.2.2.1
  var : ∀ t : Fin cfg2.N, t.val = 9 →
    (T t.val t.isLt).2.2.1 = k2_pay3 (F := Ideal) (T t.val t.isLt).2.2.2.1 (T t.val t.isLt).2.2.2.2

/-- The running sum's step at lane j: the row before plus tile t's column sum of the linear part. -/
theorem paySum2 (c : Dev nD) (t : Fin cfg2.N) (j : Fin 128) (s : FVec Ideal S1x128 .f32) :
    k2_pay7 (F := Ideal) (iblk2 V c 0 t) (iblk2 V c 1 t) (iblk2 V c 2 t) (iblk2 V c 4 t) (iblk2 V c 3 t) (iblk2 V c 5 t) s (ix2 (0 : Fin 1) j)
      = s (ix2 (0 : Fin 1) j) + tileSum2 (X2 V c) j t.val := by
  rw [Cert.KernelIdeal.PayValue.k2_pay7_apply]
  congr 1
  unfold tileSum2
  rw [dif_pos (lt_of_lt_of_eq t.isLt N_2)]
  exact Finset.sum_congr rfl fun r _ => pay6_blocks2 V c t r j _

/-- The running sum of squares' step at lane j, for a tile that is the linear part's tile t. -/
theorem paySq2 (c : Dev nD) (t : Fin cfg2.N) (j : Fin 128) (v : FVec Ideal S5000x128 .f32) (q : FVec Ideal S1x128 .f32)
    (hv : ∀ (r : Fin 5000) (h : t.val * 5000 + r.val < 50000), v (ix2 r j) = X2 V c ⟨t.val * 5000 + r.val, h⟩ j) :
    k2_pay1 (F := Ideal) v q (ix2 (0 : Fin 1) j) = q (ix2 (0 : Fin 1) j) + tileSum2 (XX2 V c) j t.val := by
  rw [Cert.KernelIdeal.PayValue.k2_pay1_apply]
  congr 1
  unfold tileSum2
  rw [dif_pos (lt_of_lt_of_eq t.isLt N_2)]
  exact Finset.sum_congr rfl fun r _ => by rw [hv r _]

section Accumulate

variable {c : Dev nD}
  {T : (n : ℕ) → n < cfg2.N → Vec Ideal S5000x128 .f32 × Vec Ideal S1x128 .f32 × Vec Ideal S1x128 .f32 × Vec Ideal S1x128 .f32 × Vec Ideal S1x128 .f32}

/-- (a) The output tile at point t, row r, lane j is the linear part at row 5000 t + r. -/
theorem Steps2.tile_apply (H : Steps2 V c T) (t : Fin cfg2.N) (r : Fin 5000) (j : Fin 128) (h : t.val * 5000 + r.val < 50000) :
    (T t.val t.isLt).1 (ix2 r j) = X2 V c ⟨t.val * 5000 + r.val, h⟩ j := by
  rw [H.tile t]; exact pay6_blocks2 V c t r j h

/-- (b) After point n the running sum at lane j is the linear part's column j summed over tiles 0 to n. -/
theorem Steps2.sum_apply (H : Steps2 V c T) (n : ℕ) (hn : n < cfg2.N) (j : Fin 128) :
    (T n hn).2.2.2.1 (ix2 (0 : Fin 1) j) = ∑ t ∈ Finset.range (n + 1), tileSum2 (X2 V c) j t :=
  runSum2 (X2 V c) j (fun n hn => (T n hn).2.2.2.1 (ix2 (0 : Fin 1) j))
    (fun h => by
      show (T 0 h).2.2.2.1 (ix2 (0 : Fin 1) j) = _
      rw [H.sum0 h, paySum2 V c ⟨0, h⟩ j, Cert.KernelIdeal.PayValue.k2_pay4_eq])
    (fun n hn => by
      show (T (n + 1) hn).2.2.2.1 (ix2 (0 : Fin 1) j) = _
      rw [H.sumS n hn, paySum2 V c ⟨n + 1, hn⟩ j]) n hn

/-- (b) After point n the running sum of squares at lane j is the squares' column j summed over tiles 0 to n. -/
theorem Steps2.sq_apply (H : Steps2 V c T) (n : ℕ) (hn : n < cfg2.N) (j : Fin 128) :
    (T n hn).2.2.2.2 (ix2 (0 : Fin 1) j) = ∑ t ∈ Finset.range (n + 1), tileSum2 (XX2 V c) j t :=
  runSum2 (XX2 V c) j (fun n hn => (T n hn).2.2.2.2 (ix2 (0 : Fin 1) j))
    (fun h => by
      show (T 0 h).2.2.2.2 (ix2 (0 : Fin 1) j) = _
      rw [H.sq0 h, paySq2 V c ⟨0, h⟩ j _ _ (fun r hr => H.tile_apply V ⟨0, h⟩ r j hr), Cert.KernelIdeal.PayValue.k2_pay5_eq])
    (fun n hn => by
      show (T (n + 1) hn).2.2.2.2 (ix2 (0 : Fin 1) j) = _
      rw [H.sqS n hn, paySq2 V c ⟨n + 1, hn⟩ j _ _ (fun r hr => H.tile_apply V ⟨n + 1, hn⟩ r j hr)]) n hn

/-- (c) After the last point the running sum is the column sum over all the rows (the last point is given with the
    fact that it is the last, never as a numeral), -/
theorem Steps2.sum_last (H : Steps2 V c T) (t : Fin cfg2.N) (h9 : t.val = 9) (j : Fin 128) :
    (T t.val t.isLt).2.2.2.1 (ix2 (0 : Fin 1) j) = ∑ i, X2 V c i j := by
  obtain ⟨n, hn⟩ := t
  obtain rfl : n = 9 := h9
  exact (H.sum_apply V 9 hn j).trans (tileSum2_total _ j)

/-- and the running sum of squares the column sum of the squares. -/
theorem Steps2.sq_last (H : Steps2 V c T) (t : Fin cfg2.N) (h9 : t.val = 9) (j : Fin 128) :
    (T t.val t.isLt).2.2.2.2 (ix2 (0 : Fin 1) j) = ∑ i, X2 V c i j * X2 V c i j := by
  obtain ⟨n, hn⟩ := t
  obtain rfl : n = 9 := h9
  exact (H.sq_apply V 9 hn j).trans (tileSum2_total _ j)

/-- (c) The mean row stored at the last point is the linear part's column mean, -/
theorem Steps2.mean_apply (H : Steps2 V c T) (t : Fin cfg2.N) (h9 : t.val = 9) (j : Fin 128) :
    (T t.val t.isLt).2.1 (ix2 (0 : Fin 1) j) = Cert.Spec.colMean (X2 V c) j := by
  rw [H.mean t h9, Cert.KernelIdeal.PayValue.k2_pay2_apply, H.sum_last V t h9 j]; rfl

/-- and the variance row the mean of its squares minus the squared mean. -/
theorem Steps2.var_apply (H : Steps2 V c T) (t : Fin cfg2.N) (h9 : t.val = 9) (j : Fin 128) :
    (T t.val t.isLt).2.2.1 (ix2 (0 : Fin 1) j) = Cert.Spec.varSq (X2 V c) j := by
  rw [H.var t h9, Cert.KernelIdeal.PayValue.k2_pay3_apply, H.sum_last V t h9 j, H.sq_last V t h9 j]; rfl

end Accumulate

end Regions

end Cert.KernelIdeal.Hand

end
-- ==== Proof.KI.StatsSums2.lean ====
/-
  Kernel region 2 on the extended reals: the mean and variance arrays after the run.

  What the region's buffers hold after each grid point satisfies the step equations of the walk over the ten row
  tiles, so the arithmetic done once for any such contents applies: the output tile at point t is the linear part's
  rows 5000 t to 5000 t + 4999, and after the run the mean array holds, lane by lane, the column mean of the linear
  part of the layer over all 50000 rows, and the variance array its mean of squares minus its squared mean.
-/
import proofs.«162849_j29643864277577_1_alg».proof.Proof.KI.StatsPieces2
import proofs.«162849_j29643864277577_1_alg».proof.Proof.KI.StatsSumsCore2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-- What the buffers hold after each point satisfies the step equations. -/
theorem steps2 (c : Dev nD) : Steps2 V c (outsAt2 V c) where
  tile := hnewTile2 V c
  sum0 := scr2_zero0 V c
  sumS := scr2_succ0 V c
  sq0 := sq2_zero0 V c
  sqS := sq2_succ0 V c
  mean := meanRow2 V c
  var := varRow2 V c

/-- The output tile at point t, row r, lane j is the linear part at row 5000 t + r. -/
theorem hnew2_apply (c : Dev nD) (t : Fin cfg2.N) (r : Fin 5000) (j : Fin 128) (h : t.val * 5000 + r.val < 50000) :
    (outsAt2 V c t.val t.isLt).1 (ix2 r j) = X2 V c ⟨t.val * 5000 + r.val, h⟩ j :=
  (steps2 V c).tile_apply V t r j h

/-- After the run the mean array holds the column mean of the linear part. -/
theorem mean2_arr (c : Dev nD) (j : Fin 128) :
    (dat2 (F := Ideal) V c).arrAt 7 cfg2.N (ix2 (0 : Fin 1) j) = Cert.Spec.colMean (X2 V c) j := by
  rw [arrAt2_7_of (dat2 V c) j, after2_7]
  exact (steps2 V c).mean_apply V tLast2 rfl j

/-- After the run the variance array holds the linear part's mean of squares minus its squared mean. -/
theorem var2_arr (c : Dev nD) (j : Fin 128) :
    (dat2 (F := Ideal) V c).arrAt 8 cfg2.N (ix2 (0 : Fin 1) j) = Cert.Spec.varSq (X2 V c) j := by
  rw [arrAt2_8_of (dat2 V c) j, after2_8]
  exact (steps2 V c).var_apply V tLast2 rfl j

end Regions

end Cert.KernelIdeal.Hand

end
-- ==== Proof.KI.StatsArr4.lean ====
import proofs.«162849_j29643864277577_1_alg».proof.Proof.KI.Stats4
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 4: the six arrays it reads, as it finds them

The region reads six arrays: the aggregated messages and the node features (50000 rows of 128 features each), the
two weight matrices (128 by 128) and the two bias rows (1 by 128). Each is named here at its own vector type, at
the contents `V` the region finds in the core's buffers, so that statements about their entries can add and
multiply them as extended reals. -/

section Regions

variable (V : (c : Dev nD) → (b : Ref sig .tc) → Buf (Elt Ideal) ((c : Thread nD τ).loc b))

/-- The aggregated messages (window 0's array). -/
abbrev arr4_0 (c : Dev nD) : FVec Ideal S50000x128 .f32 := V c (Pipeline.arrRef spec4 0)
/-- The node features (window 1's array). -/
abbrev arr4_1 (c : Dev nD) : FVec Ideal S50000x128 .f32 := V c (Pipeline.arrRef spec4 1)
/-- The weights applied to the aggregated messages (window 2's array). -/
abbrev arr4_2 (c : Dev nD) : FVec Ideal S128x128 .f32 := V c (Pipeline.arrRef spec4 2)
/-- The bias row added after the first product (window 3's array). -/
abbrev arr4_3 (c : Dev nD) : FVec Ideal S1x128 .f32 := V c (Pipeline.arrRef spec4 3)
/-- The weights applied to the node features (window 4's array). -/
abbrev arr4_4 (c : Dev nD) : FVec Ideal S128x128 .f32 := V c (Pipeline.arrRef spec4 4)
/-- The bias row added last (window 5's array). -/
abbrev arr4_5 (c : Dev nD) : FVec Ideal S1x128 .f32 := V c (Pipeline.arrRef spec4 5)

end Regions

end Cert.KernelIdeal.Hand

end
-- ==== Proof.KI.StatsHnew4.lean ====
import proofs.«162849_j29643864277577_1_alg».proof.Proof.KI.StatsArr4
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 4: what it leaves in its first output array

The region's body stores, at grid point `t`, one 5000-row tile of the layer's linear part: the tile of the aggregated
messages times the first weight matrix, plus the first bias row, plus the tile of the node features times the second
weight matrix, plus the second bias row. The pipeline writes that tile back at every point, to rows 5000 t … 5000 t +
4999 of the output array, and the ten tiles fill the array's 50000 rows. So after the region the array holds, at every
row `i` and lane `j`,

    ((∑ k, agg i k · W_rel k j) + b_rel j) + (∑ k, h i k · W_root k j) + b_root j ,

the specification's `lin` of the six arrays the region reads, as it finds them.

The steps: where each window's block sits at a point (decided over the ten points); each input block read off its
array entry by entry; the stored tile at one entry as `lin` at the entry's place in the array; hence the block a point
writes back is its block of the one whole-array function; the ten blocks cover every index; so the array is that
function. Everything up to the last statement is for any proof data of the region's pipeline whose body leaves the
stored tile in the output's buffer. -/

open Idealize.ShloMosaic.ValueIdx

section Regions
variable (V : (c : Dev nD) → (b : Ref sig .tc) → Buf (Elt Ideal) ((c : Thread nD τ).loc b))

/-! ## Where each window's block sits -/

/-- The printed index maps, decided once over the ten grid points: the two row tiles and the output tile sit at
    block row `t`, block column 0; the weights and the bias rows are whole, at block (0, 0). -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0) :=
  (by decide +kernel : ∀ t : Fin grid4.N, _)

/-! ## Each input block, read off its array -/

/-- Row tile `t` of the aggregated messages: its entry (r, k) is the array's entry (5000 t + r, k). -/
theorem iblk4_0_at (c : Dev nD) (t : Fin cfg4.N) (p : S5000x128.Idx) (q : S50000x128.Idx)
    (h0 : (q 0).val = t.val * 5000 + (p 0).val) (h1 : (q 1).val = (p 1).val) :
    (iblk4 V c 0 t : FVec Ideal S5000x128 .f32) p = arr4_0 V c q := by
  obtain ⟨e0, e1⟩ := (idx_facts4 t).1
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * (p 0).val = (q 0).val; rw [e0, h0]; omega
  | ⟨1, _⟩ => show win4_0.index t (1 : Fin 2) * 128 + 1 * (p 1).val = (q 1).val; rw [e1, h1]; omega

/-- Row tile `t` of the node features: its entry (r, k) is the array's entry (5000 t + r, k). -/
theorem iblk4_1_at (c : Dev nD) (t : Fin cfg4.N) (p : S5000x128.Idx) (q : S50000x128.Idx)
    (h0 : (q 0).val = t.val * 5000 + (p 0).val) (h1 : (q 1).val = (p 1).val) :
    (iblk4 V c 1 t : FVec Ideal S5000x128 .f32) p = arr4_1 V c q := by
  obtain ⟨e0, e1⟩ := (idx_facts4 t).2.1
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * (p 0).val = (q 0).val; rw [e0, h0]; omega
  | ⟨1, _⟩ => show win4_1.index t (1 : Fin 2) * 128 + 1 * (p 1).val = (q 1).val; rw [e1, h1]; omega

/-- The first weight matrix comes in whole: its block at every point is the array. -/
theorem iblk4_2_at (c : Dev nD) (t : Fin cfg4.N) (p : S128x128.Idx) :
    (iblk4 V c 2 t : FVec Ideal S128x128 .f32) p = arr4_2 V c p := by
  obtain ⟨e0, e1⟩ := (idx_facts4 t).2.2.1
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * (p 0).val = (p 0).val; rw [e0]; omega
  | ⟨1, _⟩ => show win4_2.index t (1 : Fin 2) * 128 + 1 * (p 1).val = (p 1).val; rw [e1]; omega

/-- The first bias row comes in whole: its block at every point is the array. -/
theorem iblk4_3_at (c : Dev nD) (t : Fin cfg4.N) (p : S1x128.Idx) :
    (iblk4 V c 3 t : FVec Ideal S1x128 .f32) p = arr4_3 V c p := by
  obtain ⟨e0, e1⟩ := (idx_facts4 t).2.2.2.1
  unfold iblk4
  rw [View.read_apply]
  show V c (Pipeline.arrRef spec4 3) _ = V c (Pipeline.arrRef spec4 3) _
  congr 1
  funext a
  apply Fin.ext
  match a with
  | ⟨0, _⟩ => show win4_3.index t (0 : Fin 2) * 1 + 1 * (p 0).val = (p 0).val; rw [e0]; omega
  | ⟨1, _⟩ => show win4_3.index t (1 : Fin 2) * 128 + 1 * (p 1).val = (p 1).val; rw [e1]; omega

/-- The second weight matrix comes in whole: its block at every point is the array. -/
theorem iblk4_4_at (c : Dev nD) (t : Fin cfg4.N) (p : S128x128.Idx) :
    (iblk4 V c 4 t : FVec Ideal S128x128 .f32) p = arr4_4 V c p := by
  obtain ⟨e0, e1⟩ := (idx_facts4 t).2.2.2.2.1
  unfold iblk4
  rw [View.read_apply]
  show V c (Pipeline.arrRef spec4 4) _ = V c (Pipeline.arrRef spec4 4) _
  congr 1
  funext a
  apply Fin.ext
  match a with
  | ⟨0, _⟩ => show win4_4.index t (0 : Fin 2) * 128 + 1 * (p 0).val = (p 0).val; rw [e0]; omega
  | ⟨1, _⟩ => show win4_4.index t (1 : Fin 2) * 128 + 1 * (p 1).val = (p 1).val; rw [e1]; omega

/-- The second bias row comes in whole: its block at every point is the array. -/
theorem iblk4_5_at (c : Dev nD) (t : Fin cfg4.N) (p : S1x128.Idx) :
    (iblk4 V c 5 t : FVec Ideal S1x128 .f32) p = arr4_5 V c p := by
  obtain ⟨e0, e1⟩ := (idx_facts4 t).2.2.2.2.2.1
  unfold iblk4
  rw [View.read_apply]
  show V c (Pipeline.arrRef spec4 5) _ = V c (Pipeline.arrRef spec4 5) _
  congr 1
  funext a
  apply Fin.ext
  match a with
  | ⟨0, _⟩ => show win4_5.index t (0 : Fin 2) * 1 + 1 * (p 0).val = (p 0).val; rw [e0]; omega
  | ⟨1, _⟩ => show win4_5.index t (1 : Fin 2) * 128 + 1 * (p 1).val = (p 1).val; rw [e1]; omega

/-! ## The tile the body stores, entry by entry -/

/-- The stored tile at row `r`, lane `j`, when the tile's operand rows are rows `i` of two tall arrays and its
    weights and bias rows are those of four small arrays: the linear part of the layer at (i, j), its four terms added
    in the body's order. -/
theorem lin_tile4_at (A H : FVec Ideal S50000x128 .f32) (Wr Wo : FVec Ideal S128x128 .f32) (Br Bo : FVec Ideal S1x128 .f32)
    (x a : FVec Ideal S5000x128 .f32) (wr wo : FVec Ideal S128x128 .f32) (br bo : FVec Ideal S1x128 .f32)
    (r : Fin 5000) (j : Fin 128) (i : Fin 50000)
    (hx : ∀ k : Fin 128, x (ix2 r k) = A (ix2 i k)) (ha : ∀ k : Fin 128, a (ix2 r k) = H (ix2 i k))
    (hwr : ∀ k : Fin 128, wr (ix2 k j) = Wr (ix2 k j)) (hwo : ∀ k : Fin 128, wo (ix2 k j) = Wo (ix2 k j))
    (hbr : br (ix2 (0 : Fin 1) j) = Br (ix2 (0 : Fin 1) j)) (hbo : bo (ix2 (0 : Fin 1) j) = Bo (ix2 (0 : Fin 1) j)) :
    k4_pay6 (F := Ideal) x a wr wo br bo (ix2 r j)
      = Cert.Spec.lin (fun i k => A (ix2 i k)) (fun i k => H (ix2 i k)) (fun k j => Wr (ix2 k j)) (fun k j => Wo (ix2 k j))
          (fun j => Br (ix2 (0 : Fin 1) j)) (fun j => Bo (ix2 (0 : Fin 1) j)) i j := by
  rw [Cert.KernelIdeal.PayValue.k4_pay6_apply]
  unfold Cert.Spec.lin
  simp only [hx, ha, hwr, hwo, hbr, hbo]

/-! ## The whole output array -/

/-- What the output array ends holding: the linear part of the layer, of the six arrays as the region finds them. -/
abbrev hnewArr4 (c : Dev nD) : FVec Ideal S50000x128 .f32 := fun q =>
  Cert.Spec.lin (fun i k => arr4_0 V c (ix2 i k)) (fun i k => arr4_1 V c (ix2 i k)) (fun k j => arr4_2 V c (ix2 k j))
    (fun k j => arr4_4 V c (ix2 k j)) (fun j => arr4_3 V c (ix2 0 j)) (fun j => arr4_5 V c (ix2 0 j)) (q 0) (q 1)

/-- What point `t` writes back is block `t` of that array: rows 5000 t … 5000 t + 4999, every lane. Stated for any
    proof data of the region's pipeline whose body leaves in the output's buffer the stored tile of the point's
    input blocks. -/
theorem hnew4_flushed_of {c : Dev nD} (dat : Dat τ (Elt Ideal) Unit ℕ (UR sig nD τ) ℕ cfg4 c)
    (hafter : ∀ t : Fin cfg4.N, dat.after 6 t = k4_pay6 (iblk4 V c 0 t) (iblk4 V c 1 t) (iblk4 V c 2 t) (iblk4 V c 4 t) (iblk4 V c 3 t) (iblk4 V c 5 t))
    (t : Fin cfg4.N) :
    dat.flushed 6 t = ((cfg4.win 6).blk t).view.read (Elt Ideal) (hnewArr4 V c) := by
  show (cfg4.win 6).cut (grid4.coords t) (dat.after 6 t) = _
  rw [hafter]
  funext y
  have hy0 : (y 0).val < 5000 := (y 0).isLt
  have hy1 : (y 1).val < 128 := (y 1).isLt
  have ht : t.val < 10 := t.isLt
  obtain ⟨e0, e1⟩ := (idx_facts4 t).2.2.2.2.2.2
  have hin : (cfg4.win 6).xinj (grid4.coords t) y = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg4.win 6).blk t).view.emb y = (ix2 (⟨t.val * 5000 + (y 0).val, by omega⟩ : Fin 50000) (⟨(y 1).val, hy1⟩ : Fin 128) : S50000x128.Idx) := by
    funext a
    apply Fin.ext
    match a with
    | ⟨0, _⟩ => show win4_6.index t (0 : Fin 2) * 5000 + 1 * (y 0).val = t.val * 5000 + (y 0).val; rw [e0]; omega
    | ⟨1, _⟩ => show win4_6.index t (1 : Fin 2) * 128 + 1 * (y 1).val = (y 1).val; rw [e1]; omega
  show k4_pay6 (F := Ideal) (iblk4 V c 0 t) (iblk4 V c 1 t) (iblk4 V c 2 t) (iblk4 V c 4 t) (iblk4 V c 3 t) (iblk4 V c 5 t) ((cfg4.win 6).xinj (grid4.coords t) y)
      = hnewArr4 V c (((cfg4.win 6).blk t).view.emb y)
  rw [hin, hemb]
  exact lin_tile4_at (arr4_0 V c) (arr4_1 V c) (arr4_2 V c) (arr4_4 V c) (arr4_3 V c) (arr4_5 V c)
    (iblk4 V c 0 t) (iblk4 V c 1 t) (iblk4 V c 2 t) (iblk4 V c 4 t) (iblk4 V c 3 t) (iblk4 V c 5 t)
    ⟨(y 0).val, hy0⟩ ⟨(y 1).val, hy1⟩ ⟨t.val * 5000 + (y 0).val, by omega⟩
    (fun k => iblk4_0_at V c t (ix2 ⟨(y 0).val, hy0⟩ k) (ix2 ⟨t.val * 5000 + (y 0).val, by omega⟩ k) rfl rfl)
    (fun k => iblk4_1_at V c t (ix2 ⟨(y 0).val, hy0⟩ k) (ix2 ⟨t.val * 5000 + (y 0).val, by omega⟩ k) rfl rfl)
    (fun k => iblk4_2_at V c t (ix2 k ⟨(y 1).val, hy1⟩))
    (fun k => iblk4_4_at V c t (ix2 k ⟨(y 1).val, hy1⟩))
    (iblk4_3_at V c t (ix2 (0 : Fin 1) ⟨(y 1).val, hy1⟩))
    (iblk4_5_at V c t (ix2 (0 : Fin 1) ⟨(y 1).val, hy1⟩))

/-! ## The blocks tile the array -/

/-- An index of the array is in point `t`'s block iff each coordinate is in the block's range on its axis. -/
theorem mem_blk4_6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole (Pipeline.arrRef spec4 6)).slice (win4_6.rect t)).set ↔ _
  rw [View.set_slice_whole, Rect.mem_set_unit]
  exact Iff.rfl

/-- Every index is in some point's block: row `i` is in the block of point `i / 5000`. -/
theorem hnew4_cover (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  have hN : cfg4.N = 10 := rfl
  have hlt : (i 0).val / 5000 < cfg4.N := by rw [hN]; omega
  obtain ⟨e0, e1⟩ := (idx_facts4 ⟨(i 0).val / 5000, hlt⟩).2.2.2.2.2.2
  refine ⟨⟨(i 0).val / 5000, hlt⟩, flush4_6 _, ?_⟩
  rw [mem_blk4_6]
  intro a
  match a with
  | ⟨0, _⟩ =>
    show win4_6.index ⟨(i 0).val / 5000, hlt⟩ (0 : Fin 2) * 5000 ≤ (i 0).val ∧ (i 0).val < win4_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_6.index ⟨(i 0).val / 5000, hlt⟩ (1 : Fin 2) * 128 ≤ (i 1).val ∧ (i 1).val < win4_6.index ⟨(i 0).val / 5000, hlt⟩ (1 : Fin 2) * 128 + 128
    rw [e1]; omega

/-- So the array ends holding the linear part of the layer everywhere. -/
theorem hnew4_final_of {c : Dev nD} (dat : Dat τ (Elt Ideal) Unit ℕ (UR sig nD τ) ℕ cfg4 c)
    (hafter : ∀ t : Fin cfg4.N, dat.after 6 t = k4_pay6 (iblk4 V c 0 t) (iblk4 V c 1 t) (iblk4 V c 2 t) (iblk4 V c 4 t) (iblk4 V c 3 t) (iblk4 V c 5 t)) :
    dat.arrAt 6 cfg4.N = hnewArr4 V c :=
  dat.arrAt_eq_of_cover 6 (hnewArr4 V c) (fun t _ => hnew4_flushed_of V dat hafter t) hnew4_cover

end Regions

section Regions

variable (V : (c : Dev nD) → (b : Ref sig .tc) → Buf (Elt Ideal) ((c : Thread nD τ).loc b))

/-- THE OUTPUT ARRAY after the region, entry by entry: the linear part of the layer at row `i`, lane `j`, of the
    aggregated messages, the node features, the two weight matrices and the two bias rows as the region finds them —
    given that what the body leaves in the output's buffer at each point is the stored tile of that point's blocks. -/
theorem hnew4_arr (c : Dev nD)
    (hnewTile4 : ∀ t : Fin cfg4.N, (outsAt4 V c t.val t.isLt).1
      = k4_pay6 (iblk4 V c 0 t) (iblk4 V c 1 t) (iblk4 V c 2 t) (iblk4 V c 4 t) (iblk4 V c 3 t) (iblk4 V c 5 t))
    (i : Fin 50000) (j : Fin 128) :
    (dat4 (F := Ideal) V c).arrAt 6 cfg4.N (ix2 i j)
      = Cert.Spec.lin (fun i k => arr4_0 V c (ix2 i k)) (fun i k => arr4_1 V c (ix2 i k)) (fun k j => arr4_2 V c (ix2 k j))
          (fun k j => arr4_4 V c (ix2 k j)) (fun j => arr4_3 V c (ix2 0 j)) (fun j => arr4_5 V c (ix2 0 j)) i j :=
  congrFun (hnew4_final_of V (dat4 V c) (fun t => (after4_6 V c t).trans (hnewTile4 t))) (ix2 i j)

end Regions

end Cert.KernelIdeal.Hand

end
-- ==== Proof.KI.StatsPieces4.lean ====
/-
  Kernel region 4: what the body leaves at each grid point, as the body's own arithmetic.

  The body's stores are found as lists of pieces, one list per buffer. Each list reads back to one closed term over
  what the body loaded: the output tile is the linear part's tile of the six input blocks; the running column sum is
  the row it started the point with (the zero row at the first point, since the reset is read back) plus the tile's
  column sums; the running column sum of squares likewise with the squares; and at the last point the mean row and the
  variance row are computed from the two running sums as just updated, because the body reads them back after storing
  them. From these, by the case of the point, come the equations of the walk over the ten tiles: the tile at every
  point, the two running sums at the first point and at each later one from the point before, and the two statistics
  rows at the last point. Everything here holds for any float arithmetic.
-/
import proofs.«162849_j29643864277577_1_alg».proof.Proof.KI.Stats4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Per case: the pieces read back to the body's payloads -/

/-- The zero offsets of a whole-buffer load or store, however they are spelt. -/
theorem hz4 : (![0, 0] : Fin 2 → Nat) = fun _ => 0 := funext fun a => by
  match a with
  | ⟨0, _⟩ => rfl
  | ⟨1, _⟩ => rfl

set_option maxHeartbeats 1000000 in
/-- At the first point the body leaves in the output tile the linear part's tile of the six loaded blocks: one store covers the tile, and its loads read the whole input buffers. -/
theorem tile4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) :
    out4_A_6 c i arg1 harg1 arg2 harg2 arg3 harg3 arg4 harg4 arg5 harg5 arg6 harg6 arg7 harg7 arg8 harg8 arg9 harg9 arg10 harg10 arg11 harg11 hc0 hc1 x0 x1 x2 x3 x4 x5 = k4_pay6 x0 x1 x2 x4 x3 x5 := by
  unfold out4_A_6
  rw [View.read_writes_junk_eq_canon]
  unfold kernelRun4_A
  dsimp only
  sl_unfold_words
  rw [View.canon_unit_zero (S := S5000x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the first point the running sum is reset to the zero row, read back, and grown by the tile's column sums. -/
theorem sum4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) :
    sout4_A_0 c i arg1 harg1 arg2 harg2 arg3 harg3 arg4 harg4 arg5 harg5 arg6 harg6 arg7 harg7 arg8 harg8 arg9 harg9 arg10 harg10 arg11 harg11 hc0 hc1 x0 x1 x2 x3 x4 x5 = k4_pay7 x0 x1 x2 x4 x3 x5 (k4_pay4 (F := F)) := by
  unfold sout4_A_0
  rw [View.read_writes_junk_eq_canon]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the first point the running sum of squares is reset to the zero row, read back, and grown by the column sums of the tile's squares. -/
theorem sq4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) :
    sout4_A_1 c i arg1 harg1 arg2 harg2 arg3 harg3 arg4 harg4 arg5 harg5 arg6 harg6 arg7 harg7 arg8 harg8 arg9 harg9 arg10 harg10 arg11 harg11 hc0 hc1 x0 x1 x2 x3 x4 x5 = k4_pay1 (k4_pay6 x0 x1 x2 x4 x3 x5) (k4_pay5 (F := F)) := by
  unfold sout4_A_1
  rw [View.read_writes_junk_eq_canon]
  unfold kernelRun4_A
  dsimp only
  sl_unfold_words
  rw [View.canon_cons_unit_zero (S := S1x128) hz4, View.readCov_unit_zero (S := S1x128) _ hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At a middle point the body leaves in the output tile the linear part's tile of the six loaded blocks. -/
theorem tile4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out4_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay6 x0 x1 x2 x4 x3 x5 := by
  unfold out4_B_6
  rw [View.read_writes_junk_eq_canon]
  unfold kernelRun4_B
  dsimp only
  sl_unfold_words
  rw [View.canon_unit_zero (S := S5000x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At a middle point the running sum the point before left grows by the tile's column sums. -/
theorem sum4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout4_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay7 x0 x1 x2 x4 x3 x5 xs0 := by
  unfold sout4_B_0
  rw [View.read_writes_junk_eq_canon]
  unfold kernelRun4_B
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At a middle point the running sum of squares the point before left grows by the column sums of the tile's squares. -/
theorem sq4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : ¬cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout4_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x4 x3 x5) xs1 := by
  unfold sout4_B_1
  rw [View.read_writes_junk_eq_canon]
  unfold kernelRun4_B
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the last point the body leaves in the output tile the linear part's tile of the six loaded blocks. -/
theorem tile4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out4_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay6 x0 x1 x2 x4 x3 x5 := by
  unfold out4_C_6
  rw [View.read_writes_junk_eq_canon]
  unfold kernelRun4_C
  dsimp only
  sl_unfold_words
  rw [View.canon_unit_zero (S := S5000x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the last point the running sum the point before left grows by the tile's column sums. -/
theorem sum4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout4_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay7 x0 x1 x2 x4 x3 x5 xs0 := by
  unfold sout4_C_0
  rw [View.read_writes_junk_eq_canon]
  unfold kernelRun4_C
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the last point the running sum of squares the point before left grows by the column sums of the tile's squares. -/
theorem sq4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout4_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay1 (k4_pay6 x0 x1 x2 x4 x3 x5) xs1 := by
  unfold sout4_C_1
  rw [View.read_writes_junk_eq_canon]
  unfold kernelRun4_C
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the last point the mean row is the final running sum, read back, over the number of rows. -/
theorem mean4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out4_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay2 (k4_pay7 x0 x1 x2 x4 x3 x5 xs0) := by
  unfold out4_C_7
  rw [View.read_writes_junk_eq_canon]
  unfold kernelRun4_C
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

set_option maxHeartbeats 1000000 in
/-- At the last point the variance row is the final running sum of squares, read back, over the number of rows, minus the squared mean. -/
theorem var4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond4_0 i) (hc1 : cond4_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out4_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k4_pay3 (k4_pay7 x0 x1 x2 x4 x3 x5 xs0) (k4_pay1 (k4_pay6 x0 x1 x2 x4 x3 x5) xs1) := by
  unfold out4_C_8
  rw [View.read_writes_junk_eq_canon]
  unfold kernelRun4_C
  dsimp only
  sl_unfold_words
  rw [View.canon_unit_zero (S := S1x128) hz4]
  simp only [View.readAt_eq_ld, harg1.read_unread, harg2.read_unread, harg3.read_unread, harg4.read_unread, harg5.read_unread, harg6.read_unread, harg10.read_unread, harg11.read_unread, View.ld_unit_zero (S := S5000x128) hz4, View.ld_unit_zero (S := S128x128) hz4, View.ld_unit_zero (S := S1x128) hz4, View.readCov_unit_zero (S := S1x128) _ hz4, View.readCov_unit_zero (S := S5000x128) _ hz4]

/-! ## The equations of the walk, about what the buffers hold after each point

By the case of the point: the first point runs the first case, the last point the last, every other the middle one;
each component of the contents is then the case's piece, read above. -/

section Regions

variable (V : (c : Dev nD) → (b : Ref sig .tc) → Buf (Elt F) ((c : Thread nD τ).loc b))

set_option maxHeartbeats 1000000 in
/-- At every point the output tile is the body's tile of the point's six blocks. -/
theorem hnewTile4 (c : Dev nD) (t : Fin cfg4.N) :
    (outsAt4 V c t.val t.isLt).1 = k4_pay6 (iblk4 V c 0 t) (iblk4 V c 1 t) (iblk4 V c 2 t) (iblk4 V c 4 t) (iblk4 V c 3 t) (iblk4 V c 5 t) := by
  by_cases h0 : t.val = 0
  · have h1 : ¬t.val = 9 := by omega
    rw [outsAt4_A V c t h0 h1]; dsimp only
    exact tile4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun hh => h1 ((hcond4_1 t).mp hh)) (iblk4 V c 0 t) (iblk4 V c 1 t) (iblk4 V c 2 t) (iblk4 V c 3 t) (iblk4 V c 4 t) (iblk4 V c 5 t)
  · by_cases h1 : t.val = 9
    · rw [outsAt4_C V c t h0 h1]; dsimp only
      exact tile4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]; dsimp only
      exact tile4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) (fun hh => h1 ((hcond4_1 t).mp hh)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

set_option maxHeartbeats 1000000 in
/-- After the first point the running sum is the zero row grown by the first tile's column sums. -/
theorem scr4_zero0 (c : Dev nD) (h : 0 < cfg4.N) :
    (outsAt4 V c 0 h).2.2.2.1 = k4_pay7 (iblk4 V c 0 (⟨0, h⟩ : Fin cfg4.N)) (iblk4 V c 1 (⟨0, h⟩ : Fin cfg4.N)) (iblk4 V c 2 (⟨0, h⟩ : Fin cfg4.N)) (iblk4 V c 4 (⟨0, h⟩ : Fin cfg4.N)) (iblk4 V c 3 (⟨0, h⟩ : Fin cfg4.N)) (iblk4 V c 5 (⟨0, h⟩ : Fin cfg4.N)) (k4_pay4 (F := F)) := by
  have h0 : (⟨0, h⟩ : Fin cfg4.N).val = 0 := rfl
  have h1 : ¬(⟨0, h⟩ : Fin cfg4.N).val = 9 := by show ¬(0 : ℕ) = 9; omega
  show (outsAt4 V c (⟨0, h⟩ : Fin cfg4.N).val (⟨0, h⟩ : Fin cfg4.N).isLt).2.2.2.1 = _
  rw [outsAt4_A V c (⟨0, h⟩ : Fin cfg4.N) h0 h1]; dsimp only
  exact sum4_A c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) (ms4_8 (⟨0, h⟩ : Fin cfg4.N)) (hs4_8 (⟨0, h⟩ : Fin cfg4.N)) scM4_0 (Memref.isWhole_whole _) scM4_1 (Memref.isWhole_whole _) ((hcond4_0 (⟨0, h⟩ : Fin cfg4.N)).mpr h0) (fun hh => h1 ((hcond4_1 (⟨0, h⟩ : Fin cfg4.N)).mp hh)) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) (iblk4 V c 5 (⟨0, h⟩ : Fin cfg4.N))

set_option maxHeartbeats 1000000 in
/-- After a later point the running sum is the one the point before left, grown by this tile's column sums. -/
theorem scr4_succ0 (c : Dev nD) (n : ℕ) (hn : n + 1 < cfg4.N) :
    (outsAt4 V c (n + 1) hn).2.2.2.1 = k4_pay7 (iblk4 V c 0 (⟨n + 1, hn⟩ : Fin cfg4.N)) (iblk4 V c 1 (⟨n + 1, hn⟩ : Fin cfg4.N)) (iblk4 V c 2 (⟨n + 1, hn⟩ : Fin cfg4.N)) (iblk4 V c 4 (⟨n + 1, hn⟩ : Fin cfg4.N)) (iblk4 V c 3 (⟨n + 1, hn⟩ : Fin cfg4.N)) (iblk4 V c 5 (⟨n + 1, hn⟩ : Fin cfg4.N)) (outsAt4 V c n (Nat.lt_of_succ_lt hn)).2.2.2.1 := by
  have h0 : ¬(⟨n + 1, hn⟩ : Fin cfg4.N).val = 0 := Nat.succ_ne_zero n
  show (outsAt4 V c (⟨n + 1, hn⟩ : Fin cfg4.N).val (⟨n + 1, hn⟩ : Fin cfg4.N).isLt).2.2.2.1 = _
  by_cases h1 : (⟨n + 1, hn⟩ : Fin cfg4.N).val = 9
  · rw [outsAt4_C V c (⟨n + 1, hn⟩ : Fin cfg4.N) h0 h1]; dsimp only
    exact sum4_C c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun hh => h0 ((hcond4_0 (⟨n + 1, hn⟩ : Fin cfg4.N)).mp hh)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2
  · rw [outsAt4_B V c (⟨n + 1, hn⟩ : Fin cfg4.N) h0 h1]; dsimp only
    exact sum4_B c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun hh => h0 ((hcond4_0 (⟨n + 1, hn⟩ : Fin cfg4.N)).mp hh)) (fun hh => h1 ((hcond4_1 (⟨n + 1, hn⟩ : Fin cfg4.N)).mp hh)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2

set_option maxHeartbeats 1000000 in
/-- After the first point the running sum of squares is the zero row grown by the column sums of the first tile's squares. -/
theorem sq4_zero0 (c : Dev nD) (h : 0 < cfg4.N) :
    (outsAt4 V c 0 h).2.2.2.2 = k4_pay1 (outsAt4 V c 0 h).1 (k4_pay5 (F := F)) := by
  have h0 : (⟨0, h⟩ : Fin cfg4.N).val = 0 := rfl
  have h1 : ¬(⟨0, h⟩ : Fin cfg4.N).val = 9 := by show ¬(0 : ℕ) = 9; omega
  have e : (outsAt4 V c 0 h).1 = k4_pay6 (iblk4 V c 0 (⟨0, h⟩ : Fin cfg4.N)) (iblk4 V c 1 (⟨0, h⟩ : Fin cfg4.N)) (iblk4 V c 2 (⟨0, h⟩ : Fin cfg4.N)) (iblk4 V c 4 (⟨0, h⟩ : Fin cfg4.N)) (iblk4 V c 3 (⟨0, h⟩ : Fin cfg4.N)) (iblk4 V c 5 (⟨0, h⟩ : Fin cfg4.N)) := hnewTile4 V c (⟨0, h⟩ : Fin cfg4.N)
  rw [e]
  show (outsAt4 V c (⟨0, h⟩ : Fin cfg4.N).val (⟨0, h⟩ : Fin cfg4.N).isLt).2.2.2.2 = _
  rw [outsAt4_A V c (⟨0, h⟩ : Fin cfg4.N) h0 h1]; dsimp only
  exact sq4_A c (grid4.coords (⟨0, h⟩ : Fin cfg4.N)) (ms4_0 (⟨0, h⟩ : Fin cfg4.N)) (hs4_0 (⟨0, h⟩ : Fin cfg4.N)) (ms4_1 (⟨0, h⟩ : Fin cfg4.N)) (hs4_1 (⟨0, h⟩ : Fin cfg4.N)) (ms4_2 (⟨0, h⟩ : Fin cfg4.N)) (hs4_2 (⟨0, h⟩ : Fin cfg4.N)) (ms4_3 (⟨0, h⟩ : Fin cfg4.N)) (hs4_3 (⟨0, h⟩ : Fin cfg4.N)) (ms4_4 (⟨0, h⟩ : Fin cfg4.N)) (hs4_4 (⟨0, h⟩ : Fin cfg4.N)) (ms4_5 (⟨0, h⟩ : Fin cfg4.N)) (hs4_5 (⟨0, h⟩ : Fin cfg4.N)) (ms4_6 (⟨0, h⟩ : Fin cfg4.N)) (hs4_6 (⟨0, h⟩ : Fin cfg4.N)) (ms4_7 (⟨0, h⟩ : Fin cfg4.N)) (hs4_7 (⟨0, h⟩ : Fin cfg4.N)) (ms4_8 (⟨0, h⟩ : Fin cfg4.N)) (hs4_8 (⟨0, h⟩ : Fin cfg4.N)) scM4_0 (Memref.isWhole_whole _) scM4_1 (Memref.isWhole_whole _) ((hcond4_0 (⟨0, h⟩ : Fin cfg4.N)).mpr h0) (fun hh => h1 ((hcond4_1 (⟨0, h⟩ : Fin cfg4.N)).mp hh)) (iblk4 V c 0 (⟨0, h⟩ : Fin cfg4.N)) (iblk4 V c 1 (⟨0, h⟩ : Fin cfg4.N)) (iblk4 V c 2 (⟨0, h⟩ : Fin cfg4.N)) (iblk4 V c 3 (⟨0, h⟩ : Fin cfg4.N)) (iblk4 V c 4 (⟨0, h⟩ : Fin cfg4.N)) (iblk4 V c 5 (⟨0, h⟩ : Fin cfg4.N))

set_option maxHeartbeats 1000000 in
/-- After a later point the running sum of squares is the one the point before left, grown by the column sums of this tile's squares. -/
theorem sq4_succ0 (c : Dev nD) (n : ℕ) (hn : n + 1 < cfg4.N) :
    (outsAt4 V c (n + 1) hn).2.2.2.2 = k4_pay1 (outsAt4 V c (n + 1) hn).1 (outsAt4 V c n (Nat.lt_of_succ_lt hn)).2.2.2.2 := by
  have h0 : ¬(⟨n + 1, hn⟩ : Fin cfg4.N).val = 0 := Nat.succ_ne_zero n
  have e : (outsAt4 V c (n + 1) hn).1 = k4_pay6 (iblk4 V c 0 (⟨n + 1, hn⟩ : Fin cfg4.N)) (iblk4 V c 1 (⟨n + 1, hn⟩ : Fin cfg4.N)) (iblk4 V c 2 (⟨n + 1, hn⟩ : Fin cfg4.N)) (iblk4 V c 4 (⟨n + 1, hn⟩ : Fin cfg4.N)) (iblk4 V c 3 (⟨n + 1, hn⟩ : Fin cfg4.N)) (iblk4 V c 5 (⟨n + 1, hn⟩ : Fin cfg4.N)) := hnewTile4 V c (⟨n + 1, hn⟩ : Fin cfg4.N)
  rw [e]
  show (outsAt4 V c (⟨n + 1, hn⟩ : Fin cfg4.N).val (⟨n + 1, hn⟩ : Fin cfg4.N).isLt).2.2.2.2 = _
  by_cases h1 : (⟨n + 1, hn⟩ : Fin cfg4.N).val = 9
  · rw [outsAt4_C V c (⟨n + 1, hn⟩ : Fin cfg4.N) h0 h1]; dsimp only
    exact sq4_C c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun hh => h0 ((hcond4_0 (⟨n + 1, hn⟩ : Fin cfg4.N)).mp hh)) ((hcond4_1 (⟨n + 1, hn⟩ : Fin cfg4.N)).mpr h1) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2
  · rw [outsAt4_B V c (⟨n + 1, hn⟩ : Fin cfg4.N) h0 h1]; dsimp only
    exact sq4_B c (grid4.coords (⟨n + 1, hn⟩ : Fin cfg4.N)) (ms4_0 (⟨n + 1, hn⟩ : Fin cfg4.N)) (hs4_0 (⟨n + 1, hn⟩ : Fin cfg4.N)) (ms4_1 (⟨n + 1, hn⟩ : Fin cfg4.N)) (hs4_1 (⟨n + 1, hn⟩ : Fin cfg4.N)) (ms4_2 (⟨n + 1, hn⟩ : Fin cfg4.N)) (hs4_2 (⟨n + 1, hn⟩ : Fin cfg4.N)) (ms4_3 (⟨n + 1, hn⟩ : Fin cfg4.N)) (hs4_3 (⟨n + 1, hn⟩ : Fin cfg4.N)) (ms4_4 (⟨n + 1, hn⟩ : Fin cfg4.N)) (hs4_4 (⟨n + 1, hn⟩ : Fin cfg4.N)) (ms4_5 (⟨n + 1, hn⟩ : Fin cfg4.N)) (hs4_5 (⟨n + 1, hn⟩ : Fin cfg4.N)) (ms4_6 (⟨n + 1, hn⟩ : Fin cfg4.N)) (hs4_6 (⟨n + 1, hn⟩ : Fin cfg4.N)) (ms4_7 (⟨n + 1, hn⟩ : Fin cfg4.N)) (hs4_7 (⟨n + 1, hn⟩ : Fin cfg4.N)) (ms4_8 (⟨n + 1, hn⟩ : Fin cfg4.N)) (hs4_8 (⟨n + 1, hn⟩ : Fin cfg4.N)) scM4_0 (Memref.isWhole_whole _) scM4_1 (Memref.isWhole_whole _) (fun hh => h0 ((hcond4_0 (⟨n + 1, hn⟩ : Fin cfg4.N)).mp hh)) (fun hh => h1 ((hcond4_1 (⟨n + 1, hn⟩ : Fin cfg4.N)).mp hh)) (iblk4 V c 0 (⟨n + 1, hn⟩ : Fin cfg4.N)) (iblk4 V c 1 (⟨n + 1, hn⟩ : Fin cfg4.N)) (iblk4 V c 2 (⟨n + 1, hn⟩ : Fin cfg4.N)) (iblk4 V c 3 (⟨n + 1, hn⟩ : Fin cfg4.N)) (iblk4 V c 4 (⟨n + 1, hn⟩ : Fin cfg4.N)) (iblk4 V c 5 (⟨n + 1, hn⟩ : Fin cfg4.N)) (outsAt4 V c ((⟨n + 1, hn⟩ : Fin cfg4.N).val - 1) (Nat.lt_of_le_of_lt (Nat.sub_le _ _) (⟨n + 1, hn⟩ : Fin cfg4.N).isLt)).2.2.2.1 (outsAt4 V c ((⟨n + 1, hn⟩ : Fin cfg4.N).val - 1) (Nat.lt_of_le_of_lt (Nat.sub_le _ _) (⟨n + 1, hn⟩ : Fin cfg4.N).isLt)).2.2.2.2

set_option maxHeartbeats 1000000 in
/-- At a point that is the last one, the mean row is computed from the running sum that point leaves (stated at a
    point given with the fact that it is the last, so that the walk is never unrolled). -/
theorem meanRow4 (c : Dev nD) (t : Fin cfg4.N) (h1 : t.val = 9) :
    (outsAt4 V c t.val t.isLt).2.1 = k4_pay2 (outsAt4 V c t.val t.isLt).2.2.2.1 := by
  have h0 : ¬t.val = 0 := by omega
  rw [outsAt4_C V c t h0 h1]; dsimp only
  exact (mean4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (congrArg k4_pay2 (sum4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm)

set_option maxHeartbeats 1000000 in
/-- At a point that is the last one, the variance row is computed from the two running sums that point leaves. -/
theorem varRow4 (c : Dev nD) (t : Fin cfg4.N) (h1 : t.val = 9) :
    (outsAt4 V c t.val t.isLt).2.2.1 = k4_pay3 (outsAt4 V c t.val t.isLt).2.2.2.1 (outsAt4 V c t.val t.isLt).2.2.2.2 := by
  have h0 : ¬t.val = 0 := by omega
  rw [outsAt4_C V c t h0 h1]; dsimp only
  exact (var4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).trans
    (congrArg₂ k4_pay3 (sum4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm
      (sq4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun hh => h0 ((hcond4_0 t).mp hh)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2).symm)

end Regions

end Cert.KernelIdeal.Hand

end
-- ==== Proof.KI.StatsSumsCore4.lean ====
/-
  Kernel region 4 on the extended reals: from the body's step equations to the column statistics.

  The region walks the 50000 rows in ten tiles of 5000. At each tile the body stores the tile of the linear part

      lin i j = ((∑ k, agg i k · Wr k j) + br j) + (∑ k, h i k · Wo k j) + bo j ,

  adds the tile's column sums to a running row that starts from zero, and the column sums of its squares to a second
  one; at the last tile it stores the running sum over 50000 as the mean row and the running sum of squares over 50000
  minus the squared mean as the variance row.

  This module does the arithmetic of that walk once, for any point-indexed tuple of contents that satisfies the step
  equations: (1) entry (r, k) of a row tile at point t is entry (5000 t + r, k) of its array, and the weights and bias
  rows are read whole; (2) so the tile the body computes from the six blocks of point t is, at (r, j), the linear part
  at row 5000 t + r; (3) a row that starts from zero plus tile 0's column sums and grows by each next tile's is, after
  point n, the sum over tiles 0 to n, and after the last point the sum over all the rows; (4) the two statistics arrays,
  written back at the last point only through a block that is the whole row, hold after the run what the body left at
  that point; (5) hence the mean row is the column mean of the linear part and the variance row its mean of squares
  minus its squared mean.
-/
import proofs.«162849_j29643864277577_1_alg».proof.Proof.KI.Stats4Runs
import proofs.«162849_j29643864277577_1_alg».proof.Proof.KI.StatsArr4
import proofs.«162849_j29643864277577_1_alg».proof.Proof.KI.PayRead
import proofs.«162849_j29643864277577_1_alg».proof.Proof.Math.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-! ## Where a block's entry sits in its array

A block's entry sits in the array, on each axis, at the block index times the block's extent plus the coordinate
inside the block. The two row tiles move down the rows with the grid point; the weights and the bias rows are whole. -/

/-- Window 0's block index at point t is (t, 0). -/
theorem idx4_0 : ∀ t : Fin cfg4.N, win4_0.index t 0 = t.val ∧ win4_0.index t 1 = 0 :=
  (by decide +kernel : ∀ t : Fin grid4.N, win4_0.index t 0 = t.val ∧ win4_0.index t 1 = 0)
/-- Window 1's block index at point t is (t, 0). -/
theorem idx4_1 : ∀ t : Fin cfg4.N, win4_1.index t 0 = t.val ∧ win4_1.index t 1 = 0 :=
  (by decide +kernel : ∀ t : Fin grid4.N, win4_1.index t 0 = t.val ∧ win4_1.index t 1 = 0)
/-- Window 2's block index is (0, 0) at every point. -/
theorem idx4_2 : ∀ t : Fin cfg4.N, win4_2.index t 0 = 0 ∧ win4_2.index t 1 = 0 :=
  (by decide +kernel : ∀ t : Fin grid4.N, win4_2.index t 0 = 0 ∧ win4_2.index t 1 = 0)
/-- Window 3's block index is (0, 0) at every point. -/
theorem idx4_3 : ∀ t : Fin cfg4.N, win4_3.index t 0 = 0 ∧ win4_3.index t 1 = 0 :=
  (by decide +kernel : ∀ t : Fin grid4.N, win4_3.index t 0 = 0 ∧ win4_3.index t 1 = 0)
/-- Window 4's block index is (0, 0) at every point. -/
theorem idx4_4 : ∀ t : Fin cfg4.N, win4_4.index t 0 = 0 ∧ win4_4.index t 1 = 0 :=
  (by decide +kernel : ∀ t : Fin grid4.N, win4_4.index t 0 = 0 ∧ win4_4.index t 1 = 0)
/-- Window 5's block index is (0, 0) at every point. -/
theorem idx4_5 : ∀ t : Fin cfg4.N, win4_5.index t 0 = 0 ∧ win4_5.index t 1 = 0 :=
  (by decide +kernel : ∀ t : Fin grid4.N, win4_5.index t 0 = 0 ∧ win4_5.index t 1 = 0)

set_option maxHeartbeats 400000 in
/-- Entry (r, k) of window 0's tile at point t is entry (5000 t + r, k) of its array. -/
theorem iblk4_0_apply (c : Dev nD) (t : Fin cfg4.N) (r : Fin 5000) (k : Fin 128) (h : t.val * 5000 + r.val < 50000) :
    iblk4 V c 0 t (ix2 r k) = arr4_0 V c (ix2 ⟨t.val * 5000 + r.val, h⟩ k) := by
  unfold iblk4
  rw [View.read_apply]
  show V c (Pipeline.arrRef spec4 0) _ = V c (Pipeline.arrRef spec4 0) _
  congr 1
  funext a
  apply Fin.ext
  match a with
  | ⟨0, _⟩ => show win4_0.index t 0 * 5000 + 1 * r.val = t.val * 5000 + r.val; rw [(idx4_0 t).1]; omega
  | ⟨1, _⟩ => show win4_0.index t 1 * 128 + 1 * k.val = k.val; rw [(idx4_0 t).2]; omega

set_option maxHeartbeats 400000 in
/-- Entry (r, k) of window 1's tile at point t is entry (5000 t + r, k) of its array. -/
theorem iblk4_1_apply (c : Dev nD) (t : Fin cfg4.N) (r : Fin 5000) (k : Fin 128) (h : t.val * 5000 + r.val < 50000) :
    iblk4 V c 1 t (ix2 r k) = arr4_1 V c (ix2 ⟨t.val * 5000 + r.val, h⟩ k) := by
  unfold iblk4
  rw [View.read_apply]
  show V c (Pipeline.arrRef spec4 1) _ = V c (Pipeline.arrRef spec4 1) _
  congr 1
  funext a
  apply Fin.ext
  match a with
  | ⟨0, _⟩ => show win4_1.index t 0 * 5000 + 1 * r.val = t.val * 5000 + r.val; rw [(idx4_1 t).1]; omega
  | ⟨1, _⟩ => show win4_1.index t 1 * 128 + 1 * k.val = k.val; rw [(idx4_1 t).2]; omega

set_option maxHeartbeats 400000 in
/-- Window 2's block is its whole array at every point. -/
theorem iblk4_2_apply (c : Dev nD) (t : Fin cfg4.N) (k j : Fin 128) :
    iblk4 V c 2 t (ix2 k j) = arr4_2 V c (ix2 k j) := by
  unfold iblk4
  rw [View.read_apply]
  show V c (Pipeline.arrRef spec4 2) _ = V c (Pipeline.arrRef spec4 2) _
  congr 1
  funext a
  apply Fin.ext
  match a with
  | ⟨0, _⟩ => show win4_2.index t 0 * 128 + 1 * k.val = k.val; rw [(idx4_2 t).1]; omega
  | ⟨1, _⟩ => show win4_2.index t 1 * 128 + 1 * j.val = j.val; rw [(idx4_2 t).2]; omega

set_option maxHeartbeats 400000 in
/-- Window 3's block is its whole row at every point. -/
theorem iblk4_3_apply (c : Dev nD) (t : Fin cfg4.N) (j : Fin 128) :
    iblk4 V c 3 t (ix2 (0 : Fin 1) j) = arr4_3 V c (ix2 (0 : Fin 1) j) := by
  unfold iblk4
  rw [View.read_apply]
  show V c (Pipeline.arrRef spec4 3) _ = V c (Pipeline.arrRef spec4 3) _
  congr 1
  funext a
  apply Fin.ext
  match a with
  | ⟨0, _⟩ => show win4_3.index t 0 * 1 + 1 * 0 = 0; rw [(idx4_3 t).1]
  | ⟨1, _⟩ => show win4_3.index t 1 * 128 + 1 * j.val = j.val; rw [(idx4_3 t).2]; omega

set_option maxHeartbeats 400000 in
/-- Window 4's block is its whole array at every point. -/
theorem iblk4_4_apply (c : Dev nD) (t : Fin cfg4.N) (k j : Fin 128) :
    iblk4 V c 4 t (ix2 k j) = arr4_4 V c (ix2 k j) := by
  unfold iblk4
  rw [View.read_apply]
  show V c (Pipeline.arrRef spec4 4) _ = V c (Pipeline.arrRef spec4 4) _
  congr 1
  funext a
  apply Fin.ext
  match a with
  | ⟨0, _⟩ => show win4_4.index t 0 * 128 + 1 * k.val = k.val; rw [(idx4_4 t).1]; omega
  | ⟨1, _⟩ => show win4_4.index t 1 * 128 + 1 * j.val = j.val; rw [(idx4_4 t).2]; omega

set_option maxHeartbeats 400000 in
/-- Window 5's block is its whole row at every point. -/
theorem iblk4_5_apply (c : Dev nD) (t : Fin cfg4.N) (j : Fin 128) :
    iblk4 V c 5 t (ix2 (0 : Fin 1) j) = arr4_5 V c (ix2 (0 : Fin 1) j) := by
  unfold iblk4
  rw [View.read_apply]
  show V c (Pipeline.arrRef spec4 5) _ = V c (Pipeline.arrRef spec4 5) _
  congr 1
  funext a
  apply Fin.ext
  match a with
  | ⟨0, _⟩ => show win4_5.index t 0 * 1 + 1 * 0 = 0; rw [(idx4_5 t).1]
  | ⟨1, _⟩ => show win4_5.index t 1 * 128 + 1 * j.val = j.val; rw [(idx4_5 t).2]; omega

/-! ## The tile the body stores is a tile of the linear part -/

/-- The linear part of the layer over the whole arrays the region finds: aggregated messages times the first weights,
    plus the first bias, plus node features times the second weights, plus the second bias. -/
abbrev X4 (c : Dev nD) : Cert.Spec.Mat :=
  Cert.Spec.lin (fun i k => arr4_0 V c (ix2 i k)) (fun i k => arr4_1 V c (ix2 i k)) (fun k j => arr4_2 V c (ix2 k j))
    (fun k j => arr4_4 V c (ix2 k j)) (fun j => arr4_3 V c (ix2 (0 : Fin 1) j)) (fun j => arr4_5 V c (ix2 (0 : Fin 1) j))

set_option maxHeartbeats 800000 in
/-- What the body computes from the six blocks of point t, at row r and lane j, is the linear part at row 5000 t + r. -/
theorem pay6_blocks4 (c : Dev nD) (t : Fin cfg4.N) (r : Fin 5000) (j : Fin 128) (h : t.val * 5000 + r.val < 50000) :
    k4_pay6 (F := Ideal) (iblk4 V c 0 t) (iblk4 V c 1 t) (iblk4 V c 2 t) (iblk4 V c 4 t) (iblk4 V c 3 t) (iblk4 V c 5 t) (ix2 r j)
      = X4 V c ⟨t.val * 5000 + r.val, h⟩ j := by
  rw [Cert.KernelIdeal.PayValue.k4_pay6_apply]
  simp only [iblk4_0_apply V c t r _ h, iblk4_1_apply V c t r _ h, iblk4_2_apply V c t, iblk4_3_apply V c t,
    iblk4_4_apply V c t, iblk4_5_apply V c t]
  rfl

/-! ## Adding the tiles up

A running sum that starts from zero plus the first tile's column sum and grows by each next tile's column sum is,
after point n, the sum over the tiles 0 to n; after the last point that is the sum over all 50000 rows. -/

/-- Column j of Y summed over the 5000 rows of tile t (nothing past the tenth tile). -/
def tileSum4 (Y : Cert.Spec.Mat) (j : Fin 128) (t : ℕ) : EReal :=
  if h : t < 10 then ∑ r : Fin 5000, Y ⟨t * 5000 + r.val, by have := r.isLt; show t * 5000 + r.val < 50000; omega⟩ j else 0

/-- The ten tiles' column sums add up to the column sum over all the rows. -/
theorem tileSum4_total (Y : Cert.Spec.Mat) (j : Fin 128) : ∑ t ∈ Finset.range 10, tileSum4 Y j t = ∑ i, Y i j := by
  rw [Cert.Spec.sum_rows_tiles (fun i => Y i j), Finset.sum_range]
  refine Finset.sum_congr rfl fun t _ => ?_
  unfold tileSum4
  rw [dif_pos t.isLt]

/-- A quantity that is zero plus tile 0's column sum at the first point and grows by tile n + 1's at point n + 1 is,
    at point n, the sum of the column sums of tiles 0 to n. -/
theorem runSum4 {N : ℕ} (Y : Cert.Spec.Mat) (j : Fin 128) (s : (n : ℕ) → n < N → EReal)
    (h0 : ∀ h : 0 < N, s 0 h = 0 + tileSum4 Y j 0)
    (hs : ∀ (n : ℕ) (hn : n + 1 < N), s (n + 1) hn = s n (Nat.lt_of_succ_lt hn) + tileSum4 Y j (n + 1)) :
    ∀ (n : ℕ) (hn : n < N), s n hn = ∑ t ∈ Finset.range (n + 1), tileSum4 Y j t
  | 0, hn => by rw [h0 hn, Finset.sum_range_one, zero_add]
  | n + 1, hn => by rw [hs n hn, runSum4 Y j s h0 hs n (Nat.lt_of_succ_lt hn), Finset.sum_range_succ _ (n + 1)]

/-! ## The two statistics arrays after the run

Outputs 7 and 8 are written back at the last point only, and their one block is the whole 1 by 128 array: after the
run each holds what the body left in its buffer at the last point. -/

/-- The last point. -/
abbrev tLast4 : Fin cfg4.N := t4_9

set_option maxHeartbeats 800000 in
/-- After the run, array 7 holds what the body left for output 7 at the last point, for any proof data. -/
theorem arrAt4_7_of {c : Dev nD} (dat : Dat τ (Elt Ideal) Unit ℕ (UR sig nD τ) ℕ cfg4 c) (j : Fin 128) :
    dat.arrAt 7 cfg4.N (ix2 (0 : Fin 1) j) = dat.after 7 tLast4 (ix2 (0 : Fin 1) j) := by
  have hf : (cfg4.win 7).flush tLast4 = true := (flush4_7 tLast4).mpr (by decide)
  have hone : ∀ t : Fin cfg4.N, (cfg4.win 7).flush t = true → t = tLast4 := fun t ht => by
    have h9 := (flush4_7 t).mp ht
    have hN : t.val < 10 := lt_of_lt_of_eq t.isLt N_4
    exact Fin.ext (by show t.val = 9; omega)
  have h := dat.arrAt_emb_eq_flushed 7 (fun t t' ht ht' hne => absurd ((hone t ht).trans (hone t' ht').symm) hne) tLast4 hf (ix2 (0 : Fin 1) j)
  refine Eq.trans ?_ (h.trans ?_)
  · show dat.arrAt 7 cfg4.N _ = dat.arrAt 7 cfg4.N _
    congr 1
    funext a
    apply Fin.ext
    match a with
    | ⟨0, _⟩ => rfl
    | ⟨1, _⟩ => show j.val = win4_7.index tLast4 1 * 128 + 1 * j.val; rw [show win4_7.index tLast4 1 = 0 from by decide +kernel]; omega
  · rfl

set_option maxHeartbeats 800000 in
/-- After the run, array 8 holds what the body left for output 8 at the last point, for any proof data. -/
theorem arrAt4_8_of {c : Dev nD} (dat : Dat τ (Elt Ideal) Unit ℕ (UR sig nD τ) ℕ cfg4 c) (j : Fin 128) :
    dat.arrAt 8 cfg4.N (ix2 (0 : Fin 1) j) = dat.after 8 tLast4 (ix2 (0 : Fin 1) j) := by
  have hf : (cfg4.win 8).flush tLast4 = true := (flush4_8 tLast4).mpr (by decide)
  have hone : ∀ t : Fin cfg4.N, (cfg4.win 8).flush t = true → t = tLast4 := fun t ht => by
    have h9 := (flush4_8 t).mp ht
    have hN : t.val < 10 := lt_of_lt_of_eq t.isLt N_4
    exact Fin.ext (by show t.val = 9; omega)
  have h := dat.arrAt_emb_eq_flushed 8 (fun t t' ht ht' hne => absurd ((hone t ht).trans (hone t' ht').symm) hne) tLast4 hf (ix2 (0 : Fin 1) j)
  refine Eq.trans ?_ (h.trans ?_)
  · show dat.arrAt 8 cfg4.N _ = dat.arrAt 8 cfg4.N _
    congr 1
    funext a
    apply Fin.ext
    match a with
    | ⟨0, _⟩ => rfl
    | ⟨1, _⟩ => show j.val = win4_8.index tLast4 1 * 128 + 1 * j.val; rw [show win4_8.index tLast4 1 = 0 from by decide +kernel]; omega
  · rfl

/-! ## The accumulation over the grid

Stated for any point-indexed tuple (output tile, mean row, variance row, running sum, running sum of squares) that
satisfies the step equations: the tile is the body's tile of the point's six blocks; the running sum starts from the
zero row and grows by the tile's column sums; the running sum of squares likewise by the squares; at the last point
the mean row and the variance row are computed from the two running sums. -/

/-- The six blocks of point t, in the order the body's tile takes them. -/
abbrev tileOf4 (c : Dev nD) (t : Fin cfg4.N) : FVec Ideal S5000x128 .f32 :=
  k4_pay6 (F := Ideal) (iblk4 V c 0 t) (iblk4 V c 1 t) (iblk4 V c 2 t) (iblk4 V c 4 t) (iblk4 V c 3 t) (iblk4 V c 5 t)

/-- The squares of the linear part. -/
abbrev XX4 (c : Dev nD) : Cert.Spec.Mat := fun i j => X4 V c i j * X4 V c i j

/-- The step equations. -/
structure Steps4 (c : Dev nD)
    (T : (n : ℕ) → n < cfg4.N → Vec Ideal S5000x128 .f32 × Vec Ideal S1x128 .f32 × Vec Ideal S1x128 .f32 × Vec Ideal S1x128 .f32 × Vec Ideal S1x128 .f32) : Prop where
  tile : ∀ t : Fin cfg4.N, (T t.val t.isLt).1 = tileOf4 V c t
  sum0 : ∀ h : 0 < cfg4.N, (T 0 h).2.2.2.1
    = k4_pay7 (F := Ideal) (iblk4 V c 0 ⟨0, h⟩) (iblk4 V c 1 ⟨0, h⟩) (iblk4 V c 2 ⟨0, h⟩) (iblk4 V c 4 ⟨0, h⟩) (iblk4 V c 3 ⟨0, h⟩) (iblk4 V c 5 ⟨0, h⟩) (k4_pay4 (F := Ideal))
  sumS : ∀ (n : ℕ) (hn : n + 1 < cfg4.N), (T (n + 1) hn).2.2.2.1
    = k4_pay7 (F := Ideal) (iblk4 V c 0 ⟨n + 1, hn⟩) (iblk4 V c 1 ⟨n + 1, hn⟩) (iblk4 V c 2 ⟨n + 1, hn⟩) (iblk4 V c 4 ⟨n + 1, hn⟩) (iblk4 V c 3 ⟨n + 1, hn⟩) (iblk4 V c 5 ⟨n + 1, hn⟩) (T n (Nat.lt_of_succ_lt hn)).2.2.2.1
  sq0 : ∀ h : 0 < cfg4.N, (T 0 h).2.2.2.2 = k4_pay1 (F := Ideal) (T 0 h).1 (k4_pay5 (F := Ideal))
  sqS : ∀ (n : ℕ) (hn : n + 1 < cfg4.N), (T (n + 1) hn).2.2.2.2 = k4_pay1 (F := Ideal) (T (n + 1) hn).1 (T n (Nat.lt_of_succ_lt hn)).2.2.2.2
  mean : ∀ t : Fin cfg4.N, t.val = 9 → (T t.val t.isLt).2.1 = k4_pay2 (F := Ideal) (T t.val t.isLt).2.2.2.1
  var : ∀ t : Fin cfg4.N, t.val = 9 →
    (T t.val t.isLt).2.2.1 = k4_pay3 (F := Ideal) (T t.val t.isLt).2.2.2.1 (T t.val t.isLt).2.2.2.2

/-- The running sum's step at lane j: the row before plus tile t's column sum of the linear part. -/
theorem paySum4 (c : Dev nD) (t : Fin cfg4.N) (j : Fin 128) (s : FVec Ideal S1x128 .f32) :
    k4_pay7 (F := Ideal) (iblk4 V c 0 t) (iblk4 V c 1 t) (iblk4 V c 2 t) (iblk4 V c 4 t) (iblk4 V c 3 t) (iblk4 V c 5 t) s (ix2 (0 : Fin 1) j)
      = s (ix2 (0 : Fin 1) j) + tileSum4 (X4 V c) j t.val := by
  rw [Cert.KernelIdeal.PayValue.k4_pay7_apply]
  congr 1
  unfold tileSum4
  rw [dif_pos (lt_of_lt_of_eq t.isLt N_4)]
  exact Finset.sum_congr rfl fun r _ => pay6_blocks4 V c t r j _

/-- The running sum of squares' step at lane j, for a tile that is the linear part's tile t. -/
theorem paySq4 (c : Dev nD) (t : Fin cfg4.N) (j : Fin 128) (v : FVec Ideal S5000x128 .f32) (q : FVec Ideal S1x128 .f32)
    (hv : ∀ (r : Fin 5000) (h : t.val * 5000 + r.val < 50000), v (ix2 r j) = X4 V c ⟨t.val * 5000 + r.val, h⟩ j) :
    k4_pay1 (F := Ideal) v q (ix2 (0 : Fin 1) j) = q (ix2 (0 : Fin 1) j) + tileSum4 (XX4 V c) j t.val := by
  rw [Cert.KernelIdeal.PayValue.k4_pay1_apply]
  congr 1
  unfold tileSum4
  rw [dif_pos (lt_of_lt_of_eq t.isLt N_4)]
  exact Finset.sum_congr rfl fun r _ => by rw [hv r _]

section Accumulate

variable {c : Dev nD}
  {T : (n : ℕ) → n < cfg4.N → Vec Ideal S5000x128 .f32 × Vec Ideal S1x128 .f32 × Vec Ideal S1x128 .f32 × Vec Ideal S1x128 .f32 × Vec Ideal S1x128 .f32}

/-- (a) The output tile at point t, row r, lane j is the linear part at row 5000 t + r. -/
theorem Steps4.tile_apply (H : Steps4 V c T) (t : Fin cfg4.N) (r : Fin 5000) (j : Fin 128) (h : t.val * 5000 + r.val < 50000) :
    (T t.val t.isLt).1 (ix2 r j) = X4 V c ⟨t.val * 5000 + r.val, h⟩ j := by
  rw [H.tile t]; exact pay6_blocks4 V c t r j h

/-- (b) After point n the running sum at lane j is the linear part's column j summed over tiles 0 to n. -/
theorem Steps4.sum_apply (H : Steps4 V c T) (n : ℕ) (hn : n < cfg4.N) (j : Fin 128) :
    (T n hn).2.2.2.1 (ix2 (0 : Fin 1) j) = ∑ t ∈ Finset.range (n + 1), tileSum4 (X4 V c) j t :=
  runSum4 (X4 V c) j (fun n hn => (T n hn).2.2.2.1 (ix2 (0 : Fin 1) j))
    (fun h => by
      show (T 0 h).2.2.2.1 (ix2 (0 : Fin 1) j) = _
      rw [H.sum0 h, paySum4 V c ⟨0, h⟩ j, Cert.KernelIdeal.PayValue.k4_pay4_eq])
    (fun n hn => by
      show (T (n + 1) hn).2.2.2.1 (ix2 (0 : Fin 1) j) = _
      rw [H.sumS n hn, paySum4 V c ⟨n + 1, hn⟩ j]) n hn

/-- (b) After point n the running sum of squares at lane j is the squares' column j summed over tiles 0 to n. -/
theorem Steps4.sq_apply (H : Steps4 V c T) (n : ℕ) (hn : n < cfg4.N) (j : Fin 128) :
    (T n hn).2.2.2.2 (ix2 (0 : Fin 1) j) = ∑ t ∈ Finset.range (n + 1), tileSum4 (XX4 V c) j t :=
  runSum4 (XX4 V c) j (fun n hn => (T n hn).2.2.2.2 (ix2 (0 : Fin 1) j))
    (fun h => by
      show (T 0 h).2.2.2.2 (ix2 (0 : Fin 1) j) = _
      rw [H.sq0 h, paySq4 V c ⟨0, h⟩ j _ _ (fun r hr => H.tile_apply V ⟨0, h⟩ r j hr), Cert.KernelIdeal.PayValue.k4_pay5_eq])
    (fun n hn => by
      show (T (n + 1) hn).2.2.2.2 (ix2 (0 : Fin 1) j) = _
      rw [H.sqS n hn, paySq4 V c ⟨n + 1, hn⟩ j _ _ (fun r hr => H.tile_apply V ⟨n + 1, hn⟩ r j hr)]) n hn

/-- (c) After the last point the running sum is the column sum over all the rows (the last point is given with the
    fact that it is the last, never as a numeral), -/
theorem Steps4.sum_last (H : Steps4 V c T) (t : Fin cfg4.N) (h9 : t.val = 9) (j : Fin 128) :
    (T t.val t.isLt).2.2.2.1 (ix2 (0 : Fin 1) j) = ∑ i, X4 V c i j := by
  obtain ⟨n, hn⟩ := t
  obtain rfl : n = 9 := h9
  exact (H.sum_apply V 9 hn j).trans (tileSum4_total _ j)

/-- and the running sum of squares the column sum of the squares. -/
theorem Steps4.sq_last (H : Steps4 V c T) (t : Fin cfg4.N) (h9 : t.val = 9) (j : Fin 128) :
    (T t.val t.isLt).2.2.2.2 (ix2 (0 : Fin 1) j) = ∑ i, X4 V c i j * X4 V c i j := by
  obtain ⟨n, hn⟩ := t
  obtain rfl : n = 9 := h9
  exact (H.sq_apply V 9 hn j).trans (tileSum4_total _ j)

/-- (c) The mean row stored at the last point is the linear part's column mean, -/
theorem Steps4.mean_apply (H : Steps4 V c T) (t : Fin cfg4.N) (h9 : t.val = 9) (j : Fin 128) :
    (T t.val t.isLt).2.1 (ix2 (0 : Fin 1) j) = Cert.Spec.colMean (X4 V c) j := by
  rw [H.mean t h9, Cert.KernelIdeal.PayValue.k4_pay2_apply, H.sum_last V t h9 j]; rfl

/-- and the variance row the mean of its squares minus the squared mean. -/
theorem Steps4.var_apply (H : Steps4 V c T) (t : Fin cfg4.N) (h9 : t.val = 9) (j : Fin 128) :
    (T t.val t.isLt).2.2.1 (ix2 (0 : Fin 1) j) = Cert.Spec.varSq (X4 V c) j := by
  rw [H.var t h9, Cert.KernelIdeal.PayValue.k4_pay3_apply, H.sum_last V t h9 j, H.sq_last V t h9 j]; rfl

end Accumulate

end Regions

end Cert.KernelIdeal.Hand

end
-- ==== Proof.KI.StatsSums4.lean ====
/-
  Kernel region 4 on the extended reals: the mean and variance arrays after the run.

  What the region's buffers hold after each grid point satisfies the step equations of the walk over the ten row
  tiles, so the arithmetic done once for any such contents applies: the output tile at point t is the linear part's
  rows 5000 t to 5000 t + 4999, and after the run the mean array holds, lane by lane, the column mean of the linear
  part of the layer over all 50000 rows, and the variance array its mean of squares minus its squared mean.
-/
import proofs.«162849_j29643864277577_1_alg».proof.Proof.KI.StatsPieces4
import proofs.«162849_j29643864277577_1_alg».proof.Proof.KI.StatsSumsCore4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-- What the buffers hold after each point satisfies the step equations. -/
theorem steps4 (c : Dev nD) : Steps4 V c (outsAt4 V c) where
  tile := hnewTile4 V c
  sum0 := scr4_zero0 V c
  sumS := scr4_succ0 V c
  sq0 := sq4_zero0 V c
  sqS := sq4_succ0 V c
  mean := meanRow4 V c
  var := varRow4 V c

/-- The output tile at point t, row r, lane j is the linear part at row 5000 t + r. -/
theorem hnew4_apply (c : Dev nD) (t : Fin cfg4.N) (r : Fin 5000) (j : Fin 128) (h : t.val * 5000 + r.val < 50000) :
    (outsAt4 V c t.val t.isLt).1 (ix2 r j) = X4 V c ⟨t.val * 5000 + r.val, h⟩ j :=
  (steps4 V c).tile_apply V t r j h

/-- After the run the mean array holds the column mean of the linear part. -/
theorem mean4_arr (c : Dev nD) (j : Fin 128) :
    (dat4 (F := Ideal) V c).arrAt 7 cfg4.N (ix2 (0 : Fin 1) j) = Cert.Spec.colMean (X4 V c) j := by
  rw [arrAt4_7_of (dat4 V c) j, after4_7]
  exact (steps4 V c).mean_apply V tLast4 rfl j

/-- After the run the variance array holds the linear part's mean of squares minus its squared mean. -/
theorem var4_arr (c : Dev nD) (j : Fin 128) :
    (dat4 (F := Ideal) V c).arrAt 8 cfg4.N (ix2 (0 : Fin 1) j) = Cert.Spec.varSq (X4 V c) j := by
  rw [arrAt4_8_of (dat4 V c) j, after4_8]
  exact (steps4 V c).var_apply V tLast4 rfl j

end Regions

end Cert.KernelIdeal.Hand

end
-- ==== Proof.KI.StatsArr6.lean ====
import proofs.«162849_j29643864277577_1_alg».proof.Proof.KI.Stats6
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 6: the six arrays it reads, as it finds them

The region reads six arrays: the aggregated messages and the node features (50000 rows of 128 features each), the
two weight matrices (128 by 128) and the two bias rows (1 by 128). Each is named here at its own vector type, at
the contents `V` the region finds in the core's buffers, so that statements about their entries can add and
multiply them as extended reals. -/

section Regions

variable (V : (c : Dev nD) → (b : Ref sig .tc) → Buf (Elt Ideal) ((c : Thread nD τ).loc b))

/-- The aggregated messages (window 0's array). -/
abbrev arr6_0 (c : Dev nD) : FVec Ideal S50000x128 .f32 := V c (Pipeline.arrRef spec6 0)
/-- The node features (window 1's array). -/
abbrev arr6_1 (c : Dev nD) : FVec Ideal S50000x128 .f32 := V c (Pipeline.arrRef spec6 1)
/-- The weights applied to the aggregated messages (window 2's array). -/
abbrev arr6_2 (c : Dev nD) : FVec Ideal S128x128 .f32 := V c (Pipeline.arrRef spec6 2)
/-- The bias row added after the first product (window 3's array). -/
abbrev arr6_3 (c : Dev nD) : FVec Ideal S1x128 .f32 := V c (Pipeline.arrRef spec6 3)
/-- The weights applied to the node features (window 4's array). -/
abbrev arr6_4 (c : Dev nD) : FVec Ideal S128x128 .f32 := V c (Pipeline.arrRef spec6 4)
/-- The bias row added last (window 5's array). -/
abbrev arr6_5 (c : Dev nD) : FVec Ideal S1x128 .f32 := V c (Pipeline.arrRef spec6 5)

end Regions

end Cert.KernelIdeal.Hand

end
-- ==== Proof.KI.StatsHnew6.lean ====
import proofs.«162849_j29643864277577_1_alg».proof.Proof.KI.StatsArr6
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 6: what it leaves in its first output array

The region's body stores, at grid point `t`, one 5000-row tile of the layer's linear part: the tile of the aggregated
messages times the first weight matrix, plus the first bias row, plus the tile of the node features times the second
weight matrix, plus the second bias row. The pipeline writes that tile back at every point, to rows 5000 t … 5000 t +
4999 of the output array, and the ten tiles fill the array's 50000 rows. So after the region the array holds, at every
row `i` and lane `j`,

    ((∑ k, agg i k · W_rel k j) + b_rel j) + (∑ k, h i k · W_root k j) + b_root j ,

the specification's `lin` of the six arrays the region reads, as it finds them.

The steps: where each window's block sits at a point (decided over the ten points); each input block read off its
array entry by entry; the stored tile at one entry as `lin` at the entry's place in the array; hence the block a point
writes back is its block of the one whole-array function; the ten blocks cover every index; so the array is that
function. Everything up to the last statement is for any proof data of the region's pipeline whose body leaves the
stored tile in the output's buffer. -/

open Idealize.ShloMosaic.ValueIdx

section Regions
variable (V : (c : Dev nD) → (b : Ref sig .tc) → Buf (Elt Ideal) ((c : Thread nD τ).loc b))

/-! ## Where each window's block sits -/

/-- The printed index maps, decided once over the ten grid points: the two row tiles and the output tile sit at
    block row `t`, block column 0; the weights and the bias rows are whole, at block (0, 0). -/
theorem idx_facts6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = t.val ∧ win6_6.index t (1 : Fin 2) = 0) :=
  (by decide +kernel : ∀ t : Fin grid6.N, _)

/-! ## Each input block, read off its array -/

/-- Row tile `t` of the aggregated messages: its entry (r, k) is the array's entry (5000 t + r, k). -/
theorem iblk6_0_at (c : Dev nD) (t : Fin cfg6.N) (p : S5000x128.Idx) (q : S50000x128.Idx)
    (h0 : (q 0).val = t.val * 5000 + (p 0).val) (h1 : (q 1).val = (p 1).val) :
    (iblk6 V c 0 t : FVec Ideal S5000x128 .f32) p = arr6_0 V c q := by
  obtain ⟨e0, e1⟩ := (idx_facts6 t).1
  unfold iblk6
  rw [View.read_apply]
  show V c (Pipeline.arrRef spec6 0) _ = V c (Pipeline.arrRef spec6 0) _
  congr 1
  funext a
  apply Fin.ext
  match a with
  | ⟨0, _⟩ => show win6_0.index t (0 : Fin 2) * 5000 + 1 * (p 0).val = (q 0).val; rw [e0, h0]; omega
  | ⟨1, _⟩ => show win6_0.index t (1 : Fin 2) * 128 + 1 * (p 1).val = (q 1).val; rw [e1, h1]; omega

/-- Row tile `t` of the node features: its entry (r, k) is the array's entry (5000 t + r, k). -/
theorem iblk6_1_at (c : Dev nD) (t : Fin cfg6.N) (p : S5000x128.Idx) (q : S50000x128.Idx)
    (h0 : (q 0).val = t.val * 5000 + (p 0).val) (h1 : (q 1).val = (p 1).val) :
    (iblk6 V c 1 t : FVec Ideal S5000x128 .f32) p = arr6_1 V c q := by
  obtain ⟨e0, e1⟩ := (idx_facts6 t).2.1
  unfold iblk6
  rw [View.read_apply]
  show V c (Pipeline.arrRef spec6 1) _ = V c (Pipeline.arrRef spec6 1) _
  congr 1
  funext a
  apply Fin.ext
  match a with
  | ⟨0, _⟩ => show win6_1.index t (0 : Fin 2) * 5000 + 1 * (p 0).val = (q 0).val; rw [e0, h0]; omega
  | ⟨1, _⟩ => show win6_1.index t (1 : Fin 2) * 128 + 1 * (p 1).val = (q 1).val; rw [e1, h1]; omega

/-- The first weight matrix comes in whole: its block at every point is the array. -/
theorem iblk6_2_at (c : Dev nD) (t : Fin cfg6.N) (p : S128x128.Idx) :
    (iblk6 V c 2 t : FVec Ideal S128x128 .f32) p = arr6_2 V c p := by
  obtain ⟨e0, e1⟩ := (idx_facts6 t).2.2.1
  unfold iblk6
  rw [View.read_apply]
  show V c (Pipeline.arrRef spec6 2) _ = V c (Pipeline.arrRef spec6 2) _
  congr 1
  funext a
  apply Fin.ext
  match a with
  | ⟨0, _⟩ => show win6_2.index t (0 : Fin 2) * 128 + 1 * (p 0).val = (p 0).val; rw [e0]; omega
  | ⟨1, _⟩ => show win6_2.index t (1 : Fin 2) * 128 + 1 * (p 1).val = (p 1).val; rw [e1]; omega

/-- The first bias row comes in whole: its block at every point is the array. -/
theorem iblk6_3_at (c : Dev nD) (t : Fin cfg6.N) (p : S1x128.Idx) :
    (iblk6 V c 3 t : FVec Ideal S1x128 .f32) p = arr6_3 V c p := by
  obtain ⟨e0, e1⟩ := (idx_facts6 t).2.2.2.1
  unfold iblk6
  rw [View.read_apply]
  show V c (Pipeline.arrRef spec6 3) _ = V c (Pipeline.arrRef spec6 3) _
  congr 1
  funext a
  apply Fin.ext
  match a with
  | ⟨0, _⟩ => show win6_3.index t (0 : Fin 2) * 1 + 1 * (p 0).val = (p 0).val; rw [e0]; omega
  | ⟨1, _⟩ => show win6_3.index t (1 : Fin 2) * 128 + 1 * (p 1).val = (p 1).val; rw [e1]; omega

/-- The second weight matrix comes in whole: its block at every point is the array. -/
theorem iblk6_4_at (c : Dev nD) (t : Fin cfg6.N) (p : S128x128.Idx) :
    (iblk6 V c 4 t : FVec Ideal S128x128 .f32) p = arr6_4 V c p := by
  obtain ⟨e0, e1⟩ := (idx_facts6 t).2.2.2.2.1
  unfold iblk6
  rw [View.read_apply]
  show V c (Pipeline.arrRef spec6 4) _ = V c (Pipeline.arrRef spec6 4) _
  congr 1
  funext a
  apply Fin.ext
  match a with
  | ⟨0, _⟩ => show win6_4.index t (0 : Fin 2) * 128 + 1 * (p 0).val = (p 0).val; rw [e0]; omega
  | ⟨1, _⟩ => show win6_4.index t (1 : Fin 2) * 128 + 1 * (p 1).val = (p 1).val; rw [e1]; omega

/-- The second bias row comes in whole: its block at every point is the array. -/
theorem iblk6_5_at (c : Dev nD) (t : Fin cfg6.N) (p : S1x128.Idx) :
    (iblk6 V c 5 t : FVec Ideal S1x128 .f32) p = arr6_5 V c p := by
  obtain ⟨e0, e1⟩ := (idx_facts6 t).2.2.2.2.2.1
  unfold iblk6
  rw [View.read_apply]
  show V c (Pipeline.arrRef spec6 5) _ = V c (Pipeline.arrRef spec6 5) _
  congr 1
  funext a
  apply Fin.ext
  match a with
  | ⟨0, _⟩ => show win6_5.index t (0 : Fin 2) * 1 + 1 * (p 0).val = (p 0).val; rw [e0]; omega
  | ⟨1, _⟩ => show win6_5.index t (1 : Fin 2) * 128 + 1 * (p 1).val = (p 1).val; rw [e1]; omega

/-! ## The tile the body stores, entry by entry -/

/-- The stored tile at row `r`, lane `j`, when the tile's operand rows are rows `i` of two tall arrays and its
    weights and bias rows are those of four small arrays: the linear part of the layer at (i, j), its four terms added
    in the body's order. -/
theorem lin_tile6_at (A H : FVec Ideal S50000x128 .f32) (Wr Wo : FVec Ideal S128x128 .f32) (Br Bo : FVec Ideal S1x128 .f32)
    (x a : FVec Ideal S5000x128 .f32) (wr wo : FVec Ideal S128x128 .f32) (br bo : FVec Ideal S1x128 .f32)
    (r : Fin 5000) (j : Fin 128) (i : Fin 50000)
    (hx : ∀ k : Fin 128, x (ix2 r k) = A (ix2 i k)) (ha : ∀ k : Fin 128, a (ix2 r k) = H (ix2 i k))
    (hwr : ∀ k : Fin 128, wr (ix2 k j) = Wr (ix2 k j)) (hwo : ∀ k : Fin 128, wo (ix2 k j) = Wo (ix2 k j))
    (hbr : br (ix2 (0 : Fin 1) j) = Br (ix2 (0 : Fin 1) j)) (hbo : bo (ix2 (0 : Fin 1) j) = Bo (ix2 (0 : Fin 1) j)) :
    k6_pay6 (F := Ideal) x a wr wo br bo (ix2 r j)
      = Cert.Spec.lin (fun i k => A (ix2 i k)) (fun i k => H (ix2 i k)) (fun k j => Wr (ix2 k j)) (fun k j => Wo (ix2 k j))
          (fun j => Br (ix2 (0 : Fin 1) j)) (fun j => Bo (ix2 (0 : Fin 1) j)) i j := by
  rw [Cert.KernelIdeal.PayValue.k6_pay6_apply]
  unfold Cert.Spec.lin
  simp only [hx, ha, hwr, hwo, hbr, hbo]

/-! ## The whole output array -/

/-- What the output array ends holding: the linear part of the layer, of the six arrays as the region finds them. -/
abbrev hnewArr6 (c : Dev nD) : FVec Ideal S50000x128 .f32 := fun q =>
  Cert.Spec.lin (fun i k => arr6_0 V c (ix2 i k)) (fun i k => arr6_1 V c (ix2 i k)) (fun k j => arr6_2 V c (ix2 k j))
    (fun k j => arr6_4 V c (ix2 k j)) (fun j => arr6_3 V c (ix2 0 j)) (fun j => arr6_5 V c (ix2 0 j)) (q 0) (q 1)

/-- What point `t` writes back is block `t` of that array: rows 5000 t … 5000 t + 4999, every lane. Stated for any
    proof data of the region's pipeline whose body leaves in the output's buffer the stored tile of the point's
    input blocks. -/
theorem hnew6_flushed_of {c : Dev nD} (dat : Dat τ (Elt Ideal) Unit ℕ (UR sig nD τ) ℕ cfg6 c)
    (hafter : ∀ t : Fin cfg6.N, dat.after 6 t = k6_pay6 (iblk6 V c 0 t) (iblk6 V c 1 t) (iblk6 V c 2 t) (iblk6 V c 4 t) (iblk6 V c 3 t) (iblk6 V c 5 t))
    (t : Fin cfg6.N) :
    dat.flushed 6 t = ((cfg6.win 6).blk t).view.read (Elt Ideal) (hnewArr6 V c) := by
  show (cfg6.win 6).cut (grid6.coords t) (dat.after 6 t) = _
  rw [hafter]
  funext y
  have hy0 : (y 0).val < 5000 := (y 0).isLt
  have hy1 : (y 1).val < 128 := (y 1).isLt
  have ht : t.val < 10 := t.isLt
  obtain ⟨e0, e1⟩ := (idx_facts6 t).2.2.2.2.2.2
  have hin : (cfg6.win 6).xinj (grid6.coords t) y = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg6.win 6).blk t).view.emb y = (ix2 (⟨t.val * 5000 + (y 0).val, by omega⟩ : Fin 50000) (⟨(y 1).val, hy1⟩ : Fin 128) : S50000x128.Idx) := by
    funext a
    apply Fin.ext
    match a with
    | ⟨0, _⟩ => show win6_6.index t (0 : Fin 2) * 5000 + 1 * (y 0).val = t.val * 5000 + (y 0).val; rw [e0]; omega
    | ⟨1, _⟩ => show win6_6.index t (1 : Fin 2) * 128 + 1 * (y 1).val = (y 1).val; rw [e1]; omega
  show k6_pay6 (F := Ideal) (iblk6 V c 0 t) (iblk6 V c 1 t) (iblk6 V c 2 t) (iblk6 V c 4 t) (iblk6 V c 3 t) (iblk6 V c 5 t) ((cfg6.win 6).xinj (grid6.coords t) y)
      = hnewArr6 V c (((cfg6.win 6).blk t).view.emb y)
  rw [hin, hemb]
  exact lin_tile6_at (arr6_0 V c) (arr6_1 V c) (arr6_2 V c) (arr6_4 V c) (arr6_3 V c) (arr6_5 V c)
    (iblk6 V c 0 t) (iblk6 V c 1 t) (iblk6 V c 2 t) (iblk6 V c 4 t) (iblk6 V c 3 t) (iblk6 V c 5 t)
    ⟨(y 0).val, hy0⟩ ⟨(y 1).val, hy1⟩ ⟨t.val * 5000 + (y 0).val, by omega⟩
    (fun k => iblk6_0_at V c t (ix2 ⟨(y 0).val, hy0⟩ k) (ix2 ⟨t.val * 5000 + (y 0).val, by omega⟩ k) rfl rfl)
    (fun k => iblk6_1_at V c t (ix2 ⟨(y 0).val, hy0⟩ k) (ix2 ⟨t.val * 5000 + (y 0).val, by omega⟩ k) rfl rfl)
    (fun k => iblk6_2_at V c t (ix2 k ⟨(y 1).val, hy1⟩))
    (fun k => iblk6_4_at V c t (ix2 k ⟨(y 1).val, hy1⟩))
    (iblk6_3_at V c t (ix2 (0 : Fin 1) ⟨(y 1).val, hy1⟩))
    (iblk6_5_at V c t (ix2 (0 : Fin 1) ⟨(y 1).val, hy1⟩))

/-! ## The blocks tile the array -/

/-- An index of the array is in point `t`'s block iff each coordinate is in the block's range on its axis. -/
theorem mem_blk6_6 (t : Fin cfg6.N) (i : S50000x128.Idx) :
    i ∈ ((cfg6.win 6).blk t).view.set ↔ ∀ a : Fin 2, win6_6.index t a * S5000x128.size a ≤ (i a).val ∧ (i a).val < win6_6.index t a * S5000x128.size a + S5000x128.size a := by
  show i ∈ ((View.whole (Pipeline.arrRef spec6 6)).slice (win6_6.rect t)).set ↔ _
  rw [View.set_slice_whole, Rect.mem_set_unit]
  exact Iff.rfl

/-- Every index is in some point's block: row `i` is in the block of point `i / 5000`. -/
theorem hnew6_cover (i : S50000x128.Idx) : ∃ t : Fin cfg6.N, (cfg6.win 6).flush t = true ∧ i ∈ ((cfg6.win 6).blk t).view.set := by
  have hi0 : (i 0).val < 50000 := (i 0).isLt
  have hi1 : (i 1).val < 128 := (i 1).isLt
  have hN : cfg6.N = 10 := rfl
  have hlt : (i 0).val / 5000 < cfg6.N := by rw [hN]; omega
  obtain ⟨e0, e1⟩ := (idx_facts6 ⟨(i 0).val / 5000, hlt⟩).2.2.2.2.2.2
  refine ⟨⟨(i 0).val / 5000, hlt⟩, flush6_6 _, ?_⟩
  rw [mem_blk6_6]
  intro a
  match a with
  | ⟨0, _⟩ =>
    show win6_6.index ⟨(i 0).val / 5000, hlt⟩ (0 : Fin 2) * 5000 ≤ (i 0).val ∧ (i 0).val < win6_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_6.index ⟨(i 0).val / 5000, hlt⟩ (1 : Fin 2) * 128 ≤ (i 1).val ∧ (i 1).val < win6_6.index ⟨(i 0).val / 5000, hlt⟩ (1 : Fin 2) * 128 + 128
    rw [e1]; omega

/-- So the array ends holding the linear part of the layer everywhere. -/
theorem hnew6_final_of {c : Dev nD} (dat : Dat τ (Elt Ideal) Unit ℕ (UR sig nD τ) ℕ cfg6 c)
    (hafter : ∀ t : Fin cfg6.N, dat.after 6 t = k6_pay6 (iblk6 V c 0 t) (iblk6 V c 1 t) (iblk6 V c 2 t) (iblk6 V c 4 t) (iblk6 V c 3 t) (iblk6 V c 5 t)) :
    dat.arrAt 6 cfg6.N = hnewArr6 V c :=
  dat.arrAt_eq_of_cover 6 (hnewArr6 V c) (fun t _ => hnew6_flushed_of V dat hafter t) hnew6_cover

end Regions

section Regions

variable (V : (c : Dev nD) → (b : Ref sig .tc) → Buf (Elt Ideal) ((c : Thread nD τ).loc b))

/-- THE OUTPUT ARRAY after the region, entry by entry: the linear part of the layer at row `i`, lane `j`, of the
    aggregated messages, the node features, the two weight matrices and the two bias rows as the region finds them —
    given that what the body leaves in the output's buffer at each point is the stored tile of that point's blocks. -/
theorem hnew6_arr (c : Dev nD)
    (hnewTile6 : ∀ t : Fin cfg6.N, (outsAt6 V c t.val t.isLt).1
      = k6_pay6 (iblk6 V c 0 t) (iblk6 V c 1 t) (iblk6 V c 2 t) (iblk6 V c 4 t) (iblk6 V c 3 t) (iblk6 V c 5 t))
    (i : Fin 50000) (j : Fin 128) :
    (dat6 (F := Ideal) V c).arrAt 6 cfg6.N (ix2 i j)
      = Cert.Spec.lin (fun i k => arr6_0 V c (ix2 i k)) (fun i k => arr6_1 V c (ix2 i k)) (fun k j => arr6_2 V c (ix2 k j))
          (fun k j => arr6_4 V c (ix2 k j)) (fun j => arr6_3 V c (ix2 0 j)) (fun j => arr6_5 V c (ix2 0 j)) i j :=
  congrFun (hnew6_final_of V (dat6 V c) (fun t => (after6_6 V c t).trans (hnewTile6 t))) (ix2 i j)

end Regions

end Cert.KernelIdeal.Hand

end
-- ==== Proof.KI.StatsPieces6.lean ====
/-
  Kernel region 6: what the body leaves at each grid point, as the body's own arithmetic.

  The body's stores are found as lists of pieces, one list per buffer. Each list reads back to one closed term over
  what the body loaded: the output tile is the linear part's tile of the six input blocks; the running column sum is
  the row it started the point with (the zero row at the first point, since the reset is read back) plus the tile's
  column sums; the running column sum of squares likewise with the squares; and at the last point the mean row and the
  variance row are computed from the two running sums as just updated, because the body reads them back after storing
  them. From these, by the case of the point, come the equations of the walk over the ten tiles: the tile at every
  point, the two running sums at the first point and at each later one from the point before, and the two statistics
  rows at the last point. Everything here holds for any float arithmetic.
-/
import proofs.«162849_j29643864277577_1_alg».proof.Proof.KI.Stats6
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Per case: the pieces read back to the body's payloads -/

/-- The zero offsets of a whole-buffer load or store, however they are spelt. -/
theorem hz6 : (![0, 0] : Fin 2 → Nat) = fun _ => 0 := funext fun a => by
  match a with
  | ⟨0, _⟩ => rfl
  | ⟨1, _⟩ => rfl

set_option maxHeartbeats 1000000 in
/-- At the first point the body leaves in the output tile the linear part's tile of the six loaded blocks: one store covers the tile, and its loads read the whole input buffers. -/
theorem tile6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) :
    out6_A_6 c i arg1 harg1 arg2 harg2 arg3 harg3 arg4 harg4 arg5 harg5 arg6 harg6 arg7 harg7 arg8 harg8 arg9 harg9 arg10 harg10 arg11 harg11 hc0 hc1 x0 x1 x2 x3 x4 x5 = k6_pay6 x0 x1 x2 x4 x3 x5 := by
  unfold out6_A_6
  rw [View.read_writes_junk_eq_canon]
  unfold kernelRun6_A
  dsimp only
  sl_unfold_words
  rw [View.canon_unit_zero (S := S5000x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the first point the running sum is reset to the zero row, read back, and grown by the tile's column sums. -/
theorem sum6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) :
    sout6_A_0 c i arg1 harg1 arg2 harg2 arg3 harg3 arg4 harg4 arg5 harg5 arg6 harg6 arg7 harg7 arg8 harg8 arg9 harg9 arg10 harg10 arg11 harg11 hc0 hc1 x0 x1 x2 x3 x4 x5 = k6_pay7 x0 x1 x2 x4 x3 x5 (k6_pay4 (F := F)) := by
  unfold sout6_A_0
  rw [View.read_writes_junk_eq_canon]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the first point the running sum of squares is reset to the zero row, read back, and grown by the column sums of the tile's squares. -/
theorem sq6_A (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) :
    sout6_A_1 c i arg1 harg1 arg2 harg2 arg3 harg3 arg4 harg4 arg5 harg5 arg6 harg6 arg7 harg7 arg8 harg8 arg9 harg9 arg10 harg10 arg11 harg11 hc0 hc1 x0 x1 x2 x3 x4 x5 = k6_pay1 (k6_pay6 x0 x1 x2 x4 x3 x5) (k6_pay5 (F := F)) := by
  unfold sout6_A_1
  rw [View.read_writes_junk_eq_canon]
  unfold kernelRun6_A
  dsimp only
  sl_unfold_words
  rw [View.canon_cons_unit_zero (S := S1x128) hz6, View.readCov_unit_zero (S := S1x128) _ hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At a middle point the body leaves in the output tile the linear part's tile of the six loaded blocks. -/
theorem tile6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out6_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay6 x0 x1 x2 x4 x3 x5 := by
  unfold out6_B_6
  rw [View.read_writes_junk_eq_canon]
  unfold kernelRun6_B
  dsimp only
  sl_unfold_words
  rw [View.canon_unit_zero (S := S5000x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At a middle point the running sum the point before left grows by the tile's column sums. -/
theorem sum6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout6_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay7 x0 x1 x2 x4 x3 x5 xs0 := by
  unfold sout6_B_0
  rw [View.read_writes_junk_eq_canon]
  unfold kernelRun6_B
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At a middle point the running sum of squares the point before left grows by the column sums of the tile's squares. -/
theorem sq6_B (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : ¬cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout6_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay1 (k6_pay6 x0 x1 x2 x4 x3 x5) xs1 := by
  unfold sout6_B_1
  rw [View.read_writes_junk_eq_canon]
  unfold kernelRun6_B
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the last point the body leaves in the output tile the linear part's tile of the six loaded blocks. -/
theorem tile6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out6_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay6 x0 x1 x2 x4 x3 x5 := by
  unfold out6_C_6
  rw [View.read_writes_junk_eq_canon]
  unfold kernelRun6_C
  dsimp only
  sl_unfold_words
  rw [View.canon_unit_zero (S := S5000x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the last point the running sum the point before left grows by the tile's column sums. -/
theorem sum6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout6_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay7 x0 x1 x2 x4 x3 x5 xs0 := by
  unfold sout6_C_0
  rw [View.read_writes_junk_eq_canon]
  unfold kernelRun6_C
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the last point the running sum of squares the point before left grows by the column sums of the tile's squares. -/
theorem sq6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout6_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay1 (k6_pay6 x0 x1 x2 x4 x3 x5) xs1 := by
  unfold sout6_C_1
  rw [View.read_writes_junk_eq_canon]
  unfold kernelRun6_C
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the last point the mean row is the final running sum, read back, over the number of rows. -/
theorem mean6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out6_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay2 (k6_pay7 x0 x1 x2 x4 x3 x5 xs0) := by
  unfold out6_C_7
  rw [View.read_writes_junk_eq_canon]
  unfold kernelRun6_C
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

set_option maxHeartbeats 1000000 in
/-- At the last point the variance row is the final running sum of squares, read back, over the number of rows, minus the squared mean. -/
theorem var6_C (c : Dev nD) (i : grid6.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond6_0 i) (hc1 : cond6_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out6_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k6_pay3 (k6_pay7 x0 x1 x2 x4 x3 x5 xs0) (k6_pay1 (k6_pay6 x0 x1 x2 x4 x3 x5) xs1) := by
  unfold out6_C_8
  rw [View.read_writes_junk_eq_canon]
  unfold kernelRun6_C
  dsimp only
  sl_unfold_words
  rw [View.canon_unit_zero (S := S1x128) hz6]
  simp only [View.readAt_eq_ld, harg1.read_unread, harg2.read_unread, harg3.read_unread, harg4.read_unread, harg5.read_unread, harg6.read_unread, harg10.read_unread, harg11.read_unread, View.ld_unit_zero (S := S5000x128) hz6, View.ld_unit_zero (S := S128x128) hz6, View.ld_unit_zero (S := S1x128) hz6, View.readCov_unit_zero (S := S1x128) _ hz6, View.readCov_unit_zero (S := S5000x128) _ hz6]

/-! ## The equations of the walk, about what the buffers hold after each point

By the case of the point: the first point runs the first case, the last point the last, every other the middle one;
each component of the contents is then the case's piece, read above. -/

section Regions

variable (V : (c : Dev nD) → (b : Ref sig .tc) → Buf (Elt F) ((c : Thread nD τ).loc b))

set_option maxHeartbeats 1000000 in
/-- At every point the output tile is the body's tile of the point's six blocks. -/
theorem hnewTile6 (c : Dev nD) (t : Fin cfg6.N) :
    (outsAt6 V c t.val t.isLt).1 = k6_pay6 (iblk6 V c 0 t) (iblk6 V c 1 t) (iblk6 V c 2 t) (iblk6 V c 4 t) (iblk6 V c 3 t) (iblk6 V c 5 t) := by
  by_cases h0 : t.val = 0
  · have h1 : ¬t.val = 9 := by omega
    rw [outsAt6_A V c t h0 h1]; dsimp only
    exact tile6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) ((hcond6_0 t).mpr h0) (fun hh => h1 ((hcond6_1 t).mp hh)) (iblk6 V c 0 t) (iblk6 V c 1 t) (iblk6 V c 2 t) (iblk6 V c 3 t) (iblk6 V c 4 t) (iblk6 V c 5 t)
  · by_cases h1 : t.val = 9
    · rw [outsAt6_C V c t h0 h1]; dsimp only
      exact tile6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2
    · rw [outsAt6_B V c t h0 h1]; dsimp only
      exact tile6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) (fun hh => h1 ((hcond6_1 t).mp hh)) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2

set_option maxHeartbeats 1000000 in
/-- After the first point the running sum is the zero row grown by the first tile's column sums. -/
theorem scr6_zero0 (c : Dev nD) (h : 0 < cfg6.N) :
    (outsAt6 V c 0 h).2.2.2.1 = k6_pay7 (iblk6 V c 0 (⟨0, h⟩ : Fin cfg6.N)) (iblk6 V c 1 (⟨0, h⟩ : Fin cfg6.N)) (iblk6 V c 2 (⟨0, h⟩ : Fin cfg6.N)) (iblk6 V c 4 (⟨0, h⟩ : Fin cfg6.N)) (iblk6 V c 3 (⟨0, h⟩ : Fin cfg6.N)) (iblk6 V c 5 (⟨0, h⟩ : Fin cfg6.N)) (k6_pay4 (F := F)) := by
  have h0 : (⟨0, h⟩ : Fin cfg6.N).val = 0 := rfl
  have h1 : ¬(⟨0, h⟩ : Fin cfg6.N).val = 9 := by show ¬(0 : ℕ) = 9; omega
  show (outsAt6 V c (⟨0, h⟩ : Fin cfg6.N).val (⟨0, h⟩ : Fin cfg6.N).isLt).2.2.2.1 = _
  rw [outsAt6_A V c (⟨0, h⟩ : Fin cfg6.N) h0 h1]; dsimp only
  exact sum6_A c (grid6.coords (⟨0, h⟩ : Fin cfg6.N)) (ms6_0 (⟨0, h⟩ : Fin cfg6.N)) (hs6_0 (⟨0, h⟩ : Fin cfg6.N)) (ms6_1 (⟨0, h⟩ : Fin cfg6.N)) (hs6_1 (⟨0, h⟩ : Fin cfg6.N)) (ms6_2 (⟨0, h⟩ : Fin cfg6.N)) (hs6_2 (⟨0, h⟩ : Fin cfg6.N)) (ms6_3 (⟨0, h⟩ : Fin cfg6.N)) (hs6_3 (⟨0, h⟩ : Fin cfg6.N)) (ms6_4 (⟨0, h⟩ : Fin cfg6.N)) (hs6_4 (⟨0, h⟩ : Fin cfg6.N)) (ms6_5 (⟨0, h⟩ : Fin cfg6.N)) (hs6_5 (⟨0, h⟩ : Fin cfg6.N)) (ms6_6 (⟨0, h⟩ : Fin cfg6.N)) (hs6_6 (⟨0, h⟩ : Fin cfg6.N)) (ms6_7 (⟨0, h⟩ : Fin cfg6.N)) (hs6_7 (⟨0, h⟩ : Fin cfg6.N)) (ms6_8 (⟨0, h⟩ : Fin cfg6.N)) (hs6_8 (⟨0, h⟩ : Fin cfg6.N)) scM6_0 (Memref.isWhole_whole _) scM6_1 (Memref.isWhole_whole _) ((hcond6_0 (⟨0, h⟩ : Fin cfg6.N)).mpr h0) (fun hh => h1 ((hcond6_1 (⟨0, h⟩ : Fin cfg6.N)).mp hh)) (iblk6 V c 0 (⟨0, h⟩ : Fin cfg6.N)) (iblk6 V c 1 (⟨0, h⟩ : Fin cfg6.N)) (iblk6 V c 2 (⟨0, h⟩ : Fin cfg6.N)) (iblk6 V c 3 (⟨0, h⟩ : Fin cfg6.N)) (iblk6 V c 4 (⟨0, h⟩ : Fin cfg6.N)) (iblk6 V c 5 (⟨0, h⟩ : Fin cfg6.N))

set_option maxHeartbeats 1000000 in
/-- After a later point the running sum is the one the point before left, grown by this tile's column sums. -/
theorem scr6_succ0 (c : Dev nD) (n : ℕ) (hn : n + 1 < cfg6.N) :
    (outsAt6 V c (n + 1) hn).2.2.2.1 = k6_pay7 (iblk6 V c 0 (⟨n + 1, hn⟩ : Fin cfg6.N)) (iblk6 V c 1 (⟨n + 1, hn⟩ : Fin cfg6.N)) (iblk6 V c 2 (⟨n + 1, hn⟩ : Fin cfg6.N)) (iblk6 V c 4 (⟨n + 1, hn⟩ : Fin cfg6.N)) (iblk6 V c 3 (⟨n + 1, hn⟩ : Fin cfg6.N)) (iblk6 V c 5 (⟨n + 1, hn⟩ : Fin cfg6.N)) (outsAt6 V c n (Nat.lt_of_succ_lt hn)).2.2.2.1 := by
  have h0 : ¬(⟨n + 1, hn⟩ : Fin cfg6.N).val = 0 := Nat.succ_ne_zero n
  show (outsAt6 V c (⟨n + 1, hn⟩ : Fin cfg6.N).val (⟨n + 1, hn⟩ : Fin cfg6.N).isLt).2.2.2.1 = _
  by_cases h1 : (⟨n + 1, hn⟩ : Fin cfg6.N).val = 9
  · rw [outsAt6_C V c (⟨n + 1, hn⟩ : Fin cfg6.N) h0 h1]; dsimp only
    exact sum6_C c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) (ms6_8 (⟨n + 1, hn⟩ : Fin cfg6.N)) (hs6_8 (⟨n + 1, hn⟩ : Fin cfg6.N)) scM6_0 (Memref.isWhole_whole _) scM6_1 (Memref.isWhole_whole _) (fun hh => h0 ((hcond6_0 (⟨n + 1, hn⟩ : Fin cfg6.N)).mp hh)) ((hcond6_1 (⟨n + 1, hn⟩ : Fin cfg6.N)).mpr h1) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (iblk6 V c 5 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2
  · rw [outsAt6_B V c (⟨n + 1, hn⟩ : Fin cfg6.N) h0 h1]; dsimp only
    exact sum6_B c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) (ms6_8 (⟨n + 1, hn⟩ : Fin cfg6.N)) (hs6_8 (⟨n + 1, hn⟩ : Fin cfg6.N)) scM6_0 (Memref.isWhole_whole _) scM6_1 (Memref.isWhole_whole _) (fun hh => h0 ((hcond6_0 (⟨n + 1, hn⟩ : Fin cfg6.N)).mp hh)) (fun hh => h1 ((hcond6_1 (⟨n + 1, hn⟩ : Fin cfg6.N)).mp hh)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (iblk6 V c 5 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2

set_option maxHeartbeats 1000000 in
/-- After the first point the running sum of squares is the zero row grown by the column sums of the first tile's squares. -/
theorem sq6_zero0 (c : Dev nD) (h : 0 < cfg6.N) :
    (outsAt6 V c 0 h).2.2.2.2 = k6_pay1 (outsAt6 V c 0 h).1 (k6_pay5 (F := F)) := by
  have h0 : (⟨0, h⟩ : Fin cfg6.N).val = 0 := rfl
  have h1 : ¬(⟨0, h⟩ : Fin cfg6.N).val = 9 := by show ¬(0 : ℕ) = 9; omega
  have e : (outsAt6 V c 0 h).1 = k6_pay6 (iblk6 V c 0 (⟨0, h⟩ : Fin cfg6.N)) (iblk6 V c 1 (⟨0, h⟩ : Fin cfg6.N)) (iblk6 V c 2 (⟨0, h⟩ : Fin cfg6.N)) (iblk6 V c 4 (⟨0, h⟩ : Fin cfg6.N)) (iblk6 V c 3 (⟨0, h⟩ : Fin cfg6.N)) (iblk6 V c 5 (⟨0, h⟩ : Fin cfg6.N)) := hnewTile6 V c (⟨0, h⟩ : Fin cfg6.N)
  rw [e]
  show (outsAt6 V c (⟨0, h⟩ : Fin cfg6.N).val (⟨0, h⟩ : Fin cfg6.N).isLt).2.2.2.2 = _
  rw [outsAt6_A V c (⟨0, h⟩ : Fin cfg6.N) h0 h1]; dsimp only
  exact sq6_A c (grid6.coords (⟨0, h⟩ : Fin cfg6.N)) (ms6_0 (⟨0, h⟩ : Fin cfg6.N)) (hs6_0 (⟨0, h⟩ : Fin cfg6.N)) (ms6_1 (⟨0, h⟩ : Fin cfg6.N)) (hs6_1 (⟨0, h⟩ : Fin cfg6.N)) (ms6_2 (⟨0, h⟩ : Fin cfg6.N)) (hs6_2 (⟨0, h⟩ : Fin cfg6.N)) (ms6_3 (⟨0, h⟩ : Fin cfg6.N)) (hs6_3 (⟨0, h⟩ : Fin cfg6.N)) (ms6_4 (⟨0, h⟩ : Fin cfg6.N)) (hs6_4 (⟨0, h⟩ : Fin cfg6.N)) (ms6_5 (⟨0, h⟩ : Fin cfg6.N)) (hs6_5 (⟨0, h⟩ : Fin cfg6.N)) (ms6_6 (⟨0, h⟩ : Fin cfg6.N)) (hs6_6 (⟨0, h⟩ : Fin cfg6.N)) (ms6_7 (⟨0, h⟩ : Fin cfg6.N)) (hs6_7 (⟨0, h⟩ : Fin cfg6.N)) (ms6_8 (⟨0, h⟩ : Fin cfg6.N)) (hs6_8 (⟨0, h⟩ : Fin cfg6.N)) scM6_0 (Memref.isWhole_whole _) scM6_1 (Memref.isWhole_whole _) ((hcond6_0 (⟨0, h⟩ : Fin cfg6.N)).mpr h0) (fun hh => h1 ((hcond6_1 (⟨0, h⟩ : Fin cfg6.N)).mp hh)) (iblk6 V c 0 (⟨0, h⟩ : Fin cfg6.N)) (iblk6 V c 1 (⟨0, h⟩ : Fin cfg6.N)) (iblk6 V c 2 (⟨0, h⟩ : Fin cfg6.N)) (iblk6 V c 3 (⟨0, h⟩ : Fin cfg6.N)) (iblk6 V c 4 (⟨0, h⟩ : Fin cfg6.N)) (iblk6 V c 5 (⟨0, h⟩ : Fin cfg6.N))

set_option maxHeartbeats 1000000 in
/-- After a later point the running sum of squares is the one the point before left, grown by the column sums of this tile's squares. -/
theorem sq6_succ0 (c : Dev nD) (n : ℕ) (hn : n + 1 < cfg6.N) :
    (outsAt6 V c (n + 1) hn).2.2.2.2 = k6_pay1 (outsAt6 V c (n + 1) hn).1 (outsAt6 V c n (Nat.lt_of_succ_lt hn)).2.2.2.2 := by
  have h0 : ¬(⟨n + 1, hn⟩ : Fin cfg6.N).val = 0 := Nat.succ_ne_zero n
  have e : (outsAt6 V c (n + 1) hn).1 = k6_pay6 (iblk6 V c 0 (⟨n + 1, hn⟩ : Fin cfg6.N)) (iblk6 V c 1 (⟨n + 1, hn⟩ : Fin cfg6.N)) (iblk6 V c 2 (⟨n + 1, hn⟩ : Fin cfg6.N)) (iblk6 V c 4 (⟨n + 1, hn⟩ : Fin cfg6.N)) (iblk6 V c 3 (⟨n + 1, hn⟩ : Fin cfg6.N)) (iblk6 V c 5 (⟨n + 1, hn⟩ : Fin cfg6.N)) := hnewTile6 V c (⟨n + 1, hn⟩ : Fin cfg6.N)
  rw [e]
  show (outsAt6 V c (⟨n + 1, hn⟩ : Fin cfg6.N).val (⟨n + 1, hn⟩ : Fin cfg6.N).isLt).2.2.2.2 = _
  by_cases h1 : (⟨n + 1, hn⟩ : Fin cfg6.N).val = 9
  · rw [outsAt6_C V c (⟨n + 1, hn⟩ : Fin cfg6.N) h0 h1]; dsimp only
    exact sq6_C c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) (ms6_8 (⟨n + 1, hn⟩ : Fin cfg6.N)) (hs6_8 (⟨n + 1, hn⟩ : Fin cfg6.N)) scM6_0 (Memref.isWhole_whole _) scM6_1 (Memref.isWhole_whole _) (fun hh => h0 ((hcond6_0 (⟨n + 1, hn⟩ : Fin cfg6.N)).mp hh)) ((hcond6_1 (⟨n + 1, hn⟩ : Fin cfg6.N)).mpr h1) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (iblk6 V c 5 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2
  · rw [outsAt6_B V c (⟨n + 1, hn⟩ : Fin cfg6.N) h0 h1]; dsimp only
    exact sq6_B c (grid6.coords (⟨n + 1, hn⟩ : Fin cfg6.N)) (ms6_0 (⟨n + 1, hn⟩ : Fin cfg6.N)) (hs6_0 (⟨n + 1, hn⟩ : Fin cfg6.N)) (ms6_1 (⟨n + 1, hn⟩ : Fin cfg6.N)) (hs6_1 (⟨n + 1, hn⟩ : Fin cfg6.N)) (ms6_2 (⟨n + 1, hn⟩ : Fin cfg6.N)) (hs6_2 (⟨n + 1, hn⟩ : Fin cfg6.N)) (ms6_3 (⟨n + 1, hn⟩ : Fin cfg6.N)) (hs6_3 (⟨n + 1, hn⟩ : Fin cfg6.N)) (ms6_4 (⟨n + 1, hn⟩ : Fin cfg6.N)) (hs6_4 (⟨n + 1, hn⟩ : Fin cfg6.N)) (ms6_5 (⟨n + 1, hn⟩ : Fin cfg6.N)) (hs6_5 (⟨n + 1, hn⟩ : Fin cfg6.N)) (ms6_6 (⟨n + 1, hn⟩ : Fin cfg6.N)) (hs6_6 (⟨n + 1, hn⟩ : Fin cfg6.N)) (ms6_7 (⟨n + 1, hn⟩ : Fin cfg6.N)) (hs6_7 (⟨n + 1, hn⟩ : Fin cfg6.N)) (ms6_8 (⟨n + 1, hn⟩ : Fin cfg6.N)) (hs6_8 (⟨n + 1, hn⟩ : Fin cfg6.N)) scM6_0 (Memref.isWhole_whole _) scM6_1 (Memref.isWhole_whole _) (fun hh => h0 ((hcond6_0 (⟨n + 1, hn⟩ : Fin cfg6.N)).mp hh)) (fun hh => h1 ((hcond6_1 (⟨n + 1, hn⟩ : Fin cfg6.N)).mp hh)) (iblk6 V c 0 (⟨n + 1, hn⟩ : Fin cfg6.N)) (iblk6 V c 1 (⟨n + 1, hn⟩ : Fin cfg6.N)) (iblk6 V c 2 (⟨n + 1, hn⟩ : Fin cfg6.N)) (iblk6 V c 3 (⟨n + 1, hn⟩ : Fin cfg6.N)) (iblk6 V c 4 (⟨n + 1, hn⟩ : Fin cfg6.N)) (iblk6 V c 5 (⟨n + 1, hn⟩ : Fin cfg6.N)) (outsAt6 V c ((⟨n + 1, hn⟩ : Fin cfg6.N).val - 1) (Nat.lt_of_le_of_lt (Nat.sub_le _ _) (⟨n + 1, hn⟩ : Fin cfg6.N).isLt)).2.2.2.1 (outsAt6 V c ((⟨n + 1, hn⟩ : Fin cfg6.N).val - 1) (Nat.lt_of_le_of_lt (Nat.sub_le _ _) (⟨n + 1, hn⟩ : Fin cfg6.N).isLt)).2.2.2.2

set_option maxHeartbeats 1000000 in
/-- At a point that is the last one, the mean row is computed from the running sum that point leaves (stated at a
    point given with the fact that it is the last, so that the walk is never unrolled). -/
theorem meanRow6 (c : Dev nD) (t : Fin cfg6.N) (h1 : t.val = 9) :
    (outsAt6 V c t.val t.isLt).2.1 = k6_pay2 (outsAt6 V c t.val t.isLt).2.2.2.1 := by
  have h0 : ¬t.val = 0 := by omega
  rw [outsAt6_C V c t h0 h1]; dsimp only
  exact (mean6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).trans
    (congrArg k6_pay2 (sum6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).symm)

set_option maxHeartbeats 1000000 in
/-- At a point that is the last one, the variance row is computed from the two running sums that point leaves. -/
theorem varRow6 (c : Dev nD) (t : Fin cfg6.N) (h1 : t.val = 9) :
    (outsAt6 V c t.val t.isLt).2.2.1 = k6_pay3 (outsAt6 V c t.val t.isLt).2.2.2.1 (outsAt6 V c t.val t.isLt).2.2.2.2 := by
  have h0 : ¬t.val = 0 := by omega
  rw [outsAt6_C V c t h0 h1]; dsimp only
  exact (var6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).trans
    (congrArg₂ k6_pay3 (sum6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).symm
      (sq6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) (fun hh => h0 ((hcond6_0 t).mp hh)) ((hcond6_1 t).mpr h1) (iblk6 V c 0 t) (iblk6 V c 1 t) (iblk6 V c 2 t) (iblk6 V c 3 t) (iblk6 V c 4 t) (iblk6 V c 5 t) (outsAt6 V c (t.val - 1) (Nat.lt_of_le_of_lt (Nat.sub_le _ _) t.isLt)).2.2.2.1 (outsAt6 V c (t.val - 1) (Nat.lt_of_le_of_lt (Nat.sub_le _ _) t.isLt)).2.2.2.2).symm)

end Regions

end Cert.KernelIdeal.Hand

end
-- ==== Proof.KI.StatsSumsCore6.lean ====
/-
  Kernel region 6 on the extended reals: from the body's step equations to the column statistics.

  The region walks the 50000 rows in ten tiles of 5000. At each tile the body stores the tile of the linear part

      lin i j = ((∑ k, agg i k · Wr k j) + br j) + (∑ k, h i k · Wo k j) + bo j ,

  adds the tile's column sums to a running row that starts from zero, and the column sums of its squares to a second
  one; at the last tile it stores the running sum over 50000 as the mean row and the running sum of squares over 50000
  minus the squared mean as the variance row.

  This module does the arithmetic of that walk once, for any point-indexed tuple of contents that satisfies the step
  equations: (1) entry (r, k) of a row tile at point t is entry (5000 t + r, k) of its array, and the weights and bias
  rows are read whole; (2) so the tile the body computes from the six blocks of point t is, at (r, j), the linear part
  at row 5000 t + r; (3) a row that starts from zero plus tile 0's column sums and grows by each next tile's is, after
  point n, the sum over tiles 0 to n, and after the last point the sum over all the rows; (4) the two statistics arrays,
  written back at the last point only through a block that is the whole row, hold after the run what the body left at
  that point; (5) hence the mean row is the column mean of the linear part and the variance row its mean of squares
  minus its squared mean.
-/
import proofs.«162849_j29643864277577_1_alg».proof.Proof.KI.Stats6Runs
import proofs.«162849_j29643864277577_1_alg».proof.Proof.KI.StatsArr6
import proofs.«162849_j29643864277577_1_alg».proof.Proof.KI.PayRead
import proofs.«162849_j29643864277577_1_alg».proof.Proof.Math.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-! ## Where a block's entry sits in its array

A block's entry sits in the array, on each axis, at the block index times the block's extent plus the coordinate
inside the block. The two row tiles move down the rows with the grid point; the weights and the bias rows are whole. -/

/-- Window 0's block index at point t is (t, 0). -/
theorem idx6_0 : ∀ t : Fin cfg6.N, win6_0.index t 0 = t.val ∧ win6_0.index t 1 = 0 :=
  (by decide +kernel : ∀ t : Fin grid6.N, win6_0.index t 0 = t.val ∧ win6_0.index t 1 = 0)
/-- Window 1's block index at point t is (t, 0). -/
theorem idx6_1 : ∀ t : Fin cfg6.N, win6_1.index t 0 = t.val ∧ win6_1.index t 1 = 0 :=
  (by decide +kernel : ∀ t : Fin grid6.N, win6_1.index t 0 = t.val ∧ win6_1.index t 1 = 0)
/-- Window 2's block index is (0, 0) at every point. -/
theorem idx6_2 : ∀ t : Fin cfg6.N, win6_2.index t 0 = 0 ∧ win6_2.index t 1 = 0 :=
  (by decide +kernel : ∀ t : Fin grid6.N, win6_2.index t 0 = 0 ∧ win6_2.index t 1 = 0)
/-- Window 3's block index is (0, 0) at every point. -/
theorem idx6_3 : ∀ t : Fin cfg6.N, win6_3.index t 0 = 0 ∧ win6_3.index t 1 = 0 :=
  (by decide +kernel : ∀ t : Fin grid6.N, win6_3.index t 0 = 0 ∧ win6_3.index t 1 = 0)
/-- Window 4's block index is (0, 0) at every point. -/
theorem idx6_4 : ∀ t : Fin cfg6.N, win6_4.index t 0 = 0 ∧ win6_4.index t 1 = 0 :=
  (by decide +kernel : ∀ t : Fin grid6.N, win6_4.index t 0 = 0 ∧ win6_4.index t 1 = 0)
/-- Window 5's block index is (0, 0) at every point. -/
theorem idx6_5 : ∀ t : Fin cfg6.N, win6_5.index t 0 = 0 ∧ win6_5.index t 1 = 0 :=
  (by decide +kernel : ∀ t : Fin grid6.N, win6_5.index t 0 = 0 ∧ win6_5.index t 1 = 0)

set_option maxHeartbeats 400000 in
/-- Entry (r, k) of window 0's tile at point t is entry (5000 t + r, k) of its array. -/
theorem iblk6_0_apply (c : Dev nD) (t : Fin cfg6.N) (r : Fin 5000) (k : Fin 128) (h : t.val * 5000 + r.val < 50000) :
    iblk6 V c 0 t (ix2 r k) = arr6_0 V c (ix2 ⟨t.val * 5000 + r.val, h⟩ k) := by
  unfold iblk6
  rw [View.read_apply]
  show V c (Pipeline.arrRef spec6 0) _ = V c (Pipeline.arrRef spec6 0) _
  congr 1
  funext a
  apply Fin.ext
  match a with
  | ⟨0, _⟩ => show win6_0.index t 0 * 5000 + 1 * r.val = t.val * 5000 + r.val; rw [(idx6_0 t).1]; omega
  | ⟨1, _⟩ => show win6_0.index t 1 * 128 + 1 * k.val = k.val; rw [(idx6_0 t).2]; omega

set_option maxHeartbeats 400000 in
/-- Entry (r, k) of window 1's tile at point t is entry (5000 t + r, k) of its array. -/
theorem iblk6_1_apply (c : Dev nD) (t : Fin cfg6.N) (r : Fin 5000) (k : Fin 128) (h : t.val * 5000 + r.val < 50000) :
    iblk6 V c 1 t (ix2 r k) = arr6_1 V c (ix2 ⟨t.val * 5000 + r.val, h⟩ k) := by
  unfold iblk6
  rw [View.read_apply]
  show V c (Pipeline.arrRef spec6 1) _ = V c (Pipeline.arrRef spec6 1) _
  congr 1
  funext a
  apply Fin.ext
  match a with
  | ⟨0, _⟩ => show win6_1.index t 0 * 5000 + 1 * r.val = t.val * 5000 + r.val; rw [(idx6_1 t).1]; omega
  | ⟨1, _⟩ => show win6_1.index t 1 * 128 + 1 * k.val = k.val; rw [(idx6_1 t).2]; omega

set_option maxHeartbeats 400000 in
/-- Window 2's block is its whole array at every point. -/
theorem iblk6_2_apply (c : Dev nD) (t : Fin cfg6.N) (k j : Fin 128) :
    iblk6 V c 2 t (ix2 k j) = arr6_2 V c (ix2 k j) := by
  unfold iblk6
  rw [View.read_apply]
  show V c (Pipeline.arrRef spec6 2) _ = V c (Pipeline.arrRef spec6 2) _
  congr 1
  funext a
  apply Fin.ext
  match a with
  | ⟨0, _⟩ => show win6_2.index t 0 * 128 + 1 * k.val = k.val; rw [(idx6_2 t).1]; omega
  | ⟨1, _⟩ => show win6_2.index t 1 * 128 + 1 * j.val = j.val; rw [(idx6_2 t).2]; omega

set_option maxHeartbeats 400000 in
/-- Window 3's block is its whole row at every point. -/
theorem iblk6_3_apply (c : Dev nD) (t : Fin cfg6.N) (j : Fin 128) :
    iblk6 V c 3 t (ix2 (0 : Fin 1) j) = arr6_3 V c (ix2 (0 : Fin 1) j) := by
  unfold iblk6
  rw [View.read_apply]
  show V c (Pipeline.arrRef spec6 3) _ = V c (Pipeline.arrRef spec6 3) _
  congr 1
  funext a
  apply Fin.ext
  match a with
  | ⟨0, _⟩ => show win6_3.index t 0 * 1 + 1 * 0 = 0; rw [(idx6_3 t).1]
  | ⟨1, _⟩ => show win6_3.index t 1 * 128 + 1 * j.val = j.val; rw [(idx6_3 t).2]; omega

set_option maxHeartbeats 400000 in
/-- Window 4's block is its whole array at every point. -/
theorem iblk6_4_apply (c : Dev nD) (t : Fin cfg6.N) (k j : Fin 128) :
    iblk6 V c 4 t (ix2 k j) = arr6_4 V c (ix2 k j) := by
  unfold iblk6
  rw [View.read_apply]
  show V c (Pipeline.arrRef spec6 4) _ = V c (Pipeline.arrRef spec6 4) _
  congr 1
  funext a
  apply Fin.ext
  match a with
  | ⟨0, _⟩ => show win6_4.index t 0 * 128 + 1 * k.val = k.val; rw [(idx6_4 t).1]; omega
  | ⟨1, _⟩ => show win6_4.index t 1 * 128 + 1 * j.val = j.val; rw [(idx6_4 t).2]; omega

set_option maxHeartbeats 400000 in
/-- Window 5's block is its whole row at every point. -/
theorem iblk6_5_apply (c : Dev nD) (t : Fin cfg6.N) (j : Fin 128) :
    iblk6 V c 5 t (ix2 (0 : Fin 1) j) = arr6_5 V c (ix2 (0 : Fin 1) j) := by
  unfold iblk6
  rw [View.read_apply]
  show V c (Pipeline.arrRef spec6 5) _ = V c (Pipeline.arrRef spec6 5) _
  congr 1
  funext a
  apply Fin.ext
  match a with
  | ⟨0, _⟩ => show win6_5.index t 0 * 1 + 1 * 0 = 0; rw [(idx6_5 t).1]
  | ⟨1, _⟩ => show win6_5.index t 1 * 128 + 1 * j.val = j.val; rw [(idx6_5 t).2]; omega

/-! ## The tile the body stores is a tile of the linear part -/

/-- The linear part of the layer over the whole arrays the region finds: aggregated messages times the first weights,
    plus the first bias, plus node features times the second weights, plus the second bias. -/
abbrev X6 (c : Dev nD) : Cert.Spec.Mat :=
  Cert.Spec.lin (fun i k => arr6_0 V c (ix2 i k)) (fun i k => arr6_1 V c (ix2 i k)) (fun k j => arr6_2 V c (ix2 k j))
    (fun k j => arr6_4 V c (ix2 k j)) (fun j => arr6_3 V c (ix2 (0 : Fin 1) j)) (fun j => arr6_5 V c (ix2 (0 : Fin 1) j))

set_option maxHeartbeats 800000 in
/-- What the body computes from the six blocks of point t, at row r and lane j, is the linear part at row 5000 t + r. -/
theorem pay6_blocks6 (c : Dev nD) (t : Fin cfg6.N) (r : Fin 5000) (j : Fin 128) (h : t.val * 5000 + r.val < 50000) :
    k6_pay6 (F := Ideal) (iblk6 V c 0 t) (iblk6 V c 1 t) (iblk6 V c 2 t) (iblk6 V c 4 t) (iblk6 V c 3 t) (iblk6 V c 5 t) (ix2 r j)
      = X6 V c ⟨t.val * 5000 + r.val, h⟩ j := by
  rw [Cert.KernelIdeal.PayValue.k6_pay6_apply]
  simp only [iblk6_0_apply V c t r _ h, iblk6_1_apply V c t r _ h, iblk6_2_apply V c t, iblk6_3_apply V c t,
    iblk6_4_apply V c t, iblk6_5_apply V c t]
  rfl

/-! ## Adding the tiles up

A running sum that starts from zero plus the first tile's column sum and grows by each next tile's column sum is,
after point n, the sum over the tiles 0 to n; after the last point that is the sum over all 50000 rows. -/

/-- Column j of Y summed over the 5000 rows of tile t (nothing past the tenth tile). -/
def tileSum6 (Y : Cert.Spec.Mat) (j : Fin 128) (t : ℕ) : EReal :=
  if h : t < 10 then ∑ r : Fin 5000, Y ⟨t * 5000 + r.val, by have := r.isLt; show t * 5000 + r.val < 50000; omega⟩ j else 0

/-- The ten tiles' column sums add up to the column sum over all the rows. -/
theorem tileSum6_total (Y : Cert.Spec.Mat) (j : Fin 128) : ∑ t ∈ Finset.range 10, tileSum6 Y j t = ∑ i, Y i j := by
  rw [Cert.Spec.sum_rows_tiles (fun i => Y i j), Finset.sum_range]
  refine Finset.sum_congr rfl fun t _ => ?_
  unfold tileSum6
  rw [dif_pos t.isLt]

/-- A quantity that is zero plus tile 0's column sum at the first point and grows by tile n + 1's at point n + 1 is,
    at point n, the sum of the column sums of tiles 0 to n. -/
theorem runSum6 {N : ℕ} (Y : Cert.Spec.Mat) (j : Fin 128) (s : (n : ℕ) → n < N → EReal)
    (h0 : ∀ h : 0 < N, s 0 h = 0 + tileSum6 Y j 0)
    (hs : ∀ (n : ℕ) (hn : n + 1 < N), s (n + 1) hn = s n (Nat.lt_of_succ_lt hn) + tileSum6 Y j (n + 1)) :
    ∀ (n : ℕ) (hn : n < N), s n hn = ∑ t ∈ Finset.range (n + 1), tileSum6 Y j t
  | 0, hn => by rw [h0 hn, Finset.sum_range_one, zero_add]
  | n + 1, hn => by rw [hs n hn, runSum6 Y j s h0 hs n (Nat.lt_of_succ_lt hn), Finset.sum_range_succ _ (n + 1)]

/-! ## The two statistics arrays after the run

Outputs 7 and 8 are written back at the last point only, and their one block is the whole 1 by 128 array: after the
run each holds what the body left in its buffer at the last point. -/

/-- The last point. -/
abbrev tLast6 : Fin cfg6.N := t6_9

set_option maxHeartbeats 800000 in
/-- After the run, array 7 holds what the body left for output 7 at the last point, for any proof data. -/
theorem arrAt6_7_of {c : Dev nD} (dat : Dat τ (Elt Ideal) Unit ℕ (UR sig nD τ) ℕ cfg6 c) (j : Fin 128) :
    dat.arrAt 7 cfg6.N (ix2 (0 : Fin 1) j) = dat.after 7 tLast6 (ix2 (0 : Fin 1) j) := by
  have hf : (cfg6.win 7).flush tLast6 = true := (flush6_7 tLast6).mpr (by decide)
  have hone : ∀ t : Fin cfg6.N, (cfg6.win 7).flush t = true → t = tLast6 := fun t ht => by
    have h9 := (flush6_7 t).mp ht
    have hN : t.val < 10 := lt_of_lt_of_eq t.isLt N_6
    exact Fin.ext (by show t.val = 9; omega)
  have h := dat.arrAt_emb_eq_flushed 7 (fun t t' ht ht' hne => absurd ((hone t ht).trans (hone t' ht').symm) hne) tLast6 hf (ix2 (0 : Fin 1) j)
  refine Eq.trans ?_ (h.trans ?_)
  · show dat.arrAt 7 cfg6.N _ = dat.arrAt 7 cfg6.N _
    congr 1
    funext a
    apply Fin.ext
    match a with
    | ⟨0, _⟩ => rfl
    | ⟨1, _⟩ => show j.val = win6_7.index tLast6 1 * 128 + 1 * j.val; rw [show win6_7.index tLast6 1 = 0 from by decide +kernel]; omega
  · rfl

set_option maxHeartbeats 800000 in
/-- After the run, array 8 holds what the body left for output 8 at the last point, for any proof data. -/
theorem arrAt6_8_of {c : Dev nD} (dat : Dat τ (Elt Ideal) Unit ℕ (UR sig nD τ) ℕ cfg6 c) (j : Fin 128) :
    dat.arrAt 8 cfg6.N (ix2 (0 : Fin 1) j) = dat.after 8 tLast6 (ix2 (0 : Fin 1) j) := by
  have hf : (cfg6.win 8).flush tLast6 = true := (flush6_8 tLast6).mpr (by decide)
  have hone : ∀ t : Fin cfg6.N, (cfg6.win 8).flush t = true → t = tLast6 := fun t ht => by
    have h9 := (flush6_8 t).mp ht
    have hN : t.val < 10 := lt_of_lt_of_eq t.isLt N_6
    exact Fin.ext (by show t.val = 9; omega)
  have h := dat.arrAt_emb_eq_flushed 8 (fun t t' ht ht' hne => absurd ((hone t ht).trans (hone t' ht').symm) hne) tLast6 hf (ix2 (0 : Fin 1) j)
  refine Eq.trans ?_ (h.trans ?_)
  · show dat.arrAt 8 cfg6.N _ = dat.arrAt 8 cfg6.N _
    congr 1
    funext a
    apply Fin.ext
    match a with
    | ⟨0, _⟩ => rfl
    | ⟨1, _⟩ => show j.val = win6_8.index tLast6 1 * 128 + 1 * j.val; rw [show win6_8.index tLast6 1 = 0 from by decide +kernel]; omega
  · rfl

/-! ## The accumulation over the grid

Stated for any point-indexed tuple (output tile, mean row, variance row, running sum, running sum of squares) that
satisfies the step equations: the tile is the body's tile of the point's six blocks; the running sum starts from the
zero row and grows by the tile's column sums; the running sum of squares likewise by the squares; at the last point
the mean row and the variance row are computed from the two running sums. -/

/-- The six blocks of point t, in the order the body's tile takes them. -/
abbrev tileOf6 (c : Dev nD) (t : Fin cfg6.N) : FVec Ideal S5000x128 .f32 :=
  k6_pay6 (F := Ideal) (iblk6 V c 0 t) (iblk6 V c 1 t) (iblk6 V c 2 t) (iblk6 V c 4 t) (iblk6 V c 3 t) (iblk6 V c 5 t)

/-- The squares of the linear part. -/
abbrev XX6 (c : Dev nD) : Cert.Spec.Mat := fun i j => X6 V c i j * X6 V c i j

/-- The step equations. -/
structure Steps6 (c : Dev nD)
    (T : (n : ℕ) → n < cfg6.N → Vec Ideal S5000x128 .f32 × Vec Ideal S1x128 .f32 × Vec Ideal S1x128 .f32 × Vec Ideal S1x128 .f32 × Vec Ideal S1x128 .f32) : Prop where
  tile : ∀ t : Fin cfg6.N, (T t.val t.isLt).1 = tileOf6 V c t
  sum0 : ∀ h : 0 < cfg6.N, (T 0 h).2.2.2.1
    = k6_pay7 (F := Ideal) (iblk6 V c 0 ⟨0, h⟩) (iblk6 V c 1 ⟨0, h⟩) (iblk6 V c 2 ⟨0, h⟩) (iblk6 V c 4 ⟨0, h⟩) (iblk6 V c 3 ⟨0, h⟩) (iblk6 V c 5 ⟨0, h⟩) (k6_pay4 (F := Ideal))
  sumS : ∀ (n : ℕ) (hn : n + 1 < cfg6.N), (T (n + 1) hn).2.2.2.1
    = k6_pay7 (F := Ideal) (iblk6 V c 0 ⟨n + 1, hn⟩) (iblk6 V c 1 ⟨n + 1, hn⟩) (iblk6 V c 2 ⟨n + 1, hn⟩) (iblk6 V c 4 ⟨n + 1, hn⟩) (iblk6 V c 3 ⟨n + 1, hn⟩) (iblk6 V c 5 ⟨n + 1, hn⟩) (T n (Nat.lt_of_succ_lt hn)).2.2.2.1
  sq0 : ∀ h : 0 < cfg6.N, (T 0 h).2.2.2.2 = k6_pay1 (F := Ideal) (T 0 h).1 (k6_pay5 (F := Ideal))
  sqS : ∀ (n : ℕ) (hn : n + 1 < cfg6.N), (T (n + 1) hn).2.2.2.2 = k6_pay1 (F := Ideal) (T (n + 1) hn).1 (T n (Nat.lt_of_succ_lt hn)).2.2.2.2
  mean : ∀ t : Fin cfg6.N, t.val = 9 → (T t.val t.isLt).2.1 = k6_pay2 (F := Ideal) (T t.val t.isLt).2.2.2.1
  var : ∀ t : Fin cfg6.N, t.val = 9 →
    (T t.val t.isLt).2.2.1 = k6_pay3 (F := Ideal) (T t.val t.isLt).2.2.2.1 (T t.val t.isLt).2.2.2.2

/-- The running sum's step at lane j: the row before plus tile t's column sum of the linear part. -/
theorem paySum6 (c : Dev nD) (t : Fin cfg6.N) (j : Fin 128) (s : FVec Ideal S1x128 .f32) :
    k6_pay7 (F := Ideal) (iblk6 V c 0 t) (iblk6 V c 1 t) (iblk6 V c 2 t) (iblk6 V c 4 t) (iblk6 V c 3 t) (iblk6 V c 5 t) s (ix2 (0 : Fin 1) j)
      = s (ix2 (0 : Fin 1) j) + tileSum6 (X6 V c) j t.val := by
  rw [Cert.KernelIdeal.PayValue.k6_pay7_apply]
  congr 1
  unfold tileSum6
  rw [dif_pos (lt_of_lt_of_eq t.isLt N_6)]
  exact Finset.sum_congr rfl fun r _ => pay6_blocks6 V c t r j _

/-- The running sum of squares' step at lane j, for a tile that is the linear part's tile t. -/
theorem paySq6 (c : Dev nD) (t : Fin cfg6.N) (j : Fin 128) (v : FVec Ideal S5000x128 .f32) (q : FVec Ideal S1x128 .f32)
    (hv : ∀ (r : Fin 5000) (h : t.val * 5000 + r.val < 50000), v (ix2 r j) = X6 V c ⟨t.val * 5000 + r.val, h⟩ j) :
    k6_pay1 (F := Ideal) v q (ix2 (0 : Fin 1) j) = q (ix2 (0 : Fin 1) j) + tileSum6 (XX6 V c) j t.val := by
  rw [Cert.KernelIdeal.PayValue.k6_pay1_apply]
  congr 1
  unfold tileSum6
  rw [dif_pos (lt_of_lt_of_eq t.isLt N_6)]
  exact Finset.sum_congr rfl fun r _ => by rw [hv r _]

section Accumulate

variable {c : Dev nD}
  {T : (n : ℕ) → n < cfg6.N → Vec Ideal S5000x128 .f32 × Vec Ideal S1x128 .f32 × Vec Ideal S1x128 .f32 × Vec Ideal S1x128 .f32 × Vec Ideal S1x128 .f32}

/-- (a) The output tile at point t, row r, lane j is the linear part at row 5000 t + r. -/
theorem Steps6.tile_apply (H : Steps6 V c T) (t : Fin cfg6.N) (r : Fin 5000) (j : Fin 128) (h : t.val * 5000 + r.val < 50000) :
    (T t.val t.isLt).1 (ix2 r j) = X6 V c ⟨t.val * 5000 + r.val, h⟩ j := by
  rw [H.tile t]; exact pay6_blocks6 V c t r j h

/-- (b) After point n the running sum at lane j is the linear part's column j summed over tiles 0 to n. -/
theorem Steps6.sum_apply (H : Steps6 V c T) (n : ℕ) (hn : n < cfg6.N) (j : Fin 128) :
    (T n hn).2.2.2.1 (ix2 (0 : Fin 1) j) = ∑ t ∈ Finset.range (n + 1), tileSum6 (X6 V c) j t :=
  runSum6 (X6 V c) j (fun n hn => (T n hn).2.2.2.1 (ix2 (0 : Fin 1) j))
    (fun h => by
      show (T 0 h).2.2.2.1 (ix2 (0 : Fin 1) j) = _
      rw [H.sum0 h, paySum6 V c ⟨0, h⟩ j, Cert.KernelIdeal.PayValue.k6_pay4_eq])
    (fun n hn => by
      show (T (n + 1) hn).2.2.2.1 (ix2 (0 : Fin 1) j) = _
      rw [H.sumS n hn, paySum6 V c ⟨n + 1, hn⟩ j]) n hn

/-- (b) After point n the running sum of squares at lane j is the squares' column j summed over tiles 0 to n. -/
theorem Steps6.sq_apply (H : Steps6 V c T) (n : ℕ) (hn : n < cfg6.N) (j : Fin 128) :
    (T n hn).2.2.2.2 (ix2 (0 : Fin 1) j) = ∑ t ∈ Finset.range (n + 1), tileSum6 (XX6 V c) j t :=
  runSum6 (XX6 V c) j (fun n hn => (T n hn).2.2.2.2 (ix2 (0 : Fin 1) j))
    (fun h => by
      show (T 0 h).2.2.2.2 (ix2 (0 : Fin 1) j) = _
      rw [H.sq0 h, paySq6 V c ⟨0, h⟩ j _ _ (fun r hr => H.tile_apply V ⟨0, h⟩ r j hr), Cert.KernelIdeal.PayValue.k6_pay5_eq])
    (fun n hn => by
      show (T (n + 1) hn).2.2.2.2 (ix2 (0 : Fin 1) j) = _
      rw [H.sqS n hn, paySq6 V c ⟨n + 1, hn⟩ j _ _ (fun r hr => H.tile_apply V ⟨n + 1, hn⟩ r j hr)]) n hn

/-- (c) After the last point the running sum is the column sum over all the rows (the last point is given with the
    fact that it is the last, never as a numeral), -/
theorem Steps6.sum_last (H : Steps6 V c T) (t : Fin cfg6.N) (h9 : t.val = 9) (j : Fin 128) :
    (T t.val t.isLt).2.2.2.1 (ix2 (0 : Fin 1) j) = ∑ i, X6 V c i j := by
  obtain ⟨n, hn⟩ := t
  obtain rfl : n = 9 := h9
  exact (H.sum_apply V 9 hn j).trans (tileSum6_total _ j)

/-- and the running sum of squares the column sum of the squares. -/
theorem Steps6.sq_last (H : Steps6 V c T) (t : Fin cfg6.N) (h9 : t.val = 9) (j : Fin 128) :
    (T t.val t.isLt).2.2.2.2 (ix2 (0 : Fin 1) j) = ∑ i, X6 V c i j * X6 V c i j := by
  obtain ⟨n, hn⟩ := t
  obtain rfl : n = 9 := h9
  exact (H.sq_apply V 9 hn j).trans (tileSum6_total _ j)

/-- (c) The mean row stored at the last point is the linear part's column mean, -/
theorem Steps6.mean_apply (H : Steps6 V c T) (t : Fin cfg6.N) (h9 : t.val = 9) (j : Fin 128) :
    (T t.val t.isLt).2.1 (ix2 (0 : Fin 1) j) = Cert.Spec.colMean (X6 V c) j := by
  rw [H.mean t h9, Cert.KernelIdeal.PayValue.k6_pay2_apply, H.sum_last V t h9 j]; rfl

/-- and the variance row the mean of its squares minus the squared mean. -/
theorem Steps6.var_apply (H : Steps6 V c T) (t : Fin cfg6.N) (h9 : t.val = 9) (j : Fin 128) :
    (T t.val t.isLt).2.2.1 (ix2 (0 : Fin 1) j) = Cert.Spec.varSq (X6 V c) j := by
  rw [H.var t h9, Cert.KernelIdeal.PayValue.k6_pay3_apply, H.sum_last V t h9 j, H.sq_last V t h9 j]; rfl

end Accumulate

end Regions

end Cert.KernelIdeal.Hand

end
-- ==== Proof.KI.StatsSums6.lean ====
/-
  Kernel region 6 on the extended reals: the mean and variance arrays after the run.

  What the region's buffers hold after each grid point satisfies the step equations of the walk over the ten row
  tiles, so the arithmetic done once for any such contents applies: the output tile at point t is the linear part's
  rows 5000 t to 5000 t + 4999, and after the run the mean array holds, lane by lane, the column mean of the linear
  part of the layer over all 50000 rows, and the variance array its mean of squares minus its squared mean.
-/
import proofs.«162849_j29643864277577_1_alg».proof.Proof.KI.StatsPieces6
import proofs.«162849_j29643864277577_1_alg».proof.Proof.KI.StatsSumsCore6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-- What the buffers hold after each point satisfies the step equations. -/
theorem steps6 (c : Dev nD) : Steps6 V c (outsAt6 V c) where
  tile := hnewTile6 V c
  sum0 := scr6_zero0 V c
  sumS := scr6_succ0 V c
  sq0 := sq6_zero0 V c
  sqS := sq6_succ0 V c
  mean := meanRow6 V c
  var := varRow6 V c

/-- The output tile at point t, row r, lane j is the linear part at row 5000 t + r. -/
theorem hnew6_apply (c : Dev nD) (t : Fin cfg6.N) (r : Fin 5000) (j : Fin 128) (h : t.val * 5000 + r.val < 50000) :
    (outsAt6 V c t.val t.isLt).1 (ix2 r j) = X6 V c ⟨t.val * 5000 + r.val, h⟩ j :=
  (steps6 V c).tile_apply V t r j h

/-- After the run the mean array holds the column mean of the linear part. -/
theorem mean6_arr (c : Dev nD) (j : Fin 128) :
    (dat6 (F := Ideal) V c).arrAt 7 cfg6.N (ix2 (0 : Fin 1) j) = Cert.Spec.colMean (X6 V c) j := by
  rw [arrAt6_7_of (dat6 V c) j, after6_7]
  exact (steps6 V c).mean_apply V tLast6 rfl j

/-- After the run the variance array holds the linear part's mean of squares minus its squared mean. -/
theorem var6_arr (c : Dev nD) (j : Fin 128) :
    (dat6 (F := Ideal) V c).arrAt 8 cfg6.N (ix2 (0 : Fin 1) j) = Cert.Spec.varSq (X6 V c) j := by
  rw [arrAt6_8_of (dat6 V c) j, after6_8]
  exact (steps6 V c).var_apply V tLast6 rfl j

end Regions

end Cert.KernelIdeal.Hand

end
-- ==== Proof.KI.StatsArr8.lean ====
import proofs.«162849_j29643864277577_1_alg».proof.Proof.KI.Stats8
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 8: the six arrays it reads, as it finds them

The region reads six arrays: the aggregated messages and the node features (50000 rows of 128 features each), the
two weight matrices (128 by 128) and the two bias rows (1 by 128). Each is named here at its own vector type, at
the contents `V` the region finds in the core's buffers, so that statements about their entries can add and
multiply them as extended reals. -/

section Regions

variable (V : (c : Dev nD) → (b : Ref sig .tc) → Buf (Elt Ideal) ((c : Thread nD τ).loc b))

/-- The aggregated messages (window 0's array). -/
abbrev arr8_0 (c : Dev nD) : FVec Ideal S50000x128 .f32 := V c (Pipeline.arrRef spec8 0)
/-- The node features (window 1's array). -/
abbrev arr8_1 (c : Dev nD) : FVec Ideal S50000x128 .f32 := V c (Pipeline.arrRef spec8 1)
/-- The weights applied to the aggregated messages (window 2's array). -/
abbrev arr8_2 (c : Dev nD) : FVec Ideal S128x128 .f32 := V c (Pipeline.arrRef spec8 2)
/-- The bias row added after the first product (window 3's array). -/
abbrev arr8_3 (c : Dev nD) : FVec Ideal S1x128 .f32 := V c (Pipeline.arrRef spec8 3)
/-- The weights applied to the node features (window 4's array). -/
abbrev arr8_4 (c : Dev nD) : FVec Ideal S128x128 .f32 := V c (Pipeline.arrRef spec8 4)
/-- The bias row added last (window 5's array). -/
abbrev arr8_5 (c : Dev nD) : FVec Ideal S1x128 .f32 := V c (Pipeline.arrRef spec8 5)

end Regions

end Cert.KernelIdeal.Hand

end
-- ==== Proof.KI.StatsHnew8.lean ====
import proofs.«162849_j29643864277577_1_alg».proof.Proof.KI.StatsArr8
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Kernel region 8: what it leaves in its first output array

The region's body stores, at grid point `t`, one 5000-row tile of the layer's linear part: the tile of the aggregated
messages times the first weight matrix, plus the first bias row, plus the tile of the node features times the second
weight matrix, plus the second bias row. The pipeline writes that tile back at every point, to rows 5000 t … 5000 t +
4999 of the output array, and the ten tiles fill the array's 50000 rows. So after the region the array holds, at every
row `i` and lane `j`,

    ((∑ k, agg i k · W_rel k j) + b_rel j) + (∑ k, h i k · W_root k j) + b_root j ,

the specification's `lin` of the six arrays the region reads, as it finds them.

The steps: where each window's block sits at a point (decided over the ten points); each input block read off its
array entry by entry; the stored tile at one entry as `lin` at the entry's place in the array; hence the block a point
writes back is its block of the one whole-array function; the ten blocks cover every index; so the array is that
function. Everything up to the last statement is for any proof data of the region's pipeline whose body leaves the
stored tile in the output's buffer. -/

open Idealize.ShloMosaic.ValueIdx

section Regions
variable (V : (c : Dev nD) → (b : Ref sig .tc) → Buf (Elt Ideal) ((c : Thread nD τ).loc b))

/-! ## Where each window's block sits -/

/-- The printed index maps, decided once over the ten grid points: the two row tiles and the output tile sit at
    block row `t`, block column 0; the weights and the bias rows are whole, at block (0, 0). -/
theorem idx_facts8 : ∀ t : Fin cfg8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = 0 ∧ win8_5.index t (1 : Fin 2) = 0)
    ∧ (win8_6.index t (0 : Fin 2) = t.val ∧ win8_6.index t (1 : Fin 2) = 0) :=
  (by decide +kernel : ∀ t : Fin grid8.N, _)

/-! ## Each input block, read off its array -/

/-- Row tile `t` of the aggregated messages: its entry (r, k) is the array's entry (5000 t + r, k). -/
theorem iblk8_0_at (c : Dev nD) (t : Fin cfg8.N) (p : S5000x128.Idx) (q : S50000x128.Idx)
    (h0 : (q 0).val = t.val * 5000 + (p 0).val) (h1 : (q 1).val = (p 1).val) :
    (iblk8 V c 0 t : FVec Ideal S5000x128 .f32) p = arr8_0 V c q := by
  obtain ⟨e0, e1⟩ := (idx_facts8 t).1
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 5000 + 1 * (p 0).val = (q 0).val; rw [e0, h0]; omega
  | ⟨1, _⟩ => show win8_0.index t (1 : Fin 2) * 128 + 1 * (p 1).val = (q 1).val; rw [e1, h1]; omega

/-- Row tile `t` of the node features: its entry (r, k) is the array's entry (5000 t + r, k). -/
theorem iblk8_1_at (c : Dev nD) (t : Fin cfg8.N) (p : S5000x128.Idx) (q : S50000x128.Idx)
    (h0 : (q 0).val = t.val * 5000 + (p 0).val) (h1 : (q 1).val = (p 1).val) :
    (iblk8 V c 1 t : FVec Ideal S5000x128 .f32) p = arr8_1 V c q := by
  obtain ⟨e0, e1⟩ := (idx_facts8 t).2.1
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 5000 + 1 * (p 0).val = (q 0).val; rw [e0, h0]; omega
  | ⟨1, _⟩ => show win8_1.index t (1 : Fin 2) * 128 + 1 * (p 1).val = (q 1).val; rw [e1, h1]; omega

/-- The first weight matrix comes in whole: its block at every point is the array. -/
theorem iblk8_2_at (c : Dev nD) (t : Fin cfg8.N) (p : S128x128.Idx) :
    (iblk8 V c 2 t : FVec Ideal S128x128 .f32) p = arr8_2 V c p := by
  obtain ⟨e0, e1⟩ := (idx_facts8 t).2.2.1
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 128 + 1 * (p 0).val = (p 0).val; rw [e0]; omega
  | ⟨1, _⟩ => show win8_2.index t (1 : Fin 2) * 128 + 1 * (p 1).val = (p 1).val; rw [e1]; omega

/-- The first bias row comes in whole: its block at every point is the array. -/
theorem iblk8_3_at (c : Dev nD) (t : Fin cfg8.N) (p : S1x128.Idx) :
    (iblk8 V c 3 t : FVec Ideal S1x128 .f32) p = arr8_3 V c p := by
  obtain ⟨e0, e1⟩ := (idx_facts8 t).2.2.2.1
  unfold iblk8
  rw [View.read_apply]
  show V c (Pipeline.arrRef spec8 3) _ = V c (Pipeline.arrRef spec8 3) _
  congr 1
  funext a
  apply Fin.ext
  match a with
  | ⟨0, _⟩ => show win8_3.index t (0 : Fin 2) * 1 + 1 * (p 0).val = (p 0).val; rw [e0]; omega
  | ⟨1, _⟩ => show win8_3.index t (1 : Fin 2) * 128 + 1 * (p 1).val = (p 1).val; rw [e1]; omega

/-- The second weight matrix comes in whole: its block at every point is the array. -/
theorem iblk8_4_at (c : Dev nD) (t : Fin cfg8.N) (p : S128x128.Idx) :
    (iblk8 V c 4 t : FVec Ideal S128x128 .f32) p = arr8_4 V c p := by
  obtain ⟨e0, e1⟩ := (idx_facts8 t).2.2.2.2.1
  unfold iblk8
  rw [View.read_apply]
  show V c (Pipeline.arrRef spec8 4) _ = V c (Pipeline.arrRef spec8 4) _
  congr 1
  funext a
  apply Fin.ext
  match a with
  | ⟨0, _⟩ => show win8_4.index t (0 : Fin 2) * 128 + 1 * (p 0).val = (p 0).val; rw [e0]; omega
  | ⟨1, _⟩ => show win8_4.index t (1 : Fin 2) * 128 + 1 * (p 1).val = (p 1).val; rw [e1]; omega

/-- The second bias row comes in whole: its block at every point is the array. -/
theorem iblk8_5_at (c : Dev nD) (t : Fin cfg8.N) (p : S1x128.Idx) :
    (iblk8 V c 5 t : FVec Ideal S1x128 .f32) p = arr8_5 V c p := by
  obtain ⟨e0, e1⟩ := (idx_facts8 t).2.2.2.2.2.1
  unfold iblk8
  rw [View.read_apply]
  show V c (Pipeline.arrRef spec8 5) _ = V c (Pipeline.arrRef spec8 5) _
  congr 1
  funext a
  apply Fin.ext
  match a with
  | ⟨0, _⟩ => show win8_5.index t (0 : Fin 2) * 1 + 1 * (p 0).val = (p 0).val; rw [e0]; omega
  | ⟨1, _⟩ => show win8_5.index t (1 : Fin 2) * 128 + 1 * (p 1).val = (p 1).val; rw [e1]; omega

/-! ## The tile the body stores, entry by entry -/

/-- The stored tile at row `r`, lane `j`, when the tile's operand rows are rows `i` of two tall arrays and its
    weights and bias rows are those of four small arrays: the linear part of the layer at (i, j), its four terms added
    in the body's order. -/
theorem lin_tile8_at (A H : FVec Ideal S50000x128 .f32) (Wr Wo : FVec Ideal S128x128 .f32) (Br Bo : FVec Ideal S1x128 .f32)
    (x a : FVec Ideal S5000x128 .f32) (wr wo : FVec Ideal S128x128 .f32) (br bo : FVec Ideal S1x128 .f32)
    (r : Fin 5000) (j : Fin 128) (i : Fin 50000)
    (hx : ∀ k : Fin 128, x (ix2 r k) = A (ix2 i k)) (ha : ∀ k : Fin 128, a (ix2 r k) = H (ix2 i k))
    (hwr : ∀ k : Fin 128, wr (ix2 k j) = Wr (ix2 k j)) (hwo : ∀ k : Fin 128, wo (ix2 k j) = Wo (ix2 k j))
    (hbr : br (ix2 (0 : Fin 1) j) = Br (ix2 (0 : Fin 1) j)) (hbo : bo (ix2 (0 : Fin 1) j) = Bo (ix2 (0 : Fin 1) j)) :
    k8_pay6 (F := Ideal) x a wr wo br bo (ix2 r j)
      = Cert.Spec.lin (fun i k => A (ix2 i k)) (fun i k => H (ix2 i k)) (fun k j => Wr (ix2 k j)) (fun k j => Wo (ix2 k j))
          (fun j => Br (ix2 (0 : Fin 1) j)) (fun j => Bo (ix2 (0 : Fin 1) j)) i j := by
  rw [Cert.KernelIdeal.PayValue.k8_pay6_apply]
  unfold Cert.Spec.lin
  simp only [hx, ha, hwr, hwo, hbr, hbo]

/-! ## The whole output array -/

/-- What the output array ends holding: the linear part of the layer, of the six arrays as the region finds them. -/
abbrev hnewArr8 (c : Dev nD) : FVec Ideal S50000x128 .f32 := fun q =>
  Cert.Spec.lin (fun i k => arr8_0 V c (ix2 i k)) (fun i k => arr8_1 V c (ix2 i k)) (fun k j => arr8_2 V c (ix2 k j))
    (fun k j => arr8_4 V c (ix2 k j)) (fun j => arr8_3 V c (ix2 0 j)) (fun j => arr8_5 V c (ix2 0 j)) (q 0) (q 1)

/-- What point `t` writes back is block `t` of that array: rows 5000 t … 5000 t + 4999, every lane. Stated for any
    proof data of the region's pipeline whose body leaves in the output's buffer the stored tile of the point's
    input blocks. -/
theorem hnew8_flushed_of {c : Dev nD} (dat : Dat τ (Elt Ideal) Unit ℕ (UR sig nD τ) ℕ cfg8 c)
    (hafter : ∀ t : Fin cfg8.N, dat.after 6 t = k8_pay6 (iblk8 V c 0 t) (iblk8 V c 1 t) (iblk8 V c 2 t) (iblk8 V c 4 t) (iblk8 V c 3 t) (iblk8 V c 5 t))
    (t : Fin cfg8.N) :
    dat.flushed 6 t = ((cfg8.win 6).blk t).view.read (Elt Ideal) (hnewArr8 V c) := by
  show (cfg8.win 6).cut (grid8.coords t) (dat.after 6 t) = _
  rw [hafter]
  funext y
  have hy0 : (y 0).val < 5000 := (y 0).isLt
  have hy1 : (y 1).val < 128 := (y 1).isLt
  have ht : t.val < 10 := t.isLt
  obtain ⟨e0, e1⟩ := (idx_facts8 t).2.2.2.2.2.2
  have hin : (cfg8.win 6).xinj (grid8.coords t) y = (ix2 (⟨(y 0).val, hy0⟩ : Fin 5000) (⟨(y 1).val, hy1⟩ : Fin 128) : S5000x128.Idx) := by
    funext a
    match a with
    | ⟨0, _⟩ => rfl
    | ⟨1, _⟩ => rfl
  have hemb : ((cfg8.win 6).blk t).view.emb y = (ix2 (⟨t.val * 5000 + (y 0).val, by omega⟩ : Fin 50000) (⟨(y 1).val, hy1⟩ : Fin 128) : S50000x128.Idx) := by
    funext a
    apply Fin.ext
    match a with
    | ⟨0, _⟩ => show win8_6.index t (0 : Fin 2) * 5000 + 1 * (y 0).val = t.val * 5000 + (y 0).val; rw [e0]; omega
    | ⟨1, _⟩ => show win8_6.index t (1 : Fin 2) * 128 + 1 * (y 1).val = (y 1).val; rw [e1]; omega
  show k8_pay6 (F := Ideal) (iblk8 V c 0 t) (iblk8 V c 1 t) (iblk8 V c 2 t) (iblk8 V c 4 t) (iblk8 V c 3 t) (iblk8 V c 5 t) ((cfg8.win 6).xinj (grid8.coords t) y)
      = hnewArr8 V c (((cfg8.win 6).blk t).view.emb y)
  rw [hin, hemb]
  exact lin_tile8_at (arr8_0 V c) (arr8_1 V c) (arr8_2 V c) (arr8_4 V c) (arr8_3 V c) (arr8_5 V c)
    (iblk8 V c 0 t) (iblk8 V c 1 t) (iblk8 V c 2 t) (iblk8 V c 4 t) (iblk8 V c 3 t) (iblk8 V c 5 t)
    ⟨(y 0).val, hy0⟩ ⟨(y 1).val, hy1⟩ ⟨t.val * 5000 + (y 0).val, by omega⟩
    (fun k => iblk8_0_at V c t (ix2 ⟨(y 0).val, hy0⟩ k) (ix2 ⟨t.val * 5000 + (y 0).val, by omega⟩ k) rfl rfl)
    (fun k => iblk8_1_at V c t (ix2 ⟨(y 0).val, hy0⟩ k) (ix2 ⟨t.val * 5000 + (y 0).val, by omega⟩ k) rfl rfl)
    (fun k => iblk8_2_at V c t (ix2 k ⟨(y 1).val, hy1⟩))
    (fun k => iblk8_4_at V c t (ix2 k ⟨(y 1).val, hy1⟩))
    (iblk8_3_at V c t (ix2 (0 : Fin 1) ⟨(y 1).val, hy1⟩))
    (iblk8_5_at V c t (ix2 (0 : Fin 1) ⟨(y 1).val, hy1⟩))

/-! ## The blocks tile the array -/

/-- An index of the array is in point `t`'s block iff each coordinate is in the block's range on its axis. -/
theorem mem_blk8_6 (t : Fin cfg8.N) (i : S50000x128.Idx) :
    i ∈ ((cfg8.win 6).blk t).view.set ↔ ∀ a : Fin 2, win8_6.index t a * S5000x128.size a ≤ (i a).val ∧ (i a).val < win8_6.index t a * S5000x128.size a + S5000x128.size a := by
  show i ∈ ((View.whole (Pipeline.arrRef spec8 6)).slice (win8_6.rect t)).set ↔ _
  rw [View.set_slice_whole, Rect.mem_set_unit]
  exact Iff.rfl

/-- Every index is in some point's block: row `i` is in the block of point `i / 5000`. -/
theorem hnew8_cover (i : S50000x128.Idx) : ∃ t : Fin cfg8.N, (cfg8.win 6).flush t = true ∧ i ∈ ((cfg8.win 6).blk t).view.set := by
  have hi0 : (i 0).val < 50000 := (i 0).isLt
  have hi1 : (i 1).val < 128 := (i 1).isLt
  have hN : cfg8.N = 10 := rfl
  have hlt : (i 0).val / 5000 < cfg8.N := by rw [hN]; omega
  obtain ⟨e0, e1⟩ := (idx_facts8 ⟨(i 0).val / 5000, hlt⟩).2.2.2.2.2.2
  refine ⟨⟨(i 0).val / 5000, hlt⟩, flush8_6 _, ?_⟩
  rw [mem_blk8_6]
  intro a
  match a with
  | ⟨0, _⟩ =>
    show win8_6.index ⟨(i 0).val / 5000, hlt⟩ (0 : Fin 2) * 5000 ≤ (i 0).val ∧ (i 0).val < win8_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win8_6.index ⟨(i 0).val / 5000, hlt⟩ (1 : Fin 2) * 128 ≤ (i 1).val ∧ (i 1).val < win8_6.index ⟨(i 0).val / 5000, hlt⟩ (1 : Fin 2) * 128 + 128
    rw [e1]; omega

/-- So the array ends holding the linear part of the layer everywhere. -/
theorem hnew8_final_of {c : Dev nD} (dat : Dat τ (Elt Ideal) Unit ℕ (UR sig nD τ) ℕ cfg8 c)
    (hafter : ∀ t : Fin cfg8.N, dat.after 6 t = k8_pay6 (iblk8 V c 0 t) (iblk8 V c 1 t) (iblk8 V c 2 t) (iblk8 V c 4 t) (iblk8 V c 3 t) (iblk8 V c 5 t)) :
    dat.arrAt 6 cfg8.N = hnewArr8 V c :=
  dat.arrAt_eq_of_cover 6 (hnewArr8 V c) (fun t _ => hnew8_flushed_of V dat hafter t) hnew8_cover

end Regions

section Regions

variable (V : (c : Dev nD) → (b : Ref sig .tc) → Buf (Elt Ideal) ((c : Thread nD τ).loc b))

/-- THE OUTPUT ARRAY after the region, entry by entry: the linear part of the layer at row `i`, lane `j`, of the
    aggregated messages, the node features, the two weight matrices and the two bias rows as the region finds them —
    given that what the body leaves in the output's buffer at each point is the stored tile of that point's blocks. -/
theorem hnew8_arr (c : Dev nD)
    (hnewTile8 : ∀ t : Fin cfg8.N, (outsAt8 V c t.val t.isLt).1
      = k8_pay6 (iblk8 V c 0 t) (iblk8 V c 1 t) (iblk8 V c 2 t) (iblk8 V c 4 t) (iblk8 V c 3 t) (iblk8 V c 5 t))
    (i : Fin 50000) (j : Fin 128) :
    (dat8 (F := Ideal) V c).arrAt 6 cfg8.N (ix2 i j)
      = Cert.Spec.lin (fun i k => arr8_0 V c (ix2 i k)) (fun i k => arr8_1 V c (ix2 i k)) (fun k j => arr8_2 V c (ix2 k j))
          (fun k j => arr8_4 V c (ix2 k j)) (fun j => arr8_3 V c (ix2 0 j)) (fun j => arr8_5 V c (ix2 0 j)) i j :=
  congrFun (hnew8_final_of V (dat8 V c) (fun t => (after8_6 V c t).trans (hnewTile8 t))) (ix2 i j)

end Regions

end Cert.KernelIdeal.Hand

end
-- ==== Proof.KI.StatsPieces8.lean ====
/-
  Kernel region 8: what the body leaves at each grid point, as the body's own arithmetic.

  The body's stores are found as lists of pieces, one list per buffer. Each list reads back to one closed term over
  what the body loaded: the output tile is the linear part's tile of the six input blocks; the running column sum is
  the row it started the point with (the zero row at the first point, since the reset is read back) plus the tile's
  column sums; the running column sum of squares likewise with the squares; and at the last point the mean row and the
  variance row are computed from the two running sums as just updated, because the body reads them back after storing
  them. From these, by the case of the point, come the equations of the walk over the ten tiles: the tile at every
  point, the two running sums at the first point and at each later one from the point before, and the two statistics
  rows at the last point. Everything here holds for any float arithmetic.
-/
import proofs.«162849_j29643864277577_1_alg».proof.Proof.KI.Stats8
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Per case: the pieces read back to the body's payloads -/

/-- The zero offsets of a whole-buffer load or store, however they are spelt. -/
theorem hz8 : (![0, 0] : Fin 2 → Nat) = fun _ => 0 := funext fun a => by
  match a with
  | ⟨0, _⟩ => rfl
  | ⟨1, _⟩ => rfl

set_option maxHeartbeats 1000000 in
/-- At the first point the body leaves in the output tile the linear part's tile of the six loaded blocks: one store covers the tile, and its loads read the whole input buffers. -/
theorem tile8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) :
    out8_A_6 c i arg1 harg1 arg2 harg2 arg3 harg3 arg4 harg4 arg5 harg5 arg6 harg6 arg7 harg7 arg8 harg8 arg9 harg9 arg10 harg10 arg11 harg11 hc0 hc1 x0 x1 x2 x3 x4 x5 = k8_pay6 x0 x1 x2 x4 x3 x5 := by
  unfold out8_A_6
  rw [View.read_writes_junk_eq_canon]
  unfold kernelRun8_A
  dsimp only
  sl_unfold_words
  rw [View.canon_unit_zero (S := S5000x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the first point the running sum is reset to the zero row, read back, and grown by the tile's column sums. -/
theorem sum8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) :
    sout8_A_0 c i arg1 harg1 arg2 harg2 arg3 harg3 arg4 harg4 arg5 harg5 arg6 harg6 arg7 harg7 arg8 harg8 arg9 harg9 arg10 harg10 arg11 harg11 hc0 hc1 x0 x1 x2 x3 x4 x5 = k8_pay7 x0 x1 x2 x4 x3 x5 (k8_pay4 (F := F)) := by
  unfold sout8_A_0
  rw [View.read_writes_junk_eq_canon]
  unfold kernelRun8_A
  dsimp only
  sl_unfold_words
  rw [View.canon_cons_unit_zero (S := S1x128) hz8, View.readCov_unit_zero (S := S1x128) _ hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the first point the running sum of squares is reset to the zero row, read back, and grown by the column sums of the tile's squares. -/
theorem sq8_A (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) :
    sout8_A_1 c i arg1 harg1 arg2 harg2 arg3 harg3 arg4 harg4 arg5 harg5 arg6 harg6 arg7 harg7 arg8 harg8 arg9 harg9 arg10 harg10 arg11 harg11 hc0 hc1 x0 x1 x2 x3 x4 x5 = k8_pay1 (k8_pay6 x0 x1 x2 x4 x3 x5) (k8_pay5 (F := F)) := by
  unfold sout8_A_1
  rw [View.read_writes_junk_eq_canon]
  unfold kernelRun8_A
  dsimp only
  sl_unfold_words
  rw [View.canon_cons_unit_zero (S := S1x128) hz8, View.readCov_unit_zero (S := S1x128) _ hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At a middle point the body leaves in the output tile the linear part's tile of the six loaded blocks. -/
theorem tile8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out8_B_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay6 x0 x1 x2 x4 x3 x5 := by
  unfold out8_B_6
  rw [View.read_writes_junk_eq_canon]
  unfold kernelRun8_B
  dsimp only
  sl_unfold_words
  rw [View.canon_unit_zero (S := S5000x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At a middle point the running sum the point before left grows by the tile's column sums. -/
theorem sum8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout8_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay7 x0 x1 x2 x4 x3 x5 xs0 := by
  unfold sout8_B_0
  rw [View.read_writes_junk_eq_canon]
  unfold kernelRun8_B
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At a middle point the running sum of squares the point before left grows by the column sums of the tile's squares. -/
theorem sq8_B (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : ¬cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout8_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay1 (k8_pay6 x0 x1 x2 x4 x3 x5) xs1 := by
  unfold sout8_B_1
  rw [View.read_writes_junk_eq_canon]
  unfold kernelRun8_B
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the last point the body leaves in the output tile the linear part's tile of the six loaded blocks. -/
theorem tile8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out8_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay6 x0 x1 x2 x4 x3 x5 := by
  unfold out8_C_6
  rw [View.read_writes_junk_eq_canon]
  unfold kernelRun8_C
  dsimp only
  sl_unfold_words
  rw [View.canon_unit_zero (S := S5000x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the last point the running sum the point before left grows by the tile's column sums. -/
theorem sum8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout8_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay7 x0 x1 x2 x4 x3 x5 xs0 := by
  unfold sout8_C_0
  rw [View.read_writes_junk_eq_canon]
  unfold kernelRun8_C
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the last point the running sum of squares the point before left grows by the column sums of the tile's squares. -/
theorem sq8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    sout8_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay1 (k8_pay6 x0 x1 x2 x4 x3 x5) xs1 := by
  unfold sout8_C_1
  rw [View.read_writes_junk_eq_canon]
  unfold kernelRun8_C
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the last point the mean row is the final running sum, read back, over the number of rows. -/
theorem mean8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out8_C_7 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay2 (k8_pay7 x0 x1 x2 x4 x3 x5 xs0) := by
  unfold out8_C_7
  rw [View.read_writes_junk_eq_canon]
  unfold kernelRun8_C
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

set_option maxHeartbeats 1000000 in
/-- At the last point the variance row is the final running sum of squares, read back, over the number of rows, minus the squared mean. -/
theorem var8_C (c : Dev nD) (i : grid8.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond8_0 i) (hc1 : cond8_1 i)
    (x0 : Vec F S5000x128 .f32) (x1 : Vec F S5000x128 .f32) (x2 : Vec F S128x128 .f32) (x3 : Vec F S1x128 .f32) (x4 : Vec F S128x128 .f32) (x5 : Vec F S1x128 .f32) (xs0 : Vec F S1x128 .f32) (xs1 : Vec F S1x128 .f32) :
    out8_C_8 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 = k8_pay3 (k8_pay7 x0 x1 x2 x4 x3 x5 xs0) (k8_pay1 (k8_pay6 x0 x1 x2 x4 x3 x5) xs1) := by
  unfold out8_C_8
  rw [View.read_writes_junk_eq_canon]
  unfold kernelRun8_C
  dsimp only
  sl_unfold_words
  rw [View.canon_unit_zero (S := S1x128) hz8]
  simp only [View.readAt_eq_ld, harg1.read_unread, harg2.read_unread, harg3.read_unread, harg4.read_unread, harg5.read_unread, harg6.read_unread, harg10.read_unread, harg11.read_unread, View.ld_unit_zero (S := S5000x128) hz8, View.ld_unit_zero (S := S128x128) hz8, View.ld_unit_zero (S := S1x128) hz8, View.readCov_unit_zero (S := S1x128) _ hz8, View.readCov_unit_zero (S := S5000x128) _ hz8]

/-! ## The equations of the walk, about what the buffers hold after each point

By the case of the point: the first point runs the first case, the last point the last, every other the middle one;
each component of the contents is then the case's piece, read above. -/

section Regions

variable (V : (c : Dev nD) → (b : Ref sig .tc) → Buf (Elt F) ((c : Thread nD τ).loc b))

set_option maxHeartbeats 1000000 in
/-- At every point the output tile is the body's tile of the point's six blocks. -/
theorem hnewTile8 (c : Dev nD) (t : Fin cfg8.N) :
    (outsAt8 V c t.val t.isLt).1 = k8_pay6 (iblk8 V c 0 t) (iblk8 V c 1 t) (iblk8 V c 2 t) (iblk8 V c 4 t) (iblk8 V c 3 t) (iblk8 V c 5 t) := by
  by_cases h0 : t.val = 0
  · have h1 : ¬t.val = 9 := by omega
    rw [outsAt8_A V c t h0 h1]; dsimp only
    exact tile8_A c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) ((hcond8_0 t).mpr h0) (fun hh => h1 ((hcond8_1 t).mp hh)) (iblk8 V c 0 t) (iblk8 V c 1 t) (iblk8 V c 2 t) (iblk8 V c 3 t) (iblk8 V c 4 t) (iblk8 V c 5 t)
  · by_cases h1 : t.val = 9
    · rw [outsAt8_C V c t h0 h1]; dsimp only
      exact tile8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2
    · rw [outsAt8_B V c t h0 h1]; dsimp only
      exact tile8_B c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) (fun hh => h1 ((hcond8_1 t).mp hh)) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2

set_option maxHeartbeats 1000000 in
/-- After the first point the running sum is the zero row grown by the first tile's column sums. -/
theorem scr8_zero0 (c : Dev nD) (h : 0 < cfg8.N) :
    (outsAt8 V c 0 h).2.2.2.1 = k8_pay7 (iblk8 V c 0 (⟨0, h⟩ : Fin cfg8.N)) (iblk8 V c 1 (⟨0, h⟩ : Fin cfg8.N)) (iblk8 V c 2 (⟨0, h⟩ : Fin cfg8.N)) (iblk8 V c 4 (⟨0, h⟩ : Fin cfg8.N)) (iblk8 V c 3 (⟨0, h⟩ : Fin cfg8.N)) (iblk8 V c 5 (⟨0, h⟩ : Fin cfg8.N)) (k8_pay4 (F := F)) := by
  have h0 : (⟨0, h⟩ : Fin cfg8.N).val = 0 := rfl
  have h1 : ¬(⟨0, h⟩ : Fin cfg8.N).val = 9 := by show ¬(0 : ℕ) = 9; omega
  show (outsAt8 V c (⟨0, h⟩ : Fin cfg8.N).val (⟨0, h⟩ : Fin cfg8.N).isLt).2.2.2.1 = _
  rw [outsAt8_A V c (⟨0, h⟩ : Fin cfg8.N) h0 h1]; dsimp only
  exact sum8_A c (grid8.coords (⟨0, h⟩ : Fin cfg8.N)) (ms8_0 (⟨0, h⟩ : Fin cfg8.N)) (hs8_0 (⟨0, h⟩ : Fin cfg8.N)) (ms8_1 (⟨0, h⟩ : Fin cfg8.N)) (hs8_1 (⟨0, h⟩ : Fin cfg8.N)) (ms8_2 (⟨0, h⟩ : Fin cfg8.N)) (hs8_2 (⟨0, h⟩ : Fin cfg8.N)) (ms8_3 (⟨0, h⟩ : Fin cfg8.N)) (hs8_3 (⟨0, h⟩ : Fin cfg8.N)) (ms8_4 (⟨0, h⟩ : Fin cfg8.N)) (hs8_4 (⟨0, h⟩ : Fin cfg8.N)) (ms8_5 (⟨0, h⟩ : Fin cfg8.N)) (hs8_5 (⟨0, h⟩ : Fin cfg8.N)) (ms8_6 (⟨0, h⟩ : Fin cfg8.N)) (hs8_6 (⟨0, h⟩ : Fin cfg8.N)) (ms8_7 (⟨0, h⟩ : Fin cfg8.N)) (hs8_7 (⟨0, h⟩ : Fin cfg8.N)) (ms8_8 (⟨0, h⟩ : Fin cfg8.N)) (hs8_8 (⟨0, h⟩ : Fin cfg8.N)) scM8_0 (Memref.isWhole_whole _) scM8_1 (Memref.isWhole_whole _) ((hcond8_0 (⟨0, h⟩ : Fin cfg8.N)).mpr h0) (fun hh => h1 ((hcond8_1 (⟨0, h⟩ : Fin cfg8.N)).mp hh)) (iblk8 V c 0 (⟨0, h⟩ : Fin cfg8.N)) (iblk8 V c 1 (⟨0, h⟩ : Fin cfg8.N)) (iblk8 V c 2 (⟨0, h⟩ : Fin cfg8.N)) (iblk8 V c 3 (⟨0, h⟩ : Fin cfg8.N)) (iblk8 V c 4 (⟨0, h⟩ : Fin cfg8.N)) (iblk8 V c 5 (⟨0, h⟩ : Fin cfg8.N))

set_option maxHeartbeats 1000000 in
/-- After a later point the running sum is the one the point before left, grown by this tile's column sums. -/
theorem scr8_succ0 (c : Dev nD) (n : ℕ) (hn : n + 1 < cfg8.N) :
    (outsAt8 V c (n + 1) hn).2.2.2.1 = k8_pay7 (iblk8 V c 0 (⟨n + 1, hn⟩ : Fin cfg8.N)) (iblk8 V c 1 (⟨n + 1, hn⟩ : Fin cfg8.N)) (iblk8 V c 2 (⟨n + 1, hn⟩ : Fin cfg8.N)) (iblk8 V c 4 (⟨n + 1, hn⟩ : Fin cfg8.N)) (iblk8 V c 3 (⟨n + 1, hn⟩ : Fin cfg8.N)) (iblk8 V c 5 (⟨n + 1, hn⟩ : Fin cfg8.N)) (outsAt8 V c n (Nat.lt_of_succ_lt hn)).2.2.2.1 := by
  have h0 : ¬(⟨n + 1, hn⟩ : Fin cfg8.N).val = 0 := Nat.succ_ne_zero n
  show (outsAt8 V c (⟨n + 1, hn⟩ : Fin cfg8.N).val (⟨n + 1, hn⟩ : Fin cfg8.N).isLt).2.2.2.1 = _
  by_cases h1 : (⟨n + 1, hn⟩ : Fin cfg8.N).val = 9
  · rw [outsAt8_C V c (⟨n + 1, hn⟩ : Fin cfg8.N) h0 h1]; dsimp only
    exact sum8_C c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) (ms8_8 (⟨n + 1, hn⟩ : Fin cfg8.N)) (hs8_8 (⟨n + 1, hn⟩ : Fin cfg8.N)) scM8_0 (Memref.isWhole_whole _) scM8_1 (Memref.isWhole_whole _) (fun hh => h0 ((hcond8_0 (⟨n + 1, hn⟩ : Fin cfg8.N)).mp hh)) ((hcond8_1 (⟨n + 1, hn⟩ : Fin cfg8.N)).mpr h1) (iblk8 V c 0 (⟨n + 1, hn⟩ : Fin cfg8.N)) (iblk8 V c 1 (⟨n + 1, hn⟩ : Fin cfg8.N)) (iblk8 V c 2 (⟨n + 1, hn⟩ : Fin cfg8.N)) (iblk8 V c 3 (⟨n + 1, hn⟩ : Fin cfg8.N)) (iblk8 V c 4 (⟨n + 1, hn⟩ : Fin cfg8.N)) (iblk8 V c 5 (⟨n + 1, hn⟩ : Fin cfg8.N)) (outsAt8 V c ((⟨n + 1, hn⟩ : Fin cfg8.N).val - 1) (Nat.lt_of_le_of_lt (Nat.sub_le _ _) (⟨n + 1, hn⟩ : Fin cfg8.N).isLt)).2.2.2.1 (outsAt8 V c ((⟨n + 1, hn⟩ : Fin cfg8.N).val - 1) (Nat.lt_of_le_of_lt (Nat.sub_le _ _) (⟨n + 1, hn⟩ : Fin cfg8.N).isLt)).2.2.2.2
  · rw [outsAt8_B V c (⟨n + 1, hn⟩ : Fin cfg8.N) h0 h1]; dsimp only
    exact sum8_B c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) (ms8_8 (⟨n + 1, hn⟩ : Fin cfg8.N)) (hs8_8 (⟨n + 1, hn⟩ : Fin cfg8.N)) scM8_0 (Memref.isWhole_whole _) scM8_1 (Memref.isWhole_whole _) (fun hh => h0 ((hcond8_0 (⟨n + 1, hn⟩ : Fin cfg8.N)).mp hh)) (fun hh => h1 ((hcond8_1 (⟨n + 1, hn⟩ : Fin cfg8.N)).mp hh)) (iblk8 V c 0 (⟨n + 1, hn⟩ : Fin cfg8.N)) (iblk8 V c 1 (⟨n + 1, hn⟩ : Fin cfg8.N)) (iblk8 V c 2 (⟨n + 1, hn⟩ : Fin cfg8.N)) (iblk8 V c 3 (⟨n + 1, hn⟩ : Fin cfg8.N)) (iblk8 V c 4 (⟨n + 1, hn⟩ : Fin cfg8.N)) (iblk8 V c 5 (⟨n + 1, hn⟩ : Fin cfg8.N)) (outsAt8 V c ((⟨n + 1, hn⟩ : Fin cfg8.N).val - 1) (Nat.lt_of_le_of_lt (Nat.sub_le _ _) (⟨n + 1, hn⟩ : Fin cfg8.N).isLt)).2.2.2.1 (outsAt8 V c ((⟨n + 1, hn⟩ : Fin cfg8.N).val - 1) (Nat.lt_of_le_of_lt (Nat.sub_le _ _) (⟨n + 1, hn⟩ : Fin cfg8.N).isLt)).2.2.2.2

set_option maxHeartbeats 1000000 in
/-- After the first point the running sum of squares is the zero row grown by the column sums of the first tile's squares. -/
theorem sq8_zero0 (c : Dev nD) (h : 0 < cfg8.N) :
    (outsAt8 V c 0 h).2.2.2.2 = k8_pay1 (outsAt8 V c 0 h).1 (k8_pay5 (F := F)) := by
  have h0 : (⟨0, h⟩ : Fin cfg8.N).val = 0 := rfl
  have h1 : ¬(⟨0, h⟩ : Fin cfg8.N).val = 9 := by show ¬(0 : ℕ) = 9; omega
  have e : (outsAt8 V c 0 h).1 = k8_pay6 (iblk8 V c 0 (⟨0, h⟩ : Fin cfg8.N)) (iblk8 V c 1 (⟨0, h⟩ : Fin cfg8.N)) (iblk8 V c 2 (⟨0, h⟩ : Fin cfg8.N)) (iblk8 V c 4 (⟨0, h⟩ : Fin cfg8.N)) (iblk8 V c 3 (⟨0, h⟩ : Fin cfg8.N)) (iblk8 V c 5 (⟨0, h⟩ : Fin cfg8.N)) := hnewTile8 V c (⟨0, h⟩ : Fin cfg8.N)
  rw [e]
  show (outsAt8 V c (⟨0, h⟩ : Fin cfg8.N).val (⟨0, h⟩ : Fin cfg8.N).isLt).2.2.2.2 = _
  rw [outsAt8_A V c (⟨0, h⟩ : Fin cfg8.N) h0 h1]; dsimp only
  exact sq8_A c (grid8.coords (⟨0, h⟩ : Fin cfg8.N)) (ms8_0 (⟨0, h⟩ : Fin cfg8.N)) (hs8_0 (⟨0, h⟩ : Fin cfg8.N)) (ms8_1 (⟨0, h⟩ : Fin cfg8.N)) (hs8_1 (⟨0, h⟩ : Fin cfg8.N)) (ms8_2 (⟨0, h⟩ : Fin cfg8.N)) (hs8_2 (⟨0, h⟩ : Fin cfg8.N)) (ms8_3 (⟨0, h⟩ : Fin cfg8.N)) (hs8_3 (⟨0, h⟩ : Fin cfg8.N)) (ms8_4 (⟨0, h⟩ : Fin cfg8.N)) (hs8_4 (⟨0, h⟩ : Fin cfg8.N)) (ms8_5 (⟨0, h⟩ : Fin cfg8.N)) (hs8_5 (⟨0, h⟩ : Fin cfg8.N)) (ms8_6 (⟨0, h⟩ : Fin cfg8.N)) (hs8_6 (⟨0, h⟩ : Fin cfg8.N)) (ms8_7 (⟨0, h⟩ : Fin cfg8.N)) (hs8_7 (⟨0, h⟩ : Fin cfg8.N)) (ms8_8 (⟨0, h⟩ : Fin cfg8.N)) (hs8_8 (⟨0, h⟩ : Fin cfg8.N)) scM8_0 (Memref.isWhole_whole _) scM8_1 (Memref.isWhole_whole _) ((hcond8_0 (⟨0, h⟩ : Fin cfg8.N)).mpr h0) (fun hh => h1 ((hcond8_1 (⟨0, h⟩ : Fin cfg8.N)).mp hh)) (iblk8 V c 0 (⟨0, h⟩ : Fin cfg8.N)) (iblk8 V c 1 (⟨0, h⟩ : Fin cfg8.N)) (iblk8 V c 2 (⟨0, h⟩ : Fin cfg8.N)) (iblk8 V c 3 (⟨0, h⟩ : Fin cfg8.N)) (iblk8 V c 4 (⟨0, h⟩ : Fin cfg8.N)) (iblk8 V c 5 (⟨0, h⟩ : Fin cfg8.N))

set_option maxHeartbeats 1000000 in
/-- After a later point the running sum of squares is the one the point before left, grown by the column sums of this tile's squares. -/
theorem sq8_succ0 (c : Dev nD) (n : ℕ) (hn : n + 1 < cfg8.N) :
    (outsAt8 V c (n + 1) hn).2.2.2.2 = k8_pay1 (outsAt8 V c (n + 1) hn).1 (outsAt8 V c n (Nat.lt_of_succ_lt hn)).2.2.2.2 := by
  have h0 : ¬(⟨n + 1, hn⟩ : Fin cfg8.N).val = 0 := Nat.succ_ne_zero n
  have e : (outsAt8 V c (n + 1) hn).1 = k8_pay6 (iblk8 V c 0 (⟨n + 1, hn⟩ : Fin cfg8.N)) (iblk8 V c 1 (⟨n + 1, hn⟩ : Fin cfg8.N)) (iblk8 V c 2 (⟨n + 1, hn⟩ : Fin cfg8.N)) (iblk8 V c 4 (⟨n + 1, hn⟩ : Fin cfg8.N)) (iblk8 V c 3 (⟨n + 1, hn⟩ : Fin cfg8.N)) (iblk8 V c 5 (⟨n + 1, hn⟩ : Fin cfg8.N)) := hnewTile8 V c (⟨n + 1, hn⟩ : Fin cfg8.N)
  rw [e]
  show (outsAt8 V c (⟨n + 1, hn⟩ : Fin cfg8.N).val (⟨n + 1, hn⟩ : Fin cfg8.N).isLt).2.2.2.2 = _
  by_cases h1 : (⟨n + 1, hn⟩ : Fin cfg8.N).val = 9
  · rw [outsAt8_C V c (⟨n + 1, hn⟩ : Fin cfg8.N) h0 h1]; dsimp only
    exact sq8_C c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) (ms8_8 (⟨n + 1, hn⟩ : Fin cfg8.N)) (hs8_8 (⟨n + 1, hn⟩ : Fin cfg8.N)) scM8_0 (Memref.isWhole_whole _) scM8_1 (Memref.isWhole_whole _) (fun hh => h0 ((hcond8_0 (⟨n + 1, hn⟩ : Fin cfg8.N)).mp hh)) ((hcond8_1 (⟨n + 1, hn⟩ : Fin cfg8.N)).mpr h1) (iblk8 V c 0 (⟨n + 1, hn⟩ : Fin cfg8.N)) (iblk8 V c 1 (⟨n + 1, hn⟩ : Fin cfg8.N)) (iblk8 V c 2 (⟨n + 1, hn⟩ : Fin cfg8.N)) (iblk8 V c 3 (⟨n + 1, hn⟩ : Fin cfg8.N)) (iblk8 V c 4 (⟨n + 1, hn⟩ : Fin cfg8.N)) (iblk8 V c 5 (⟨n + 1, hn⟩ : Fin cfg8.N)) (outsAt8 V c ((⟨n + 1, hn⟩ : Fin cfg8.N).val - 1) (Nat.lt_of_le_of_lt (Nat.sub_le _ _) (⟨n + 1, hn⟩ : Fin cfg8.N).isLt)).2.2.2.1 (outsAt8 V c ((⟨n + 1, hn⟩ : Fin cfg8.N).val - 1) (Nat.lt_of_le_of_lt (Nat.sub_le _ _) (⟨n + 1, hn⟩ : Fin cfg8.N).isLt)).2.2.2.2
  · rw [outsAt8_B V c (⟨n + 1, hn⟩ : Fin cfg8.N) h0 h1]; dsimp only
    exact sq8_B c (grid8.coords (⟨n + 1, hn⟩ : Fin cfg8.N)) (ms8_0 (⟨n + 1, hn⟩ : Fin cfg8.N)) (hs8_0 (⟨n + 1, hn⟩ : Fin cfg8.N)) (ms8_1 (⟨n + 1, hn⟩ : Fin cfg8.N)) (hs8_1 (⟨n + 1, hn⟩ : Fin cfg8.N)) (ms8_2 (⟨n + 1, hn⟩ : Fin cfg8.N)) (hs8_2 (⟨n + 1, hn⟩ : Fin cfg8.N)) (ms8_3 (⟨n + 1, hn⟩ : Fin cfg8.N)) (hs8_3 (⟨n + 1, hn⟩ : Fin cfg8.N)) (ms8_4 (⟨n + 1, hn⟩ : Fin cfg8.N)) (hs8_4 (⟨n + 1, hn⟩ : Fin cfg8.N)) (ms8_5 (⟨n + 1, hn⟩ : Fin cfg8.N)) (hs8_5 (⟨n + 1, hn⟩ : Fin cfg8.N)) (ms8_6 (⟨n + 1, hn⟩ : Fin cfg8.N)) (hs8_6 (⟨n + 1, hn⟩ : Fin cfg8.N)) (ms8_7 (⟨n + 1, hn⟩ : Fin cfg8.N)) (hs8_7 (⟨n + 1, hn⟩ : Fin cfg8.N)) (ms8_8 (⟨n + 1, hn⟩ : Fin cfg8.N)) (hs8_8 (⟨n + 1, hn⟩ : Fin cfg8.N)) scM8_0 (Memref.isWhole_whole _) scM8_1 (Memref.isWhole_whole _) (fun hh => h0 ((hcond8_0 (⟨n + 1, hn⟩ : Fin cfg8.N)).mp hh)) (fun hh => h1 ((hcond8_1 (⟨n + 1, hn⟩ : Fin cfg8.N)).mp hh)) (iblk8 V c 0 (⟨n + 1, hn⟩ : Fin cfg8.N)) (iblk8 V c 1 (⟨n + 1, hn⟩ : Fin cfg8.N)) (iblk8 V c 2 (⟨n + 1, hn⟩ : Fin cfg8.N)) (iblk8 V c 3 (⟨n + 1, hn⟩ : Fin cfg8.N)) (iblk8 V c 4 (⟨n + 1, hn⟩ : Fin cfg8.N)) (iblk8 V c 5 (⟨n + 1, hn⟩ : Fin cfg8.N)) (outsAt8 V c ((⟨n + 1, hn⟩ : Fin cfg8.N).val - 1) (Nat.lt_of_le_of_lt (Nat.sub_le _ _) (⟨n + 1, hn⟩ : Fin cfg8.N).isLt)).2.2.2.1 (outsAt8 V c ((⟨n + 1, hn⟩ : Fin cfg8.N).val - 1) (Nat.lt_of_le_of_lt (Nat.sub_le _ _) (⟨n + 1, hn⟩ : Fin cfg8.N).isLt)).2.2.2.2

set_option maxHeartbeats 1000000 in
/-- At a point that is the last one, the mean row is computed from the running sum that point leaves (stated at a
    point given with the fact that it is the last, so that the walk is never unrolled). -/
theorem meanRow8 (c : Dev nD) (t : Fin cfg8.N) (h1 : t.val = 9) :
    (outsAt8 V c t.val t.isLt).2.1 = k8_pay2 (outsAt8 V c t.val t.isLt).2.2.2.1 := by
  have h0 : ¬t.val = 0 := by omega
  rw [outsAt8_C V c t h0 h1]; dsimp only
  exact (mean8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2).trans
    (congrArg k8_pay2 (sum8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2).symm)

set_option maxHeartbeats 1000000 in
/-- At a point that is the last one, the variance row is computed from the two running sums that point leaves. -/
theorem varRow8 (c : Dev nD) (t : Fin cfg8.N) (h1 : t.val = 9) :
    (outsAt8 V c t.val t.isLt).2.2.1 = k8_pay3 (outsAt8 V c t.val t.isLt).2.2.2.1 (outsAt8 V c t.val t.isLt).2.2.2.2 := by
  have h0 : ¬t.val = 0 := by omega
  rw [outsAt8_C V c t h0 h1]; dsimp only
  exact (var8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2).trans
    (congrArg₂ k8_pay3 (sum8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2).symm
      (sq8_C c (grid8.coords t) (ms8_0 t) (hs8_0 t) (ms8_1 t) (hs8_1 t) (ms8_2 t) (hs8_2 t) (ms8_3 t) (hs8_3 t) (ms8_4 t) (hs8_4 t) (ms8_5 t) (hs8_5 t) (ms8_6 t) (hs8_6 t) (ms8_7 t) (hs8_7 t) (ms8_8 t) (hs8_8 t) scM8_0 (Memref.isWhole_whole _) scM8_1 (Memref.isWhole_whole _) (fun hh => h0 ((hcond8_0 t).mp hh)) ((hcond8_1 t).mpr h1) (iblk8 V c 0 t) (iblk8 V c 1 t) (iblk8 V c 2 t) (iblk8 V c 3 t) (iblk8 V c 4 t) (iblk8 V c 5 t) (outsAt8 V c (t.val - 1) (Nat.lt_of_le_of_lt (Nat.sub_le _ _) t.isLt)).2.2.2.1 (outsAt8 V c (t.val - 1) (Nat.lt_of_le_of_lt (Nat.sub_le _ _) t.isLt)).2.2.2.2).symm)

end Regions

end Cert.KernelIdeal.Hand

end
-- ==== Proof.KI.StatsSumsCore8.lean ====
/-
  Kernel region 8 on the extended reals: from the body's step equations to the column statistics.

  The region walks the 50000 rows in ten tiles of 5000. At each tile the body stores the tile of the linear part

      lin i j = ((∑ k, agg i k · Wr k j) + br j) + (∑ k, h i k · Wo k j) + bo j ,

  adds the tile's column sums to a running row that starts from zero, and the column sums of its squares to a second
  one; at the last tile it stores the running sum over 50000 as the mean row and the running sum of squares over 50000
  minus the squared mean as the variance row.

  This module does the arithmetic of that walk once, for any point-indexed tuple of contents that satisfies the step
  equations: (1) entry (r, k) of a row tile at point t is entry (5000 t + r, k) of its array, and the weights and bias
  rows are read whole; (2) so the tile the body computes from the six blocks of point t is, at (r, j), the linear part
  at row 5000 t + r; (3) a row that starts from zero plus tile 0's column sums and grows by each next tile's is, after
  point n, the sum over tiles 0 to n, and after the last point the sum over all the rows; (4) the two statistics arrays,
  written back at the last point only through a block that is the whole row, hold after the run what the body left at
  that point; (5) hence the mean row is the column mean of the linear part and the variance row its mean of squares
  minus its squared mean.
-/
import proofs.«162849_j29643864277577_1_alg».proof.Proof.KI.Stats8Runs
import proofs.«162849_j29643864277577_1_alg».proof.Proof.KI.StatsArr8
import proofs.«162849_j29643864277577_1_alg».proof.Proof.KI.PayRead
import proofs.«162849_j29643864277577_1_alg».proof.Proof.Math.Algebra
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-! ## Where a block's entry sits in its array

A block's entry sits in the array, on each axis, at the block index times the block's extent plus the coordinate
inside the block. The two row tiles move down the rows with the grid point; the weights and the bias rows are whole. -/

/-- Window 0's block index at point t is (t, 0). -/
theorem idx8_0 : ∀ t : Fin cfg8.N, win8_0.index t 0 = t.val ∧ win8_0.index t 1 = 0 :=
  (by decide +kernel : ∀ t : Fin grid8.N, win8_0.index t 0 = t.val ∧ win8_0.index t 1 = 0)
/-- Window 1's block index at point t is (t, 0). -/
theorem idx8_1 : ∀ t : Fin cfg8.N, win8_1.index t 0 = t.val ∧ win8_1.index t 1 = 0 :=
  (by decide +kernel : ∀ t : Fin grid8.N, win8_1.index t 0 = t.val ∧ win8_1.index t 1 = 0)
/-- Window 2's block index is (0, 0) at every point. -/
theorem idx8_2 : ∀ t : Fin cfg8.N, win8_2.index t 0 = 0 ∧ win8_2.index t 1 = 0 :=
  (by decide +kernel : ∀ t : Fin grid8.N, win8_2.index t 0 = 0 ∧ win8_2.index t 1 = 0)
/-- Window 3's block index is (0, 0) at every point. -/
theorem idx8_3 : ∀ t : Fin cfg8.N, win8_3.index t 0 = 0 ∧ win8_3.index t 1 = 0 :=
  (by decide +kernel : ∀ t : Fin grid8.N, win8_3.index t 0 = 0 ∧ win8_3.index t 1 = 0)
/-- Window 4's block index is (0, 0) at every point. -/
theorem idx8_4 : ∀ t : Fin cfg8.N, win8_4.index t 0 = 0 ∧ win8_4.index t 1 = 0 :=
  (by decide +kernel : ∀ t : Fin grid8.N, win8_4.index t 0 = 0 ∧ win8_4.index t 1 = 0)
/-- Window 5's block index is (0, 0) at every point. -/
theorem idx8_5 : ∀ t : Fin cfg8.N, win8_5.index t 0 = 0 ∧ win8_5.index t 1 = 0 :=
  (by decide +kernel : ∀ t : Fin grid8.N, win8_5.index t 0 = 0 ∧ win8_5.index t 1 = 0)

set_option maxHeartbeats 400000 in
/-- Entry (r, k) of window 0's tile at point t is entry (5000 t + r, k) of its array. -/
theorem iblk8_0_apply (c : Dev nD) (t : Fin cfg8.N) (r : Fin 5000) (k : Fin 128) (h : t.val * 5000 + r.val < 50000) :
    iblk8 V c 0 t (ix2 r k) = arr8_0 V c (ix2 ⟨t.val * 5000 + r.val, h⟩ k) := by
  unfold iblk8
  rw [View.read_apply]
  show V c (Pipeline.arrRef spec8 0) _ = V c (Pipeline.arrRef spec8 0) _
  congr 1
  funext a
  apply Fin.ext
  match a with
  | ⟨0, _⟩ => show win8_0.index t 0 * 5000 + 1 * r.val = t.val * 5000 + r.val; rw [(idx8_0 t).1]; omega
  | ⟨1, _⟩ => show win8_0.index t 1 * 128 + 1 * k.val = k.val; rw [(idx8_0 t).2]; omega

set_option maxHeartbeats 400000 in
/-- Entry (r, k) of window 1's tile at point t is entry (5000 t + r, k) of its array. -/
theorem iblk8_1_apply (c : Dev nD) (t : Fin cfg8.N) (r : Fin 5000) (k : Fin 128) (h : t.val * 5000 + r.val < 50000) :
    iblk8 V c 1 t (ix2 r k) = arr8_1 V c (ix2 ⟨t.val * 5000 + r.val, h⟩ k) := by
  unfold iblk8
  rw [View.read_apply]
  show V c (Pipeline.arrRef spec8 1) _ = V c (Pipeline.arrRef spec8 1) _
  congr 1
  funext a
  apply Fin.ext
  match a with
  | ⟨0, _⟩ => show win8_1.index t 0 * 5000 + 1 * r.val = t.val * 5000 + r.val; rw [(idx8_1 t).1]; omega
  | ⟨1, _⟩ => show win8_1.index t 1 * 128 + 1 * k.val = k.val; rw [(idx8_1 t).2]; omega

set_option maxHeartbeats 400000 in
/-- Window 2's block is its whole array at every point. -/
theorem iblk8_2_apply (c : Dev nD) (t : Fin cfg8.N) (k j : Fin 128) :
    iblk8 V c 2 t (ix2 k j) = arr8_2 V c (ix2 k j) := by
  unfold iblk8
  rw [View.read_apply]
  show V c (Pipeline.arrRef spec8 2) _ = V c (Pipeline.arrRef spec8 2) _
  congr 1
  funext a
  apply Fin.ext
  match a with
  | ⟨0, _⟩ => show win8_2.index t 0 * 128 + 1 * k.val = k.val; rw [(idx8_2 t).1]; omega
  | ⟨1, _⟩ => show win8_2.index t 1 * 128 + 1 * j.val = j.val; rw [(idx8_2 t).2]; omega

set_option maxHeartbeats 400000 in
/-- Window 3's block is its whole row at every point. -/
theorem iblk8_3_apply (c : Dev nD) (t : Fin cfg8.N) (j : Fin 128) :
    iblk8 V c 3 t (ix2 (0 : Fin 1) j) = arr8_3 V c (ix2 (0 : Fin 1) j) := by
  unfold iblk8
  rw [View.read_apply]
  show V c (Pipeline.arrRef spec8 3) _ = V c (Pipeline.arrRef spec8 3) _
  congr 1
  funext a
  apply Fin.ext
  match a with
  | ⟨0, _⟩ => show win8_3.index t 0 * 1 + 1 * 0 = 0; rw [(idx8_3 t).1]
  | ⟨1, _⟩ => show win8_3.index t 1 * 128 + 1 * j.val = j.val; rw [(idx8_3 t).2]; omega

set_option maxHeartbeats 400000 in
/-- Window 4's block is its whole array at every point. -/
theorem iblk8_4_apply (c : Dev nD) (t : Fin cfg8.N) (k j : Fin 128) :
    iblk8 V c 4 t (ix2 k j) = arr8_4 V c (ix2 k j) := by
  unfold iblk8
  rw [View.read_apply]
  show V c (Pipeline.arrRef spec8 4) _ = V c (Pipeline.arrRef spec8 4) _
  congr 1
  funext a
  apply Fin.ext
  match a with
  | ⟨0, _⟩ => show win8_4.index t 0 * 128 + 1 * k.val = k.val; rw [(idx8_4 t).1]; omega
  | ⟨1, _⟩ => show win8_4.index t 1 * 128 + 1 * j.val = j.val; rw [(idx8_4 t).2]; omega

set_option maxHeartbeats 400000 in
/-- Window 5's block is its whole row at every point. -/
theorem iblk8_5_apply (c : Dev nD) (t : Fin cfg8.N) (j : Fin 128) :
    iblk8 V c 5 t (ix2 (0 : Fin 1) j) = arr8_5 V c (ix2 (0 : Fin 1) j) := by
  unfold iblk8
  rw [View.read_apply]
  show V c (Pipeline.arrRef spec8 5) _ = V c (Pipeline.arrRef spec8 5) _
  congr 1
  funext a
  apply Fin.ext
  match a with
  | ⟨0, _⟩ => show win8_5.index t 0 * 1 + 1 * 0 = 0; rw [(idx8_5 t).1]
  | ⟨1, _⟩ => show win8_5.index t 1 * 128 + 1 * j.val = j.val; rw [(idx8_5 t).2]; omega

/-! ## The tile the body stores is a tile of the linear part -/

/-- The linear part of the layer over the whole arrays the region finds: aggregated messages times the first weights,
    plus the first bias, plus node features times the second weights, plus the second bias. -/
abbrev X8 (c : Dev nD) : Cert.Spec.Mat :=
  Cert.Spec.lin (fun i k => arr8_0 V c (ix2 i k)) (fun i k => arr8_1 V c (ix2 i k)) (fun k j => arr8_2 V c (ix2 k j))
    (fun k j => arr8_4 V c (ix2 k j)) (fun j => arr8_3 V c (ix2 (0 : Fin 1) j)) (fun j => arr8_5 V c (ix2 (0 : Fin 1) j))

set_option maxHeartbeats 800000 in
/-- What the body computes from the six blocks of point t, at row r and lane j, is the linear part at row 5000 t + r. -/
theorem pay6_blocks8 (c : Dev nD) (t : Fin cfg8.N) (r : Fin 5000) (j : Fin 128) (h : t.val * 5000 + r.val < 50000) :
    k8_pay6 (F := Ideal) (iblk8 V c 0 t) (iblk8 V c 1 t) (iblk8 V c 2 t) (iblk8 V c 4 t) (iblk8 V c 3 t) (iblk8 V c 5 t) (ix2 r j)
      = X8 V c ⟨t.val * 5000 + r.val, h⟩ j := by
  rw [Cert.KernelIdeal.PayValue.k8_pay6_apply]
  simp only [iblk8_0_apply V c t r _ h, iblk8_1_apply V c t r _ h, iblk8_2_apply V c t, iblk8_3_apply V c t,
    iblk8_4_apply V c t, iblk8_5_apply V c t]
  rfl

/-! ## Adding the tiles up

A running sum that starts from zero plus the first tile's column sum and grows by each next tile's column sum is,
after point n, the sum over the tiles 0 to n; after the last point that is the sum over all 50000 rows. -/

/-- Column j of Y summed over the 5000 rows of tile t (nothing past the tenth tile). -/
def tileSum8 (Y : Cert.Spec.Mat) (j : Fin 128) (t : ℕ) : EReal :=
  if h : t < 10 then ∑ r : Fin 5000, Y ⟨t * 5000 + r.val, by have := r.isLt; show t * 5000 + r.val < 50000; omega⟩ j else 0

/-- The ten tiles' column sums add up to the column sum over all the rows. -/
theorem tileSum8_total (Y : Cert.Spec.Mat) (j : Fin 128) : ∑ t ∈ Finset.range 10, tileSum8 Y j t = ∑ i, Y i j := by
  rw [Cert.Spec.sum_rows_tiles (fun i => Y i j), Finset.sum_range]
  refine Finset.sum_congr rfl fun t _ => ?_
  unfold tileSum8
  rw [dif_pos t.isLt]

/-- A quantity that is zero plus tile 0's column sum at the first point and grows by tile n + 1's at point n + 1 is,
    at point n, the sum of the column sums of tiles 0 to n. -/
theorem runSum8 {N : ℕ} (Y : Cert.Spec.Mat) (j : Fin 128) (s : (n : ℕ) → n < N → EReal)
    (h0 : ∀ h : 0 < N, s 0 h = 0 + tileSum8 Y j 0)
    (hs : ∀ (n : ℕ) (hn : n + 1 < N), s (n + 1) hn = s n (Nat.lt_of_succ_lt hn) + tileSum8 Y j (n + 1)) :
    ∀ (n : ℕ) (hn : n < N), s n hn = ∑ t ∈ Finset.range (n + 1), tileSum8 Y j t
  | 0, hn => by rw [h0 hn, Finset.sum_range_one, zero_add]
  | n + 1, hn => by rw [hs n hn, runSum8 Y j s h0 hs n (Nat.lt_of_succ_lt hn), Finset.sum_range_succ _ (n + 1)]

/-! ## The two statistics arrays after the run

Outputs 7 and 8 are written back at the last point only, and their one block is the whole 1 by 128 array: after the
run each holds what the body left in its buffer at the last point. -/

/-- The last point. -/
abbrev tLast8 : Fin cfg8.N := t8_9

set_option maxHeartbeats 800000 in
/-- After the run, array 7 holds what the body left for output 7 at the last point, for any proof data. -/
theorem arrAt8_7_of {c : Dev nD} (dat : Dat τ (Elt Ideal) Unit ℕ (UR sig nD τ) ℕ cfg8 c) (j : Fin 128) :
    dat.arrAt 7 cfg8.N (ix2 (0 : Fin 1) j) = dat.after 7 tLast8 (ix2 (0 : Fin 1) j) := by
  have hf : (cfg8.win 7).flush tLast8 = true := (flush8_7 tLast8).mpr (by decide)
  have hone : ∀ t : Fin cfg8.N, (cfg8.win 7).flush t = true → t = tLast8 := fun t ht => by
    have h9 := (flush8_7 t).mp ht
    have hN : t.val < 10 := lt_of_lt_of_eq t.isLt N_8
    exact Fin.ext (by show t.val = 9; omega)
  have h := dat.arrAt_emb_eq_flushed 7 (fun t t' ht ht' hne => absurd ((hone t ht).trans (hone t' ht').symm) hne) tLast8 hf (ix2 (0 : Fin 1) j)
  refine Eq.trans ?_ (h.trans ?_)
  · show dat.arrAt 7 cfg8.N _ = dat.arrAt 7 cfg8.N _
    congr 1
    funext a
    apply Fin.ext
    match a with
    | ⟨0, _⟩ => rfl
    | ⟨1, _⟩ => show j.val = win8_7.index tLast8 1 * 128 + 1 * j.val; rw [show win8_7.index tLast8 1 = 0 from by decide +kernel]; omega
  · rfl

set_option maxHeartbeats 800000 in
/-- After the run, array 8 holds what the body left for output 8 at the last point, for any proof data. -/
theorem arrAt8_8_of {c : Dev nD} (dat : Dat τ (Elt Ideal) Unit ℕ (UR sig nD τ) ℕ cfg8 c) (j : Fin 128) :
    dat.arrAt 8 cfg8.N (ix2 (0 : Fin 1) j) = dat.after 8 tLast8 (ix2 (0 : Fin 1) j) := by
  have hf : (cfg8.win 8).flush tLast8 = true := (flush8_8 tLast8).mpr (by decide)
  have hone : ∀ t : Fin cfg8.N, (cfg8.win 8).flush t = true → t = tLast8 := fun t ht => by
    have h9 := (flush8_8 t).mp ht
    have hN : t.val < 10 := lt_of_lt_of_eq t.isLt N_8
    exact Fin.ext (by show t.val = 9; omega)
  have h := dat.arrAt_emb_eq_flushed 8 (fun t t' ht ht' hne => absurd ((hone t ht).trans (hone t' ht').symm) hne) tLast8 hf (ix2 (0 : Fin 1) j)
  refine Eq.trans ?_ (h.trans ?_)
  · show dat.arrAt 8 cfg8.N _ = dat.arrAt 8 cfg8.N _
    congr 1
    funext a
    apply Fin.ext
    match a with
    | ⟨0, _⟩ => rfl
    | ⟨1, _⟩ => show j.val = win8_8.index tLast8 1 * 128 + 1 * j.val; rw [show win8_8.index tLast8 1 = 0 from by decide +kernel]; omega
  · rfl

/-! ## The accumulation over the grid

Stated for any point-indexed tuple (output tile, mean row, variance row, running sum, running sum of squares) that
satisfies the step equations: the tile is the body's tile of the point's six blocks; the running sum starts from the
zero row and grows by the tile's column sums; the running sum of squares likewise by the squares; at the last point
the mean row and the variance row are computed from the two running sums. -/

/-- The six blocks of point t, in the order the body's tile takes them. -/
abbrev tileOf8 (c : Dev nD) (t : Fin cfg8.N) : FVec Ideal S5000x128 .f32 :=
  k8_pay6 (F := Ideal) (iblk8 V c 0 t) (iblk8 V c 1 t) (iblk8 V c 2 t) (iblk8 V c 4 t) (iblk8 V c 3 t) (iblk8 V c 5 t)

/-- The squares of the linear part. -/
abbrev XX8 (c : Dev nD) : Cert.Spec.Mat := fun i j => X8 V c i j * X8 V c i j

/-- The step equations. -/
structure Steps8 (c : Dev nD)
    (T : (n : ℕ) → n < cfg8.N → Vec Ideal S5000x128 .f32 × Vec Ideal S1x128 .f32 × Vec Ideal S1x128 .f32 × Vec Ideal S1x128 .f32 × Vec Ideal S1x128 .f32) : Prop where
  tile : ∀ t : Fin cfg8.N, (T t.val t.isLt).1 = tileOf8 V c t
  sum0 : ∀ h : 0 < cfg8.N, (T 0 h).2.2.2.1
    = k8_pay7 (F := Ideal) (iblk8 V c 0 ⟨0, h⟩) (iblk8 V c 1 ⟨0, h⟩) (iblk8 V c 2 ⟨0, h⟩) (iblk8 V c 4 ⟨0, h⟩) (iblk8 V c 3 ⟨0, h⟩) (iblk8 V c 5 ⟨0, h⟩) (k8_pay4 (F := Ideal))
  sumS : ∀ (n : ℕ) (hn : n + 1 < cfg8.N), (T (n + 1) hn).2.2.2.1
    = k8_pay7 (F := Ideal) (iblk8 V c 0 ⟨n + 1, hn⟩) (iblk8 V c 1 ⟨n + 1, hn⟩) (iblk8 V c 2 ⟨n + 1, hn⟩) (iblk8 V c 4 ⟨n + 1, hn⟩) (iblk8 V c 3 ⟨n + 1, hn⟩) (iblk8 V c 5 ⟨n + 1, hn⟩) (T n (Nat.lt_of_succ_lt hn)).2.2.2.1
  sq0 : ∀ h : 0 < cfg8.N, (T 0 h).2.2.2.2 = k8_pay1 (F := Ideal) (T 0 h).1 (k8_pay5 (F := Ideal))
  sqS : ∀ (n : ℕ) (hn : n + 1 < cfg8.N), (T (n + 1) hn).2.2.2.2 = k8_pay1 (F := Ideal) (T (n + 1) hn).1 (T n (Nat.lt_of_succ_lt hn)).2.2.2.2
  mean : ∀ t : Fin cfg8.N, t.val = 9 → (T t.val t.isLt).2.1 = k8_pay2 (F := Ideal) (T t.val t.isLt).2.2.2.1
  var : ∀ t : Fin cfg8.N, t.val = 9 →
    (T t.val t.isLt).2.2.1 = k8_pay3 (F := Ideal) (T t.val t.isLt).2.2.2.1 (T t.val t.isLt).2.2.2.2

/-- The running sum's step at lane j: the row before plus tile t's column sum of the linear part. -/
theorem paySum8 (c : Dev nD) (t : Fin cfg8.N) (j : Fin 128) (s : FVec Ideal S1x128 .f32) :
    k8_pay7 (F := Ideal) (iblk8 V c 0 t) (iblk8 V c 1 t) (iblk8 V c 2 t) (iblk8 V c 4 t) (iblk8 V c 3 t) (iblk8 V c 5 t) s (ix2 (0 : Fin 1) j)
      = s (ix2 (0 : Fin 1) j) + tileSum8 (X8 V c) j t.val := by
  rw [Cert.KernelIdeal.PayValue.k8_pay7_apply]
  congr 1
  unfold tileSum8
  rw [dif_pos (lt_of_lt_of_eq t.isLt N_8)]
  exact Finset.sum_congr rfl fun r _ => pay6_blocks8 V c t r j _

/-- The running sum of squares' step at lane j, for a tile that is the linear part's tile t. -/
theorem paySq8 (c : Dev nD) (t : Fin cfg8.N) (j : Fin 128) (v : FVec Ideal S5000x128 .f32) (q : FVec Ideal S1x128 .f32)
    (hv : ∀ (r : Fin 5000) (h : t.val * 5000 + r.val < 50000), v (ix2 r j) = X8 V c ⟨t.val * 5000 + r.val, h⟩ j) :
    k8_pay1 (F := Ideal) v q (ix2 (0 : Fin 1) j) = q (ix2 (0 : Fin 1) j) + tileSum8 (XX8 V c) j t.val := by
  rw [Cert.KernelIdeal.PayValue.k8_pay1_apply]
  congr 1
  unfold tileSum8
  rw [dif_pos (lt_of_lt_of_eq t.isLt N_8)]
  exact Finset.sum_congr rfl fun r _ => by rw [hv r _]

section Accumulate

variable {c : Dev nD}
  {T : (n : ℕ) → n < cfg8.N → Vec Ideal S5000x128 .f32 × Vec Ideal S1x128 .f32 × Vec Ideal S1x128 .f32 × Vec Ideal S1x128 .f32 × Vec Ideal S1x128 .f32}

/-- (a) The output tile at point t, row r, lane j is the linear part at row 5000 t + r. -/
theorem Steps8.tile_apply (H : Steps8 V c T) (t : Fin cfg8.N) (r : Fin 5000) (j : Fin 128) (h : t.val * 5000 + r.val < 50000) :
    (T t.val t.isLt).1 (ix2 r j) = X8 V c ⟨t.val * 5000 + r.val, h⟩ j := by
  rw [H.tile t]; exact pay6_blocks8 V c t r j h

/-- (b) After point n the running sum at lane j is the linear part's column j summed over tiles 0 to n. -/
theorem Steps8.sum_apply (H : Steps8 V c T) (n : ℕ) (hn : n < cfg8.N) (j : Fin 128) :
    (T n hn).2.2.2.1 (ix2 (0 : Fin 1) j) = ∑ t ∈ Finset.range (n + 1), tileSum8 (X8 V c) j t :=
  runSum8 (X8 V c) j (fun n hn => (T n hn).2.2.2.1 (ix2 (0 : Fin 1) j))
    (fun h => by
      show (T 0 h).2.2.2.1 (ix2 (0 : Fin 1) j) = _
      rw [H.sum0 h, paySum8 V c ⟨0, h⟩ j, Cert.KernelIdeal.PayValue.k8_pay4_eq])
    (fun n hn => by
      show (T (n + 1) hn).2.2.2.1 (ix2 (0 : Fin 1) j) = _
      rw [H.sumS n hn, paySum8 V c ⟨n + 1, hn⟩ j]) n hn

/-- (b) After point n the running sum of squares at lane j is the squares' column j summed over tiles 0 to n. -/
theorem Steps8.sq_apply (H : Steps8 V c T) (n : ℕ) (hn : n < cfg8.N) (j : Fin 128) :
    (T n hn).2.2.2.2 (ix2 (0 : Fin 1) j) = ∑ t ∈ Finset.range (n + 1), tileSum8 (XX8 V c) j t :=
  runSum8 (XX8 V c) j (fun n hn => (T n hn).2.2.2.2 (ix2 (0 : Fin 1) j))
    (fun h => by
      show (T 0 h).2.2.2.2 (ix2 (0 : Fin 1) j) = _
      rw [H.sq0 h, paySq8 V c ⟨0, h⟩ j _ _ (fun r hr => H.tile_apply V ⟨0, h⟩ r j hr), Cert.KernelIdeal.PayValue.k8_pay5_eq])
    (fun n hn => by
      show (T (n + 1) hn).2.2.2.2 (ix2 (0 : Fin 1) j) = _
      rw [H.sqS n hn, paySq8 V c ⟨n + 1, hn⟩ j _ _ (fun r hr => H.tile_apply V ⟨n + 1, hn⟩ r j hr)]) n hn

/-- (c) After the last point the running sum is the column sum over all the rows (the last point is given with the
    fact that it is the last, never as a numeral), -/
theorem Steps8.sum_last (H : Steps8 V c T) (t : Fin cfg8.N) (h9 : t.val = 9) (j : Fin 128) :
    (T t.val t.isLt).2.2.2.1 (ix2 (0 : Fin 1) j) = ∑ i, X8 V c i j := by
  obtain ⟨n, hn⟩ := t
  obtain rfl : n = 9 := h9
  exact (H.sum_apply V 9 hn j).trans (tileSum8_total _ j)

/-- and the running sum of squares the column sum of the squares. -/
theorem Steps8.sq_last (H : Steps8 V c T) (t : Fin cfg8.N) (h9 : t.val = 9) (j : Fin 128) :
    (T t.val t.isLt).2.2.2.2 (ix2 (0 : Fin 1) j) = ∑ i, X8 V c i j * X8 V c i j := by
  obtain ⟨n, hn⟩ := t
  obtain rfl : n = 9 := h9
  exact (H.sq_apply V 9 hn j).trans (tileSum8_total _ j)

/-- (c) The mean row stored at the last point is the linear part's column mean, -/
theorem Steps8.mean_apply (H : Steps8 V c T) (t : Fin cfg8.N) (h9 : t.val = 9) (j : Fin 128) :
    (T t.val t.isLt).2.1 (ix2 (0 : Fin 1) j) = Cert.Spec.colMean (X8 V c) j := by
  rw [H.mean t h9, Cert.KernelIdeal.PayValue.k8_pay2_apply, H.sum_last V t h9 j]; rfl

/-- and the variance row the mean of its squares minus the squared mean. -/
theorem Steps8.var_apply (H : Steps8 V c T) (t : Fin cfg8.N) (h9 : t.val = 9) (j : Fin 128) :
    (T t.val t.isLt).2.2.1 (ix2 (0 : Fin 1) j) = Cert.Spec.varSq (X8 V c) j := by
  rw [H.var t h9, Cert.KernelIdeal.PayValue.k8_pay3_apply, H.sum_last V t h9 j, H.sq_last V t h9 j]; rfl

end Accumulate

end Regions

end Cert.KernelIdeal.Hand

end
-- ==== Proof.KI.StatsSums8.lean ====
/-
  Kernel region 8 on the extended reals: the mean and variance arrays after the run.

  What the region's buffers hold after each grid point satisfies the step equations of the walk over the ten row
  tiles, so the arithmetic done once for any such contents applies: the output tile at point t is the linear part's
  rows 5000 t to 5000 t + 4999, and after the run the mean array holds, lane by lane, the column mean of the linear
  part of the layer over all 50000 rows, and the variance array its mean of squares minus its squared mean.
-/
import proofs.«162849_j29643864277577_1_alg».proof.Proof.KI.StatsPieces8
import proofs.«162849_j29643864277577_1_alg».proof.Proof.KI.StatsSumsCore8

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Regions

variable (V : (c : Dev nD) → (b : Ref sig .tc) → Buf (Elt Ideal) ((c : Thread nD τ).loc b))

/-- What the buffers hold after each point satisfies the step equations. -/
theorem steps8 (c : Dev nD) : Steps8 V c (outsAt8 V c) where
  tile := hnewTile8 V c
  sum0 := scr8_zero0 V c
  sumS := scr8_succ0 V c
  sq0 := sq8_zero0 V c
  sqS := sq8_succ0 V c
  mean := meanRow8 V c
  var := varRow8 V c

/-- The output tile at point t, row r, lane j is the linear part at row 5000 t + r. -/
theorem hnew8_apply (c : Dev nD) (t : Fin cfg8.N) (r : Fin 5000) (j : Fin 128) (h : t.val * 5000 + r.val < 50000) :
    (outsAt8 V c t.val t.isLt).1 (ix2 r j) = X8 V c ⟨t.val * 5000 + r.val, h⟩ j :=
  (steps8 V c).tile_apply V t r j h

/-- After the run the mean array holds the column mean of the linear part. -/
theorem mean8_arr (c : Dev nD) (j : Fin 128) :
    (dat8 (F := Ideal) V c).arrAt 7 cfg8.N (ix2 (0 : Fin 1) j) = Cert.Spec.colMean (X8 V c) j := by
  rw [arrAt8_7_of (dat8 V c) j, after8_7]
  exact (steps8 V c).mean_apply V tLast8 rfl j

/-- After the run the variance array holds the linear part's mean of squares minus its squared mean. -/
theorem var8_arr (c : Dev nD) (j : Fin 128) :
    (dat8 (F := Ideal) V c).arrAt 8 cfg8.N (ix2 (0 : Fin 1) j) = Cert.Spec.varSq (X8 V c) j := by
  rw [arrAt8_8_of (dat8 V c) j, after8_8]
  exact (steps8 V c).var_apply V tLast8 rfl j

end Regions

end Cert.KernelIdeal.Hand

end
-- ==== Proof.KI.BnValue1.lean ====
/-
  What the normalising region leaves in its output array, as one function of the whole array.

  The region visits ten grid points. At point t it reads rows 5000 t … 5000 t + 4999 of the 50000x128 input array and
  the whole of four 1x128 rows (the mean, the variance, the scale, the shift), and writes back rows
  5000 t … 5000 t + 4999 of the 50000x128 output array. Entry (r, j) of a tile is entry (5000 t + r, j) of its array,
  and a row's block is the row itself; the entry written at (r, j) is the centred input entry times the scale, times
  the reciprocal square root of the variance plus epsilon, plus the shift, rectified, all taken in column j. So every
  point writes the restriction, to its tenth of the rows, of ONE function of the array index. Row i lies in the rows
  of point i / 5000, so the ten row ranges cover the array, and after the last point the output array is that
  function everywhere:

      out i j = max ((γ j · (x i j − μ j)) · rsqrt (v j + ε) + β j) 0 .
-/
import proofs.«162849_j29643864277577_1_alg».proof.Proof.KI.Bn1
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
-- the TensorCore's buffer contents when the region is entered, on the extended reals
variable (V : (c : Dev nD) → (b : Ref sig .tc) → Buf (Elt Ideal) ((c : Thread nD τ).loc b))

/-- The five arrays the region reads, as it finds them, each at its literal shape: the 50000x128 input and the mean,
    variance, scale and shift rows. -/
abbrev arr1_0 (c : Dev nD) : FVec Ideal S50000x128 .f32 := V c (Pipeline.arrRef spec1 0)
abbrev arr1_1 (c : Dev nD) : FVec Ideal S1x128 .f32 := V c (Pipeline.arrRef spec1 1)
abbrev arr1_2 (c : Dev nD) : FVec Ideal S1x128 .f32 := V c (Pipeline.arrRef spec1 2)
abbrev arr1_3 (c : Dev nD) : FVec Ideal S1x128 .f32 := V c (Pipeline.arrRef spec1 3)
abbrev arr1_4 (c : Dev nD) : FVec Ideal S1x128 .f32 := V c (Pipeline.arrRef spec1 4)

/-- The batch-norm + relu of a whole 50000x128 array by four 1x128 rows, as one function of the array index. -/
def bnArr1 (a0 : FVec Ideal S50000x128 .f32) (a1 a2 a3 a4 : FVec Ideal S1x128 .f32) : FVec Ideal S50000x128 .f32 :=
  fun i => Cert.Spec.bn (fun r k => a0 (ix2 r k)) (fun k => a1 (ix2 0 k)) (fun k => a2 (ix2 0 k))
    (fun k => a3 (ix2 0 k)) (fun k => a4 (ix2 0 k)) (i 0) (i 1)

theorem bnArr1_apply (a0 : FVec Ideal S50000x128 .f32) (a1 a2 a3 a4 : FVec Ideal S1x128 .f32) (i : Fin 50000) (j : Fin 128) :
    bnArr1 a0 a1 a2 a3 a4 (ix2 i j) = Cert.Spec.bn (fun r k => a0 (ix2 r k)) (fun k => a1 (ix2 0 k)) (fun k => a2 (ix2 0 k))
    (fun k => a3 (ix2 0 k)) (fun k => a4 (ix2 0 k)) i j := rfl

/-- The windows' block indices at each of the ten points: the two tile windows sit at row block t, column block 0; the four row windows at block (0, 0). -/
theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t, at (r, j), is the array's entry at row 5000 t + r, column j. -/
theorem iblk1_0_apply (c : Dev nD) (t : Fin cfg1.N) (r : Fin 5000) (j : Fin 128) (i : Fin 50000)
    (hi : i.val = t.val * 5000 + r.val) :
    (iblk1 V c 0 t : FVec Ideal S5000x128 .f32) (ix2 r j) = arr1_0 V c (ix2 i j) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * r.val = i.val; rw [e0, hi]; omega
  | ⟨1, _⟩ => show win1_0.index t (1 : Fin 2) * 128 + 1 * j.val = j.val; rw [e1]; omega

/-- Window 1's block at any point is the whole 1x128 array. -/
theorem iblk1_1_apply (c : Dev nD) (t : Fin cfg1.N) (j : Fin 128) :
    (iblk1 V c 1 t : FVec Ideal S1x128 .f32) (ix2 0 j) = arr1_1 V c (ix2 0 j) := by
  obtain ⟨-, -, e0, e1, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (0 : Fin 1).val = (0 : Fin 1).val; rw [e0]; rfl
  | ⟨1, _⟩ => show win1_1.index t (1 : Fin 2) * 128 + 1 * j.val = j.val; rw [e1]; omega

/-- Window 2's block at any point is the whole 1x128 array. -/
theorem iblk1_2_apply (c : Dev nD) (t : Fin cfg1.N) (j : Fin 128) :
    (iblk1 V c 2 t : FVec Ideal S1x128 .f32) (ix2 0 j) = arr1_2 V c (ix2 0 j) := by
  obtain ⟨-, -, -, -, e0, e1, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (0 : Fin 1).val = (0 : Fin 1).val; rw [e0]; rfl
  | ⟨1, _⟩ => show win1_2.index t (1 : Fin 2) * 128 + 1 * j.val = j.val; rw [e1]; omega

/-- Window 3's block at any point is the whole 1x128 array. -/
theorem iblk1_3_apply (c : Dev nD) (t : Fin cfg1.N) (j : Fin 128) :
    (iblk1 V c 3 t : FVec Ideal S1x128 .f32) (ix2 0 j) = arr1_3 V c (ix2 0 j) := by
  obtain ⟨-, -, -, -, -, -, e0, e1, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (0 : Fin 1).val = (0 : Fin 1).val; rw [e0]; rfl
  | ⟨1, _⟩ => show win1_3.index t (1 : Fin 2) * 128 + 1 * j.val = j.val; rw [e1]; omega

/-- Window 4's block at any point is the whole 1x128 array. -/
theorem iblk1_4_apply (c : Dev nD) (t : Fin cfg1.N) (j : Fin 128) :
    (iblk1 V c 4 t : FVec Ideal S1x128 .f32) (ix2 0 j) = arr1_4 V c (ix2 0 j) := by
  obtain ⟨-, -, -, -, -, -, -, -, e0, e1, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (0 : Fin 1).val = (0 : Fin 1).val; rw [e0]; rfl
  | ⟨1, _⟩ => show win1_4.index t (1 : Fin 2) * 128 + 1 * j.val = j.val; rw [e1]; omega

/-- One entry of the payload of five blocks that are read off five arrays is the whole-array function at the entry's place in the array. -/
theorem pay1_at (a0 : FVec Ideal S50000x128 .f32) (a1 a2 a3 a4 : FVec Ideal S1x128 .f32)
    (x0 : FVec Ideal S5000x128 .f32) (x1 x2 x3 x4 : FVec Ideal S1x128 .f32) (r : Fin 5000) (j : Fin 128) (i : Fin 50000)
    (h0 : x0 (ix2 r j) = a0 (ix2 i j)) (h1 : x1 (ix2 0 j) = a1 (ix2 0 j)) (h2 : x2 (ix2 0 j) = a2 (ix2 0 j))
    (h3 : x3 (ix2 0 j) = a3 (ix2 0 j)) (h4 : x4 (ix2 0 j) = a4 (ix2 0 j)) :
    k1_pay1 (F := Ideal) x0 x1 x2 x3 x4 (ix2 r j) = bnArr1 a0 a1 a2 a3 a4 (ix2 i j) := by
  rw [PayValue.k1_pay1_apply, h0, h1, h2, h3, h4]
  rfl

/-- WHAT POINT t WRITES BACK is block t of the whole-array function of the five arrays as the region finds them. -/
theorem flushed1_5_eq (c : Dev nD) (t : Fin cfg1.N) :
    (dat1 (F := Ideal) V c).flushed 5 t
      = ((cfg1.win 5).blk t).view.read (Elt Ideal) (bnArr1 (arr1_0 V c) (arr1_1 V c) (arr1_2 V c) (arr1_3 V c) (arr1_4 V c)) := by
  show (cfg1.win 5).cut (grid1.coords t) ((dat1 V c).after 5 t) = _
  rw [after1_5, out1_5_eq]
  obtain ⟨-, -, -, -, -, -, -, -, -, -, e0, e1⟩ := idx_facts1 t
  funext y
  obtain ⟨r, j, rfl⟩ : ∃ (r : Fin 5000) (j : Fin 128), y = ix2 r j := ⟨y 0, y 1, eq_ix2 (n0 := 5000) (n1 := 128) y⟩
  have hr : r.val < 5000 := r.isLt
  have ht : t.val < 10 := Nat.lt_of_lt_of_eq t.isLt N_1
  rw [View.read_apply]
  have hemb : ((cfg1.win 5).blk t).view.emb (ix2 r j) = (ix2 (⟨t.val * 5000 + r.val, by omega⟩ : Fin 50000) j : S50000x128.Idx) := by
    funext a
    apply Fin.ext
    match a with
    | ⟨0, _⟩ => show win1_5.index t (0 : Fin 2) * 5000 + 1 * r.val = t.val * 5000 + r.val; rw [e0]; omega
    | ⟨1, _⟩ => show win1_5.index t (1 : Fin 2) * 128 + 1 * j.val = j.val; rw [e1]; omega
  rw [hemb]
  exact pay1_at (arr1_0 V c) (arr1_1 V c) (arr1_2 V c) (arr1_3 V c) (arr1_4 V c)
    (iblk1 V c 0 t) (iblk1 V c 1 t) (iblk1 V c 2 t) (iblk1 V c 3 t) (iblk1 V c 4 t) r j ⟨t.val * 5000 + r.val, by omega⟩
    (iblk1_0_apply V c t r j _ rfl) (iblk1_1_apply V c t j) (iblk1_2_apply V c t j) (iblk1_3_apply V c t j) (iblk1_4_apply V c t j)

/-- An index of the array is in point t's block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- Row i of the array lies in the block of point i / 5000: the ten row tiles cover the array. -/
theorem rows_cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  obtain ⟨-, -, -, -, -, -, -, -, -, -, e0, e1⟩ := idx_facts1 ⟨(i 0).val / 5000, by rw [hN]; omega⟩
  rw [mem_blk1_5]
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e1]; omega

/-- THE ARRAY after region 1: the whole-array function of the five arrays as the region finds them. -/
theorem bn1_arr_eq (c : Dev nD) :
    (dat1 (F := Ideal) V c).arrAt 5 cfg1.N = bnArr1 (arr1_0 V c) (arr1_1 V c) (arr1_2 V c) (arr1_3 V c) (arr1_4 V c) :=
  (dat1 (F := Ideal) V c).arrAt_eq_of_cover 5 (bnArr1 (arr1_0 V c) (arr1_1 V c) (arr1_2 V c) (arr1_3 V c) (arr1_4 V c))
    (fun t _ => flushed1_5_eq V c t) rows_cover1_5

/-- Entry (i, j) of the array region 1 leaves is the batch-norm + relu of entry (i, j) of the first array by column j of the four rows. -/
theorem bn1_arr (c : Dev nD) (i : Fin 50000) (j : Fin 128) :
    (dat1 (F := Ideal) V c).arrAt 5 cfg1.N (ValueIdx.ix2 i j)
      = Cert.Spec.bn (fun i k => arr1_0 V c (ix2 i k)) (fun k => arr1_1 V c (ix2 0 k)) (fun k => arr1_2 V c (ix2 0 k))
          (fun k => arr1_3 V c (ix2 0 k)) (fun k => arr1_4 V c (ix2 0 k)) i j := by
  rw [bn1_arr_eq V c]
  rfl

end Regions

end Cert.KernelIdeal.Hand

end
-- ==== Proof.KI.BnValue3.lean ====
/-
  What the normalising region leaves in its output array, as one function of the whole array.

  The region visits ten grid points. At point t it reads rows 5000 t … 5000 t + 4999 of the 50000x128 input array and
  the whole of four 1x128 rows (the mean, the variance, the scale, the shift), and writes back rows
  5000 t … 5000 t + 4999 of the 50000x128 output array. Entry (r, j) of a tile is entry (5000 t + r, j) of its array,
  and a row's block is the row itself; the entry written at (r, j) is the centred input entry times the scale, times
  the reciprocal square root of the variance plus epsilon, plus the shift, rectified, all taken in column j. So every
  point writes the restriction, to its tenth of the rows, of ONE function of the array index. Row i lies in the rows
  of point i / 5000, so the ten row ranges cover the array, and after the last point the output array is that
  function everywhere:

      out i j = max ((γ j · (x i j − μ j)) · rsqrt (v j + ε) + β j) 0 .
-/
import proofs.«162849_j29643864277577_1_alg».proof.Proof.KI.Bn3
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
-- the TensorCore's buffer contents when the region is entered, on the extended reals
variable (V : (c : Dev nD) → (b : Ref sig .tc) → Buf (Elt Ideal) ((c : Thread nD τ).loc b))

/-- The five arrays the region reads, as it finds them, each at its literal shape: the 50000x128 input and the mean,
    variance, scale and shift rows. -/
abbrev arr3_0 (c : Dev nD) : FVec Ideal S50000x128 .f32 := V c (Pipeline.arrRef spec3 0)
abbrev arr3_1 (c : Dev nD) : FVec Ideal S1x128 .f32 := V c (Pipeline.arrRef spec3 1)
abbrev arr3_2 (c : Dev nD) : FVec Ideal S1x128 .f32 := V c (Pipeline.arrRef spec3 2)
abbrev arr3_3 (c : Dev nD) : FVec Ideal S1x128 .f32 := V c (Pipeline.arrRef spec3 3)
abbrev arr3_4 (c : Dev nD) : FVec Ideal S1x128 .f32 := V c (Pipeline.arrRef spec3 4)

/-- The batch-norm + relu of a whole 50000x128 array by four 1x128 rows, as one function of the array index. -/
def bnArr3 (a0 : FVec Ideal S50000x128 .f32) (a1 a2 a3 a4 : FVec Ideal S1x128 .f32) : FVec Ideal S50000x128 .f32 :=
  fun i => Cert.Spec.bn (fun r k => a0 (ix2 r k)) (fun k => a1 (ix2 0 k)) (fun k => a2 (ix2 0 k))
    (fun k => a3 (ix2 0 k)) (fun k => a4 (ix2 0 k)) (i 0) (i 1)

theorem bnArr3_apply (a0 : FVec Ideal S50000x128 .f32) (a1 a2 a3 a4 : FVec Ideal S1x128 .f32) (i : Fin 50000) (j : Fin 128) :
    bnArr3 a0 a1 a2 a3 a4 (ix2 i j) = Cert.Spec.bn (fun r k => a0 (ix2 r k)) (fun k => a1 (ix2 0 k)) (fun k => a2 (ix2 0 k))
    (fun k => a3 (ix2 0 k)) (fun k => a4 (ix2 0 k)) i j := rfl

/-- The windows' block indices at each of the ten points: the two tile windows sit at row block t, column block 0; the four row windows at block (0, 0). -/
theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t, at (r, j), is the array's entry at row 5000 t + r, column j. -/
theorem iblk3_0_apply (c : Dev nD) (t : Fin cfg3.N) (r : Fin 5000) (j : Fin 128) (i : Fin 50000)
    (hi : i.val = t.val * 5000 + r.val) :
    (iblk3 V c 0 t : FVec Ideal S5000x128 .f32) (ix2 r j) = arr3_0 V c (ix2 i j) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * r.val = i.val; rw [e0, hi]; omega
  | ⟨1, _⟩ => show win3_0.index t (1 : Fin 2) * 128 + 1 * j.val = j.val; rw [e1]; omega

/-- Window 1's block at any point is the whole 1x128 array. -/
theorem iblk3_1_apply (c : Dev nD) (t : Fin cfg3.N) (j : Fin 128) :
    (iblk3 V c 1 t : FVec Ideal S1x128 .f32) (ix2 0 j) = arr3_1 V c (ix2 0 j) := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (0 : Fin 1).val = (0 : Fin 1).val; rw [e0]; rfl
  | ⟨1, _⟩ => show win3_1.index t (1 : Fin 2) * 128 + 1 * j.val = j.val; rw [e1]; omega

/-- Window 2's block at any point is the whole 1x128 array. -/
theorem iblk3_2_apply (c : Dev nD) (t : Fin cfg3.N) (j : Fin 128) :
    (iblk3 V c 2 t : FVec Ideal S1x128 .f32) (ix2 0 j) = arr3_2 V c (ix2 0 j) := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (0 : Fin 1).val = (0 : Fin 1).val; rw [e0]; rfl
  | ⟨1, _⟩ => show win3_2.index t (1 : Fin 2) * 128 + 1 * j.val = j.val; rw [e1]; omega

/-- Window 3's block at any point is the whole 1x128 array. -/
theorem iblk3_3_apply (c : Dev nD) (t : Fin cfg3.N) (j : Fin 128) :
    (iblk3 V c 3 t : FVec Ideal S1x128 .f32) (ix2 0 j) = arr3_3 V c (ix2 0 j) := by
  obtain ⟨-, -, -, -, -, -, e0, e1, -⟩ := idx_facts3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (0 : Fin 1).val = (0 : Fin 1).val; rw [e0]; rfl
  | ⟨1, _⟩ => show win3_3.index t (1 : Fin 2) * 128 + 1 * j.val = j.val; rw [e1]; omega

/-- Window 4's block at any point is the whole 1x128 array. -/
theorem iblk3_4_apply (c : Dev nD) (t : Fin cfg3.N) (j : Fin 128) :
    (iblk3 V c 4 t : FVec Ideal S1x128 .f32) (ix2 0 j) = arr3_4 V c (ix2 0 j) := by
  obtain ⟨-, -, -, -, -, -, -, -, e0, e1, -⟩ := idx_facts3 t
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (0 : Fin 1).val = (0 : Fin 1).val; rw [e0]; rfl
  | ⟨1, _⟩ => show win3_4.index t (1 : Fin 2) * 128 + 1 * j.val = j.val; rw [e1]; omega

/-- One entry of the payload of five blocks that are read off five arrays is the whole-array function at the entry's place in the array. -/
theorem pay3_at (a0 : FVec Ideal S50000x128 .f32) (a1 a2 a3 a4 : FVec Ideal S1x128 .f32)
    (x0 : FVec Ideal S5000x128 .f32) (x1 x2 x3 x4 : FVec Ideal S1x128 .f32) (r : Fin 5000) (j : Fin 128) (i : Fin 50000)
    (h0 : x0 (ix2 r j) = a0 (ix2 i j)) (h1 : x1 (ix2 0 j) = a1 (ix2 0 j)) (h2 : x2 (ix2 0 j) = a2 (ix2 0 j))
    (h3 : x3 (ix2 0 j) = a3 (ix2 0 j)) (h4 : x4 (ix2 0 j) = a4 (ix2 0 j)) :
    k3_pay1 (F := Ideal) x0 x1 x2 x3 x4 (ix2 r j) = bnArr3 a0 a1 a2 a3 a4 (ix2 i j) := by
  rw [PayValue.k3_pay1_apply, h0, h1, h2, h3, h4]
  rfl

/-- WHAT POINT t WRITES BACK is block t of the whole-array function of the five arrays as the region finds them. -/
theorem flushed3_5_eq (c : Dev nD) (t : Fin cfg3.N) :
    (dat3 (F := Ideal) V c).flushed 5 t
      = ((cfg3.win 5).blk t).view.read (Elt Ideal) (bnArr3 (arr3_0 V c) (arr3_1 V c) (arr3_2 V c) (arr3_3 V c) (arr3_4 V c)) := by
  show (cfg3.win 5).cut (grid3.coords t) ((dat3 V c).after 5 t) = _
  rw [after3_5, out3_5_eq]
  obtain ⟨-, -, -, -, -, -, -, -, -, -, e0, e1⟩ := idx_facts3 t
  funext y
  obtain ⟨r, j, rfl⟩ : ∃ (r : Fin 5000) (j : Fin 128), y = ix2 r j := ⟨y 0, y 1, eq_ix2 (n0 := 5000) (n1 := 128) y⟩
  have hr : r.val < 5000 := r.isLt
  have ht : t.val < 10 := Nat.lt_of_lt_of_eq t.isLt N_3
  rw [View.read_apply]
  have hemb : ((cfg3.win 5).blk t).view.emb (ix2 r j) = (ix2 (⟨t.val * 5000 + r.val, by omega⟩ : Fin 50000) j : S50000x128.Idx) := by
    funext a
    apply Fin.ext
    match a with
    | ⟨0, _⟩ => show win3_5.index t (0 : Fin 2) * 5000 + 1 * r.val = t.val * 5000 + r.val; rw [e0]; omega
    | ⟨1, _⟩ => show win3_5.index t (1 : Fin 2) * 128 + 1 * j.val = j.val; rw [e1]; omega
  rw [hemb]
  exact pay3_at (arr3_0 V c) (arr3_1 V c) (arr3_2 V c) (arr3_3 V c) (arr3_4 V c)
    (iblk3 V c 0 t) (iblk3 V c 1 t) (iblk3 V c 2 t) (iblk3 V c 3 t) (iblk3 V c 4 t) r j ⟨t.val * 5000 + r.val, by omega⟩
    (iblk3_0_apply V c t r j _ rfl) (iblk3_1_apply V c t j) (iblk3_2_apply V c t j) (iblk3_3_apply V c t j) (iblk3_4_apply V c t j)

/-- An index of the array is in point t's block iff each coordinate is in the block's range on its axis. -/
theorem mem_blk3_5 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole (Pipeline.arrRef spec3 5)).slice (win3_5.rect t)).set ↔ _
  rw [View.set_slice_whole, Rect.mem_set_unit]
  exact Iff.rfl

/-- Row i of the array lies in the block of point i / 5000: the ten row tiles cover the array. -/
theorem rows_cover3_5 (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  refine ⟨⟨(i 0).val / 5000, by rw [hN]; omega⟩, flush3_5 _, ?_⟩
  obtain ⟨-, -, -, -, -, -, -, -, -, -, e0, e1⟩ := idx_facts3 ⟨(i 0).val / 5000, by rw [hN]; omega⟩
  rw [mem_blk3_5]
  intro a
  match a with
  | ⟨0, _⟩ =>
    show win3_5.index ⟨(i 0).val / 5000, _⟩ (0 : Fin 2) * 5000 ≤ (i 0).val ∧ (i 0).val < win3_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, _⟩ (1 : Fin 2) * 128 ≤ (i 1).val ∧ (i 1).val < win3_5.index ⟨(i 0).val / 5000, _⟩ (1 : Fin 2) * 128 + 128
    rw [e1]; omega

/-- THE ARRAY after region 3: the whole-array function of the five arrays as the region finds them. -/
theorem bn3_arr_eq (c : Dev nD) :
    (dat3 (F := Ideal) V c).arrAt 5 cfg3.N = bnArr3 (arr3_0 V c) (arr3_1 V c) (arr3_2 V c) (arr3_3 V c) (arr3_4 V c) :=
  (dat3 (F := Ideal) V c).arrAt_eq_of_cover 5 (bnArr3 (arr3_0 V c) (arr3_1 V c) (arr3_2 V c) (arr3_3 V c) (arr3_4 V c))
    (fun t _ => flushed3_5_eq V c t) rows_cover3_5

/-- Entry (i, j) of the array region 3 leaves is the batch-norm + relu of entry (i, j) of the first array by column j of the four rows. -/
theorem bn3_arr (c : Dev nD) (i : Fin 50000) (j : Fin 128) :
    (dat3 (F := Ideal) V c).arrAt 5 cfg3.N (ValueIdx.ix2 i j)
      = Cert.Spec.bn (fun i k => arr3_0 V c (ix2 i k)) (fun k => arr3_1 V c (ix2 0 k)) (fun k => arr3_2 V c (ix2 0 k))
          (fun k => arr3_3 V c (ix2 0 k)) (fun k => arr3_4 V c (ix2 0 k)) i j := by
  rw [bn3_arr_eq V c]
  rfl

end Regions

end Cert.KernelIdeal.Hand

end
-- ==== Proof.KI.BnValue5.lean ====
/-
  What the normalising region leaves in its output array, as one function of the whole array.

  The region visits ten grid points. At point t it reads rows 5000 t … 5000 t + 4999 of the 50000x128 input array and
  the whole of four 1x128 rows (the mean, the variance, the scale, the shift), and writes back rows
  5000 t … 5000 t + 4999 of the 50000x128 output array. Entry (r, j) of a tile is entry (5000 t + r, j) of its array,
  and a row's block is the row itself; the entry written at (r, j) is the centred input entry times the scale, times
  the reciprocal square root of the variance plus epsilon, plus the shift, rectified, all taken in column j. So every
  point writes the restriction, to its tenth of the rows, of ONE function of the array index. Row i lies in the rows
  of point i / 5000, so the ten row ranges cover the array, and after the last point the output array is that
  function everywhere:

      out i j = max ((γ j · (x i j − μ j)) · rsqrt (v j + ε) + β j) 0 .
-/
import proofs.«162849_j29643864277577_1_alg».proof.Proof.KI.Bn5
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
-- the TensorCore's buffer contents when the region is entered, on the extended reals
variable (V : (c : Dev nD) → (b : Ref sig .tc) → Buf (Elt Ideal) ((c : Thread nD τ).loc b))

/-- The five arrays the region reads, as it finds them, each at its literal shape: the 50000x128 input and the mean,
    variance, scale and shift rows. -/
abbrev arr5_0 (c : Dev nD) : FVec Ideal S50000x128 .f32 := V c (Pipeline.arrRef spec5 0)
abbrev arr5_1 (c : Dev nD) : FVec Ideal S1x128 .f32 := V c (Pipeline.arrRef spec5 1)
abbrev arr5_2 (c : Dev nD) : FVec Ideal S1x128 .f32 := V c (Pipeline.arrRef spec5 2)
abbrev arr5_3 (c : Dev nD) : FVec Ideal S1x128 .f32 := V c (Pipeline.arrRef spec5 3)
abbrev arr5_4 (c : Dev nD) : FVec Ideal S1x128 .f32 := V c (Pipeline.arrRef spec5 4)

/-- The batch-norm + relu of a whole 50000x128 array by four 1x128 rows, as one function of the array index. -/
def bnArr5 (a0 : FVec Ideal S50000x128 .f32) (a1 a2 a3 a4 : FVec Ideal S1x128 .f32) : FVec Ideal S50000x128 .f32 :=
  fun i => Cert.Spec.bn (fun r k => a0 (ix2 r k)) (fun k => a1 (ix2 0 k)) (fun k => a2 (ix2 0 k))
    (fun k => a3 (ix2 0 k)) (fun k => a4 (ix2 0 k)) (i 0) (i 1)

theorem bnArr5_apply (a0 : FVec Ideal S50000x128 .f32) (a1 a2 a3 a4 : FVec Ideal S1x128 .f32) (i : Fin 50000) (j : Fin 128) :
    bnArr5 a0 a1 a2 a3 a4 (ix2 i j) = Cert.Spec.bn (fun r k => a0 (ix2 r k)) (fun k => a1 (ix2 0 k)) (fun k => a2 (ix2 0 k))
    (fun k => a3 (ix2 0 k)) (fun k => a4 (ix2 0 k)) i j := rfl

/-- The windows' block indices at each of the ten points: the two tile windows sit at row block t, column block 0; the four row windows at block (0, 0). -/
theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 0's block at point t, at (r, j), is the array's entry at row 5000 t + r, column j. -/
theorem iblk5_0_apply (c : Dev nD) (t : Fin cfg5.N) (r : Fin 5000) (j : Fin 128) (i : Fin 50000)
    (hi : i.val = t.val * 5000 + r.val) :
    (iblk5 V c 0 t : FVec Ideal S5000x128 .f32) (ix2 r j) = arr5_0 V c (ix2 i j) := by
  obtain ⟨e0, e1, -⟩ := idx_facts5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * r.val = i.val; rw [e0, hi]; omega
  | ⟨1, _⟩ => show win5_0.index t (1 : Fin 2) * 128 + 1 * j.val = j.val; rw [e1]; omega

/-- Window 1's block at any point is the whole 1x128 array. -/
theorem iblk5_1_apply (c : Dev nD) (t : Fin cfg5.N) (j : Fin 128) :
    (iblk5 V c 1 t : FVec Ideal S1x128 .f32) (ix2 0 j) = arr5_1 V c (ix2 0 j) := by
  obtain ⟨-, -, e0, e1, -⟩ := idx_facts5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (0 : Fin 1).val = (0 : Fin 1).val; rw [e0]; rfl
  | ⟨1, _⟩ => show win5_1.index t (1 : Fin 2) * 128 + 1 * j.val = j.val; rw [e1]; omega

/-- Window 2's block at any point is the whole 1x128 array. -/
theorem iblk5_2_apply (c : Dev nD) (t : Fin cfg5.N) (j : Fin 128) :
    (iblk5 V c 2 t : FVec Ideal S1x128 .f32) (ix2 0 j) = arr5_2 V c (ix2 0 j) := by
  obtain ⟨-, -, -, -, e0, e1, -⟩ := idx_facts5 t
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (0 : Fin 1).val = (0 : Fin 1).val; rw [e0]; rfl
  | ⟨1, _⟩ => show win5_2.index t (1 : Fin 2) * 128 + 1 * j.val = j.val; rw [e1]; omega

/-- Window 3's block at any point is the whole 1x128 array. -/
theorem iblk5_3_apply (c : Dev nD) (t : Fin cfg5.N) (j : Fin 128) :
    (iblk5 V c 3 t : FVec Ideal S1x128 .f32) (ix2 0 j) = arr5_3 V c (ix2 0 j) := by
  obtain ⟨-, -, -, -, -, -, e0, e1, -⟩ := idx_facts5 t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (0 : Fin 1).val = (0 : Fin 1).val; rw [e0]; rfl
  | ⟨1, _⟩ => show win5_3.index t (1 : Fin 2) * 128 + 1 * j.val = j.val; rw [e1]; omega

/-- Window 4's block at any point is the whole 1x128 array. -/
theorem iblk5_4_apply (c : Dev nD) (t : Fin cfg5.N) (j : Fin 128) :
    (iblk5 V c 4 t : FVec Ideal S1x128 .f32) (ix2 0 j) = arr5_4 V c (ix2 0 j) := by
  obtain ⟨-, -, -, -, -, -, -, -, e0, e1, -⟩ := idx_facts5 t
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (0 : Fin 1).val = (0 : Fin 1).val; rw [e0]; rfl
  | ⟨1, _⟩ => show win5_4.index t (1 : Fin 2) * 128 + 1 * j.val = j.val; rw [e1]; omega

/-- One entry of the payload of five blocks that are read off five arrays is the whole-array function at the entry's place in the array. -/
theorem pay5_at (a0 : FVec Ideal S50000x128 .f32) (a1 a2 a3 a4 : FVec Ideal S1x128 .f32)
    (x0 : FVec Ideal S5000x128 .f32) (x1 x2 x3 x4 : FVec Ideal S1x128 .f32) (r : Fin 5000) (j : Fin 128) (i : Fin 50000)
    (h0 : x0 (ix2 r j) = a0 (ix2 i j)) (h1 : x1 (ix2 0 j) = a1 (ix2 0 j)) (h2 : x2 (ix2 0 j) = a2 (ix2 0 j))
    (h3 : x3 (ix2 0 j) = a3 (ix2 0 j)) (h4 : x4 (ix2 0 j) = a4 (ix2 0 j)) :
    k5_pay1 (F := Ideal) x0 x1 x2 x3 x4 (ix2 r j) = bnArr5 a0 a1 a2 a3 a4 (ix2 i j) := by
  rw [PayValue.k5_pay1_apply, h0, h1, h2, h3, h4]
  rfl

/-- WHAT POINT t WRITES BACK is block t of the whole-array function of the five arrays as the region finds them. -/
theorem flushed5_5_eq (c : Dev nD) (t : Fin cfg5.N) :
    (dat5 (F := Ideal) V c).flushed 5 t
      = ((cfg5.win 5).blk t).view.read (Elt Ideal) (bnArr5 (arr5_0 V c) (arr5_1 V c) (arr5_2 V c) (arr5_3 V c) (arr5_4 V c)) := by
  show (cfg5.win 5).cut (grid5.coords t) ((dat5 V c).after 5 t) = _
  rw [after5_5, out5_5_eq]
  obtain ⟨-, -, -, -, -, -, -, -, -, -, e0, e1⟩ := idx_facts5 t
  funext y
  obtain ⟨r, j, rfl⟩ : ∃ (r : Fin 5000) (j : Fin 128), y = ix2 r j := ⟨y 0, y 1, eq_ix2 (n0 := 5000) (n1 := 128) y⟩
  have hr : r.val < 5000 := r.isLt
  have ht : t.val < 10 := Nat.lt_of_lt_of_eq t.isLt N_5
  rw [View.read_apply]
  have hemb : ((cfg5.win 5).blk t).view.emb (ix2 r j) = (ix2 (⟨t.val * 5000 + r.val, by omega⟩ : Fin 50000) j : S50000x128.Idx) := by
    funext a
    apply Fin.ext
    match a with
    | ⟨0, _⟩ => show win5_5.index t (0 : Fin 2) * 5000 + 1 * r.val = t.val * 5000 + r.val; rw [e0]; omega
    | ⟨1, _⟩ => show win5_5.index t (1 : Fin 2) * 128 + 1 * j.val = j.val; rw [e1]; omega
  rw [hemb]
  exact pay5_at (arr5_0 V c) (arr5_1 V c) (arr5_2 V c) (arr5_3 V c) (arr5_4 V c)
    (iblk5 V c 0 t) (iblk5 V c 1 t) (iblk5 V c 2 t) (iblk5 V c 3 t) (iblk5 V c 4 t) r j ⟨t.val * 5000 + r.val, by omega⟩
    (iblk5_0_apply V c t r j _ rfl) (iblk5_1_apply V c t j) (iblk5_2_apply V c t j) (iblk5_3_apply V c t j) (iblk5_4_apply V c t j)

/-- An index of the array is in point t's block iff each coordinate is in the block's range on its axis. -/
theorem mem_blk5_5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole (Pipeline.arrRef spec5 5)).slice (win5_5.rect t)).set ↔ _
  rw [View.set_slice_whole, Rect.mem_set_unit]
  exact Iff.rfl

/-- Row i of the array lies in the block of point i / 5000: the ten row tiles cover the array. -/
theorem rows_cover5_5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_5 _, ?_⟩
  obtain ⟨-, -, -, -, -, -, -, -, -, -, e0, e1⟩ := idx_facts5 ⟨(i 0).val / 5000, by rw [hN]; omega⟩
  rw [mem_blk5_5]
  intro a
  match a with
  | ⟨0, _⟩ =>
    show win5_5.index ⟨(i 0).val / 5000, _⟩ (0 : Fin 2) * 5000 ≤ (i 0).val ∧ (i 0).val < win5_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, _⟩ (1 : Fin 2) * 128 ≤ (i 1).val ∧ (i 1).val < win5_5.index ⟨(i 0).val / 5000, _⟩ (1 : Fin 2) * 128 + 128
    rw [e1]; omega

/-- THE ARRAY after region 5: the whole-array function of the five arrays as the region finds them. -/
theorem bn5_arr_eq (c : Dev nD) :
    (dat5 (F := Ideal) V c).arrAt 5 cfg5.N = bnArr5 (arr5_0 V c) (arr5_1 V c) (arr5_2 V c) (arr5_3 V c) (arr5_4 V c) :=
  (dat5 (F := Ideal) V c).arrAt_eq_of_cover 5 (bnArr5 (arr5_0 V c) (arr5_1 V c) (arr5_2 V c) (arr5_3 V c) (arr5_4 V c))
    (fun t _ => flushed5_5_eq V c t) rows_cover5_5

/-- Entry (i, j) of the array region 5 leaves is the batch-norm + relu of entry (i, j) of the first array by column j of the four rows. -/
theorem bn5_arr (c : Dev nD) (i : Fin 50000) (j : Fin 128) :
    (dat5 (F := Ideal) V c).arrAt 5 cfg5.N (ValueIdx.ix2 i j)
      = Cert.Spec.bn (fun i k => arr5_0 V c (ix2 i k)) (fun k => arr5_1 V c (ix2 0 k)) (fun k => arr5_2 V c (ix2 0 k))
          (fun k => arr5_3 V c (ix2 0 k)) (fun k => arr5_4 V c (ix2 0 k)) i j := by
  rw [bn5_arr_eq V c]
  rfl

end Regions

end Cert.KernelIdeal.Hand

end
-- ==== Proof.KI.BnValue7.lean ====
/-
  What the normalising region leaves in its output array, as one function of the whole array.

  The region visits ten grid points. At point t it reads rows 5000 t … 5000 t + 4999 of the 50000x128 input array and
  the whole of four 1x128 rows (the mean, the variance, the scale, the shift), and writes back rows
  5000 t … 5000 t + 4999 of the 50000x128 output array. Entry (r, j) of a tile is entry (5000 t + r, j) of its array,
  and a row's block is the row itself; the entry written at (r, j) is the centred input entry times the scale, times
  the reciprocal square root of the variance plus epsilon, plus the shift, rectified, all taken in column j. So every
  point writes the restriction, to its tenth of the rows, of ONE function of the array index. Row i lies in the rows
  of point i / 5000, so the ten row ranges cover the array, and after the last point the output array is that
  function everywhere:

      out i j = max ((γ j · (x i j − μ j)) · rsqrt (v j + ε) + β j) 0 .
-/
import proofs.«162849_j29643864277577_1_alg».proof.Proof.KI.Bn7
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
-- the TensorCore's buffer contents when the region is entered, on the extended reals
variable (V : (c : Dev nD) → (b : Ref sig .tc) → Buf (Elt Ideal) ((c : Thread nD τ).loc b))

/-- The five arrays the region reads, as it finds them, each at its literal shape: the 50000x128 input and the mean,
    variance, scale and shift rows. -/
abbrev arr7_0 (c : Dev nD) : FVec Ideal S50000x128 .f32 := V c (Pipeline.arrRef spec7 0)
abbrev arr7_1 (c : Dev nD) : FVec Ideal S1x128 .f32 := V c (Pipeline.arrRef spec7 1)
abbrev arr7_2 (c : Dev nD) : FVec Ideal S1x128 .f32 := V c (Pipeline.arrRef spec7 2)
abbrev arr7_3 (c : Dev nD) : FVec Ideal S1x128 .f32 := V c (Pipeline.arrRef spec7 3)
abbrev arr7_4 (c : Dev nD) : FVec Ideal S1x128 .f32 := V c (Pipeline.arrRef spec7 4)

/-- The batch-norm + relu of a whole 50000x128 array by four 1x128 rows, as one function of the array index. -/
def bnArr7 (a0 : FVec Ideal S50000x128 .f32) (a1 a2 a3 a4 : FVec Ideal S1x128 .f32) : FVec Ideal S50000x128 .f32 :=
  fun i => Cert.Spec.bn (fun r k => a0 (ix2 r k)) (fun k => a1 (ix2 0 k)) (fun k => a2 (ix2 0 k))
    (fun k => a3 (ix2 0 k)) (fun k => a4 (ix2 0 k)) (i 0) (i 1)

theorem bnArr7_apply (a0 : FVec Ideal S50000x128 .f32) (a1 a2 a3 a4 : FVec Ideal S1x128 .f32) (i : Fin 50000) (j : Fin 128) :
    bnArr7 a0 a1 a2 a3 a4 (ix2 i j) = Cert.Spec.bn (fun r k => a0 (ix2 r k)) (fun k => a1 (ix2 0 k)) (fun k => a2 (ix2 0 k))
    (fun k => a3 (ix2 0 k)) (fun k => a4 (ix2 0 k)) i j := rfl

/-- The windows' block indices at each of the ten points: the two tile windows sit at row block t, column block 0; the four row windows at block (0, 0). -/
theorem idx_facts7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Window 0's block at point t, at (r, j), is the array's entry at row 5000 t + r, column j. -/
theorem iblk7_0_apply (c : Dev nD) (t : Fin cfg7.N) (r : Fin 5000) (j : Fin 128) (i : Fin 50000)
    (hi : i.val = t.val * 5000 + r.val) :
    (iblk7 V c 0 t : FVec Ideal S5000x128 .f32) (ix2 r j) = arr7_0 V c (ix2 i j) := by
  obtain ⟨e0, e1, -⟩ := idx_facts7 t
  unfold iblk7
  rw [View.read_apply]
  show V c (Pipeline.arrRef spec7 0) _ = V c (Pipeline.arrRef spec7 0) _
  congr 1
  funext a
  apply Fin.ext
  match a with
  | ⟨0, _⟩ => show win7_0.index t (0 : Fin 2) * 5000 + 1 * r.val = i.val; rw [e0, hi]; omega
  | ⟨1, _⟩ => show win7_0.index t (1 : Fin 2) * 128 + 1 * j.val = j.val; rw [e1]; omega

/-- Window 1's block at any point is the whole 1x128 array. -/
theorem iblk7_1_apply (c : Dev nD) (t : Fin cfg7.N) (j : Fin 128) :
    (iblk7 V c 1 t : FVec Ideal S1x128 .f32) (ix2 0 j) = arr7_1 V c (ix2 0 j) := by
  obtain ⟨-, -, e0, e1, -⟩ := idx_facts7 t
  unfold iblk7
  rw [View.read_apply]
  show V c (Pipeline.arrRef spec7 1) _ = V c (Pipeline.arrRef spec7 1) _
  congr 1
  funext a
  apply Fin.ext
  match a with
  | ⟨0, _⟩ => show win7_1.index t (0 : Fin 2) * 1 + 1 * (0 : Fin 1).val = (0 : Fin 1).val; rw [e0]; rfl
  | ⟨1, _⟩ => show win7_1.index t (1 : Fin 2) * 128 + 1 * j.val = j.val; rw [e1]; omega

/-- Window 2's block at any point is the whole 1x128 array. -/
theorem iblk7_2_apply (c : Dev nD) (t : Fin cfg7.N) (j : Fin 128) :
    (iblk7 V c 2 t : FVec Ideal S1x128 .f32) (ix2 0 j) = arr7_2 V c (ix2 0 j) := by
  obtain ⟨-, -, -, -, e0, e1, -⟩ := idx_facts7 t
  unfold iblk7
  rw [View.read_apply]
  show V c (Pipeline.arrRef spec7 2) _ = V c (Pipeline.arrRef spec7 2) _
  congr 1
  funext a
  apply Fin.ext
  match a with
  | ⟨0, _⟩ => show win7_2.index t (0 : Fin 2) * 1 + 1 * (0 : Fin 1).val = (0 : Fin 1).val; rw [e0]; rfl
  | ⟨1, _⟩ => show win7_2.index t (1 : Fin 2) * 128 + 1 * j.val = j.val; rw [e1]; omega

/-- Window 3's block at any point is the whole 1x128 array. -/
theorem iblk7_3_apply (c : Dev nD) (t : Fin cfg7.N) (j : Fin 128) :
    (iblk7 V c 3 t : FVec Ideal S1x128 .f32) (ix2 0 j) = arr7_3 V c (ix2 0 j) := by
  obtain ⟨-, -, -, -, -, -, e0, e1, -⟩ := idx_facts7 t
  unfold iblk7
  rw [View.read_apply]
  show V c (Pipeline.arrRef spec7 3) _ = V c (Pipeline.arrRef spec7 3) _
  congr 1
  funext a
  apply Fin.ext
  match a with
  | ⟨0, _⟩ => show win7_3.index t (0 : Fin 2) * 1 + 1 * (0 : Fin 1).val = (0 : Fin 1).val; rw [e0]; rfl
  | ⟨1, _⟩ => show win7_3.index t (1 : Fin 2) * 128 + 1 * j.val = j.val; rw [e1]; omega

/-- Window 4's block at any point is the whole 1x128 array. -/
theorem iblk7_4_apply (c : Dev nD) (t : Fin cfg7.N) (j : Fin 128) :
    (iblk7 V c 4 t : FVec Ideal S1x128 .f32) (ix2 0 j) = arr7_4 V c (ix2 0 j) := by
  obtain ⟨-, -, -, -, -, -, -, -, e0, e1, -⟩ := idx_facts7 t
  unfold iblk7
  rw [View.read_apply]
  show V c (Pipeline.arrRef spec7 4) _ = V c (Pipeline.arrRef spec7 4) _
  congr 1
  funext a
  apply Fin.ext
  match a with
  | ⟨0, _⟩ => show win7_4.index t (0 : Fin 2) * 1 + 1 * (0 : Fin 1).val = (0 : Fin 1).val; rw [e0]; rfl
  | ⟨1, _⟩ => show win7_4.index t (1 : Fin 2) * 128 + 1 * j.val = j.val; rw [e1]; omega

/-- One entry of the payload of five blocks that are read off five arrays is the whole-array function at the entry's place in the array. -/
theorem pay7_at (a0 : FVec Ideal S50000x128 .f32) (a1 a2 a3 a4 : FVec Ideal S1x128 .f32)
    (x0 : FVec Ideal S5000x128 .f32) (x1 x2 x3 x4 : FVec Ideal S1x128 .f32) (r : Fin 5000) (j : Fin 128) (i : Fin 50000)
    (h0 : x0 (ix2 r j) = a0 (ix2 i j)) (h1 : x1 (ix2 0 j) = a1 (ix2 0 j)) (h2 : x2 (ix2 0 j) = a2 (ix2 0 j))
    (h3 : x3 (ix2 0 j) = a3 (ix2 0 j)) (h4 : x4 (ix2 0 j) = a4 (ix2 0 j)) :
    k7_pay1 (F := Ideal) x0 x1 x2 x3 x4 (ix2 r j) = bnArr7 a0 a1 a2 a3 a4 (ix2 i j) := by
  rw [PayValue.k7_pay1_apply, h0, h1, h2, h3, h4]
  rfl

/-- WHAT POINT t WRITES BACK is block t of the whole-array function of the five arrays as the region finds them. -/
theorem flushed7_5_eq (c : Dev nD) (t : Fin cfg7.N) :
    (dat7 (F := Ideal) V c).flushed 5 t
      = ((cfg7.win 5).blk t).view.read (Elt Ideal) (bnArr7 (arr7_0 V c) (arr7_1 V c) (arr7_2 V c) (arr7_3 V c) (arr7_4 V c)) := by
  show (cfg7.win 5).cut (grid7.coords t) ((dat7 V c).after 5 t) = _
  rw [after7_5, out7_5_eq]
  obtain ⟨-, -, -, -, -, -, -, -, -, -, e0, e1⟩ := idx_facts7 t
  funext y
  obtain ⟨r, j, rfl⟩ : ∃ (r : Fin 5000) (j : Fin 128), y = ix2 r j := ⟨y 0, y 1, eq_ix2 (n0 := 5000) (n1 := 128) y⟩
  have hr : r.val < 5000 := r.isLt
  have ht : t.val < 10 := Nat.lt_of_lt_of_eq t.isLt N_7
  rw [View.read_apply]
  have hemb : ((cfg7.win 5).blk t).view.emb (ix2 r j) = (ix2 (⟨t.val * 5000 + r.val, by omega⟩ : Fin 50000) j : S50000x128.Idx) := by
    funext a
    apply Fin.ext
    match a with
    | ⟨0, _⟩ => show win7_5.index t (0 : Fin 2) * 5000 + 1 * r.val = t.val * 5000 + r.val; rw [e0]; omega
    | ⟨1, _⟩ => show win7_5.index t (1 : Fin 2) * 128 + 1 * j.val = j.val; rw [e1]; omega
  rw [hemb]
  exact pay7_at (arr7_0 V c) (arr7_1 V c) (arr7_2 V c) (arr7_3 V c) (arr7_4 V c)
    (iblk7 V c 0 t) (iblk7 V c 1 t) (iblk7 V c 2 t) (iblk7 V c 3 t) (iblk7 V c 4 t) r j ⟨t.val * 5000 + r.val, by omega⟩
    (iblk7_0_apply V c t r j _ rfl) (iblk7_1_apply V c t j) (iblk7_2_apply V c t j) (iblk7_3_apply V c t j) (iblk7_4_apply V c t j)

/-- An index of the array is in point t's block iff each coordinate is in the block's range on its axis. -/
theorem mem_blk7_5 (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole (Pipeline.arrRef spec7 5)).slice (win7_5.rect t)).set ↔ _
  rw [View.set_slice_whole, Rect.mem_set_unit]
  exact Iff.rfl

/-- Row i of the array lies in the block of point i / 5000: the ten row tiles cover the array. -/
theorem rows_cover7_5 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  have hN : cfg7.N = 10 := N_7
  refine ⟨⟨(i 0).val / 5000, by rw [hN]; omega⟩, flush7_5 _, ?_⟩
  obtain ⟨-, -, -, -, -, -, -, -, -, -, e0, e1⟩ := idx_facts7 ⟨(i 0).val / 5000, by rw [hN]; omega⟩
  rw [mem_blk7_5]
  intro a
  match a with
  | ⟨0, _⟩ =>
    show win7_5.index ⟨(i 0).val / 5000, _⟩ (0 : Fin 2) * 5000 ≤ (i 0).val ∧ (i 0).val < win7_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win7_5.index ⟨(i 0).val / 5000, _⟩ (1 : Fin 2) * 128 ≤ (i 1).val ∧ (i 1).val < win7_5.index ⟨(i 0).val / 5000, _⟩ (1 : Fin 2) * 128 + 128
    rw [e1]; omega

/-- THE ARRAY after region 7: the whole-array function of the five arrays as the region finds them. -/
theorem bn7_arr_eq (c : Dev nD) :
    (dat7 (F := Ideal) V c).arrAt 5 cfg7.N = bnArr7 (arr7_0 V c) (arr7_1 V c) (arr7_2 V c) (arr7_3 V c) (arr7_4 V c) :=
  (dat7 (F := Ideal) V c).arrAt_eq_of_cover 5 (bnArr7 (arr7_0 V c) (arr7_1 V c) (arr7_2 V c) (arr7_3 V c) (arr7_4 V c))
    (fun t _ => flushed7_5_eq V c t) rows_cover7_5

/-- Entry (i, j) of the array region 7 leaves is the batch-norm + relu of entry (i, j) of the first array by column j of the four rows. -/
theorem bn7_arr (c : Dev nD) (i : Fin 50000) (j : Fin 128) :
    (dat7 (F := Ideal) V c).arrAt 5 cfg7.N (ValueIdx.ix2 i j)
      = Cert.Spec.bn (fun i k => arr7_0 V c (ix2 i k)) (fun k => arr7_1 V c (ix2 0 k)) (fun k => arr7_2 V c (ix2 0 k))
          (fun k => arr7_3 V c (ix2 0 k)) (fun k => arr7_4 V c (ix2 0 k)) i j := by
  rw [bn7_arr_eq V c]
  rfl

end Regions

end Cert.KernelIdeal.Hand

end
-- ==== Proof.KI.BnValue9.lean ====
/-
  What the normalising region leaves in its output array, as one function of the whole array.

  The region visits ten grid points. At point t it reads rows 5000 t … 5000 t + 4999 of the 50000x128 input array and
  the whole of four 1x128 rows (the mean, the variance, the scale, the shift), and writes back rows
  5000 t … 5000 t + 4999 of the 50000x128 output array. Entry (r, j) of a tile is entry (5000 t + r, j) of its array,
  and a row's block is the row itself; the entry written at (r, j) is the centred input entry times the scale, times
  the reciprocal square root of the variance plus epsilon, plus the shift, rectified, all taken in column j. So every
  point writes the restriction, to its tenth of the rows, of ONE function of the array index. Row i lies in the rows
  of point i / 5000, so the ten row ranges cover the array, and after the last point the output array is that
  function everywhere:

      out i j = max ((γ j · (x i j − μ j)) · rsqrt (v j + ε) + β j) 0 .
-/
import proofs.«162849_j29643864277577_1_alg».proof.Proof.KI.Bn9
import proofs.«162849_j29643864277577_1_alg».proof.Proof.KI.PayRead
import proofs.«162849_j29643864277577_1_alg».proof.Proof.Math.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
-- the TensorCore's buffer contents when the region is entered, on the extended reals
variable (V : (c : Dev nD) → (b : Ref sig .tc) → Buf (Elt Ideal) ((c : Thread nD τ).loc b))

/-- The five arrays the region reads, as it finds them, each at its literal shape: the 50000x128 input and the mean,
    variance, scale and shift rows. -/
abbrev arr9_0 (c : Dev nD) : FVec Ideal S50000x128 .f32 := V c (Pipeline.arrRef spec9 0)
abbrev arr9_1 (c : Dev nD) : FVec Ideal S1x128 .f32 := V c (Pipeline.arrRef spec9 1)
abbrev arr9_2 (c : Dev nD) : FVec Ideal S1x128 .f32 := V c (Pipeline.arrRef spec9 2)
abbrev arr9_3 (c : Dev nD) : FVec Ideal S1x128 .f32 := V c (Pipeline.arrRef spec9 3)
abbrev arr9_4 (c : Dev nD) : FVec Ideal S1x128 .f32 := V c (Pipeline.arrRef spec9 4)

/-- The batch-norm + relu of a whole 50000x128 array by four 1x128 rows, as one function of the array index. -/
def bnArr9 (a0 : FVec Ideal S50000x128 .f32) (a1 a2 a3 a4 : FVec Ideal S1x128 .f32) : FVec Ideal S50000x128 .f32 :=
  fun i => Cert.Spec.bn (fun r k => a0 (ix2 r k)) (fun k => a1 (ix2 0 k)) (fun k => a2 (ix2 0 k))
    (fun k => a3 (ix2 0 k)) (fun k => a4 (ix2 0 k)) (i 0) (i 1)

theorem bnArr9_apply (a0 : FVec Ideal S50000x128 .f32) (a1 a2 a3 a4 : FVec Ideal S1x128 .f32) (i : Fin 50000) (j : Fin 128) :
    bnArr9 a0 a1 a2 a3 a4 (ix2 i j) = Cert.Spec.bn (fun r k => a0 (ix2 r k)) (fun k => a1 (ix2 0 k)) (fun k => a2 (ix2 0 k))
    (fun k => a3 (ix2 0 k)) (fun k => a4 (ix2 0 k)) i j := rfl

/-- The windows' block indices at each of the ten points: the two tile windows sit at row block t, column block 0; the four row windows at block (0, 0). -/
theorem idx_facts9 : ∀ t : Fin cfg9.N,
      win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Window 0's block at point t, at (r, j), is the array's entry at row 5000 t + r, column j. -/
theorem iblk9_0_apply (c : Dev nD) (t : Fin cfg9.N) (r : Fin 5000) (j : Fin 128) (i : Fin 50000)
    (hi : i.val = t.val * 5000 + r.val) :
    (iblk9 V c 0 t : FVec Ideal S5000x128 .f32) (ix2 r j) = arr9_0 V c (ix2 i j) := by
  obtain ⟨e0, e1, -⟩ := idx_facts9 t
  unfold iblk9
  rw [View.read_apply]
  show V c (Pipeline.arrRef spec9 0) _ = V c (Pipeline.arrRef spec9 0) _
  congr 1
  funext a
  apply Fin.ext
  match a with
  | ⟨0, _⟩ => show win9_0.index t (0 : Fin 2) * 5000 + 1 * r.val = i.val; rw [e0, hi]; omega
  | ⟨1, _⟩ => show win9_0.index t (1 : Fin 2) * 128 + 1 * j.val = j.val; rw [e1]; omega

/-- Window 1's block at any point is the whole 1x128 array. -/
theorem iblk9_1_apply (c : Dev nD) (t : Fin cfg9.N) (j : Fin 128) :
    (iblk9 V c 1 t : FVec Ideal S1x128 .f32) (ix2 0 j) = arr9_1 V c (ix2 0 j) := by
  obtain ⟨-, -, e0, e1, -⟩ := idx_facts9 t
  unfold iblk9
  rw [View.read_apply]
  show V c (Pipeline.arrRef spec9 1) _ = V c (Pipeline.arrRef spec9 1) _
  congr 1
  funext a
  apply Fin.ext
  match a with
  | ⟨0, _⟩ => show win9_1.index t (0 : Fin 2) * 1 + 1 * (0 : Fin 1).val = (0 : Fin 1).val; rw [e0]; rfl
  | ⟨1, _⟩ => show win9_1.index t (1 : Fin 2) * 128 + 1 * j.val = j.val; rw [e1]; omega

/-- Window 2's block at any point is the whole 1x128 array. -/
theorem iblk9_2_apply (c : Dev nD) (t : Fin cfg9.N) (j : Fin 128) :
    (iblk9 V c 2 t : FVec Ideal S1x128 .f32) (ix2 0 j) = arr9_2 V c (ix2 0 j) := by
  obtain ⟨-, -, -, -, e0, e1, -⟩ := idx_facts9 t
  unfold iblk9
  rw [View.read_apply]
  show V c (Pipeline.arrRef spec9 2) _ = V c (Pipeline.arrRef spec9 2) _
  congr 1
  funext a
  apply Fin.ext
  match a with
  | ⟨0, _⟩ => show win9_2.index t (0 : Fin 2) * 1 + 1 * (0 : Fin 1).val = (0 : Fin 1).val; rw [e0]; rfl
  | ⟨1, _⟩ => show win9_2.index t (1 : Fin 2) * 128 + 1 * j.val = j.val; rw [e1]; omega

/-- Window 3's block at any point is the whole 1x128 array. -/
theorem iblk9_3_apply (c : Dev nD) (t : Fin cfg9.N) (j : Fin 128) :
    (iblk9 V c 3 t : FVec Ideal S1x128 .f32) (ix2 0 j) = arr9_3 V c (ix2 0 j) := by
  obtain ⟨-, -, -, -, -, -, e0, e1, -⟩ := idx_facts9 t
  unfold iblk9
  rw [View.read_apply]
  show V c (Pipeline.arrRef spec9 3) _ = V c (Pipeline.arrRef spec9 3) _
  congr 1
  funext a
  apply Fin.ext
  match a with
  | ⟨0, _⟩ => show win9_3.index t (0 : Fin 2) * 1 + 1 * (0 : Fin 1).val = (0 : Fin 1).val; rw [e0]; rfl
  | ⟨1, _⟩ => show win9_3.index t (1 : Fin 2) * 128 + 1 * j.val = j.val; rw [e1]; omega

/-- Window 4's block at any point is the whole 1x128 array. -/
theorem iblk9_4_apply (c : Dev nD) (t : Fin cfg9.N) (j : Fin 128) :
    (iblk9 V c 4 t : FVec Ideal S1x128 .f32) (ix2 0 j) = arr9_4 V c (ix2 0 j) := by
  obtain ⟨-, -, -, -, -, -, -, -, e0, e1, -⟩ := idx_facts9 t
  unfold iblk9
  rw [View.read_apply]
  show V c (Pipeline.arrRef spec9 4) _ = V c (Pipeline.arrRef spec9 4) _
  congr 1
  funext a
  apply Fin.ext
  match a with
  | ⟨0, _⟩ => show win9_4.index t (0 : Fin 2) * 1 + 1 * (0 : Fin 1).val = (0 : Fin 1).val; rw [e0]; rfl
  | ⟨1, _⟩ => show win9_4.index t (1 : Fin 2) * 128 + 1 * j.val = j.val; rw [e1]; omega

/-- One entry of the payload of five blocks that are read off five arrays is the whole-array function at the entry's place in the array. -/
theorem pay9_at (a0 : FVec Ideal S50000x128 .f32) (a1 a2 a3 a4 : FVec Ideal S1x128 .f32)
    (x0 : FVec Ideal S5000x128 .f32) (x1 x2 x3 x4 : FVec Ideal S1x128 .f32) (r : Fin 5000) (j : Fin 128) (i : Fin 50000)
    (h0 : x0 (ix2 r j) = a0 (ix2 i j)) (h1 : x1 (ix2 0 j) = a1 (ix2 0 j)) (h2 : x2 (ix2 0 j) = a2 (ix2 0 j))
    (h3 : x3 (ix2 0 j) = a3 (ix2 0 j)) (h4 : x4 (ix2 0 j) = a4 (ix2 0 j)) :
    k9_pay1 (F := Ideal) x0 x1 x2 x3 x4 (ix2 r j) = bnArr9 a0 a1 a2 a3 a4 (ix2 i j) := by
  rw [PayValue.k9_pay1_apply, h0, h1, h2, h3, h4]
  rfl

/-- WHAT POINT t WRITES BACK is block t of the whole-array function of the five arrays as the region finds them. -/
theorem flushed9_5_eq (c : Dev nD) (t : Fin cfg9.N) :
    (dat9 (F := Ideal) V c).flushed 5 t
      = ((cfg9.win 5).blk t).view.read (Elt Ideal) (bnArr9 (arr9_0 V c) (arr9_1 V c) (arr9_2 V c) (arr9_3 V c) (arr9_4 V c)) := by
  show (cfg9.win 5).cut (grid9.coords t) ((dat9 V c).after 5 t) = _
  rw [after9_5, out9_5_eq]
  obtain ⟨-, -, -, -, -, -, -, -, -, -, e0, e1⟩ := idx_facts9 t
  funext y
  obtain ⟨r, j, rfl⟩ : ∃ (r : Fin 5000) (j : Fin 128), y = ix2 r j := ⟨y 0, y 1, eq_ix2 (n0 := 5000) (n1 := 128) y⟩
  have hr : r.val < 5000 := r.isLt
  have ht : t.val < 10 := Nat.lt_of_lt_of_eq t.isLt N_9
  rw [View.read_apply]
  have hemb : ((cfg9.win 5).blk t).view.emb (ix2 r j) = (ix2 (⟨t.val * 5000 + r.val, by omega⟩ : Fin 50000) j : S50000x128.Idx) := by
    funext a
    apply Fin.ext
    match a with
    | ⟨0, _⟩ => show win9_5.index t (0 : Fin 2) * 5000 + 1 * r.val = t.val * 5000 + r.val; rw [e0]; omega
    | ⟨1, _⟩ => show win9_5.index t (1 : Fin 2) * 128 + 1 * j.val = j.val; rw [e1]; omega
  rw [hemb]
  exact pay9_at (arr9_0 V c) (arr9_1 V c) (arr9_2 V c) (arr9_3 V c) (arr9_4 V c)
    (iblk9 V c 0 t) (iblk9 V c 1 t) (iblk9 V c 2 t) (iblk9 V c 3 t) (iblk9 V c 4 t) r j ⟨t.val * 5000 + r.val, by omega⟩
    (iblk9_0_apply V c t r j _ rfl) (iblk9_1_apply V c t j) (iblk9_2_apply V c t j) (iblk9_3_apply V c t j) (iblk9_4_apply V c t j)

/-- An index of the array is in point t's block iff each coordinate is in the block's range on its axis. -/
theorem mem_blk9_5 (t : Fin cfg9.N) (i : S50000x128.Idx) :
    i ∈ ((cfg9.win 5).blk t).view.set ↔ ∀ a : Fin 2, win9_5.index t a * S5000x128.size a ≤ (i a).val ∧ (i a).val < win9_5.index t a * S5000x128.size a + S5000x128.size a := by
  show i ∈ ((View.whole (Pipeline.arrRef spec9 5)).slice (win9_5.rect t)).set ↔ _
  rw [View.set_slice_whole, Rect.mem_set_unit]
  exact Iff.rfl

/-- Row i of the array lies in the block of point i / 5000: the ten row tiles cover the array. -/
theorem rows_cover9_5 (i : S50000x128.Idx) :
    ∃ t : Fin cfg9.N, (cfg9.win 5).flush t = true ∧ i ∈ ((cfg9.win 5).blk t).view.set := by
  have hi0 : (i 0).val < 50000 := (i 0).isLt
  have hi1 : (i 1).val < 128 := (i 1).isLt
  have hN : cfg9.N = 10 := N_9
  refine ⟨⟨(i 0).val / 5000, by rw [hN]; omega⟩, flush9_5 _, ?_⟩
  obtain ⟨-, -, -, -, -, -, -, -, -, -, e0, e1⟩ := idx_facts9 ⟨(i 0).val / 5000, by rw [hN]; omega⟩
  rw [mem_blk9_5]
  intro a
  match a with
  | ⟨0, _⟩ =>
    show win9_5.index ⟨(i 0).val / 5000, _⟩ (0 : Fin 2) * 5000 ≤ (i 0).val ∧ (i 0).val < win9_5.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win9_5.index ⟨(i 0).val / 5000, _⟩ (1 : Fin 2) * 128 ≤ (i 1).val ∧ (i 1).val < win9_5.index ⟨(i 0).val / 5000, _⟩ (1 : Fin 2) * 128 + 128
    rw [e1]; omega

/-- THE ARRAY after region 9: the whole-array function of the five arrays as the region finds them. -/
theorem bn9_arr_eq (c : Dev nD) :
    (dat9 (F := Ideal) V c).arrAt 5 cfg9.N = bnArr9 (arr9_0 V c) (arr9_1 V c) (arr9_2 V c) (arr9_3 V c) (arr9_4 V c) :=
  (dat9 (F := Ideal) V c).arrAt_eq_of_cover 5 (bnArr9 (arr9_0 V c) (arr9_1 V c) (arr9_2 V c) (arr9_3 V c) (arr9_4 V c))
    (fun t _ => flushed9_5_eq V c t) rows_cover9_5

/-- Entry (i, j) of the array region 9 leaves is the batch-norm + relu of entry (i, j) of the first array by column j of the four rows. -/
theorem bn9_arr (c : Dev nD) (i : Fin 50000) (j : Fin 128) :
    (dat9 (F := Ideal) V c).arrAt 5 cfg9.N (ValueIdx.ix2 i j)
      = Cert.Spec.bn (fun i k => arr9_0 V c (ix2 i k)) (fun k => arr9_1 V c (ix2 0 k)) (fun k => arr9_2 V c (ix2 0 k))
          (fun k => arr9_3 V c (ix2 0 k)) (fun k => arr9_4 V c (ix2 0 k)) i j := by
  rw [bn9_arr_eq V c]
  rfl

end Regions

end Cert.KernelIdeal.Hand

end
-- ==== Proof.KI.HostRead.lean ====
/-
  What the host stretches between the kernel calls leave in the next call's operand buffers, as functions of what
  the buffers held when the stretch began.

  The program runs five layers. Before the first call of layer l (the linear-and-statistics call) the host computes,
  from the node features h entering the layer, the edge weights, the edge sources and the edge targets,

      agg = the messages h[src] · weight, scatter-added at the target rows into zeros,

  and cuts layer l's parameters out of the stacks of five: the two 128 x 128 matrices W_rel[l], W_root[l] and the two
  bias rows b_rel[l], b_root[l], each bias laid out as a 1 x 128 row. Before the second call of layer l (the
  normalise-and-rectify call) it cuts out the scale row gamma[l] and the shift row beta[l] in the same way.

  Layer 0 also produces the two edge vectors themselves, rows 0 and 1 of the 2 x 600000 edge-index array; the later
  layers read those two vectors again where layer 0 left them. So for layer 0 the aggregated messages are a function of
  the edge-index array, for the later layers of the two buffers that hold the edge vectors.

  Every statement is for an ARBITRARY valuation of the buffers at the start of the stretch: nothing is assumed about
  how the buffers came to hold what they hold. Three kinds of statement per stretch:

    * the aggregated-message buffer is the shared aggregation function of the entering features, the weights and the
      two edge vectors;
    * each parameter buffer, read at explicit coordinates, is the stack's entry at (l, those coordinates);
    * a buffer the stretch does not write holds afterwards what it held before.
-/
import proofs.«162849_j29643864277577_1_alg».proof.Proof.Gen.KernelIdeal.Launch
import proofs.«162849_j29643864277577_1_alg».proof.Proof.Gen.KernelIdeal.Regions
import proofs.«162849_j29643864277577_1_alg».proof.Proof.Math.HostFinite
import proofs.«162849_j29643864277577_1_alg».proof.Proof.Math.Spec
import Idealize.ShloMosaic.Lib.StableHlo.Run
import Idealize.ShloMosaic.Lib.ValueIdx
import Idealize.ShloMosaic.Lib.Pipeline.Value
import Idealize.ShloMosaic.Lib.ValueLayout

set_option maxRecDepth 1864

noncomputable section

namespace Cert.KernelIdeal.HostValue

open Cert.KernelIdeal Cert.KernelIdeal.Gen
open Idealize.ShloMosaic Idealize.ShloMosaic.ValueIdx
open Cert.Proof.HostFinite (aggOf)

/-! ## The two edge vectors inside the edge-index array -/

/-- The edge sources: row 0 of the 2 x 600000 edge-index array, as a vector of 600000 words (before any wrap of a
    negative word: the aggregation function does that wrap itself). -/
def srcOf (e : IVec S2x600000 32) : IVec S600000 32 :=
  shapeCast S600000 (extractStridedSlice S1x600000 ![0, 0] e slices_S2x600000_S1x600000_0_0) shapeCasts_S1x600000_S600000

/-- The edge targets: row 1 of the edge-index array, as a vector of 600000 words. -/
def dstOf (e : IVec S2x600000 32) : IVec S600000 32 :=
  shapeCast S600000 (extractStridedSlice S1x600000 ![1, 0] e slices_S2x600000_S1x600000_1_0) shapeCasts_S1x600000_S600000

/-! ## A layer's parameters cut out of the stacks of five -/

section Read
variable {α : Type}

/-- Matrix `l` of a stack of five 128 x 128 matrices (the slice [l, l+1) along the first axis, its unit axis dropped)
    holds at (k, j) the stack's entry (l, k, j): dropping the unit axis reads (0, k, j) of the slice, and the slice
    shifts the first coordinate by l and the other two by nothing. -/
theorem stackMat_apply (x : S5x128x128.Idx → α) (l : Fin 5) (hs : S5x128x128.Slices ![l.val, 0, 0] S1x128x128)
    (hc : S1x128x128.ShapeCasts S128x128) (k j : Fin 128) :
    shapeCast S128x128 (extractStridedSlice S1x128x128 ![l.val, 0, 0] x hs) hc (ix2 k j) = x (ix3 l k j) :=
  (shapeCast_1ab_ab_apply _ hc k j).trans
    (extractStridedSlice_apply _ x hs _ _ fun a => match a with
      | ⟨0, _⟩ => by show l.val = l.val + 0; omega
      | ⟨1, _⟩ => by show k.val = 0 + k.val; omega
      | ⟨2, _⟩ => by show j.val = 0 + j.val; omega)

/-- Row `l` of a stack of five rows of 128 (the slice [l, l+1) along the first axis, flattened to a vector of 128 and
    set up again as a 1 x 128 row) holds at (0, j) the stack's entry (l, j): the row reads the vector at j, the vector
    reads the slice at (0, j), and the slice shifts the first coordinate by l. -/
theorem stackRow_apply (x : S5x128.Idx → α) (l : Fin 5) (hs : S5x128.Slices ![l.val, 0] S1x128)
    (hc : S1x128.ShapeCasts S128) (hc' : S128.ShapeCasts S1x128) (u : Fin 1) (j : Fin 128) :
    shapeCast S1x128 (shapeCast S128 (extractStridedSlice S1x128 ![l.val, 0] x hs) hc) hc' (ix2 u j) = x (ix2 l j) :=
  (shapeCast_a_1a_apply _ hc' u j).trans ((shapeCast_1a_a_apply _ hc j).trans
    (extractStridedSlice_apply _ x hs _ _ fun a => match a with
      | ⟨0, _⟩ => by show l.val = l.val + 0; omega
      | ⟨1, _⟩ => by show j.val = 0 + j.val; omega))

end Read

/-! ## Layer 0

The stretch before the first call computes the two edge vectors out of the edge-index array, the aggregated messages of
the program's input features, and layer 0's four linear parameters; the stretch before the second call cuts out layer
0's scale and shift rows. -/

/-- Layer 0's aggregated messages: the aggregation function of the input features, the edge weights, and rows 0 and 1
    of the edge-index array. -/
theorem agg0 (W : Valuation τ sig (Elt Ideal)) :
    (StableHlo.after hostOps0 W (Proc.devRef .tc main_v16) : FVec Ideal S50000x128 .f32)
      = aggOf (F := Ideal) (W (Proc.devRef .tc main_arg0)) (W (Proc.devRef .tc main_arg1))
          (srcOf (W (Proc.devRef .tc main_arg8))) (dstOf (W (Proc.devRef .tc main_arg8))) := by
  show StableHlo.after hostOps0 W (Proc.devRef .tc main_v16) = _
  after_results_simp
  rfl

/-- Layer 0's W_rel at (k, j) is the stack's entry (0, k, j). -/
theorem wr0 (W : Valuation τ sig (Elt Ideal)) (k j : Fin 128) :
    (StableHlo.after hostOps0 W (Proc.devRef .tc main_v18) : FVec Ideal S128x128 .f32) (ix2 k j)
      = (W (Proc.devRef .tc main_arg2) : FVec Ideal S5x128x128 .f32) (ix3 (0 : Fin 5) k j) := by
  show StableHlo.after hostOps0 W (Proc.devRef .tc main_v18) (ix2 k j) = _
  after_results_simp
  exact stackMat_apply _ (0 : Fin 5) _ _ k j

/-- Layer 0's W_root at (k, j) is the stack's entry (0, k, j). -/
theorem wo0 (W : Valuation τ sig (Elt Ideal)) (k j : Fin 128) :
    (StableHlo.after hostOps0 W (Proc.devRef .tc main_v22) : FVec Ideal S128x128 .f32) (ix2 k j)
      = (W (Proc.devRef .tc main_arg4) : FVec Ideal S5x128x128 .f32) (ix3 (0 : Fin 5) k j) := by
  show StableHlo.after hostOps0 W (Proc.devRef .tc main_v22) (ix2 k j) = _
  after_results_simp
  exact stackMat_apply _ (0 : Fin 5) _ _ k j

/-- Layer 0's b_rel row at (0, j) is the stack's entry (0, j). -/
theorem br0 (W : Valuation τ sig (Elt Ideal)) (j : Fin 128) :
    (StableHlo.after hostOps0 W (Proc.devRef .tc main_v25) : FVec Ideal S1x128 .f32) (ix2 (0 : Fin 1) j)
      = (W (Proc.devRef .tc main_arg3) : FVec Ideal S5x128 .f32) (ix2 (0 : Fin 5) j) := by
  show StableHlo.after hostOps0 W (Proc.devRef .tc main_v25) (ix2 (0 : Fin 1) j) = _
  after_results_simp
  exact stackRow_apply _ (0 : Fin 5) _ _ _ 0 j

/-- Layer 0's b_root row at (0, j) is the stack's entry (0, j). -/
theorem bo0 (W : Valuation τ sig (Elt Ideal)) (j : Fin 128) :
    (StableHlo.after hostOps0 W (Proc.devRef .tc main_v26) : FVec Ideal S1x128 .f32) (ix2 (0 : Fin 1) j)
      = (W (Proc.devRef .tc main_arg5) : FVec Ideal S5x128 .f32) (ix2 (0 : Fin 5) j) := by
  show StableHlo.after hostOps0 W (Proc.devRef .tc main_v26) (ix2 (0 : Fin 1) j) = _
  after_results_simp
  exact stackRow_apply _ (0 : Fin 5) _ _ _ 0 j

/-- Layer 0's gamma row at (0, j) is the stack's entry (0, j). -/
theorem gam0 (W : Valuation τ sig (Elt Ideal)) (j : Fin 128) :
    (StableHlo.after hostOps1 W (Proc.devRef .tc main_v32) : FVec Ideal S1x128 .f32) (ix2 (0 : Fin 1) j)
      = (W (Proc.devRef .tc main_arg6) : FVec Ideal S5x128 .f32) (ix2 (0 : Fin 5) j) := by
  show StableHlo.after hostOps1 W (Proc.devRef .tc main_v32) (ix2 (0 : Fin 1) j) = _
  after_results_simp
  exact stackRow_apply _ (0 : Fin 5) _ _ _ 0 j

/-- Layer 0's beta row at (0, j) is the stack's entry (0, j). -/
theorem bet0 (W : Valuation τ sig (Elt Ideal)) (j : Fin 128) :
    (StableHlo.after hostOps1 W (Proc.devRef .tc main_v33) : FVec Ideal S1x128 .f32) (ix2 (0 : Fin 1) j)
      = (W (Proc.devRef .tc main_arg7) : FVec Ideal S5x128 .f32) (ix2 (0 : Fin 5) j) := by
  show StableHlo.after hostOps1 W (Proc.devRef .tc main_v33) (ix2 (0 : Fin 1) j) = _
  after_results_simp
  exact stackRow_apply _ (0 : Fin 5) _ _ _ 0 j

/-! ## Layer 1

The stretch before the first call computes the aggregated messages of layer 0's output features, reading the two edge
vectors where layer 0 left them, and layer 1's four linear parameters; the stretch before the second call cuts out layer
1's scale and shift rows. -/

/-- Layer 1's aggregated messages: the aggregation function of the entering features, the edge weights, and the two
    edge-vector buffers. -/
theorem agg1 (W : Valuation τ sig (Elt Ideal)) :
    (StableHlo.after hostOps2 W (Proc.devRef .tc main_v47) : FVec Ideal S50000x128 .f32)
      = aggOf (F := Ideal) (W (Proc.devRef .tc main_v34)) (W (Proc.devRef .tc main_arg1))
          (W (Proc.devRef .tc main_v1)) (W (Proc.devRef .tc main_v3)) := by
  show StableHlo.after hostOps2 W (Proc.devRef .tc main_v47) = _
  after_results_simp
  rfl

/-- Layer 1's W_rel at (k, j) is the stack's entry (1, k, j). -/
theorem wr1 (W : Valuation τ sig (Elt Ideal)) (k j : Fin 128) :
    (StableHlo.after hostOps2 W (Proc.devRef .tc main_v49) : FVec Ideal S128x128 .f32) (ix2 k j)
      = (W (Proc.devRef .tc main_arg2) : FVec Ideal S5x128x128 .f32) (ix3 (1 : Fin 5) k j) := by
  show StableHlo.after hostOps2 W (Proc.devRef .tc main_v49) (ix2 k j) = _
  after_results_simp
  exact stackMat_apply _ (1 : Fin 5) _ _ k j

/-- Layer 1's W_root at (k, j) is the stack's entry (1, k, j). -/
theorem wo1 (W : Valuation τ sig (Elt Ideal)) (k j : Fin 128) :
    (StableHlo.after hostOps2 W (Proc.devRef .tc main_v53) : FVec Ideal S128x128 .f32) (ix2 k j)
      = (W (Proc.devRef .tc main_arg4) : FVec Ideal S5x128x128 .f32) (ix3 (1 : Fin 5) k j) := by
  show StableHlo.after hostOps2 W (Proc.devRef .tc main_v53) (ix2 k j) = _
  after_results_simp
  exact stackMat_apply _ (1 : Fin 5) _ _ k j

/-- Layer 1's b_rel row at (0, j) is the stack's entry (1, j). -/
theorem br1 (W : Valuation τ sig (Elt Ideal)) (j : Fin 128) :
    (StableHlo.after hostOps2 W (Proc.devRef .tc main_v56) : FVec Ideal S1x128 .f32) (ix2 (0 : Fin 1) j)
      = (W (Proc.devRef .tc main_arg3) : FVec Ideal S5x128 .f32) (ix2 (1 : Fin 5) j) := by
  show StableHlo.after hostOps2 W (Proc.devRef .tc main_v56) (ix2 (0 : Fin 1) j) = _
  after_results_simp
  exact stackRow_apply _ (1 : Fin 5) _ _ _ 0 j

/-- Layer 1's b_root row at (0, j) is the stack's entry (1, j). -/
theorem bo1 (W : Valuation τ sig (Elt Ideal)) (j : Fin 128) :
    (StableHlo.after hostOps2 W (Proc.devRef .tc main_v57) : FVec Ideal S1x128 .f32) (ix2 (0 : Fin 1) j)
      = (W (Proc.devRef .tc main_arg5) : FVec Ideal S5x128 .f32) (ix2 (1 : Fin 5) j) := by
  show StableHlo.after hostOps2 W (Proc.devRef .tc main_v57) (ix2 (0 : Fin 1) j) = _
  after_results_simp
  exact stackRow_apply _ (1 : Fin 5) _ _ _ 0 j

/-- Layer 1's gamma row at (0, j) is the stack's entry (1, j). -/
theorem gam1 (W : Valuation τ sig (Elt Ideal)) (j : Fin 128) :
    (StableHlo.after hostOps3 W (Proc.devRef .tc main_v63) : FVec Ideal S1x128 .f32) (ix2 (0 : Fin 1) j)
      = (W (Proc.devRef .tc main_arg6) : FVec Ideal S5x128 .f32) (ix2 (1 : Fin 5) j) := by
  show StableHlo.after hostOps3 W (Proc.devRef .tc main_v63) (ix2 (0 : Fin 1) j) = _
  after_results_simp
  exact stackRow_apply _ (1 : Fin 5) _ _ _ 0 j

/-- Layer 1's beta row at (0, j) is the stack's entry (1, j). -/
theorem bet1 (W : Valuation τ sig (Elt Ideal)) (j : Fin 128) :
    (StableHlo.after hostOps3 W (Proc.devRef .tc main_v64) : FVec Ideal S1x128 .f32) (ix2 (0 : Fin 1) j)
      = (W (Proc.devRef .tc main_arg7) : FVec Ideal S5x128 .f32) (ix2 (1 : Fin 5) j) := by
  show StableHlo.after hostOps3 W (Proc.devRef .tc main_v64) (ix2 (0 : Fin 1) j) = _
  after_results_simp
  exact stackRow_apply _ (1 : Fin 5) _ _ _ 0 j

/-! ## Layer 2

The stretch before the first call computes the aggregated messages of layer 1's output features, reading the two edge
vectors where layer 0 left them, and layer 2's four linear parameters; the stretch before the second call cuts out layer
2's scale and shift rows. -/

/-- Layer 2's aggregated messages: the aggregation function of the entering features, the edge weights, and the two
    edge-vector buffers. -/
theorem agg2 (W : Valuation τ sig (Elt Ideal)) :
    (StableHlo.after hostOps4 W (Proc.devRef .tc main_v78) : FVec Ideal S50000x128 .f32)
      = aggOf (F := Ideal) (W (Proc.devRef .tc main_v65)) (W (Proc.devRef .tc main_arg1))
          (W (Proc.devRef .tc main_v1)) (W (Proc.devRef .tc main_v3)) := by
  show StableHlo.after hostOps4 W (Proc.devRef .tc main_v78) = _
  after_results_simp
  rfl

/-- Layer 2's W_rel at (k, j) is the stack's entry (2, k, j). -/
theorem wr2 (W : Valuation τ sig (Elt Ideal)) (k j : Fin 128) :
    (StableHlo.after hostOps4 W (Proc.devRef .tc main_v80) : FVec Ideal S128x128 .f32) (ix2 k j)
      = (W (Proc.devRef .tc main_arg2) : FVec Ideal S5x128x128 .f32) (ix3 (2 : Fin 5) k j) := by
  show StableHlo.after hostOps4 W (Proc.devRef .tc main_v80) (ix2 k j) = _
  after_results_simp
  exact stackMat_apply _ (2 : Fin 5) _ _ k j

/-- Layer 2's W_root at (k, j) is the stack's entry (2, k, j). -/
theorem wo2 (W : Valuation τ sig (Elt Ideal)) (k j : Fin 128) :
    (StableHlo.after hostOps4 W (Proc.devRef .tc main_v84) : FVec Ideal S128x128 .f32) (ix2 k j)
      = (W (Proc.devRef .tc main_arg4) : FVec Ideal S5x128x128 .f32) (ix3 (2 : Fin 5) k j) := by
  show StableHlo.after hostOps4 W (Proc.devRef .tc main_v84) (ix2 k j) = _
  after_results_simp
  exact stackMat_apply _ (2 : Fin 5) _ _ k j

/-- Layer 2's b_rel row at (0, j) is the stack's entry (2, j). -/
theorem br2 (W : Valuation τ sig (Elt Ideal)) (j : Fin 128) :
    (StableHlo.after hostOps4 W (Proc.devRef .tc main_v87) : FVec Ideal S1x128 .f32) (ix2 (0 : Fin 1) j)
      = (W (Proc.devRef .tc main_arg3) : FVec Ideal S5x128 .f32) (ix2 (2 : Fin 5) j) := by
  show StableHlo.after hostOps4 W (Proc.devRef .tc main_v87) (ix2 (0 : Fin 1) j) = _
  after_results_simp
  exact stackRow_apply _ (2 : Fin 5) _ _ _ 0 j

/-- Layer 2's b_root row at (0, j) is the stack's entry (2, j). -/
theorem bo2 (W : Valuation τ sig (Elt Ideal)) (j : Fin 128) :
    (StableHlo.after hostOps4 W (Proc.devRef .tc main_v88) : FVec Ideal S1x128 .f32) (ix2 (0 : Fin 1) j)
      = (W (Proc.devRef .tc main_arg5) : FVec Ideal S5x128 .f32) (ix2 (2 : Fin 5) j) := by
  show StableHlo.after hostOps4 W (Proc.devRef .tc main_v88) (ix2 (0 : Fin 1) j) = _
  after_results_simp
  exact stackRow_apply _ (2 : Fin 5) _ _ _ 0 j

/-- Layer 2's gamma row at (0, j) is the stack's entry (2, j). -/
theorem gam2 (W : Valuation τ sig (Elt Ideal)) (j : Fin 128) :
    (StableHlo.after hostOps5 W (Proc.devRef .tc main_v94) : FVec Ideal S1x128 .f32) (ix2 (0 : Fin 1) j)
      = (W (Proc.devRef .tc main_arg6) : FVec Ideal S5x128 .f32) (ix2 (2 : Fin 5) j) := by
  show StableHlo.after hostOps5 W (Proc.devRef .tc main_v94) (ix2 (0 : Fin 1) j) = _
  after_results_simp
  exact stackRow_apply _ (2 : Fin 5) _ _ _ 0 j

/-- Layer 2's beta row at (0, j) is the stack's entry (2, j). -/
theorem bet2 (W : Valuation τ sig (Elt Ideal)) (j : Fin 128) :
    (StableHlo.after hostOps5 W (Proc.devRef .tc main_v95) : FVec Ideal S1x128 .f32) (ix2 (0 : Fin 1) j)
      = (W (Proc.devRef .tc main_arg7) : FVec Ideal S5x128 .f32) (ix2 (2 : Fin 5) j) := by
  show StableHlo.after hostOps5 W (Proc.devRef .tc main_v95) (ix2 (0 : Fin 1) j) = _
  after_results_simp
  exact stackRow_apply _ (2 : Fin 5) _ _ _ 0 j

/-! ## Layer 3

The stretch before the first call computes the aggregated messages of layer 2's output features, reading the two edge
vectors where layer 0 left them, and layer 3's four linear parameters; the stretch before the second call cuts out layer
3's scale and shift rows. -/

/-- Layer 3's aggregated messages: the aggregation function of the entering features, the edge weights, and the two
    edge-vector buffers. -/
theorem agg3 (W : Valuation τ sig (Elt Ideal)) :
    (StableHlo.after hostOps6 W (Proc.devRef .tc main_v109) : FVec Ideal S50000x128 .f32)
      = aggOf (F := Ideal) (W (Proc.devRef .tc main_v96)) (W (Proc.devRef .tc main_arg1))
          (W (Proc.devRef .tc main_v1)) (W (Proc.devRef .tc main_v3)) := by
  show StableHlo.after hostOps6 W (Proc.devRef .tc main_v109) = _
  after_results_simp
  rfl

/-- Layer 3's W_rel at (k, j) is the stack's entry (3, k, j). -/
theorem wr3 (W : Valuation τ sig (Elt Ideal)) (k j : Fin 128) :
    (StableHlo.after hostOps6 W (Proc.devRef .tc main_v111) : FVec Ideal S128x128 .f32) (ix2 k j)
      = (W (Proc.devRef .tc main_arg2) : FVec Ideal S5x128x128 .f32) (ix3 (3 : Fin 5) k j) := by
  show StableHlo.after hostOps6 W (Proc.devRef .tc main_v111) (ix2 k j) = _
  after_results_simp
  exact stackMat_apply _ (3 : Fin 5) _ _ k j

/-- Layer 3's W_root at (k, j) is the stack's entry (3, k, j). -/
theorem wo3 (W : Valuation τ sig (Elt Ideal)) (k j : Fin 128) :
    (StableHlo.after hostOps6 W (Proc.devRef .tc main_v115) : FVec Ideal S128x128 .f32) (ix2 k j)
      = (W (Proc.devRef .tc main_arg4) : FVec Ideal S5x128x128 .f32) (ix3 (3 : Fin 5) k j) := by
  show StableHlo.after hostOps6 W (Proc.devRef .tc main_v115) (ix2 k j) = _
  after_results_simp
  exact stackMat_apply _ (3 : Fin 5) _ _ k j

/-- Layer 3's b_rel row at (0, j) is the stack's entry (3, j). -/
theorem br3 (W : Valuation τ sig (Elt Ideal)) (j : Fin 128) :
    (StableHlo.after hostOps6 W (Proc.devRef .tc main_v118) : FVec Ideal S1x128 .f32) (ix2 (0 : Fin 1) j)
      = (W (Proc.devRef .tc main_arg3) : FVec Ideal S5x128 .f32) (ix2 (3 : Fin 5) j) := by
  show StableHlo.after hostOps6 W (Proc.devRef .tc main_v118) (ix2 (0 : Fin 1) j) = _
  after_results_simp
  exact stackRow_apply _ (3 : Fin 5) _ _ _ 0 j

/-- Layer 3's b_root row at (0, j) is the stack's entry (3, j). -/
theorem bo3 (W : Valuation τ sig (Elt Ideal)) (j : Fin 128) :
    (StableHlo.after hostOps6 W (Proc.devRef .tc main_v119) : FVec Ideal S1x128 .f32) (ix2 (0 : Fin 1) j)
      = (W (Proc.devRef .tc main_arg5) : FVec Ideal S5x128 .f32) (ix2 (3 : Fin 5) j) := by
  show StableHlo.after hostOps6 W (Proc.devRef .tc main_v119) (ix2 (0 : Fin 1) j) = _
  after_results_simp
  exact stackRow_apply _ (3 : Fin 5) _ _ _ 0 j

/-- Layer 3's gamma row at (0, j) is the stack's entry (3, j). -/
theorem gam3 (W : Valuation τ sig (Elt Ideal)) (j : Fin 128) :
    (StableHlo.after hostOps7 W (Proc.devRef .tc main_v125) : FVec Ideal S1x128 .f32) (ix2 (0 : Fin 1) j)
      = (W (Proc.devRef .tc main_arg6) : FVec Ideal S5x128 .f32) (ix2 (3 : Fin 5) j) := by
  show StableHlo.after hostOps7 W (Proc.devRef .tc main_v125) (ix2 (0 : Fin 1) j) = _
  after_results_simp
  exact stackRow_apply _ (3 : Fin 5) _ _ _ 0 j

/-- Layer 3's beta row at (0, j) is the stack's entry (3, j). -/
theorem bet3 (W : Valuation τ sig (Elt Ideal)) (j : Fin 128) :
    (StableHlo.after hostOps7 W (Proc.devRef .tc main_v126) : FVec Ideal S1x128 .f32) (ix2 (0 : Fin 1) j)
      = (W (Proc.devRef .tc main_arg7) : FVec Ideal S5x128 .f32) (ix2 (3 : Fin 5) j) := by
  show StableHlo.after hostOps7 W (Proc.devRef .tc main_v126) (ix2 (0 : Fin 1) j) = _
  after_results_simp
  exact stackRow_apply _ (3 : Fin 5) _ _ _ 0 j

/-! ## Layer 4

The stretch before the first call computes the aggregated messages of layer 3's output features, reading the two edge
vectors where layer 0 left them, and layer 4's four linear parameters; the stretch before the second call cuts out layer
4's scale and shift rows. -/

/-- Layer 4's aggregated messages: the aggregation function of the entering features, the edge weights, and the two
    edge-vector buffers. -/
theorem agg4 (W : Valuation τ sig (Elt Ideal)) :
    (StableHlo.after hostOps8 W (Proc.devRef .tc main_v140) : FVec Ideal S50000x128 .f32)
      = aggOf (F := Ideal) (W (Proc.devRef .tc main_v127)) (W (Proc.devRef .tc main_arg1))
          (W (Proc.devRef .tc main_v1)) (W (Proc.devRef .tc main_v3)) := by
  show StableHlo.after hostOps8 W (Proc.devRef .tc main_v140) = _
  after_results_simp
  rfl

/-- Layer 4's W_rel at (k, j) is the stack's entry (4, k, j). -/
theorem wr4 (W : Valuation τ sig (Elt Ideal)) (k j : Fin 128) :
    (StableHlo.after hostOps8 W (Proc.devRef .tc main_v142) : FVec Ideal S128x128 .f32) (ix2 k j)
      = (W (Proc.devRef .tc main_arg2) : FVec Ideal S5x128x128 .f32) (ix3 (4 : Fin 5) k j) := by
  show StableHlo.after hostOps8 W (Proc.devRef .tc main_v142) (ix2 k j) = _
  after_results_simp
  exact stackMat_apply _ (4 : Fin 5) _ _ k j

/-- Layer 4's W_root at (k, j) is the stack's entry (4, k, j). -/
theorem wo4 (W : Valuation τ sig (Elt Ideal)) (k j : Fin 128) :
    (StableHlo.after hostOps8 W (Proc.devRef .tc main_v146) : FVec Ideal S128x128 .f32) (ix2 k j)
      = (W (Proc.devRef .tc main_arg4) : FVec Ideal S5x128x128 .f32) (ix3 (4 : Fin 5) k j) := by
  show StableHlo.after hostOps8 W (Proc.devRef .tc main_v146) (ix2 k j) = _
  after_results_simp
  exact stackMat_apply _ (4 : Fin 5) _ _ k j

/-- Layer 4's b_rel row at (0, j) is the stack's entry (4, j). -/
theorem br4 (W : Valuation τ sig (Elt Ideal)) (j : Fin 128) :
    (StableHlo.after hostOps8 W (Proc.devRef .tc main_v149) : FVec Ideal S1x128 .f32) (ix2 (0 : Fin 1) j)
      = (W (Proc.devRef .tc main_arg3) : FVec Ideal S5x128 .f32) (ix2 (4 : Fin 5) j) := by
  show StableHlo.after hostOps8 W (Proc.devRef .tc main_v149) (ix2 (0 : Fin 1) j) = _
  after_results_simp
  exact stackRow_apply _ (4 : Fin 5) _ _ _ 0 j

/-- Layer 4's b_root row at (0, j) is the stack's entry (4, j). -/
theorem bo4 (W : Valuation τ sig (Elt Ideal)) (j : Fin 128) :
    (StableHlo.after hostOps8 W (Proc.devRef .tc main_v150) : FVec Ideal S1x128 .f32) (ix2 (0 : Fin 1) j)
      = (W (Proc.devRef .tc main_arg5) : FVec Ideal S5x128 .f32) (ix2 (4 : Fin 5) j) := by
  show StableHlo.after hostOps8 W (Proc.devRef .tc main_v150) (ix2 (0 : Fin 1) j) = _
  after_results_simp
  exact stackRow_apply _ (4 : Fin 5) _ _ _ 0 j

/-- Layer 4's gamma row at (0, j) is the stack's entry (4, j). -/
theorem gam4 (W : Valuation τ sig (Elt Ideal)) (j : Fin 128) :
    (StableHlo.after hostOps9 W (Proc.devRef .tc main_v156) : FVec Ideal S1x128 .f32) (ix2 (0 : Fin 1) j)
      = (W (Proc.devRef .tc main_arg6) : FVec Ideal S5x128 .f32) (ix2 (4 : Fin 5) j) := by
  show StableHlo.after hostOps9 W (Proc.devRef .tc main_v156) (ix2 (0 : Fin 1) j) = _
  after_results_simp
  exact stackRow_apply _ (4 : Fin 5) _ _ _ 0 j

/-- Layer 4's beta row at (0, j) is the stack's entry (4, j). -/
theorem bet4 (W : Valuation τ sig (Elt Ideal)) (j : Fin 128) :
    (StableHlo.after hostOps9 W (Proc.devRef .tc main_v157) : FVec Ideal S1x128 .f32) (ix2 (0 : Fin 1) j)
      = (W (Proc.devRef .tc main_arg7) : FVec Ideal S5x128 .f32) (ix2 (4 : Fin 5) j) := by
  show StableHlo.after hostOps9 W (Proc.devRef .tc main_v157) (ix2 (0 : Fin 1) j) = _
  after_results_simp
  exact stackRow_apply _ (4 : Fin 5) _ _ _ 0 j

/-! ## What a stretch leaves untouched

A buffer that is not among the ones a stretch writes holds after the stretch what it held before: no operation of the
stretch has it as its result. -/

/-- Stretch 0 changes none of the buffers outside its written list. -/
theorem keep0 (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h

/-- Stretch 1 changes none of the buffers outside its written list. -/
theorem keep1 (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

/-- Stretch 2 changes none of the buffers outside its written list. -/
theorem keep2 (W : Valuation τ sig (Elt Ideal)) (r : Ref sig .tc) (h : r ∉ hostOps2_W) :
    StableHlo.after hostOps2 W (Proc.devRef .tc r) = W (Proc.devRef .tc r) :=
  StableHlo.after_of_writes_sub hostOps2 W hostOps2_writes h

/-- Stretch 3 changes none of the buffers outside its written list. -/
theorem keep3 (W : Valuation τ sig (Elt Ideal)) (r : Ref sig .tc) (h : r ∉ hostOps3_W) :
    StableHlo.after hostOps3 W (Proc.devRef .tc r) = W (Proc.devRef .tc r) :=
  StableHlo.after_of_writes_sub hostOps3 W hostOps3_writes h

/-- Stretch 4 changes none of the buffers outside its written list. -/
theorem keep4 (W : Valuation τ sig (Elt Ideal)) (r : Ref sig .tc) (h : r ∉ hostOps4_W) :
    StableHlo.after hostOps4 W (Proc.devRef .tc r) = W (Proc.devRef .tc r) :=
  StableHlo.after_of_writes_sub hostOps4 W hostOps4_writes h

/-- Stretch 5 changes none of the buffers outside its written list. -/
theorem keep5 (W : Valuation τ sig (Elt Ideal)) (r : Ref sig .tc) (h : r ∉ hostOps5_W) :
    StableHlo.after hostOps5 W (Proc.devRef .tc r) = W (Proc.devRef .tc r) :=
  StableHlo.after_of_writes_sub hostOps5 W hostOps5_writes h

/-- Stretch 6 changes none of the buffers outside its written list. -/
theorem keep6 (W : Valuation τ sig (Elt Ideal)) (r : Ref sig .tc) (h : r ∉ hostOps6_W) :
    StableHlo.after hostOps6 W (Proc.devRef .tc r) = W (Proc.devRef .tc r) :=
  StableHlo.after_of_writes_sub hostOps6 W hostOps6_writes h

/-- Stretch 7 changes none of the buffers outside its written list. -/
theorem keep7 (W : Valuation τ sig (Elt Ideal)) (r : Ref sig .tc) (h : r ∉ hostOps7_W) :
    StableHlo.after hostOps7 W (Proc.devRef .tc r) = W (Proc.devRef .tc r) :=
  StableHlo.after_of_writes_sub hostOps7 W hostOps7_writes h

/-- Stretch 8 changes none of the buffers outside its written list. -/
theorem keep8 (W : Valuation τ sig (Elt Ideal)) (r : Ref sig .tc) (h : r ∉ hostOps8_W) :
    StableHlo.after hostOps8 W (Proc.devRef .tc r) = W (Proc.devRef .tc r) :=
  StableHlo.after_of_writes_sub hostOps8 W hostOps8_writes h

/-- Stretch 9 changes none of the buffers outside its written list. -/
theorem keep9 (W : Valuation τ sig (Elt Ideal)) (r : Ref sig .tc) (h : r ∉ hostOps9_W) :
    StableHlo.after hostOps9 W (Proc.devRef .tc r) = W (Proc.devRef .tc r) :=
  StableHlo.after_of_writes_sub hostOps9 W hostOps9_writes h

end Cert.KernelIdeal.HostValue

end
-- ==== Proof.KI.Chain.lean ====
import proofs.«162849_j29643864277577_1_alg».proof.Proof.KI.RunFold
import proofs.«162849_j29643864277577_1_alg».proof.Proof.KI.StatsHnew0
import proofs.«162849_j29643864277577_1_alg».proof.Proof.KI.StatsPieces0
import proofs.«162849_j29643864277577_1_alg».proof.Proof.KI.StatsSums0
import proofs.«162849_j29643864277577_1_alg».proof.Proof.KI.StatsHnew2
import proofs.«162849_j29643864277577_1_alg».proof.Proof.KI.StatsPieces2
import proofs.«162849_j29643864277577_1_alg».proof.Proof.KI.StatsSums2
import proofs.«162849_j29643864277577_1_alg».proof.Proof.KI.StatsHnew4
import proofs.«162849_j29643864277577_1_alg».proof.Proof.KI.StatsPieces4
import proofs.«162849_j29643864277577_1_alg».proof.Proof.KI.StatsSums4
import proofs.«162849_j29643864277577_1_alg».proof.Proof.KI.StatsHnew6
import proofs.«162849_j29643864277577_1_alg».proof.Proof.KI.StatsPieces6
import proofs.«162849_j29643864277577_1_alg».proof.Proof.KI.StatsSums6
import proofs.«162849_j29643864277577_1_alg».proof.Proof.KI.StatsHnew8
import proofs.«162849_j29643864277577_1_alg».proof.Proof.KI.StatsPieces8
import proofs.«162849_j29643864277577_1_alg».proof.Proof.KI.StatsSums8
import proofs.«162849_j29643864277577_1_alg».proof.Proof.KI.BnValue1
import proofs.«162849_j29643864277577_1_alg».proof.Proof.KI.BnValue3
import proofs.«162849_j29643864277577_1_alg».proof.Proof.KI.BnValue5
import proofs.«162849_j29643864277577_1_alg».proof.Proof.KI.BnValue7
import proofs.«162849_j29643864277577_1_alg».proof.Proof.KI.BnValue9
import proofs.«162849_j29643864277577_1_alg».proof.Proof.KI.HostRead
import proofs.«162849_j29643864277577_1_alg».proof.Proof.KI.Tail
import proofs.«162849_j29643864277577_1_alg».proof.Proof.Math.HostFinite
import proofs.«162849_j29643864277577_1_alg».proof.Proof.Math.Spec
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window BodyObligation cellOf)
open Idealize.ShloMosaic.ValueIdx
open Cert.Proof.HostFinite (aggOf matOf)
open Cert.KernelIdeal.HostValue (srcOf dstOf)

/-! # The kernel program's five layers, one statement each

The program alternates stretches of host operations with kernel regions. Layer `l` is: a host stretch that forms
the aggregated messages from the node features and slices the layer's weights and biases out of the parameter
tables; a region that writes the linear part, its column means and its mean-of-squares variances; a host stretch
that slices the layer's scale and shift rows; a region that normalises, scales, shifts and rectifies. Reading each
array back through the boundaries to where it was written gives, entry by entry,

    h (l+1) = layerSq (aggregated messages of h l) (h l) (the layer's parameters),

with the edge weights, edge endpoints and parameter tables those of the launch: no stretch and no region ever
rewrites an argument, and the two endpoint vectors are written once, by the first stretch. -/

section Chain
variable (m : (ℓ : Loc nD τ sig) → Buf (Elt Ideal) ℓ) (ρ : Dev nD → PrngReg) (c : Dev nD)

/-! ## The launch arguments, as the specification's objects -/

/-- The edge weights, and the edge sources and targets (rows 0 and 1 of the edge-index argument). -/
abbrev eaK : FVec Ideal S600000 .f32 := m ((c : Thread nD τ).loc main_arg1)
abbrev srcK : IVec S600000 32 := srcOf (m ((c : Thread nD τ).loc main_arg8))
abbrev dstK : IVec S600000 32 := dstOf (m ((c : Thread nD τ).loc main_arg8))
/-- Layer `l`'s two weight matrices, two bias rows, scale row and shift row: slice `l` of the six parameter tables. -/
abbrev WrK (l : Fin 5) : Cert.Spec.Wt := fun k j => (m ((c : Thread nD τ).loc main_arg2) : FVec Ideal S5x128x128 .f32) (ix3 l k j)
abbrev WoK (l : Fin 5) : Cert.Spec.Wt := fun k j => (m ((c : Thread nD τ).loc main_arg4) : FVec Ideal S5x128x128 .f32) (ix3 l k j)
abbrev brK (l : Fin 5) : Cert.Spec.Row := fun j => (m ((c : Thread nD τ).loc main_arg3) : FVec Ideal S5x128 .f32) (ix2 l j)
abbrev boK (l : Fin 5) : Cert.Spec.Row := fun j => (m ((c : Thread nD τ).loc main_arg5) : FVec Ideal S5x128 .f32) (ix2 l j)
abbrev gK (l : Fin 5) : Cert.Spec.Row := fun j => (m ((c : Thread nD τ).loc main_arg6) : FVec Ideal S5x128 .f32) (ix2 l j)
abbrev bK (l : Fin 5) : Cert.Spec.Row := fun j => (m ((c : Thread nD τ).loc main_arg7) : FVec Ideal S5x128 .f32) (ix2 l j)

/-! ## The node features at the six layer boundaries -/

/-- The features the program is launched with, and the output array of each layer's second region at that region's exit. -/
abbrev hK0 : FVec Ideal S50000x128 .f32 := m ((c : Thread nD τ).loc main_arg0)
abbrev hK1 : FVec Ideal S50000x128 .f32 := W4 m ρ c (Proc.devRef .tc main_v34)
abbrev hK2 : FVec Ideal S50000x128 .f32 := W8 m ρ c (Proc.devRef .tc main_v65)
abbrev hK3 : FVec Ideal S50000x128 .f32 := W12 m ρ c (Proc.devRef .tc main_v96)
abbrev hK4 : FVec Ideal S50000x128 .f32 := W16 m ρ c (Proc.devRef .tc main_v127)
abbrev hK5 : FVec Ideal S50000x128 .f32 := W20 m ρ c (Proc.devRef .tc main_v158)

/-! ## A buffer nobody rewrites holds what it held

A stretch rewrites only the references its operations write; a region rewrites only its output arrays. So a
reference outside all of those, from the second stretch on, holds at every later boundary what it held after the
first stretch; outside the first stretch's too, what the launch memory holds. -/

/-- No stretch after the first writes `r`, and no region writes it back. -/
structure KeptLater (r : Ref sig .tc) : Prop where
  h1 : r ∉ hostOps1_W
  h2 : r ∉ hostOps2_W
  h3 : r ∉ hostOps3_W
  h4 : r ∉ hostOps4_W
  h5 : r ∉ hostOps5_W
  h6 : r ∉ hostOps6_W
  h7 : r ∉ hostOps7_W
  h8 : r ∉ hostOps8_W
  h9 : r ∉ hostOps9_W
  k0 : ∀ w, Pipeline.arrRef spec0 w = r → (cfg0.win w).isOut = false
  k1 : ∀ w, Pipeline.arrRef spec1 w = r → (cfg1.win w).isOut = false
  k2 : ∀ w, Pipeline.arrRef spec2 w = r → (cfg2.win w).isOut = false
  k3 : ∀ w, Pipeline.arrRef spec3 w = r → (cfg3.win w).isOut = false
  k4 : ∀ w, Pipeline.arrRef spec4 w = r → (cfg4.win w).isOut = false
  k5 : ∀ w, Pipeline.arrRef spec5 w = r → (cfg5.win w).isOut = false
  k6 : ∀ w, Pipeline.arrRef spec6 w = r → (cfg6.win w).isOut = false
  k7 : ∀ w, Pipeline.arrRef spec7 w = r → (cfg7.win w).isOut = false
  k8 : ∀ w, Pipeline.arrRef spec8 w = r → (cfg8.win w).isOut = false
  k9 : ∀ w, Pipeline.arrRef spec9 w = r → (cfg9.win w).isOut = false

/-- Nor does the first stretch. -/
structure Kept (r : Ref sig .tc) : Prop extends KeptLater r where
  h0 : r ∉ hostOps0_W

section
variable {r : Ref sig .tc}
theorem W2_later (h : KeptLater r) : W2 m ρ c (Proc.devRef .tc r) = W1 m ρ c (Proc.devRef .tc r) :=
  W2_keep m ρ c r h.k0
theorem W3_later (h : KeptLater r) : W3 m ρ c (Proc.devRef .tc r) = W1 m ρ c (Proc.devRef .tc r) :=
  (W3_of m ρ c r h.h1).trans (W2_later m ρ c h)
theorem W4_later (h : KeptLater r) : W4 m ρ c (Proc.devRef .tc r) = W1 m ρ c (Proc.devRef .tc r) :=
  (W4_keep m ρ c r h.k1).trans (W3_later m ρ c h)
theorem W5_later (h : KeptLater r) : W5 m ρ c (Proc.devRef .tc r) = W1 m ρ c (Proc.devRef .tc r) :=
  (W5_of m ρ c r h.h2).trans (W4_later m ρ c h)
theorem W6_later (h : KeptLater r) : W6 m ρ c (Proc.devRef .tc r) = W1 m ρ c (Proc.devRef .tc r) :=
  (W6_keep m ρ c r h.k2).trans (W5_later m ρ c h)
theorem W7_later (h : KeptLater r) : W7 m ρ c (Proc.devRef .tc r) = W1 m ρ c (Proc.devRef .tc r) :=
  (W7_of m ρ c r h.h3).trans (W6_later m ρ c h)
theorem W8_later (h : KeptLater r) : W8 m ρ c (Proc.devRef .tc r) = W1 m ρ c (Proc.devRef .tc r) :=
  (W8_keep m ρ c r h.k3).trans (W7_later m ρ c h)
theorem W9_later (h : KeptLater r) : W9 m ρ c (Proc.devRef .tc r) = W1 m ρ c (Proc.devRef .tc r) :=
  (W9_of m ρ c r h.h4).trans (W8_later m ρ c h)
theorem W10_later (h : KeptLater r) : W10 m ρ c (Proc.devRef .tc r) = W1 m ρ c (Proc.devRef .tc r) :=
  (W10_keep m ρ c r h.k4).trans (W9_later m ρ c h)
theorem W11_later (h : KeptLater r) : W11 m ρ c (Proc.devRef .tc r) = W1 m ρ c (Proc.devRef .tc r) :=
  (W11_of m ρ c r h.h5).trans (W10_later m ρ c h)
theorem W12_later (h : KeptLater r) : W12 m ρ c (Proc.devRef .tc r) = W1 m ρ c (Proc.devRef .tc r) :=
  (W12_keep m ρ c r h.k5).trans (W11_later m ρ c h)
theorem W13_later (h : KeptLater r) : W13 m ρ c (Proc.devRef .tc r) = W1 m ρ c (Proc.devRef .tc r) :=
  (W13_of m ρ c r h.h6).trans (W12_later m ρ c h)
theorem W14_later (h : KeptLater r) : W14 m ρ c (Proc.devRef .tc r) = W1 m ρ c (Proc.devRef .tc r) :=
  (W14_keep m ρ c r h.k6).trans (W13_later m ρ c h)
theorem W15_later (h : KeptLater r) : W15 m ρ c (Proc.devRef .tc r) = W1 m ρ c (Proc.devRef .tc r) :=
  (W15_of m ρ c r h.h7).trans (W14_later m ρ c h)
theorem W16_later (h : KeptLater r) : W16 m ρ c (Proc.devRef .tc r) = W1 m ρ c (Proc.devRef .tc r) :=
  (W16_keep m ρ c r h.k7).trans (W15_later m ρ c h)
theorem W17_later (h : KeptLater r) : W17 m ρ c (Proc.devRef .tc r) = W1 m ρ c (Proc.devRef .tc r) :=
  (W17_of m ρ c r h.h8).trans (W16_later m ρ c h)
theorem W18_later (h : KeptLater r) : W18 m ρ c (Proc.devRef .tc r) = W1 m ρ c (Proc.devRef .tc r) :=
  (W18_keep m ρ c r h.k8).trans (W17_later m ρ c h)
theorem W19_later (h : KeptLater r) : W19 m ρ c (Proc.devRef .tc r) = W1 m ρ c (Proc.devRef .tc r) :=
  (W19_of m ρ c r h.h9).trans (W18_later m ρ c h)
theorem W20_later (h : KeptLater r) : W20 m ρ c (Proc.devRef .tc r) = W1 m ρ c (Proc.devRef .tc r) :=
  (W20_keep m ρ c r h.k9).trans (W19_later m ρ c h)

theorem W1_launch (h : Kept r) : W1 m ρ c (Proc.devRef .tc r) = m ((c : Thread nD τ).loc r) :=
  (W1_of m ρ c r h.h0).trans rfl
theorem W2_launch (h : Kept r) : W2 m ρ c (Proc.devRef .tc r) = m ((c : Thread nD τ).loc r) :=
  (W2_later m ρ c h.toKeptLater).trans (W1_launch m ρ c h)
theorem W3_launch (h : Kept r) : W3 m ρ c (Proc.devRef .tc r) = m ((c : Thread nD τ).loc r) :=
  (W3_later m ρ c h.toKeptLater).trans (W1_launch m ρ c h)
theorem W4_launch (h : Kept r) : W4 m ρ c (Proc.devRef .tc r) = m ((c : Thread nD τ).loc r) :=
  (W4_later m ρ c h.toKeptLater).trans (W1_launch m ρ c h)
theorem W5_launch (h : Kept r) : W5 m ρ c (Proc.devRef .tc r) = m ((c : Thread nD τ).loc r) :=
  (W5_later m ρ c h.toKeptLater).trans (W1_launch m ρ c h)
theorem W6_launch (h : Kept r) : W6 m ρ c (Proc.devRef .tc r) = m ((c : Thread nD τ).loc r) :=
  (W6_later m ρ c h.toKeptLater).trans (W1_launch m ρ c h)
theorem W7_launch (h : Kept r) : W7 m ρ c (Proc.devRef .tc r) = m ((c : Thread nD τ).loc r) :=
  (W7_later m ρ c h.toKeptLater).trans (W1_launch m ρ c h)
theorem W8_launch (h : Kept r) : W8 m ρ c (Proc.devRef .tc r) = m ((c : Thread nD τ).loc r) :=
  (W8_later m ρ c h.toKeptLater).trans (W1_launch m ρ c h)
theorem W9_launch (h : Kept r) : W9 m ρ c (Proc.devRef .tc r) = m ((c : Thread nD τ).loc r) :=
  (W9_later m ρ c h.toKeptLater).trans (W1_launch m ρ c h)
theorem W10_launch (h : Kept r) : W10 m ρ c (Proc.devRef .tc r) = m ((c : Thread nD τ).loc r) :=
  (W10_later m ρ c h.toKeptLater).trans (W1_launch m ρ c h)
theorem W11_launch (h : Kept r) : W11 m ρ c (Proc.devRef .tc r) = m ((c : Thread nD τ).loc r) :=
  (W11_later m ρ c h.toKeptLater).trans (W1_launch m ρ c h)
theorem W12_launch (h : Kept r) : W12 m ρ c (Proc.devRef .tc r) = m ((c : Thread nD τ).loc r) :=
  (W12_later m ρ c h.toKeptLater).trans (W1_launch m ρ c h)
theorem W13_launch (h : Kept r) : W13 m ρ c (Proc.devRef .tc r) = m ((c : Thread nD τ).loc r) :=
  (W13_later m ρ c h.toKeptLater).trans (W1_launch m ρ c h)
theorem W14_launch (h : Kept r) : W14 m ρ c (Proc.devRef .tc r) = m ((c : Thread nD τ).loc r) :=
  (W14_later m ρ c h.toKeptLater).trans (W1_launch m ρ c h)
theorem W15_launch (h : Kept r) : W15 m ρ c (Proc.devRef .tc r) = m ((c : Thread nD τ).loc r) :=
  (W15_later m ρ c h.toKeptLater).trans (W1_launch m ρ c h)
theorem W16_launch (h : Kept r) : W16 m ρ c (Proc.devRef .tc r) = m ((c : Thread nD τ).loc r) :=
  (W16_later m ρ c h.toKeptLater).trans (W1_launch m ρ c h)
theorem W17_launch (h : Kept r) : W17 m ρ c (Proc.devRef .tc r) = m ((c : Thread nD τ).loc r) :=
  (W17_later m ρ c h.toKeptLater).trans (W1_launch m ρ c h)
theorem W18_launch (h : Kept r) : W18 m ρ c (Proc.devRef .tc r) = m ((c : Thread nD τ).loc r) :=
  (W18_later m ρ c h.toKeptLater).trans (W1_launch m ρ c h)
theorem W19_launch (h : Kept r) : W19 m ρ c (Proc.devRef .tc r) = m ((c : Thread nD τ).loc r) :=
  (W19_later m ρ c h.toKeptLater).trans (W1_launch m ρ c h)
theorem W20_launch (h : Kept r) : W20 m ρ c (Proc.devRef .tc r) = m ((c : Thread nD τ).loc r) :=
  (W20_later m ρ c h.toKeptLater).trans (W1_launch m ρ c h)

end

/-- The twelve arguments are never rewritten; the two endpoint vectors only by the first stretch. -/
theorem kept_arg0 : Kept main_arg0 := ⟨⟨by decide, by decide, by decide, by decide, by decide, by decide, by decide, by decide, by decide, by decide, by decide, by decide, by decide, by decide, by decide, by decide, by decide, by decide, by decide⟩, by decide⟩
theorem kept_arg1 : Kept main_arg1 := ⟨⟨by decide, by decide, by decide, by decide, by decide, by decide, by decide, by decide, by decide, by decide, by decide, by decide, by decide, by decide, by decide, by decide, by decide, by decide, by decide⟩, by decide⟩
theorem kept_arg2 : Kept main_arg2 := ⟨⟨by decide, by decide, by decide, by decide, by decide, by decide, by decide, by decide, by decide, by decide, by decide, by decide, by decide, by decide, by decide, by decide, by decide, by decide, by decide⟩, by decide⟩
theorem kept_arg3 : Kept main_arg3 := ⟨⟨by decide, by decide, by decide, by decide, by decide, by decide, by decide, by decide, by decide, by decide, by decide, by decide, by decide, by decide, by decide, by decide, by decide, by decide, by decide⟩, by decide⟩
theorem kept_arg4 : Kept main_arg4 := ⟨⟨by decide, by decide, by decide, by decide, by decide, by decide, by decide, by decide, by decide, by decide, by decide, by decide, by decide, by decide, by decide, by decide, by decide, by decide, by decide⟩, by decide⟩
theorem kept_arg5 : Kept main_arg5 := ⟨⟨by decide, by decide, by decide, by decide, by decide, by decide, by decide, by decide, by decide, by decide, by decide, by decide, by decide, by decide, by decide, by decide, by decide, by decide, by decide⟩, by decide⟩
theorem kept_arg6 : Kept main_arg6 := ⟨⟨by decide, by decide, by decide, by decide, by decide, by decide, by decide, by decide, by decide, by decide, by decide, by decide, by decide, by decide, by decide, by decide, by decide, by decide, by decide⟩, by decide⟩
theorem kept_arg7 : Kept main_arg7 := ⟨⟨by decide, by decide, by decide, by decide, by decide, by decide, by decide, by decide, by decide, by decide, by decide, by decide, by decide, by decide, by decide, by decide, by decide, by decide, by decide⟩, by decide⟩
theorem kept_arg8 : Kept main_arg8 := ⟨⟨by decide, by decide, by decide, by decide, by decide, by decide, by decide, by decide, by decide, by decide, by decide, by decide, by decide, by decide, by decide, by decide, by decide, by decide, by decide⟩, by decide⟩
theorem kept_arg9 : Kept main_arg9 := ⟨⟨by decide, by decide, by decide, by decide, by decide, by decide, by decide, by decide, by decide, by decide, by decide, by decide, by decide, by decide, by decide, by decide, by decide, by decide, by decide⟩, by decide⟩
theorem kept_arg10 : Kept main_arg10 := ⟨⟨by decide, by decide, by decide, by decide, by decide, by decide, by decide, by decide, by decide, by decide, by decide, by decide, by decide, by decide, by decide, by decide, by decide, by decide, by decide⟩, by decide⟩
theorem kept_arg11 : Kept main_arg11 := ⟨⟨by decide, by decide, by decide, by decide, by decide, by decide, by decide, by decide, by decide, by decide, by decide, by decide, by decide, by decide, by decide, by decide, by decide, by decide, by decide⟩, by decide⟩
theorem keptLater_src : KeptLater main_v1 := ⟨by decide, by decide, by decide, by decide, by decide, by decide, by decide, by decide, by decide, by decide, by decide, by decide, by decide, by decide, by decide, by decide, by decide, by decide, by decide⟩
theorem keptLater_dst : KeptLater main_v3 := ⟨by decide, by decide, by decide, by decide, by decide, by decide, by decide, by decide, by decide, by decide, by decide, by decide, by decide, by decide, by decide, by decide, by decide, by decide, by decide⟩

/-- After the first stretch the two endpoint vectors are the rows of the launch's edge-index argument. -/
theorem W1_src : (W1 m ρ c (Proc.devRef .tc main_v1) : IVec S600000 32) = srcK m c := by
  show StableHlo.after hostOps0 (W0 m ρ c) (Proc.devRef .tc main_v1) = _
  after_results_simp
  rfl
theorem W1_dst : (W1 m ρ c (Proc.devRef .tc main_v3) : IVec S600000 32) = dstK m c := by
  show StableHlo.after hostOps0 (W0 m ρ c) (Proc.devRef .tc main_v3) = _
  after_results_simp
  rfl

/-! ## Layer 0 -/

/-- The aggregated messages the layer's first region finds: those of the features the layer starts from. -/
theorem aggK0 : (W1 m ρ c (Proc.devRef .tc main_v16) : FVec Ideal S50000x128 .f32) = aggOf (hK0 m c) (eaK m c) (srcK m c) (dstK m c) := HostValue.agg0 (W0 m ρ c)

/-- The features that region finds are the features the layer starts from: the stretch before it does not write them. -/
theorem hinK0 : (W1 m ρ c (Proc.devRef .tc main_arg0) : FVec Ideal S50000x128 .f32) = hK0 m c := W1_launch m ρ c kept_arg0

/-- The linear part as that region computes it, over the six arrays it finds, is the specification's over the
    aggregated messages, the features and the layer's slices of the parameter tables. -/
theorem linFnK0 : (Cert.Spec.lin (fun i k => arr0_0 (V1 m ρ) c (ix2 i k)) (fun i k => arr0_1 (V1 m ρ) c (ix2 i k)) (fun k j => arr0_2 (V1 m ρ) c (ix2 k j)) (fun k j => arr0_4 (V1 m ρ) c (ix2 k j)) (fun j => arr0_3 (V1 m ρ) c (ix2 0 j)) (fun j => arr0_5 (V1 m ρ) c (ix2 0 j))) = (Cert.Spec.lin (matOf (aggOf (hK0 m c) (eaK m c) (srcK m c) (dstK m c))) (matOf (hK0 m c)) (WrK m c 0) (WoK m c 0) (brK m c 0) (boK m c 0)) := by
  have hA : (fun (i : Fin 50000) (k : Fin 128) => arr0_0 (V1 m ρ) c (ix2 i k)) = matOf (aggOf (hK0 m c) (eaK m c) (srcK m c) (dstK m c)) := by
    funext i k; exact congrFun (aggK0 m ρ c) (ix2 i k)
  have hH : (fun (i : Fin 50000) (k : Fin 128) => arr0_1 (V1 m ρ) c (ix2 i k)) = matOf (hK0 m c) := by
    funext i k; exact congrFun (hinK0 m ρ c) (ix2 i k)
  have hWr : (fun (k j : Fin 128) => arr0_2 (V1 m ρ) c (ix2 k j)) = WrK m c 0 := by
    funext k j; exact HostValue.wr0 (W0 m ρ c) k j
  have hWo : (fun (k j : Fin 128) => arr0_4 (V1 m ρ) c (ix2 k j)) = WoK m c 0 := by
    funext k j; exact HostValue.wo0 (W0 m ρ c) k j
  have hbr : (fun (j : Fin 128) => arr0_3 (V1 m ρ) c (ix2 0 j)) = brK m c 0 := by
    funext j; exact HostValue.br0 (W0 m ρ c) j
  have hbo : (fun (j : Fin 128) => arr0_5 (V1 m ρ) c (ix2 0 j)) = boK m c 0 := by
    funext j; exact HostValue.bo0 (W0 m ρ c) j
  rw [hA, hH, hWr, hWo, hbr, hbo]

/-- What the layer's second region finds: the linear part, its column means and its variances, as the first region
    left them (the stretch between the two regions writes none of the three), -/
theorem linK0 (i : Fin 50000) (k : Fin 128) :
    (W3 m ρ c (Proc.devRef .tc main_v27_0) : FVec Ideal S50000x128 .f32) (ix2 i k) = (Cert.Spec.lin (matOf (aggOf (hK0 m c) (eaK m c) (srcK m c) (dstK m c))) (matOf (hK0 m c)) (WrK m c 0) (WoK m c 0) (brK m c 0) (boK m c 0)) i k := by
  have e : (W3 m ρ c (Proc.devRef .tc main_v27_0) : FVec Ideal S50000x128 .f32) = (dat0 (F := Ideal) (V1 m ρ) c).arrAt 6 cfg0.N :=
    (W3_of m ρ c main_v27_0 (by decide)).trans (W2_arr m ρ c 6)
  exact ((congrFun e (ix2 i k)).trans (hnew0_arr (V1 m ρ) c (hnewTile0 (V1 m ρ) c) i k)).trans (congrFun (congrFun (linFnK0 m ρ c) i) k)
theorem meanK0 (k : Fin 128) :
    (W3 m ρ c (Proc.devRef .tc main_v27_1) : FVec Ideal S1x128 .f32) (ix2 0 k) = Cert.Spec.colMean (Cert.Spec.lin (matOf (aggOf (hK0 m c) (eaK m c) (srcK m c) (dstK m c))) (matOf (hK0 m c)) (WrK m c 0) (WoK m c 0) (brK m c 0) (boK m c 0)) k := by
  have e : (W3 m ρ c (Proc.devRef .tc main_v27_1) : FVec Ideal S1x128 .f32) = (dat0 (F := Ideal) (V1 m ρ) c).arrAt 7 cfg0.N :=
    (W3_of m ρ c main_v27_1 (by decide)).trans (W2_arr m ρ c 7)
  exact ((congrFun e (ix2 0 k)).trans (mean0_arr (V1 m ρ) c k)).trans (congrArg (fun X => Cert.Spec.colMean X k) (linFnK0 m ρ c))
theorem varK0 (k : Fin 128) :
    (W3 m ρ c (Proc.devRef .tc main_v27_2) : FVec Ideal S1x128 .f32) (ix2 0 k) = Cert.Spec.varSq (Cert.Spec.lin (matOf (aggOf (hK0 m c) (eaK m c) (srcK m c) (dstK m c))) (matOf (hK0 m c)) (WrK m c 0) (WoK m c 0) (brK m c 0) (boK m c 0)) k := by
  have e : (W3 m ρ c (Proc.devRef .tc main_v27_2) : FVec Ideal S1x128 .f32) = (dat0 (F := Ideal) (V1 m ρ) c).arrAt 8 cfg0.N :=
    (W3_of m ρ c main_v27_2 (by decide)).trans (W2_arr m ρ c 8)
  exact ((congrFun e (ix2 0 k)).trans (var0_arr (V1 m ρ) c k)).trans (congrArg (fun X => Cert.Spec.varSq X k) (linFnK0 m ρ c))
/-- and the layer's scale and shift rows, sliced out of their tables by that stretch. -/
theorem scaleK0 (k : Fin 128) : (W3 m ρ c (Proc.devRef .tc main_v32) : FVec Ideal S1x128 .f32) (ix2 0 k) = gK m c 0 k :=
  (HostValue.gam0 (W2 m ρ c) k).trans (congrFun (W2_launch m ρ c kept_arg6) _)
theorem shiftK0 (k : Fin 128) : (W3 m ρ c (Proc.devRef .tc main_v33) : FVec Ideal S1x128 .f32) (ix2 0 k) = bK m c 0 k :=
  (HostValue.bet0 (W2 m ρ c) k).trans (congrFun (W2_launch m ρ c kept_arg7) _)

/-- LAYER 0: the features after it are one layer of the specification, in the mean-of-squares form of the
    variance, of the features before it. -/
theorem chainK0 (i : Fin 50000) (j : Fin 128) :
    hK1 m ρ c (ix2 i j) = Cert.Spec.layerSq (matOf (aggOf (hK0 m c) (eaK m c) (srcK m c) (dstK m c))) (matOf (hK0 m c)) (WrK m c 0) (WoK m c 0) (brK m c 0) (boK m c 0) (gK m c 0) (bK m c 0) i j := by
  have e : hK1 m ρ c = (dat1 (F := Ideal) (V3 m ρ) c).arrAt 5 cfg1.N := W4_arr m ρ c 5
  refine ((congrFun e (ix2 i j)).trans (bn1_arr (V3 m ρ) c i j)).trans ?_
  have hx : (fun (i : Fin 50000) (k : Fin 128) => arr1_0 (V3 m ρ) c (ix2 i k)) = (Cert.Spec.lin (matOf (aggOf (hK0 m c) (eaK m c) (srcK m c) (dstK m c))) (matOf (hK0 m c)) (WrK m c 0) (WoK m c 0) (brK m c 0) (boK m c 0)) := by
    funext i k; exact linK0 m ρ c i k
  have hmu : (fun (k : Fin 128) => arr1_1 (V3 m ρ) c (ix2 0 k)) = Cert.Spec.colMean (Cert.Spec.lin (matOf (aggOf (hK0 m c) (eaK m c) (srcK m c) (dstK m c))) (matOf (hK0 m c)) (WrK m c 0) (WoK m c 0) (brK m c 0) (boK m c 0)) := by
    funext k; exact meanK0 m ρ c k
  have hv : (fun (k : Fin 128) => arr1_2 (V3 m ρ) c (ix2 0 k)) = Cert.Spec.varSq (Cert.Spec.lin (matOf (aggOf (hK0 m c) (eaK m c) (srcK m c) (dstK m c))) (matOf (hK0 m c)) (WrK m c 0) (WoK m c 0) (brK m c 0) (boK m c 0)) := by
    funext k; exact varK0 m ρ c k
  have hg : (fun (k : Fin 128) => arr1_3 (V3 m ρ) c (ix2 0 k)) = gK m c 0 := by
    funext k; exact scaleK0 m ρ c k
  have hb : (fun (k : Fin 128) => arr1_4 (V3 m ρ) c (ix2 0 k)) = bK m c 0 := by
    funext k; exact shiftK0 m ρ c k
  rw [hx, hmu, hv, hg, hb]
  rfl

/-! ## Layer 1 -/

/-- The aggregated messages the layer's first region finds: those of the features the layer starts from. -/
theorem aggK1 : (W5 m ρ c (Proc.devRef .tc main_v47) : FVec Ideal S50000x128 .f32) = aggOf (hK1 m ρ c) (eaK m c) (srcK m c) (dstK m c) := by
  rw [show (W5 m ρ c (Proc.devRef .tc main_v47) : FVec Ideal S50000x128 .f32) = _ from HostValue.agg1 (W4 m ρ c),
    W4_launch m ρ c kept_arg1, W4_later m ρ c keptLater_src, W4_later m ρ c keptLater_dst, W1_src, W1_dst]

/-- The features that region finds are the features the layer starts from: the stretch before it does not write them. -/
theorem hinK1 : (W5 m ρ c (Proc.devRef .tc main_v34) : FVec Ideal S50000x128 .f32) = hK1 m ρ c := W5_of m ρ c main_v34 (by decide)

/-- The linear part as that region computes it, over the six arrays it finds, is the specification's over the
    aggregated messages, the features and the layer's slices of the parameter tables. -/
theorem linFnK1 : (Cert.Spec.lin (fun i k => arr2_0 (V5 m ρ) c (ix2 i k)) (fun i k => arr2_1 (V5 m ρ) c (ix2 i k)) (fun k j => arr2_2 (V5 m ρ) c (ix2 k j)) (fun k j => arr2_4 (V5 m ρ) c (ix2 k j)) (fun j => arr2_3 (V5 m ρ) c (ix2 0 j)) (fun j => arr2_5 (V5 m ρ) c (ix2 0 j))) = (Cert.Spec.lin (matOf (aggOf (hK1 m ρ c) (eaK m c) (srcK m c) (dstK m c))) (matOf (hK1 m ρ c)) (WrK m c 1) (WoK m c 1) (brK m c 1) (boK m c 1)) := by
  have hA : (fun (i : Fin 50000) (k : Fin 128) => arr2_0 (V5 m ρ) c (ix2 i k)) = matOf (aggOf (hK1 m ρ c) (eaK m c) (srcK m c) (dstK m c)) := by
    funext i k; exact congrFun (aggK1 m ρ c) (ix2 i k)
  have hH : (fun (i : Fin 50000) (k : Fin 128) => arr2_1 (V5 m ρ) c (ix2 i k)) = matOf (hK1 m ρ c) := by
    funext i k; exact congrFun (hinK1 m ρ c) (ix2 i k)
  have hWr : (fun (k j : Fin 128) => arr2_2 (V5 m ρ) c (ix2 k j)) = WrK m c 1 := by
    funext k j; exact (HostValue.wr1 (W4 m ρ c) k j).trans (congrFun (W4_launch m ρ c kept_arg2) _)
  have hWo : (fun (k j : Fin 128) => arr2_4 (V5 m ρ) c (ix2 k j)) = WoK m c 1 := by
    funext k j; exact (HostValue.wo1 (W4 m ρ c) k j).trans (congrFun (W4_launch m ρ c kept_arg4) _)
  have hbr : (fun (j : Fin 128) => arr2_3 (V5 m ρ) c (ix2 0 j)) = brK m c 1 := by
    funext j; exact (HostValue.br1 (W4 m ρ c) j).trans (congrFun (W4_launch m ρ c kept_arg3) _)
  have hbo : (fun (j : Fin 128) => arr2_5 (V5 m ρ) c (ix2 0 j)) = boK m c 1 := by
    funext j; exact (HostValue.bo1 (W4 m ρ c) j).trans (congrFun (W4_launch m ρ c kept_arg5) _)
  rw [hA, hH, hWr, hWo, hbr, hbo]

/-- What the layer's second region finds: the linear part, its column means and its variances, as the first region
    left them (the stretch between the two regions writes none of the three), -/
theorem linK1 (i : Fin 50000) (k : Fin 128) :
    (W7 m ρ c (Proc.devRef .tc main_v58_0) : FVec Ideal S50000x128 .f32) (ix2 i k) = (Cert.Spec.lin (matOf (aggOf (hK1 m ρ c) (eaK m c) (srcK m c) (dstK m c))) (matOf (hK1 m ρ c)) (WrK m c 1) (WoK m c 1) (brK m c 1) (boK m c 1)) i k := by
  have e : (W7 m ρ c (Proc.devRef .tc main_v58_0) : FVec Ideal S50000x128 .f32) = (dat2 (F := Ideal) (V5 m ρ) c).arrAt 6 cfg2.N :=
    (W7_of m ρ c main_v58_0 (by decide)).trans (W6_arr m ρ c 6)
  exact ((congrFun e (ix2 i k)).trans (hnew2_arr (V5 m ρ) c (hnewTile2 (V5 m ρ) c) i k)).trans (congrFun (congrFun (linFnK1 m ρ c) i) k)
theorem meanK1 (k : Fin 128) :
    (W7 m ρ c (Proc.devRef .tc main_v58_1) : FVec Ideal S1x128 .f32) (ix2 0 k) = Cert.Spec.colMean (Cert.Spec.lin (matOf (aggOf (hK1 m ρ c) (eaK m c) (srcK m c) (dstK m c))) (matOf (hK1 m ρ c)) (WrK m c 1) (WoK m c 1) (brK m c 1) (boK m c 1)) k := by
  have e : (W7 m ρ c (Proc.devRef .tc main_v58_1) : FVec Ideal S1x128 .f32) = (dat2 (F := Ideal) (V5 m ρ) c).arrAt 7 cfg2.N :=
    (W7_of m ρ c main_v58_1 (by decide)).trans (W6_arr m ρ c 7)
  exact ((congrFun e (ix2 0 k)).trans (mean2_arr (V5 m ρ) c k)).trans (congrArg (fun X => Cert.Spec.colMean X k) (linFnK1 m ρ c))
theorem varK1 (k : Fin 128) :
    (W7 m ρ c (Proc.devRef .tc main_v58_2) : FVec Ideal S1x128 .f32) (ix2 0 k) = Cert.Spec.varSq (Cert.Spec.lin (matOf (aggOf (hK1 m ρ c) (eaK m c) (srcK m c) (dstK m c))) (matOf (hK1 m ρ c)) (WrK m c 1) (WoK m c 1) (brK m c 1) (boK m c 1)) k := by
  have e : (W7 m ρ c (Proc.devRef .tc main_v58_2) : FVec Ideal S1x128 .f32) = (dat2 (F := Ideal) (V5 m ρ) c).arrAt 8 cfg2.N :=
    (W7_of m ρ c main_v58_2 (by decide)).trans (W6_arr m ρ c 8)
  exact ((congrFun e (ix2 0 k)).trans (var2_arr (V5 m ρ) c k)).trans (congrArg (fun X => Cert.Spec.varSq X k) (linFnK1 m ρ c))
/-- and the layer's scale and shift rows, sliced out of their tables by that stretch. -/
theorem scaleK1 (k : Fin 128) : (W7 m ρ c (Proc.devRef .tc main_v63) : FVec Ideal S1x128 .f32) (ix2 0 k) = gK m c 1 k :=
  (HostValue.gam1 (W6 m ρ c) k).trans (congrFun (W6_launch m ρ c kept_arg6) _)
theorem shiftK1 (k : Fin 128) : (W7 m ρ c (Proc.devRef .tc main_v64) : FVec Ideal S1x128 .f32) (ix2 0 k) = bK m c 1 k :=
  (HostValue.bet1 (W6 m ρ c) k).trans (congrFun (W6_launch m ρ c kept_arg7) _)

/-- LAYER 1: the features after it are one layer of the specification, in the mean-of-squares form of the
    variance, of the features before it. -/
theorem chainK1 (i : Fin 50000) (j : Fin 128) :
    hK2 m ρ c (ix2 i j) = Cert.Spec.layerSq (matOf (aggOf (hK1 m ρ c) (eaK m c) (srcK m c) (dstK m c))) (matOf (hK1 m ρ c)) (WrK m c 1) (WoK m c 1) (brK m c 1) (boK m c 1) (gK m c 1) (bK m c 1) i j := by
  have e : hK2 m ρ c = (dat3 (F := Ideal) (V7 m ρ) c).arrAt 5 cfg3.N := W8_arr m ρ c 5
  refine ((congrFun e (ix2 i j)).trans (bn3_arr (V7 m ρ) c i j)).trans ?_
  have hx : (fun (i : Fin 50000) (k : Fin 128) => arr3_0 (V7 m ρ) c (ix2 i k)) = (Cert.Spec.lin (matOf (aggOf (hK1 m ρ c) (eaK m c) (srcK m c) (dstK m c))) (matOf (hK1 m ρ c)) (WrK m c 1) (WoK m c 1) (brK m c 1) (boK m c 1)) := by
    funext i k; exact linK1 m ρ c i k
  have hmu : (fun (k : Fin 128) => arr3_1 (V7 m ρ) c (ix2 0 k)) = Cert.Spec.colMean (Cert.Spec.lin (matOf (aggOf (hK1 m ρ c) (eaK m c) (srcK m c) (dstK m c))) (matOf (hK1 m ρ c)) (WrK m c 1) (WoK m c 1) (brK m c 1) (boK m c 1)) := by
    funext k; exact meanK1 m ρ c k
  have hv : (fun (k : Fin 128) => arr3_2 (V7 m ρ) c (ix2 0 k)) = Cert.Spec.varSq (Cert.Spec.lin (matOf (aggOf (hK1 m ρ c) (eaK m c) (srcK m c) (dstK m c))) (matOf (hK1 m ρ c)) (WrK m c 1) (WoK m c 1) (brK m c 1) (boK m c 1)) := by
    funext k; exact varK1 m ρ c k
  have hg : (fun (k : Fin 128) => arr3_3 (V7 m ρ) c (ix2 0 k)) = gK m c 1 := by
    funext k; exact scaleK1 m ρ c k
  have hb : (fun (k : Fin 128) => arr3_4 (V7 m ρ) c (ix2 0 k)) = bK m c 1 := by
    funext k; exact shiftK1 m ρ c k
  rw [hx, hmu, hv, hg, hb]
  rfl

/-! ## Layer 2 -/

/-- The aggregated messages the layer's first region finds: those of the features the layer starts from. -/
theorem aggK2 : (W9 m ρ c (Proc.devRef .tc main_v78) : FVec Ideal S50000x128 .f32) = aggOf (hK2 m ρ c) (eaK m c) (srcK m c) (dstK m c) := by
  rw [show (W9 m ρ c (Proc.devRef .tc main_v78) : FVec Ideal S50000x128 .f32) = _ from HostValue.agg2 (W8 m ρ c),
    W8_launch m ρ c kept_arg1, W8_later m ρ c keptLater_src, W8_later m ρ c keptLater_dst, W1_src, W1_dst]

/-- The features that region finds are the features the layer starts from: the stretch before it does not write them. -/
theorem hinK2 : (W9 m ρ c (Proc.devRef .tc main_v65) : FVec Ideal S50000x128 .f32) = hK2 m ρ c := W9_of m ρ c main_v65 (by decide)

/-- The linear part as that region computes it, over the six arrays it finds, is the specification's over the
    aggregated messages, the features and the layer's slices of the parameter tables. -/
theorem linFnK2 : (Cert.Spec.lin (fun i k => arr4_0 (V9 m ρ) c (ix2 i k)) (fun i k => arr4_1 (V9 m ρ) c (ix2 i k)) (fun k j => arr4_2 (V9 m ρ) c (ix2 k j)) (fun k j => arr4_4 (V9 m ρ) c (ix2 k j)) (fun j => arr4_3 (V9 m ρ) c (ix2 0 j)) (fun j => arr4_5 (V9 m ρ) c (ix2 0 j))) = (Cert.Spec.lin (matOf (aggOf (hK2 m ρ c) (eaK m c) (srcK m c) (dstK m c))) (matOf (hK2 m ρ c)) (WrK m c 2) (WoK m c 2) (brK m c 2) (boK m c 2)) := by
  have hA : (fun (i : Fin 50000) (k : Fin 128) => arr4_0 (V9 m ρ) c (ix2 i k)) = matOf (aggOf (hK2 m ρ c) (eaK m c) (srcK m c) (dstK m c)) := by
    funext i k; exact congrFun (aggK2 m ρ c) (ix2 i k)
  have hH : (fun (i : Fin 50000) (k : Fin 128) => arr4_1 (V9 m ρ) c (ix2 i k)) = matOf (hK2 m ρ c) := by
    funext i k; exact congrFun (hinK2 m ρ c) (ix2 i k)
  have hWr : (fun (k j : Fin 128) => arr4_2 (V9 m ρ) c (ix2 k j)) = WrK m c 2 := by
    funext k j; exact (HostValue.wr2 (W8 m ρ c) k j).trans (congrFun (W8_launch m ρ c kept_arg2) _)
  have hWo : (fun (k j : Fin 128) => arr4_4 (V9 m ρ) c (ix2 k j)) = WoK m c 2 := by
    funext k j; exact (HostValue.wo2 (W8 m ρ c) k j).trans (congrFun (W8_launch m ρ c kept_arg4) _)
  have hbr : (fun (j : Fin 128) => arr4_3 (V9 m ρ) c (ix2 0 j)) = brK m c 2 := by
    funext j; exact (HostValue.br2 (W8 m ρ c) j).trans (congrFun (W8_launch m ρ c kept_arg3) _)
  have hbo : (fun (j : Fin 128) => arr4_5 (V9 m ρ) c (ix2 0 j)) = boK m c 2 := by
    funext j; exact (HostValue.bo2 (W8 m ρ c) j).trans (congrFun (W8_launch m ρ c kept_arg5) _)
  rw [hA, hH, hWr, hWo, hbr, hbo]

/-- What the layer's second region finds: the linear part, its column means and its variances, as the first region
    left them (the stretch between the two regions writes none of the three), -/
theorem linK2 (i : Fin 50000) (k : Fin 128) :
    (W11 m ρ c (Proc.devRef .tc main_v89_0) : FVec Ideal S50000x128 .f32) (ix2 i k) = (Cert.Spec.lin (matOf (aggOf (hK2 m ρ c) (eaK m c) (srcK m c) (dstK m c))) (matOf (hK2 m ρ c)) (WrK m c 2) (WoK m c 2) (brK m c 2) (boK m c 2)) i k := by
  have e : (W11 m ρ c (Proc.devRef .tc main_v89_0) : FVec Ideal S50000x128 .f32) = (dat4 (F := Ideal) (V9 m ρ) c).arrAt 6 cfg4.N :=
    (W11_of m ρ c main_v89_0 (by decide)).trans (W10_arr m ρ c 6)
  exact ((congrFun e (ix2 i k)).trans (hnew4_arr (V9 m ρ) c (hnewTile4 (V9 m ρ) c) i k)).trans (congrFun (congrFun (linFnK2 m ρ c) i) k)
theorem meanK2 (k : Fin 128) :
    (W11 m ρ c (Proc.devRef .tc main_v89_1) : FVec Ideal S1x128 .f32) (ix2 0 k) = Cert.Spec.colMean (Cert.Spec.lin (matOf (aggOf (hK2 m ρ c) (eaK m c) (srcK m c) (dstK m c))) (matOf (hK2 m ρ c)) (WrK m c 2) (WoK m c 2) (brK m c 2) (boK m c 2)) k := by
  have e : (W11 m ρ c (Proc.devRef .tc main_v89_1) : FVec Ideal S1x128 .f32) = (dat4 (F := Ideal) (V9 m ρ) c).arrAt 7 cfg4.N :=
    (W11_of m ρ c main_v89_1 (by decide)).trans (W10_arr m ρ c 7)
  exact ((congrFun e (ix2 0 k)).trans (mean4_arr (V9 m ρ) c k)).trans (congrArg (fun X => Cert.Spec.colMean X k) (linFnK2 m ρ c))
theorem varK2 (k : Fin 128) :
    (W11 m ρ c (Proc.devRef .tc main_v89_2) : FVec Ideal S1x128 .f32) (ix2 0 k) = Cert.Spec.varSq (Cert.Spec.lin (matOf (aggOf (hK2 m ρ c) (eaK m c) (srcK m c) (dstK m c))) (matOf (hK2 m ρ c)) (WrK m c 2) (WoK m c 2) (brK m c 2) (boK m c 2)) k := by
  have e : (W11 m ρ c (Proc.devRef .tc main_v89_2) : FVec Ideal S1x128 .f32) = (dat4 (F := Ideal) (V9 m ρ) c).arrAt 8 cfg4.N :=
    (W11_of m ρ c main_v89_2 (by decide)).trans (W10_arr m ρ c 8)
  exact ((congrFun e (ix2 0 k)).trans (var4_arr (V9 m ρ) c k)).trans (congrArg (fun X => Cert.Spec.varSq X k) (linFnK2 m ρ c))
/-- and the layer's scale and shift rows, sliced out of their tables by that stretch. -/
theorem scaleK2 (k : Fin 128) : (W11 m ρ c (Proc.devRef .tc main_v94) : FVec Ideal S1x128 .f32) (ix2 0 k) = gK m c 2 k :=
  (HostValue.gam2 (W10 m ρ c) k).trans (congrFun (W10_launch m ρ c kept_arg6) _)
theorem shiftK2 (k : Fin 128) : (W11 m ρ c (Proc.devRef .tc main_v95) : FVec Ideal S1x128 .f32) (ix2 0 k) = bK m c 2 k :=
  (HostValue.bet2 (W10 m ρ c) k).trans (congrFun (W10_launch m ρ c kept_arg7) _)

/-- LAYER 2: the features after it are one layer of the specification, in the mean-of-squares form of the
    variance, of the features before it. -/
theorem chainK2 (i : Fin 50000) (j : Fin 128) :
    hK3 m ρ c (ix2 i j) = Cert.Spec.layerSq (matOf (aggOf (hK2 m ρ c) (eaK m c) (srcK m c) (dstK m c))) (matOf (hK2 m ρ c)) (WrK m c 2) (WoK m c 2) (brK m c 2) (boK m c 2) (gK m c 2) (bK m c 2) i j := by
  have e : hK3 m ρ c = (dat5 (F := Ideal) (V11 m ρ) c).arrAt 5 cfg5.N := W12_arr m ρ c 5
  refine ((congrFun e (ix2 i j)).trans (bn5_arr (V11 m ρ) c i j)).trans ?_
  have hx : (fun (i : Fin 50000) (k : Fin 128) => arr5_0 (V11 m ρ) c (ix2 i k)) = (Cert.Spec.lin (matOf (aggOf (hK2 m ρ c) (eaK m c) (srcK m c) (dstK m c))) (matOf (hK2 m ρ c)) (WrK m c 2) (WoK m c 2) (brK m c 2) (boK m c 2)) := by
    funext i k; exact linK2 m ρ c i k
  have hmu : (fun (k : Fin 128) => arr5_1 (V11 m ρ) c (ix2 0 k)) = Cert.Spec.colMean (Cert.Spec.lin (matOf (aggOf (hK2 m ρ c) (eaK m c) (srcK m c) (dstK m c))) (matOf (hK2 m ρ c)) (WrK m c 2) (WoK m c 2) (brK m c 2) (boK m c 2)) := by
    funext k; exact meanK2 m ρ c k
  have hv : (fun (k : Fin 128) => arr5_2 (V11 m ρ) c (ix2 0 k)) = Cert.Spec.varSq (Cert.Spec.lin (matOf (aggOf (hK2 m ρ c) (eaK m c) (srcK m c) (dstK m c))) (matOf (hK2 m ρ c)) (WrK m c 2) (WoK m c 2) (brK m c 2) (boK m c 2)) := by
    funext k; exact varK2 m ρ c k
  have hg : (fun (k : Fin 128) => arr5_3 (V11 m ρ) c (ix2 0 k)) = gK m c 2 := by
    funext k; exact scaleK2 m ρ c k
  have hb : (fun (k : Fin 128) => arr5_4 (V11 m ρ) c (ix2 0 k)) = bK m c 2 := by
    funext k; exact shiftK2 m ρ c k
  rw [hx, hmu, hv, hg, hb]
  rfl

/-! ## Layer 3 -/

/-- The aggregated messages the layer's first region finds: those of the features the layer starts from. -/
theorem aggK3 : (W13 m ρ c (Proc.devRef .tc main_v109) : FVec Ideal S50000x128 .f32) = aggOf (hK3 m ρ c) (eaK m c) (srcK m c) (dstK m c) := by
  rw [show (W13 m ρ c (Proc.devRef .tc main_v109) : FVec Ideal S50000x128 .f32) = _ from HostValue.agg3 (W12 m ρ c),
    W12_launch m ρ c kept_arg1, W12_later m ρ c keptLater_src, W12_later m ρ c keptLater_dst, W1_src, W1_dst]

/-- The features that region finds are the features the layer starts from: the stretch before it does not write them. -/
theorem hinK3 : (W13 m ρ c (Proc.devRef .tc main_v96) : FVec Ideal S50000x128 .f32) = hK3 m ρ c := W13_of m ρ c main_v96 (by decide)

/-- The linear part as that region computes it, over the six arrays it finds, is the specification's over the
    aggregated messages, the features and the layer's slices of the parameter tables. -/
theorem linFnK3 : (Cert.Spec.lin (fun i k => arr6_0 (V13 m ρ) c (ix2 i k)) (fun i k => arr6_1 (V13 m ρ) c (ix2 i k)) (fun k j => arr6_2 (V13 m ρ) c (ix2 k j)) (fun k j => arr6_4 (V13 m ρ) c (ix2 k j)) (fun j => arr6_3 (V13 m ρ) c (ix2 0 j)) (fun j => arr6_5 (V13 m ρ) c (ix2 0 j))) = (Cert.Spec.lin (matOf (aggOf (hK3 m ρ c) (eaK m c) (srcK m c) (dstK m c))) (matOf (hK3 m ρ c)) (WrK m c 3) (WoK m c 3) (brK m c 3) (boK m c 3)) := by
  have hA : (fun (i : Fin 50000) (k : Fin 128) => arr6_0 (V13 m ρ) c (ix2 i k)) = matOf (aggOf (hK3 m ρ c) (eaK m c) (srcK m c) (dstK m c)) := by
    funext i k; exact congrFun (aggK3 m ρ c) (ix2 i k)
  have hH : (fun (i : Fin 50000) (k : Fin 128) => arr6_1 (V13 m ρ) c (ix2 i k)) = matOf (hK3 m ρ c) := by
    funext i k; exact congrFun (hinK3 m ρ c) (ix2 i k)
  have hWr : (fun (k j : Fin 128) => arr6_2 (V13 m ρ) c (ix2 k j)) = WrK m c 3 := by
    funext k j; exact (HostValue.wr3 (W12 m ρ c) k j).trans (congrFun (W12_launch m ρ c kept_arg2) _)
  have hWo : (fun (k j : Fin 128) => arr6_4 (V13 m ρ) c (ix2 k j)) = WoK m c 3 := by
    funext k j; exact (HostValue.wo3 (W12 m ρ c) k j).trans (congrFun (W12_launch m ρ c kept_arg4) _)
  have hbr : (fun (j : Fin 128) => arr6_3 (V13 m ρ) c (ix2 0 j)) = brK m c 3 := by
    funext j; exact (HostValue.br3 (W12 m ρ c) j).trans (congrFun (W12_launch m ρ c kept_arg3) _)
  have hbo : (fun (j : Fin 128) => arr6_5 (V13 m ρ) c (ix2 0 j)) = boK m c 3 := by
    funext j; exact (HostValue.bo3 (W12 m ρ c) j).trans (congrFun (W12_launch m ρ c kept_arg5) _)
  rw [hA, hH, hWr, hWo, hbr, hbo]

/-- What the layer's second region finds: the linear part, its column means and its variances, as the first region
    left them (the stretch between the two regions writes none of the three), -/
theorem linK3 (i : Fin 50000) (k : Fin 128) :
    (W15 m ρ c (Proc.devRef .tc main_v120_0) : FVec Ideal S50000x128 .f32) (ix2 i k) = (Cert.Spec.lin (matOf (aggOf (hK3 m ρ c) (eaK m c) (srcK m c) (dstK m c))) (matOf (hK3 m ρ c)) (WrK m c 3) (WoK m c 3) (brK m c 3) (boK m c 3)) i k := by
  have e : (W15 m ρ c (Proc.devRef .tc main_v120_0) : FVec Ideal S50000x128 .f32) = (dat6 (F := Ideal) (V13 m ρ) c).arrAt 6 cfg6.N :=
    (W15_of m ρ c main_v120_0 (by decide)).trans (W14_arr m ρ c 6)
  exact ((congrFun e (ix2 i k)).trans (hnew6_arr (V13 m ρ) c (hnewTile6 (V13 m ρ) c) i k)).trans (congrFun (congrFun (linFnK3 m ρ c) i) k)
theorem meanK3 (k : Fin 128) :
    (W15 m ρ c (Proc.devRef .tc main_v120_1) : FVec Ideal S1x128 .f32) (ix2 0 k) = Cert.Spec.colMean (Cert.Spec.lin (matOf (aggOf (hK3 m ρ c) (eaK m c) (srcK m c) (dstK m c))) (matOf (hK3 m ρ c)) (WrK m c 3) (WoK m c 3) (brK m c 3) (boK m c 3)) k := by
  have e : (W15 m ρ c (Proc.devRef .tc main_v120_1) : FVec Ideal S1x128 .f32) = (dat6 (F := Ideal) (V13 m ρ) c).arrAt 7 cfg6.N :=
    (W15_of m ρ c main_v120_1 (by decide)).trans (W14_arr m ρ c 7)
  exact ((congrFun e (ix2 0 k)).trans (mean6_arr (V13 m ρ) c k)).trans (congrArg (fun X => Cert.Spec.colMean X k) (linFnK3 m ρ c))
theorem varK3 (k : Fin 128) :
    (W15 m ρ c (Proc.devRef .tc main_v120_2) : FVec Ideal S1x128 .f32) (ix2 0 k) = Cert.Spec.varSq (Cert.Spec.lin (matOf (aggOf (hK3 m ρ c) (eaK m c) (srcK m c) (dstK m c))) (matOf (hK3 m ρ c)) (WrK m c 3) (WoK m c 3) (brK m c 3) (boK m c 3)) k := by
  have e : (W15 m ρ c (Proc.devRef .tc main_v120_2) : FVec Ideal S1x128 .f32) = (dat6 (F := Ideal) (V13 m ρ) c).arrAt 8 cfg6.N :=
    (W15_of m ρ c main_v120_2 (by decide)).trans (W14_arr m ρ c 8)
  exact ((congrFun e (ix2 0 k)).trans (var6_arr (V13 m ρ) c k)).trans (congrArg (fun X => Cert.Spec.varSq X k) (linFnK3 m ρ c))
/-- and the layer's scale and shift rows, sliced out of their tables by that stretch. -/
theorem scaleK3 (k : Fin 128) : (W15 m ρ c (Proc.devRef .tc main_v125) : FVec Ideal S1x128 .f32) (ix2 0 k) = gK m c 3 k :=
  (HostValue.gam3 (W14 m ρ c) k).trans (congrFun (W14_launch m ρ c kept_arg6) _)
theorem shiftK3 (k : Fin 128) : (W15 m ρ c (Proc.devRef .tc main_v126) : FVec Ideal S1x128 .f32) (ix2 0 k) = bK m c 3 k :=
  (HostValue.bet3 (W14 m ρ c) k).trans (congrFun (W14_launch m ρ c kept_arg7) _)

/-- LAYER 3: the features after it are one layer of the specification, in the mean-of-squares form of the
    variance, of the features before it. -/
theorem chainK3 (i : Fin 50000) (j : Fin 128) :
    hK4 m ρ c (ix2 i j) = Cert.Spec.layerSq (matOf (aggOf (hK3 m ρ c) (eaK m c) (srcK m c) (dstK m c))) (matOf (hK3 m ρ c)) (WrK m c 3) (WoK m c 3) (brK m c 3) (boK m c 3) (gK m c 3) (bK m c 3) i j := by
  have e : hK4 m ρ c = (dat7 (F := Ideal) (V15 m ρ) c).arrAt 5 cfg7.N := W16_arr m ρ c 5
  refine ((congrFun e (ix2 i j)).trans (bn7_arr (V15 m ρ) c i j)).trans ?_
  have hx : (fun (i : Fin 50000) (k : Fin 128) => arr7_0 (V15 m ρ) c (ix2 i k)) = (Cert.Spec.lin (matOf (aggOf (hK3 m ρ c) (eaK m c) (srcK m c) (dstK m c))) (matOf (hK3 m ρ c)) (WrK m c 3) (WoK m c 3) (brK m c 3) (boK m c 3)) := by
    funext i k; exact linK3 m ρ c i k
  have hmu : (fun (k : Fin 128) => arr7_1 (V15 m ρ) c (ix2 0 k)) = Cert.Spec.colMean (Cert.Spec.lin (matOf (aggOf (hK3 m ρ c) (eaK m c) (srcK m c) (dstK m c))) (matOf (hK3 m ρ c)) (WrK m c 3) (WoK m c 3) (brK m c 3) (boK m c 3)) := by
    funext k; exact meanK3 m ρ c k
  have hv : (fun (k : Fin 128) => arr7_2 (V15 m ρ) c (ix2 0 k)) = Cert.Spec.varSq (Cert.Spec.lin (matOf (aggOf (hK3 m ρ c) (eaK m c) (srcK m c) (dstK m c))) (matOf (hK3 m ρ c)) (WrK m c 3) (WoK m c 3) (brK m c 3) (boK m c 3)) := by
    funext k; exact varK3 m ρ c k
  have hg : (fun (k : Fin 128) => arr7_3 (V15 m ρ) c (ix2 0 k)) = gK m c 3 := by
    funext k; exact scaleK3 m ρ c k
  have hb : (fun (k : Fin 128) => arr7_4 (V15 m ρ) c (ix2 0 k)) = bK m c 3 := by
    funext k; exact shiftK3 m ρ c k
  rw [hx, hmu, hv, hg, hb]
  rfl

/-! ## Layer 4 -/

/-- The aggregated messages the layer's first region finds: those of the features the layer starts from. -/
theorem aggK4 : (W17 m ρ c (Proc.devRef .tc main_v140) : FVec Ideal S50000x128 .f32) = aggOf (hK4 m ρ c) (eaK m c) (srcK m c) (dstK m c) := by
  rw [show (W17 m ρ c (Proc.devRef .tc main_v140) : FVec Ideal S50000x128 .f32) = _ from HostValue.agg4 (W16 m ρ c),
    W16_launch m ρ c kept_arg1, W16_later m ρ c keptLater_src, W16_later m ρ c keptLater_dst, W1_src, W1_dst]

/-- The features that region finds are the features the layer starts from: the stretch before it does not write them. -/
theorem hinK4 : (W17 m ρ c (Proc.devRef .tc main_v127) : FVec Ideal S50000x128 .f32) = hK4 m ρ c := W17_of m ρ c main_v127 (by decide)

/-- The linear part as that region computes it, over the six arrays it finds, is the specification's over the
    aggregated messages, the features and the layer's slices of the parameter tables. -/
theorem linFnK4 : (Cert.Spec.lin (fun i k => arr8_0 (V17 m ρ) c (ix2 i k)) (fun i k => arr8_1 (V17 m ρ) c (ix2 i k)) (fun k j => arr8_2 (V17 m ρ) c (ix2 k j)) (fun k j => arr8_4 (V17 m ρ) c (ix2 k j)) (fun j => arr8_3 (V17 m ρ) c (ix2 0 j)) (fun j => arr8_5 (V17 m ρ) c (ix2 0 j))) = (Cert.Spec.lin (matOf (aggOf (hK4 m ρ c) (eaK m c) (srcK m c) (dstK m c))) (matOf (hK4 m ρ c)) (WrK m c 4) (WoK m c 4) (brK m c 4) (boK m c 4)) := by
  have hA : (fun (i : Fin 50000) (k : Fin 128) => arr8_0 (V17 m ρ) c (ix2 i k)) = matOf (aggOf (hK4 m ρ c) (eaK m c) (srcK m c) (dstK m c)) := by
    funext i k; exact congrFun (aggK4 m ρ c) (ix2 i k)
  have hH : (fun (i : Fin 50000) (k : Fin 128) => arr8_1 (V17 m ρ) c (ix2 i k)) = matOf (hK4 m ρ c) := by
    funext i k; exact congrFun (hinK4 m ρ c) (ix2 i k)
  have hWr : (fun (k j : Fin 128) => arr8_2 (V17 m ρ) c (ix2 k j)) = WrK m c 4 := by
    funext k j; exact (HostValue.wr4 (W16 m ρ c) k j).trans (congrFun (W16_launch m ρ c kept_arg2) _)
  have hWo : (fun (k j : Fin 128) => arr8_4 (V17 m ρ) c (ix2 k j)) = WoK m c 4 := by
    funext k j; exact (HostValue.wo4 (W16 m ρ c) k j).trans (congrFun (W16_launch m ρ c kept_arg4) _)
  have hbr : (fun (j : Fin 128) => arr8_3 (V17 m ρ) c (ix2 0 j)) = brK m c 4 := by
    funext j; exact (HostValue.br4 (W16 m ρ c) j).trans (congrFun (W16_launch m ρ c kept_arg3) _)
  have hbo : (fun (j : Fin 128) => arr8_5 (V17 m ρ) c (ix2 0 j)) = boK m c 4 := by
    funext j; exact (HostValue.bo4 (W16 m ρ c) j).trans (congrFun (W16_launch m ρ c kept_arg5) _)
  rw [hA, hH, hWr, hWo, hbr, hbo]

/-- What the layer's second region finds: the linear part, its column means and its variances, as the first region
    left them (the stretch between the two regions writes none of the three), -/
theorem linK4 (i : Fin 50000) (k : Fin 128) :
    (W19 m ρ c (Proc.devRef .tc main_v151_0) : FVec Ideal S50000x128 .f32) (ix2 i k) = (Cert.Spec.lin (matOf (aggOf (hK4 m ρ c) (eaK m c) (srcK m c) (dstK m c))) (matOf (hK4 m ρ c)) (WrK m c 4) (WoK m c 4) (brK m c 4) (boK m c 4)) i k := by
  have e : (W19 m ρ c (Proc.devRef .tc main_v151_0) : FVec Ideal S50000x128 .f32) = (dat8 (F := Ideal) (V17 m ρ) c).arrAt 6 cfg8.N :=
    (W19_of m ρ c main_v151_0 (by decide)).trans (W18_arr m ρ c 6)
  exact ((congrFun e (ix2 i k)).trans (hnew8_arr (V17 m ρ) c (hnewTile8 (V17 m ρ) c) i k)).trans (congrFun (congrFun (linFnK4 m ρ c) i) k)
theorem meanK4 (k : Fin 128) :
    (W19 m ρ c (Proc.devRef .tc main_v151_1) : FVec Ideal S1x128 .f32) (ix2 0 k) = Cert.Spec.colMean (Cert.Spec.lin (matOf (aggOf (hK4 m ρ c) (eaK m c) (srcK m c) (dstK m c))) (matOf (hK4 m ρ c)) (WrK m c 4) (WoK m c 4) (brK m c 4) (boK m c 4)) k := by
  have e : (W19 m ρ c (Proc.devRef .tc main_v151_1) : FVec Ideal S1x128 .f32) = (dat8 (F := Ideal) (V17 m ρ) c).arrAt 7 cfg8.N :=
    (W19_of m ρ c main_v151_1 (by decide)).trans (W18_arr m ρ c 7)
  exact ((congrFun e (ix2 0 k)).trans (mean8_arr (V17 m ρ) c k)).trans (congrArg (fun X => Cert.Spec.colMean X k) (linFnK4 m ρ c))
theorem varK4 (k : Fin 128) :
    (W19 m ρ c (Proc.devRef .tc main_v151_2) : FVec Ideal S1x128 .f32) (ix2 0 k) = Cert.Spec.varSq (Cert.Spec.lin (matOf (aggOf (hK4 m ρ c) (eaK m c) (srcK m c) (dstK m c))) (matOf (hK4 m ρ c)) (WrK m c 4) (WoK m c 4) (brK m c 4) (boK m c 4)) k := by
  have e : (W19 m ρ c (Proc.devRef .tc main_v151_2) : FVec Ideal S1x128 .f32) = (dat8 (F := Ideal) (V17 m ρ) c).arrAt 8 cfg8.N :=
    (W19_of m ρ c main_v151_2 (by decide)).trans (W18_arr m ρ c 8)
  exact ((congrFun e (ix2 0 k)).trans (var8_arr (V17 m ρ) c k)).trans (congrArg (fun X => Cert.Spec.varSq X k) (linFnK4 m ρ c))
/-- and the layer's scale and shift rows, sliced out of their tables by that stretch. -/
theorem scaleK4 (k : Fin 128) : (W19 m ρ c (Proc.devRef .tc main_v156) : FVec Ideal S1x128 .f32) (ix2 0 k) = gK m c 4 k :=
  (HostValue.gam4 (W18 m ρ c) k).trans (congrFun (W18_launch m ρ c kept_arg6) _)
theorem shiftK4 (k : Fin 128) : (W19 m ρ c (Proc.devRef .tc main_v157) : FVec Ideal S1x128 .f32) (ix2 0 k) = bK m c 4 k :=
  (HostValue.bet4 (W18 m ρ c) k).trans (congrFun (W18_launch m ρ c kept_arg7) _)

/-- LAYER 4: the features after it are one layer of the specification, in the mean-of-squares form of the
    variance, of the features before it. -/
theorem chainK4 (i : Fin 50000) (j : Fin 128) :
    hK5 m ρ c (ix2 i j) = Cert.Spec.layerSq (matOf (aggOf (hK4 m ρ c) (eaK m c) (srcK m c) (dstK m c))) (matOf (hK4 m ρ c)) (WrK m c 4) (WoK m c 4) (brK m c 4) (boK m c 4) (gK m c 4) (bK m c 4) i j := by
  have e : hK5 m ρ c = (dat9 (F := Ideal) (V19 m ρ) c).arrAt 5 cfg9.N := W20_arr m ρ c 5
  refine ((congrFun e (ix2 i j)).trans (bn9_arr (V19 m ρ) c i j)).trans ?_
  have hx : (fun (i : Fin 50000) (k : Fin 128) => arr9_0 (V19 m ρ) c (ix2 i k)) = (Cert.Spec.lin (matOf (aggOf (hK4 m ρ c) (eaK m c) (srcK m c) (dstK m c))) (matOf (hK4 m ρ c)) (WrK m c 4) (WoK m c 4) (brK m c 4) (boK m c 4)) := by
    funext i k; exact linK4 m ρ c i k
  have hmu : (fun (k : Fin 128) => arr9_1 (V19 m ρ) c (ix2 0 k)) = Cert.Spec.colMean (Cert.Spec.lin (matOf (aggOf (hK4 m ρ c) (eaK m c) (srcK m c) (dstK m c))) (matOf (hK4 m ρ c)) (WrK m c 4) (WoK m c 4) (brK m c 4) (boK m c 4)) := by
    funext k; exact meanK4 m ρ c k
  have hv : (fun (k : Fin 128) => arr9_2 (V19 m ρ) c (ix2 0 k)) = Cert.Spec.varSq (Cert.Spec.lin (matOf (aggOf (hK4 m ρ c) (eaK m c) (srcK m c) (dstK m c))) (matOf (hK4 m ρ c)) (WrK m c 4) (WoK m c 4) (brK m c 4) (boK m c 4)) := by
    funext k; exact varK4 m ρ c k
  have hg : (fun (k : Fin 128) => arr9_3 (V19 m ρ) c (ix2 0 k)) = gK m c 4 := by
    funext k; exact scaleK4 m ρ c k
  have hb : (fun (k : Fin 128) => arr9_4 (V19 m ρ) c (ix2 0 k)) = bK m c 4 := by
    funext k; exact shiftK4 m ρ c k
  rw [hx, hmu, hv, hg, hb]
  rfl

/-! ## The program's result -/

/-- The result buffer at the end is the pooling tail of the last layer's features and the three integer arguments
    of the launch: the three closing stretches read only those four buffers. -/
theorem resK : (W23 m ρ c (Proc.devRef .tc main_v181) : FVec Ideal S2560x128 .f32)
    = Tail.tailFn (hK5 m ρ c) (m ((c : Thread nD τ).loc main_arg9)) (m ((c : Thread nD τ).loc main_arg10)) (m ((c : Thread nD τ).loc main_arg11)) := by
  rw [show W23 m ρ c (Proc.devRef .tc main_v181) = _ from Tail.tailK_term (W20 m ρ c),
    W20_launch m ρ c kept_arg9, W20_launch m ρ c kept_arg10, W20_launch m ρ c kept_arg11]

end Chain

end Cert.KernelIdeal.Hand

end
-- ==== Proof.Ref.Layer.lean ====
/-
  One layer of the reference as a function of its operands.

  The reference computes each of its five layers by the same chain of operations on the aggregated messages, the
  layer's input and that layer's slices of the weights: two matrix products and two broadcast biases added in a fixed
  order; the column mean; the variance taken by the called function (column mean again, centred squares, their column
  sum, a divisor that subtracts a converted integer from the literal 50000, and a guard on that divisor's sign); the
  normalisation by the reciprocal square root of the variance plus a small literal; scale, shift, and the maximum with
  zero. Here that chain is written once, over variables for the operands, the called functions' bodies in place.
-/
import proofs.«162849_j29643864277577_1_alg».proof.Proof.Gen.ReferenceIdeal
import Idealize.ShloMosaic.PureOps.Ideal

noncomputable section

namespace Cert.ReferenceIdeal.RefValue

open Idealize.ShloMosaic
open Cert.ReferenceIdeal.Facts₀

/-- The layer's linear part: the aggregated messages times the relation weights plus their bias, plus the node
    features times the root weights, plus the root bias. -/
def refLin (agg h : FVec Ideal S50000x128 .f32) (Wr Wo : FVec Ideal S128x128 .f32) (br bo : FVec Ideal S128 .f32) :
    FVec Ideal S50000x128 .f32 :=
  addf
    (addf
      (addf (Host.dotGeneral dot_S50000x128_S128x128_S50000x128_1_0_0_1_n_n none agg Wr)
        (broadcastInDim S50000x128 ![0, 1] bcast_S1x128_S50000x128_0_1 (broadcastInDim S1x128 ![1] bcast_S128_S1x128_1 br)))
      (Host.dotGeneral dot_S50000x128_S128x128_S50000x128_1_0_0_1_n_n none h Wo))
    (broadcastInDim S50000x128 ![0, 1] bcast_S1x128_S50000x128_0_1 (broadcastInDim S1x128 ![1] bcast_S128_S1x128_1 bo))

/-- The column mean as the layer takes it: the column sums divided by the literal 50000. -/
def refMean (x : FVec Ideal S50000x128 .f32) : FVec Ideal S128 .f32 :=
  Host.divf (Host.reduceAdd x (constant (F := Ideal) S_ .f32 0x00000000#32) reducesTo_S50000x128_S128_d0 h_S_)
    (broadcastInDim S128 ![] bcast_S_S128 (constant (F := Ideal) S_ .f32 0x47435000#32))

/-- The variance as the called function takes it, with zero degrees of freedom removed: the mean of the squares of
    the entries centred at the column mean, the divisor 50000 minus the converted integer 0, and the guard that
    returns the quotient only where that divisor is positive. -/
def refVar (x : FVec Ideal S50000x128 .f32) : FVec Ideal S128 .f32 :=
  select
    (broadcastInDim S128 ![] bcast_S_S128
      (cmpf .ogt
        (subf (constant (F := Ideal) S_ .f32 0x47435000#32) (sitofp (F := Ideal) .f32 (constantI S_ 32 0#32)))
        (constant (F := Ideal) S_ .f32 0x00000000#32)))
    (Host.divf
      (Host.reduceAdd
        (mulf
          (subf x
            (broadcastInDim S50000x128 ![0, 1] bcast_S1x128_S50000x128_0_1
              (Host.divf
                (broadcastInDim S1x128 ![1] bcast_S128_S1x128_1
                  (Host.reduceAdd x (constant (F := Ideal) S_ .f32 0x00000000#32) reducesTo_S50000x128_S128_d0 h_S_))
                (broadcastInDim S1x128 ![] bcast_S_S1x128 (constant (F := Ideal) S_ .f32 0x47435000#32)))))
          (subf x
            (broadcastInDim S50000x128 ![0, 1] bcast_S1x128_S50000x128_0_1
              (Host.divf
                (broadcastInDim S1x128 ![1] bcast_S128_S1x128_1
                  (Host.reduceAdd x (constant (F := Ideal) S_ .f32 0x00000000#32) reducesTo_S50000x128_S128_d0 h_S_))
                (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp (F := Ideal) .f32 (constantI S_ 32 0#32)))))
    (broadcastInDim S128 ![] bcast_S_S128 (id (constant (F := Ideal) S_ .f32 0x7FC00000#32)))

/-- One layer of the reference: the linear part, normalised by its column mean and variance, scaled, shifted and
    rectified. -/
def refLayer (agg h : FVec Ideal S50000x128 .f32) (Wr Wo : FVec Ideal S128x128 .f32) (br bo g b : FVec Ideal S128 .f32) :
    FVec Ideal S50000x128 .f32 :=
  maximumf
    (addf
      (mulf
        (mulf
          (broadcastInDim S50000x128 ![0, 1] bcast_S1x128_S50000x128_0_1 (broadcastInDim S1x128 ![1] bcast_S128_S1x128_1 g))
          (subf (refLin agg h Wr Wo br bo)
            (broadcastInDim S50000x128 ![0, 1] bcast_S1x128_S50000x128_0_1
              (broadcastInDim S1x128 ![1] bcast_S128_S1x128_1 (refMean (refLin agg h Wr Wo br bo))))))
        (broadcastInDim S50000x128 ![0, 1] bcast_S1x128_S50000x128_0_1
          (broadcastInDim S1x128 ![1] bcast_S128_S1x128_1
            (Host.rsqrt
              (addf (refVar (refLin agg h Wr Wo br bo))
                (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

end Cert.ReferenceIdeal.RefValue

end
-- ==== Proof.Ref.Read.lean ====
/-
  The reference's layer, read at an index.

  One layer of the reference (Ref/Layer.lean: `refLayer`, with its parts `refLin`, `refMean`, `refVar`) is a chain of
  whole-array operations on extended reals. Read at row i and column j it is the common specification's
  `Cert.Spec.layerCtr` of the operands' entries:

  * a product of a 50000 by 128 matrix with a 128 by 128 one is, at (i, j), the sum over the 128 shared coordinates of
    the products of the entries;
  * a sum over the rows from the zero word is, at column j, the sum of the 50000 entries of the column;
  * a vector laid as a row, a row repeated down the rows, a scalar spread over a vector, a row or the whole array read
    the one entry they copy;
  * sums, differences, products, maxima, the quotient and the reciprocal square root act entry by entry;
  * the variance's divisor is the literal 50000 minus the integer 0 converted, which is the literal 50000, and that is
    above zero, so the guard on it holds and the variance is the quotient, not the not-a-number word;
  * the zero word is the extended real 0.

  All coordinates are literal: i ranges over Fin 50000, j and k over Fin 128.
-/
import proofs.«162849_j29643864277577_1_alg».proof.Proof.Ref.Layer
import proofs.«162849_j29643864277577_1_alg».proof.Proof.Math.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal.Facts₀

/-! ## The matrix product at an index -/

theorem lhs_dot_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide),
    dif_pos (show (0 : Fin S50000x128.rank) ∈ dot_S50000x128_S128x128_S50000x128_1_0_0_1_n_n.lhsNonContracting by decide)]
  rfl
theorem lhs_dot_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_dot_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_dot_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide),
    dif_pos (show (1 : Fin S128x128.rank) ∈ dot_S50000x128_S128x128_S50000x128_1_0_0_1_n_n.rhsNonContracting by decide)]
  rfl

/-- The product of a 50000 by 128 matrix with a 128 by 128 one, at row i and column j, is the sum over the shared
    axis of the products of the entries. -/
theorem dot_apply (l : FVec Ideal S50000x128 .f32) (r : FVec Ideal S128x128 .f32) (i : Fin 50000) (j : Fin 128) :
    Host.dotGeneral dot_S50000x128_S128x128_S50000x128_1_0_0_1_n_n none l r (ix2 i j)
      = ∑ k : Fin 128, l (ix2 i k) * r (ix2 k j) := by
  simp only [Host.dotGeneral]
  rw [Ideal.dotGeneral_apply,
    ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 i j)
      ((ValueIdx.contrEquiv1 dot_S50000x128_S128x128_S50000x128_1_0_0_1_n_n 128 rfl rfl).symm k) = ix2 i k :=
    funext fun a => Fin.ext (by
      match a with
      | ⟨0, _⟩ => exact lhs_dot_0 _ _
      | ⟨1, _⟩ => exact (lhs_dot_1 _ _).trans hk)
  have er : dot_S50000x128_S128x128_S50000x128_1_0_0_1_n_n.rhsIdx (ix2 i j)
      ((ValueIdx.contrEquiv1 dot_S50000x128_S128x128_S50000x128_1_0_0_1_n_n 128 rfl rfl).symm k) = ix2 k j :=
    funext fun a => Fin.ext (by
      match a with
      | ⟨0, _⟩ => exact (rhs_dot_0 _ _).trans hk
      | ⟨1, _⟩ => exact rhs_dot_1 _ _)
  rw [el, er]

/-! ## The column sum at an index -/

/-- The sum over the rows from the zero word, at column j, is the sum of the column's entries. -/
theorem reduceAdd_apply (x : FVec Ideal S50000x128 .f32) (j : Fin 128) :
    Host.reduceAdd x (constant (F := Ideal) S_ .f32 0x00000000#32) reducesTo_S50000x128_S128_d0 h_S_ (ix1 j)
      = ∑ i : Fin 50000, x (ix2 i j) := by
  simp only [Host.reduceAdd, Ideal.hostReduceAdd_def]
  rw [Ideal.hostReduceAdd_single reducesTo_S50000x128_S128_d0 (by decide)]
  rw [constant_apply, Ideal.ofBits_zero_f32, zero_add]
  refine Finset.sum_congr rfl fun k _ => ?_
  exact congrArg x (funext fun a => Fin.ext (by match a with | ⟨0, _⟩ => rfl | ⟨1, _⟩ => rfl))

/-! ## Broadcasts at an index -/

section Bcast
variable {α : Type}

/-- A vector of length 128 laid as one row reads, at column j of that row, its entry j. -/
theorem bcast_row_apply (v : S128.Idx → α) (j : Fin 128) :
    broadcastInDim S1x128 ![1] bcast_S128_S1x128_1 v (ix2 (0 : Fin 1) j) = v (ix1 j) :=
  broadcastInDim_apply _ _ v _ (ix1 j) (fun a => by match a with | ⟨0, _⟩ => rfl)

/-- One row repeated down 50000 rows reads, at row i and column j, the row's entry j. -/
theorem bcast_rows_apply (w : S1x128.Idx → α) (i : Fin 50000) (j : Fin 128) :
    broadcastInDim S50000x128 ![0, 1] bcast_S1x128_S50000x128_0_1 w (ix2 i j) = w (ix2 (0 : Fin 1) j) :=
  broadcastInDim_apply _ _ w _ (ix2 (0 : Fin 1) j) (fun a => by match a with | ⟨0, _⟩ => rfl | ⟨1, _⟩ => rfl)

/-- So a vector of length 128 spread over every row reads its entry j at (i, j). -/
theorem bcast_vec_apply (v : S128.Idx → α) (i : Fin 50000) (j : Fin 128) :
    broadcastInDim S50000x128 ![0, 1] bcast_S1x128_S50000x128_0_1 (broadcastInDim S1x128 ![1] bcast_S128_S1x128_1 v) (ix2 i j)
      = v (ix1 j) := by
  rw [bcast_rows_apply, bcast_row_apply]

/-- A scalar spread over a vector of length 128, … -/
theorem bcast_scalar_vec_apply (c : S_.Idx → α) (j : Fin 128) :
    broadcastInDim S128 ![] bcast_S_S128 c (ix1 j) = c ix0 :=
  broadcastInDim_apply _ _ c _ ix0 (fun a => a.elim0)
/-- … over one row of length 128, … -/
theorem bcast_scalar_row_apply (c : S_.Idx → α) (j : Fin 128) :
    broadcastInDim S1x128 ![] bcast_S_S1x128 c (ix2 (0 : Fin 1) j) = c ix0 :=
  broadcastInDim_apply _ _ c _ ix0 (fun a => a.elim0)
/-- … and over the whole 50000 by 128 array, reads the scalar. -/
theorem bcast_scalar_mat_apply (c : S_.Idx → α) (i : Fin 50000) (j : Fin 128) :
    broadcastInDim S50000x128 ![] bcast_S_S50000x128 c (ix2 i j) = c ix0 :=
  broadcastInDim_apply _ _ c _ ix0 (fun a => a.elim0)

end Bcast

/-! ## The host's quotient and reciprocal square root at an index -/

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

/-! ## The divisor of the variance and the guard on it -/

/-- The literal 50000 is above zero. -/
theorem cN_pos : (0 : EReal) < Cert.Spec.cN := by
  have h : Cert.Spec.cN = ((50000 : ℝ) : EReal) := by
    simp [Cert.Spec.cN, Ideal.ofBits, Ideal.ieee, -EReal.coe_mul]; norm_num
  rw [h]; exact_mod_cast (by norm_num : (0 : ℝ) < 50000)

/-- The literal 50000 minus the converted integer 0 is the literal 50000. -/
theorem divisor_apply :
    subf (constant (F := Ideal) S_ .f32 0x47435000#32) (sitofp (F := Ideal) .f32 (constantI S_ 32 0#32)) ix0 = Cert.Spec.cN := by
  show Ideal.ofBits .f32 0x47435000#32 - (((0#32 : BitVec 32).toInt : ℝ) : EReal) = Cert.Spec.cN
  rw [show (0#32 : BitVec 32).toInt = 0 from rfl, Int.cast_zero, EReal.coe_zero, sub_zero]
  rfl

/-- The guard "the divisor is above zero" holds. -/
theorem guard_apply :
    cmpf .ogt (subf (constant (F := Ideal) S_ .f32 0x47435000#32) (sitofp (F := Ideal) .f32 (constantI S_ 32 0#32)))
      (constant (F := Ideal) S_ .f32 0x00000000#32) ix0 = 1#1 := by
  rw [cmpf_apply, divisor_apply, constant_apply, Ideal.ofBits_zero_f32]
  show BitVec.ofBool (decide ((0 : EReal) < Cert.Spec.cN)) = 1#1
  rw [decide_eq_true cN_pos]
  rfl

/-! ## The layer's parts at an index -/

/-- The linear part at (i, j). -/
theorem refLin_apply (agg h : FVec Ideal S50000x128 .f32) (Wr Wo : FVec Ideal S128x128 .f32) (br bo : FVec Ideal S128 .f32)
    (i : Fin 50000) (j : Fin 128) :
    refLin agg h Wr Wo br bo (ix2 i j)
      = Cert.Spec.lin (fun i k => agg (ix2 i k)) (fun i k => h (ix2 i k)) (fun k j => Wr (ix2 k j)) (fun k j => Wo (ix2 k j))
          (fun j => br (ix1 j)) (fun j => bo (ix1 j)) i j := by
  unfold refLin Cert.Spec.lin
  rw [addf_apply, addf_apply, addf_apply, dot_apply, dot_apply, bcast_vec_apply, bcast_vec_apply]

/-- The column mean at j. -/
theorem refMean_apply (x : FVec Ideal S50000x128 .f32) (j : Fin 128) :
    refMean x (ix1 j) = Cert.Spec.colMean (fun i k => x (ix2 i k)) j := by
  unfold refMean Cert.Spec.colMean
  rw [hostDivf_apply, reduceAdd_apply, bcast_scalar_vec_apply, constant_apply]
  rfl

/-- The variance at j: the guard holds, so it is the quotient, the mean of the centred squares. -/
theorem refVar_apply (x : FVec Ideal S50000x128 .f32) (j : Fin 128) :
    refVar x (ix1 j) = Cert.Spec.varCtr (fun i k => x (ix2 i k)) j := by
  unfold refVar Cert.Spec.varCtr Cert.Spec.colMean
  rw [select_apply, bcast_scalar_vec_apply, guard_apply, select_one, hostDivf_apply, reduceAdd_apply,
    bcast_scalar_vec_apply, divisor_apply]
  refine congrArg (Ideal.div · Cert.Spec.cN) (Finset.sum_congr rfl fun i _ => ?_)
  rw [mulf_apply, subf_apply, bcast_rows_apply, hostDivf_apply, bcast_row_apply, reduceAdd_apply, bcast_scalar_row_apply,
    constant_apply]
  rfl

/-- THE LAYER AT (i, j): the common specification with the variance in its centred form. -/
theorem refLayer_apply (agg h : FVec Ideal S50000x128 .f32) (Wr Wo : FVec Ideal S128x128 .f32) (br bo g b : FVec Ideal S128 .f32)
    (i : Fin 50000) (j : Fin 128) :
    refLayer agg h Wr Wo br bo g b (ix2 i j)
      = Cert.Spec.layerCtr (fun i k => agg (ix2 i k)) (fun i k => h (ix2 i k)) (fun k j => Wr (ix2 k j)) (fun k j => Wo (ix2 k j))
          (fun j => br (ix1 j)) (fun j => bo (ix1 j)) (fun j => g (ix1 j)) (fun j => b (ix1 j)) i j := by
  have hL : (fun i k => refLin agg h Wr Wo br bo (ix2 i k))
      = Cert.Spec.lin (fun i k => agg (ix2 i k)) (fun i k => h (ix2 i k)) (fun k j => Wr (ix2 k j)) (fun k j => Wo (ix2 k j))
          (fun j => br (ix1 j)) (fun j => bo (ix1 j)) :=
    funext fun i => funext fun k => refLin_apply agg h Wr Wo br bo i k
  unfold refLayer Cert.Spec.layerCtr Cert.Spec.bn
  rw [maximumf_apply, addf_apply, mulf_apply, mulf_apply, subf_apply, bcast_vec_apply, bcast_vec_apply, bcast_vec_apply,
    bcast_vec_apply, bcast_scalar_mat_apply, hostRsqrt_apply, addf_apply, bcast_scalar_vec_apply, constant_apply,
    constant_apply, Ideal.ofBits_zero_f32, refMean_apply, refVar_apply, hL, refLin_apply]
  rfl

/-- The same for the whole array of entries: the layer's entries are the specification's matrix. -/
theorem refLayer_eq (agg h : FVec Ideal S50000x128 .f32) (Wr Wo : FVec Ideal S128x128 .f32) (br bo g b : FVec Ideal S128 .f32) :
    (fun i j => refLayer agg h Wr Wo br bo g b (ix2 i j))
      = Cert.Spec.layerCtr (fun i k => agg (ix2 i k)) (fun i k => h (ix2 i k)) (fun k j => Wr (ix2 k j)) (fun k j => Wo (ix2 k j))
          (fun j => br (ix1 j)) (fun j => bo (ix1 j)) (fun j => g (ix1 j)) (fun j => b (ix1 j)) :=
  funext fun i => funext fun j => refLayer_apply agg h Wr Wo br bo g b i j

end Cert.ReferenceIdeal.RefValue

end
-- ==== Proof.Ref.Slices.lean ====
/-
  The slices of the stacked arguments, as the reference takes them, and what they read.

  The edge table is a 2 by 600000 array of index words: row 0 holds the sources and row 1 the targets; the reference
  takes each row as a 1 by 600000 slice and reshapes it to a vector of 600000 words. The parameters come stacked five
  layers deep: a 5 by 128 by 128 array for each weight matrix and a 5 by 128 array for each vector; layer l takes the
  slice at first coordinate l (a 1 by 128 by 128, resp. 1 by 128, slice) and reshapes it to 128 by 128, resp. 128.

  A slice of unit extent on the first axis, reshaped to drop that axis, reads at (k, j) the stacked array at (l, k, j),
  and at j the stacked array at (l, j): the slice shifts the first coordinate by l and keeps the others, and the reshape
  keeps the row-major position, which on a leading axis of extent one is the position without it.
-/
import proofs.«162849_j29643864277577_1_alg».proof.Proof.Gen.ReferenceIdeal
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal.Facts₀

/-! ## The edge table's two rows -/

/-- The edge sources: row 0 of the edge table as a vector of 600000 words. -/
def srcOf (e : IVec S2x600000 32) : IVec S600000 32 :=
  shapeCast S600000 (extractStridedSlice S1x600000 ![0, 0] e slices_S2x600000_S1x600000_0_0) shapeCasts_S1x600000_S600000

/-- The edge targets: row 1 of the edge table as a vector of 600000 words. -/
def dstOf (e : IVec S2x600000 32) : IVec S600000 32 :=
  shapeCast S600000 (extractStridedSlice S1x600000 ![1, 0] e slices_S2x600000_S1x600000_1_0) shapeCasts_S1x600000_S600000

/-! ## One layer's slice of a stacked parameter -/

section Slices
variable {α : Type}

/-- Layer 0's 128 by 128 matrix out of a stacked 5 by 128 by 128 array. -/
def sliceW0 (a : S5x128x128.Idx → α) : S128x128.Idx → α :=
  shapeCast S128x128 (extractStridedSlice S1x128x128 ![0, 0, 0] a slices_S5x128x128_S1x128x128_0_0_0) shapeCasts_S1x128x128_S128x128
/-- Layer 0's vector of 128 out of a stacked 5 by 128 array. -/
def sliceB0 (a : S5x128.Idx → α) : S128.Idx → α :=
  shapeCast S128 (extractStridedSlice S1x128 ![0, 0] a slices_S5x128_S1x128_0_0) shapeCasts_S1x128_S128
/-- Layer 1's 128 by 128 matrix out of a stacked 5 by 128 by 128 array. -/
def sliceW1 (a : S5x128x128.Idx → α) : S128x128.Idx → α :=
  shapeCast S128x128 (extractStridedSlice S1x128x128 ![1, 0, 0] a slices_S5x128x128_S1x128x128_1_0_0) shapeCasts_S1x128x128_S128x128
/-- Layer 1's vector of 128 out of a stacked 5 by 128 array. -/
def sliceB1 (a : S5x128.Idx → α) : S128.Idx → α :=
  shapeCast S128 (extractStridedSlice S1x128 ![1, 0] a slices_S5x128_S1x128_1_0) shapeCasts_S1x128_S128
/-- Layer 2's 128 by 128 matrix out of a stacked 5 by 128 by 128 array. -/
def sliceW2 (a : S5x128x128.Idx → α) : S128x128.Idx → α :=
  shapeCast S128x128 (extractStridedSlice S1x128x128 ![2, 0, 0] a slices_S5x128x128_S1x128x128_2_0_0) shapeCasts_S1x128x128_S128x128
/-- Layer 2's vector of 128 out of a stacked 5 by 128 array. -/
def sliceB2 (a : S5x128.Idx → α) : S128.Idx → α :=
  shapeCast S128 (extractStridedSlice S1x128 ![2, 0] a slices_S5x128_S1x128_2_0) shapeCasts_S1x128_S128
/-- Layer 3's 128 by 128 matrix out of a stacked 5 by 128 by 128 array. -/
def sliceW3 (a : S5x128x128.Idx → α) : S128x128.Idx → α :=
  shapeCast S128x128 (extractStridedSlice S1x128x128 ![3, 0, 0] a slices_S5x128x128_S1x128x128_3_0_0) shapeCasts_S1x128x128_S128x128
/-- Layer 3's vector of 128 out of a stacked 5 by 128 array. -/
def sliceB3 (a : S5x128.Idx → α) : S128.Idx → α :=
  shapeCast S128 (extractStridedSlice S1x128 ![3, 0] a slices_S5x128_S1x128_3_0) shapeCasts_S1x128_S128
/-- Layer 4's 128 by 128 matrix out of a stacked 5 by 128 by 128 array. -/
def sliceW4 (a : S5x128x128.Idx → α) : S128x128.Idx → α :=
  shapeCast S128x128 (extractStridedSlice S1x128x128 ![4, 0, 0] a slices_S5x128x128_S1x128x128_4_0_0) shapeCasts_S1x128x128_S128x128
/-- Layer 4's vector of 128 out of a stacked 5 by 128 array. -/
def sliceB4 (a : S5x128.Idx → α) : S128.Idx → α :=
  shapeCast S128 (extractStridedSlice S1x128 ![4, 0] a slices_S5x128_S1x128_4_0) shapeCasts_S1x128_S128

/-- A unit slice at first coordinate n of a stacked 5 by 128 by 128 array, reshaped to 128 by 128, reads at (k, j)
    the stack at (n, k, j). -/
theorem sliceW_apply (n : Nat) (hn : n < 5) (a : S5x128x128.Idx → α) (hs : S5x128x128.Slices ![n, 0, 0] S1x128x128)
    (hc : S1x128x128.ShapeCasts S128x128) (k j : Fin 128) :
    shapeCast S128x128 (extractStridedSlice S1x128x128 ![n, 0, 0] a hs) hc (ix2 k j) = a (ix3 (⟨n, hn⟩ : Fin 5) k j) := by
  refine (shapeCast_apply _ hc (ix2 k j) (ix3 (0 : Fin 1) k j) ?_).trans ?_
  · rw [Shape.rowMajor_val_three, Shape.rowMajor_val_two]
    show ((0 : ℕ) * 128 + k.val) * 128 + j.val = k.val * 128 + j.val
    omega
  · exact extractStridedSlice_apply _ a hs _ (ix3 (⟨n, hn⟩ : Fin 5) k j) (fun b => by
      match b with
      | ⟨0, _⟩ => rfl
      | ⟨1, _⟩ => show k.val = 0 + k.val; omega
      | ⟨2, _⟩ => show j.val = 0 + j.val; omega)

/-- A unit slice at first coordinate n of a stacked 5 by 128 array, reshaped to a vector, reads at j the stack at (n, j). -/
theorem sliceB_apply (n : Nat) (hn : n < 5) (a : S5x128.Idx → α) (hs : S5x128.Slices ![n, 0] S1x128)
    (hc : S1x128.ShapeCasts S128) (j : Fin 128) :
    shapeCast S128 (extractStridedSlice S1x128 ![n, 0] a hs) hc (ix1 j) = a (ix2 (⟨n, hn⟩ : Fin 5) j) := by
  refine (shapeCast_apply _ hc (ix1 j) (ix2 (0 : Fin 1) j) ?_).trans ?_
  · rw [Shape.rowMajor_val_two, Shape.rowMajor_val_one]
    show (0 : ℕ) * 128 + j.val = j.val
    omega
  · exact extractStridedSlice_apply _ a hs _ (ix2 (⟨n, hn⟩ : Fin 5) j) (fun b => by
      match b with
      | ⟨0, _⟩ => rfl
      | ⟨1, _⟩ => show j.val = 0 + j.val; omega)

theorem sliceW0_apply (a : S5x128x128.Idx → α) (k j : Fin 128) : sliceW0 a (ix2 k j) = a (ix3 (0 : Fin 5) k j) :=
  sliceW_apply 0 (by decide) a _ _ k j
theorem sliceB0_apply (a : S5x128.Idx → α) (j : Fin 128) : sliceB0 a (ix1 j) = a (ix2 (0 : Fin 5) j) :=
  sliceB_apply 0 (by decide) a _ _ j
theorem sliceW1_apply (a : S5x128x128.Idx → α) (k j : Fin 128) : sliceW1 a (ix2 k j) = a (ix3 (1 : Fin 5) k j) :=
  sliceW_apply 1 (by decide) a _ _ k j
theorem sliceB1_apply (a : S5x128.Idx → α) (j : Fin 128) : sliceB1 a (ix1 j) = a (ix2 (1 : Fin 5) j) :=
  sliceB_apply 1 (by decide) a _ _ j
theorem sliceW2_apply (a : S5x128x128.Idx → α) (k j : Fin 128) : sliceW2 a (ix2 k j) = a (ix3 (2 : Fin 5) k j) :=
  sliceW_apply 2 (by decide) a _ _ k j
theorem sliceB2_apply (a : S5x128.Idx → α) (j : Fin 128) : sliceB2 a (ix1 j) = a (ix2 (2 : Fin 5) j) :=
  sliceB_apply 2 (by decide) a _ _ j
theorem sliceW3_apply (a : S5x128x128.Idx → α) (k j : Fin 128) : sliceW3 a (ix2 k j) = a (ix3 (3 : Fin 5) k j) :=
  sliceW_apply 3 (by decide) a _ _ k j
theorem sliceB3_apply (a : S5x128.Idx → α) (j : Fin 128) : sliceB3 a (ix1 j) = a (ix2 (3 : Fin 5) j) :=
  sliceB_apply 3 (by decide) a _ _ j
theorem sliceW4_apply (a : S5x128x128.Idx → α) (k j : Fin 128) : sliceW4 a (ix2 k j) = a (ix3 (4 : Fin 5) k j) :=
  sliceW_apply 4 (by decide) a _ _ k j
theorem sliceB4_apply (a : S5x128.Idx → α) (j : Fin 128) : sliceB4 a (ix1 j) = a (ix2 (4 : Fin 5) j) :=
  sliceB_apply 4 (by decide) a _ _ j

end Slices

end Cert.ReferenceIdeal.RefValue

end
-- ==== Proof.Ref.ChainBase.lean ====
/-
  The reference's five layers as a chain: what is needed of the six lists of operations, and the chain itself from
  each list's value.

  The reference runs six lists of host operations in a row: one per layer, then the pooling tail. Three kinds of fact
  connect them.

  * What a list does not write, it leaves alone: the arguments are written by no list, and the two buffers holding the
    edge sources and targets are written by the first list only (by its second and fourth operations, which no later
    operation of that list overwrites), so every later layer reads in them the two rows of the edge table.
  * Layer l's list computes, from whatever the buffers held before it, the layer function of the aggregated messages
    of its input, its input, and its slices of the stacked parameters. This is taken here as a hypothesis on the list
    (`LayerTerm0` … `LayerTerm4`), so that the chain is settled independently of how that value is established.
  * A slice of a stacked parameter read at its coordinates is the stacked array at the layer's first coordinate.

  Together with the layer function read at an index, they give each layer's output at (i, j) as the specification's
  layer of the previous output, of the edge weights, sources and targets of the launch memory, and of the stacked
  parameters at first coordinate l; and the result as the tail function of the last layer's output and the three integer
  arguments of the launch memory.
-/
import proofs.«162849_j29643864277577_1_alg».proof.Proof.Ref.OpsFacts
import proofs.«162849_j29643864277577_1_alg».proof.Proof.Ref.Read
import proofs.«162849_j29643864277577_1_alg».proof.Proof.Ref.Slices
import proofs.«162849_j29643864277577_1_alg».proof.Proof.Math.HostFinite
import Idealize.ShloMosaic.Lib.StableHlo.Run
import Idealize.ShloMosaic.Lib.ValueIdx

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.RefValue
open Cert.Proof.HostFinite (aggOf matOf)

/-! ## What a list of operations leaves alone -/

section Keep
variable {Val : EltTy → Type}

/-- The contents after two lines in a row: the second's after the first's. -/
private theorem after_concat : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_concat l₁ l₂]

/-- Operations that each write one buffer, listed with the references they write, write inside that list. -/
theorem writes_sub_of_forall₂ : ∀ {ops : List (HloOp τ sig Val)} {W : List (Ref sig .tc)},
    List.Forall₂ (fun op y => op.writes = {Proc.devRef (τ := τ) .tc y}) ops W →
    ops.Forall fun op => op.writes ⊆ (W.map (Proc.devRef (τ := τ) .tc)).toFinset
  | _, _, .nil => trivial
  | _, _, .cons (a := op) (b := y) (l₁ := ops) (l₂ := W) h t => by
    refine (List.forall_cons _ _ _).2 ⟨?_, ?_⟩
    · rw [h, Finset.singleton_subset_iff, List.mem_toFinset]
      exact List.mem_map.2 ⟨y, List.mem_cons_self, rfl⟩
    · refine (writes_sub_of_forall₂ t).imp fun {op'} h' => h'.trans ?_
      intro b hb
      rw [List.mem_toFinset] at hb ⊢
      obtain ⟨z, hz, rfl⟩ := List.mem_map.1 hb
      exact List.mem_map.2 ⟨z, List.mem_cons_of_mem _ hz, rfl⟩

end Keep

/-! ## The first list leaves the sources and targets where its first four operations put them -/

section Reads
variable {F : FTy → Type} [FloatOps F]
open Cert.ReferenceIdeal.Facts₀

/-- The first four operations of the first list: the two rows of the edge table, sliced and reshaped. -/
abbrev opsL0_head : List (HloOp τ sig (Elt F)) :=
  ([
    StableHlo.unary main_arg8 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg8 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ] : List (HloOp τ sig (Elt F)))

/-- The operations of the first list after its fourth, each with the reference it writes. -/
theorem opsL0_rest_writes :
    List.Forall₂ (fun (op : HloOp τ sig (Elt F)) y => op.writes = {Proc.devRef (τ := τ) .tc y}) (opsL0.drop 4) (wL0.drop 4) := by
  repeat (first | exact List.Forall₂.nil | refine List.Forall₂.cons rfl ?_)

/-- After the first list, the buffer of the edge sources holds row 0 of the edge table … -/
theorem opsL0_src (W : Valuation τ sig (Elt F)) :
    after opsL0 W (Proc.devRef .tc main_v1) = srcOf (W (Proc.devRef .tc main_arg8)) := by
  rw [show (opsL0 : List (HloOp τ sig (Elt F))) = opsL0_head ++ opsL0.drop 4 from rfl, after_concat,
    after_of_writes_sub (opsL0.drop 4) _ (writes_sub_of_forall₂ opsL0_rest_writes) (by decide)]
  after_results
  rfl

/-- … and the buffer of the edge targets holds row 1. -/
theorem opsL0_dst (W : Valuation τ sig (Elt F)) :
    after opsL0 W (Proc.devRef .tc main_v3) = dstOf (W (Proc.devRef .tc main_arg8)) := by
  rw [show (opsL0 : List (HloOp τ sig (Elt F))) = opsL0_head ++ opsL0.drop 4 from rfl, after_concat,
    after_of_writes_sub (opsL0.drop 4) _ (writes_sub_of_forall₂ opsL0_rest_writes) (by decide)]
  after_results
  rfl

end Reads

/-! ## The chain of the five layers -/

section Chain
variable (m : (ℓ : Loc nD τ sig) → Buf (Elt Ideal) ℓ) (c : Dev nD)

/-- The arguments as the launch memory holds them. -/
abbrev argX : FVec Ideal S50000x128 .f32 := m ((c.tc : Thread nD τ).loc main_arg0)
abbrev argEa : FVec Ideal S600000 .f32 := m ((c.tc : Thread nD τ).loc main_arg1)
abbrev argWrel : FVec Ideal S5x128x128 .f32 := m ((c.tc : Thread nD τ).loc main_arg2)
abbrev argBrel : FVec Ideal S5x128 .f32 := m ((c.tc : Thread nD τ).loc main_arg3)
abbrev argWroot : FVec Ideal S5x128x128 .f32 := m ((c.tc : Thread nD τ).loc main_arg4)
abbrev argBroot : FVec Ideal S5x128 .f32 := m ((c.tc : Thread nD τ).loc main_arg5)
abbrev argGamma : FVec Ideal S5x128 .f32 := m ((c.tc : Thread nD τ).loc main_arg6)
abbrev argBeta : FVec Ideal S5x128 .f32 := m ((c.tc : Thread nD τ).loc main_arg7)
abbrev argEdge : IVec S2x600000 32 := m ((c.tc : Thread nD τ).loc main_arg8)

/-- Layer l's parameters, read off the stacked arrays at first coordinate l. -/
abbrev wtAt (a : FVec Ideal S5x128x128 .f32) (l : Fin 5) : Cert.Spec.Wt := fun k j => a (ix3 l k j)
abbrev rowAt (a : FVec Ideal S5x128 .f32) (l : Fin 5) : Cert.Spec.Row := fun j => a (ix2 l j)

/-- The node features entering layer 0 (the argument) and leaving layers 0 to 4. -/
def hR0 : FVec Ideal S50000x128 .f32 := U0 m c (Proc.devRef .tc main_arg0)
def hR1 : FVec Ideal S50000x128 .f32 := U1 m c (Proc.devRef .tc main_v57)
def hR2 : FVec Ideal S50000x128 .f32 := U2 m c (Proc.devRef .tc main_v111)
def hR3 : FVec Ideal S50000x128 .f32 := U3 m c (Proc.devRef .tc main_v165)
def hR4 : FVec Ideal S50000x128 .f32 := U4 m c (Proc.devRef .tc main_v219)
def hR5 : FVec Ideal S50000x128 .f32 := U5 m c (Proc.devRef .tc main_v273)

/-- The features entering layer 0 are the launch memory's first argument. -/
theorem hR0_eq : hR0 m c = argX m c := rfl

/-- What each list computes, from whatever the buffers held before it: the layer function of the aggregated messages
    of its input, its input, and its slices of the stacked parameters. -/
def LayerTerm0 : Prop := ∀ W : Valuation τ sig (Elt Ideal),
  (after (opsL0 (F := Ideal)) W (Proc.devRef .tc main_v57) : FVec Ideal S50000x128 .f32)
    = refLayer (aggOf (W (Proc.devRef .tc main_arg0)) (W (Proc.devRef .tc main_arg1))
          (srcOf (W (Proc.devRef .tc main_arg8))) (dstOf (W (Proc.devRef .tc main_arg8))))
        (W (Proc.devRef .tc main_arg0))
        (sliceW0 (W (Proc.devRef .tc main_arg2))) (sliceW0 (W (Proc.devRef .tc main_arg4)))
        (sliceB0 (W (Proc.devRef .tc main_arg3))) (sliceB0 (W (Proc.devRef .tc main_arg5)))
        (sliceB0 (W (Proc.devRef .tc main_arg6))) (sliceB0 (W (Proc.devRef .tc main_arg7)))
def LayerTerm1 : Prop := ∀ W : Valuation τ sig (Elt Ideal),
  (after (opsL1 (F := Ideal)) W (Proc.devRef .tc main_v111) : FVec Ideal S50000x128 .f32)
    = refLayer (aggOf (W (Proc.devRef .tc main_v57)) (W (Proc.devRef .tc main_arg1))
          (W (Proc.devRef .tc main_v1)) (W (Proc.devRef .tc main_v3)))
        (W (Proc.devRef .tc main_v57))
        (sliceW1 (W (Proc.devRef .tc main_arg2))) (sliceW1 (W (Proc.devRef .tc main_arg4)))
        (sliceB1 (W (Proc.devRef .tc main_arg3))) (sliceB1 (W (Proc.devRef .tc main_arg5)))
        (sliceB1 (W (Proc.devRef .tc main_arg6))) (sliceB1 (W (Proc.devRef .tc main_arg7)))
def LayerTerm2 : Prop := ∀ W : Valuation τ sig (Elt Ideal),
  (after (opsL2 (F := Ideal)) W (Proc.devRef .tc main_v165) : FVec Ideal S50000x128 .f32)
    = refLayer (aggOf (W (Proc.devRef .tc main_v111)) (W (Proc.devRef .tc main_arg1))
          (W (Proc.devRef .tc main_v1)) (W (Proc.devRef .tc main_v3)))
        (W (Proc.devRef .tc main_v111))
        (sliceW2 (W (Proc.devRef .tc main_arg2))) (sliceW2 (W (Proc.devRef .tc main_arg4)))
        (sliceB2 (W (Proc.devRef .tc main_arg3))) (sliceB2 (W (Proc.devRef .tc main_arg5)))
        (sliceB2 (W (Proc.devRef .tc main_arg6))) (sliceB2 (W (Proc.devRef .tc main_arg7)))
def LayerTerm3 : Prop := ∀ W : Valuation τ sig (Elt Ideal),
  (after (opsL3 (F := Ideal)) W (Proc.devRef .tc main_v219) : FVec Ideal S50000x128 .f32)
    = refLayer (aggOf (W (Proc.devRef .tc main_v165)) (W (Proc.devRef .tc main_arg1))
          (W (Proc.devRef .tc main_v1)) (W (Proc.devRef .tc main_v3)))
        (W (Proc.devRef .tc main_v165))
        (sliceW3 (W (Proc.devRef .tc main_arg2))) (sliceW3 (W (Proc.devRef .tc main_arg4)))
        (sliceB3 (W (Proc.devRef .tc main_arg3))) (sliceB3 (W (Proc.devRef .tc main_arg5)))
        (sliceB3 (W (Proc.devRef .tc main_arg6))) (sliceB3 (W (Proc.devRef .tc main_arg7)))
def LayerTerm4 : Prop := ∀ W : Valuation τ sig (Elt Ideal),
  (after (opsL4 (F := Ideal)) W (Proc.devRef .tc main_v273) : FVec Ideal S50000x128 .f32)
    = refLayer (aggOf (W (Proc.devRef .tc main_v219)) (W (Proc.devRef .tc main_arg1))
          (W (Proc.devRef .tc main_v1)) (W (Proc.devRef .tc main_v3)))
        (W (Proc.devRef .tc main_v219))
        (sliceW4 (W (Proc.devRef .tc main_arg2))) (sliceW4 (W (Proc.devRef .tc main_arg4)))
        (sliceB4 (W (Proc.devRef .tc main_arg3))) (sliceB4 (W (Proc.devRef .tc main_arg5)))
        (sliceB4 (W (Proc.devRef .tc main_arg6))) (sliceB4 (W (Proc.devRef .tc main_arg7)))

/-- What the tail's list computes: a function of the last layer's output and the three integer arguments. -/
def TailTerm (tailFn : FVec Ideal S50000x128 .f32 → IVec S50000 32 → IVec S256 32 → IVec S50000 32 → FVec Ideal S2560x128 .f32) :
    Prop := ∀ W : Valuation τ sig (Elt Ideal),
  (after (opsT (F := Ideal)) W (Proc.devRef .tc main_v296) : FVec Ideal S2560x128 .f32)
    = tailFn (W (Proc.devRef .tc main_v273)) (W (Proc.devRef .tc main_arg9)) (W (Proc.devRef .tc main_arg10))
        (W (Proc.devRef .tc main_arg11))

/-- A reference a list does not write holds after it what it held before. -/
theorem U1_keep {r : Ref sig .tc} (h : r ∉ wL0) : U1 m c (Proc.devRef .tc r) = U0 m c (Proc.devRef .tc r) :=
  after_of_writes_sub opsL0 (U0 m c) opsL0_writes h
theorem U2_keep {r : Ref sig .tc} (h : r ∉ wL1) : U2 m c (Proc.devRef .tc r) = U1 m c (Proc.devRef .tc r) :=
  after_of_writes_sub opsL1 (U1 m c) opsL1_writes h
theorem U3_keep {r : Ref sig .tc} (h : r ∉ wL2) : U3 m c (Proc.devRef .tc r) = U2 m c (Proc.devRef .tc r) :=
  after_of_writes_sub opsL2 (U2 m c) opsL2_writes h
theorem U4_keep {r : Ref sig .tc} (h : r ∉ wL3) : U4 m c (Proc.devRef .tc r) = U3 m c (Proc.devRef .tc r) :=
  after_of_writes_sub opsL3 (U3 m c) opsL3_writes h
theorem U5_keep {r : Ref sig .tc} (h : r ∉ wL4) : U5 m c (Proc.devRef .tc r) = U4 m c (Proc.devRef .tc r) :=
  after_of_writes_sub opsL4 (U4 m c) opsL4_writes h

/-- A reference none of the first lists writes holds what the launch memory held. -/
theorem U1_launch {r : Ref sig .tc} (h0 : r ∉ wL0) : U1 m c (Proc.devRef .tc r) = m ((c.tc : Thread nD τ).loc r) :=
  U1_keep m c h0
theorem U2_launch {r : Ref sig .tc} (h0 : r ∉ wL0) (h1 : r ∉ wL1) :
    U2 m c (Proc.devRef .tc r) = m ((c.tc : Thread nD τ).loc r) := (U2_keep m c h1).trans (U1_launch m c h0)
theorem U3_launch {r : Ref sig .tc} (h0 : r ∉ wL0) (h1 : r ∉ wL1) (h2 : r ∉ wL2) :
    U3 m c (Proc.devRef .tc r) = m ((c.tc : Thread nD τ).loc r) := (U3_keep m c h2).trans (U2_launch m c h0 h1)
theorem U4_launch {r : Ref sig .tc} (h0 : r ∉ wL0) (h1 : r ∉ wL1) (h2 : r ∉ wL2) (h3 : r ∉ wL3) :
    U4 m c (Proc.devRef .tc r) = m ((c.tc : Thread nD τ).loc r) := (U4_keep m c h3).trans (U3_launch m c h0 h1 h2)
theorem U5_launch {r : Ref sig .tc} (h0 : r ∉ wL0) (h1 : r ∉ wL1) (h2 : r ∉ wL2) (h3 : r ∉ wL3) (h4 : r ∉ wL4) :
    U5 m c (Proc.devRef .tc r) = m ((c.tc : Thread nD τ).loc r) := (U5_keep m c h4).trans (U4_launch m c h0 h1 h2 h3)

/-- The sources and targets, once the first list has put them in their buffers, stay there. -/
theorem U1_src : U1 m c (Proc.devRef .tc main_v1) = srcOf (argEdge m c) := opsL0_src (U0 m c)
theorem U1_dst : U1 m c (Proc.devRef .tc main_v3) = dstOf (argEdge m c) := opsL0_dst (U0 m c)
theorem U2_src : U2 m c (Proc.devRef .tc main_v1) = srcOf (argEdge m c) := (U2_keep m c (by decide)).trans (U1_src m c)
theorem U2_dst : U2 m c (Proc.devRef .tc main_v3) = dstOf (argEdge m c) := (U2_keep m c (by decide)).trans (U1_dst m c)
theorem U3_src : U3 m c (Proc.devRef .tc main_v1) = srcOf (argEdge m c) := (U3_keep m c (by decide)).trans (U2_src m c)
theorem U3_dst : U3 m c (Proc.devRef .tc main_v3) = dstOf (argEdge m c) := (U3_keep m c (by decide)).trans (U2_dst m c)
theorem U4_src : U4 m c (Proc.devRef .tc main_v1) = srcOf (argEdge m c) := (U4_keep m c (by decide)).trans (U3_src m c)
theorem U4_dst : U4 m c (Proc.devRef .tc main_v3) = dstOf (argEdge m c) := (U4_keep m c (by decide)).trans (U3_dst m c)

/-- Layer l's slices of the stacked parameters, as matrices and rows of entries. -/
theorem sliceW0_eq (a : FVec Ideal S5x128x128 .f32) : (fun k j => sliceW0 a (ix2 k j)) = wtAt a (0 : Fin 5) :=
  funext fun k => funext fun j => sliceW0_apply a k j
theorem sliceB0_eq (a : FVec Ideal S5x128 .f32) : (fun j => sliceB0 a (ix1 j)) = rowAt a (0 : Fin 5) :=
  funext fun j => sliceB0_apply a j
theorem sliceW1_eq (a : FVec Ideal S5x128x128 .f32) : (fun k j => sliceW1 a (ix2 k j)) = wtAt a (1 : Fin 5) :=
  funext fun k => funext fun j => sliceW1_apply a k j
theorem sliceB1_eq (a : FVec Ideal S5x128 .f32) : (fun j => sliceB1 a (ix1 j)) = rowAt a (1 : Fin 5) :=
  funext fun j => sliceB1_apply a j
theorem sliceW2_eq (a : FVec Ideal S5x128x128 .f32) : (fun k j => sliceW2 a (ix2 k j)) = wtAt a (2 : Fin 5) :=
  funext fun k => funext fun j => sliceW2_apply a k j
theorem sliceB2_eq (a : FVec Ideal S5x128 .f32) : (fun j => sliceB2 a (ix1 j)) = rowAt a (2 : Fin 5) :=
  funext fun j => sliceB2_apply a j
theorem sliceW3_eq (a : FVec Ideal S5x128x128 .f32) : (fun k j => sliceW3 a (ix2 k j)) = wtAt a (3 : Fin 5) :=
  funext fun k => funext fun j => sliceW3_apply a k j
theorem sliceB3_eq (a : FVec Ideal S5x128 .f32) : (fun j => sliceB3 a (ix1 j)) = rowAt a (3 : Fin 5) :=
  funext fun j => sliceB3_apply a j
theorem sliceW4_eq (a : FVec Ideal S5x128x128 .f32) : (fun k j => sliceW4 a (ix2 k j)) = wtAt a (4 : Fin 5) :=
  funext fun k => funext fun j => sliceW4_apply a k j
theorem sliceB4_eq (a : FVec Ideal S5x128 .f32) : (fun j => sliceB4 a (ix1 j)) = rowAt a (4 : Fin 5) :=
  funext fun j => sliceB4_apply a j

/-- LAYER 0 of the reference, at (i, j): the specification's layer of the argument features. -/
theorem chainR0_of (hterm : LayerTerm0) (i : Fin 50000) (j : Fin 128) :
    hR1 m c (ix2 i j)
      = Cert.Spec.layerCtr (matOf (aggOf (hR0 m c) (argEa m c) (srcOf (argEdge m c)) (dstOf (argEdge m c)))) (matOf (hR0 m c))
          (wtAt (argWrel m c) (0 : Fin 5)) (wtAt (argWroot m c) (0 : Fin 5)) (rowAt (argBrel m c) (0 : Fin 5))
          (rowAt (argBroot m c) (0 : Fin 5)) (rowAt (argGamma m c) (0 : Fin 5)) (rowAt (argBeta m c) (0 : Fin 5)) i j := by
  unfold hR1 hR0
  rw [show U1 m c (Proc.devRef .tc main_v57) = _ from hterm (U0 m c), refLayer_apply,
    sliceW0_eq, sliceW0_eq, sliceB0_eq, sliceB0_eq, sliceB0_eq, sliceB0_eq]

/-- LAYER 1 of the reference, at (i, j): the specification's layer of layer 0's output. -/
theorem chainR1_of (hterm : LayerTerm1) (i : Fin 50000) (j : Fin 128) :
    hR2 m c (ix2 i j)
      = Cert.Spec.layerCtr (matOf (aggOf (hR1 m c) (argEa m c) (srcOf (argEdge m c)) (dstOf (argEdge m c)))) (matOf (hR1 m c))
          (wtAt (argWrel m c) (1 : Fin 5)) (wtAt (argWroot m c) (1 : Fin 5)) (rowAt (argBrel m c) (1 : Fin 5))
          (rowAt (argBroot m c) (1 : Fin 5)) (rowAt (argGamma m c) (1 : Fin 5)) (rowAt (argBeta m c) (1 : Fin 5)) i j := by
  unfold hR2 hR1
  rw [show U2 m c (Proc.devRef .tc main_v111) = _ from hterm (U1 m c), refLayer_apply,
    sliceW1_eq, sliceW1_eq, sliceB1_eq, sliceB1_eq, sliceB1_eq, sliceB1_eq,
    U1_src, U1_dst,
    U1_launch m c (by decide) (r := main_arg1), U1_launch m c (by decide) (r := main_arg2), U1_launch m c (by decide) (r := main_arg3),
    U1_launch m c (by decide) (r := main_arg4), U1_launch m c (by decide) (r := main_arg5), U1_launch m c (by decide) (r := main_arg6),
    U1_launch m c (by decide) (r := main_arg7)]

/-- LAYER 2 of the reference, at (i, j): the specification's layer of layer 1's output. -/
theorem chainR2_of (hterm : LayerTerm2) (i : Fin 50000) (j : Fin 128) :
    hR3 m c (ix2 i j)
      = Cert.Spec.layerCtr (matOf (aggOf (hR2 m c) (argEa m c) (srcOf (argEdge m c)) (dstOf (argEdge m c)))) (matOf (hR2 m c))
          (wtAt (argWrel m c) (2 : Fin 5)) (wtAt (argWroot m c) (2 : Fin 5)) (rowAt (argBrel m c) (2 : Fin 5))
          (rowAt (argBroot m c) (2 : Fin 5)) (rowAt (argGamma m c) (2 : Fin 5)) (rowAt (argBeta m c) (2 : Fin 5)) i j := by
  unfold hR3 hR2
  rw [show U3 m c (Proc.devRef .tc main_v165) = _ from hterm (U2 m c), refLayer_apply,
    sliceW2_eq, sliceW2_eq, sliceB2_eq, sliceB2_eq, sliceB2_eq, sliceB2_eq,
    U2_src, U2_dst,
    U2_launch m c (by decide) (by decide) (r := main_arg1), U2_launch m c (by decide) (by decide) (r := main_arg2), U2_launch m c (by decide) (by decide) (r := main_arg3),
    U2_launch m c (by decide) (by decide) (r := main_arg4), U2_launch m c (by decide) (by decide) (r := main_arg5), U2_launch m c (by decide) (by decide) (r := main_arg6),
    U2_launch m c (by decide) (by decide) (r := main_arg7)]

/-- LAYER 3 of the reference, at (i, j): the specification's layer of layer 2's output. -/
theorem chainR3_of (hterm : LayerTerm3) (i : Fin 50000) (j : Fin 128) :
    hR4 m c (ix2 i j)
      = Cert.Spec.layerCtr (matOf (aggOf (hR3 m c) (argEa m c) (srcOf (argEdge m c)) (dstOf (argEdge m c)))) (matOf (hR3 m c))
          (wtAt (argWrel m c) (3 : Fin 5)) (wtAt (argWroot m c) (3 : Fin 5)) (rowAt (argBrel m c) (3 : Fin 5))
          (rowAt (argBroot m c) (3 : Fin 5)) (rowAt (argGamma m c) (3 : Fin 5)) (rowAt (argBeta m c) (3 : Fin 5)) i j := by
  unfold hR4 hR3
  rw [show U4 m c (Proc.devRef .tc main_v219) = _ from hterm (U3 m c), refLayer_apply,
    sliceW3_eq, sliceW3_eq, sliceB3_eq, sliceB3_eq, sliceB3_eq, sliceB3_eq,
    U3_src, U3_dst,
    U3_launch m c (by decide) (by decide) (by decide) (r := main_arg1), U3_launch m c (by decide) (by decide) (by decide) (r := main_arg2), U3_launch m c (by decide) (by decide) (by decide) (r := main_arg3),
    U3_launch m c (by decide) (by decide) (by decide) (r := main_arg4), U3_launch m c (by decide) (by decide) (by decide) (r := main_arg5), U3_launch m c (by decide) (by decide) (by decide) (r := main_arg6),
    U3_launch m c (by decide) (by decide) (by decide) (r := main_arg7)]

/-- LAYER 4 of the reference, at (i, j): the specification's layer of layer 3's output. -/
theorem chainR4_of (hterm : LayerTerm4) (i : Fin 50000) (j : Fin 128) :
    hR5 m c (ix2 i j)
      = Cert.Spec.layerCtr (matOf (aggOf (hR4 m c) (argEa m c) (srcOf (argEdge m c)) (dstOf (argEdge m c)))) (matOf (hR4 m c))
          (wtAt (argWrel m c) (4 : Fin 5)) (wtAt (argWroot m c) (4 : Fin 5)) (rowAt (argBrel m c) (4 : Fin 5))
          (rowAt (argBroot m c) (4 : Fin 5)) (rowAt (argGamma m c) (4 : Fin 5)) (rowAt (argBeta m c) (4 : Fin 5)) i j := by
  unfold hR5 hR4
  rw [show U5 m c (Proc.devRef .tc main_v273) = _ from hterm (U4 m c), refLayer_apply,
    sliceW4_eq, sliceW4_eq, sliceB4_eq, sliceB4_eq, sliceB4_eq, sliceB4_eq,
    U4_src, U4_dst,
    U4_launch m c (by decide) (by decide) (by decide) (by decide) (r := main_arg1), U4_launch m c (by decide) (by decide) (by decide) (by decide) (r := main_arg2), U4_launch m c (by decide) (by decide) (by decide) (by decide) (r := main_arg3),
    U4_launch m c (by decide) (by decide) (by decide) (by decide) (r := main_arg4), U4_launch m c (by decide) (by decide) (by decide) (by decide) (r := main_arg5), U4_launch m c (by decide) (by decide) (by decide) (by decide) (r := main_arg6),
    U4_launch m c (by decide) (by decide) (by decide) (by decide) (r := main_arg7)]

/-- THE RESULT of the reference: the tail function of layer 4's output and the three integer arguments. -/
theorem resR_of (tailFn : FVec Ideal S50000x128 .f32 → IVec S50000 32 → IVec S256 32 → IVec S50000 32 → FVec Ideal S2560x128 .f32)
    (hterm : TailTerm tailFn) :
    (U6 m c (Proc.devRef .tc main_v296) : FVec Ideal S2560x128 .f32)
      = tailFn (hR5 m c) (m ((c.tc : Thread nD τ).loc main_arg9)) (m ((c.tc : Thread nD τ).loc main_arg10))
          (m ((c.tc : Thread nD τ).loc main_arg11)) := by
  unfold hR5
  rw [show U6 m c (Proc.devRef .tc main_v296) = _ from hterm (U5 m c),
    U5_launch m c (by decide) (by decide) (by decide) (by decide) (by decide) (r := main_arg9),
    U5_launch m c (by decide) (by decide) (by decide) (by decide) (by decide) (r := main_arg10),
    U5_launch m c (by decide) (by decide) (by decide) (by decide) (by decide) (r := main_arg11)]

end Chain

end Cert.ReferenceIdeal.Hand

end
-- ==== Proof.Ref.LayerTerm.lean ====
/-
  The reference's per-layer term.

  The reference runs its five layers one after the other. Layer l is a stretch of host operations that reads the
  layer's input (the node features for layer 0, the previous layer's output after that), the edge weights, the edges'
  source and target nodes, and row l of each of six stacked parameter tables, and writes the layer's output. For each
  of the five layers this file shows: run from ANY buffer contents W, the stretch leaves in the layer's output buffer
  the reference's layer function of the aggregated messages, the layer's input and the six rows, all as W holds them.

  Each stretch is cut into four parts, and what each part leaves is read off over arbitrary contents:
    * the aggregation — in layer 0 first the two rows of the edge table viewed as vectors; then negative source words
      wrapped, the source rows gathered and weighted per edge, and summed per target node: the aggregated messages;
    * the linear part — the two matrix products with row l of the two weight tables, and the two biases spread over
      the rows and added in the program's order;
    * the statistics — the column means of the linear part, and its column variances as the called function takes
      them (the mean of the squares centred at the column mean, with the guard on the divisor's sign);
    * the normalisation — the centring at the means, the scaling by the reciprocal square root of the variance plus a
      small literal, the scale and the shift from row l of their tables, and the maximum with zero.
  A part reads what the parts before it wrote and what the layer writes nowhere (the program's arguments; in layers
  1 to 4 also the previous layer's output and the two edge vectors layer 0 left), so the four values compose to the
  layer function. Last: a layer leaves every reference it does not write as it found it — among them, for layers 1 to
  4, the two edge vectors — so the five terms chain along the program.
-/
import proofs.«162849_j29643864277577_1_alg».proof.Proof.Ref.Ops
import proofs.«162849_j29643864277577_1_alg».proof.Proof.Ref.OpsFacts
import proofs.«162849_j29643864277577_1_alg».proof.Proof.Ref.Layer
import proofs.«162849_j29643864277577_1_alg».proof.Proof.Ref.Slices
import proofs.«162849_j29643864277577_1_alg».proof.Proof.Math.HostFinite
import Idealize.ShloMosaic.Lib.StableHlo.Run
import Idealize.ShloMosaic.Lib.Pipeline.Frame

noncomputable section

namespace Cert.ReferenceIdeal.LayerTerm

open Cert.ReferenceIdeal Cert.ReferenceIdeal.Gen Idealize.ShloMosaic Idealize.ShloMosaic.TcCoe Idealize.SL.Sem Idealize.ShloMosaic.StableHlo
open Cert.ReferenceIdeal.Hand Cert.ReferenceIdeal.RefValue Cert.Proof.HostFinite

/-! ## Tools: a stretch of a list writes no more than the list -/

/-- What holds of every element of a list holds of every element of a middle part of it. -/
theorem forall_part {α : Type} {p : α → Prop} {l pre part post : List α} (hs : l = pre ++ (part ++ post)) (h : l.Forall p) :
    part.Forall p :=
  List.forall_iff_forall_mem.2 fun x hx =>
    List.forall_iff_forall_mem.1 h x (hs ▸ List.mem_append_right pre (List.mem_append_left post hx))

/-- A middle part of a list of operations leaves a reference the whole list does not write as it found it. -/
theorem after_part {ops pre part post : List (HloOp τ sig (Elt Ideal))} {Wr : List (Ref sig .tc)}
    (hs : ops = pre ++ (part ++ post))
    (hW : ops.Forall fun op => op.writes ⊆ (Wr.map (Proc.devRef (τ := τ) .tc)).toFinset)
    (V : Valuation τ sig (Elt Ideal)) {r : Ref sig .tc} (hr : r ∉ Wr) :
    StableHlo.after part V (Proc.devRef .tc r) = V (Proc.devRef .tc r) :=
  after_of_writes_sub part V (forall_part hs hW) hr

/-- The last part of a layer over named operands: `x` centred at `mu`, scaled by `g` and by the reciprocal square root of
    `v` plus the small literal, shifted by `b`, and rectified. -/
def refNorm (x : FVec Ideal S50000x128 .f32) (mu v g b : FVec Ideal S128 .f32) : FVec Ideal S50000x128 .f32 :=
  maximumf
    (addf
      (mulf
        (mulf
          (broadcastInDim S50000x128 ![0, 1] bcast_S1x128_S50000x128_0_1 (broadcastInDim S1x128 ![1] bcast_S128_S1x128_1 g))
          (subf x
            (broadcastInDim S50000x128 ![0, 1] bcast_S1x128_S50000x128_0_1
              (broadcastInDim S1x128 ![1] bcast_S128_S1x128_1 mu))))
        (broadcastInDim S50000x128 ![0, 1] bcast_S1x128_S50000x128_0_1
          (broadcastInDim S1x128 ![1] bcast_S128_S1x128_1
            (Host.rsqrt
              (addf v
                (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- One layer of the reference is that last part at the layer's linear part, its column means and its column variances. -/
theorem refLayer_eq (agg h : FVec Ideal S50000x128 .f32) (Wr Wo : FVec Ideal S128x128 .f32) (br bo g b : FVec Ideal S128 .f32) :
    refLayer agg h Wr Wo br bo g b
      = refNorm (refLin agg h Wr Wo br bo) (refMean (refLin agg h Wr Wo br bo)) (refVar (refLin agg h Wr Wo br bo)) g b := rfl

/-! ## Layer 0 -/

/-- Layer 0, first stretch: the two rows of the edge table as vectors, then the wrap of negative source words, the gathered rows weighted per edge, and their sum per target node. -/
abbrev aggOps0 {F : FTy → Type} [FloatOps F] : List (HloOp τ sig (Elt F)) :=
  [
    StableHlo.unary main_arg8 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg8 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v11 (broadcastInDim S600000x1 ![0] bcast_S600000_S600000x1_0 : (⟨S600000, .f32⟩ : BufTy).Contents (Elt F) → (⟨S600000x1, .f32⟩ : BufTy).Contents (Elt F)),
    StableHlo.unary main_v11 main_v12 (broadcastInDim S600000x128 ![0, 1] bcast_S600000x1_S600000x128_0_1 : (⟨S600000x1, .f32⟩ : BufTy).Contents (Elt F) → (⟨S600000x128, .f32⟩ : BufTy).Contents (Elt F)),
    StableHlo.binary main_v10 main_v12 main_v13 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v14 (broadcastInDim S50000x128 ![] bcast_S_S50000x128 : (⟨S_, .f32⟩ : BufTy).Contents (Elt F) → (⟨S50000x128, .f32⟩ : BufTy).Contents (Elt F)),
    StableHlo.unary main_v3 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

set_option maxHeartbeats 400000 in
/-- After the first stretch the aggregation buffer holds the aggregated messages of what the stretch found in the
    layer's input, the edge weights and the edges' source and target vectors. -/
theorem agg0_term (V : Valuation τ sig (Elt Ideal)) :
    (StableHlo.after (aggOps0 (F := Ideal)) V (Proc.devRef .tc main_v16) : FVec Ideal S50000x128 .f32)
      = aggOf (F := Ideal) (V (Proc.devRef .tc main_arg0)) (V (Proc.devRef .tc main_arg1)) (srcOf (V (Proc.devRef .tc main_arg8))) (dstOf (V (Proc.devRef .tc main_arg8))) := by
  show StableHlo.after (aggOps0 (F := Ideal)) V (Proc.devRef .tc main_v16) = _
  after_results_simp
  rfl

/-- Layer 0, second stretch: row 0 of each weight and bias table, the two matrix products, and the sum with both biases. -/
abbrev linOps0 {F : FTy → Type} [FloatOps F] : List (HloOp τ sig (Elt F)) :=
  [
    StableHlo.unary main_arg2 main_v17 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v17 main_v18 rfl shapeCasts_S1x128x128_S128x128,
    StableHlo.binary main_v16 main_v18 main_v19 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v20 ((extractStridedSlice S1x128 ![0, 0] · slices_S5x128_S1x128_0_0) : (⟨S5x128, .f32⟩ : BufTy).Contents (Elt F) → (⟨S1x128, .f32⟩ : BufTy).Contents (Elt F)),
    StableHlo.reshape main_v20 main_v21 rfl shapeCasts_S1x128_S128,
    StableHlo.unary main_v21 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v19 main_v23 main_v24 (addf : (⟨S50000x128, .f32⟩ : BufTy).Contents (Elt F) → (⟨S50000x128, .f32⟩ : BufTy).Contents (Elt F) → (⟨S50000x128, .f32⟩ : BufTy).Contents (Elt F)),
    StableHlo.unary main_arg4 main_v25 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v25 main_v26 rfl shapeCasts_S1x128x128_S128x128,
    StableHlo.binary main_arg0 main_v26 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v24 main_v27 main_v28 (addf : (⟨S50000x128, .f32⟩ : BufTy).Contents (Elt F) → (⟨S50000x128, .f32⟩ : BufTy).Contents (Elt F) → (⟨S50000x128, .f32⟩ : BufTy).Contents (Elt F)),
    StableHlo.unary main_arg5 main_v29 ((extractStridedSlice S1x128 ![0, 0] · slices_S5x128_S1x128_0_0) : (⟨S5x128, .f32⟩ : BufTy).Contents (Elt F) → (⟨S1x128, .f32⟩ : BufTy).Contents (Elt F)),
    StableHlo.reshape main_v29 main_v30 rfl shapeCasts_S1x128_S128,
    StableHlo.unary main_v30 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v28 main_v32 main_v33 (addf : (⟨S50000x128, .f32⟩ : BufTy).Contents (Elt F) → (⟨S50000x128, .f32⟩ : BufTy).Contents (Elt F) → (⟨S50000x128, .f32⟩ : BufTy).Contents (Elt F)) ]

set_option maxHeartbeats 400000 in
/-- After the second stretch the linear buffer holds the layer's linear part of the aggregation buffer, the layer's
    input and row 0 of the four tables. -/
theorem lin0_term (V : Valuation τ sig (Elt Ideal)) :
    (StableHlo.after (linOps0 (F := Ideal)) V (Proc.devRef .tc main_v33) : FVec Ideal S50000x128 .f32)
      = refLin (V (Proc.devRef .tc main_v16)) (V (Proc.devRef .tc main_arg0)) (sliceW0 (V (Proc.devRef .tc main_arg2))) (sliceW0 (V (Proc.devRef .tc main_arg4)))
          (sliceB0 (V (Proc.devRef .tc main_arg3))) (sliceB0 (V (Proc.devRef .tc main_arg5))) := by
  show StableHlo.after (linOps0 (F := Ideal)) V (Proc.devRef .tc main_v33) = _
  after_results_simp
  rfl

/-- Layer 0, third stretch: the column means of the linear part, and its column variances as the called function takes them. -/
abbrev statOps0 {F : FTy → Type} [FloatOps F] : List (HloOp τ sig (Elt F)) :=
  [
    StableHlo.nullary main_cst_1 (constant S_ .f32 0x00000000#32),
    StableHlo.binary main_v33 main_cst_1 main_v34 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v35 (broadcastInDim S128 ![] bcast_S_S128 : (⟨S_, .f32⟩ : BufTy).Contents (Elt F) → (⟨S128, .f32⟩ : BufTy).Contents (Elt F)),
    StableHlo.binary main_v34 main_v35 main_v36 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (.of main_v33 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v33 : StableHlo.TRef sig ⟨S50000x128, .f32⟩) main_call0.v4 main_call0.v5 subf,
    StableHlo.TRef.binary main_call0.v5 main_call0.v5 main_call0.v6 mulf,
    StableHlo.TRef.unary (.of main_c_3 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0_call0.v0 id,
    StableHlo.TRef.unary main_call0_call0.v0 main_call0_call0.v1 (broadcastInDim S128 ![] bcast_S_S128),
    StableHlo.TRef.ternary main_call0.v12 main_call0.v11 main_call0_call0.v1 main_call0_call0.v2 (fun p a b => select (broadcastInDim S128 ![] bcast_S_S128 p) a b) ]

set_option maxHeartbeats 400000 in
/-- After the third stretch the mean buffer holds the column means of the linear buffer. -/
theorem mean0_term (V : Valuation τ sig (Elt Ideal)) :
    (StableHlo.after (statOps0 (F := Ideal)) V (Proc.devRef .tc main_v36) : FVec Ideal S128 .f32) = refMean (V (Proc.devRef .tc main_v33)) := by
  show StableHlo.after (statOps0 (F := Ideal)) V (Proc.devRef .tc main_v36) = _
  after_results_simp
  rfl

set_option maxHeartbeats 400000 in
/-- After the third stretch the variance buffer holds the column variances of the linear buffer. -/
theorem var0_term (V : Valuation τ sig (Elt Ideal)) :
    (StableHlo.after (statOps0 (F := Ideal)) V (Proc.devRef .tc main_v37) : FVec Ideal S128 .f32) = refVar (V (Proc.devRef .tc main_v33)) := by
  show StableHlo.after (statOps0 (F := Ideal)) V (Proc.devRef .tc main_v37) = _
  after_results_simp
  rfl

/-- Layer 0, fourth stretch: row 0 of the scale and shift tables, the centring, the reciprocal square root of the variance plus the small literal, the scaling, the shift, and the maximum with zero. -/
abbrev normOps0 {F : FTy → Type} [FloatOps F] : List (HloOp τ sig (Elt F)) :=
  [
    StableHlo.unary main_arg6 main_v38 ((extractStridedSlice S1x128 ![0, 0] · slices_S5x128_S1x128_0_0) : (⟨S5x128, .f32⟩ : BufTy).Contents (Elt F) → (⟨S1x128, .f32⟩ : BufTy).Contents (Elt F)),
    StableHlo.reshape main_v38 main_v39 rfl shapeCasts_S1x128_S128,
    StableHlo.unary main_v36 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v41 main_v42 (subf : (⟨S50000x128, .f32⟩ : BufTy).Contents (Elt F) → (⟨S50000x128, .f32⟩ : BufTy).Contents (Elt F) → (⟨S50000x128, .f32⟩ : BufTy).Contents (Elt F)),
    StableHlo.unary main_v39 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v42 main_v45 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v46 (broadcastInDim S128 ![] bcast_S_S128 : (⟨S_, .f32⟩ : BufTy).Contents (Elt F) → (⟨S128, .f32⟩ : BufTy).Contents (Elt F)),
    StableHlo.binary main_v37 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_arg7 main_v52 ((extractStridedSlice S1x128 ![0, 0] · slices_S5x128_S1x128_0_0) : (⟨S5x128, .f32⟩ : BufTy).Contents (Elt F) → (⟨S1x128, .f32⟩ : BufTy).Contents (Elt F)),
    StableHlo.reshape main_v52 main_v53 rfl shapeCasts_S1x128_S128,
    StableHlo.unary main_v53 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v55 main_v56 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v56 : StableHlo.TRef sig ⟨S50000x128, .f32⟩) main_call1.v0 main_call1.v1 maximumf ]

set_option maxHeartbeats 400000 in
/-- After the fourth stretch the layer's output buffer holds the normalised, scaled, shifted and rectified linear
    buffer. -/
theorem norm0_term (V : Valuation τ sig (Elt Ideal)) :
    (StableHlo.after (normOps0 (F := Ideal)) V (Proc.devRef .tc main_v57) : FVec Ideal S50000x128 .f32)
      = refNorm (V (Proc.devRef .tc main_v33)) (V (Proc.devRef .tc main_v36)) (V (Proc.devRef .tc main_v37)) (sliceB0 (V (Proc.devRef .tc main_arg6))) (sliceB0 (V (Proc.devRef .tc main_arg7))) := by
  show StableHlo.after (normOps0 (F := Ideal)) V (Proc.devRef .tc main_v57) = _
  after_results_simp
  rfl

/-- Layer 0's list is its four stretches in a row. -/
theorem opsL0_split {F : FTy → Type} [FloatOps F] :
    (opsL0 : List (HloOp τ sig (Elt F))) = aggOps0 ++ (linOps0 ++ (statOps0 ++ normOps0)) := rfl

/-- The first stretch leaves what layer 0 does not write. -/
theorem aggOps0_frame (V : Valuation τ sig (Elt Ideal)) {r : Ref sig .tc} (hr : r ∉ wL0) :
    StableHlo.after (aggOps0 (F := Ideal)) V (Proc.devRef .tc r) = V (Proc.devRef .tc r) :=
  after_part (pre := []) (show (opsL0 (F := Ideal)) = [] ++ (aggOps0 ++ (linOps0 ++ (statOps0 ++ normOps0))) from rfl) opsL0_writes V hr
/-- The second stretch leaves what layer 0 does not write. -/
theorem linOps0_frame (V : Valuation τ sig (Elt Ideal)) {r : Ref sig .tc} (hr : r ∉ wL0) :
    StableHlo.after (linOps0 (F := Ideal)) V (Proc.devRef .tc r) = V (Proc.devRef .tc r) :=
  after_part (show (opsL0 (F := Ideal)) = aggOps0 ++ (linOps0 ++ (statOps0 ++ normOps0)) from rfl) opsL0_writes V hr
/-- The third stretch leaves what layer 0 does not write. -/
theorem statOps0_frame (V : Valuation τ sig (Elt Ideal)) {r : Ref sig .tc} (hr : r ∉ wL0) :
    StableHlo.after (statOps0 (F := Ideal)) V (Proc.devRef .tc r) = V (Proc.devRef .tc r) :=
  after_part (show (opsL0 (F := Ideal)) = (aggOps0 ++ linOps0) ++ (statOps0 ++ normOps0) from rfl) opsL0_writes V hr

set_option maxHeartbeats 400000 in
/-- The third stretch does not write the linear buffer. -/
theorem stat0_lin (V : Valuation τ sig (Elt Ideal)) :
    StableHlo.after (statOps0 (F := Ideal)) V (Proc.devRef .tc main_v33) = V (Proc.devRef .tc main_v33) := by
  after_results_simp

set_option maxHeartbeats 400000 in
/-- LAYER 0'S TERM. Run from any buffer contents `W`, layer 0's stretch leaves in its output buffer the reference's
    layer function of: the aggregated messages of the layer's input, the edge weights and the edges' source and target
    vectors (the two rows of the edge table); the layer's input; and row 0 of each of the six parameter tables — all as `W` holds them. -/
theorem layer0_term (W : Valuation τ sig (Elt Ideal)) :
    (StableHlo.after (opsL0 (F := Ideal)) W (Proc.devRef .tc main_v57) : FVec Ideal S50000x128 .f32)
      = refLayer (aggOf (F := Ideal) (W (Proc.devRef .tc main_arg0)) (W (Proc.devRef .tc main_arg1)) (srcOf (W (Proc.devRef .tc main_arg8))) (dstOf (W (Proc.devRef .tc main_arg8))))
          (W (Proc.devRef .tc main_arg0))
          (sliceW0 (W (Proc.devRef .tc main_arg2))) (sliceW0 (W (Proc.devRef .tc main_arg4)))
          (sliceB0 (W (Proc.devRef .tc main_arg3))) (sliceB0 (W (Proc.devRef .tc main_arg5)))
          (sliceB0 (W (Proc.devRef .tc main_arg6))) (sliceB0 (W (Proc.devRef .tc main_arg7))) := by
  show StableHlo.after (opsL0 (F := Ideal)) W (Proc.devRef .tc main_v57) = _
  rw [opsL0_split, StableHlo.after_append, StableHlo.after_append, StableHlo.after_append, refLayer_eq,
    norm0_term, mean0_term, var0_term, stat0_lin,
    statOps0_frame _ (r := main_arg6) (by decide), statOps0_frame _ (r := main_arg7) (by decide),
    lin0_term,
    linOps0_frame _ (r := main_arg6) (by decide), linOps0_frame _ (r := main_arg7) (by decide),
    agg0_term,
    aggOps0_frame _ (r := main_arg0) (by decide), aggOps0_frame _ (r := main_arg2) (by decide), aggOps0_frame _ (r := main_arg3) (by decide), aggOps0_frame _ (r := main_arg4) (by decide), aggOps0_frame _ (r := main_arg5) (by decide), aggOps0_frame _ (r := main_arg6) (by decide), aggOps0_frame _ (r := main_arg7) (by decide)]

/-! ## Layer 1 -/

/-- Layer 1, first stretch: the wrap of negative source words, the gathered rows weighted per edge, and their sum per target node. -/
abbrev aggOps1 {F : FTy → Type} [FloatOps F] : List (HloOp τ sig (Elt F)) :=
  [
    StableHlo.nullary main_c_5 (constantI S_ 32 0#32),
    StableHlo.unary main_c_5 main_v58 (broadcastInDim S600000 ![] bcast_S_S600000 : (⟨S_, .i32⟩ : BufTy).Contents (Elt F) → (⟨S600000, .i32⟩ : BufTy).Contents (Elt F)),
    StableHlo.binary main_v1 main_v58 main_v59 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 50000#32),
    StableHlo.unary main_c_6 main_v60 (broadcastInDim S600000 ![] bcast_S_S600000 : (⟨S_, .i32⟩ : BufTy).Contents (Elt F) → (⟨S600000, .i32⟩ : BufTy).Contents (Elt F)),
    StableHlo.binary main_v1 main_v60 main_v61 (addi : (⟨S600000, .i32⟩ : BufTy).Contents (Elt F) → (⟨S600000, .i32⟩ : BufTy).Contents (Elt F) → (⟨S600000, .i32⟩ : BufTy).Contents (Elt F)),
    StableHlo.ternary main_v59 main_v61 main_v1 main_v62 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v62 main_v63 (broadcastInDim S600000x1 ![0] bcast_S600000_S600000x1_0 : (⟨S600000, .i32⟩ : BufTy).Contents (Elt F) → (⟨S600000x1, .i32⟩ : BufTy).Contents (Elt F)),
    StableHlo.binary main_v57 main_v63 main_v64 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v65 (broadcastInDim S600000x1 ![0] bcast_S600000_S600000x1_0 : (⟨S600000, .f32⟩ : BufTy).Contents (Elt F) → (⟨S600000x1, .f32⟩ : BufTy).Contents (Elt F)),
    StableHlo.unary main_v65 main_v66 (broadcastInDim S600000x128 ![0, 1] bcast_S600000x1_S600000x128_0_1 : (⟨S600000x1, .f32⟩ : BufTy).Contents (Elt F) → (⟨S600000x128, .f32⟩ : BufTy).Contents (Elt F)),
    StableHlo.binary main_v64 main_v66 main_v67 (mulf : (⟨S600000x128, .f32⟩ : BufTy).Contents (Elt F) → (⟨S600000x128, .f32⟩ : BufTy).Contents (Elt F) → (⟨S600000x128, .f32⟩ : BufTy).Contents (Elt F)),
    StableHlo.nullary main_cst_7 (constant S_ .f32 0x00000000#32),
    StableHlo.unary main_cst_7 main_v68 (broadcastInDim S50000x128 ![] bcast_S_S50000x128 : (⟨S_, .f32⟩ : BufTy).Contents (Elt F) → (⟨S50000x128, .f32⟩ : BufTy).Contents (Elt F)),
    StableHlo.unary main_v3 main_v69 (broadcastInDim S600000x1 ![0] bcast_S600000_S600000x1_0 : (⟨S600000, .i32⟩ : BufTy).Contents (Elt F) → (⟨S600000x1, .i32⟩ : BufTy).Contents (Elt F)),
    StableHlo.ternary main_v68 main_v69 main_v67 main_v70 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

set_option maxHeartbeats 400000 in
/-- After the first stretch the aggregation buffer holds the aggregated messages of what the stretch found in the
    layer's input, the edge weights and the edges' source and target vectors. -/
theorem agg1_term (V : Valuation τ sig (Elt Ideal)) :
    (StableHlo.after (aggOps1 (F := Ideal)) V (Proc.devRef .tc main_v70) : FVec Ideal S50000x128 .f32)
      = aggOf (F := Ideal) (V (Proc.devRef .tc main_v57)) (V (Proc.devRef .tc main_arg1)) (V (Proc.devRef .tc main_v1)) (V (Proc.devRef .tc main_v3)) := by
  show StableHlo.after (aggOps1 (F := Ideal)) V (Proc.devRef .tc main_v70) = _
  after_results_simp
  rfl

/-- Layer 1, second stretch: row 1 of each weight and bias table, the two matrix products, and the sum with both biases. -/
abbrev linOps1 {F : FTy → Type} [FloatOps F] : List (HloOp τ sig (Elt F)) :=
  [
    StableHlo.unary main_arg2 main_v71 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v71 main_v72 rfl shapeCasts_S1x128x128_S128x128,
    StableHlo.binary main_v70 main_v72 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v74 ((extractStridedSlice S1x128 ![1, 0] · slices_S5x128_S1x128_1_0) : (⟨S5x128, .f32⟩ : BufTy).Contents (Elt F) → (⟨S1x128, .f32⟩ : BufTy).Contents (Elt F)),
    StableHlo.reshape main_v74 main_v75 rfl shapeCasts_S1x128_S128,
    StableHlo.unary main_v75 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v77 main_v78 (addf : (⟨S50000x128, .f32⟩ : BufTy).Contents (Elt F) → (⟨S50000x128, .f32⟩ : BufTy).Contents (Elt F) → (⟨S50000x128, .f32⟩ : BufTy).Contents (Elt F)),
    StableHlo.unary main_arg4 main_v79 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v79 main_v80 rfl shapeCasts_S1x128x128_S128x128,
    StableHlo.binary main_v57 main_v80 main_v81 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v78 main_v81 main_v82 (addf : (⟨S50000x128, .f32⟩ : BufTy).Contents (Elt F) → (⟨S50000x128, .f32⟩ : BufTy).Contents (Elt F) → (⟨S50000x128, .f32⟩ : BufTy).Contents (Elt F)),
    StableHlo.unary main_arg5 main_v83 ((extractStridedSlice S1x128 ![1, 0] · slices_S5x128_S1x128_1_0) : (⟨S5x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v86 main_v87 (addf : (⟨S50000x128, .f32⟩ : BufTy).Contents (Elt F) → (⟨S50000x128, .f32⟩ : BufTy).Contents (Elt F) → (⟨S50000x128, .f32⟩ : BufTy).Contents (Elt F)) ]

set_option maxHeartbeats 400000 in
/-- After the second stretch the linear buffer holds the layer's linear part of the aggregation buffer, the layer's
    input and row 1 of the four tables. -/
theorem lin1_term (V : Valuation τ sig (Elt Ideal)) :
    (StableHlo.after (linOps1 (F := Ideal)) V (Proc.devRef .tc main_v87) : FVec Ideal S50000x128 .f32)
      = refLin (V (Proc.devRef .tc main_v70)) (V (Proc.devRef .tc main_v57)) (sliceW1 (V (Proc.devRef .tc main_arg2))) (sliceW1 (V (Proc.devRef .tc main_arg4)))
          (sliceB1 (V (Proc.devRef .tc main_arg3))) (sliceB1 (V (Proc.devRef .tc main_arg5))) := by
  show StableHlo.after (linOps1 (F := Ideal)) V (Proc.devRef .tc main_v87) = _
  after_results_simp
  rfl

/-- Layer 1, third stretch: the column means of the linear part, and its column variances as the called function takes them. -/
abbrev statOps1 {F : FTy → Type} [FloatOps F] : List (HloOp τ sig (Elt F)) :=
  [
    StableHlo.nullary main_cst_8 (constant S_ .f32 0x00000000#32),
    StableHlo.binary main_v87 main_cst_8 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v89 (broadcastInDim S128 ![] bcast_S_S128 : (⟨S_, .f32⟩ : BufTy).Contents (Elt F) → (⟨S128, .f32⟩ : BufTy).Contents (Elt F)),
    StableHlo.binary main_v88 main_v89 main_v90 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call2.cst (constant S_ .f32 0x00000000#32),
    StableHlo.TRef.binary (.of main_v87 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v87 : StableHlo.TRef sig ⟨S50000x128, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2_call0.v0 id,
    StableHlo.TRef.unary main_call2_call0.v0 main_call2_call0.v1 (broadcastInDim S128 ![] bcast_S_S128),
    StableHlo.TRef.ternary main_call2.v12 main_call2.v11 main_call2_call0.v1 main_call2_call0.v2 (fun p a b => select (broadcastInDim S128 ![] bcast_S_S128 p) a b) ]

set_option maxHeartbeats 400000 in
/-- After the third stretch the mean buffer holds the column means of the linear buffer. -/
theorem mean1_term (V : Valuation τ sig (Elt Ideal)) :
    (StableHlo.after (statOps1 (F := Ideal)) V (Proc.devRef .tc main_v90) : FVec Ideal S128 .f32) = refMean (V (Proc.devRef .tc main_v87)) := by
  show StableHlo.after (statOps1 (F := Ideal)) V (Proc.devRef .tc main_v90) = _
  after_results_simp
  rfl

set_option maxHeartbeats 400000 in
/-- After the third stretch the variance buffer holds the column variances of the linear buffer. -/
theorem var1_term (V : Valuation τ sig (Elt Ideal)) :
    (StableHlo.after (statOps1 (F := Ideal)) V (Proc.devRef .tc main_v91) : FVec Ideal S128 .f32) = refVar (V (Proc.devRef .tc main_v87)) := by
  show StableHlo.after (statOps1 (F := Ideal)) V (Proc.devRef .tc main_v91) = _
  after_results_simp
  rfl

/-- Layer 1, fourth stretch: row 1 of the scale and shift tables, the centring, the reciprocal square root of the variance plus the small literal, the scaling, the shift, and the maximum with zero. -/
abbrev normOps1 {F : FTy → Type} [FloatOps F] : List (HloOp τ sig (Elt F)) :=
  [
    StableHlo.unary main_arg6 main_v92 ((extractStridedSlice S1x128 ![1, 0] · slices_S5x128_S1x128_1_0) : (⟨S5x128, .f32⟩ : BufTy).Contents (Elt F) → (⟨S1x128, .f32⟩ : BufTy).Contents (Elt F)),
    StableHlo.reshape main_v92 main_v93 rfl shapeCasts_S1x128_S128,
    StableHlo.unary main_v90 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v95 main_v96 (subf : (⟨S50000x128, .f32⟩ : BufTy).Contents (Elt F) → (⟨S50000x128, .f32⟩ : BufTy).Contents (Elt F) → (⟨S50000x128, .f32⟩ : BufTy).Contents (Elt F)),
    StableHlo.unary main_v93 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v96 main_v99 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32),
    StableHlo.unary main_cst_11 main_v100 (broadcastInDim S128 ![] bcast_S_S128 : (⟨S_, .f32⟩ : BufTy).Contents (Elt F) → (⟨S128, .f32⟩ : BufTy).Contents (Elt F)),
    StableHlo.binary main_v91 main_v100 main_v101 (addf : (⟨S128, .f32⟩ : BufTy).Contents (Elt F) → (⟨S128, .f32⟩ : BufTy).Contents (Elt F) → (⟨S128, .f32⟩ : BufTy).Contents (Elt F)),
    StableHlo.unary main_v101 main_v102 (Host.rsqrt : (⟨S128, .f32⟩ : BufTy).Contents (Elt F) → (⟨S128, .f32⟩ : BufTy).Contents (Elt F)),
    StableHlo.unary main_v102 main_v103 (broadcastInDim S1x128 ![1] bcast_S128_S1x128_1 : (⟨S128, .f32⟩ : BufTy).Contents (Elt F) → (⟨S1x128, .f32⟩ : BufTy).Contents (Elt F)),
    StableHlo.unary main_v103 main_v104 (broadcastInDim S50000x128 ![0, 1] bcast_S1x128_S50000x128_0_1 : (⟨S1x128, .f32⟩ : BufTy).Contents (Elt F) → (⟨S50000x128, .f32⟩ : BufTy).Contents (Elt F)),
    StableHlo.binary main_v99 main_v104 main_v105 (mulf : (⟨S50000x128, .f32⟩ : BufTy).Contents (Elt F) → (⟨S50000x128, .f32⟩ : BufTy).Contents (Elt F) → (⟨S50000x128, .f32⟩ : BufTy).Contents (Elt F)),
    StableHlo.unary main_arg7 main_v106 ((extractStridedSlice S1x128 ![1, 0] · slices_S5x128_S1x128_1_0) : (⟨S5x128, .f32⟩ : BufTy).Contents (Elt F) → (⟨S1x128, .f32⟩ : BufTy).Contents (Elt F)),
    StableHlo.reshape main_v106 main_v107 rfl shapeCasts_S1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v110 : StableHlo.TRef sig ⟨S50000x128, .f32⟩) main_call3.v0 main_call3.v1 maximumf ]

set_option maxHeartbeats 400000 in
/-- After the fourth stretch the layer's output buffer holds the normalised, scaled, shifted and rectified linear
    buffer. -/
theorem norm1_term (V : Valuation τ sig (Elt Ideal)) :
    (StableHlo.after (normOps1 (F := Ideal)) V (Proc.devRef .tc main_v111) : FVec Ideal S50000x128 .f32)
      = refNorm (V (Proc.devRef .tc main_v87)) (V (Proc.devRef .tc main_v90)) (V (Proc.devRef .tc main_v91)) (sliceB1 (V (Proc.devRef .tc main_arg6))) (sliceB1 (V (Proc.devRef .tc main_arg7))) := by
  show StableHlo.after (normOps1 (F := Ideal)) V (Proc.devRef .tc main_v111) = _
  after_results_simp
  rfl

/-- Layer 1's list is its four stretches in a row. -/
theorem opsL1_split {F : FTy → Type} [FloatOps F] :
    (opsL1 : List (HloOp τ sig (Elt F))) = aggOps1 ++ (linOps1 ++ (statOps1 ++ normOps1)) := rfl

/-- The first stretch leaves what layer 1 does not write. -/
theorem aggOps1_frame (V : Valuation τ sig (Elt Ideal)) {r : Ref sig .tc} (hr : r ∉ wL1) :
    StableHlo.after (aggOps1 (F := Ideal)) V (Proc.devRef .tc r) = V (Proc.devRef .tc r) :=
  after_part (pre := []) (show (opsL1 (F := Ideal)) = [] ++ (aggOps1 ++ (linOps1 ++ (statOps1 ++ normOps1))) from rfl) opsL1_writes V hr
/-- The second stretch leaves what layer 1 does not write. -/
theorem linOps1_frame (V : Valuation τ sig (Elt Ideal)) {r : Ref sig .tc} (hr : r ∉ wL1) :
    StableHlo.after (linOps1 (F := Ideal)) V (Proc.devRef .tc r) = V (Proc.devRef .tc r) :=
  after_part (show (opsL1 (F := Ideal)) = aggOps1 ++ (linOps1 ++ (statOps1 ++ normOps1)) from rfl) opsL1_writes V hr
/-- The third stretch leaves what layer 1 does not write. -/
theorem statOps1_frame (V : Valuation τ sig (Elt Ideal)) {r : Ref sig .tc} (hr : r ∉ wL1) :
    StableHlo.after (statOps1 (F := Ideal)) V (Proc.devRef .tc r) = V (Proc.devRef .tc r) :=
  after_part (show (opsL1 (F := Ideal)) = (aggOps1 ++ linOps1) ++ (statOps1 ++ normOps1) from rfl) opsL1_writes V hr

set_option maxHeartbeats 400000 in
/-- The third stretch does not write the linear buffer. -/
theorem stat1_lin (V : Valuation τ sig (Elt Ideal)) :
    StableHlo.after (statOps1 (F := Ideal)) V (Proc.devRef .tc main_v87) = V (Proc.devRef .tc main_v87) := by
  after_results_simp

set_option maxHeartbeats 400000 in
/-- LAYER 1'S TERM. Run from any buffer contents `W`, layer 1's stretch leaves in its output buffer the reference's
    layer function of: the aggregated messages of the layer's input, the edge weights and the edges' source and target
    vectors (as layer 0 left them); the layer's input; and row 1 of each of the six parameter tables — all as `W` holds them. -/
theorem layer1_term (W : Valuation τ sig (Elt Ideal)) :
    (StableHlo.after (opsL1 (F := Ideal)) W (Proc.devRef .tc main_v111) : FVec Ideal S50000x128 .f32)
      = refLayer (aggOf (F := Ideal) (W (Proc.devRef .tc main_v57)) (W (Proc.devRef .tc main_arg1)) (W (Proc.devRef .tc main_v1)) (W (Proc.devRef .tc main_v3)))
          (W (Proc.devRef .tc main_v57))
          (sliceW1 (W (Proc.devRef .tc main_arg2))) (sliceW1 (W (Proc.devRef .tc main_arg4)))
          (sliceB1 (W (Proc.devRef .tc main_arg3))) (sliceB1 (W (Proc.devRef .tc main_arg5)))
          (sliceB1 (W (Proc.devRef .tc main_arg6))) (sliceB1 (W (Proc.devRef .tc main_arg7))) := by
  show StableHlo.after (opsL1 (F := Ideal)) W (Proc.devRef .tc main_v111) = _
  rw [opsL1_split, StableHlo.after_append, StableHlo.after_append, StableHlo.after_append, refLayer_eq,
    norm1_term, mean1_term, var1_term, stat1_lin,
    statOps1_frame _ (r := main_arg6) (by decide), statOps1_frame _ (r := main_arg7) (by decide),
    lin1_term,
    linOps1_frame _ (r := main_arg6) (by decide), linOps1_frame _ (r := main_arg7) (by decide),
    agg1_term,
    aggOps1_frame _ (r := main_v57) (by decide), aggOps1_frame _ (r := main_arg2) (by decide), aggOps1_frame _ (r := main_arg3) (by decide), aggOps1_frame _ (r := main_arg4) (by decide), aggOps1_frame _ (r := main_arg5) (by decide), aggOps1_frame _ (r := main_arg6) (by decide), aggOps1_frame _ (r := main_arg7) (by decide)]

/-! ## Layer 2 -/

/-- Layer 2, first stretch: the wrap of negative source words, the gathered rows weighted per edge, and their sum per target node. -/
abbrev aggOps2 {F : FTy → Type} [FloatOps F] : List (HloOp τ sig (Elt F)) :=
  [
    StableHlo.nullary main_c_12 (constantI S_ 32 0#32),
    StableHlo.unary main_c_12 main_v112 (broadcastInDim S600000 ![] bcast_S_S600000 : (⟨S_, .i32⟩ : BufTy).Contents (Elt F) → (⟨S600000, .i32⟩ : BufTy).Contents (Elt F)),
    StableHlo.binary main_v1 main_v112 main_v113 (cmpi .slt : (⟨S600000, .i32⟩ : BufTy).Contents (Elt F) → (⟨S600000, .i32⟩ : BufTy).Contents (Elt F) → (⟨S600000, .i1⟩ : BufTy).Contents (Elt F)),
    StableHlo.nullary main_c_13 (constantI S_ 32 50000#32),
    StableHlo.unary main_c_13 main_v114 (broadcastInDim S600000 ![] bcast_S_S600000 : (⟨S_, .i32⟩ : BufTy).Contents (Elt F) → (⟨S600000, .i32⟩ : BufTy).Contents (Elt F)),
    StableHlo.binary main_v1 main_v114 main_v115 (addi : (⟨S600000, .i32⟩ : BufTy).Contents (Elt F) → (⟨S600000, .i32⟩ : BufTy).Contents (Elt F) → (⟨S600000, .i32⟩ : BufTy).Contents (Elt F)),
    StableHlo.ternary main_v113 main_v115 main_v1 main_v116 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v116 main_v117 (broadcastInDim S600000x1 ![0] bcast_S600000_S600000x1_0 : (⟨S600000, .i32⟩ : BufTy).Contents (Elt F) → (⟨S600000x1, .i32⟩ : BufTy).Contents (Elt F)),
    StableHlo.binary main_v111 main_v117 main_v118 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v119 (broadcastInDim S600000x1 ![0] bcast_S600000_S600000x1_0 : (⟨S600000, .f32⟩ : BufTy).Contents (Elt F) → (⟨S600000x1, .f32⟩ : BufTy).Contents (Elt F)),
    StableHlo.unary main_v119 main_v120 (broadcastInDim S600000x128 ![0, 1] bcast_S600000x1_S600000x128_0_1 : (⟨S600000x1, .f32⟩ : BufTy).Contents (Elt F) → (⟨S600000x128, .f32⟩ : BufTy).Contents (Elt F)),
    StableHlo.binary main_v118 main_v120 main_v121 (mulf : (⟨S600000x128, .f32⟩ : BufTy).Contents (Elt F) → (⟨S600000x128, .f32⟩ : BufTy).Contents (Elt F) → (⟨S600000x128, .f32⟩ : BufTy).Contents (Elt F)),
    StableHlo.nullary main_cst_14 (constant S_ .f32 0x00000000#32),
    StableHlo.unary main_cst_14 main_v122 (broadcastInDim S50000x128 ![] bcast_S_S50000x128 : (⟨S_, .f32⟩ : BufTy).Contents (Elt F) → (⟨S50000x128, .f32⟩ : BufTy).Contents (Elt F)),
    StableHlo.unary main_v3 main_v123 (broadcastInDim S600000x1 ![0] bcast_S600000_S600000x1_0 : (⟨S600000, .i32⟩ : BufTy).Contents (Elt F) → (⟨S600000x1, .i32⟩ : BufTy).Contents (Elt F)),
    StableHlo.ternary main_v122 main_v123 main_v121 main_v124 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

set_option maxHeartbeats 400000 in
/-- After the first stretch the aggregation buffer holds the aggregated messages of what the stretch found in the
    layer's input, the edge weights and the edges' source and target vectors. -/
theorem agg2_term (V : Valuation τ sig (Elt Ideal)) :
    (StableHlo.after (aggOps2 (F := Ideal)) V (Proc.devRef .tc main_v124) : FVec Ideal S50000x128 .f32)
      = aggOf (F := Ideal) (V (Proc.devRef .tc main_v111)) (V (Proc.devRef .tc main_arg1)) (V (Proc.devRef .tc main_v1)) (V (Proc.devRef .tc main_v3)) := by
  show StableHlo.after (aggOps2 (F := Ideal)) V (Proc.devRef .tc main_v124) = _
  after_results_simp
  rfl

/-- Layer 2, second stretch: row 2 of each weight and bias table, the two matrix products, and the sum with both biases. -/
abbrev linOps2 {F : FTy → Type} [FloatOps F] : List (HloOp τ sig (Elt F)) :=
  [
    StableHlo.unary main_arg2 main_v125 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v125 main_v126 rfl shapeCasts_S1x128x128_S128x128,
    StableHlo.binary main_v124 main_v126 main_v127 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v128 ((extractStridedSlice S1x128 ![2, 0] · slices_S5x128_S1x128_2_0) : (⟨S5x128, .f32⟩ : BufTy).Contents (Elt F) → (⟨S1x128, .f32⟩ : BufTy).Contents (Elt F)),
    StableHlo.reshape main_v128 main_v129 rfl shapeCasts_S1x128_S128,
    StableHlo.unary main_v129 main_v130 (broadcastInDim S1x128 ![1] bcast_S128_S1x128_1 : (⟨S128, .f32⟩ : BufTy).Contents (Elt F) → (⟨S1x128, .f32⟩ : BufTy).Contents (Elt F)),
    StableHlo.unary main_v130 main_v131 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v131 main_v132 (addf : (⟨S50000x128, .f32⟩ : BufTy).Contents (Elt F) → (⟨S50000x128, .f32⟩ : BufTy).Contents (Elt F) → (⟨S50000x128, .f32⟩ : BufTy).Contents (Elt F)),
    StableHlo.unary main_arg4 main_v133 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v133 main_v134 rfl shapeCasts_S1x128x128_S128x128,
    StableHlo.binary main_v111 main_v134 main_v135 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v132 main_v135 main_v136 (addf : (⟨S50000x128, .f32⟩ : BufTy).Contents (Elt F) → (⟨S50000x128, .f32⟩ : BufTy).Contents (Elt F) → (⟨S50000x128, .f32⟩ : BufTy).Contents (Elt F)),
    StableHlo.unary main_arg5 main_v137 ((extractStridedSlice S1x128 ![2, 0] · slices_S5x128_S1x128_2_0) : (⟨S5x128, .f32⟩ : BufTy).Contents (Elt F) → (⟨S1x128, .f32⟩ : BufTy).Contents (Elt F)),
    StableHlo.reshape main_v137 main_v138 rfl shapeCasts_S1x128_S128,
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v140 main_v141 (addf : (⟨S50000x128, .f32⟩ : BufTy).Contents (Elt F) → (⟨S50000x128, .f32⟩ : BufTy).Contents (Elt F) → (⟨S50000x128, .f32⟩ : BufTy).Contents (Elt F)) ]

set_option maxHeartbeats 400000 in
/-- After the second stretch the linear buffer holds the layer's linear part of the aggregation buffer, the layer's
    input and row 2 of the four tables. -/
theorem lin2_term (V : Valuation τ sig (Elt Ideal)) :
    (StableHlo.after (linOps2 (F := Ideal)) V (Proc.devRef .tc main_v141) : FVec Ideal S50000x128 .f32)
      = refLin (V (Proc.devRef .tc main_v124)) (V (Proc.devRef .tc main_v111)) (sliceW2 (V (Proc.devRef .tc main_arg2))) (sliceW2 (V (Proc.devRef .tc main_arg4)))
          (sliceB2 (V (Proc.devRef .tc main_arg3))) (sliceB2 (V (Proc.devRef .tc main_arg5))) := by
  show StableHlo.after (linOps2 (F := Ideal)) V (Proc.devRef .tc main_v141) = _
  after_results_simp
  rfl

/-- Layer 2, third stretch: the column means of the linear part, and its column variances as the called function takes them. -/
abbrev statOps2 {F : FTy → Type} [FloatOps F] : List (HloOp τ sig (Elt F)) :=
  [
    StableHlo.nullary main_cst_15 (constant S_ .f32 0x00000000#32),
    StableHlo.binary main_v141 main_cst_15 main_v142 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_16 (constant S_ .f32 0x47435000#32),
    StableHlo.unary main_cst_16 main_v143 (broadcastInDim S128 ![] bcast_S_S128 : (⟨S_, .f32⟩ : BufTy).Contents (Elt F) → (⟨S128, .f32⟩ : BufTy).Contents (Elt F)),
    StableHlo.binary main_v142 main_v143 main_v144 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call4.cst (constant S_ .f32 0x00000000#32),
    StableHlo.TRef.binary (.of main_v141 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v141 : StableHlo.TRef sig ⟨S50000x128, .f32⟩) main_call4.v4 main_call4.v5 subf,
    StableHlo.TRef.binary main_call4.v5 main_call4.v5 main_call4.v6 mulf,
    StableHlo.TRef.unary (.of main_c_17 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4_call0.v0 id,
    StableHlo.TRef.unary main_call4_call0.v0 main_call4_call0.v1 (broadcastInDim S128 ![] bcast_S_S128),
    StableHlo.TRef.ternary main_call4.v12 main_call4.v11 main_call4_call0.v1 main_call4_call0.v2 (fun p a b => select (broadcastInDim S128 ![] bcast_S_S128 p) a b) ]

set_option maxHeartbeats 400000 in
/-- After the third stretch the mean buffer holds the column means of the linear buffer. -/
theorem mean2_term (V : Valuation τ sig (Elt Ideal)) :
    (StableHlo.after (statOps2 (F := Ideal)) V (Proc.devRef .tc main_v144) : FVec Ideal S128 .f32) = refMean (V (Proc.devRef .tc main_v141)) := by
  show StableHlo.after (statOps2 (F := Ideal)) V (Proc.devRef .tc main_v144) = _
  after_results_simp
  rfl

set_option maxHeartbeats 400000 in
/-- After the third stretch the variance buffer holds the column variances of the linear buffer. -/
theorem var2_term (V : Valuation τ sig (Elt Ideal)) :
    (StableHlo.after (statOps2 (F := Ideal)) V (Proc.devRef .tc main_v145) : FVec Ideal S128 .f32) = refVar (V (Proc.devRef .tc main_v141)) := by
  show StableHlo.after (statOps2 (F := Ideal)) V (Proc.devRef .tc main_v145) = _
  after_results_simp
  rfl

/-- Layer 2, fourth stretch: row 2 of the scale and shift tables, the centring, the reciprocal square root of the variance plus the small literal, the scaling, the shift, and the maximum with zero. -/
abbrev normOps2 {F : FTy → Type} [FloatOps F] : List (HloOp τ sig (Elt F)) :=
  [
    StableHlo.unary main_arg6 main_v146 ((extractStridedSlice S1x128 ![2, 0] · slices_S5x128_S1x128_2_0) : (⟨S5x128, .f32⟩ : BufTy).Contents (Elt F) → (⟨S1x128, .f32⟩ : BufTy).Contents (Elt F)),
    StableHlo.reshape main_v146 main_v147 rfl shapeCasts_S1x128_S128,
    StableHlo.unary main_v144 main_v148 (broadcastInDim S1x128 ![1] bcast_S128_S1x128_1 : (⟨S128, .f32⟩ : BufTy).Contents (Elt F) → (⟨S1x128, .f32⟩ : BufTy).Contents (Elt F)),
    StableHlo.unary main_v148 main_v149 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v149 main_v150 (subf : (⟨S50000x128, .f32⟩ : BufTy).Contents (Elt F) → (⟨S50000x128, .f32⟩ : BufTy).Contents (Elt F) → (⟨S50000x128, .f32⟩ : BufTy).Contents (Elt F)),
    StableHlo.unary main_v147 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S50000x128 ![0, 1] bcast_S1x128_S50000x128_0_1 : (⟨S1x128, .f32⟩ : BufTy).Contents (Elt F) → (⟨S50000x128, .f32⟩ : BufTy).Contents (Elt F)),
    StableHlo.binary main_v152 main_v150 main_v153 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x3727C5AC#32),
    StableHlo.unary main_cst_18 main_v154 (broadcastInDim S128 ![] bcast_S_S128 : (⟨S_, .f32⟩ : BufTy).Contents (Elt F) → (⟨S128, .f32⟩ : BufTy).Contents (Elt F)),
    StableHlo.binary main_v145 main_v154 main_v155 (addf : (⟨S128, .f32⟩ : BufTy).Contents (Elt F) → (⟨S128, .f32⟩ : BufTy).Contents (Elt F) → (⟨S128, .f32⟩ : BufTy).Contents (Elt F)),
    StableHlo.unary main_v155 main_v156 (Host.rsqrt : (⟨S128, .f32⟩ : BufTy).Contents (Elt F) → (⟨S128, .f32⟩ : BufTy).Contents (Elt F)),
    StableHlo.unary main_v156 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S50000x128 ![0, 1] bcast_S1x128_S50000x128_0_1 : (⟨S1x128, .f32⟩ : BufTy).Contents (Elt F) → (⟨S50000x128, .f32⟩ : BufTy).Contents (Elt F)),
    StableHlo.binary main_v153 main_v158 main_v159 (mulf : (⟨S50000x128, .f32⟩ : BufTy).Contents (Elt F) → (⟨S50000x128, .f32⟩ : BufTy).Contents (Elt F) → (⟨S50000x128, .f32⟩ : BufTy).Contents (Elt F)),
    StableHlo.unary main_arg7 main_v160 ((extractStridedSlice S1x128 ![2, 0] · slices_S5x128_S1x128_2_0) : (⟨S5x128, .f32⟩ : BufTy).Contents (Elt F) → (⟨S1x128, .f32⟩ : BufTy).Contents (Elt F)),
    StableHlo.reshape main_v160 main_v161 rfl shapeCasts_S1x128_S128,
    StableHlo.unary main_v161 main_v162 (broadcastInDim S1x128 ![1] bcast_S128_S1x128_1 : (⟨S128, .f32⟩ : BufTy).Contents (Elt F) → (⟨S1x128, .f32⟩ : BufTy).Contents (Elt F)),
    StableHlo.unary main_v162 main_v163 (broadcastInDim S50000x128 ![0, 1] bcast_S1x128_S50000x128_0_1 : (⟨S1x128, .f32⟩ : BufTy).Contents (Elt F) → (⟨S50000x128, .f32⟩ : BufTy).Contents (Elt F)),
    StableHlo.binary main_v159 main_v163 main_v164 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v164 : StableHlo.TRef sig ⟨S50000x128, .f32⟩) main_call5.v0 main_call5.v1 maximumf ]

set_option maxHeartbeats 400000 in
/-- After the fourth stretch the layer's output buffer holds the normalised, scaled, shifted and rectified linear
    buffer. -/
theorem norm2_term (V : Valuation τ sig (Elt Ideal)) :
    (StableHlo.after (normOps2 (F := Ideal)) V (Proc.devRef .tc main_v165) : FVec Ideal S50000x128 .f32)
      = refNorm (V (Proc.devRef .tc main_v141)) (V (Proc.devRef .tc main_v144)) (V (Proc.devRef .tc main_v145)) (sliceB2 (V (Proc.devRef .tc main_arg6))) (sliceB2 (V (Proc.devRef .tc main_arg7))) := by
  show StableHlo.after (normOps2 (F := Ideal)) V (Proc.devRef .tc main_v165) = _
  after_results_simp
  rfl

/-- Layer 2's list is its four stretches in a row. -/
theorem opsL2_split {F : FTy → Type} [FloatOps F] :
    (opsL2 : List (HloOp τ sig (Elt F))) = aggOps2 ++ (linOps2 ++ (statOps2 ++ normOps2)) := rfl

/-- The first stretch leaves what layer 2 does not write. -/
theorem aggOps2_frame (V : Valuation τ sig (Elt Ideal)) {r : Ref sig .tc} (hr : r ∉ wL2) :
    StableHlo.after (aggOps2 (F := Ideal)) V (Proc.devRef .tc r) = V (Proc.devRef .tc r) :=
  after_part (pre := []) (show (opsL2 (F := Ideal)) = [] ++ (aggOps2 ++ (linOps2 ++ (statOps2 ++ normOps2))) from rfl) opsL2_writes V hr
/-- The second stretch leaves what layer 2 does not write. -/
theorem linOps2_frame (V : Valuation τ sig (Elt Ideal)) {r : Ref sig .tc} (hr : r ∉ wL2) :
    StableHlo.after (linOps2 (F := Ideal)) V (Proc.devRef .tc r) = V (Proc.devRef .tc r) :=
  after_part (show (opsL2 (F := Ideal)) = aggOps2 ++ (linOps2 ++ (statOps2 ++ normOps2)) from rfl) opsL2_writes V hr
/-- The third stretch leaves what layer 2 does not write. -/
theorem statOps2_frame (V : Valuation τ sig (Elt Ideal)) {r : Ref sig .tc} (hr : r ∉ wL2) :
    StableHlo.after (statOps2 (F := Ideal)) V (Proc.devRef .tc r) = V (Proc.devRef .tc r) :=
  after_part (show (opsL2 (F := Ideal)) = (aggOps2 ++ linOps2) ++ (statOps2 ++ normOps2) from rfl) opsL2_writes V hr

set_option maxHeartbeats 400000 in
/-- The third stretch does not write the linear buffer. -/
theorem stat2_lin (V : Valuation τ sig (Elt Ideal)) :
    StableHlo.after (statOps2 (F := Ideal)) V (Proc.devRef .tc main_v141) = V (Proc.devRef .tc main_v141) := by
  after_results_simp

set_option maxHeartbeats 400000 in
/-- LAYER 2'S TERM. Run from any buffer contents `W`, layer 2's stretch leaves in its output buffer the reference's
    layer function of: the aggregated messages of the layer's input, the edge weights and the edges' source and target
    vectors (as layer 0 left them); the layer's input; and row 2 of each of the six parameter tables — all as `W` holds them. -/
theorem layer2_term (W : Valuation τ sig (Elt Ideal)) :
    (StableHlo.after (opsL2 (F := Ideal)) W (Proc.devRef .tc main_v165) : FVec Ideal S50000x128 .f32)
      = refLayer (aggOf (F := Ideal) (W (Proc.devRef .tc main_v111)) (W (Proc.devRef .tc main_arg1)) (W (Proc.devRef .tc main_v1)) (W (Proc.devRef .tc main_v3)))
          (W (Proc.devRef .tc main_v111))
          (sliceW2 (W (Proc.devRef .tc main_arg2))) (sliceW2 (W (Proc.devRef .tc main_arg4)))
          (sliceB2 (W (Proc.devRef .tc main_arg3))) (sliceB2 (W (Proc.devRef .tc main_arg5)))
          (sliceB2 (W (Proc.devRef .tc main_arg6))) (sliceB2 (W (Proc.devRef .tc main_arg7))) := by
  show StableHlo.after (opsL2 (F := Ideal)) W (Proc.devRef .tc main_v165) = _
  rw [opsL2_split, StableHlo.after_append, StableHlo.after_append, StableHlo.after_append, refLayer_eq,
    norm2_term, mean2_term, var2_term, stat2_lin,
    statOps2_frame _ (r := main_arg6) (by decide), statOps2_frame _ (r := main_arg7) (by decide),
    lin2_term,
    linOps2_frame _ (r := main_arg6) (by decide), linOps2_frame _ (r := main_arg7) (by decide),
    agg2_term,
    aggOps2_frame _ (r := main_v111) (by decide), aggOps2_frame _ (r := main_arg2) (by decide), aggOps2_frame _ (r := main_arg3) (by decide), aggOps2_frame _ (r := main_arg4) (by decide), aggOps2_frame _ (r := main_arg5) (by decide), aggOps2_frame _ (r := main_arg6) (by decide), aggOps2_frame _ (r := main_arg7) (by decide)]

/-! ## Layer 3 -/

/-- Layer 3, first stretch: the wrap of negative source words, the gathered rows weighted per edge, and their sum per target node. -/
abbrev aggOps3 {F : FTy → Type} [FloatOps F] : List (HloOp τ sig (Elt F)) :=
  [
    StableHlo.nullary main_c_19 (constantI S_ 32 0#32),
    StableHlo.unary main_c_19 main_v166 (broadcastInDim S600000 ![] bcast_S_S600000 : (⟨S_, .i32⟩ : BufTy).Contents (Elt F) → (⟨S600000, .i32⟩ : BufTy).Contents (Elt F)),
    StableHlo.binary main_v1 main_v166 main_v167 (cmpi .slt : (⟨S600000, .i32⟩ : BufTy).Contents (Elt F) → (⟨S600000, .i32⟩ : BufTy).Contents (Elt F) → (⟨S600000, .i1⟩ : BufTy).Contents (Elt F)),
    StableHlo.nullary main_c_20 (constantI S_ 32 50000#32),
    StableHlo.unary main_c_20 main_v168 (broadcastInDim S600000 ![] bcast_S_S600000 : (⟨S_, .i32⟩ : BufTy).Contents (Elt F) → (⟨S600000, .i32⟩ : BufTy).Contents (Elt F)),
    StableHlo.binary main_v1 main_v168 main_v169 (addi : (⟨S600000, .i32⟩ : BufTy).Contents (Elt F) → (⟨S600000, .i32⟩ : BufTy).Contents (Elt F) → (⟨S600000, .i32⟩ : BufTy).Contents (Elt F)),
    StableHlo.ternary main_v167 main_v169 main_v1 main_v170 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v170 main_v171 (broadcastInDim S600000x1 ![0] bcast_S600000_S600000x1_0 : (⟨S600000, .i32⟩ : BufTy).Contents (Elt F) → (⟨S600000x1, .i32⟩ : BufTy).Contents (Elt F)),
    StableHlo.binary main_v165 main_v171 main_v172 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v173 (broadcastInDim S600000x1 ![0] bcast_S600000_S600000x1_0 : (⟨S600000, .f32⟩ : BufTy).Contents (Elt F) → (⟨S600000x1, .f32⟩ : BufTy).Contents (Elt F)),
    StableHlo.unary main_v173 main_v174 (broadcastInDim S600000x128 ![0, 1] bcast_S600000x1_S600000x128_0_1 : (⟨S600000x1, .f32⟩ : BufTy).Contents (Elt F) → (⟨S600000x128, .f32⟩ : BufTy).Contents (Elt F)),
    StableHlo.binary main_v172 main_v174 main_v175 (mulf : (⟨S600000x128, .f32⟩ : BufTy).Contents (Elt F) → (⟨S600000x128, .f32⟩ : BufTy).Contents (Elt F) → (⟨S600000x128, .f32⟩ : BufTy).Contents (Elt F)),
    StableHlo.nullary main_cst_21 (constant S_ .f32 0x00000000#32),
    StableHlo.unary main_cst_21 main_v176 (broadcastInDim S50000x128 ![] bcast_S_S50000x128 : (⟨S_, .f32⟩ : BufTy).Contents (Elt F) → (⟨S50000x128, .f32⟩ : BufTy).Contents (Elt F)),
    StableHlo.unary main_v3 main_v177 (broadcastInDim S600000x1 ![0] bcast_S600000_S600000x1_0 : (⟨S600000, .i32⟩ : BufTy).Contents (Elt F) → (⟨S600000x1, .i32⟩ : BufTy).Contents (Elt F)),
    StableHlo.ternary main_v176 main_v177 main_v175 main_v178 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

set_option maxHeartbeats 400000 in
/-- After the first stretch the aggregation buffer holds the aggregated messages of what the stretch found in the
    layer's input, the edge weights and the edges' source and target vectors. -/
theorem agg3_term (V : Valuation τ sig (Elt Ideal)) :
    (StableHlo.after (aggOps3 (F := Ideal)) V (Proc.devRef .tc main_v178) : FVec Ideal S50000x128 .f32)
      = aggOf (F := Ideal) (V (Proc.devRef .tc main_v165)) (V (Proc.devRef .tc main_arg1)) (V (Proc.devRef .tc main_v1)) (V (Proc.devRef .tc main_v3)) := by
  show StableHlo.after (aggOps3 (F := Ideal)) V (Proc.devRef .tc main_v178) = _
  after_results_simp
  rfl

/-- Layer 3, second stretch: row 3 of each weight and bias table, the two matrix products, and the sum with both biases. -/
abbrev linOps3 {F : FTy → Type} [FloatOps F] : List (HloOp τ sig (Elt F)) :=
  [
    StableHlo.unary main_arg2 main_v179 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v179 main_v180 rfl shapeCasts_S1x128x128_S128x128,
    StableHlo.binary main_v178 main_v180 main_v181 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v182 ((extractStridedSlice S1x128 ![3, 0] · slices_S5x128_S1x128_3_0) : (⟨S5x128, .f32⟩ : BufTy).Contents (Elt F) → (⟨S1x128, .f32⟩ : BufTy).Contents (Elt F)),
    StableHlo.reshape main_v182 main_v183 rfl shapeCasts_S1x128_S128,
    StableHlo.unary main_v183 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v181 main_v185 main_v186 (addf : (⟨S50000x128, .f32⟩ : BufTy).Contents (Elt F) → (⟨S50000x128, .f32⟩ : BufTy).Contents (Elt F) → (⟨S50000x128, .f32⟩ : BufTy).Contents (Elt F)),
    StableHlo.unary main_arg4 main_v187 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v187 main_v188 rfl shapeCasts_S1x128x128_S128x128,
    StableHlo.binary main_v165 main_v188 main_v189 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v186 main_v189 main_v190 (addf : (⟨S50000x128, .f32⟩ : BufTy).Contents (Elt F) → (⟨S50000x128, .f32⟩ : BufTy).Contents (Elt F) → (⟨S50000x128, .f32⟩ : BufTy).Contents (Elt F)),
    StableHlo.unary main_arg5 main_v191 ((extractStridedSlice S1x128 ![3, 0] · slices_S5x128_S1x128_3_0) : (⟨S5x128, .f32⟩ : BufTy).Contents (Elt F) → (⟨S1x128, .f32⟩ : BufTy).Contents (Elt F)),
    StableHlo.reshape main_v191 main_v192 rfl shapeCasts_S1x128_S128,
    StableHlo.unary main_v192 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S50000x128 ![0, 1] bcast_S1x128_S50000x128_0_1 : (⟨S1x128, .f32⟩ : BufTy).Contents (Elt F) → (⟨S50000x128, .f32⟩ : BufTy).Contents (Elt F)),
    StableHlo.binary main_v190 main_v194 main_v195 (addf : (⟨S50000x128, .f32⟩ : BufTy).Contents (Elt F) → (⟨S50000x128, .f32⟩ : BufTy).Contents (Elt F) → (⟨S50000x128, .f32⟩ : BufTy).Contents (Elt F)) ]

set_option maxHeartbeats 400000 in
/-- After the second stretch the linear buffer holds the layer's linear part of the aggregation buffer, the layer's
    input and row 3 of the four tables. -/
theorem lin3_term (V : Valuation τ sig (Elt Ideal)) :
    (StableHlo.after (linOps3 (F := Ideal)) V (Proc.devRef .tc main_v195) : FVec Ideal S50000x128 .f32)
      = refLin (V (Proc.devRef .tc main_v178)) (V (Proc.devRef .tc main_v165)) (sliceW3 (V (Proc.devRef .tc main_arg2))) (sliceW3 (V (Proc.devRef .tc main_arg4)))
          (sliceB3 (V (Proc.devRef .tc main_arg3))) (sliceB3 (V (Proc.devRef .tc main_arg5))) := by
  show StableHlo.after (linOps3 (F := Ideal)) V (Proc.devRef .tc main_v195) = _
  after_results_simp
  rfl

/-- Layer 3, third stretch: the column means of the linear part, and its column variances as the called function takes them. -/
abbrev statOps3 {F : FTy → Type} [FloatOps F] : List (HloOp τ sig (Elt F)) :=
  [
    StableHlo.nullary main_cst_22 (constant S_ .f32 0x00000000#32),
    StableHlo.binary main_v195 main_cst_22 main_v196 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_23 (constant S_ .f32 0x47435000#32),
    StableHlo.unary main_cst_23 main_v197 (broadcastInDim S128 ![] bcast_S_S128 : (⟨S_, .f32⟩ : BufTy).Contents (Elt F) → (⟨S128, .f32⟩ : BufTy).Contents (Elt F)),
    StableHlo.binary main_v196 main_v197 main_v198 (Host.divf : (⟨S128, .f32⟩ : BufTy).Contents (Elt F) → (⟨S128, .f32⟩ : BufTy).Contents (Elt F) → (⟨S128, .f32⟩ : BufTy).Contents (Elt F)),
    StableHlo.nullary main_c_24 (constantI S_ 32 0#32),
    StableHlo.TRef.nullary main_call6.cst (constant S_ .f32 0x00000000#32),
    StableHlo.TRef.binary (.of main_v195 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v195 : StableHlo.TRef sig ⟨S50000x128, .f32⟩) main_call6.v4 main_call6.v5 subf,
    StableHlo.TRef.binary main_call6.v5 main_call6.v5 main_call6.v6 mulf,
    StableHlo.TRef.unary (.of main_c_24 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6_call0.v0 id,
    StableHlo.TRef.unary main_call6_call0.v0 main_call6_call0.v1 (broadcastInDim S128 ![] bcast_S_S128),
    StableHlo.TRef.ternary main_call6.v12 main_call6.v11 main_call6_call0.v1 main_call6_call0.v2 (fun p a b => select (broadcastInDim S128 ![] bcast_S_S128 p) a b) ]

set_option maxHeartbeats 400000 in
/-- After the third stretch the mean buffer holds the column means of the linear buffer. -/
theorem mean3_term (V : Valuation τ sig (Elt Ideal)) :
    (StableHlo.after (statOps3 (F := Ideal)) V (Proc.devRef .tc main_v198) : FVec Ideal S128 .f32) = refMean (V (Proc.devRef .tc main_v195)) := by
  show StableHlo.after (statOps3 (F := Ideal)) V (Proc.devRef .tc main_v198) = _
  after_results_simp
  rfl

set_option maxHeartbeats 400000 in
/-- After the third stretch the variance buffer holds the column variances of the linear buffer. -/
theorem var3_term (V : Valuation τ sig (Elt Ideal)) :
    (StableHlo.after (statOps3 (F := Ideal)) V (Proc.devRef .tc main_v199) : FVec Ideal S128 .f32) = refVar (V (Proc.devRef .tc main_v195)) := by
  show StableHlo.after (statOps3 (F := Ideal)) V (Proc.devRef .tc main_v199) = _
  after_results_simp
  rfl

/-- Layer 3, fourth stretch: row 3 of the scale and shift tables, the centring, the reciprocal square root of the variance plus the small literal, the scaling, the shift, and the maximum with zero. -/
abbrev normOps3 {F : FTy → Type} [FloatOps F] : List (HloOp τ sig (Elt F)) :=
  [
    StableHlo.unary main_arg6 main_v200 ((extractStridedSlice S1x128 ![3, 0] · slices_S5x128_S1x128_3_0) : (⟨S5x128, .f32⟩ : BufTy).Contents (Elt F) → (⟨S1x128, .f32⟩ : BufTy).Contents (Elt F)),
    StableHlo.reshape main_v200 main_v201 rfl shapeCasts_S1x128_S128,
    StableHlo.unary main_v198 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v195 main_v203 main_v204 (subf : (⟨S50000x128, .f32⟩ : BufTy).Contents (Elt F) → (⟨S50000x128, .f32⟩ : BufTy).Contents (Elt F) → (⟨S50000x128, .f32⟩ : BufTy).Contents (Elt F)),
    StableHlo.unary main_v201 main_v205 (broadcastInDim S1x128 ![1] bcast_S128_S1x128_1 : (⟨S128, .f32⟩ : BufTy).Contents (Elt F) → (⟨S1x128, .f32⟩ : BufTy).Contents (Elt F)),
    StableHlo.unary main_v205 main_v206 (broadcastInDim S50000x128 ![0, 1] bcast_S1x128_S50000x128_0_1 : (⟨S1x128, .f32⟩ : BufTy).Contents (Elt F) → (⟨S50000x128, .f32⟩ : BufTy).Contents (Elt F)),
    StableHlo.binary main_v206 main_v204 main_v207 (mulf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3727C5AC#32),
    StableHlo.unary main_cst_25 main_v208 (broadcastInDim S128 ![] bcast_S_S128 : (⟨S_, .f32⟩ : BufTy).Contents (Elt F) → (⟨S128, .f32⟩ : BufTy).Contents (Elt F)),
    StableHlo.binary main_v199 main_v208 main_v209 (addf : (⟨S128, .f32⟩ : BufTy).Contents (Elt F) → (⟨S128, .f32⟩ : BufTy).Contents (Elt F) → (⟨S128, .f32⟩ : BufTy).Contents (Elt F)),
    StableHlo.unary main_v209 main_v210 (Host.rsqrt : (⟨S128, .f32⟩ : BufTy).Contents (Elt F) → (⟨S128, .f32⟩ : BufTy).Contents (Elt F)),
    StableHlo.unary main_v210 main_v211 (broadcastInDim S1x128 ![1] bcast_S128_S1x128_1 : (⟨S128, .f32⟩ : BufTy).Contents (Elt F) → (⟨S1x128, .f32⟩ : BufTy).Contents (Elt F)),
    StableHlo.unary main_v211 main_v212 (broadcastInDim S50000x128 ![0, 1] bcast_S1x128_S50000x128_0_1 : (⟨S1x128, .f32⟩ : BufTy).Contents (Elt F) → (⟨S50000x128, .f32⟩ : BufTy).Contents (Elt F)),
    StableHlo.binary main_v207 main_v212 main_v213 (mulf : (⟨S50000x128, .f32⟩ : BufTy).Contents (Elt F) → (⟨S50000x128, .f32⟩ : BufTy).Contents (Elt F) → (⟨S50000x128, .f32⟩ : BufTy).Contents (Elt F)),
    StableHlo.unary main_arg7 main_v214 ((extractStridedSlice S1x128 ![3, 0] · slices_S5x128_S1x128_3_0) : (⟨S5x128, .f32⟩ : BufTy).Contents (Elt F) → (⟨S1x128, .f32⟩ : BufTy).Contents (Elt F)),
    StableHlo.reshape main_v214 main_v215 rfl shapeCasts_S1x128_S128,
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v213 main_v217 main_v218 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v218 : StableHlo.TRef sig ⟨S50000x128, .f32⟩) main_call7.v0 main_call7.v1 maximumf ]

set_option maxHeartbeats 400000 in
/-- After the fourth stretch the layer's output buffer holds the normalised, scaled, shifted and rectified linear
    buffer. -/
theorem norm3_term (V : Valuation τ sig (Elt Ideal)) :
    (StableHlo.after (normOps3 (F := Ideal)) V (Proc.devRef .tc main_v219) : FVec Ideal S50000x128 .f32)
      = refNorm (V (Proc.devRef .tc main_v195)) (V (Proc.devRef .tc main_v198)) (V (Proc.devRef .tc main_v199)) (sliceB3 (V (Proc.devRef .tc main_arg6))) (sliceB3 (V (Proc.devRef .tc main_arg7))) := by
  show StableHlo.after (normOps3 (F := Ideal)) V (Proc.devRef .tc main_v219) = _
  after_results_simp
  rfl

/-- Layer 3's list is its four stretches in a row. -/
theorem opsL3_split {F : FTy → Type} [FloatOps F] :
    (opsL3 : List (HloOp τ sig (Elt F))) = aggOps3 ++ (linOps3 ++ (statOps3 ++ normOps3)) := rfl

/-- The first stretch leaves what layer 3 does not write. -/
theorem aggOps3_frame (V : Valuation τ sig (Elt Ideal)) {r : Ref sig .tc} (hr : r ∉ wL3) :
    StableHlo.after (aggOps3 (F := Ideal)) V (Proc.devRef .tc r) = V (Proc.devRef .tc r) :=
  after_part (pre := []) (show (opsL3 (F := Ideal)) = [] ++ (aggOps3 ++ (linOps3 ++ (statOps3 ++ normOps3))) from rfl) opsL3_writes V hr
/-- The second stretch leaves what layer 3 does not write. -/
theorem linOps3_frame (V : Valuation τ sig (Elt Ideal)) {r : Ref sig .tc} (hr : r ∉ wL3) :
    StableHlo.after (linOps3 (F := Ideal)) V (Proc.devRef .tc r) = V (Proc.devRef .tc r) :=
  after_part (show (opsL3 (F := Ideal)) = aggOps3 ++ (linOps3 ++ (statOps3 ++ normOps3)) from rfl) opsL3_writes V hr
/-- The third stretch leaves what layer 3 does not write. -/
theorem statOps3_frame (V : Valuation τ sig (Elt Ideal)) {r : Ref sig .tc} (hr : r ∉ wL3) :
    StableHlo.after (statOps3 (F := Ideal)) V (Proc.devRef .tc r) = V (Proc.devRef .tc r) :=
  after_part (show (opsL3 (F := Ideal)) = (aggOps3 ++ linOps3) ++ (statOps3 ++ normOps3) from rfl) opsL3_writes V hr

set_option maxHeartbeats 400000 in
/-- The third stretch does not write the linear buffer. -/
theorem stat3_lin (V : Valuation τ sig (Elt Ideal)) :
    StableHlo.after (statOps3 (F := Ideal)) V (Proc.devRef .tc main_v195) = V (Proc.devRef .tc main_v195) := by
  after_results_simp

set_option maxHeartbeats 400000 in
/-- LAYER 3'S TERM. Run from any buffer contents `W`, layer 3's stretch leaves in its output buffer the reference's
    layer function of: the aggregated messages of the layer's input, the edge weights and the edges' source and target
    vectors (as layer 0 left them); the layer's input; and row 3 of each of the six parameter tables — all as `W` holds them. -/
theorem layer3_term (W : Valuation τ sig (Elt Ideal)) :
    (StableHlo.after (opsL3 (F := Ideal)) W (Proc.devRef .tc main_v219) : FVec Ideal S50000x128 .f32)
      = refLayer (aggOf (F := Ideal) (W (Proc.devRef .tc main_v165)) (W (Proc.devRef .tc main_arg1)) (W (Proc.devRef .tc main_v1)) (W (Proc.devRef .tc main_v3)))
          (W (Proc.devRef .tc main_v165))
          (sliceW3 (W (Proc.devRef .tc main_arg2))) (sliceW3 (W (Proc.devRef .tc main_arg4)))
          (sliceB3 (W (Proc.devRef .tc main_arg3))) (sliceB3 (W (Proc.devRef .tc main_arg5)))
          (sliceB3 (W (Proc.devRef .tc main_arg6))) (sliceB3 (W (Proc.devRef .tc main_arg7))) := by
  show StableHlo.after (opsL3 (F := Ideal)) W (Proc.devRef .tc main_v219) = _
  rw [opsL3_split, StableHlo.after_append, StableHlo.after_append, StableHlo.after_append, refLayer_eq,
    norm3_term, mean3_term, var3_term, stat3_lin,
    statOps3_frame _ (r := main_arg6) (by decide), statOps3_frame _ (r := main_arg7) (by decide),
    lin3_term,
    linOps3_frame _ (r := main_arg6) (by decide), linOps3_frame _ (r := main_arg7) (by decide),
    agg3_term,
    aggOps3_frame _ (r := main_v165) (by decide), aggOps3_frame _ (r := main_arg2) (by decide), aggOps3_frame _ (r := main_arg3) (by decide), aggOps3_frame _ (r := main_arg4) (by decide), aggOps3_frame _ (r := main_arg5) (by decide), aggOps3_frame _ (r := main_arg6) (by decide), aggOps3_frame _ (r := main_arg7) (by decide)]

/-! ## Layer 4 -/

/-- Layer 4, first stretch: the wrap of negative source words, the gathered rows weighted per edge, and their sum per target node. -/
abbrev aggOps4 {F : FTy → Type} [FloatOps F] : List (HloOp τ sig (Elt F)) :=
  [
    StableHlo.nullary main_c_26 (constantI S_ 32 0#32),
    StableHlo.unary main_c_26 main_v220 (broadcastInDim S600000 ![] bcast_S_S600000 : (⟨S_, .i32⟩ : BufTy).Contents (Elt F) → (⟨S600000, .i32⟩ : BufTy).Contents (Elt F)),
    StableHlo.binary main_v1 main_v220 main_v221 (cmpi .slt : (⟨S600000, .i32⟩ : BufTy).Contents (Elt F) → (⟨S600000, .i32⟩ : BufTy).Contents (Elt F) → (⟨S600000, .i1⟩ : BufTy).Contents (Elt F)),
    StableHlo.nullary main_c_27 (constantI S_ 32 50000#32),
    StableHlo.unary main_c_27 main_v222 (broadcastInDim S600000 ![] bcast_S_S600000 : (⟨S_, .i32⟩ : BufTy).Contents (Elt F) → (⟨S600000, .i32⟩ : BufTy).Contents (Elt F)),
    StableHlo.binary main_v1 main_v222 main_v223 (addi : (⟨S600000, .i32⟩ : BufTy).Contents (Elt F) → (⟨S600000, .i32⟩ : BufTy).Contents (Elt F) → (⟨S600000, .i32⟩ : BufTy).Contents (Elt F)),
    StableHlo.ternary main_v221 main_v223 main_v1 main_v224 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v224 main_v225 (broadcastInDim S600000x1 ![0] bcast_S600000_S600000x1_0 : (⟨S600000, .i32⟩ : BufTy).Contents (Elt F) → (⟨S600000x1, .i32⟩ : BufTy).Contents (Elt F)),
    StableHlo.binary main_v219 main_v225 main_v226 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v227 (broadcastInDim S600000x1 ![0] bcast_S600000_S600000x1_0 : (⟨S600000, .f32⟩ : BufTy).Contents (Elt F) → (⟨S600000x1, .f32⟩ : BufTy).Contents (Elt F)),
    StableHlo.unary main_v227 main_v228 (broadcastInDim S600000x128 ![0, 1] bcast_S600000x1_S600000x128_0_1 : (⟨S600000x1, .f32⟩ : BufTy).Contents (Elt F) → (⟨S600000x128, .f32⟩ : BufTy).Contents (Elt F)),
    StableHlo.binary main_v226 main_v228 main_v229 (mulf : (⟨S600000x128, .f32⟩ : BufTy).Contents (Elt F) → (⟨S600000x128, .f32⟩ : BufTy).Contents (Elt F) → (⟨S600000x128, .f32⟩ : BufTy).Contents (Elt F)),
    StableHlo.nullary main_cst_28 (constant S_ .f32 0x00000000#32),
    StableHlo.unary main_cst_28 main_v230 (broadcastInDim S50000x128 ![] bcast_S_S50000x128 : (⟨S_, .f32⟩ : BufTy).Contents (Elt F) → (⟨S50000x128, .f32⟩ : BufTy).Contents (Elt F)),
    StableHlo.unary main_v3 main_v231 (broadcastInDim S600000x1 ![0] bcast_S600000_S600000x1_0 : (⟨S600000, .i32⟩ : BufTy).Contents (Elt F) → (⟨S600000x1, .i32⟩ : BufTy).Contents (Elt F)),
    StableHlo.ternary main_v230 main_v231 main_v229 main_v232 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

set_option maxHeartbeats 400000 in
/-- After the first stretch the aggregation buffer holds the aggregated messages of what the stretch found in the
    layer's input, the edge weights and the edges' source and target vectors. -/
theorem agg4_term (V : Valuation τ sig (Elt Ideal)) :
    (StableHlo.after (aggOps4 (F := Ideal)) V (Proc.devRef .tc main_v232) : FVec Ideal S50000x128 .f32)
      = aggOf (F := Ideal) (V (Proc.devRef .tc main_v219)) (V (Proc.devRef .tc main_arg1)) (V (Proc.devRef .tc main_v1)) (V (Proc.devRef .tc main_v3)) := by
  show StableHlo.after (aggOps4 (F := Ideal)) V (Proc.devRef .tc main_v232) = _
  after_results_simp
  rfl

/-- Layer 4, second stretch: row 4 of each weight and bias table, the two matrix products, and the sum with both biases. -/
abbrev linOps4 {F : FTy → Type} [FloatOps F] : List (HloOp τ sig (Elt F)) :=
  [
    StableHlo.unary main_arg2 main_v233 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v233 main_v234 rfl shapeCasts_S1x128x128_S128x128,
    StableHlo.binary main_v232 main_v234 main_v235 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v236 ((extractStridedSlice S1x128 ![4, 0] · slices_S5x128_S1x128_4_0) : (⟨S5x128, .f32⟩ : BufTy).Contents (Elt F) → (⟨S1x128, .f32⟩ : BufTy).Contents (Elt F)),
    StableHlo.reshape main_v236 main_v237 rfl shapeCasts_S1x128_S128,
    StableHlo.unary main_v237 main_v238 (broadcastInDim S1x128 ![1] bcast_S128_S1x128_1 : (⟨S128, .f32⟩ : BufTy).Contents (Elt F) → (⟨S1x128, .f32⟩ : BufTy).Contents (Elt F)),
    StableHlo.unary main_v238 main_v239 (broadcastInDim S50000x128 ![0, 1] bcast_S1x128_S50000x128_0_1 : (⟨S1x128, .f32⟩ : BufTy).Contents (Elt F) → (⟨S50000x128, .f32⟩ : BufTy).Contents (Elt F)),
    StableHlo.binary main_v235 main_v239 main_v240 (addf : (⟨S50000x128, .f32⟩ : BufTy).Contents (Elt F) → (⟨S50000x128, .f32⟩ : BufTy).Contents (Elt F) → (⟨S50000x128, .f32⟩ : BufTy).Contents (Elt F)),
    StableHlo.unary main_arg4 main_v241 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v241 main_v242 rfl shapeCasts_S1x128x128_S128x128,
    StableHlo.binary main_v219 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v240 main_v243 main_v244 (addf : (⟨S50000x128, .f32⟩ : BufTy).Contents (Elt F) → (⟨S50000x128, .f32⟩ : BufTy).Contents (Elt F) → (⟨S50000x128, .f32⟩ : BufTy).Contents (Elt F)),
    StableHlo.unary main_arg5 main_v245 ((extractStridedSlice S1x128 ![4, 0] · slices_S5x128_S1x128_4_0) : (⟨S5x128, .f32⟩ : BufTy).Contents (Elt F) → (⟨S1x128, .f32⟩ : BufTy).Contents (Elt F)),
    StableHlo.reshape main_v245 main_v246 rfl shapeCasts_S1x128_S128,
    StableHlo.unary main_v246 main_v247 (broadcastInDim S1x128 ![1] bcast_S128_S1x128_1 : (⟨S128, .f32⟩ : BufTy).Contents (Elt F) → (⟨S1x128, .f32⟩ : BufTy).Contents (Elt F)),
    StableHlo.unary main_v247 main_v248 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v248 main_v249 (addf : (⟨S50000x128, .f32⟩ : BufTy).Contents (Elt F) → (⟨S50000x128, .f32⟩ : BufTy).Contents (Elt F) → (⟨S50000x128, .f32⟩ : BufTy).Contents (Elt F)) ]

set_option maxHeartbeats 400000 in
/-- After the second stretch the linear buffer holds the layer's linear part of the aggregation buffer, the layer's
    input and row 4 of the four tables. -/
theorem lin4_term (V : Valuation τ sig (Elt Ideal)) :
    (StableHlo.after (linOps4 (F := Ideal)) V (Proc.devRef .tc main_v249) : FVec Ideal S50000x128 .f32)
      = refLin (V (Proc.devRef .tc main_v232)) (V (Proc.devRef .tc main_v219)) (sliceW4 (V (Proc.devRef .tc main_arg2))) (sliceW4 (V (Proc.devRef .tc main_arg4)))
          (sliceB4 (V (Proc.devRef .tc main_arg3))) (sliceB4 (V (Proc.devRef .tc main_arg5))) := by
  show StableHlo.after (linOps4 (F := Ideal)) V (Proc.devRef .tc main_v249) = _
  after_results_simp
  rfl

/-- Layer 4, third stretch: the column means of the linear part, and its column variances as the called function takes them. -/
abbrev statOps4 {F : FTy → Type} [FloatOps F] : List (HloOp τ sig (Elt F)) :=
  [
    StableHlo.nullary main_cst_29 (constant S_ .f32 0x00000000#32),
    StableHlo.binary main_v249 main_cst_29 main_v250 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_30 (constant S_ .f32 0x47435000#32),
    StableHlo.unary main_cst_30 main_v251 (broadcastInDim S128 ![] bcast_S_S128 : (⟨S_, .f32⟩ : BufTy).Contents (Elt F) → (⟨S128, .f32⟩ : BufTy).Contents (Elt F)),
    StableHlo.binary main_v250 main_v251 main_v252 (Host.divf : (⟨S128, .f32⟩ : BufTy).Contents (Elt F) → (⟨S128, .f32⟩ : BufTy).Contents (Elt F) → (⟨S128, .f32⟩ : BufTy).Contents (Elt F)),
    StableHlo.nullary main_c_31 (constantI S_ 32 0#32),
    StableHlo.TRef.nullary main_call8.cst (constant S_ .f32 0x00000000#32),
    StableHlo.TRef.binary (.of main_v249 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v249 : StableHlo.TRef sig ⟨S50000x128, .f32⟩) main_call8.v4 main_call8.v5 subf,
    StableHlo.TRef.binary main_call8.v5 main_call8.v5 main_call8.v6 mulf,
    StableHlo.TRef.unary (.of main_c_31 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8_call0.v0 id,
    StableHlo.TRef.unary main_call8_call0.v0 main_call8_call0.v1 (broadcastInDim S128 ![] bcast_S_S128),
    StableHlo.TRef.ternary main_call8.v12 main_call8.v11 main_call8_call0.v1 main_call8_call0.v2 (fun p a b => select (broadcastInDim S128 ![] bcast_S_S128 p) a b) ]

set_option maxHeartbeats 400000 in
/-- After the third stretch the mean buffer holds the column means of the linear buffer. -/
theorem mean4_term (V : Valuation τ sig (Elt Ideal)) :
    (StableHlo.after (statOps4 (F := Ideal)) V (Proc.devRef .tc main_v252) : FVec Ideal S128 .f32) = refMean (V (Proc.devRef .tc main_v249)) := by
  show StableHlo.after (statOps4 (F := Ideal)) V (Proc.devRef .tc main_v252) = _
  after_results_simp
  rfl

set_option maxHeartbeats 400000 in
/-- After the third stretch the variance buffer holds the column variances of the linear buffer. -/
theorem var4_term (V : Valuation τ sig (Elt Ideal)) :
    (StableHlo.after (statOps4 (F := Ideal)) V (Proc.devRef .tc main_v253) : FVec Ideal S128 .f32) = refVar (V (Proc.devRef .tc main_v249)) := by
  show StableHlo.after (statOps4 (F := Ideal)) V (Proc.devRef .tc main_v253) = _
  after_results_simp
  rfl

/-- Layer 4, fourth stretch: row 4 of the scale and shift tables, the centring, the reciprocal square root of the variance plus the small literal, the scaling, the shift, and the maximum with zero. -/
abbrev normOps4 {F : FTy → Type} [FloatOps F] : List (HloOp τ sig (Elt F)) :=
  [
    StableHlo.unary main_arg6 main_v254 ((extractStridedSlice S1x128 ![4, 0] · slices_S5x128_S1x128_4_0) : (⟨S5x128, .f32⟩ : BufTy).Contents (Elt F) → (⟨S1x128, .f32⟩ : BufTy).Contents (Elt F)),
    StableHlo.reshape main_v254 main_v255 rfl shapeCasts_S1x128_S128,
    StableHlo.unary main_v252 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S50000x128 ![0, 1] bcast_S1x128_S50000x128_0_1 : (⟨S1x128, .f32⟩ : BufTy).Contents (Elt F) → (⟨S50000x128, .f32⟩ : BufTy).Contents (Elt F)),
    StableHlo.binary main_v249 main_v257 main_v258 (subf : (⟨S50000x128, .f32⟩ : BufTy).Contents (Elt F) → (⟨S50000x128, .f32⟩ : BufTy).Contents (Elt F) → (⟨S50000x128, .f32⟩ : BufTy).Contents (Elt F)),
    StableHlo.unary main_v255 main_v259 (broadcastInDim S1x128 ![1] bcast_S128_S1x128_1 : (⟨S128, .f32⟩ : BufTy).Contents (Elt F) → (⟨S1x128, .f32⟩ : BufTy).Contents (Elt F)),
    StableHlo.unary main_v259 main_v260 (broadcastInDim S50000x128 ![0, 1] bcast_S1x128_S50000x128_0_1 : (⟨S1x128, .f32⟩ : BufTy).Contents (Elt F) → (⟨S50000x128, .f32⟩ : BufTy).Contents (Elt F)),
    StableHlo.binary main_v260 main_v258 main_v261 (mulf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x3727C5AC#32),
    StableHlo.unary main_cst_32 main_v262 (broadcastInDim S128 ![] bcast_S_S128 : (⟨S_, .f32⟩ : BufTy).Contents (Elt F) → (⟨S128, .f32⟩ : BufTy).Contents (Elt F)),
    StableHlo.binary main_v253 main_v262 main_v263 (addf : (⟨S128, .f32⟩ : BufTy).Contents (Elt F) → (⟨S128, .f32⟩ : BufTy).Contents (Elt F) → (⟨S128, .f32⟩ : BufTy).Contents (Elt F)),
    StableHlo.unary main_v263 main_v264 (Host.rsqrt : (⟨S128, .f32⟩ : BufTy).Contents (Elt F) → (⟨S128, .f32⟩ : BufTy).Contents (Elt F)),
    StableHlo.unary main_v264 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S50000x128 ![0, 1] bcast_S1x128_S50000x128_0_1 : (⟨S1x128, .f32⟩ : BufTy).Contents (Elt F) → (⟨S50000x128, .f32⟩ : BufTy).Contents (Elt F)),
    StableHlo.binary main_v261 main_v266 main_v267 (mulf : (⟨S50000x128, .f32⟩ : BufTy).Contents (Elt F) → (⟨S50000x128, .f32⟩ : BufTy).Contents (Elt F) → (⟨S50000x128, .f32⟩ : BufTy).Contents (Elt F)),
    StableHlo.unary main_arg7 main_v268 ((extractStridedSlice S1x128 ![4, 0] · slices_S5x128_S1x128_4_0) : (⟨S5x128, .f32⟩ : BufTy).Contents (Elt F) → (⟨S1x128, .f32⟩ : BufTy).Contents (Elt F)),
    StableHlo.reshape main_v268 main_v269 rfl shapeCasts_S1x128_S128,
    StableHlo.unary main_v269 main_v270 (broadcastInDim S1x128 ![1] bcast_S128_S1x128_1 : (⟨S128, .f32⟩ : BufTy).Contents (Elt F) → (⟨S1x128, .f32⟩ : BufTy).Contents (Elt F)),
    StableHlo.unary main_v270 main_v271 (broadcastInDim S50000x128 ![0, 1] bcast_S1x128_S50000x128_0_1 : (⟨S1x128, .f32⟩ : BufTy).Contents (Elt F) → (⟨S50000x128, .f32⟩ : BufTy).Contents (Elt F)),
    StableHlo.binary main_v267 main_v271 main_v272 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v272 : StableHlo.TRef sig ⟨S50000x128, .f32⟩) main_call9.v0 main_call9.v1 maximumf ]

set_option maxHeartbeats 400000 in
/-- After the fourth stretch the layer's output buffer holds the normalised, scaled, shifted and rectified linear
    buffer. -/
theorem norm4_term (V : Valuation τ sig (Elt Ideal)) :
    (StableHlo.after (normOps4 (F := Ideal)) V (Proc.devRef .tc main_v273) : FVec Ideal S50000x128 .f32)
      = refNorm (V (Proc.devRef .tc main_v249)) (V (Proc.devRef .tc main_v252)) (V (Proc.devRef .tc main_v253)) (sliceB4 (V (Proc.devRef .tc main_arg6))) (sliceB4 (V (Proc.devRef .tc main_arg7))) := by
  show StableHlo.after (normOps4 (F := Ideal)) V (Proc.devRef .tc main_v273) = _
  after_results_simp
  rfl

/-- Layer 4's list is its four stretches in a row. -/
theorem opsL4_split {F : FTy → Type} [FloatOps F] :
    (opsL4 : List (HloOp τ sig (Elt F))) = aggOps4 ++ (linOps4 ++ (statOps4 ++ normOps4)) := rfl

/-- The first stretch leaves what layer 4 does not write. -/
theorem aggOps4_frame (V : Valuation τ sig (Elt Ideal)) {r : Ref sig .tc} (hr : r ∉ wL4) :
    StableHlo.after (aggOps4 (F := Ideal)) V (Proc.devRef .tc r) = V (Proc.devRef .tc r) :=
  after_part (pre := []) (show (opsL4 (F := Ideal)) = [] ++ (aggOps4 ++ (linOps4 ++ (statOps4 ++ normOps4))) from rfl) opsL4_writes V hr
/-- The second stretch leaves what layer 4 does not write. -/
theorem linOps4_frame (V : Valuation τ sig (Elt Ideal)) {r : Ref sig .tc} (hr : r ∉ wL4) :
    StableHlo.after (linOps4 (F := Ideal)) V (Proc.devRef .tc r) = V (Proc.devRef .tc r) :=
  after_part (show (opsL4 (F := Ideal)) = aggOps4 ++ (linOps4 ++ (statOps4 ++ normOps4)) from rfl) opsL4_writes V hr
/-- The third stretch leaves what layer 4 does not write. -/
theorem statOps4_frame (V : Valuation τ sig (Elt Ideal)) {r : Ref sig .tc} (hr : r ∉ wL4) :
    StableHlo.after (statOps4 (F := Ideal)) V (Proc.devRef .tc r) = V (Proc.devRef .tc r) :=
  after_part (show (opsL4 (F := Ideal)) = (aggOps4 ++ linOps4) ++ (statOps4 ++ normOps4) from rfl) opsL4_writes V hr

set_option maxHeartbeats 400000 in
/-- The third stretch does not write the linear buffer. -/
theorem stat4_lin (V : Valuation τ sig (Elt Ideal)) :
    StableHlo.after (statOps4 (F := Ideal)) V (Proc.devRef .tc main_v249) = V (Proc.devRef .tc main_v249) := by
  after_results_simp

set_option maxHeartbeats 400000 in
/-- LAYER 4'S TERM. Run from any buffer contents `W`, layer 4's stretch leaves in its output buffer the reference's
    layer function of: the aggregated messages of the layer's input, the edge weights and the edges' source and target
    vectors (as layer 0 left them); the layer's input; and row 4 of each of the six parameter tables — all as `W` holds them. -/
theorem layer4_term (W : Valuation τ sig (Elt Ideal)) :
    (StableHlo.after (opsL4 (F := Ideal)) W (Proc.devRef .tc main_v273) : FVec Ideal S50000x128 .f32)
      = refLayer (aggOf (F := Ideal) (W (Proc.devRef .tc main_v219)) (W (Proc.devRef .tc main_arg1)) (W (Proc.devRef .tc main_v1)) (W (Proc.devRef .tc main_v3)))
          (W (Proc.devRef .tc main_v219))
          (sliceW4 (W (Proc.devRef .tc main_arg2))) (sliceW4 (W (Proc.devRef .tc main_arg4)))
          (sliceB4 (W (Proc.devRef .tc main_arg3))) (sliceB4 (W (Proc.devRef .tc main_arg5)))
          (sliceB4 (W (Proc.devRef .tc main_arg6))) (sliceB4 (W (Proc.devRef .tc main_arg7))) := by
  show StableHlo.after (opsL4 (F := Ideal)) W (Proc.devRef .tc main_v273) = _
  rw [opsL4_split, StableHlo.after_append, StableHlo.after_append, StableHlo.after_append, refLayer_eq,
    norm4_term, mean4_term, var4_term, stat4_lin,
    statOps4_frame _ (r := main_arg6) (by decide), statOps4_frame _ (r := main_arg7) (by decide),
    lin4_term,
    linOps4_frame _ (r := main_arg6) (by decide), linOps4_frame _ (r := main_arg7) (by decide),
    agg4_term,
    aggOps4_frame _ (r := main_v219) (by decide), aggOps4_frame _ (r := main_arg2) (by decide), aggOps4_frame _ (r := main_arg3) (by decide), aggOps4_frame _ (r := main_arg4) (by decide), aggOps4_frame _ (r := main_arg5) (by decide), aggOps4_frame _ (r := main_arg6) (by decide), aggOps4_frame _ (r := main_arg7) (by decide)]

/-! ## What a layer does not write -/

/-- Layer 0 leaves a reference it does not write as it found it (the program's arguments). -/
theorem opsL0_keeps (W : Valuation τ sig (Elt Ideal)) {r : Ref sig .tc} (hr : r ∉ wL0) :
    StableHlo.after (opsL0 (F := Ideal)) W (Proc.devRef .tc r) = W (Proc.devRef .tc r) :=
  after_of_writes_sub opsL0 W opsL0_writes hr

/-- Layer 1 leaves a reference it does not write as it found it (the program's arguments, the earlier layers' outputs, the two
    edge vectors). -/
theorem opsL1_keeps (W : Valuation τ sig (Elt Ideal)) {r : Ref sig .tc} (hr : r ∉ wL1) :
    StableHlo.after (opsL1 (F := Ideal)) W (Proc.devRef .tc r) = W (Proc.devRef .tc r) :=
  after_of_writes_sub opsL1 W opsL1_writes hr

/-- Layer 2 leaves a reference it does not write as it found it (the program's arguments, the earlier layers' outputs, the two
    edge vectors). -/
theorem opsL2_keeps (W : Valuation τ sig (Elt Ideal)) {r : Ref sig .tc} (hr : r ∉ wL2) :
    StableHlo.after (opsL2 (F := Ideal)) W (Proc.devRef .tc r) = W (Proc.devRef .tc r) :=
  after_of_writes_sub opsL2 W opsL2_writes hr

/-- Layer 3 leaves a reference it does not write as it found it (the program's arguments, the earlier layers' outputs, the two
    edge vectors). -/
theorem opsL3_keeps (W : Valuation τ sig (Elt Ideal)) {r : Ref sig .tc} (hr : r ∉ wL3) :
    StableHlo.after (opsL3 (F := Ideal)) W (Proc.devRef .tc r) = W (Proc.devRef .tc r) :=
  after_of_writes_sub opsL3 W opsL3_writes hr

/-- Layer 4 leaves a reference it does not write as it found it (the program's arguments, the earlier layers' outputs, the two
    edge vectors). -/
theorem opsL4_keeps (W : Valuation τ sig (Elt Ideal)) {r : Ref sig .tc} (hr : r ∉ wL4) :
    StableHlo.after (opsL4 (F := Ideal)) W (Proc.devRef .tc r) = W (Proc.devRef .tc r) :=
  after_of_writes_sub opsL4 W opsL4_writes hr

/-- Layer 1 leaves the edges' source vector and target vector as layer 0 left them. -/
theorem opsL1_keeps_src (W : Valuation τ sig (Elt Ideal)) :
    StableHlo.after (opsL1 (F := Ideal)) W (Proc.devRef .tc main_v1) = W (Proc.devRef .tc main_v1) := opsL1_keeps W (by decide)
theorem opsL1_keeps_dst (W : Valuation τ sig (Elt Ideal)) :
    StableHlo.after (opsL1 (F := Ideal)) W (Proc.devRef .tc main_v3) = W (Proc.devRef .tc main_v3) := opsL1_keeps W (by decide)

/-- Layer 2 leaves the edges' source vector and target vector as layer 0 left them. -/
theorem opsL2_keeps_src (W : Valuation τ sig (Elt Ideal)) :
    StableHlo.after (opsL2 (F := Ideal)) W (Proc.devRef .tc main_v1) = W (Proc.devRef .tc main_v1) := opsL2_keeps W (by decide)
theorem opsL2_keeps_dst (W : Valuation τ sig (Elt Ideal)) :
    StableHlo.after (opsL2 (F := Ideal)) W (Proc.devRef .tc main_v3) = W (Proc.devRef .tc main_v3) := opsL2_keeps W (by decide)

/-- Layer 3 leaves the edges' source vector and target vector as layer 0 left them. -/
theorem opsL3_keeps_src (W : Valuation τ sig (Elt Ideal)) :
    StableHlo.after (opsL3 (F := Ideal)) W (Proc.devRef .tc main_v1) = W (Proc.devRef .tc main_v1) := opsL3_keeps W (by decide)
theorem opsL3_keeps_dst (W : Valuation τ sig (Elt Ideal)) :
    StableHlo.after (opsL3 (F := Ideal)) W (Proc.devRef .tc main_v3) = W (Proc.devRef .tc main_v3) := opsL3_keeps W (by decide)

/-- Layer 4 leaves the edges' source vector and target vector as layer 0 left them. -/
theorem opsL4_keeps_src (W : Valuation τ sig (Elt Ideal)) :
    StableHlo.after (opsL4 (F := Ideal)) W (Proc.devRef .tc main_v1) = W (Proc.devRef .tc main_v1) := opsL4_keeps W (by decide)
theorem opsL4_keeps_dst (W : Valuation τ sig (Elt Ideal)) :
    StableHlo.after (opsL4 (F := Ideal)) W (Proc.devRef .tc main_v3) = W (Proc.devRef .tc main_v3) := opsL4_keeps W (by decide)

end Cert.ReferenceIdeal.LayerTerm

end
-- ==== Proof.Ref.Chain.lean ====
/-
  The reference's five layers and its result, over the launch memory.

  Each of the six lists of operations has been read as one term of what the buffers held before it; the chain of the
  lists (Ref/ChainBase.lean) turns those terms into statements about the launch memory alone. Layer l's output at
  (i, j) is the specification's layer — with the variance in its centred form — of the previous layer's output, the
  edge weights, sources and targets, and the stacked parameters at first coordinate l; the result is the tail function
  of the last layer's output and the three integer arguments.
-/
import proofs.«162849_j29643864277577_1_alg».proof.Proof.Ref.ChainBase
import proofs.«162849_j29643864277577_1_alg».proof.Proof.Ref.LayerTerm
import proofs.«162849_j29643864277577_1_alg».proof.Proof.Ref.Tail

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.RefValue
open Cert.Proof.HostFinite (aggOf matOf)

variable (m : (ℓ : Loc nD τ sig) → Buf (Elt Ideal) ℓ) (c : Dev nD)

/-- Layer 0 of the reference at (i, j). -/
theorem chainR0 (i : Fin 50000) (j : Fin 128) :
    hR1 m c (ix2 i j)
      = Cert.Spec.layerCtr (matOf (aggOf (hR0 m c) (argEa m c) (srcOf (argEdge m c)) (dstOf (argEdge m c)))) (matOf (hR0 m c))
          (wtAt (argWrel m c) (0 : Fin 5)) (wtAt (argWroot m c) (0 : Fin 5)) (rowAt (argBrel m c) (0 : Fin 5))
          (rowAt (argBroot m c) (0 : Fin 5)) (rowAt (argGamma m c) (0 : Fin 5)) (rowAt (argBeta m c) (0 : Fin 5)) i j :=
  chainR0_of m c Cert.ReferenceIdeal.LayerTerm.layer0_term i j

/-- Layer 1 of the reference at (i, j). -/
theorem chainR1 (i : Fin 50000) (j : Fin 128) :
    hR2 m c (ix2 i j)
      = Cert.Spec.layerCtr (matOf (aggOf (hR1 m c) (argEa m c) (srcOf (argEdge m c)) (dstOf (argEdge m c)))) (matOf (hR1 m c))
          (wtAt (argWrel m c) (1 : Fin 5)) (wtAt (argWroot m c) (1 : Fin 5)) (rowAt (argBrel m c) (1 : Fin 5))
          (rowAt (argBroot m c) (1 : Fin 5)) (rowAt (argGamma m c) (1 : Fin 5)) (rowAt (argBeta m c) (1 : Fin 5)) i j :=
  chainR1_of m c Cert.ReferenceIdeal.LayerTerm.layer1_term i j

/-- Layer 2 of the reference at (i, j). -/
theorem chainR2 (i : Fin 50000) (j : Fin 128) :
    hR3 m c (ix2 i j)
      = Cert.Spec.layerCtr (matOf (aggOf (hR2 m c) (argEa m c) (srcOf (argEdge m c)) (dstOf (argEdge m c)))) (matOf (hR2 m c))
          (wtAt (argWrel m c) (2 : Fin 5)) (wtAt (argWroot m c) (2 : Fin 5)) (rowAt (argBrel m c) (2 : Fin 5))
          (rowAt (argBroot m c) (2 : Fin 5)) (rowAt (argGamma m c) (2 : Fin 5)) (rowAt (argBeta m c) (2 : Fin 5)) i j :=
  chainR2_of m c Cert.ReferenceIdeal.LayerTerm.layer2_term i j

/-- Layer 3 of the reference at (i, j). -/
theorem chainR3 (i : Fin 50000) (j : Fin 128) :
    hR4 m c (ix2 i j)
      = Cert.Spec.layerCtr (matOf (aggOf (hR3 m c) (argEa m c) (srcOf (argEdge m c)) (dstOf (argEdge m c)))) (matOf (hR3 m c))
          (wtAt (argWrel m c) (3 : Fin 5)) (wtAt (argWroot m c) (3 : Fin 5)) (rowAt (argBrel m c) (3 : Fin 5))
          (rowAt (argBroot m c) (3 : Fin 5)) (rowAt (argGamma m c) (3 : Fin 5)) (rowAt (argBeta m c) (3 : Fin 5)) i j :=
  chainR3_of m c Cert.ReferenceIdeal.LayerTerm.layer3_term i j

/-- Layer 4 of the reference at (i, j). -/
theorem chainR4 (i : Fin 50000) (j : Fin 128) :
    hR5 m c (ix2 i j)
      = Cert.Spec.layerCtr (matOf (aggOf (hR4 m c) (argEa m c) (srcOf (argEdge m c)) (dstOf (argEdge m c)))) (matOf (hR4 m c))
          (wtAt (argWrel m c) (4 : Fin 5)) (wtAt (argWroot m c) (4 : Fin 5)) (rowAt (argBrel m c) (4 : Fin 5))
          (rowAt (argBroot m c) (4 : Fin 5)) (rowAt (argGamma m c) (4 : Fin 5)) (rowAt (argBeta m c) (4 : Fin 5)) i j :=
  chainR4_of m c Cert.ReferenceIdeal.LayerTerm.layer4_term i j

/-- The result of the reference. -/
theorem resR :
    (U6 m c (Proc.devRef .tc main_v296) : FVec Ideal S2560x128 .f32)
      = Cert.ReferenceIdeal.Tail.tailFnR (F := Ideal) (hR5 m c) (m ((c.tc : Thread nD τ).loc main_arg9))
          (m ((c.tc : Thread nD τ).loc main_arg10)) (m ((c.tc : Thread nD τ).loc main_arg11)) :=
  resR_of m c (Cert.ReferenceIdeal.Tail.tailFnR (F := Ideal)) Cert.ReferenceIdeal.Tail.tailR_term

end Cert.ReferenceIdeal.Hand

end
-- ==== Proof.Final.lean ====
/-
  The two programs compute the same result.

  Both programs run five layers and then pool. On each side the node features after layer l + 1 are, entry by entry,
  the specification's layer of the features after layer l, of the aggregated messages formed from them, and of layer
  l's slice of the stacked parameters: the kernel with the batch variance as the mean of squares minus the squared
  mean, the reference with it as the mean of centred squares. The launch memories hold the same twelve arguments, and
  the eight float arguments are arrays of reals. So the two chains start from one real array and read the same real
  parameters; on real data the two forms of the variance agree and a layer's output is real again; after five layers
  the features are one array. The result is the pooled output of that array and of the three integer arguments, by one
  pooling function on both sides: the results are equal.
-/
import proofs.«162849_j29643864277577_1_alg».proof.Proof.Math.Step
import proofs.«162849_j29643864277577_1_alg».proof.Proof.Math.ParamFinite
import proofs.«162849_j29643864277577_1_alg».proof.Proof.Math.TailEq
import proofs.«162849_j29643864277577_1_alg».proof.Proof.KI.Chain
import proofs.«162849_j29643864277577_1_alg».proof.Proof.Ref.Chain
import proofs.«162849_j29643864277577_1_alg».proof.Defs
import Idealize.ShloMosaic.Lib.ValueIdx

noncomputable section

namespace Cert.Proof.Final

open Idealize.ShloMosaic Idealize.SL.Sem Idealize.ShloMosaic.ValueIdx
open Cert.Spec Cert.Proof.HostFinite Cert.Proof.Step Cert.Proof.ParamFinite
open Cert.KernelIdeal (S50000x128 S600000)
open Cert.KernelIdeal.Hand Cert.ReferenceIdeal.Hand

/-- The kernel program's launch memory and the reference's. -/
abbrev MemK : Type := (ℓ : Loc Cert.KernelIdeal.nD Cert.KernelIdeal.τ Cert.KernelIdeal.sig) → Buf (Elt Ideal) ℓ
abbrev MemR : Type := (ℓ : Loc Cert.ReferenceIdeal.nD Cert.ReferenceIdeal.τ Cert.ReferenceIdeal.sig) → Buf (Elt Ideal) ℓ

/-- The two memories hold the same twelve argument arrays on every device. -/
abbrev Agree (m : MemK) (m' : MemR) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

/-! ## Five layers, over any arrays -/

/-- FIVE LAYERS. Two chains of six node-feature arrays, each array the layer of the one before it — the first chain
    with the variance as mean of squares minus squared mean, the second with it as mean of centred squares — over edge
    weights, edge endpoints and per-layer parameters that are the same on the two sides. If the two chains start from
    the same array of reals and the edge weights and every layer's parameters are real, they end at the same array: one
    layer at a time, equal real inputs giving equal real outputs. -/
theorem layers_agree_of
    {xK0 xK1 xK2 xK3 xK4 xK5 xR0 xR1 xR2 xR3 xR4 xR5 : FVec Ideal S50000x128 .f32}
    {eaK eaR : FVec Ideal S600000 .f32} {srcK srcR dstK dstR : IVec S600000 32}
    {WrK WrR WoK WoR : Fin 5 → Wt} {brK brR boK boR gK gR bK bR : Fin 5 → Row}
    (eEa : eaR = eaK) (eSrc : srcR = srcK) (eDst : dstR = dstK)
    (eWr : WrR = WrK) (eWo : WoR = WoK) (eBr : brR = brK) (eBo : boR = boK) (eG : gR = gK) (eB : bR = bK)
    (h0 : xK0 = xR0) (hfin : ArrFinite xK0) (hea : ArrFinite eaK)
    (hWr : ∀ l, WtFinite (WrK l)) (hWo : ∀ l, WtFinite (WoK l)) (hbr : ∀ l, RowFinite (brK l)) (hbo : ∀ l, RowFinite (boK l))
    (hg : ∀ l, RowFinite (gK l)) (hb : ∀ l, RowFinite (bK l))
    (cK0 : ∀ (i : Fin 50000) (j : Fin 128), xK1 (ix2 i j) = layerSq (matOf (aggOf xK0 eaK srcK dstK)) (matOf xK0) (WrK 0) (WoK 0) (brK 0) (boK 0) (gK 0) (bK 0) i j)
    (cK1 : ∀ (i : Fin 50000) (j : Fin 128), xK2 (ix2 i j) = layerSq (matOf (aggOf xK1 eaK srcK dstK)) (matOf xK1) (WrK 1) (WoK 1) (brK 1) (boK 1) (gK 1) (bK 1) i j)
    (cK2 : ∀ (i : Fin 50000) (j : Fin 128), xK3 (ix2 i j) = layerSq (matOf (aggOf xK2 eaK srcK dstK)) (matOf xK2) (WrK 2) (WoK 2) (brK 2) (boK 2) (gK 2) (bK 2) i j)
    (cK3 : ∀ (i : Fin 50000) (j : Fin 128), xK4 (ix2 i j) = layerSq (matOf (aggOf xK3 eaK srcK dstK)) (matOf xK3) (WrK 3) (WoK 3) (brK 3) (boK 3) (gK 3) (bK 3) i j)
    (cK4 : ∀ (i : Fin 50000) (j : Fin 128), xK5 (ix2 i j) = layerSq (matOf (aggOf xK4 eaK srcK dstK)) (matOf xK4) (WrK 4) (WoK 4) (brK 4) (boK 4) (gK 4) (bK 4) i j)
    (cR0 : ∀ (i : Fin 50000) (j : Fin 128), xR1 (ix2 i j) = layerCtr (matOf (aggOf xR0 eaR srcR dstR)) (matOf xR0) (WrR 0) (WoR 0) (brR 0) (boR 0) (gR 0) (bR 0) i j)
    (cR1 : ∀ (i : Fin 50000) (j : Fin 128), xR2 (ix2 i j) = layerCtr (matOf (aggOf xR1 eaR srcR dstR)) (matOf xR1) (WrR 1) (WoR 1) (brR 1) (boR 1) (gR 1) (bR 1) i j)
    (cR2 : ∀ (i : Fin 50000) (j : Fin 128), xR3 (ix2 i j) = layerCtr (matOf (aggOf xR2 eaR srcR dstR)) (matOf xR2) (WrR 2) (WoR 2) (brR 2) (boR 2) (gR 2) (bR 2) i j)
    (cR3 : ∀ (i : Fin 50000) (j : Fin 128), xR4 (ix2 i j) = layerCtr (matOf (aggOf xR3 eaR srcR dstR)) (matOf xR3) (WrR 3) (WoR 3) (brR 3) (boR 3) (gR 3) (bR 3) i j)
    (cR4 : ∀ (i : Fin 50000) (j : Fin 128), xR5 (ix2 i j) = layerCtr (matOf (aggOf xR4 eaR srcR dstR)) (matOf xR4) (WrR 4) (WoR 4) (brR 4) (boR 4) (gR 4) (bR 4) i j) :
    xK5 = xR5 := by
  subst eEa eSrc eDst eWr eWo eBr eBo eG eB
  obtain ⟨e1, f1⟩ := step_agree h0 hfin hea (hWr 0) (hWo 0) (hbr 0) (hbo 0) (hg 0) (hb 0) cK0 cR0
  obtain ⟨e2, f2⟩ := step_agree e1 f1 hea (hWr 1) (hWo 1) (hbr 1) (hbo 1) (hg 1) (hb 1) cK1 cR1
  obtain ⟨e3, f3⟩ := step_agree e2 f2 hea (hWr 2) (hWo 2) (hbr 2) (hbo 2) (hg 2) (hb 2) cK2 cR2
  obtain ⟨e4, f4⟩ := step_agree e3 f3 hea (hWr 3) (hWo 3) (hbr 3) (hbo 3) (hg 3) (hb 3) cK3 cR3
  exact (step_agree e4 f4 hea (hWr 4) (hWo 4) (hbr 4) (hbo 4) (hg 4) (hb 4) cK4 cR4).1

section Claim

variable (m : MemK) (ρ : Dev Cert.KernelIdeal.nD → PrngReg) (m' : MemR)

/-- THE LAST LAYER'S OUTPUT IS THE SAME ARRAY in the two programs, on every device, from launch memories that hold
    the same arguments, every float argument an array of reals. The reference's edge weights, edge endpoints and
    per-layer parameters are the kernel's because the argument arrays are; the two chains start from the one array of
    node features, which is real; then five layers. -/
theorem layers_agree (hpre : Cert.Pre_KernelIdeal m) (hagree : Agree m m') (c : Dev Cert.KernelIdeal.nD) :
    hK5 m ρ c = hR5 m' c := by
  obtain ⟨a0, a1, a2, a3, a4, a5, a6, a7, a8, -⟩ := hagree c
  obtain ⟨f0, f1, f2, f3, f4, f5, f6, f7⟩ := pre_finite m hpre c
  have eEa : argEa m' c = eaK m c := a1
  have eEdge : argEdge m' c = m ((c.tc : Thread Cert.KernelIdeal.nD Cert.KernelIdeal.τ).loc Cert.KernelIdeal.main_arg8) := a8
  have eSrc : Cert.ReferenceIdeal.RefValue.srcOf (argEdge m' c) = srcK m c := by rw [eEdge]; rfl
  have eDst : Cert.ReferenceIdeal.RefValue.dstOf (argEdge m' c) = dstK m c := by rw [eEdge]; rfl
  have eW2 : argWrel m' c = m ((c.tc : Thread Cert.KernelIdeal.nD Cert.KernelIdeal.τ).loc Cert.KernelIdeal.main_arg2) := a2
  have eW3 : argBrel m' c = m ((c.tc : Thread Cert.KernelIdeal.nD Cert.KernelIdeal.τ).loc Cert.KernelIdeal.main_arg3) := a3
  have eW4 : argWroot m' c = m ((c.tc : Thread Cert.KernelIdeal.nD Cert.KernelIdeal.τ).loc Cert.KernelIdeal.main_arg4) := a4
  have eW5 : argBroot m' c = m ((c.tc : Thread Cert.KernelIdeal.nD Cert.KernelIdeal.τ).loc Cert.KernelIdeal.main_arg5) := a5
  have eW6 : argGamma m' c = m ((c.tc : Thread Cert.KernelIdeal.nD Cert.KernelIdeal.τ).loc Cert.KernelIdeal.main_arg6) := a6
  have eW7 : argBeta m' c = m ((c.tc : Thread Cert.KernelIdeal.nD Cert.KernelIdeal.τ).loc Cert.KernelIdeal.main_arg7) := a7
  exact layers_agree_of
    (xK0 := hK0 m c) (xK1 := hK1 m ρ c) (xK2 := hK2 m ρ c) (xK3 := hK3 m ρ c) (xK4 := hK4 m ρ c) (xK5 := hK5 m ρ c)
    (xR0 := hR0 m' c) (xR1 := hR1 m' c) (xR2 := hR2 m' c) (xR3 := hR3 m' c) (xR4 := hR4 m' c) (xR5 := hR5 m' c)
    (eaK := eaK m c) (eaR := argEa m' c) (srcK := srcK m c) (srcR := Cert.ReferenceIdeal.RefValue.srcOf (argEdge m' c))
    (dstK := dstK m c) (dstR := Cert.ReferenceIdeal.RefValue.dstOf (argEdge m' c))
    (WrK := WrK m c) (WrR := fun l => wtAt (argWrel m' c) l) (WoK := WoK m c) (WoR := fun l => wtAt (argWroot m' c) l)
    (brK := brK m c) (brR := fun l => rowAt (argBrel m' c) l) (boK := boK m c) (boR := fun l => rowAt (argBroot m' c) l)
    (gK := gK m c) (gR := fun l => rowAt (argGamma m' c) l) (bK := bK m c) (bR := fun l => rowAt (argBeta m' c) l)
    eEa eSrc eDst
    (by rw [eW2]) (by rw [eW4]) (by rw [eW3]) (by rw [eW5]) (by rw [eW6]) (by rw [eW7])
    a0.symm f0 f1
    (fun l => wt_slice_finite _ f2 l) (fun l => wt_slice_finite _ f4 l) (fun l => row_slice_finite _ f3 l)
    (fun l => row_slice_finite _ f5 l) (fun l => row_slice_finite _ f6 l) (fun l => row_slice_finite _ f7 l)
    (chainK0 m ρ c) (chainK1 m ρ c) (chainK2 m ρ c) (chainK3 m ρ c) (chainK4 m ρ c)
    (chainR0 m' c) (chainR1 m' c) (chainR2 m' c) (chainR3 m' c) (chainR4 m' c)

/-- THE RESULT ARRAYS ARE EQUAL, on every device: each is the pooled output of its program's last layer and of the
    three integer arguments; the two pooling functions are one function, the last layers' outputs one array, and the
    integer arguments the same. -/
theorem result_agree (hpre : Cert.Pre_KernelIdeal m) (hagree : Agree m m') (c : Dev Cert.KernelIdeal.nD) :
    Cert.ReferenceIdeal.Hand.U6 m' c (Proc.devRef .tc Cert.ReferenceIdeal.main_v296) = Cert.KernelIdeal.Hand.W23 m ρ c (Proc.devRef .tc Cert.KernelIdeal.main_v181) := by
  obtain ⟨-, -, -, -, -, -, -, -, -, a9, a10, a11⟩ := hagree c
  rw [resR m' c, resK m ρ c, Cert.TailEq.tail_eq_ideal, layers_agree m ρ m' hpre hagree c, a9, a10, a11]

end Claim

end Cert.Proof.Final

end
-- ==== Proof.lean ====
/-
  The certificate: a five-layer graph network with batch normalisation, computed by kernels, against its plain
  reference.

  WHAT THE PROGRAMS COMPUTE. There are 50000 nodes with 128 features each and 600000 weighted edges. A layer first
  forms, for every node, the sum over its incoming edges of the source node's features times the edge weight. It
  then takes the linear map  lin = agg · W_rel + b_rel + h · W_root + b_root,  normalises every feature column of
  lin by that column's mean and variance over the 50000 nodes,

      out = max (γ · (lin − mean) · rsqrt (var + ε) + β, 0) ,

  and hands out to the next layer as h. After five layers the rows are averaged over subgraph slots: each node's
  slot is its group's offset (a running sum of group sizes) plus its position in the group, and a slot's output is
  the sum of its rows over their number, the number bounded below by one.

  The kernel program computes each layer with two kernels. The first walks the 50000 rows in ten tiles of 5000: on
  each tile it forms lin and stores it, and adds the tile's column sums of lin and of lin² into two running rows,
  cleared at the first tile; at the last tile it stores  mean = Σ lin / 50000  and  var = Σ lin² / 50000 − mean².
  The second kernel walks the same ten tiles and applies the normalisation, scale, shift and maximum. The reference
  does the same with whole-array operations, and takes the variance as the mean of the centred squares,
  Σ (lin − mean)² / 50000.

  WHY THE TWO AGREE ON THE EXTENDED REALS. Ten tile sums of 5000 rows are the sum of the 50000 rows, whatever the
  values: row t · 5000 + r is row r of tile t. The two forms of the variance are a different matter: with μ = Σx / N,

      Σ (x − μ)² / N  =  Σ x² / N − μ²

  is an identity of real numbers (expand the square and use N · (1/N) = 1), and it fails once an infinity enters, where
  ∞ − ∞ is not a number. The hypothesis that every float input is finite is what makes it hold: sums, products and
  differences of real numbers are real, so lin is real at every entry; its mean and both variances are then real
  and equal; the centred form is a sum of squares over 50000, hence nonnegative, so var + ε is a positive real and
  its reciprocal square root is a real number; and the layer's output is real again. By induction over the five
  layers, with the edge sums of real features by real weights real as well, each layer of the kernel program and of
  the reference holds the same real matrix. The pooling tail is the same chain of operations in both programs, so it
  sends equal matrices to equal results.

  WHAT IS CLAIMED. Each of the three programs (the kernels as printed on float words, the same text read on the
  extended reals, the reference on the extended reals) runs to the end from any memory whose float inputs are finite
  and leaves its twelve argument arrays as they were; reading the kernels' text on the extended reals rewrote no
  operation; and from memories that agree on the arguments the two extended-real programs end with equal results.
-/
import proofs.«162849_j29643864277577_1_alg».proof.Defs
import proofs.«162849_j29643864277577_1_alg».proof.Proof.Gen.Kernel
import proofs.«162849_j29643864277577_1_alg».proof.Proof.Gen.KernelIdeal
import proofs.«162849_j29643864277577_1_alg».proof.Proof.Gen.ReferenceIdeal
import proofs.«162849_j29643864277577_1_alg».proof.Proof.Gen.Pre_finite_inputs
import proofs.«162849_j29643864277577_1_alg».proof.Proof.Ref.Run
import proofs.«162849_j29643864277577_1_alg».proof.Proof.KI.Run
import proofs.«162849_j29643864277577_1_alg».proof.Proof.K.Run
import proofs.«162849_j29643864277577_1_alg».proof.Proof.Final
import Idealize.ShloMosaic.Lib.Pipeline.Frame
import Idealize.ShloMosaic.Adequacy
import Idealize.ShloMosaic.Init

noncomputable section

namespace Cert.Proof

open Idealize.ShloMosaic Idealize.SL.Sem

/-! ## The reference runs and keeps its arguments -/

/-- The reference is a straight line of host operations: it terminates with every buffer at the contents the
    operations compute from the launch contents, and no operation writes an argument. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun r h c =>
    ⟨(h c Cert.ReferenceIdeal.main_arg0).trans (Cert.ReferenceIdeal.Hand.U6_main_arg0 m c),
     (h c Cert.ReferenceIdeal.main_arg1).trans (Cert.ReferenceIdeal.Hand.U6_main_arg1 m c),
     (h c Cert.ReferenceIdeal.main_arg2).trans (Cert.ReferenceIdeal.Hand.U6_main_arg2 m c),
     (h c Cert.ReferenceIdeal.main_arg3).trans (Cert.ReferenceIdeal.Hand.U6_main_arg3 m c),
     (h c Cert.ReferenceIdeal.main_arg4).trans (Cert.ReferenceIdeal.Hand.U6_main_arg4 m c),
     (h c Cert.ReferenceIdeal.main_arg5).trans (Cert.ReferenceIdeal.Hand.U6_main_arg5 m c),
     (h c Cert.ReferenceIdeal.main_arg6).trans (Cert.ReferenceIdeal.Hand.U6_main_arg6 m c),
     (h c Cert.ReferenceIdeal.main_arg7).trans (Cert.ReferenceIdeal.Hand.U6_main_arg7 m c),
     (h c Cert.ReferenceIdeal.main_arg8).trans (Cert.ReferenceIdeal.Hand.U6_main_arg8 m c),
     (h c Cert.ReferenceIdeal.main_arg9).trans (Cert.ReferenceIdeal.Hand.U6_main_arg9 m c),
     (h c Cert.ReferenceIdeal.main_arg10).trans (Cert.ReferenceIdeal.Hand.U6_main_arg10 m c),
     (h c Cert.ReferenceIdeal.main_arg11).trans (Cert.ReferenceIdeal.Hand.U6_main_arg11 m c)⟩)
    (Cert.ReferenceIdeal.Hand.run (F := Ideal) m ρ)

/-! ## The kernel program on the extended reals runs and keeps its arguments -/

/-- Every unscoped buffer ends at the last boundary's contents, and an argument's contents there are the launch's:
    no host stretch writes an argument and a kernel only reads it. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.W23_main_arg0 m ρ c),
     (h c _ (Cert.KernelIdeal.Hand.mem_uc Cert.KernelIdeal.main_arg1 (by decide))).trans (Cert.KernelIdeal.Hand.W23_main_arg1 m ρ c),
     (h c _ (Cert.KernelIdeal.Hand.mem_uc Cert.KernelIdeal.main_arg2 (by decide))).trans (Cert.KernelIdeal.Hand.W23_main_arg2 m ρ c),
     (h c _ (Cert.KernelIdeal.Hand.mem_uc Cert.KernelIdeal.main_arg3 (by decide))).trans (Cert.KernelIdeal.Hand.W23_main_arg3 m ρ c),
     (h c _ (Cert.KernelIdeal.Hand.mem_uc Cert.KernelIdeal.main_arg4 (by decide))).trans (Cert.KernelIdeal.Hand.W23_main_arg4 m ρ c),
     (h c _ (Cert.KernelIdeal.Hand.mem_uc Cert.KernelIdeal.main_arg5 (by decide))).trans (Cert.KernelIdeal.Hand.W23_main_arg5 m ρ c),
     (h c _ (Cert.KernelIdeal.Hand.mem_uc Cert.KernelIdeal.main_arg6 (by decide))).trans (Cert.KernelIdeal.Hand.W23_main_arg6 m ρ c),
     (h c _ (Cert.KernelIdeal.Hand.mem_uc Cert.KernelIdeal.main_arg7 (by decide))).trans (Cert.KernelIdeal.Hand.W23_main_arg7 m ρ c),
     (h c _ (Cert.KernelIdeal.Hand.mem_uc Cert.KernelIdeal.main_arg8 (by decide))).trans (Cert.KernelIdeal.Hand.W23_main_arg8 m ρ c),
     (h c _ (Cert.KernelIdeal.Hand.mem_uc Cert.KernelIdeal.main_arg9 (by decide))).trans (Cert.KernelIdeal.Hand.W23_main_arg9 m ρ c),
     (h c _ (Cert.KernelIdeal.Hand.mem_uc Cert.KernelIdeal.main_arg10 (by decide))).trans (Cert.KernelIdeal.Hand.W23_main_arg10 m ρ c),
     (h c _ (Cert.KernelIdeal.Hand.mem_uc Cert.KernelIdeal.main_arg11 (by decide))).trans (Cert.KernelIdeal.Hand.W23_main_arg11 m ρ c)⟩)
    (Cert.KernelIdeal.Hand.run_all m ρ)

/-! ## The kernel program on float words runs and keeps its arguments -/

/-- The same run, read on float words: termination and the arguments' contents do not depend on the values. -/
theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.W23_main_arg0 m ρ c),
     (h c _ (Cert.Kernel.Hand.mem_uc Cert.Kernel.main_arg1 (by decide))).trans (Cert.Kernel.Hand.W23_main_arg1 m ρ c),
     (h c _ (Cert.Kernel.Hand.mem_uc Cert.Kernel.main_arg2 (by decide))).trans (Cert.Kernel.Hand.W23_main_arg2 m ρ c),
     (h c _ (Cert.Kernel.Hand.mem_uc Cert.Kernel.main_arg3 (by decide))).trans (Cert.Kernel.Hand.W23_main_arg3 m ρ c),
     (h c _ (Cert.Kernel.Hand.mem_uc Cert.Kernel.main_arg4 (by decide))).trans (Cert.Kernel.Hand.W23_main_arg4 m ρ c),
     (h c _ (Cert.Kernel.Hand.mem_uc Cert.Kernel.main_arg5 (by decide))).trans (Cert.Kernel.Hand.W23_main_arg5 m ρ c),
     (h c _ (Cert.Kernel.Hand.mem_uc Cert.Kernel.main_arg6 (by decide))).trans (Cert.Kernel.Hand.W23_main_arg6 m ρ c),
     (h c _ (Cert.Kernel.Hand.mem_uc Cert.Kernel.main_arg7 (by decide))).trans (Cert.Kernel.Hand.W23_main_arg7 m ρ c),
     (h c _ (Cert.Kernel.Hand.mem_uc Cert.Kernel.main_arg8 (by decide))).trans (Cert.Kernel.Hand.W23_main_arg8 m ρ c),
     (h c _ (Cert.Kernel.Hand.mem_uc Cert.Kernel.main_arg9 (by decide))).trans (Cert.Kernel.Hand.W23_main_arg9 m ρ c),
     (h c _ (Cert.Kernel.Hand.mem_uc Cert.Kernel.main_arg10 (by decide))).trans (Cert.Kernel.Hand.W23_main_arg10 m ρ c),
     (h c _ (Cert.Kernel.Hand.mem_uc Cert.Kernel.main_arg11 (by decide))).trans (Cert.Kernel.Hand.W23_main_arg11 m ρ c)⟩)
    (Cert.Kernel.Hand.run_all m ρ)

/-! ## Reading the kernels' text on the extended reals rewrote nothing -/

theorem preserves : Cert.preserves_Kernel_KernelIdeal := trivial

/-! ## Equal results on the extended reals -/

/-- The common result is what the kernel program's last boundary holds in its result buffer: the kernel program
    ends there by its run, and the reference's result buffer holds the same array because, the inputs being finite
    and equal, every layer of the two programs is the same real matrix and the pooling tail is one function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.W23 m ρ c (Proc.devRef .tc Cert.KernelIdeal.main_v181), ?_, ?_⟩
  · exact (θ_run Cert.KernelIdeal.defs _ _).mono (fun r h c =>
      ⟨h c _ (Cert.KernelIdeal.Hand.mem_uc Cert.KernelIdeal.main_v181 (by decide)),
       (h c _ (Cert.KernelIdeal.Hand.mem_uc Cert.KernelIdeal.main_arg0 (by decide))).trans (Cert.KernelIdeal.Hand.W23_main_arg0 m ρ c),
       (h c _ (Cert.KernelIdeal.Hand.mem_uc Cert.KernelIdeal.main_arg1 (by decide))).trans (Cert.KernelIdeal.Hand.W23_main_arg1 m ρ c),
       (h c _ (Cert.KernelIdeal.Hand.mem_uc Cert.KernelIdeal.main_arg2 (by decide))).trans (Cert.KernelIdeal.Hand.W23_main_arg2 m ρ c),
       (h c _ (Cert.KernelIdeal.Hand.mem_uc Cert.KernelIdeal.main_arg3 (by decide))).trans (Cert.KernelIdeal.Hand.W23_main_arg3 m ρ c),
       (h c _ (Cert.KernelIdeal.Hand.mem_uc Cert.KernelIdeal.main_arg4 (by decide))).trans (Cert.KernelIdeal.Hand.W23_main_arg4 m ρ c),
       (h c _ (Cert.KernelIdeal.Hand.mem_uc Cert.KernelIdeal.main_arg5 (by decide))).trans (Cert.KernelIdeal.Hand.W23_main_arg5 m ρ c),
       (h c _ (Cert.KernelIdeal.Hand.mem_uc Cert.KernelIdeal.main_arg6 (by decide))).trans (Cert.KernelIdeal.Hand.W23_main_arg6 m ρ c),
       (h c _ (Cert.KernelIdeal.Hand.mem_uc Cert.KernelIdeal.main_arg7 (by decide))).trans (Cert.KernelIdeal.Hand.W23_main_arg7 m ρ c),
       (h c _ (Cert.KernelIdeal.Hand.mem_uc Cert.KernelIdeal.main_arg8 (by decide))).trans (Cert.KernelIdeal.Hand.W23_main_arg8 m ρ c),
       (h c _ (Cert.KernelIdeal.Hand.mem_uc Cert.KernelIdeal.main_arg9 (by decide))).trans (Cert.KernelIdeal.Hand.W23_main_arg9 m ρ c),
       (h c _ (Cert.KernelIdeal.Hand.mem_uc Cert.KernelIdeal.main_arg10 (by decide))).trans (Cert.KernelIdeal.Hand.W23_main_arg10 m ρ c),
       (h c _ (Cert.KernelIdeal.Hand.mem_uc Cert.KernelIdeal.main_arg11 (by decide))).trans (Cert.KernelIdeal.Hand.W23_main_arg11 m ρ c)⟩)
      (Cert.KernelIdeal.Hand.run_all m ρ)
  · exact (θ_run Cert.ReferenceIdeal.defs _ _).mono (fun r h c =>
      ⟨(h c Cert.ReferenceIdeal.main_v296).trans (Cert.Proof.Final.result_agree m ρ m' hpre hagree c),
       (h c Cert.ReferenceIdeal.main_arg0).trans (Cert.ReferenceIdeal.Hand.U6_main_arg0 m' c),
       (h c Cert.ReferenceIdeal.main_arg1).trans (Cert.ReferenceIdeal.Hand.U6_main_arg1 m' c),
       (h c Cert.ReferenceIdeal.main_arg2).trans (Cert.ReferenceIdeal.Hand.U6_main_arg2 m' c),
       (h c Cert.ReferenceIdeal.main_arg3).trans (Cert.ReferenceIdeal.Hand.U6_main_arg3 m' c),
       (h c Cert.ReferenceIdeal.main_arg4).trans (Cert.ReferenceIdeal.Hand.U6_main_arg4 m' c),
       (h c Cert.ReferenceIdeal.main_arg5).trans (Cert.ReferenceIdeal.Hand.U6_main_arg5 m' c),
       (h c Cert.ReferenceIdeal.main_arg6).trans (Cert.ReferenceIdeal.Hand.U6_main_arg6 m' c),
       (h c Cert.ReferenceIdeal.main_arg7).trans (Cert.ReferenceIdeal.Hand.U6_main_arg7 m' c),
       (h c Cert.ReferenceIdeal.main_arg8).trans (Cert.ReferenceIdeal.Hand.U6_main_arg8 m' c),
       (h c Cert.ReferenceIdeal.main_arg9).trans (Cert.ReferenceIdeal.Hand.U6_main_arg9 m' c),
       (h c Cert.ReferenceIdeal.main_arg10).trans (Cert.ReferenceIdeal.Hand.U6_main_arg10 m' c),
       (h c Cert.ReferenceIdeal.main_arg11).trans (Cert.ReferenceIdeal.Hand.U6_main_arg11 m' c)⟩)
      (Cert.ReferenceIdeal.Hand.run (F := Ideal) m' ρ')

/-! ## The claim -/

theorem claim : Cert.Claim :=
  ⟨Cert.Kernel.Gen.facts, Cert.KernelIdeal.Gen.facts, Cert.ReferenceIdeal.Gen.facts, Cert.Pre_finite_inputs.Gen.facts,
    frame_k,
    frame_ki,
    frame_ri,
    preserves,
    algebraic⟩

end Cert.Proof

end
